-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v445)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v445) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v489) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S2x200000 : Shape := ⟨2, ![2, 200000]⟩
abbrev S2x800000 : Shape := ⟨2, ![2, 800000]⟩
abbrev S3x6x32 : Shape := ⟨3, ![3, 6, 32]⟩
abbrev S3x32 : Shape := ⟨2, ![3, 32]⟩
abbrev S4x3x32x32 : Shape := ⟨4, ![4, 3, 32, 32]⟩
abbrev S4x3x32 : Shape := ⟨3, ![4, 3, 32]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S3x6x32 : S_.BroadcastsInDim S3x6x32 (![] : Fin 0 → Fin S3x6x32.rank)
  reducesTo_S3x6x32_S_d0_1_2 : S3x6x32.ReducesTo [0, 1, 2] S_
  bcast_S_S3x32 : S_.BroadcastsInDim S3x32 (![] : Fin 0 → Fin S3x32.rank)
  reducesTo_S3x32_S_d0_1 : S3x32.ReducesTo [0, 1] S_
  bcast_S_S4x3x32x32 : S_.BroadcastsInDim S4x3x32x32 (![] : Fin 0 → Fin S4x3x32x32.rank)
  reducesTo_S4x3x32x32_S_d0_1_2_3 : S4x3x32x32.ReducesTo [0, 1, 2, 3] S_
  bcast_S_S4x3x32 : S_.BroadcastsInDim S4x3x32 (![] : Fin 0 → Fin S4x3x32.rank)
  reducesTo_S4x3x32_S_d0_1_2 : S4x3x32.ReducesTo [0, 1, 2] S_

variable [Facts]

def fn_part1 {F : FTy → Type} [FloatOps F] (main_arg7 : FVec F S3x32 .f32) (main_arg8 : FVec F S4x3x32x32 .f32) (main_arg9 : FVec F S4x3x32 .f32) (main_v13 : IVec S_ 1) (main_v16 : IVec S3x6x32 1) : IVec S_ 1 :=
  let main_c_5 : IVec S_ 1 := constantI S_ 1 1#1
  let main_v17 : IVec S_ 1 := (fun x v => Host.reduce IntOp.andi x v reducesTo_S3x6x32_S_d0_1_2 h_S_) main_v16 main_c_5
  let main_v18 : IVec S_ 1 := andi main_v13 main_v17
  let main_v19 : FVec F S3x32 .f32 := Host.absf main_arg7
  let main_cst_6 : FVec F S_ .f32 := constant S_ .f32 0x7F800000#32
  let main_v20 : FVec F S3x32 .f32 := broadcastInDim S3x32 ![] bcast_S_S3x32 main_cst_6
  let main_v21 : IVec S3x32 1 := cmpf .olt main_v19 main_v20
  let main_c_7 : IVec S_ 1 := constantI S_ 1 1#1
  let main_v22 : IVec S_ 1 := (fun x v => Host.reduce IntOp.andi x v reducesTo_S3x32_S_d0_1 h_S_) main_v21 main_c_7
  let main_v23 : IVec S_ 1 := andi main_v18 main_v22
  let main_v24 : FVec F S4x3x32x32 .f32 := Host.absf main_arg8
  let main_cst_8 : FVec F S_ .f32 := constant S_ .f32 0x7F800000#32
  let main_v25 : FVec F S4x3x32x32 .f32 := broadcastInDim S4x3x32x32 ![] bcast_S_S4x3x32x32 main_cst_8
  let main_v26 : IVec S4x3x32x32 1 := cmpf .olt main_v24 main_v25
  let main_c_9 : IVec S_ 1 := constantI S_ 1 1#1
  let main_v27 : IVec S_ 1 := (fun x v => Host.reduce IntOp.andi x v reducesTo_S4x3x32x32_S_d0_1_2_3 h_S_) main_v26 main_c_9
  let main_v28 : IVec S_ 1 := andi main_v23 main_v27
  let main_v29 : FVec F S4x3x32 .f32 := Host.absf main_arg9
  let main_cst_10 : FVec F S_ .f32 := constant S_ .f32 0x7F800000#32
  let main_v30 : FVec F S4x3x32 .f32 := broadcastInDim S4x3x32 ![] bcast_S_S4x3x32 main_cst_10
  let main_v31 : IVec S4x3x32 1 := cmpf .olt main_v29 main_v30
  let main_c_11 : IVec S_ 1 := constantI S_ 1 1#1
  let main_v32 : IVec S_ 1 := (fun x v => Host.reduce IntOp.andi x v reducesTo_S4x3x32_S_d0_1_2 h_S_) main_v31 main_c_11
  let main_v33 : IVec S_ 1 := andi main_v28 main_v32
  main_v33

def fn {F : FTy → Type} [FloatOps F] (main_arg0 : FVec F S100000x6 .f32) (main_arg1 : IVec S2x1600000 32) (main_arg2 : IVec S2x200000 32) (main_arg3 : IVec S2x800000 32) (main_arg4 : FVec F S3x6x32 .f32) (main_arg5 : FVec F S3x32 .f32) (main_arg6 : FVec F S3x6x32 .f32) (main_arg7 : FVec F S3x32 .f32) (main_arg8 : FVec F S4x3x32x32 .f32) (main_arg9 : FVec F S4x3x32 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S3x6x32 .f32 := Host.absf main_arg4
  let main_cst_0 : FVec F S_ .f32 := constant S_ .f32 0x7F800000#32
  let main_v5 : FVec F S3x6x32 .f32 := broadcastInDim S3x6x32 ![] bcast_S_S3x6x32 main_cst_0
  let main_v6 : IVec S3x6x32 1 := cmpf .olt main_v4 main_v5
  let main_c_1 : IVec S_ 1 := constantI S_ 1 1#1
  let main_v7 : IVec S_ 1 := (fun x v => Host.reduce IntOp.andi x v reducesTo_S3x6x32_S_d0_1_2 h_S_) main_v6 main_c_1
  let main_v8 : IVec S_ 1 := andi main_v3 main_v7
  let main_v9 : FVec F S3x32 .f32 := Host.absf main_arg5
  let main_cst_2 : FVec F S_ .f32 := constant S_ .f32 0x7F800000#32
  let main_v10 : FVec F S3x32 .f32 := broadcastInDim S3x32 ![] bcast_S_S3x32 main_cst_2
  let main_v11 : IVec S3x32 1 := cmpf .olt main_v9 main_v10
  let main_c_3 : IVec S_ 1 := constantI S_ 1 1#1
  let main_v12 : IVec S_ 1 := (fun x v => Host.reduce IntOp.andi x v reducesTo_S3x32_S_d0_1 h_S_) main_v11 main_c_3
  let main_v13 : IVec S_ 1 := andi main_v8 main_v12
  let main_v14 : FVec F S3x6x32 .f32 := Host.absf main_arg6
  let main_cst_4 : FVec F S_ .f32 := constant S_ .f32 0x7F800000#32
  let main_v15 : FVec F S3x6x32 .f32 := broadcastInDim S3x6x32 ![] bcast_S_S3x6x32 main_cst_4
  let main_v16 : IVec S3x6x32 1 := cmpf .olt main_v14 main_v15
  fn_part1 (F := F) main_arg7 main_arg8 main_arg9 main_v13 main_v16
-- ==== Kernel.lean ====
abbrev S100000x6 : Shape := ⟨2, ![100000, 6]⟩
abbrev S2x1600000 : Shape := ⟨2, ![2, 1600000]⟩
abbrev S2x200000 : Shape := ⟨2, ![2, 200000]⟩
abbrev S2x800000 : Shape := ⟨2, ![2, 800000]⟩
abbrev S3x6x32 : Shape := ⟨3, ![3, 6, 32]⟩
abbrev S3x32 : Shape := ⟨2, ![3, 32]⟩
abbrev S4x3x32x32 : Shape := ⟨4, ![4, 3, 32, 32]⟩
abbrev S4x3x32 : Shape := ⟨3, ![4, 3, 32]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1x6x32 : Shape := ⟨3, ![1, 6, 32]⟩
abbrev S6x32 : Shape := ⟨2, ![6, 32]⟩
abbrev S1x32 : Shape := ⟨2, ![1, 32]⟩
abbrev S32 : Shape := ⟨1, ![32]⟩
abbrev S1605632x6 : Shape := ⟨2, ![1605632, 6]⟩
abbrev S1605632x32 : Shape := ⟨2, ![1605632, 32]⟩
abbrev S16384x6 : Shape := ⟨2, ![16384, 6]⟩
abbrev S16384x32 : Shape := ⟨2, ![16384, 32]⟩
abbrev S1600000x32 : Shape := ⟨2, ![1600000, 32]⟩
abbrev S100000x32 : Shape := ⟨2, ![100000, 32]⟩
abbrev S100000x1 : Shape := ⟨2, ![100000, 1]⟩
abbrev S1x200000 : Shape := ⟨2, ![1, 200000]⟩
abbrev S200000 : Shape := ⟨1, ![200000]⟩
abbrev S200000x1 : Shape := ⟨2, ![200000, 1]⟩
abbrev S200000x6 : Shape := ⟨2, ![200000, 6]⟩
abbrev S212992x6 : Shape := ⟨2, ![212992, 6]⟩
abbrev S212992x32 : Shape := ⟨2, ![212992, 32]⟩
abbrev S200000x32 : Shape := ⟨2, ![200000, 32]⟩
abbrev S1x800000 : Shape := ⟨2, ![1, 800000]⟩
abbrev S800000 : Shape := ⟨1, ![800000]⟩
abbrev S800000x1 : Shape := ⟨2, ![800000, 1]⟩
abbrev S800000x6 : Shape := ⟨2, ![800000, 6]⟩
abbrev S802816x6 : Shape := ⟨2, ![802816, 6]⟩
abbrev S802816x32 : Shape := ⟨2, ![802816, 32]⟩
abbrev S800000x32 : Shape := ⟨2, ![800000, 32]⟩
abbrev S114688x6 : Shape := ⟨2, ![114688, 6]⟩
abbrev S114688x32 : Shape := ⟨2, ![114688, 32]⟩
abbrev S106496x32 : Shape := ⟨2, ![106496, 32]⟩
abbrev S8192x32 : Shape := ⟨2, ![8192, 32]⟩
abbrev S1x1x32x32 : Shape := ⟨4, ![1, 1, 32, 32]⟩
abbrev S32x32 : Shape := ⟨2, ![32, 32]⟩
abbrev S1x1x32 : Shape := ⟨3, ![1, 1, 32]⟩

abbrev nBuf : Space → Nat
  | .hbm => 605
  | .vmem => 146
  | .smem => 0
  | _ => 0

abbrev hbmTy0_0 (i : Nat) : BufTy := match i % 128 with
  | 0 => ⟨S100000x6, .f32⟩
  | 1 => ⟨S2x1600000, .i32⟩
  | 2 => ⟨S2x200000, .i32⟩
  | 3 => ⟨S2x800000, .i32⟩
  | 4 => ⟨S3x6x32, .f32⟩
  | 5 => ⟨S3x32, .f32⟩
  | 6 => ⟨S3x6x32, .f32⟩
  | 7 => ⟨S3x32, .f32⟩
  | 8 => ⟨S4x3x32x32, .f32⟩
  | 9 => ⟨S4x3x32, .f32⟩
  | 10 => ⟨S1x1600000, .i32⟩
  | 11 => ⟨S1600000, .i32⟩
  | 12 => ⟨S1x1600000, .i32⟩
  | 13 => ⟨S1600000, .i32⟩
  | 14 => ⟨S_, .i32⟩
  | 15 => ⟨S1600000, .i32⟩
  | 16 => ⟨S1600000, .i1⟩
  | 17 => ⟨S_, .i32⟩
  | 18 => ⟨S1600000, .i32⟩
  | 19 => ⟨S1600000, .i32⟩
  | 20 => ⟨S1600000, .i32⟩
  | 21 => ⟨S1600000x1, .i32⟩
  | 22 => ⟨S1600000x6, .f32⟩
  | 23 => ⟨S1x6x32, .f32⟩
  | 24 => ⟨S6x32, .f32⟩
  | 25 => ⟨S1x32, .f32⟩
  | 26 => ⟨S32, .f32⟩
  | 27 => ⟨S_, .i32⟩
  | 28 => ⟨S_, .f32⟩
  | 29 => ⟨S1605632x6, .f32⟩
  | 30 => ⟨S1x32, .f32⟩
  | 31 => ⟨S1605632x32, .f32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S_, .f32⟩
  | 38 => ⟨S1600000x1, .f32⟩
  | 39 => ⟨S_, .f32⟩
  | 40 => ⟨S100000x1, .f32⟩
  | 41 => ⟨S1600000x1, .i32⟩
  | 42 => ⟨S100000x1, .f32⟩
  | 43 => ⟨S_, .f32⟩
  | 44 => ⟨S100000x1, .f32⟩
  | 45 => ⟨S100000x1, .f32⟩
  | 46 => ⟨S100000x32, .f32⟩
  | 47 => ⟨S100000x32, .f32⟩
  | 48 => ⟨S1x200000, .i32⟩
  | 49 => ⟨S200000, .i32⟩
  | 50 => ⟨S1x200000, .i32⟩
  | 51 => ⟨S200000, .i32⟩
  | 52 => ⟨S_, .i32⟩
  | 53 => ⟨S200000, .i32⟩
  | 54 => ⟨S200000, .i1⟩
  | 55 => ⟨S_, .i32⟩
  | 56 => ⟨S200000, .i32⟩
  | 57 => ⟨S200000, .i32⟩
  | 58 => ⟨S200000, .i32⟩
  | 59 => ⟨S200000x1, .i32⟩
  | 60 => ⟨S200000x6, .f32⟩
  | 61 => ⟨S1x6x32, .f32⟩
  | 62 => ⟨S6x32, .f32⟩
  | 63 => ⟨S1x32, .f32⟩
  | 64 => ⟨S32, .f32⟩
  | 65 => ⟨S_, .i32⟩
  | 66 => ⟨S_, .f32⟩
  | 67 => ⟨S212992x6, .f32⟩
  | 68 => ⟨S1x32, .f32⟩
  | 69 => ⟨S212992x32, .f32⟩
  | 70 => ⟨S200000x32, .f32⟩
  | 71 => ⟨S_, .f32⟩
  | 72 => ⟨S100000x32, .f32⟩
  | 73 => ⟨S200000x1, .i32⟩
  | 74 => ⟨S100000x32, .f32⟩
  | 75 => ⟨S1x800000, .i32⟩
  | 76 => ⟨S800000, .i32⟩
  | 77 => ⟨S1x800000, .i32⟩
  | 78 => ⟨S800000, .i32⟩
  | 79 => ⟨S_, .i32⟩
  | 80 => ⟨S800000, .i32⟩
  | 81 => ⟨S800000, .i1⟩
  | 82 => ⟨S_, .i32⟩
  | 83 => ⟨S800000, .i32⟩
  | 84 => ⟨S800000, .i32⟩
  | 85 => ⟨S800000, .i32⟩
  | 86 => ⟨S800000x1, .i32⟩
  | 87 => ⟨S800000x6, .f32⟩
  | 88 => ⟨S1x6x32, .f32⟩
  | 89 => ⟨S6x32, .f32⟩
  | 90 => ⟨S1x32, .f32⟩
  | 91 => ⟨S32, .f32⟩
  | 92 => ⟨S_, .i32⟩
  | 93 => ⟨S_, .f32⟩
  | 94 => ⟨S802816x6, .f32⟩
  | 95 => ⟨S1x32, .f32⟩
  | 96 => ⟨S802816x32, .f32⟩
  | 97 => ⟨S800000x32, .f32⟩
  | 98 => ⟨S_, .f32⟩
  | 99 => ⟨S100000x32, .f32⟩
  | 100 => ⟨S800000x1, .i32⟩
  | 101 => ⟨S100000x32, .f32⟩
  | 102 => ⟨S_, .f32⟩
  | 103 => ⟨S800000x1, .f32⟩
  | 104 => ⟨S_, .f32⟩
  | 105 => ⟨S100000x1, .f32⟩
  | 106 => ⟨S800000x1, .i32⟩
  | 107 => ⟨S100000x1, .f32⟩
  | 108 => ⟨S_, .f32⟩
  | 109 => ⟨S100000x1, .f32⟩
  | 110 => ⟨S100000x1, .f32⟩
  | 111 => ⟨S100000x32, .f32⟩
  | 112 => ⟨S100000x32, .f32⟩
  | 113 => ⟨S_, .f32⟩
  | 114 => ⟨S6x32, .f32⟩
  | 115 => ⟨S_, .f32⟩
  | 116 => ⟨S32, .f32⟩
  | 117 => ⟨S_, .i32⟩
  | 118 => ⟨S_, .f32⟩
  | 119 => ⟨S114688x6, .f32⟩
  | 120 => ⟨S1x32, .f32⟩
  | 121 => ⟨S114688x32, .f32⟩
  | 122 => ⟨S100000x32, .f32⟩
  | 123 => ⟨S_, .i32⟩
  | 124 => ⟨S_, .f32⟩
  | 125 => ⟨S106496x32, .f32⟩
  | 126 => ⟨S_, .i32⟩
  | 127 => ⟨S_, .f32⟩
  | _ => ⟨S100000x6, .f32⟩

abbrev hbmTy0_1 (i : Nat) : BufTy := match i % 128 with
  | 0 => ⟨S106496x32, .f32⟩
  | 1 => ⟨S_, .i32⟩
  | 2 => ⟨S_, .f32⟩
  | 3 => ⟨S106496x32, .f32⟩
  | 4 => ⟨S_, .i32⟩
  | 5 => ⟨S_, .f32⟩
  | 6 => ⟨S106496x32, .f32⟩
  | 7 => ⟨S106496x32, .f32⟩
  | 8 => ⟨S100000x32, .f32⟩
  | 9 => ⟨S1x1600000, .i32⟩
  | 10 => ⟨S1600000, .i32⟩
  | 11 => ⟨S1x1600000, .i32⟩
  | 12 => ⟨S1600000, .i32⟩
  | 13 => ⟨S_, .i32⟩
  | 14 => ⟨S1600000, .i32⟩
  | 15 => ⟨S1600000, .i1⟩
  | 16 => ⟨S_, .i32⟩
  | 17 => ⟨S1600000, .i32⟩
  | 18 => ⟨S1600000, .i32⟩
  | 19 => ⟨S1600000, .i32⟩
  | 20 => ⟨S1600000x1, .i32⟩
  | 21 => ⟨S1600000x32, .f32⟩
  | 22 => ⟨S1x1x32x32, .f32⟩
  | 23 => ⟨S32x32, .f32⟩
  | 24 => ⟨S1x1x32, .f32⟩
  | 25 => ⟨S32, .f32⟩
  | 26 => ⟨S_, .i32⟩
  | 27 => ⟨S_, .f32⟩
  | 28 => ⟨S1605632x32, .f32⟩
  | 29 => ⟨S1x32, .f32⟩
  | 30 => ⟨S1605632x32, .f32⟩
  | 31 => ⟨S1600000x32, .f32⟩
  | 32 => ⟨S_, .f32⟩
  | 33 => ⟨S100000x32, .f32⟩
  | 34 => ⟨S1600000x1, .i32⟩
  | 35 => ⟨S100000x32, .f32⟩
  | 36 => ⟨S_, .f32⟩
  | 37 => ⟨S1600000x1, .f32⟩
  | 38 => ⟨S_, .f32⟩
  | 39 => ⟨S100000x1, .f32⟩
  | 40 => ⟨S1600000x1, .i32⟩
  | 41 => ⟨S100000x1, .f32⟩
  | 42 => ⟨S_, .f32⟩
  | 43 => ⟨S100000x1, .f32⟩
  | 44 => ⟨S100000x1, .f32⟩
  | 45 => ⟨S100000x32, .f32⟩
  | 46 => ⟨S100000x32, .f32⟩
  | 47 => ⟨S1x200000, .i32⟩
  | 48 => ⟨S200000, .i32⟩
  | 49 => ⟨S1x200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x32, .f32⟩
  | 60 => ⟨S1x1x32x32, .f32⟩
  | 61 => ⟨S32x32, .f32⟩
  | 62 => ⟨S1x1x32, .f32⟩
  | 63 => ⟨S32, .f32⟩
  | 64 => ⟨S_, .i32⟩
  | 65 => ⟨S_, .f32⟩
  | 66 => ⟨S212992x32, .f32⟩
  | 67 => ⟨S1x32, .f32⟩
  | 68 => ⟨S212992x32, .f32⟩
  | 69 => ⟨S200000x32, .f32⟩
  | 70 => ⟨S_, .f32⟩
  | 71 => ⟨S100000x32, .f32⟩
  | 72 => ⟨S200000x1, .i32⟩
  | 73 => ⟨S100000x32, .f32⟩
  | 74 => ⟨S1x800000, .i32⟩
  | 75 => ⟨S800000, .i32⟩
  | 76 => ⟨S1x800000, .i32⟩
  | 77 => ⟨S800000, .i32⟩
  | 78 => ⟨S_, .i32⟩
  | 79 => ⟨S800000, .i32⟩
  | 80 => ⟨S800000, .i1⟩
  | 81 => ⟨S_, .i32⟩
  | 82 => ⟨S800000, .i32⟩
  | 83 => ⟨S800000, .i32⟩
  | 84 => ⟨S800000, .i32⟩
  | 85 => ⟨S800000x1, .i32⟩
  | 86 => ⟨S800000x32, .f32⟩
  | 87 => ⟨S1x1x32x32, .f32⟩
  | 88 => ⟨S32x32, .f32⟩
  | 89 => ⟨S1x1x32, .f32⟩
  | 90 => ⟨S32, .f32⟩
  | 91 => ⟨S_, .i32⟩
  | 92 => ⟨S_, .f32⟩
  | 93 => ⟨S802816x32, .f32⟩
  | 94 => ⟨S1x32, .f32⟩
  | 95 => ⟨S802816x32, .f32⟩
  | 96 => ⟨S800000x32, .f32⟩
  | 97 => ⟨S_, .f32⟩
  | 98 => ⟨S100000x32, .f32⟩
  | 99 => ⟨S800000x1, .i32⟩
  | 100 => ⟨S100000x32, .f32⟩
  | 101 => ⟨S_, .f32⟩
  | 102 => ⟨S800000x1, .f32⟩
  | 103 => ⟨S_, .f32⟩
  | 104 => ⟨S100000x1, .f32⟩
  | 105 => ⟨S800000x1, .i32⟩
  | 106 => ⟨S100000x1, .f32⟩
  | 107 => ⟨S_, .f32⟩
  | 108 => ⟨S100000x1, .f32⟩
  | 109 => ⟨S100000x1, .f32⟩
  | 110 => ⟨S100000x32, .f32⟩
  | 111 => ⟨S100000x32, .f32⟩
  | 112 => ⟨S_, .i32⟩
  | 113 => ⟨S_, .f32⟩
  | 114 => ⟨S106496x32, .f32⟩
  | 115 => ⟨S_, .i32⟩
  | 116 => ⟨S_, .f32⟩
  | 117 => ⟨S106496x32, .f32⟩
  | 118 => ⟨S_, .i32⟩
  | 119 => ⟨S_, .f32⟩
  | 120 => ⟨S106496x32, .f32⟩
  | 121 => ⟨S_, .i32⟩
  | 122 => ⟨S_, .f32⟩
  | 123 => ⟨S106496x32, .f32⟩
  | 124 => ⟨S106496x32, .f32⟩
  | 125 => ⟨S100000x32, .f32⟩
  | 126 => ⟨S1x1600000, .i32⟩
  | 127 => ⟨S1600000, .i32⟩
  | _ => ⟨S100000x6, .f32⟩

abbrev hbmTy0_2 (i : Nat) : BufTy := match i % 128 with
  | 0 => ⟨S1x1600000, .i32⟩
  | 1 => ⟨S1600000, .i32⟩
  | 2 => ⟨S_, .i32⟩
  | 3 => ⟨S1600000, .i32⟩
  | 4 => ⟨S1600000, .i1⟩
  | 5 => ⟨S_, .i32⟩
  | 6 => ⟨S1600000, .i32⟩
  | 7 => ⟨S1600000, .i32⟩
  | 8 => ⟨S1600000, .i32⟩
  | 9 => ⟨S1600000x1, .i32⟩
  | 10 => ⟨S1600000x32, .f32⟩
  | 11 => ⟨S1x1x32x32, .f32⟩
  | 12 => ⟨S32x32, .f32⟩
  | 13 => ⟨S1x1x32, .f32⟩
  | 14 => ⟨S32, .f32⟩
  | 15 => ⟨S_, .i32⟩
  | 16 => ⟨S_, .f32⟩
  | 17 => ⟨S1605632x32, .f32⟩
  | 18 => ⟨S1x32, .f32⟩
  | 19 => ⟨S1605632x32, .f32⟩
  | 20 => ⟨S1600000x32, .f32⟩
  | 21 => ⟨S_, .f32⟩
  | 22 => ⟨S100000x32, .f32⟩
  | 23 => ⟨S1600000x1, .i32⟩
  | 24 => ⟨S100000x32, .f32⟩
  | 25 => ⟨S_, .f32⟩
  | 26 => ⟨S1600000x1, .f32⟩
  | 27 => ⟨S_, .f32⟩
  | 28 => ⟨S100000x1, .f32⟩
  | 29 => ⟨S1600000x1, .i32⟩
  | 30 => ⟨S100000x1, .f32⟩
  | 31 => ⟨S_, .f32⟩
  | 32 => ⟨S100000x1, .f32⟩
  | 33 => ⟨S100000x1, .f32⟩
  | 34 => ⟨S100000x32, .f32⟩
  | 35 => ⟨S100000x32, .f32⟩
  | 36 => ⟨S1x200000, .i32⟩
  | 37 => ⟨S200000, .i32⟩
  | 38 => ⟨S1x200000, .i32⟩
  | 39 => ⟨S200000, .i32⟩
  | 40 => ⟨S_, .i32⟩
  | 41 => ⟨S200000, .i32⟩
  | 42 => ⟨S200000, .i1⟩
  | 43 => ⟨S_, .i32⟩
  | 44 => ⟨S200000, .i32⟩
  | 45 => ⟨S200000, .i32⟩
  | 46 => ⟨S200000, .i32⟩
  | 47 => ⟨S200000x1, .i32⟩
  | 48 => ⟨S200000x32, .f32⟩
  | 49 => ⟨S1x1x32x32, .f32⟩
  | 50 => ⟨S32x32, .f32⟩
  | 51 => ⟨S1x1x32, .f32⟩
  | 52 => ⟨S32, .f32⟩
  | 53 => ⟨S_, .i32⟩
  | 54 => ⟨S_, .f32⟩
  | 55 => ⟨S212992x32, .f32⟩
  | 56 => ⟨S1x32, .f32⟩
  | 57 => ⟨S212992x32, .f32⟩
  | 58 => ⟨S200000x32, .f32⟩
  | 59 => ⟨S_, .f32⟩
  | 60 => ⟨S100000x32, .f32⟩
  | 61 => ⟨S200000x1, .i32⟩
  | 62 => ⟨S100000x32, .f32⟩
  | 63 => ⟨S1x800000, .i32⟩
  | 64 => ⟨S800000, .i32⟩
  | 65 => ⟨S1x800000, .i32⟩
  | 66 => ⟨S800000, .i32⟩
  | 67 => ⟨S_, .i32⟩
  | 68 => ⟨S800000, .i32⟩
  | 69 => ⟨S800000, .i1⟩
  | 70 => ⟨S_, .i32⟩
  | 71 => ⟨S800000, .i32⟩
  | 72 => ⟨S800000, .i32⟩
  | 73 => ⟨S800000, .i32⟩
  | 74 => ⟨S800000x1, .i32⟩
  | 75 => ⟨S800000x32, .f32⟩
  | 76 => ⟨S1x1x32x32, .f32⟩
  | 77 => ⟨S32x32, .f32⟩
  | 78 => ⟨S1x1x32, .f32⟩
  | 79 => ⟨S32, .f32⟩
  | 80 => ⟨S_, .i32⟩
  | 81 => ⟨S_, .f32⟩
  | 82 => ⟨S802816x32, .f32⟩
  | 83 => ⟨S1x32, .f32⟩
  | 84 => ⟨S802816x32, .f32⟩
  | 85 => ⟨S800000x32, .f32⟩
  | 86 => ⟨S_, .f32⟩
  | 87 => ⟨S100000x32, .f32⟩
  | 88 => ⟨S800000x1, .i32⟩
  | 89 => ⟨S100000x32, .f32⟩
  | 90 => ⟨S_, .f32⟩
  | 91 => ⟨S800000x1, .f32⟩
  | 92 => ⟨S_, .f32⟩
  | 93 => ⟨S100000x1, .f32⟩
  | 94 => ⟨S800000x1, .i32⟩
  | 95 => ⟨S100000x1, .f32⟩
  | 96 => ⟨S_, .f32⟩
  | 97 => ⟨S100000x1, .f32⟩
  | 98 => ⟨S100000x1, .f32⟩
  | 99 => ⟨S100000x32, .f32⟩
  | 100 => ⟨S100000x32, .f32⟩
  | 101 => ⟨S_, .i32⟩
  | 102 => ⟨S_, .f32⟩
  | 103 => ⟨S106496x32, .f32⟩
  | 104 => ⟨S_, .i32⟩
  | 105 => ⟨S_, .f32⟩
  | 106 => ⟨S106496x32, .f32⟩
  | 107 => ⟨S_, .i32⟩
  | 108 => ⟨S_, .f32⟩
  | 109 => ⟨S106496x32, .f32⟩
  | 110 => ⟨S_, .i32⟩
  | 111 => ⟨S_, .f32⟩
  | 112 => ⟨S106496x32, .f32⟩
  | 113 => ⟨S106496x32, .f32⟩
  | 114 => ⟨S100000x32, .f32⟩
  | 115 => ⟨S1x1600000, .i32⟩
  | 116 => ⟨S1600000, .i32⟩
  | 117 => ⟨S1x1600000, .i32⟩
  | 118 => ⟨S1600000, .i32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S100000x6, .f32⟩

abbrev hbmTy0_3 (i : Nat) : BufTy := match i % 128 with
  | 0 => ⟨S1x1x32x32, .f32⟩
  | 1 => ⟨S32x32, .f32⟩
  | 2 => ⟨S1x1x32, .f32⟩
  | 3 => ⟨S32, .f32⟩
  | 4 => ⟨S_, .i32⟩
  | 5 => ⟨S_, .f32⟩
  | 6 => ⟨S1605632x32, .f32⟩
  | 7 => ⟨S1x32, .f32⟩
  | 8 => ⟨S1605632x32, .f32⟩
  | 9 => ⟨S1600000x32, .f32⟩
  | 10 => ⟨S_, .f32⟩
  | 11 => ⟨S100000x32, .f32⟩
  | 12 => ⟨S1600000x1, .i32⟩
  | 13 => ⟨S100000x32, .f32⟩
  | 14 => ⟨S_, .f32⟩
  | 15 => ⟨S1600000x1, .f32⟩
  | 16 => ⟨S_, .f32⟩
  | 17 => ⟨S100000x1, .f32⟩
  | 18 => ⟨S1600000x1, .i32⟩
  | 19 => ⟨S100000x1, .f32⟩
  | 20 => ⟨S_, .f32⟩
  | 21 => ⟨S100000x1, .f32⟩
  | 22 => ⟨S100000x1, .f32⟩
  | 23 => ⟨S100000x32, .f32⟩
  | 24 => ⟨S100000x32, .f32⟩
  | 25 => ⟨S1x200000, .i32⟩
  | 26 => ⟨S200000, .i32⟩
  | 27 => ⟨S1x200000, .i32⟩
  | 28 => ⟨S200000, .i32⟩
  | 29 => ⟨S_, .i32⟩
  | 30 => ⟨S200000, .i32⟩
  | 31 => ⟨S200000, .i1⟩
  | 32 => ⟨S_, .i32⟩
  | 33 => ⟨S200000, .i32⟩
  | 34 => ⟨S200000, .i32⟩
  | 35 => ⟨S200000, .i32⟩
  | 36 => ⟨S200000x1, .i32⟩
  | 37 => ⟨S200000x32, .f32⟩
  | 38 => ⟨S1x1x32x32, .f32⟩
  | 39 => ⟨S32x32, .f32⟩
  | 40 => ⟨S1x1x32, .f32⟩
  | 41 => ⟨S32, .f32⟩
  | 42 => ⟨S_, .i32⟩
  | 43 => ⟨S_, .f32⟩
  | 44 => ⟨S212992x32, .f32⟩
  | 45 => ⟨S1x32, .f32⟩
  | 46 => ⟨S212992x32, .f32⟩
  | 47 => ⟨S200000x32, .f32⟩
  | 48 => ⟨S_, .f32⟩
  | 49 => ⟨S100000x32, .f32⟩
  | 50 => ⟨S200000x1, .i32⟩
  | 51 => ⟨S100000x32, .f32⟩
  | 52 => ⟨S1x800000, .i32⟩
  | 53 => ⟨S800000, .i32⟩
  | 54 => ⟨S1x800000, .i32⟩
  | 55 => ⟨S800000, .i32⟩
  | 56 => ⟨S_, .i32⟩
  | 57 => ⟨S800000, .i32⟩
  | 58 => ⟨S800000, .i1⟩
  | 59 => ⟨S_, .i32⟩
  | 60 => ⟨S800000, .i32⟩
  | 61 => ⟨S800000, .i32⟩
  | 62 => ⟨S800000, .i32⟩
  | 63 => ⟨S800000x1, .i32⟩
  | 64 => ⟨S800000x32, .f32⟩
  | 65 => ⟨S1x1x32x32, .f32⟩
  | 66 => ⟨S32x32, .f32⟩
  | 67 => ⟨S1x1x32, .f32⟩
  | 68 => ⟨S32, .f32⟩
  | 69 => ⟨S_, .i32⟩
  | 70 => ⟨S_, .f32⟩
  | 71 => ⟨S802816x32, .f32⟩
  | 72 => ⟨S1x32, .f32⟩
  | 73 => ⟨S802816x32, .f32⟩
  | 74 => ⟨S800000x32, .f32⟩
  | 75 => ⟨S_, .f32⟩
  | 76 => ⟨S100000x32, .f32⟩
  | 77 => ⟨S800000x1, .i32⟩
  | 78 => ⟨S100000x32, .f32⟩
  | 79 => ⟨S_, .f32⟩
  | 80 => ⟨S800000x1, .f32⟩
  | 81 => ⟨S_, .f32⟩
  | 82 => ⟨S100000x1, .f32⟩
  | 83 => ⟨S800000x1, .i32⟩
  | 84 => ⟨S100000x1, .f32⟩
  | 85 => ⟨S_, .f32⟩
  | 86 => ⟨S100000x1, .f32⟩
  | 87 => ⟨S100000x1, .f32⟩
  | 88 => ⟨S100000x32, .f32⟩
  | 89 => ⟨S100000x32, .f32⟩
  | 90 => ⟨S_, .i32⟩
  | 91 => ⟨S_, .f32⟩
  | 92 => ⟨S106496x32, .f32⟩
  | 93 => ⟨S_, .i32⟩
  | 94 => ⟨S_, .f32⟩
  | 95 => ⟨S106496x32, .f32⟩
  | 96 => ⟨S_, .i32⟩
  | 97 => ⟨S_, .f32⟩
  | 98 => ⟨S106496x32, .f32⟩
  | 99 => ⟨S_, .i32⟩
  | 100 => ⟨S_, .f32⟩
  | 101 => ⟨S106496x32, .f32⟩
  | 102 => ⟨S106496x32, .f32⟩
  | 103 => ⟨S100000x32, .f32⟩
  | 104 => ⟨S1x1600000, .i32⟩
  | 105 => ⟨S1600000, .i32⟩
  | 106 => ⟨S1x1600000, .i32⟩
  | 107 => ⟨S1600000, .i32⟩
  | 108 => ⟨S_, .i32⟩
  | 109 => ⟨S1600000, .i32⟩
  | 110 => ⟨S1600000, .i1⟩
  | 111 => ⟨S_, .i32⟩
  | 112 => ⟨S1600000, .i32⟩
  | 113 => ⟨S1600000, .i32⟩
  | 114 => ⟨S1600000, .i32⟩
  | 115 => ⟨S1600000x1, .i32⟩
  | 116 => ⟨S1600000x32, .f32⟩
  | 117 => ⟨S1x1x32x32, .f32⟩
  | 118 => ⟨S32x32, .f32⟩
  | 119 => ⟨S1x1x32, .f32⟩
  | 120 => ⟨S32, .f32⟩
  | 121 => ⟨S_, .i32⟩
  | 122 => ⟨S_, .f32⟩
  | 123 => ⟨S1605632x32, .f32⟩
  | 124 => ⟨S1x32, .f32⟩
  | 125 => ⟨S1605632x32, .f32⟩
  | 126 => ⟨S1600000x32, .f32⟩
  | 127 => ⟨S_, .f32⟩
  | _ => ⟨S100000x6, .f32⟩

abbrev hbmTy0_4 (i : Nat) : BufTy := match i % 128 with
  | 0 => ⟨S100000x32, .f32⟩
  | 1 => ⟨S1600000x1, .i32⟩
  | 2 => ⟨S100000x32, .f32⟩
  | 3 => ⟨S_, .f32⟩
  | 4 => ⟨S1600000x1, .f32⟩
  | 5 => ⟨S_, .f32⟩
  | 6 => ⟨S100000x1, .f32⟩
  | 7 => ⟨S1600000x1, .i32⟩
  | 8 => ⟨S100000x1, .f32⟩
  | 9 => ⟨S_, .f32⟩
  | 10 => ⟨S100000x1, .f32⟩
  | 11 => ⟨S100000x1, .f32⟩
  | 12 => ⟨S100000x32, .f32⟩
  | 13 => ⟨S100000x32, .f32⟩
  | 14 => ⟨S1x200000, .i32⟩
  | 15 => ⟨S200000, .i32⟩
  | 16 => ⟨S1x200000, .i32⟩
  | 17 => ⟨S200000, .i32⟩
  | 18 => ⟨S_, .i32⟩
  | 19 => ⟨S200000, .i32⟩
  | 20 => ⟨S200000, .i1⟩
  | 21 => ⟨S_, .i32⟩
  | 22 => ⟨S200000, .i32⟩
  | 23 => ⟨S200000, .i32⟩
  | 24 => ⟨S200000, .i32⟩
  | 25 => ⟨S200000x1, .i32⟩
  | 26 => ⟨S200000x32, .f32⟩
  | 27 => ⟨S1x1x32x32, .f32⟩
  | 28 => ⟨S32x32, .f32⟩
  | 29 => ⟨S1x1x32, .f32⟩
  | 30 => ⟨S32, .f32⟩
  | 31 => ⟨S_, .i32⟩
  | 32 => ⟨S_, .f32⟩
  | 33 => ⟨S212992x32, .f32⟩
  | 34 => ⟨S1x32, .f32⟩
  | 35 => ⟨S212992x32, .f32⟩
  | 36 => ⟨S200000x32, .f32⟩
  | 37 => ⟨S_, .f32⟩
  | 38 => ⟨S100000x32, .f32⟩
  | 39 => ⟨S200000x1, .i32⟩
  | 40 => ⟨S100000x32, .f32⟩
  | 41 => ⟨S1x800000, .i32⟩
  | 42 => ⟨S800000, .i32⟩
  | 43 => ⟨S1x800000, .i32⟩
  | 44 => ⟨S800000, .i32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x32, .f32⟩
  | 54 => ⟨S1x1x32x32, .f32⟩
  | 55 => ⟨S32x32, .f32⟩
  | 56 => ⟨S1x1x32, .f32⟩
  | 57 => ⟨S32, .f32⟩
  | 58 => ⟨S_, .i32⟩
  | 59 => ⟨S_, .f32⟩
  | 60 => ⟨S802816x32, .f32⟩
  | 61 => ⟨S1x32, .f32⟩
  | 62 => ⟨S802816x32, .f32⟩
  | 63 => ⟨S800000x32, .f32⟩
  | 64 => ⟨S_, .f32⟩
  | 65 => ⟨S100000x32, .f32⟩
  | 66 => ⟨S800000x1, .i32⟩
  | 67 => ⟨S100000x32, .f32⟩
  | 68 => ⟨S_, .f32⟩
  | 69 => ⟨S800000x1, .f32⟩
  | 70 => ⟨S_, .f32⟩
  | 71 => ⟨S100000x1, .f32⟩
  | 72 => ⟨S800000x1, .i32⟩
  | 73 => ⟨S100000x1, .f32⟩
  | 74 => ⟨S_, .f32⟩
  | 75 => ⟨S100000x1, .f32⟩
  | 76 => ⟨S100000x1, .f32⟩
  | 77 => ⟨S100000x32, .f32⟩
  | 78 => ⟨S100000x32, .f32⟩
  | 79 => ⟨S_, .i32⟩
  | 80 => ⟨S_, .f32⟩
  | 81 => ⟨S106496x32, .f32⟩
  | 82 => ⟨S_, .i32⟩
  | 83 => ⟨S_, .f32⟩
  | 84 => ⟨S106496x32, .f32⟩
  | 85 => ⟨S_, .i32⟩
  | 86 => ⟨S_, .f32⟩
  | 87 => ⟨S106496x32, .f32⟩
  | 88 => ⟨S_, .i32⟩
  | 89 => ⟨S_, .f32⟩
  | 90 => ⟨S106496x32, .f32⟩
  | 91 => ⟨S106496x32, .f32⟩
  | 92 => ⟨S100000x32, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x6, .f32⟩

abbrev vmemTy0_0 (i : Nat) : BufTy := match i % 128 with
  | 0 => ⟨S16384x6, .f32⟩
  | 1 => ⟨S16384x6, .f32⟩
  | 2 => ⟨S6x32, .f32⟩
  | 3 => ⟨S1x32, .f32⟩
  | 4 => ⟨S16384x32, .f32⟩
  | 5 => ⟨S16384x32, .f32⟩
  | 6 => ⟨S16384x6, .f32⟩
  | 7 => ⟨S16384x6, .f32⟩
  | 8 => ⟨S6x32, .f32⟩
  | 9 => ⟨S1x32, .f32⟩
  | 10 => ⟨S16384x32, .f32⟩
  | 11 => ⟨S16384x32, .f32⟩
  | 12 => ⟨S16384x6, .f32⟩
  | 13 => ⟨S16384x6, .f32⟩
  | 14 => ⟨S6x32, .f32⟩
  | 15 => ⟨S1x32, .f32⟩
  | 16 => ⟨S16384x32, .f32⟩
  | 17 => ⟨S16384x32, .f32⟩
  | 18 => ⟨S16384x6, .f32⟩
  | 19 => ⟨S16384x6, .f32⟩
  | 20 => ⟨S6x32, .f32⟩
  | 21 => ⟨S1x32, .f32⟩
  | 22 => ⟨S16384x32, .f32⟩
  | 23 => ⟨S16384x32, .f32⟩
  | 24 => ⟨S8192x32, .f32⟩
  | 25 => ⟨S8192x32, .f32⟩
  | 26 => ⟨S8192x32, .f32⟩
  | 27 => ⟨S8192x32, .f32⟩
  | 28 => ⟨S8192x32, .f32⟩
  | 29 => ⟨S8192x32, .f32⟩
  | 30 => ⟨S8192x32, .f32⟩
  | 31 => ⟨S8192x32, .f32⟩
  | 32 => ⟨S8192x32, .f32⟩
  | 33 => ⟨S8192x32, .f32⟩
  | 34 => ⟨S16384x32, .f32⟩
  | 35 => ⟨S16384x32, .f32⟩
  | 36 => ⟨S32x32, .f32⟩
  | 37 => ⟨S1x32, .f32⟩
  | 38 => ⟨S16384x32, .f32⟩
  | 39 => ⟨S16384x32, .f32⟩
  | 40 => ⟨S16384x32, .f32⟩
  | 41 => ⟨S16384x32, .f32⟩
  | 42 => ⟨S32x32, .f32⟩
  | 43 => ⟨S1x32, .f32⟩
  | 44 => ⟨S16384x32, .f32⟩
  | 45 => ⟨S16384x32, .f32⟩
  | 46 => ⟨S16384x32, .f32⟩
  | 47 => ⟨S16384x32, .f32⟩
  | 48 => ⟨S32x32, .f32⟩
  | 49 => ⟨S1x32, .f32⟩
  | 50 => ⟨S16384x32, .f32⟩
  | 51 => ⟨S16384x32, .f32⟩
  | 52 => ⟨S8192x32, .f32⟩
  | 53 => ⟨S8192x32, .f32⟩
  | 54 => ⟨S8192x32, .f32⟩
  | 55 => ⟨S8192x32, .f32⟩
  | 56 => ⟨S8192x32, .f32⟩
  | 57 => ⟨S8192x32, .f32⟩
  | 58 => ⟨S8192x32, .f32⟩
  | 59 => ⟨S8192x32, .f32⟩
  | 60 => ⟨S8192x32, .f32⟩
  | 61 => ⟨S8192x32, .f32⟩
  | 62 => ⟨S16384x32, .f32⟩
  | 63 => ⟨S16384x32, .f32⟩
  | 64 => ⟨S32x32, .f32⟩
  | 65 => ⟨S1x32, .f32⟩
  | 66 => ⟨S16384x32, .f32⟩
  | 67 => ⟨S16384x32, .f32⟩
  | 68 => ⟨S16384x32, .f32⟩
  | 69 => ⟨S16384x32, .f32⟩
  | 70 => ⟨S32x32, .f32⟩
  | 71 => ⟨S1x32, .f32⟩
  | 72 => ⟨S16384x32, .f32⟩
  | 73 => ⟨S16384x32, .f32⟩
  | 74 => ⟨S16384x32, .f32⟩
  | 75 => ⟨S16384x32, .f32⟩
  | 76 => ⟨S32x32, .f32⟩
  | 77 => ⟨S1x32, .f32⟩
  | 78 => ⟨S16384x32, .f32⟩
  | 79 => ⟨S16384x32, .f32⟩
  | 80 => ⟨S8192x32, .f32⟩
  | 81 => ⟨S8192x32, .f32⟩
  | 82 => ⟨S8192x32, .f32⟩
  | 83 => ⟨S8192x32, .f32⟩
  | 84 => ⟨S8192x32, .f32⟩
  | 85 => ⟨S8192x32, .f32⟩
  | 86 => ⟨S8192x32, .f32⟩
  | 87 => ⟨S8192x32, .f32⟩
  | 88 => ⟨S8192x32, .f32⟩
  | 89 => ⟨S8192x32, .f32⟩
  | 90 => ⟨S16384x32, .f32⟩
  | 91 => ⟨S16384x32, .f32⟩
  | 92 => ⟨S32x32, .f32⟩
  | 93 => ⟨S1x32, .f32⟩
  | 94 => ⟨S16384x32, .f32⟩
  | 95 => ⟨S16384x32, .f32⟩
  | 96 => ⟨S16384x32, .f32⟩
  | 97 => ⟨S16384x32, .f32⟩
  | 98 => ⟨S32x32, .f32⟩
  | 99 => ⟨S1x32, .f32⟩
  | 100 => ⟨S16384x32, .f32⟩
  | 101 => ⟨S16384x32, .f32⟩
  | 102 => ⟨S16384x32, .f32⟩
  | 103 => ⟨S16384x32, .f32⟩
  | 104 => ⟨S32x32, .f32⟩
  | 105 => ⟨S1x32, .f32⟩
  | 106 => ⟨S16384x32, .f32⟩
  | 107 => ⟨S16384x32, .f32⟩
  | 108 => ⟨S8192x32, .f32⟩
  | 109 => ⟨S8192x32, .f32⟩
  | 110 => ⟨S8192x32, .f32⟩
  | 111 => ⟨S8192x32, .f32⟩
  | 112 => ⟨S8192x32, .f32⟩
  | 113 => ⟨S8192x32, .f32⟩
  | 114 => ⟨S8192x32, .f32⟩
  | 115 => ⟨S8192x32, .f32⟩
  | 116 => ⟨S8192x32, .f32⟩
  | 117 => ⟨S8192x32, .f32⟩
  | 118 => ⟨S16384x32, .f32⟩
  | 119 => ⟨S16384x32, .f32⟩
  | 120 => ⟨S32x32, .f32⟩
  | 121 => ⟨S1x32, .f32⟩
  | 122 => ⟨S16384x32, .f32⟩
  | 123 => ⟨S16384x32, .f32⟩
  | 124 => ⟨S16384x32, .f32⟩
  | 125 => ⟨S16384x32, .f32⟩
  | 126 => ⟨S32x32, .f32⟩
  | 127 => ⟨S1x32, .f32⟩
  | _ => ⟨S100000x6, .f32⟩

abbrev vmemTy0_1 (i : Nat) : BufTy := match i % 128 with
  | 0 => ⟨S16384x32, .f32⟩
  | 1 => ⟨S16384x32, .f32⟩
  | 2 => ⟨S16384x32, .f32⟩
  | 3 => ⟨S16384x32, .f32⟩
  | 4 => ⟨S32x32, .f32⟩
  | 5 => ⟨S1x32, .f32⟩
  | 6 => ⟨S16384x32, .f32⟩
  | 7 => ⟨S16384x32, .f32⟩
  | 8 => ⟨S8192x32, .f32⟩
  | 9 => ⟨S8192x32, .f32⟩
  | 10 => ⟨S8192x32, .f32⟩
  | 11 => ⟨S8192x32, .f32⟩
  | 12 => ⟨S8192x32, .f32⟩
  | 13 => ⟨S8192x32, .f32⟩
  | 14 => ⟨S8192x32, .f32⟩
  | 15 => ⟨S8192x32, .f32⟩
  | 16 => ⟨S8192x32, .f32⟩
  | 17 => ⟨S8192x32, .f32⟩
  | _ => ⟨S100000x6, .f32⟩

abbrev vmemTy (i : Nat) : BufTy := match i / 128 with
  | 0 => vmemTy0_0 i
  | 1 => vmemTy0_1 i
  | _ => ⟨S100000x6, .f32⟩

abbrev bufTy : (tb : Table) → Fin (tcTables nBuf tb) → BufTy
  | .hbm, ⟨i, _⟩ => hbmTy i
  | .local _ .vmem, ⟨i, _⟩ => vmemTy i
  | _, _ => ⟨S100000x6, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 146 → Bool
  | ⟨i, _⟩ => dmaSemScopedAt i

abbrev sig : RefSig :=
  ofTc nBuf bufTy 0 146 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_c : Ref sig .tc := ⟨.hbm, 14, rfl⟩
abbrev main_v4 : Ref sig .tc := ⟨.hbm, 15, rfl⟩
abbrev main_v5 : Ref sig .tc := ⟨.hbm, 16, rfl⟩
abbrev main_c_0 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_1 : Ref sig .tc := ⟨.hbm, 27, rfl⟩
abbrev main_call0_v0 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_cst_2 : Ref sig .tc := ⟨.hbm, 37, rfl⟩
abbrev main_v22 : Ref sig .tc := ⟨.hbm, 38, rfl⟩
abbrev main_cst_3 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_cst_4 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_c_5 : Ref sig .tc := ⟨.hbm, 52, rfl⟩
abbrev main_v34 : Ref sig .tc := ⟨.hbm, 53, rfl⟩
abbrev main_v35 : Ref sig .tc := ⟨.hbm, 54, rfl⟩
abbrev main_c_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_c_7 : Ref sig .tc := ⟨.hbm, 65, rfl⟩
abbrev main_call1_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_cst_8 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_c_9 : Ref sig .tc := ⟨.hbm, 79, rfl⟩
abbrev main_v56 : Ref sig .tc := ⟨.hbm, 80, rfl⟩
abbrev main_v57 : Ref sig .tc := ⟨.hbm, 81, rfl⟩
abbrev main_c_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_c_11 : Ref sig .tc := ⟨.hbm, 92, rfl⟩
abbrev main_call2_v0 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_cst_13 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_15 : Ref sig .tc := ⟨.hbm, 108, rfl⟩
abbrev main_v78 : Ref sig .tc := ⟨.hbm, 109, rfl⟩
abbrev main_v79 : Ref sig .tc := ⟨.hbm, 110, rfl⟩
abbrev main_v80 : Ref sig .tc := ⟨.hbm, 111, rfl⟩
abbrev main_v81 : Ref sig .tc := ⟨.hbm, 112, rfl⟩
abbrev main_cst_16 : Ref sig .tc := ⟨.hbm, 113, rfl⟩
abbrev main_v82 : Ref sig .tc := ⟨.hbm, 114, rfl⟩
abbrev main_cst_17 : Ref sig .tc := ⟨.hbm, 115, rfl⟩
abbrev main_v83 : Ref sig .tc := ⟨.hbm, 116, rfl⟩
abbrev main_c_18 : Ref sig .tc := ⟨.hbm, 117, rfl⟩
abbrev main_call3_v0 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_19 : Ref sig .tc := ⟨.hbm, 123, rfl⟩
abbrev main_call4_v0 : Ref sig .tc := ⟨.hbm, 124, rfl⟩
abbrev main_v88 : Ref sig .tc := ⟨.hbm, 125, rfl⟩
abbrev main_c_20 : Ref sig .tc := ⟨.hbm, 126, rfl⟩
abbrev main_call5_v0 : Ref sig .tc := ⟨.hbm, 127, rfl⟩
abbrev main_v89 : Ref sig .tc := ⟨.hbm, 128, rfl⟩
abbrev main_c_21 : Ref sig .tc := ⟨.hbm, 129, rfl⟩
abbrev main_call6_v0 : Ref sig .tc := ⟨.hbm, 130, rfl⟩
abbrev main_v90 : Ref sig .tc := ⟨.hbm, 131, rfl⟩
abbrev main_c_22 : Ref sig .tc := ⟨.hbm, 132, rfl⟩
abbrev main_call7_v0 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_c_23 : Ref sig .tc := ⟨.hbm, 141, rfl⟩
abbrev main_v98 : Ref sig .tc := ⟨.hbm, 142, rfl⟩
abbrev main_v99 : Ref sig .tc := ⟨.hbm, 143, rfl⟩
abbrev main_c_24 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_c_25 : Ref sig .tc := ⟨.hbm, 154, rfl⟩
abbrev main_call8_v0 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_cst_26 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_cst_27 : Ref sig .tc := ⟨.hbm, 164, rfl⟩
abbrev main_v116 : Ref sig .tc := ⟨.hbm, 165, rfl⟩
abbrev main_cst_28 : Ref sig .tc := ⟨.hbm, 166, rfl⟩
abbrev main_v117 : Ref sig .tc := ⟨.hbm, 167, rfl⟩
abbrev main_v118 : Ref sig .tc := ⟨.hbm, 168, rfl⟩
abbrev main_v119 : Ref sig .tc := ⟨.hbm, 169, rfl⟩
abbrev main_cst_29 : Ref sig .tc := ⟨.hbm, 170, rfl⟩
abbrev main_v120 : Ref sig .tc := ⟨.hbm, 171, rfl⟩
abbrev main_v121 : Ref sig .tc := ⟨.hbm, 172, rfl⟩
abbrev main_v122 : Ref sig .tc := ⟨.hbm, 173, rfl⟩
abbrev main_v123 : Ref sig .tc := ⟨.hbm, 174, rfl⟩
abbrev main_v124 : Ref sig .tc := ⟨.hbm, 175, rfl⟩
abbrev main_v125 : Ref sig .tc := ⟨.hbm, 176, rfl⟩
abbrev main_v126 : Ref sig .tc := ⟨.hbm, 177, rfl⟩
abbrev main_v127 : Ref sig .tc := ⟨.hbm, 178, rfl⟩
abbrev main_c_30 : Ref sig .tc := ⟨.hbm, 179, rfl⟩
abbrev main_v128 : Ref sig .tc := ⟨.hbm, 180, rfl⟩
abbrev main_v129 : Ref sig .tc := ⟨.hbm, 181, rfl⟩
abbrev main_c_31 : Ref sig .tc := ⟨.hbm, 182, rfl⟩
abbrev main_v130 : Ref sig .tc := ⟨.hbm, 183, rfl⟩
abbrev main_v131 : Ref sig .tc := ⟨.hbm, 184, rfl⟩
abbrev main_v132 : Ref sig .tc := ⟨.hbm, 185, rfl⟩
abbrev main_v133 : Ref sig .tc := ⟨.hbm, 186, rfl⟩
abbrev main_v134 : Ref sig .tc := ⟨.hbm, 187, rfl⟩
abbrev main_v135 : Ref sig .tc := ⟨.hbm, 188, rfl⟩
abbrev main_v136 : Ref sig .tc := ⟨.hbm, 189, rfl⟩
abbrev main_v137 : Ref sig .tc := ⟨.hbm, 190, rfl⟩
abbrev main_v138 : Ref sig .tc := ⟨.hbm, 191, rfl⟩
abbrev main_c_32 : Ref sig .tc := ⟨.hbm, 192, rfl⟩
abbrev main_call9_v0 : Ref sig .tc := ⟨.hbm, 193, rfl⟩
abbrev main_v139 : Ref sig .tc := ⟨.hbm, 194, rfl⟩
abbrev main_v140 : Ref sig .tc := ⟨.hbm, 195, rfl⟩
abbrev main_v141 : Ref sig .tc := ⟨.hbm, 196, rfl⟩
abbrev main_v142 : Ref sig .tc := ⟨.hbm, 197, rfl⟩
abbrev main_cst_33 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_c_34 : Ref sig .tc := ⟨.hbm, 206, rfl⟩
abbrev main_v150 : Ref sig .tc := ⟨.hbm, 207, rfl⟩
abbrev main_v151 : Ref sig .tc := ⟨.hbm, 208, rfl⟩
abbrev main_c_35 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_v160 : Ref sig .tc := ⟨.hbm, 218, rfl⟩
abbrev main_c_36 : Ref sig .tc := ⟨.hbm, 219, rfl⟩
abbrev main_call10_v0 : Ref sig .tc := ⟨.hbm, 220, rfl⟩
abbrev main_v161 : Ref sig .tc := ⟨.hbm, 221, rfl⟩
abbrev main_v162 : Ref sig .tc := ⟨.hbm, 222, rfl⟩
abbrev main_v163 : Ref sig .tc := ⟨.hbm, 223, rfl⟩
abbrev main_v164 : Ref sig .tc := ⟨.hbm, 224, rfl⟩
abbrev main_cst_37 : Ref sig .tc := ⟨.hbm, 225, rfl⟩
abbrev main_v165 : Ref sig .tc := ⟨.hbm, 226, rfl⟩
abbrev main_v166 : Ref sig .tc := ⟨.hbm, 227, rfl⟩
abbrev main_v167 : Ref sig .tc := ⟨.hbm, 228, rfl⟩
abbrev main_cst_38 : Ref sig .tc := ⟨.hbm, 229, rfl⟩
abbrev main_v168 : Ref sig .tc := ⟨.hbm, 230, rfl⟩
abbrev main_cst_39 : Ref sig .tc := ⟨.hbm, 231, rfl⟩
abbrev main_v169 : Ref sig .tc := ⟨.hbm, 232, rfl⟩
abbrev main_v170 : Ref sig .tc := ⟨.hbm, 233, rfl⟩
abbrev main_v171 : Ref sig .tc := ⟨.hbm, 234, rfl⟩
abbrev main_cst_40 : Ref sig .tc := ⟨.hbm, 235, rfl⟩
abbrev main_v172 : Ref sig .tc := ⟨.hbm, 236, rfl⟩
abbrev main_v173 : Ref sig .tc := ⟨.hbm, 237, rfl⟩
abbrev main_v174 : Ref sig .tc := ⟨.hbm, 238, rfl⟩
abbrev main_v175 : Ref sig .tc := ⟨.hbm, 239, rfl⟩
abbrev main_c_41 : Ref sig .tc := ⟨.hbm, 240, rfl⟩
abbrev main_call11_v0 : Ref sig .tc := ⟨.hbm, 241, rfl⟩
abbrev main_v176 : Ref sig .tc := ⟨.hbm, 242, rfl⟩
abbrev main_c_42 : Ref sig .tc := ⟨.hbm, 243, rfl⟩
abbrev main_call12_v0 : Ref sig .tc := ⟨.hbm, 244, rfl⟩
abbrev main_v177 : Ref sig .tc := ⟨.hbm, 245, rfl⟩
abbrev main_c_43 : Ref sig .tc := ⟨.hbm, 246, rfl⟩
abbrev main_call13_v0 : Ref sig .tc := ⟨.hbm, 247, rfl⟩
abbrev main_v178 : Ref sig .tc := ⟨.hbm, 248, rfl⟩
abbrev main_c_44 : Ref sig .tc := ⟨.hbm, 249, rfl⟩
abbrev main_call14_v0 : Ref sig .tc := ⟨.hbm, 250, rfl⟩
abbrev main_v179 : Ref sig .tc := ⟨.hbm, 251, rfl⟩
abbrev main_v180 : Ref sig .tc := ⟨.hbm, 252, rfl⟩
abbrev main_v181 : Ref sig .tc := ⟨.hbm, 253, rfl⟩
abbrev main_v182 : Ref sig .tc := ⟨.hbm, 254, rfl⟩
abbrev main_v183 : Ref sig .tc := ⟨.hbm, 255, rfl⟩
abbrev main_v184 : Ref sig .tc := ⟨.hbm, 256, rfl⟩
abbrev main_v185 : Ref sig .tc := ⟨.hbm, 257, rfl⟩
abbrev main_c_45 : Ref sig .tc := ⟨.hbm, 258, rfl⟩
abbrev main_v186 : Ref sig .tc := ⟨.hbm, 259, rfl⟩
abbrev main_v187 : Ref sig .tc := ⟨.hbm, 260, rfl⟩
abbrev main_c_46 : Ref sig .tc := ⟨.hbm, 261, rfl⟩
abbrev main_v188 : Ref sig .tc := ⟨.hbm, 262, rfl⟩
abbrev main_v189 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_v195 : Ref sig .tc := ⟨.hbm, 269, rfl⟩
abbrev main_v196 : Ref sig .tc := ⟨.hbm, 270, rfl⟩
abbrev main_c_47 : Ref sig .tc := ⟨.hbm, 271, rfl⟩
abbrev main_call15_v0 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_cst_48 : Ref sig .tc := ⟨.hbm, 277, rfl⟩
abbrev main_v201 : Ref sig .tc := ⟨.hbm, 278, rfl⟩
abbrev main_v202 : Ref sig .tc := ⟨.hbm, 279, rfl⟩
abbrev main_v203 : Ref sig .tc := ⟨.hbm, 280, rfl⟩
abbrev main_cst_49 : Ref sig .tc := ⟨.hbm, 281, rfl⟩
abbrev main_v204 : Ref sig .tc := ⟨.hbm, 282, rfl⟩
abbrev main_cst_50 : Ref sig .tc := ⟨.hbm, 283, rfl⟩
abbrev main_v205 : Ref sig .tc := ⟨.hbm, 284, rfl⟩
abbrev main_v206 : Ref sig .tc := ⟨.hbm, 285, rfl⟩
abbrev main_v207 : Ref sig .tc := ⟨.hbm, 286, rfl⟩
abbrev main_cst_51 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_v213 : Ref sig .tc := ⟨.hbm, 293, rfl⟩
abbrev main_v214 : Ref sig .tc := ⟨.hbm, 294, rfl⟩
abbrev main_v215 : Ref sig .tc := ⟨.hbm, 295, rfl⟩
abbrev main_c_52 : Ref sig .tc := ⟨.hbm, 296, rfl⟩
abbrev main_v216 : Ref sig .tc := ⟨.hbm, 297, rfl⟩
abbrev main_v217 : Ref sig .tc := ⟨.hbm, 298, rfl⟩
abbrev main_c_53 : Ref sig .tc := ⟨.hbm, 299, rfl⟩
abbrev main_v218 : Ref sig .tc := ⟨.hbm, 300, rfl⟩
abbrev main_v219 : Ref sig .tc := ⟨.hbm, 301, rfl⟩
abbrev main_v220 : Ref sig .tc := ⟨.hbm, 302, rfl⟩
abbrev main_v221 : Ref sig .tc := ⟨.hbm, 303, rfl⟩
abbrev main_v222 : Ref sig .tc := ⟨.hbm, 304, rfl⟩
abbrev main_v223 : Ref sig .tc := ⟨.hbm, 305, rfl⟩
abbrev main_v224 : Ref sig .tc := ⟨.hbm, 306, rfl⟩
abbrev main_v225 : Ref sig .tc := ⟨.hbm, 307, rfl⟩
abbrev main_v226 : Ref sig .tc := ⟨.hbm, 308, rfl⟩
abbrev main_c_54 : Ref sig .tc := ⟨.hbm, 309, rfl⟩
abbrev main_call16_v0 : Ref sig .tc := ⟨.hbm, 310, rfl⟩
abbrev main_v227 : Ref sig .tc := ⟨.hbm, 311, rfl⟩
abbrev main_v228 : Ref sig .tc := ⟨.hbm, 312, rfl⟩
abbrev main_v229 : Ref sig .tc := ⟨.hbm, 313, rfl⟩
abbrev main_v230 : Ref sig .tc := ⟨.hbm, 314, rfl⟩
abbrev main_cst_55 : Ref sig .tc := ⟨.hbm, 315, rfl⟩
abbrev main_v231 : Ref sig .tc := ⟨.hbm, 316, rfl⟩
abbrev main_v232 : Ref sig .tc := ⟨.hbm, 317, rfl⟩
abbrev main_v233 : Ref sig .tc := ⟨.hbm, 318, rfl⟩
abbrev main_v234 : Ref sig .tc := ⟨.hbm, 319, rfl⟩
abbrev main_v235 : Ref sig .tc := ⟨.hbm, 320, rfl⟩
abbrev main_v236 : Ref sig .tc := ⟨.hbm, 321, rfl⟩
abbrev main_v237 : Ref sig .tc := ⟨.hbm, 322, rfl⟩
abbrev main_c_56 : Ref sig .tc := ⟨.hbm, 323, rfl⟩
abbrev main_v238 : Ref sig .tc := ⟨.hbm, 324, rfl⟩
abbrev main_v239 : Ref sig .tc := ⟨.hbm, 325, rfl⟩
abbrev main_c_57 : Ref sig .tc := ⟨.hbm, 326, rfl⟩
abbrev main_v240 : Ref sig .tc := ⟨.hbm, 327, rfl⟩
abbrev main_v241 : Ref sig .tc := ⟨.hbm, 328, rfl⟩
abbrev main_v242 : Ref sig .tc := ⟨.hbm, 329, rfl⟩
abbrev main_v243 : Ref sig .tc := ⟨.hbm, 330, rfl⟩
abbrev main_v244 : Ref sig .tc := ⟨.hbm, 331, rfl⟩
abbrev main_v245 : Ref sig .tc := ⟨.hbm, 332, rfl⟩
abbrev main_v246 : Ref sig .tc := ⟨.hbm, 333, rfl⟩
abbrev main_v247 : Ref sig .tc := ⟨.hbm, 334, rfl⟩
abbrev main_v248 : Ref sig .tc := ⟨.hbm, 335, rfl⟩
abbrev main_c_58 : Ref sig .tc := ⟨.hbm, 336, rfl⟩
abbrev main_call17_v0 : Ref sig .tc := ⟨.hbm, 337, rfl⟩
abbrev main_v249 : Ref sig .tc := ⟨.hbm, 338, rfl⟩
abbrev main_v250 : Ref sig .tc := ⟨.hbm, 339, rfl⟩
abbrev main_v251 : Ref sig .tc := ⟨.hbm, 340, rfl⟩
abbrev main_v252 : Ref sig .tc := ⟨.hbm, 341, rfl⟩
abbrev main_cst_59 : Ref sig .tc := ⟨.hbm, 342, rfl⟩
abbrev main_v253 : Ref sig .tc := ⟨.hbm, 343, rfl⟩
abbrev main_v254 : Ref sig .tc := ⟨.hbm, 344, rfl⟩
abbrev main_v255 : Ref sig .tc := ⟨.hbm, 345, rfl⟩
abbrev main_cst_60 : Ref sig .tc := ⟨.hbm, 346, rfl⟩
abbrev main_v256 : Ref sig .tc := ⟨.hbm, 347, rfl⟩
abbrev main_cst_61 : Ref sig .tc := ⟨.hbm, 348, rfl⟩
abbrev main_v257 : Ref sig .tc := ⟨.hbm, 349, rfl⟩
abbrev main_v258 : Ref sig .tc := ⟨.hbm, 350, rfl⟩
abbrev main_v259 : Ref sig .tc := ⟨.hbm, 351, rfl⟩
abbrev main_cst_62 : Ref sig .tc := ⟨.hbm, 352, rfl⟩
abbrev main_v260 : Ref sig .tc := ⟨.hbm, 353, rfl⟩
abbrev main_v261 : Ref sig .tc := ⟨.hbm, 354, rfl⟩
abbrev main_v262 : Ref sig .tc := ⟨.hbm, 355, rfl⟩
abbrev main_v263 : Ref sig .tc := ⟨.hbm, 356, rfl⟩
abbrev main_c_63 : Ref sig .tc := ⟨.hbm, 357, rfl⟩
abbrev main_call18_v0 : Ref sig .tc := ⟨.hbm, 358, rfl⟩
abbrev main_v264 : Ref sig .tc := ⟨.hbm, 359, rfl⟩
abbrev main_c_64 : Ref sig .tc := ⟨.hbm, 360, rfl⟩
abbrev main_call19_v0 : Ref sig .tc := ⟨.hbm, 361, rfl⟩
abbrev main_v265 : Ref sig .tc := ⟨.hbm, 362, rfl⟩
abbrev main_c_65 : Ref sig .tc := ⟨.hbm, 363, rfl⟩
abbrev main_call20_v0 : Ref sig .tc := ⟨.hbm, 364, rfl⟩
abbrev main_v266 : Ref sig .tc := ⟨.hbm, 365, rfl⟩
abbrev main_c_66 : Ref sig .tc := ⟨.hbm, 366, rfl⟩
abbrev main_call21_v0 : Ref sig .tc := ⟨.hbm, 367, rfl⟩
abbrev main_v267 : Ref sig .tc := ⟨.hbm, 368, rfl⟩
abbrev main_v268 : Ref sig .tc := ⟨.hbm, 369, rfl⟩
abbrev main_v269 : Ref sig .tc := ⟨.hbm, 370, rfl⟩
abbrev main_v270 : Ref sig .tc := ⟨.hbm, 371, rfl⟩
abbrev main_v271 : Ref sig .tc := ⟨.hbm, 372, rfl⟩
abbrev main_v272 : Ref sig .tc := ⟨.hbm, 373, rfl⟩
abbrev main_v273 : Ref sig .tc := ⟨.hbm, 374, rfl⟩
abbrev main_c_67 : Ref sig .tc := ⟨.hbm, 375, rfl⟩
abbrev main_v274 : Ref sig .tc := ⟨.hbm, 376, rfl⟩
abbrev main_v275 : Ref sig .tc := ⟨.hbm, 377, rfl⟩
abbrev main_c_68 : Ref sig .tc := ⟨.hbm, 378, rfl⟩
abbrev main_v276 : Ref sig .tc := ⟨.hbm, 379, rfl⟩
abbrev main_v277 : Ref sig .tc := ⟨.hbm, 380, rfl⟩
abbrev main_v278 : Ref sig .tc := ⟨.hbm, 381, rfl⟩
abbrev main_v279 : Ref sig .tc := ⟨.hbm, 382, rfl⟩
abbrev main_v280 : Ref sig .tc := ⟨.hbm, 383, rfl⟩
abbrev main_v281 : Ref sig .tc := ⟨.hbm, 384, rfl⟩
abbrev main_v282 : Ref sig .tc := ⟨.hbm, 385, rfl⟩
abbrev main_v283 : Ref sig .tc := ⟨.hbm, 386, rfl⟩
abbrev main_v284 : Ref sig .tc := ⟨.hbm, 387, rfl⟩
abbrev main_c_69 : Ref sig .tc := ⟨.hbm, 388, rfl⟩
abbrev main_call22_v0 : Ref sig .tc := ⟨.hbm, 389, rfl⟩
abbrev main_v285 : Ref sig .tc := ⟨.hbm, 390, rfl⟩
abbrev main_v286 : Ref sig .tc := ⟨.hbm, 391, rfl⟩
abbrev main_v287 : Ref sig .tc := ⟨.hbm, 392, rfl⟩
abbrev main_v288 : Ref sig .tc := ⟨.hbm, 393, rfl⟩
abbrev main_cst_70 : Ref sig .tc := ⟨.hbm, 394, rfl⟩
abbrev main_v289 : Ref sig .tc := ⟨.hbm, 395, rfl⟩
abbrev main_v290 : Ref sig .tc := ⟨.hbm, 396, rfl⟩
abbrev main_v291 : Ref sig .tc := ⟨.hbm, 397, rfl⟩
abbrev main_cst_71 : Ref sig .tc := ⟨.hbm, 398, rfl⟩
abbrev main_v292 : Ref sig .tc := ⟨.hbm, 399, rfl⟩
abbrev main_cst_72 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_cst_73 : Ref sig .tc := ⟨.hbm, 404, rfl⟩
abbrev main_v296 : Ref sig .tc := ⟨.hbm, 405, rfl⟩
abbrev main_v297 : Ref sig .tc := ⟨.hbm, 406, rfl⟩
abbrev main_v298 : Ref sig .tc := ⟨.hbm, 407, rfl⟩
abbrev main_v299 : Ref sig .tc := ⟨.hbm, 408, rfl⟩
abbrev main_v300 : Ref sig .tc := ⟨.hbm, 409, rfl⟩
abbrev main_v301 : Ref sig .tc := ⟨.hbm, 410, rfl⟩
abbrev main_v302 : Ref sig .tc := ⟨.hbm, 411, rfl⟩
abbrev main_v303 : Ref sig .tc := ⟨.hbm, 412, rfl⟩
abbrev main_c_74 : Ref sig .tc := ⟨.hbm, 413, rfl⟩
abbrev main_v304 : Ref sig .tc := ⟨.hbm, 414, rfl⟩
abbrev main_v305 : Ref sig .tc := ⟨.hbm, 415, rfl⟩
abbrev main_c_75 : Ref sig .tc := ⟨.hbm, 416, rfl⟩
abbrev main_v306 : Ref sig .tc := ⟨.hbm, 417, rfl⟩
abbrev main_v307 : Ref sig .tc := ⟨.hbm, 418, rfl⟩
abbrev main_v308 : Ref sig .tc := ⟨.hbm, 419, rfl⟩
abbrev main_v309 : Ref sig .tc := ⟨.hbm, 420, rfl⟩
abbrev main_v310 : Ref sig .tc := ⟨.hbm, 421, rfl⟩
abbrev main_v311 : Ref sig .tc := ⟨.hbm, 422, rfl⟩
abbrev main_v312 : Ref sig .tc := ⟨.hbm, 423, rfl⟩
abbrev main_v313 : Ref sig .tc := ⟨.hbm, 424, rfl⟩
abbrev main_v314 : Ref sig .tc := ⟨.hbm, 425, rfl⟩
abbrev main_c_76 : Ref sig .tc := ⟨.hbm, 426, rfl⟩
abbrev main_call23_v0 : Ref sig .tc := ⟨.hbm, 427, rfl⟩
abbrev main_v315 : Ref sig .tc := ⟨.hbm, 428, rfl⟩
abbrev main_v316 : Ref sig .tc := ⟨.hbm, 429, rfl⟩
abbrev main_v317 : Ref sig .tc := ⟨.hbm, 430, rfl⟩
abbrev main_v318 : Ref sig .tc := ⟨.hbm, 431, rfl⟩
abbrev main_cst_77 : Ref sig .tc := ⟨.hbm, 432, rfl⟩
abbrev main_v319 : Ref sig .tc := ⟨.hbm, 433, rfl⟩
abbrev main_v320 : Ref sig .tc := ⟨.hbm, 434, rfl⟩
abbrev main_v321 : Ref sig .tc := ⟨.hbm, 435, rfl⟩
abbrev main_v322 : Ref sig .tc := ⟨.hbm, 436, rfl⟩
abbrev main_v323 : Ref sig .tc := ⟨.hbm, 437, rfl⟩
abbrev main_v324 : Ref sig .tc := ⟨.hbm, 438, rfl⟩
abbrev main_v325 : Ref sig .tc := ⟨.hbm, 439, rfl⟩
abbrev main_c_78 : Ref sig .tc := ⟨.hbm, 440, rfl⟩
abbrev main_v326 : Ref sig .tc := ⟨.hbm, 441, rfl⟩
abbrev main_v327 : Ref sig .tc := ⟨.hbm, 442, rfl⟩
abbrev main_c_79 : Ref sig .tc := ⟨.hbm, 443, rfl⟩
abbrev main_v328 : Ref sig .tc := ⟨.hbm, 444, rfl⟩
abbrev main_v329 : Ref sig .tc := ⟨.hbm, 445, rfl⟩
abbrev main_v330 : Ref sig .tc := ⟨.hbm, 446, rfl⟩
abbrev main_v331 : Ref sig .tc := ⟨.hbm, 447, rfl⟩
abbrev main_v332 : Ref sig .tc := ⟨.hbm, 448, rfl⟩
abbrev main_v333 : Ref sig .tc := ⟨.hbm, 449, rfl⟩
abbrev main_v334 : Ref sig .tc := ⟨.hbm, 450, rfl⟩
abbrev main_v335 : Ref sig .tc := ⟨.hbm, 451, rfl⟩
abbrev main_v336 : Ref sig .tc := ⟨.hbm, 452, rfl⟩
abbrev main_c_80 : Ref sig .tc := ⟨.hbm, 453, rfl⟩
abbrev main_call24_v0 : Ref sig .tc := ⟨.hbm, 454, rfl⟩
abbrev main_v337 : Ref sig .tc := ⟨.hbm, 455, rfl⟩
abbrev main_v338 : Ref sig .tc := ⟨.hbm, 456, rfl⟩
abbrev main_v339 : Ref sig .tc := ⟨.hbm, 457, rfl⟩
abbrev main_v340 : Ref sig .tc := ⟨.hbm, 458, rfl⟩
abbrev main_cst_81 : Ref sig .tc := ⟨.hbm, 459, rfl⟩
abbrev main_v341 : Ref sig .tc := ⟨.hbm, 460, rfl⟩
abbrev main_v342 : Ref sig .tc := ⟨.hbm, 461, rfl⟩
abbrev main_v343 : Ref sig .tc := ⟨.hbm, 462, rfl⟩
abbrev main_cst_82 : Ref sig .tc := ⟨.hbm, 463, rfl⟩
abbrev main_v344 : Ref sig .tc := ⟨.hbm, 464, rfl⟩
abbrev main_cst_83 : Ref sig .tc := ⟨.hbm, 465, rfl⟩
abbrev main_v345 : Ref sig .tc := ⟨.hbm, 466, rfl⟩
abbrev main_v346 : Ref sig .tc := ⟨.hbm, 467, rfl⟩
abbrev main_v347 : Ref sig .tc := ⟨.hbm, 468, rfl⟩
abbrev main_cst_84 : Ref sig .tc := ⟨.hbm, 469, rfl⟩
abbrev main_v348 : Ref sig .tc := ⟨.hbm, 470, rfl⟩
abbrev main_v349 : Ref sig .tc := ⟨.hbm, 471, rfl⟩
abbrev main_v350 : Ref sig .tc := ⟨.hbm, 472, rfl⟩
abbrev main_v351 : Ref sig .tc := ⟨.hbm, 473, rfl⟩
abbrev main_c_85 : Ref sig .tc := ⟨.hbm, 474, rfl⟩
abbrev main_call25_v0 : Ref sig .tc := ⟨.hbm, 475, rfl⟩
abbrev main_v352 : Ref sig .tc := ⟨.hbm, 476, rfl⟩
abbrev main_c_86 : Ref sig .tc := ⟨.hbm, 477, rfl⟩
abbrev main_call26_v0 : Ref sig .tc := ⟨.hbm, 478, rfl⟩
abbrev main_v353 : Ref sig .tc := ⟨.hbm, 479, rfl⟩
abbrev main_c_87 : Ref sig .tc := ⟨.hbm, 480, rfl⟩
abbrev main_call27_v0 : Ref sig .tc := ⟨.hbm, 481, rfl⟩
abbrev main_v354 : Ref sig .tc := ⟨.hbm, 482, rfl⟩
abbrev main_c_88 : Ref sig .tc := ⟨.hbm, 483, rfl⟩
abbrev main_call28_v0 : Ref sig .tc := ⟨.hbm, 484, rfl⟩
abbrev main_v355 : Ref sig .tc := ⟨.hbm, 485, rfl⟩
abbrev main_v356 : Ref sig .tc := ⟨.hbm, 486, rfl⟩
abbrev main_v357 : Ref sig .tc := ⟨.hbm, 487, rfl⟩
abbrev main_v358 : Ref sig .tc := ⟨.hbm, 488, rfl⟩
abbrev main_v359 : Ref sig .tc := ⟨.hbm, 489, rfl⟩
abbrev main_v360 : Ref sig .tc := ⟨.hbm, 490, rfl⟩
abbrev main_v361 : Ref sig .tc := ⟨.hbm, 491, rfl⟩
abbrev main_c_89 : Ref sig .tc := ⟨.hbm, 492, rfl⟩
abbrev main_v362 : Ref sig .tc := ⟨.hbm, 493, rfl⟩
abbrev main_v363 : Ref sig .tc := ⟨.hbm, 494, rfl⟩
abbrev main_c_90 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_v369 : Ref sig .tc := ⟨.hbm, 501, rfl⟩
abbrev main_v370 : Ref sig .tc := ⟨.hbm, 502, rfl⟩
abbrev main_v371 : Ref sig .tc := ⟨.hbm, 503, rfl⟩
abbrev main_v372 : Ref sig .tc := ⟨.hbm, 504, rfl⟩
abbrev main_c_91 : Ref sig .tc := ⟨.hbm, 505, rfl⟩
abbrev main_call29_v0 : Ref sig .tc := ⟨.hbm, 506, rfl⟩
abbrev main_v373 : Ref sig .tc := ⟨.hbm, 507, rfl⟩
abbrev main_v374 : Ref sig .tc := ⟨.hbm, 508, rfl⟩
abbrev main_v375 : Ref sig .tc := ⟨.hbm, 509, rfl⟩
abbrev main_v376 : Ref sig .tc := ⟨.hbm, 510, rfl⟩
abbrev main_cst_92 : Ref sig .tc := ⟨.hbm, 511, rfl⟩
abbrev main_v377 : Ref sig .tc := ⟨.hbm, 512, rfl⟩
abbrev main_v378 : Ref sig .tc := ⟨.hbm, 513, rfl⟩
abbrev main_v379 : Ref sig .tc := ⟨.hbm, 514, rfl⟩
abbrev main_cst_93 : Ref sig .tc := ⟨.hbm, 515, rfl⟩
abbrev main_v380 : Ref sig .tc := ⟨.hbm, 516, rfl⟩
abbrev main_cst_94 : Ref sig .tc := ⟨.hbm, 517, rfl⟩
abbrev main_v381 : Ref sig .tc := ⟨.hbm, 518, rfl⟩
abbrev main_v382 : Ref sig .tc := ⟨.hbm, 519, rfl⟩
abbrev main_v383 : Ref sig .tc := ⟨.hbm, 520, rfl⟩
abbrev main_cst_95 : Ref sig .tc := ⟨.hbm, 521, rfl⟩
abbrev main_v384 : Ref sig .tc := ⟨.hbm, 522, rfl⟩
abbrev main_v385 : Ref sig .tc := ⟨.hbm, 523, rfl⟩
abbrev main_v386 : Ref sig .tc := ⟨.hbm, 524, rfl⟩
abbrev main_v387 : Ref sig .tc := ⟨.hbm, 525, rfl⟩
abbrev main_v388 : Ref sig .tc := ⟨.hbm, 526, rfl⟩
abbrev main_v389 : Ref sig .tc := ⟨.hbm, 527, rfl⟩
abbrev main_v390 : Ref sig .tc := ⟨.hbm, 528, rfl⟩
abbrev main_v391 : Ref sig .tc := ⟨.hbm, 529, rfl⟩
abbrev main_c_96 : Ref sig .tc := ⟨.hbm, 530, rfl⟩
abbrev main_v392 : Ref sig .tc := ⟨.hbm, 531, rfl⟩
abbrev main_v393 : Ref sig .tc := ⟨.hbm, 532, rfl⟩
abbrev main_c_97 : Ref sig .tc := ⟨.hbm, 533, rfl⟩
abbrev main_v394 : Ref sig .tc := ⟨.hbm, 534, rfl⟩
abbrev main_v395 : Ref sig .tc := ⟨.hbm, 535, rfl⟩
abbrev main_v396 : Ref sig .tc := ⟨.hbm, 536, rfl⟩
abbrev main_v397 : Ref sig .tc := ⟨.hbm, 537, rfl⟩
abbrev main_v398 : Ref sig .tc := ⟨.hbm, 538, rfl⟩
abbrev main_v399 : Ref sig .tc := ⟨.hbm, 539, rfl⟩
abbrev main_v400 : Ref sig .tc := ⟨.hbm, 540, rfl⟩
abbrev main_v401 : Ref sig .tc := ⟨.hbm, 541, rfl⟩
abbrev main_v402 : Ref sig .tc := ⟨.hbm, 542, rfl⟩
abbrev main_c_98 : Ref sig .tc := ⟨.hbm, 543, rfl⟩
abbrev main_call30_v0 : Ref sig .tc := ⟨.hbm, 544, rfl⟩
abbrev main_v403 : Ref sig .tc := ⟨.hbm, 545, rfl⟩
abbrev main_v404 : Ref sig .tc := ⟨.hbm, 546, rfl⟩
abbrev main_v405 : Ref sig .tc := ⟨.hbm, 547, rfl⟩
abbrev main_v406 : Ref sig .tc := ⟨.hbm, 548, rfl⟩
abbrev main_cst_99 : Ref sig .tc := ⟨.hbm, 549, rfl⟩
abbrev main_v407 : Ref sig .tc := ⟨.hbm, 550, rfl⟩
abbrev main_v408 : Ref sig .tc := ⟨.hbm, 551, rfl⟩
abbrev main_v409 : Ref sig .tc := ⟨.hbm, 552, rfl⟩
abbrev main_v410 : Ref sig .tc := ⟨.hbm, 553, rfl⟩
abbrev main_v411 : Ref sig .tc := ⟨.hbm, 554, rfl⟩
abbrev main_v412 : Ref sig .tc := ⟨.hbm, 555, rfl⟩
abbrev main_v413 : Ref sig .tc := ⟨.hbm, 556, rfl⟩
abbrev main_c_100 : Ref sig .tc := ⟨.hbm, 557, rfl⟩
abbrev main_v414 : Ref sig .tc := ⟨.hbm, 558, rfl⟩
abbrev main_v415 : Ref sig .tc := ⟨.hbm, 559, rfl⟩
abbrev main_c_101 : Ref sig .tc := ⟨.hbm, 560, rfl⟩
abbrev main_v416 : Ref sig .tc := ⟨.hbm, 561, rfl⟩
abbrev main_v417 : Ref sig .tc := ⟨.hbm, 562, rfl⟩
abbrev main_v418 : Ref sig .tc := ⟨.hbm, 563, rfl⟩
abbrev main_v419 : Ref sig .tc := ⟨.hbm, 564, rfl⟩
abbrev main_v420 : Ref sig .tc := ⟨.hbm, 565, rfl⟩
abbrev main_v421 : Ref sig .tc := ⟨.hbm, 566, rfl⟩
abbrev main_v422 : Ref sig .tc := ⟨.hbm, 567, rfl⟩
abbrev main_v423 : Ref sig .tc := ⟨.hbm, 568, rfl⟩
abbrev main_v424 : Ref sig .tc := ⟨.hbm, 569, rfl⟩
abbrev main_c_102 : Ref sig .tc := ⟨.hbm, 570, rfl⟩
abbrev main_call31_v0 : Ref sig .tc := ⟨.hbm, 571, rfl⟩
abbrev main_v425 : Ref sig .tc := ⟨.hbm, 572, rfl⟩
abbrev main_v426 : Ref sig .tc := ⟨.hbm, 573, rfl⟩
abbrev main_v427 : Ref sig .tc := ⟨.hbm, 574, rfl⟩
abbrev main_v428 : Ref sig .tc := ⟨.hbm, 575, rfl⟩
abbrev main_cst_103 : Ref sig .tc := ⟨.hbm, 576, rfl⟩
abbrev main_v429 : Ref sig .tc := ⟨.hbm, 577, rfl⟩
abbrev main_v430 : Ref sig .tc := ⟨.hbm, 578, rfl⟩
abbrev main_v431 : Ref sig .tc := ⟨.hbm, 579, rfl⟩
abbrev main_cst_104 : Ref sig .tc := ⟨.hbm, 580, rfl⟩
abbrev main_v432 : Ref sig .tc := ⟨.hbm, 581, rfl⟩
abbrev main_cst_105 : Ref sig .tc := ⟨.hbm, 582, rfl⟩
abbrev main_v433 : Ref sig .tc := ⟨.hbm, 583, rfl⟩
abbrev main_v434 : Ref sig .tc := ⟨.hbm, 584, rfl⟩
abbrev main_v435 : Ref sig .tc := ⟨.hbm, 585, rfl⟩
abbrev main_cst_106 : Ref sig .tc := ⟨.hbm, 586, rfl⟩
abbrev main_v436 : Ref sig .tc := ⟨.hbm, 587, rfl⟩
abbrev main_v437 : Ref sig .tc := ⟨.hbm, 588, rfl⟩
abbrev main_v438 : Ref sig .tc := ⟨.hbm, 589, rfl⟩
abbrev main_v439 : Ref sig .tc := ⟨.hbm, 590, rfl⟩
abbrev main_c_107 : Ref sig .tc := ⟨.hbm, 591, rfl⟩
abbrev main_call32_v0 : Ref sig .tc := ⟨.hbm, 592, rfl⟩
abbrev main_v440 : Ref sig .tc := ⟨.hbm, 593, rfl⟩
abbrev main_c_108 : Ref sig .tc := ⟨.hbm, 594, rfl⟩
abbrev main_call33_v0 : Ref sig .tc := ⟨.hbm, 595, rfl⟩
abbrev main_v441 : Ref sig .tc := ⟨.hbm, 596, rfl⟩
abbrev main_c_109 : Ref sig .tc := ⟨.hbm, 597, rfl⟩
abbrev main_call34_v0 : Ref sig .tc := ⟨.hbm, 598, rfl⟩
abbrev main_v442 : Ref sig .tc := ⟨.hbm, 599, rfl⟩
abbrev main_c_110 : Ref sig .tc := ⟨.hbm, 600, rfl⟩
abbrev main_call35_v0 : Ref sig .tc := ⟨.hbm, 601, rfl⟩
abbrev main_v443 : Ref sig .tc := ⟨.hbm, 602, rfl⟩
abbrev main_v444 : Ref sig .tc := ⟨.hbm, 603, rfl⟩
abbrev main_v445 : Ref sig .tc := ⟨.hbm, 604, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg3_0 : Ref sig .tc := ⟨.vmem, 22, rfl⟩
abbrev cc3_stg3_1 : Ref sig .tc := ⟨.vmem, 23, rfl⟩
abbrev cc4_stg0_0 : Ref sig .tc := ⟨.vmem, 24, rfl⟩
abbrev cc4_stg0_1 : Ref sig .tc := ⟨.vmem, 25, rfl⟩
abbrev cc4_stg1_0 : Ref sig .tc := ⟨.vmem, 26, rfl⟩
abbrev cc4_stg1_1 : Ref sig .tc := ⟨.vmem, 27, rfl⟩
abbrev cc4_stg2_0 : Ref sig .tc := ⟨.vmem, 28, rfl⟩
abbrev cc4_stg2_1 : Ref sig .tc := ⟨.vmem, 29, rfl⟩
abbrev cc4_stg3_0 : Ref sig .tc := ⟨.vmem, 30, rfl⟩
abbrev cc4_stg3_1 : Ref sig .tc := ⟨.vmem, 31, rfl⟩
abbrev cc4_stg4_0 : Ref sig .tc := ⟨.vmem, 32, rfl⟩
abbrev cc4_stg4_1 : Ref sig .tc := ⟨.vmem, 33, rfl⟩
abbrev cc5_stg0_0 : Ref sig .tc := ⟨.vmem, 34, rfl⟩
abbrev cc5_stg0_1 : Ref sig .tc := ⟨.vmem, 35, rfl⟩
abbrev cc5_stg1_0 : Ref sig .tc := ⟨.vmem, 36, rfl⟩
abbrev cc5_stg2_0 : Ref sig .tc := ⟨.vmem, 37, rfl⟩
abbrev cc5_stg3_0 : Ref sig .tc := ⟨.vmem, 38, rfl⟩
abbrev cc5_stg3_1 : Ref sig .tc := ⟨.vmem, 39, rfl⟩
abbrev cc6_stg0_0 : Ref sig .tc := ⟨.vmem, 40, rfl⟩
abbrev cc6_stg0_1 : Ref sig .tc := ⟨.vmem, 41, rfl⟩
abbrev cc6_stg1_0 : Ref sig .tc := ⟨.vmem, 42, rfl⟩
abbrev cc6_stg2_0 : Ref sig .tc := ⟨.vmem, 43, rfl⟩
abbrev cc6_stg3_0 : Ref sig .tc := ⟨.vmem, 44, rfl⟩
abbrev cc6_stg3_1 : Ref sig .tc := ⟨.vmem, 45, rfl⟩
abbrev cc7_stg0_0 : Ref sig .tc := ⟨.vmem, 46, rfl⟩
abbrev cc7_stg0_1 : Ref sig .tc := ⟨.vmem, 47, rfl⟩
abbrev cc7_stg1_0 : Ref sig .tc := ⟨.vmem, 48, rfl⟩
abbrev cc7_stg2_0 : Ref sig .tc := ⟨.vmem, 49, rfl⟩
abbrev cc7_stg3_0 : Ref sig .tc := ⟨.vmem, 50, rfl⟩
abbrev cc7_stg3_1 : Ref sig .tc := ⟨.vmem, 51, rfl⟩
abbrev cc8_stg0_0 : Ref sig .tc := ⟨.vmem, 52, rfl⟩
abbrev cc8_stg0_1 : Ref sig .tc := ⟨.vmem, 53, rfl⟩
abbrev cc8_stg1_0 : Ref sig .tc := ⟨.vmem, 54, rfl⟩
abbrev cc8_stg1_1 : Ref sig .tc := ⟨.vmem, 55, rfl⟩
abbrev cc8_stg2_0 : Ref sig .tc := ⟨.vmem, 56, rfl⟩
abbrev cc8_stg2_1 : Ref sig .tc := ⟨.vmem, 57, rfl⟩
abbrev cc8_stg3_0 : Ref sig .tc := ⟨.vmem, 58, rfl⟩
abbrev cc8_stg3_1 : Ref sig .tc := ⟨.vmem, 59, rfl⟩
abbrev cc8_stg4_0 : Ref sig .tc := ⟨.vmem, 60, rfl⟩
abbrev cc8_stg4_1 : Ref sig .tc := ⟨.vmem, 61, rfl⟩
abbrev cc9_stg0_0 : Ref sig .tc := ⟨.vmem, 62, rfl⟩
abbrev cc9_stg0_1 : Ref sig .tc := ⟨.vmem, 63, rfl⟩
abbrev cc9_stg1_0 : Ref sig .tc := ⟨.vmem, 64, rfl⟩
abbrev cc9_stg2_0 : Ref sig .tc := ⟨.vmem, 65, rfl⟩
abbrev cc9_stg3_0 : Ref sig .tc := ⟨.vmem, 66, rfl⟩
abbrev cc9_stg3_1 : Ref sig .tc := ⟨.vmem, 67, rfl⟩
abbrev cc10_stg0_0 : Ref sig .tc := ⟨.vmem, 68, rfl⟩
abbrev cc10_stg0_1 : Ref sig .tc := ⟨.vmem, 69, rfl⟩
abbrev cc10_stg1_0 : Ref sig .tc := ⟨.vmem, 70, rfl⟩
abbrev cc10_stg2_0 : Ref sig .tc := ⟨.vmem, 71, rfl⟩
abbrev cc10_stg3_0 : Ref sig .tc := ⟨.vmem, 72, rfl⟩
abbrev cc10_stg3_1 : Ref sig .tc := ⟨.vmem, 73, rfl⟩
abbrev cc11_stg0_0 : Ref sig .tc := ⟨.vmem, 74, rfl⟩
abbrev cc11_stg0_1 : Ref sig .tc := ⟨.vmem, 75, rfl⟩
abbrev cc11_stg1_0 : Ref sig .tc := ⟨.vmem, 76, rfl⟩
abbrev cc11_stg2_0 : Ref sig .tc := ⟨.vmem, 77, rfl⟩
abbrev cc11_stg3_0 : Ref sig .tc := ⟨.vmem, 78, rfl⟩
abbrev cc11_stg3_1 : Ref sig .tc := ⟨.vmem, 79, rfl⟩
abbrev cc12_stg0_0 : Ref sig .tc := ⟨.vmem, 80, rfl⟩
abbrev cc12_stg0_1 : Ref sig .tc := ⟨.vmem, 81, rfl⟩
abbrev cc12_stg1_0 : Ref sig .tc := ⟨.vmem, 82, rfl⟩
abbrev cc12_stg1_1 : Ref sig .tc := ⟨.vmem, 83, rfl⟩
abbrev cc12_stg2_0 : Ref sig .tc := ⟨.vmem, 84, rfl⟩
abbrev cc12_stg2_1 : Ref sig .tc := ⟨.vmem, 85, rfl⟩
abbrev cc12_stg3_0 : Ref sig .tc := ⟨.vmem, 86, rfl⟩
abbrev cc12_stg3_1 : Ref sig .tc := ⟨.vmem, 87, rfl⟩
abbrev cc12_stg4_0 : Ref sig .tc := ⟨.vmem, 88, rfl⟩
abbrev cc12_stg4_1 : Ref sig .tc := ⟨.vmem, 89, rfl⟩
abbrev cc13_stg0_0 : Ref sig .tc := ⟨.vmem, 90, rfl⟩
abbrev cc13_stg0_1 : Ref sig .tc := ⟨.vmem, 91, rfl⟩
abbrev cc13_stg1_0 : Ref sig .tc := ⟨.vmem, 92, rfl⟩
abbrev cc13_stg2_0 : Ref sig .tc := ⟨.vmem, 93, rfl⟩
abbrev cc13_stg3_0 : Ref sig .tc := ⟨.vmem, 94, rfl⟩
abbrev cc13_stg3_1 : Ref sig .tc := ⟨.vmem, 95, rfl⟩
abbrev cc14_stg0_0 : Ref sig .tc := ⟨.vmem, 96, rfl⟩
abbrev cc14_stg0_1 : Ref sig .tc := ⟨.vmem, 97, rfl⟩
abbrev cc14_stg1_0 : Ref sig .tc := ⟨.vmem, 98, rfl⟩
abbrev cc14_stg2_0 : Ref sig .tc := ⟨.vmem, 99, rfl⟩
abbrev cc14_stg3_0 : Ref sig .tc := ⟨.vmem, 100, rfl⟩
abbrev cc14_stg3_1 : Ref sig .tc := ⟨.vmem, 101, rfl⟩
abbrev cc15_stg0_0 : Ref sig .tc := ⟨.vmem, 102, rfl⟩
abbrev cc15_stg0_1 : Ref sig .tc := ⟨.vmem, 103, rfl⟩
abbrev cc15_stg1_0 : Ref sig .tc := ⟨.vmem, 104, rfl⟩
abbrev cc15_stg2_0 : Ref sig .tc := ⟨.vmem, 105, rfl⟩
abbrev cc15_stg3_0 : Ref sig .tc := ⟨.vmem, 106, rfl⟩
abbrev cc15_stg3_1 : Ref sig .tc := ⟨.vmem, 107, rfl⟩
abbrev cc16_stg0_0 : Ref sig .tc := ⟨.vmem, 108, rfl⟩
abbrev cc16_stg0_1 : Ref sig .tc := ⟨.vmem, 109, rfl⟩
abbrev cc16_stg1_0 : Ref sig .tc := ⟨.vmem, 110, rfl⟩
abbrev cc16_stg1_1 : Ref sig .tc := ⟨.vmem, 111, rfl⟩
abbrev cc16_stg2_0 : Ref sig .tc := ⟨.vmem, 112, rfl⟩
abbrev cc16_stg2_1 : Ref sig .tc := ⟨.vmem, 113, rfl⟩
abbrev cc16_stg3_0 : Ref sig .tc := ⟨.vmem, 114, rfl⟩
abbrev cc16_stg3_1 : Ref sig .tc := ⟨.vmem, 115, rfl⟩
abbrev cc16_stg4_0 : Ref sig .tc := ⟨.vmem, 116, rfl⟩
abbrev cc16_stg4_1 : Ref sig .tc := ⟨.vmem, 117, rfl⟩
abbrev cc17_stg0_0 : Ref sig .tc := ⟨.vmem, 118, rfl⟩
abbrev cc17_stg0_1 : Ref sig .tc := ⟨.vmem, 119, rfl⟩
abbrev cc17_stg1_0 : Ref sig .tc := ⟨.vmem, 120, rfl⟩
abbrev cc17_stg2_0 : Ref sig .tc := ⟨.vmem, 121, rfl⟩
abbrev cc17_stg3_0 : Ref sig .tc := ⟨.vmem, 122, rfl⟩
abbrev cc17_stg3_1 : Ref sig .tc := ⟨.vmem, 123, rfl⟩
abbrev cc18_stg0_0 : Ref sig .tc := ⟨.vmem, 124, rfl⟩
abbrev cc18_stg0_1 : Ref sig .tc := ⟨.vmem, 125, rfl⟩
abbrev cc18_stg1_0 : Ref sig .tc := ⟨.vmem, 126, rfl⟩
abbrev cc18_stg2_0 : Ref sig .tc := ⟨.vmem, 127, rfl⟩
abbrev cc18_stg3_0 : Ref sig .tc := ⟨.vmem, 128, rfl⟩
abbrev cc18_stg3_1 : Ref sig .tc := ⟨.vmem, 129, rfl⟩
abbrev cc19_stg0_0 : Ref sig .tc := ⟨.vmem, 130, rfl⟩
abbrev cc19_stg0_1 : Ref sig .tc := ⟨.vmem, 131, rfl⟩
abbrev cc19_stg1_0 : Ref sig .tc := ⟨.vmem, 132, rfl⟩
abbrev cc19_stg2_0 : Ref sig .tc := ⟨.vmem, 133, rfl⟩
abbrev cc19_stg3_0 : Ref sig .tc := ⟨.vmem, 134, rfl⟩
abbrev cc19_stg3_1 : Ref sig .tc := ⟨.vmem, 135, rfl⟩
abbrev cc20_stg0_0 : Ref sig .tc := ⟨.vmem, 136, rfl⟩
abbrev cc20_stg0_1 : Ref sig .tc := ⟨.vmem, 137, rfl⟩
abbrev cc20_stg1_0 : Ref sig .tc := ⟨.vmem, 138, rfl⟩
abbrev cc20_stg1_1 : Ref sig .tc := ⟨.vmem, 139, rfl⟩
abbrev cc20_stg2_0 : Ref sig .tc := ⟨.vmem, 140, rfl⟩
abbrev cc20_stg2_1 : Ref sig .tc := ⟨.vmem, 141, rfl⟩
abbrev cc20_stg3_0 : Ref sig .tc := ⟨.vmem, 142, rfl⟩
abbrev cc20_stg3_1 : Ref sig .tc := ⟨.vmem, 143, rfl⟩
abbrev cc20_stg4_0 : Ref sig .tc := ⟨.vmem, 144, rfl⟩
abbrev cc20_stg4_1 : Ref sig .tc := ⟨.vmem, 145, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem3_0 : DmaSem sig := 22
abbrev cc3_sem3_1 : DmaSem sig := 23
abbrev cc4_sem0_0 : DmaSem sig := 24
abbrev cc4_sem0_1 : DmaSem sig := 25
abbrev cc4_sem1_0 : DmaSem sig := 26
abbrev cc4_sem1_1 : DmaSem sig := 27
abbrev cc4_sem2_0 : DmaSem sig := 28
abbrev cc4_sem2_1 : DmaSem sig := 29
abbrev cc4_sem3_0 : DmaSem sig := 30
abbrev cc4_sem3_1 : DmaSem sig := 31
abbrev cc4_sem4_0 : DmaSem sig := 32
abbrev cc4_sem4_1 : DmaSem sig := 33
abbrev cc5_sem0_0 : DmaSem sig := 34
abbrev cc5_sem0_1 : DmaSem sig := 35
abbrev cc5_sem1_0 : DmaSem sig := 36
abbrev cc5_sem2_0 : DmaSem sig := 37
abbrev cc5_sem3_0 : DmaSem sig := 38
abbrev cc5_sem3_1 : DmaSem sig := 39
abbrev cc6_sem0_0 : DmaSem sig := 40
abbrev cc6_sem0_1 : DmaSem sig := 41
abbrev cc6_sem1_0 : DmaSem sig := 42
abbrev cc6_sem2_0 : DmaSem sig := 43
abbrev cc6_sem3_0 : DmaSem sig := 44
abbrev cc6_sem3_1 : DmaSem sig := 45
abbrev cc7_sem0_0 : DmaSem sig := 46
abbrev cc7_sem0_1 : DmaSem sig := 47
abbrev cc7_sem1_0 : DmaSem sig := 48
abbrev cc7_sem2_0 : DmaSem sig := 49
abbrev cc7_sem3_0 : DmaSem sig := 50
abbrev cc7_sem3_1 : DmaSem sig := 51
abbrev cc8_sem0_0 : DmaSem sig := 52
abbrev cc8_sem0_1 : DmaSem sig := 53
abbrev cc8_sem1_0 : DmaSem sig := 54
abbrev cc8_sem1_1 : DmaSem sig := 55
abbrev cc8_sem2_0 : DmaSem sig := 56
abbrev cc8_sem2_1 : DmaSem sig := 57
abbrev cc8_sem3_0 : DmaSem sig := 58
abbrev cc8_sem3_1 : DmaSem sig := 59
abbrev cc8_sem4_0 : DmaSem sig := 60
abbrev cc8_sem4_1 : DmaSem sig := 61
abbrev cc9_sem0_0 : DmaSem sig := 62
abbrev cc9_sem0_1 : DmaSem sig := 63
abbrev cc9_sem1_0 : DmaSem sig := 64
abbrev cc9_sem2_0 : DmaSem sig := 65
abbrev cc9_sem3_0 : DmaSem sig := 66
abbrev cc9_sem3_1 : DmaSem sig := 67
abbrev cc10_sem0_0 : DmaSem sig := 68
abbrev cc10_sem0_1 : DmaSem sig := 69
abbrev cc10_sem1_0 : DmaSem sig := 70
abbrev cc10_sem2_0 : DmaSem sig := 71
abbrev cc10_sem3_0 : DmaSem sig := 72
abbrev cc10_sem3_1 : DmaSem sig := 73
abbrev cc11_sem0_0 : DmaSem sig := 74
abbrev cc11_sem0_1 : DmaSem sig := 75
abbrev cc11_sem1_0 : DmaSem sig := 76
abbrev cc11_sem2_0 : DmaSem sig := 77
abbrev cc11_sem3_0 : DmaSem sig := 78
abbrev cc11_sem3_1 : DmaSem sig := 79
abbrev cc12_sem0_0 : DmaSem sig := 80
abbrev cc12_sem0_1 : DmaSem sig := 81
abbrev cc12_sem1_0 : DmaSem sig := 82
abbrev cc12_sem1_1 : DmaSem sig := 83
abbrev cc12_sem2_0 : DmaSem sig := 84
abbrev cc12_sem2_1 : DmaSem sig := 85
abbrev cc12_sem3_0 : DmaSem sig := 86
abbrev cc12_sem3_1 : DmaSem sig := 87
abbrev cc12_sem4_0 : DmaSem sig := 88
abbrev cc12_sem4_1 : DmaSem sig := 89
abbrev cc13_sem0_0 : DmaSem sig := 90
abbrev cc13_sem0_1 : DmaSem sig := 91
abbrev cc13_sem1_0 : DmaSem sig := 92
abbrev cc13_sem2_0 : DmaSem sig := 93
abbrev cc13_sem3_0 : DmaSem sig := 94
abbrev cc13_sem3_1 : DmaSem sig := 95
abbrev cc14_sem0_0 : DmaSem sig := 96
abbrev cc14_sem0_1 : DmaSem sig := 97
abbrev cc14_sem1_0 : DmaSem sig := 98
abbrev cc14_sem2_0 : DmaSem sig := 99
abbrev cc14_sem3_0 : DmaSem sig := 100
abbrev cc14_sem3_1 : DmaSem sig := 101
abbrev cc15_sem0_0 : DmaSem sig := 102
abbrev cc15_sem0_1 : DmaSem sig := 103
abbrev cc15_sem1_0 : DmaSem sig := 104
abbrev cc15_sem2_0 : DmaSem sig := 105
abbrev cc15_sem3_0 : DmaSem sig := 106
abbrev cc15_sem3_1 : DmaSem sig := 107
abbrev cc16_sem0_0 : DmaSem sig := 108
abbrev cc16_sem0_1 : DmaSem sig := 109
abbrev cc16_sem1_0 : DmaSem sig := 110
abbrev cc16_sem1_1 : DmaSem sig := 111
abbrev cc16_sem2_0 : DmaSem sig := 112
abbrev cc16_sem2_1 : DmaSem sig := 113
abbrev cc16_sem3_0 : DmaSem sig := 114
abbrev cc16_sem3_1 : DmaSem sig := 115
abbrev cc16_sem4_0 : DmaSem sig := 116
abbrev cc16_sem4_1 : DmaSem sig := 117
abbrev cc17_sem0_0 : DmaSem sig := 118
abbrev cc17_sem0_1 : DmaSem sig := 119
abbrev cc17_sem1_0 : DmaSem sig := 120
abbrev cc17_sem2_0 : DmaSem sig := 121
abbrev cc17_sem3_0 : DmaSem sig := 122
abbrev cc17_sem3_1 : DmaSem sig := 123
abbrev cc18_sem0_0 : DmaSem sig := 124
abbrev cc18_sem0_1 : DmaSem sig := 125
abbrev cc18_sem1_0 : DmaSem sig := 126
abbrev cc18_sem2_0 : DmaSem sig := 127
abbrev cc18_sem3_0 : DmaSem sig := 128
abbrev cc18_sem3_1 : DmaSem sig := 129
abbrev cc19_sem0_0 : DmaSem sig := 130
abbrev cc19_sem0_1 : DmaSem sig := 131
abbrev cc19_sem1_0 : DmaSem sig := 132
abbrev cc19_sem2_0 : DmaSem sig := 133
abbrev cc19_sem3_0 : DmaSem sig := 134
abbrev cc19_sem3_1 : DmaSem sig := 135
abbrev cc20_sem0_0 : DmaSem sig := 136
abbrev cc20_sem0_1 : DmaSem sig := 137
abbrev cc20_sem1_0 : DmaSem sig := 138
abbrev cc20_sem1_1 : DmaSem sig := 139
abbrev cc20_sem2_0 : DmaSem sig := 140
abbrev cc20_sem2_1 : DmaSem sig := 141
abbrev cc20_sem3_0 : DmaSem sig := 142
abbrev cc20_sem3_1 : DmaSem sig := 143
abbrev cc20_sem4_0 : DmaSem sig := 144
abbrev cc20_sem4_1 : DmaSem sig := 145

abbrev nD : Nat := 1
abbrev τ : Topo := Topo.v7x

variable {F : FTy → Type} [FloatOps F]

abbrev grid0 : Pipeline.Grid := ⟨1, ![98], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S16384x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S6x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x32 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![13], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S16384x6 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S6x32 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S16384x32 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![49], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S16384x6 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S6x32 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S16384x32 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![7], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S16384x6 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S6x32 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x32 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S16384x32 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![13], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S8192x32 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S8192x32 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S8192x32 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S8192x32 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S8192x32 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![98], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S16384x32 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S32x32 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x32 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S16384x32 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![13], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S16384x32 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S32x32 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x32 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S16384x32 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![49], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S16384x32 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S32x32 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x32 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S16384x32 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![13], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_3 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage8_0 : Fin 2 → Memref sig .tc .vmem S8192x32 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S8192x32 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 2 → Memref sig .tc .vmem S8192x32 .f32 := fun | 0 => Memref.whole cc8_stg2_0 | 1 => Memref.whole cc8_stg2_1 | ⟨_ + 2, h⟩ => absurd h (Nat.not_lt.2 (Nat.le_add_left _ _))
abbrev sem8_2 : Fin 2 → DmaSem sig := fun | 0 => cc8_sem2_0 | 1 => cc8_sem2_1 | ⟨_ + 2, h⟩ => absurd h (Nat.not_lt.2 (Nat.le_add_left _ _))
abbrev reads8_2 : Fin grid8.rank → Bool := ![true]

abbrev stage8_3 : Fin 2 → Memref sig .tc .vmem S8192x32 .f32 := fun | 0 => Memref.whole cc8_stg3_0 | 1 => Memref.whole cc8_stg3_1 | ⟨_ + 2, h⟩ => absurd h (Nat.not_lt.2 (Nat.le_add_left _ _))
abbrev sem8_3 : Fin 2 → DmaSem sig := fun | 0 => cc8_sem3_0 | 1 => cc8_sem3_1 | ⟨_ + 2, h⟩ => absurd h (Nat.not_lt.2 (Nat.le_add_left _ _))
abbrev reads8_3 : Fin grid8.rank → Bool := ![true]

abbrev stage8_4 : Fin 2 → Memref sig .tc .vmem S8192x32 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev grid9 : Pipeline.Grid := ⟨1, ![98], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage9_0 : Fin 2 → Memref sig .tc .vmem S16384x32 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S32x32 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x32 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 2 → Memref sig .tc .vmem S16384x32 .f32 := fun | 0 => Memref.whole cc9_stg3_0 | 1 => Memref.whole cc9_stg3_1 | ⟨_ + 2, h⟩ => absurd h (Nat.not_lt.2 (Nat.le_add_left _ _))
abbrev sem9_3 : Fin 2 → DmaSem sig := fun | 0 => cc9_sem3_0 | 1 => cc9_sem3_1 | ⟨_ + 2, h⟩ => absurd h (Nat.not_lt.2 (Nat.le_add_left _ _))
abbrev reads9_3 : Fin grid9.rank → Bool := ![true]

abbrev grid10 : Pipeline.Grid := ⟨1, ![13], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage10_0 : Fin 2 → Memref sig .tc .vmem S16384x32 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S32x32 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x32 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S16384x32 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev grid11 : Pipeline.Grid := ⟨1, ![49], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S16384x32 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S32x32 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x32 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S16384x32 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![13], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_3 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage12_0 : Fin 2 → Memref sig .tc .vmem S8192x32 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S8192x32 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 2 → Memref sig .tc .vmem S8192x32 .f32 := fun | 0 => Memref.whole cc12_stg2_0 | 1 => Memref.whole cc12_stg2_1 | ⟨_ + 2, h⟩ => absurd h (Nat.not_lt.2 (Nat.le_add_left _ _))
abbrev sem12_2 : Fin 2 → DmaSem sig := fun | 0 => cc12_sem2_0 | 1 => cc12_sem2_1 | ⟨_ + 2, h⟩ => absurd h (Nat.not_lt.2 (Nat.le_add_left _ _))
abbrev reads12_2 : Fin grid12.rank → Bool := ![true]

abbrev stage12_3 : Fin 2 → Memref sig .tc .vmem S8192x32 .f32 := fun | 0 => Memref.whole cc12_stg3_0 | 1 => Memref.whole cc12_stg3_1 | ⟨_ + 2, h⟩ => absurd h (Nat.not_lt.2 (Nat.le_add_left _ _))
abbrev sem12_3 : Fin 2 → DmaSem sig := fun | 0 => cc12_sem3_0 | 1 => cc12_sem3_1 | ⟨_ + 2, h⟩ => absurd h (Nat.not_lt.2 (Nat.le_add_left _ _))
abbrev reads12_3 : Fin grid12.rank → Bool := ![true]

abbrev stage12_4 : Fin 2 → Memref sig .tc .vmem S8192x32 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev grid13 : Pipeline.Grid := ⟨1, ![98], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage13_0 : Fin 2 → Memref sig .tc .vmem S16384x32 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S32x32 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x32 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 2 → Memref sig .tc .vmem S16384x32 .f32 := fun | 0 => Memref.whole cc13_stg3_0 | 1 => Memref.whole cc13_stg3_1 | ⟨_ + 2, h⟩ => absurd h (Nat.not_lt.2 (Nat.le_add_left _ _))
abbrev sem13_3 : Fin 2 → DmaSem sig := fun | 0 => cc13_sem3_0 | 1 => cc13_sem3_1 | ⟨_ + 2, h⟩ => absurd h (Nat.not_lt.2 (Nat.le_add_left _ _))
abbrev reads13_3 : Fin grid13.rank → Bool := ![true]

abbrev grid14 : Pipeline.Grid := ⟨1, ![13], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage14_0 : Fin 2 → Memref sig .tc .vmem S16384x32 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S32x32 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x32 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S16384x32 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev grid15 : Pipeline.Grid := ⟨1, ![49], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S16384x32 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S32x32 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x32 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S16384x32 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![13], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_1 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_2 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_3 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

def cc16_transform_4 (i : grid16.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage16_0 : Fin 2 → Memref sig .tc .vmem S8192x32 .f32 := fun | 0 => Memref.whole cc16_stg0_0 | 1 => Memref.whole cc16_stg0_1 | ⟨_ + 2, h⟩ => absurd h (Nat.not_lt.2 (Nat.le_add_left _ _))
abbrev sem16_0 : Fin 2 → DmaSem sig := fun | 0 => cc16_sem0_0 | 1 => cc16_sem0_1 | ⟨_ + 2, h⟩ => absurd h (Nat.not_lt.2 (Nat.le_add_left _ _))
abbrev reads16_0 : Fin grid16.rank → Bool := ![true]

abbrev stage16_1 : Fin 2 → Memref sig .tc .vmem S8192x32 .f32 := fun | 0 => Memref.whole cc16_stg1_0 | 1 => Memref.whole cc16_stg1_1 | ⟨_ + 2, h⟩ => absurd h (Nat.not_lt.2 (Nat.le_add_left _ _))
abbrev sem16_1 : Fin 2 → DmaSem sig := fun | 0 => cc16_sem1_0 | 1 => cc16_sem1_1 | ⟨_ + 2, h⟩ => absurd h (Nat.not_lt.2 (Nat.le_add_left _ _))
abbrev reads16_1 : Fin grid16.rank → Bool := ![true]

abbrev stage16_2 : Fin 2 → Memref sig .tc .vmem S8192x32 .f32 := fun | 0 => Memref.whole cc16_stg2_0 | 1 => Memref.whole cc16_stg2_1 | ⟨_ + 2, h⟩ => absurd h (Nat.not_lt.2 (Nat.le_add_left _ _))
abbrev sem16_2 : Fin 2 → DmaSem sig := fun | 0 => cc16_sem2_0 | 1 => cc16_sem2_1 | ⟨_ + 2, h⟩ => absurd h (Nat.not_lt.2 (Nat.le_add_left _ _))
abbrev reads16_2 : Fin grid16.rank → Bool := ![true]

abbrev stage16_3 : Fin 2 → Memref sig .tc .vmem S8192x32 .f32 := fun | 0 => Memref.whole cc16_stg3_0 | 1 => Memref.whole cc16_stg3_1 | ⟨_ + 2, h⟩ => absurd h (Nat.not_lt.2 (Nat.le_add_left _ _))
abbrev sem16_3 : Fin 2 → DmaSem sig := fun | 0 => cc16_sem3_0 | 1 => cc16_sem3_1 | ⟨_ + 2, h⟩ => absurd h (Nat.not_lt.2 (Nat.le_add_left _ _))
abbrev reads16_3 : Fin grid16.rank → Bool := ![true]

abbrev stage16_4 : Fin 2 → Memref sig .tc .vmem S8192x32 .f32 := fun | 0 => Memref.whole cc16_stg4_0 | 1 => Memref.whole cc16_stg4_1 | ⟨_ + 2, h⟩ => absurd h (Nat.not_lt.2 (Nat.le_add_left _ _))
abbrev sem16_4 : Fin 2 → DmaSem sig := fun | 0 => cc16_sem4_0 | 1 => cc16_sem4_1 | ⟨_ + 2, h⟩ => absurd h (Nat.not_lt.2 (Nat.le_add_left _ _))
abbrev reads16_4 : Fin grid16.rank → Bool := ![true]

abbrev grid17 : Pipeline.Grid := ⟨1, ![98], ![false]⟩

def cc17_transform_0 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

def cc17_transform_1 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_2 (i : grid17.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc17_transform_3 (i : grid17.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage17_0 : Fin 2 → Memref sig .tc .vmem S16384x32 .f32 := fun | 0 => Memref.whole cc17_stg0_0 | 1 => Memref.whole cc17_stg0_1 | ⟨_ + 2, h⟩ => absurd h (Nat.not_lt.2 (Nat.le_add_left _ _))
abbrev sem17_0 : Fin 2 → DmaSem sig := fun | 0 => cc17_sem0_0 | 1 => cc17_sem0_1 | ⟨_ + 2, h⟩ => absurd h (Nat.not_lt.2 (Nat.le_add_left _ _))
abbrev reads17_0 : Fin grid17.rank → Bool := ![true]

abbrev stage17_1 : Fin 1 → Memref sig .tc .vmem S32x32 .f32 := fun | 0 => Memref.whole cc17_stg1_0 | ⟨_ + 1, h⟩ => absurd h (Nat.not_lt.2 (Nat.le_add_left _ _))
abbrev sem17_1 : Fin 1 → DmaSem sig := fun | 0 => cc17_sem1_0 | ⟨_ + 1, h⟩ => absurd h (Nat.not_lt.2 (Nat.le_add_left _ _))
abbrev reads17_1 : Fin grid17.rank → Bool := ![false]

abbrev stage17_2 : Fin 1 → Memref sig .tc .vmem S1x32 .f32 := fun | 0 => Memref.whole cc17_stg2_0 | ⟨_ + 1, h⟩ => absurd h (Nat.not_lt.2 (Nat.le_add_left _ _))
abbrev sem17_2 : Fin 1 → DmaSem sig := fun | 0 => cc17_sem2_0 | ⟨_ + 1, h⟩ => absurd h (Nat.not_lt.2 (Nat.le_add_left _ _))
abbrev reads17_2 : Fin grid17.rank → Bool := ![false]

abbrev stage17_3 : Fin 2 → Memref sig .tc .vmem S16384x32 .f32 := fun | 0 => Memref.whole cc17_stg3_0 | 1 => Memref.whole cc17_stg3_1 | ⟨_ + 2, h⟩ => absurd h (Nat.not_lt.2 (Nat.le_add_left _ _))
abbrev sem17_3 : Fin 2 → DmaSem sig := fun | 0 => cc17_sem3_0 | 1 => cc17_sem3_1 | ⟨_ + 2, h⟩ => absurd h (Nat.not_lt.2 (Nat.le_add_left _ _))
abbrev reads17_3 : Fin grid17.rank → Bool := ![true]

abbrev grid18 : Pipeline.Grid := ⟨1, ![13], ![false]⟩

def cc18_transform_0 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

def cc18_transform_1 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_2 (i : grid18.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc18_transform_3 (i : grid18.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage18_0 : Fin 2 → Memref sig .tc .vmem S16384x32 .f32 := fun | 0 => Memref.whole cc18_stg0_0 | 1 => Memref.whole cc18_stg0_1 | ⟨_ + 2, h⟩ => absurd h (Nat.not_lt.2 (Nat.le_add_left _ _))
abbrev sem18_0 : Fin 2 → DmaSem sig := fun | 0 => cc18_sem0_0 | 1 => cc18_sem0_1 | ⟨_ + 2, h⟩ => absurd h (Nat.not_lt.2 (Nat.le_add_left _ _))
abbrev reads18_0 : Fin grid18.rank → Bool := ![true]

abbrev stage18_1 : Fin 1 → Memref sig .tc .vmem S32x32 .f32 := fun | 0 => Memref.whole cc18_stg1_0 | ⟨_ + 1, h⟩ => absurd h (Nat.not_lt.2 (Nat.le_add_left _ _))
abbrev sem18_1 : Fin 1 → DmaSem sig := fun | 0 => cc18_sem1_0 | ⟨_ + 1, h⟩ => absurd h (Nat.not_lt.2 (Nat.le_add_left _ _))
abbrev reads18_1 : Fin grid18.rank → Bool := ![false]

abbrev stage18_2 : Fin 1 → Memref sig .tc .vmem S1x32 .f32 := fun | 0 => Memref.whole cc18_stg2_0 | ⟨_ + 1, h⟩ => absurd h (Nat.not_lt.2 (Nat.le_add_left _ _))
abbrev sem18_2 : Fin 1 → DmaSem sig := fun | 0 => cc18_sem2_0 | ⟨_ + 1, h⟩ => absurd h (Nat.not_lt.2 (Nat.le_add_left _ _))
abbrev reads18_2 : Fin grid18.rank → Bool := ![false]

abbrev stage18_3 : Fin 2 → Memref sig .tc .vmem S16384x32 .f32 := fun | 0 => Memref.whole cc18_stg3_0 | 1 => Memref.whole cc18_stg3_1 | ⟨_ + 2, h⟩ => absurd h (Nat.not_lt.2 (Nat.le_add_left _ _))
abbrev sem18_3 : Fin 2 → DmaSem sig := fun | 0 => cc18_sem3_0 | 1 => cc18_sem3_1 | ⟨_ + 2, h⟩ => absurd h (Nat.not_lt.2 (Nat.le_add_left _ _))
abbrev reads18_3 : Fin grid18.rank → Bool := ![true]

abbrev grid19 : Pipeline.Grid := ⟨1, ![49], ![false]⟩

def cc19_transform_0 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

def cc19_transform_1 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_2 (i : grid19.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc19_transform_3 (i : grid19.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage19_0 : Fin 2 → Memref sig .tc .vmem S16384x32 .f32 := fun | 0 => Memref.whole cc19_stg0_0 | 1 => Memref.whole cc19_stg0_1 | ⟨_ + 2, h⟩ => absurd h (Nat.not_lt.2 (Nat.le_add_left _ _))
abbrev sem19_0 : Fin 2 → DmaSem sig := fun | 0 => cc19_sem0_0 | 1 => cc19_sem0_1 | ⟨_ + 2, h⟩ => absurd h (Nat.not_lt.2 (Nat.le_add_left _ _))
abbrev reads19_0 : Fin grid19.rank → Bool := ![true]

abbrev stage19_1 : Fin 1 → Memref sig .tc .vmem S32x32 .f32 := fun | 0 => Memref.whole cc19_stg1_0 | ⟨_ + 1, h⟩ => absurd h (Nat.not_lt.2 (Nat.le_add_left _ _))
abbrev sem19_1 : Fin 1 → DmaSem sig := fun | 0 => cc19_sem1_0 | ⟨_ + 1, h⟩ => absurd h (Nat.not_lt.2 (Nat.le_add_left _ _))
abbrev reads19_1 : Fin grid19.rank → Bool := ![false]

abbrev stage19_2 : Fin 1 → Memref sig .tc .vmem S1x32 .f32 := fun | 0 => Memref.whole cc19_stg2_0 | ⟨_ + 1, h⟩ => absurd h (Nat.not_lt.2 (Nat.le_add_left _ _))
abbrev sem19_2 : Fin 1 → DmaSem sig := fun | 0 => cc19_sem2_0 | ⟨_ + 1, h⟩ => absurd h (Nat.not_lt.2 (Nat.le_add_left _ _))
abbrev reads19_2 : Fin grid19.rank → Bool := ![false]

abbrev stage19_3 : Fin 2 → Memref sig .tc .vmem S16384x32 .f32 := fun | 0 => Memref.whole cc19_stg3_0 | 1 => Memref.whole cc19_stg3_1 | ⟨_ + 2, h⟩ => absurd h (Nat.not_lt.2 (Nat.le_add_left _ _))
abbrev sem19_3 : Fin 2 → DmaSem sig := fun | 0 => cc19_sem3_0 | 1 => cc19_sem3_1 | ⟨_ + 2, h⟩ => absurd h (Nat.not_lt.2 (Nat.le_add_left _ _))
abbrev reads19_3 : Fin grid19.rank → Bool := ![true]

abbrev grid20 : Pipeline.Grid := ⟨1, ![13], ![false]⟩

def cc20_transform_0 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_1 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_2 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_3 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

def cc20_transform_4 (i : grid20.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage20_0 : Fin 2 → Memref sig .tc .vmem S8192x32 .f32 := fun | 0 => Memref.whole cc20_stg0_0 | 1 => Memref.whole cc20_stg0_1 | ⟨_ + 2, h⟩ => absurd h (Nat.not_lt.2 (Nat.le_add_left _ _))
abbrev sem20_0 : Fin 2 → DmaSem sig := fun | 0 => cc20_sem0_0 | 1 => cc20_sem0_1 | ⟨_ + 2, h⟩ => absurd h (Nat.not_lt.2 (Nat.le_add_left _ _))
abbrev reads20_0 : Fin grid20.rank → Bool := ![true]

abbrev stage20_1 : Fin 2 → Memref sig .tc .vmem S8192x32 .f32 := fun | 0 => Memref.whole cc20_stg1_0 | 1 => Memref.whole cc20_stg1_1 | ⟨_ + 2, h⟩ => absurd h (Nat.not_lt.2 (Nat.le_add_left _ _))
abbrev sem20_1 : Fin 2 → DmaSem sig := fun | 0 => cc20_sem1_0 | 1 => cc20_sem1_1 | ⟨_ + 2, h⟩ => absurd h (Nat.not_lt.2 (Nat.le_add_left _ _))
abbrev reads20_1 : Fin grid20.rank → Bool := ![true]

abbrev stage20_2 : Fin 2 → Memref sig .tc .vmem S8192x32 .f32 := fun | 0 => Memref.whole cc20_stg2_0 | 1 => Memref.whole cc20_stg2_1 | ⟨_ + 2, h⟩ => absurd h (Nat.not_lt.2 (Nat.le_add_left _ _))
abbrev sem20_2 : Fin 2 → DmaSem sig := fun | 0 => cc20_sem2_0 | 1 => cc20_sem2_1 | ⟨_ + 2, h⟩ => absurd h (Nat.not_lt.2 (Nat.le_add_left _ _))
abbrev reads20_2 : Fin grid20.rank → Bool := ![true]

abbrev stage20_3 : Fin 2 → Memref sig .tc .vmem S8192x32 .f32 := fun | 0 => Memref.whole cc20_stg3_0 | 1 => Memref.whole cc20_stg3_1 | ⟨_ + 2, h⟩ => absurd h (Nat.not_lt.2 (Nat.le_add_left _ _))
abbrev sem20_3 : Fin 2 → DmaSem sig := fun | 0 => cc20_sem3_0 | 1 => cc20_sem3_1 | ⟨_ + 2, h⟩ => absurd h (Nat.not_lt.2 (Nat.le_add_left _ _))
abbrev reads20_3 : Fin grid20.rank → Bool := ![true]

abbrev stage20_4 : Fin 2 → Memref sig .tc .vmem S8192x32 .f32 := fun | 0 => Memref.whole cc20_stg4_0 | 1 => Memref.whole cc20_stg4_1 | ⟨_ + 2, h⟩ => absurd h (Nat.not_lt.2 (Nat.le_add_left _ _))
abbrev sem20_4 : Fin 2 → DmaSem sig := fun | 0 => cc20_sem4_0 | 1 => cc20_sem4_1 | ⟨_ + 2, h⟩ => absurd h (Nat.not_lt.2 (Nat.le_add_left _ _))
abbrev reads20_4 : Fin grid20.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x6x32_S1x6x32_0_0_0 : S3x6x32.Slices ![0, 0, 0] S1x6x32
  shapeCasts_S1x6x32_S6x32 : S1x6x32.ShapeCasts S6x32
  slices_S3x32_S1x32_0_0 : S3x32.Slices ![0, 0] S1x32
  shapeCasts_S1x32_S32 : S1x32.ShapeCasts S32
  pads_S1600000x6_S1605632x6_056320_000 : S1600000x6.Pads (![0, 0] : Fin 2 → Nat) ![5632, 0] ![0, 0] S1605632x6
  h_S_ : 0 < S_.numel
  shapeCasts_S32_S1x32 : S32.ShapeCasts S1x32
  inb_S16384x6_S16384x6_0_0 : ∀ a, (![0, 0] : Fin 2 → Nat) a + S16384x6.size a ≤ S16384x6.size a
  h_S16384x6 : 0 < S16384x6.numel
  shapeCasts_S16384x6_S16384x6 : S16384x6.ShapeCasts S16384x6
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  shapeCasts_S6x32_S6x32 : S6x32.ShapeCasts S6x32
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S16384x32 : S1x32.Broadcasts S16384x32
  inb_S16384x32_S16384x32_0_0 : ∀ a, (![0, 0] : Fin 2 → Nat) a + S16384x32.size a ≤ S16384x32.size a
  h_S16384x32 : 0 < S16384x32.numel
  slices_S1605632x32_S1600000x32_0_0 : S1605632x32.Slices ![0, 0] S1600000x32
  bcast_S_S100000x32 : S_.BroadcastsInDim S100000x32 (![] : Fin 0 → Fin S100000x32.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S3x6x32_S1x6x32_1_0_0 : S3x6x32.Slices ![1, 0, 0] S1x6x32
  slices_S3x32_S1x32_1_0 : S3x32.Slices ![1, 0] S1x32
  pads_S200000x6_S212992x6_0129920_000 : S200000x6.Pads (![0, 0] : Fin 2 → Nat) ![12992, 0] ![0, 0] S212992x6
  slices_S212992x32_S200000x32_0_0 : S212992x32.Slices ![0, 0] S200000x32
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x6x32_S1x6x32_2_0_0 : S3x6x32.Slices ![2, 0, 0] S1x6x32
  slices_S3x32_S1x32_2_0 : S3x32.Slices ![2, 0] S1x32
  pads_S800000x6_S802816x6_028160_000 : S800000x6.Pads (![0, 0] : Fin 2 → Nat) ![2816, 0] ![0, 0] S802816x6
  slices_S802816x32_S800000x32_0_0 : S802816x32.Slices ![0, 0] S800000x32
  bcast_S_S800000x1 : S_.BroadcastsInDim S800000x1 (![] : Fin 0 → Fin S800000x1.rank)
  reducesTo_S3x6x32_S6x32_d0 : S3x6x32.ReducesTo [0] S6x32
  reducesTo_S3x32_S32_d0 : S3x32.ReducesTo [0] S32
  pads_S100000x6_S114688x6_0146880_000 : S100000x6.Pads (![0, 0] : Fin 2 → Nat) ![14688, 0] ![0, 0] S114688x6
  slices_S114688x32_S100000x32_0_0 : S114688x32.Slices ![0, 0] S100000x32
  pads_S100000x32_S106496x32_064960_000 : S100000x32.Pads (![0, 0] : Fin 2 → Nat) ![6496, 0] ![0, 0] S106496x32
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  slices_S106496x32_S100000x32_0_0 : S106496x32.Slices ![0, 0] S100000x32
  slices_S4x3x32x32_S1x1x32x32_0_0_0_0 : S4x3x32x32.Slices ![0, 0, 0, 0] S1x1x32x32
  shapeCasts_S1x1x32x32_S32x32 : S1x1x32x32.ShapeCasts S32x32
  slices_S4x3x32_S1x1x32_0_0_0 : S4x3x32.Slices ![0, 0, 0] S1x1x32
  shapeCasts_S1x1x32_S32 : S1x1x32.ShapeCasts S32
  pads_S1600000x32_S1605632x32_056320_000 : S1600000x32.Pads (![0, 0] : Fin 2 → Nat) ![5632, 0] ![0, 0] S1605632x32
  shapeCasts_S16384x32_S16384x32 : S16384x32.ShapeCasts S16384x32
  inb_S32x32_S32x32_0_0 : ∀ a, (![0, 0] : Fin 2 → Nat) a + S32x32.size a ≤ S32x32.size a
  h_S32x32 : 0 < S32x32.numel
  shapeCasts_S32x32_S32x32 : S32x32.ShapeCasts S32x32
  slices_S4x3x32x32_S1x1x32x32_0_1_0_0 : S4x3x32x32.Slices ![0, 1, 0, 0] S1x1x32x32
  slices_S4x3x32_S1x1x32_0_1_0 : S4x3x32.Slices ![0, 1, 0] S1x1x32
  pads_S200000x32_S212992x32_0129920_000 : S200000x32.Pads (![0, 0] : Fin 2 → Nat) ![12992, 0] ![0, 0] S212992x32
  slices_S4x3x32x32_S1x1x32x32_0_2_0_0 : S4x3x32x32.Slices ![0, 2, 0, 0] S1x1x32x32
  slices_S4x3x32_S1x1x32_0_2_0 : S4x3x32.Slices ![0, 2, 0] S1x1x32
  pads_S800000x32_S802816x32_028160_000 : S800000x32.Pads (![0, 0] : Fin 2 → Nat) ![2816, 0] ![0, 0] S802816x32
  slices_S4x3x32x32_S1x1x32x32_1_0_0_0 : S4x3x32x32.Slices ![1, 0, 0, 0] S1x1x32x32
  slices_S4x3x32_S1x1x32_1_0_0 : S4x3x32.Slices ![1, 0, 0] S1x1x32
  slices_S4x3x32x32_S1x1x32x32_1_1_0_0 : S4x3x32x32.Slices ![1, 1, 0, 0] S1x1x32x32
  slices_S4x3x32_S1x1x32_1_1_0 : S4x3x32.Slices ![1, 1, 0] S1x1x32
  slices_S4x3x32x32_S1x1x32x32_1_2_0_0 : S4x3x32x32.Slices ![1, 2, 0, 0] S1x1x32x32
  slices_S4x3x32_S1x1x32_1_2_0 : S4x3x32.Slices ![1, 2, 0] S1x1x32
  slices_S4x3x32x32_S1x1x32x32_2_0_0_0 : S4x3x32x32.Slices ![2, 0, 0, 0] S1x1x32x32
  slices_S4x3x32_S1x1x32_2_0_0 : S4x3x32.Slices ![2, 0, 0] S1x1x32
  slices_S4x3x32x32_S1x1x32x32_2_1_0_0 : S4x3x32x32.Slices ![2, 1, 0, 0] S1x1x32x32
  slices_S4x3x32_S1x1x32_2_1_0 : S4x3x32.Slices ![2, 1, 0] S1x1x32
  slices_S4x3x32x32_S1x1x32x32_2_2_0_0 : S4x3x32x32.Slices ![2, 2, 0, 0] S1x1x32x32
  slices_S4x3x32_S1x1x32_2_2_0 : S4x3x32.Slices ![2, 2, 0] S1x1x32
  slices_S4x3x32x32_S1x1x32x32_3_0_0_0 : S4x3x32x32.Slices ![3, 0, 0, 0] S1x1x32x32
  slices_S4x3x32_S1x1x32_3_0_0 : S4x3x32.Slices ![3, 0, 0] S1x1x32
  slices_S4x3x32x32_S1x1x32x32_3_1_0_0 : S4x3x32x32.Slices ![3, 1, 0, 0] S1x1x32x32
  slices_S4x3x32_S1x1x32_3_1_0 : S4x3x32.Slices ![3, 1, 0] S1x1x32
  slices_S4x3x32x32_S1x1x32x32_3_2_0_0 : S4x3x32x32.Slices ![3, 2, 0, 0] S1x1x32x32
  slices_S4x3x32_S1x1x32_3_2_0 : S4x3x32.Slices ![3, 2, 0] S1x1x32
  gather_S100000x6_S1600000x1_S1600000x6_1_0_n_n_0_1_16_wf : GatherDims.WF S100000x6 S1600000x1 S1600000x6 [1] [0] [] [0] [] 1 ![1, 6]
  dot_S16384x6_S6x32_S16384x32_1_0_0_1_n_n_wf : DotDims.WF S16384x6 S6x32 S16384x32 [1] [0] [0] [1] [] []
  scatter_S100000x32_S1600000x1_S1600000x32_1_0_0_1_wf : ScatterDims.WF S100000x32 S1600000x1 S1600000x32 [1] [0] [0] 1
  scatter_S100000x1_S1600000x1_S1600000x1_1_0_0_1_wf : ScatterDims.WF S100000x1 S1600000x1 S1600000x1 [1] [0] [0] 1
  gather_S100000x6_S200000x1_S200000x6_1_0_n_n_0_1_16_wf : GatherDims.WF S100000x6 S200000x1 S200000x6 [1] [0] [] [0] [] 1 ![1, 6]
  scatter_S100000x32_S200000x1_S200000x32_1_0_0_1_wf : ScatterDims.WF S100000x32 S200000x1 S200000x32 [1] [0] [0] 1
  gather_S100000x6_S800000x1_S800000x6_1_0_n_n_0_1_16_wf : GatherDims.WF S100000x6 S800000x1 S800000x6 [1] [0] [] [0] [] 1 ![1, 6]
  scatter_S100000x32_S800000x1_S800000x32_1_0_0_1_wf : ScatterDims.WF S100000x32 S800000x1 S800000x32 [1] [0] [0] 1
  scatter_S100000x1_S800000x1_S800000x1_1_0_0_1_wf : ScatterDims.WF S100000x1 S800000x1 S800000x1 [1] [0] [0] 1
  gather_S100000x32_S1600000x1_S1600000x32_1_0_n_n_0_1_132_wf : GatherDims.WF S100000x32 S1600000x1 S1600000x32 [1] [0] [] [0] [] 1 ![1, 32]
  dot_S16384x32_S32x32_S16384x32_1_0_0_1_n_n_wf : DotDims.WF S16384x32 S32x32 S16384x32 [1] [0] [0] [1] [] []
  gather_S100000x32_S200000x1_S200000x32_1_0_n_n_0_1_132_wf : GatherDims.WF S100000x32 S200000x1 S200000x32 [1] [0] [] [0] [] 1 ![1, 32]
  gather_S100000x32_S800000x1_S800000x32_1_0_n_n_0_1_132_wf : GatherDims.WF S100000x32 S800000x1 S800000x32 [1] [0] [] [0] [] 1 ![1, 32]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16384x6.size a ≤ S1605632x6.size a
  hwx0_0 : ∀ i : grid0.Coords, EltTy.bits .f32 = 32 ∨ (Rect.block (s := S1605632x6) S16384x6.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S6x32.size a ≤ S6x32.size a
  hwx0_1 : ∀ i : grid0.Coords, EltTy.bits .f32 = 32 ∨ (Rect.block (s := S6x32) S6x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16384x32.size a ≤ S1605632x32.size a
  hwx0_3 : ∀ i : grid0.Coords, EltTy.bits .f32 = 32 ∨ (Rect.block (s := S1605632x32) S16384x32.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16384x6.size a ≤ S212992x6.size a
  hwx1_0 : ∀ i : grid1.Coords, EltTy.bits .f32 = 32 ∨ (Rect.block (s := S212992x6) S16384x6.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S6x32.size a ≤ S6x32.size a
  hwx1_1 : ∀ i : grid1.Coords, EltTy.bits .f32 = 32 ∨ (Rect.block (s := S6x32) S6x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x32.size a ≤ S1x32.size a
  hwx1_2 : ∀ i : grid1.Coords, EltTy.bits .f32 = 32 ∨ (Rect.block (s := S1x32) S1x32.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16384x32.size a ≤ S212992x32.size a
  hwx1_3 : ∀ i : grid1.Coords, EltTy.bits .f32 = 32 ∨ (Rect.block (s := S212992x32) S16384x32.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16384x6.size a ≤ S802816x6.size a
  hwx2_0 : ∀ i : grid2.Coords, EltTy.bits .f32 = 32 ∨ (Rect.block (s := S802816x6) S16384x6.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S6x32.size a ≤ S6x32.size a
  hwx2_1 : ∀ i : grid2.Coords, EltTy.bits .f32 = 32 ∨ (Rect.block (s := S6x32) S6x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x32.size a ≤ S1x32.size a
  hwx2_2 : ∀ i : grid2.Coords, EltTy.bits .f32 = 32 ∨ (Rect.block (s := S1x32) S1x32.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16384x32.size a ≤ S802816x32.size a
  hwx2_3 : ∀ i : grid2.Coords, EltTy.bits .f32 = 32 ∨ (Rect.block (s := S802816x32) S16384x32.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S16384x6.size a ≤ S114688x6.size a
  hwx3_0 : ∀ i : grid3.Coords, EltTy.bits .f32 = 32 ∨ (Rect.block (s := S114688x6) S16384x6.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S6x32.size a ≤ S6x32.size a
  hwx3_1 : ∀ i : grid3.Coords, EltTy.bits .f32 = 32 ∨ (Rect.block (s := S6x32) S6x32.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x32.size a ≤ S1x32.size a
  hwx3_2 : ∀ i : grid3.Coords, EltTy.bits .f32 = 32 ∨ (Rect.block (s := S1x32) S1x32.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S16384x32.size a ≤ S114688x32.size a
  hwx3_3 : ∀ i : grid3.Coords, EltTy.bits .f32 = 32 ∨ (Rect.block (s := S114688x32) S16384x32.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S8192x32.size a ≤ S106496x32.size a
  hwx4_0 : ∀ i : grid4.Coords, EltTy.bits .f32 = 32 ∨ (Rect.block (s := S106496x32) S8192x32.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S8192x32.size a ≤ S106496x32.size a
  hwx4_1 : ∀ i : grid4.Coords, EltTy.bits .f32 = 32 ∨ (Rect.block (s := S106496x32) S8192x32.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S8192x32.size a ≤ S106496x32.size a
  hwx4_2 : ∀ i : grid4.Coords, EltTy.bits .f32 = 32 ∨ (Rect.block (s := S106496x32) S8192x32.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S8192x32.size a ≤ S106496x32.size a
  hwx4_3 : ∀ i : grid4.Coords, EltTy.bits .f32 = 32 ∨ (Rect.block (s := S106496x32) S8192x32.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S8192x32.size a ≤ S106496x32.size a
  hwx4_4 : ∀ i : grid4.Coords, EltTy.bits .f32 = 32 ∨ (Rect.block (s := S106496x32) S8192x32.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S16384x32.size a ≤ S1605632x32.size a
  hwx5_0 : ∀ i : grid5.Coords, EltTy.bits .f32 = 32 ∨ (Rect.block (s := S1605632x32) S16384x32.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S32x32.size a ≤ S32x32.size a
  hwx5_1 : ∀ i : grid5.Coords, EltTy.bits .f32 = 32 ∨ (Rect.block (s := S32x32) S32x32.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x32.size a ≤ S1x32.size a
  hwx5_2 : ∀ i : grid5.Coords, EltTy.bits .f32 = 32 ∨ (Rect.block (s := S1x32) S1x32.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S16384x32.size a ≤ S1605632x32.size a
  hwx5_3 : ∀ i : grid5.Coords, EltTy.bits .f32 = 32 ∨ (Rect.block (s := S1605632x32) S16384x32.size (cc5_transform_3 i) (hinb5_3 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S16384x32.size a ≤ S212992x32.size a
  hwx6_0 : ∀ i : grid6.Coords, EltTy.bits .f32 = 32 ∨ (Rect.block (s := S212992x32) S16384x32.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S32x32.size a ≤ S32x32.size a
  hwx6_1 : ∀ i : grid6.Coords, EltTy.bits .f32 = 32 ∨ (Rect.block (s := S32x32) S32x32.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x32.size a ≤ S1x32.size a
  hwx6_2 : ∀ i : grid6.Coords, EltTy.bits .f32 = 32 ∨ (Rect.block (s := S1x32) S1x32.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S16384x32.size a ≤ S212992x32.size a
  hwx6_3 : ∀ i : grid6.Coords, EltTy.bits .f32 = 32 ∨ (Rect.block (s := S212992x32) S16384x32.size (cc6_transform_3 i) (hinb6_3 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S16384x32.size a ≤ S802816x32.size a
  hwx7_0 : ∀ i : grid7.Coords, EltTy.bits .f32 = 32 ∨ (Rect.block (s := S802816x32) S16384x32.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S32x32.size a ≤ S32x32.size a
  hwx7_1 : ∀ i : grid7.Coords, EltTy.bits .f32 = 32 ∨ (Rect.block (s := S32x32) S32x32.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x32.size a ≤ S1x32.size a
  hwx7_2 : ∀ i : grid7.Coords, EltTy.bits .f32 = 32 ∨ (Rect.block (s := S1x32) S1x32.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S16384x32.size a ≤ S802816x32.size a
  hwx7_3 : ∀ i : grid7.Coords, EltTy.bits .f32 = 32 ∨ (Rect.block (s := S802816x32) S16384x32.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S8192x32.size a ≤ S106496x32.size a
  hwx8_0 : ∀ i : grid8.Coords, EltTy.bits .f32 = 32 ∨ (Rect.block (s := S106496x32) S8192x32.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S8192x32.size a ≤ S106496x32.size a
  hwx8_1 : ∀ i : grid8.Coords, EltTy.bits .f32 = 32 ∨ (Rect.block (s := S106496x32) S8192x32.size (cc8_transform_1 i) (hinb8_1 i)).WholeWords (EltTy.packing .f32)
  hstage8_2 : ∀ j, (stage8_2 j).IsWhole
  nbuf8_2 : grid8.bufCount reads8_2 false = 2
  hreads8_2 : ∀ i i' : grid8.Coords, (∀ a, reads8_2 a = true → i a = i' a) → cc8_transform_2 i = cc8_transform_2 i'
  hinb8_2 : ∀ (i : grid8.Coords) a, (cc8_transform_2 i a + 1) * S8192x32.size a ≤ S106496x32.size a
  hwx8_2 : ∀ i : grid8.Coords, EltTy.bits .f32 = 32 ∨ (Rect.block (s := S106496x32) S8192x32.size (cc8_transform_2 i) (hinb8_2 i)).WholeWords (EltTy.packing .f32)
  hstage8_3 : ∀ j, (stage8_3 j).IsWhole
  nbuf8_3 : grid8.bufCount reads8_3 false = 2
  hreads8_3 : ∀ i i' : grid8.Coords, (∀ a, reads8_3 a = true → i a = i' a) → cc8_transform_3 i = cc8_transform_3 i'
  hinb8_3 : ∀ (i : grid8.Coords) a, (cc8_transform_3 i a + 1) * S8192x32.size a ≤ S106496x32.size a
  hwx8_3 : ∀ i : grid8.Coords, EltTy.bits .f32 = 32 ∨ (Rect.block (s := S106496x32) S8192x32.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S8192x32.size a ≤ S106496x32.size a
  hwx8_4 : ∀ i : grid8.Coords, EltTy.bits .f32 = 32 ∨ (Rect.block (s := S106496x32) S8192x32.size (cc8_transform_4 i) (hinb8_4 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S16384x32.size a ≤ S1605632x32.size a
  hwx9_0 : ∀ i : grid9.Coords, EltTy.bits .f32 = 32 ∨ (Rect.block (s := S1605632x32) S16384x32.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S32x32.size a ≤ S32x32.size a
  hwx9_1 : ∀ i : grid9.Coords, EltTy.bits .f32 = 32 ∨ (Rect.block (s := S32x32) S32x32.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x32.size a ≤ S1x32.size a
  hwx9_2 : ∀ i : grid9.Coords, EltTy.bits .f32 = 32 ∨ (Rect.block (s := S1x32) S1x32.size (cc9_transform_2 i) (hinb9_2 i)).WholeWords (EltTy.packing .f32)
  hstage9_3 : ∀ j, (stage9_3 j).IsWhole
  nbuf9_3 : grid9.bufCount reads9_3 false = 2
  hreads9_3 : ∀ i i' : grid9.Coords, (∀ a, reads9_3 a = true → i a = i' a) → cc9_transform_3 i = cc9_transform_3 i'
  hinb9_3 : ∀ (i : grid9.Coords) a, (cc9_transform_3 i a + 1) * S16384x32.size a ≤ S1605632x32.size a
  hwx9_3 : ∀ i : grid9.Coords, EltTy.bits .f32 = 32 ∨ (Rect.block (s := S1605632x32) S16384x32.size (cc9_transform_3 i) (hinb9_3 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S16384x32.size a ≤ S212992x32.size a
  hwx10_0 : ∀ i : grid10.Coords, EltTy.bits .f32 = 32 ∨ (Rect.block (s := S212992x32) S16384x32.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S32x32.size a ≤ S32x32.size a
  hwx10_1 : ∀ i : grid10.Coords, EltTy.bits .f32 = 32 ∨ (Rect.block (s := S32x32) S32x32.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x32.size a ≤ S1x32.size a
  hwx10_2 : ∀ i : grid10.Coords, EltTy.bits .f32 = 32 ∨ (Rect.block (s := S1x32) S1x32.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S16384x32.size a ≤ S212992x32.size a
  hwx10_3 : ∀ i : grid10.Coords, EltTy.bits .f32 = 32 ∨ (Rect.block (s := S212992x32) S16384x32.size (cc10_transform_3 i) (hinb10_3 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S16384x32.size a ≤ S802816x32.size a
  hwx11_0 : ∀ i : grid11.Coords, EltTy.bits .f32 = 32 ∨ (Rect.block (s := S802816x32) S16384x32.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S32x32.size a ≤ S32x32.size a
  hwx11_1 : ∀ i : grid11.Coords, EltTy.bits .f32 = 32 ∨ (Rect.block (s := S32x32) S32x32.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x32.size a ≤ S1x32.size a
  hwx11_2 : ∀ i : grid11.Coords, EltTy.bits .f32 = 32 ∨ (Rect.block (s := S1x32) S1x32.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S16384x32.size a ≤ S802816x32.size a
  hwx11_3 : ∀ i : grid11.Coords, EltTy.bits .f32 = 32 ∨ (Rect.block (s := S802816x32) S16384x32.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S8192x32.size a ≤ S106496x32.size a
  hwx12_0 : ∀ i : grid12.Coords, EltTy.bits .f32 = 32 ∨ (Rect.block (s := S106496x32) S8192x32.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S8192x32.size a ≤ S106496x32.size a
  hwx12_1 : ∀ i : grid12.Coords, EltTy.bits .f32 = 32 ∨ (Rect.block (s := S106496x32) S8192x32.size (cc12_transform_1 i) (hinb12_1 i)).WholeWords (EltTy.packing .f32)
  hstage12_2 : ∀ j, (stage12_2 j).IsWhole
  nbuf12_2 : grid12.bufCount reads12_2 false = 2
  hreads12_2 : ∀ i i' : grid12.Coords, (∀ a, reads12_2 a = true → i a = i' a) → cc12_transform_2 i = cc12_transform_2 i'
  hinb12_2 : ∀ (i : grid12.Coords) a, (cc12_transform_2 i a + 1) * S8192x32.size a ≤ S106496x32.size a
  hwx12_2 : ∀ i : grid12.Coords, EltTy.bits .f32 = 32 ∨ (Rect.block (s := S106496x32) S8192x32.size (cc12_transform_2 i) (hinb12_2 i)).WholeWords (EltTy.packing .f32)
  hstage12_3 : ∀ j, (stage12_3 j).IsWhole
  nbuf12_3 : grid12.bufCount reads12_3 false = 2
  hreads12_3 : ∀ i i' : grid12.Coords, (∀ a, reads12_3 a = true → i a = i' a) → cc12_transform_3 i = cc12_transform_3 i'
  hinb12_3 : ∀ (i : grid12.Coords) a, (cc12_transform_3 i a + 1) * S8192x32.size a ≤ S106496x32.size a
  hwx12_3 : ∀ i : grid12.Coords, EltTy.bits .f32 = 32 ∨ (Rect.block (s := S106496x32) S8192x32.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S8192x32.size a ≤ S106496x32.size a
  hwx12_4 : ∀ i : grid12.Coords, EltTy.bits .f32 = 32 ∨ (Rect.block (s := S106496x32) S8192x32.size (cc12_transform_4 i) (hinb12_4 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S16384x32.size a ≤ S1605632x32.size a
  hwx13_0 : ∀ i : grid13.Coords, EltTy.bits .f32 = 32 ∨ (Rect.block (s := S1605632x32) S16384x32.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S32x32.size a ≤ S32x32.size a
  hwx13_1 : ∀ i : grid13.Coords, EltTy.bits .f32 = 32 ∨ (Rect.block (s := S32x32) S32x32.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x32.size a ≤ S1x32.size a
  hwx13_2 : ∀ i : grid13.Coords, EltTy.bits .f32 = 32 ∨ (Rect.block (s := S1x32) S1x32.size (cc13_transform_2 i) (hinb13_2 i)).WholeWords (EltTy.packing .f32)
  hstage13_3 : ∀ j, (stage13_3 j).IsWhole
  nbuf13_3 : grid13.bufCount reads13_3 false = 2
  hreads13_3 : ∀ i i' : grid13.Coords, (∀ a, reads13_3 a = true → i a = i' a) → cc13_transform_3 i = cc13_transform_3 i'
  hinb13_3 : ∀ (i : grid13.Coords) a, (cc13_transform_3 i a + 1) * S16384x32.size a ≤ S1605632x32.size a
  hwx13_3 : ∀ i : grid13.Coords, EltTy.bits .f32 = 32 ∨ (Rect.block (s := S1605632x32) S16384x32.size (cc13_transform_3 i) (hinb13_3 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S16384x32.size a ≤ S212992x32.size a
  hwx14_0 : ∀ i : grid14.Coords, EltTy.bits .f32 = 32 ∨ (Rect.block (s := S212992x32) S16384x32.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S32x32.size a ≤ S32x32.size a
  hwx14_1 : ∀ i : grid14.Coords, EltTy.bits .f32 = 32 ∨ (Rect.block (s := S32x32) S32x32.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x32.size a ≤ S1x32.size a
  hwx14_2 : ∀ i : grid14.Coords, EltTy.bits .f32 = 32 ∨ (Rect.block (s := S1x32) S1x32.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S16384x32.size a ≤ S212992x32.size a
  hwx14_3 : ∀ i : grid14.Coords, EltTy.bits .f32 = 32 ∨ (Rect.block (s := S212992x32) S16384x32.size (cc14_transform_3 i) (hinb14_3 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S16384x32.size a ≤ S802816x32.size a
  hwx15_0 : ∀ i : grid15.Coords, EltTy.bits .f32 = 32 ∨ (Rect.block (s := S802816x32) S16384x32.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S32x32.size a ≤ S32x32.size a
  hwx15_1 : ∀ i : grid15.Coords, EltTy.bits .f32 = 32 ∨ (Rect.block (s := S32x32) S32x32.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x32.size a ≤ S1x32.size a
  hwx15_2 : ∀ i : grid15.Coords, EltTy.bits .f32 = 32 ∨ (Rect.block (s := S1x32) S1x32.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S16384x32.size a ≤ S802816x32.size a
  hwx15_3 : ∀ i : grid15.Coords, EltTy.bits .f32 = 32 ∨ (Rect.block (s := S802816x32) S16384x32.size (cc15_transform_3 i) (hinb15_3 i)).WholeWords (EltTy.packing .f32)
  hrank16 : 0 < grid16.rank
  hstage16_0 : ∀ j, (stage16_0 j).IsWhole
  nbuf16_0 : grid16.bufCount reads16_0 false = 2
  hreads16_0 : ∀ i i' : grid16.Coords, (∀ a, reads16_0 a = true → i a = i' a) → cc16_transform_0 i = cc16_transform_0 i'
  hinb16_0 : ∀ (i : grid16.Coords) a, (cc16_transform_0 i a + 1) * S8192x32.size a ≤ S106496x32.size a
  hwx16_0 : ∀ i : grid16.Coords, EltTy.bits .f32 = 32 ∨ (Rect.block (s := S106496x32) S8192x32.size (cc16_transform_0 i) (hinb16_0 i)).WholeWords (EltTy.packing .f32)
  hstage16_1 : ∀ j, (stage16_1 j).IsWhole
  nbuf16_1 : grid16.bufCount reads16_1 false = 2
  hreads16_1 : ∀ i i' : grid16.Coords, (∀ a, reads16_1 a = true → i a = i' a) → cc16_transform_1 i = cc16_transform_1 i'
  hinb16_1 : ∀ (i : grid16.Coords) a, (cc16_transform_1 i a + 1) * S8192x32.size a ≤ S106496x32.size a
  hwx16_1 : ∀ i : grid16.Coords, EltTy.bits .f32 = 32 ∨ (Rect.block (s := S106496x32) S8192x32.size (cc16_transform_1 i) (hinb16_1 i)).WholeWords (EltTy.packing .f32)
  hstage16_2 : ∀ j, (stage16_2 j).IsWhole
  nbuf16_2 : grid16.bufCount reads16_2 false = 2
  hreads16_2 : ∀ i i' : grid16.Coords, (∀ a, reads16_2 a = true → i a = i' a) → cc16_transform_2 i = cc16_transform_2 i'
  hinb16_2 : ∀ (i : grid16.Coords) a, (cc16_transform_2 i a + 1) * S8192x32.size a ≤ S106496x32.size a
  hwx16_2 : ∀ i : grid16.Coords, EltTy.bits .f32 = 32 ∨ (Rect.block (s := S106496x32) S8192x32.size (cc16_transform_2 i) (hinb16_2 i)).WholeWords (EltTy.packing .f32)
  hstage16_3 : ∀ j, (stage16_3 j).IsWhole
  nbuf16_3 : grid16.bufCount reads16_3 false = 2
  hreads16_3 : ∀ i i' : grid16.Coords, (∀ a, reads16_3 a = true → i a = i' a) → cc16_transform_3 i = cc16_transform_3 i'
  hinb16_3 : ∀ (i : grid16.Coords) a, (cc16_transform_3 i a + 1) * S8192x32.size a ≤ S106496x32.size a
  hwx16_3 : ∀ i : grid16.Coords, EltTy.bits .f32 = 32 ∨ (Rect.block (s := S106496x32) S8192x32.size (cc16_transform_3 i) (hinb16_3 i)).WholeWords (EltTy.packing .f32)
  hstage16_4 : ∀ j, (stage16_4 j).IsWhole
  nbuf16_4 : grid16.bufCount reads16_4 false = 2
  hreads16_4 : ∀ i i' : grid16.Coords, (∀ a, reads16_4 a = true → i a = i' a) → cc16_transform_4 i = cc16_transform_4 i'
  hinb16_4 : ∀ (i : grid16.Coords) a, (cc16_transform_4 i a + 1) * S8192x32.size a ≤ S106496x32.size a
  hwx16_4 : ∀ i : grid16.Coords, EltTy.bits .f32 = 32 ∨ (Rect.block (s := S106496x32) S8192x32.size (cc16_transform_4 i) (hinb16_4 i)).WholeWords (EltTy.packing .f32)
  hrank17 : 0 < grid17.rank
  hstage17_0 : ∀ j, (stage17_0 j).IsWhole
  nbuf17_0 : grid17.bufCount reads17_0 false = 2
  hreads17_0 : ∀ i i' : grid17.Coords, (∀ a, reads17_0 a = true → i a = i' a) → cc17_transform_0 i = cc17_transform_0 i'
  hinb17_0 : ∀ (i : grid17.Coords) a, (cc17_transform_0 i a + 1) * S16384x32.size a ≤ S1605632x32.size a
  hwx17_0 : ∀ i : grid17.Coords, EltTy.bits .f32 = 32 ∨ (Rect.block (s := S1605632x32) S16384x32.size (cc17_transform_0 i) (hinb17_0 i)).WholeWords (EltTy.packing .f32)
  hstage17_1 : ∀ j, (stage17_1 j).IsWhole
  nbuf17_1 : grid17.bufCount reads17_1 true = 1
  hreads17_1 : ∀ i i' : grid17.Coords, (∀ a, reads17_1 a = true → i a = i' a) → cc17_transform_1 i = cc17_transform_1 i'
  hinb17_1 : ∀ (i : grid17.Coords) a, (cc17_transform_1 i a + 1) * S32x32.size a ≤ S32x32.size a
  hwx17_1 : ∀ i : grid17.Coords, EltTy.bits .f32 = 32 ∨ (Rect.block (s := S32x32) S32x32.size (cc17_transform_1 i) (hinb17_1 i)).WholeWords (EltTy.packing .f32)
  hstage17_2 : ∀ j, (stage17_2 j).IsWhole
  nbuf17_2 : grid17.bufCount reads17_2 true = 1
  hreads17_2 : ∀ i i' : grid17.Coords, (∀ a, reads17_2 a = true → i a = i' a) → cc17_transform_2 i = cc17_transform_2 i'
  hinb17_2 : ∀ (i : grid17.Coords) a, (cc17_transform_2 i a + 1) * S1x32.size a ≤ S1x32.size a
  hwx17_2 : ∀ i : grid17.Coords, EltTy.bits .f32 = 32 ∨ (Rect.block (s := S1x32) S1x32.size (cc17_transform_2 i) (hinb17_2 i)).WholeWords (EltTy.packing .f32)
  hstage17_3 : ∀ j, (stage17_3 j).IsWhole
  nbuf17_3 : grid17.bufCount reads17_3 false = 2
  hreads17_3 : ∀ i i' : grid17.Coords, (∀ a, reads17_3 a = true → i a = i' a) → cc17_transform_3 i = cc17_transform_3 i'
  hinb17_3 : ∀ (i : grid17.Coords) a, (cc17_transform_3 i a + 1) * S16384x32.size a ≤ S1605632x32.size a
  hwx17_3 : ∀ i : grid17.Coords, EltTy.bits .f32 = 32 ∨ (Rect.block (s := S1605632x32) S16384x32.size (cc17_transform_3 i) (hinb17_3 i)).WholeWords (EltTy.packing .f32)
  hrank18 : 0 < grid18.rank
  hstage18_0 : ∀ j, (stage18_0 j).IsWhole
  nbuf18_0 : grid18.bufCount reads18_0 false = 2
  hreads18_0 : ∀ i i' : grid18.Coords, (∀ a, reads18_0 a = true → i a = i' a) → cc18_transform_0 i = cc18_transform_0 i'
  hinb18_0 : ∀ (i : grid18.Coords) a, (cc18_transform_0 i a + 1) * S16384x32.size a ≤ S212992x32.size a
  hwx18_0 : ∀ i : grid18.Coords, EltTy.bits .f32 = 32 ∨ (Rect.block (s := S212992x32) S16384x32.size (cc18_transform_0 i) (hinb18_0 i)).WholeWords (EltTy.packing .f32)
  hstage18_1 : ∀ j, (stage18_1 j).IsWhole
  nbuf18_1 : grid18.bufCount reads18_1 true = 1
  hreads18_1 : ∀ i i' : grid18.Coords, (∀ a, reads18_1 a = true → i a = i' a) → cc18_transform_1 i = cc18_transform_1 i'
  hinb18_1 : ∀ (i : grid18.Coords) a, (cc18_transform_1 i a + 1) * S32x32.size a ≤ S32x32.size a
  hwx18_1 : ∀ i : grid18.Coords, EltTy.bits .f32 = 32 ∨ (Rect.block (s := S32x32) S32x32.size (cc18_transform_1 i) (hinb18_1 i)).WholeWords (EltTy.packing .f32)
  hstage18_2 : ∀ j, (stage18_2 j).IsWhole
  nbuf18_2 : grid18.bufCount reads18_2 true = 1
  hreads18_2 : ∀ i i' : grid18.Coords, (∀ a, reads18_2 a = true → i a = i' a) → cc18_transform_2 i = cc18_transform_2 i'
  hinb18_2 : ∀ (i : grid18.Coords) a, (cc18_transform_2 i a + 1) * S1x32.size a ≤ S1x32.size a
  hwx18_2 : ∀ i : grid18.Coords, EltTy.bits .f32 = 32 ∨ (Rect.block (s := S1x32) S1x32.size (cc18_transform_2 i) (hinb18_2 i)).WholeWords (EltTy.packing .f32)
  hstage18_3 : ∀ j, (stage18_3 j).IsWhole
  nbuf18_3 : grid18.bufCount reads18_3 false = 2
  hreads18_3 : ∀ i i' : grid18.Coords, (∀ a, reads18_3 a = true → i a = i' a) → cc18_transform_3 i = cc18_transform_3 i'
  hinb18_3 : ∀ (i : grid18.Coords) a, (cc18_transform_3 i a + 1) * S16384x32.size a ≤ S212992x32.size a
  hwx18_3 : ∀ i : grid18.Coords, EltTy.bits .f32 = 32 ∨ (Rect.block (s := S212992x32) S16384x32.size (cc18_transform_3 i) (hinb18_3 i)).WholeWords (EltTy.packing .f32)
  hrank19 : 0 < grid19.rank
  hstage19_0 : ∀ j, (stage19_0 j).IsWhole
  nbuf19_0 : grid19.bufCount reads19_0 false = 2
  hreads19_0 : ∀ i i' : grid19.Coords, (∀ a, reads19_0 a = true → i a = i' a) → cc19_transform_0 i = cc19_transform_0 i'
  hinb19_0 : ∀ (i : grid19.Coords) a, (cc19_transform_0 i a + 1) * S16384x32.size a ≤ S802816x32.size a
  hwx19_0 : ∀ i : grid19.Coords, EltTy.bits .f32 = 32 ∨ (Rect.block (s := S802816x32) S16384x32.size (cc19_transform_0 i) (hinb19_0 i)).WholeWords (EltTy.packing .f32)
  hstage19_1 : ∀ j, (stage19_1 j).IsWhole
  nbuf19_1 : grid19.bufCount reads19_1 true = 1
  hreads19_1 : ∀ i i' : grid19.Coords, (∀ a, reads19_1 a = true → i a = i' a) → cc19_transform_1 i = cc19_transform_1 i'
  hinb19_1 : ∀ (i : grid19.Coords) a, (cc19_transform_1 i a + 1) * S32x32.size a ≤ S32x32.size a
  hwx19_1 : ∀ i : grid19.Coords, EltTy.bits .f32 = 32 ∨ (Rect.block (s := S32x32) S32x32.size (cc19_transform_1 i) (hinb19_1 i)).WholeWords (EltTy.packing .f32)
  hstage19_2 : ∀ j, (stage19_2 j).IsWhole
  nbuf19_2 : grid19.bufCount reads19_2 true = 1
  hreads19_2 : ∀ i i' : grid19.Coords, (∀ a, reads19_2 a = true → i a = i' a) → cc19_transform_2 i = cc19_transform_2 i'
  hinb19_2 : ∀ (i : grid19.Coords) a, (cc19_transform_2 i a + 1) * S1x32.size a ≤ S1x32.size a
  hwx19_2 : ∀ i : grid19.Coords, EltTy.bits .f32 = 32 ∨ (Rect.block (s := S1x32) S1x32.size (cc19_transform_2 i) (hinb19_2 i)).WholeWords (EltTy.packing .f32)
  hstage19_3 : ∀ j, (stage19_3 j).IsWhole
  nbuf19_3 : grid19.bufCount reads19_3 false = 2
  hreads19_3 : ∀ i i' : grid19.Coords, (∀ a, reads19_3 a = true → i a = i' a) → cc19_transform_3 i = cc19_transform_3 i'
  hinb19_3 : ∀ (i : grid19.Coords) a, (cc19_transform_3 i a + 1) * S16384x32.size a ≤ S802816x32.size a
  hwx19_3 : ∀ i : grid19.Coords, EltTy.bits .f32 = 32 ∨ (Rect.block (s := S802816x32) S16384x32.size (cc19_transform_3 i) (hinb19_3 i)).WholeWords (EltTy.packing .f32)
  hrank20 : 0 < grid20.rank
  hstage20_0 : ∀ j, (stage20_0 j).IsWhole
  nbuf20_0 : grid20.bufCount reads20_0 false = 2
  hreads20_0 : ∀ i i' : grid20.Coords, (∀ a, reads20_0 a = true → i a = i' a) → cc20_transform_0 i = cc20_transform_0 i'
  hinb20_0 : ∀ (i : grid20.Coords) a, (cc20_transform_0 i a + 1) * S8192x32.size a ≤ S106496x32.size a
  hwx20_0 : ∀ i : grid20.Coords, EltTy.bits .f32 = 32 ∨ (Rect.block (s := S106496x32) S8192x32.size (cc20_transform_0 i) (hinb20_0 i)).WholeWords (EltTy.packing .f32)
  hstage20_1 : ∀ j, (stage20_1 j).IsWhole
  nbuf20_1 : grid20.bufCount reads20_1 false = 2
  hreads20_1 : ∀ i i' : grid20.Coords, (∀ a, reads20_1 a = true → i a = i' a) → cc20_transform_1 i = cc20_transform_1 i'
  hinb20_1 : ∀ (i : grid20.Coords) a, (cc20_transform_1 i a + 1) * S8192x32.size a ≤ S106496x32.size a
  hwx20_1 : ∀ i : grid20.Coords, EltTy.bits .f32 = 32 ∨ (Rect.block (s := S106496x32) S8192x32.size (cc20_transform_1 i) (hinb20_1 i)).WholeWords (EltTy.packing .f32)
  hstage20_2 : ∀ j, (stage20_2 j).IsWhole
  nbuf20_2 : grid20.bufCount reads20_2 false = 2
  hreads20_2 : ∀ i i' : grid20.Coords, (∀ a, reads20_2 a = true → i a = i' a) → cc20_transform_2 i = cc20_transform_2 i'
  hinb20_2 : ∀ (i : grid20.Coords) a, (cc20_transform_2 i a + 1) * S8192x32.size a ≤ S106496x32.size a
  hwx20_2 : ∀ i : grid20.Coords, EltTy.bits .f32 = 32 ∨ (Rect.block (s := S106496x32) S8192x32.size (cc20_transform_2 i) (hinb20_2 i)).WholeWords (EltTy.packing .f32)
  hstage20_3 : ∀ j, (stage20_3 j).IsWhole
  nbuf20_3 : grid20.bufCount reads20_3 false = 2
  hreads20_3 : ∀ i i' : grid20.Coords, (∀ a, reads20_3 a = true → i a = i' a) → cc20_transform_3 i = cc20_transform_3 i'
  hinb20_3 : ∀ (i : grid20.Coords) a, (cc20_transform_3 i a + 1) * S8192x32.size a ≤ S106496x32.size a
  hwx20_3 : ∀ i : grid20.Coords, EltTy.bits .f32 = 32 ∨ (Rect.block (s := S106496x32) S8192x32.size (cc20_transform_3 i) (hinb20_3 i)).WholeWords (EltTy.packing .f32)
  hstage20_4 : ∀ j, (stage20_4 j).IsWhole
  nbuf20_4 : grid20.bufCount reads20_4 false = 2
  hreads20_4 : ∀ i i' : grid20.Coords, (∀ a, reads20_4 a = true → i a = i' a) → cc20_transform_4 i = cc20_transform_4 i'
  hinb20_4 : ∀ (i : grid20.Coords) a, (cc20_transform_4 i a + 1) * S8192x32.size a ≤ S106496x32.size a
  hwx20_4 : ∀ i : grid20.Coords, EltTy.bits .f32 = 32 ∨ (Rect.block (s := S106496x32) S8192x32.size (cc20_transform_4 i) (hinb20_4 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S16384x6_S6x32_S16384x32_1_0_0_1_n_n : DotDims S16384x6 S6x32 S16384x32 where
  lhsContracting := [1]
  rhsContracting := [0]
  lhsNonContracting := [0]
  rhsNonContracting := [1]
  lhsBatch := []
  rhsBatch := []
  wf := dot_S16384x6_S6x32_S16384x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def gather_S100000x6_S200000x1_S200000x6_1_0_n_n_0_1_16 : GatherDims S100000x6 S200000x1 S200000x6 where
  offsetDims := [1]
  collapsedSliceDims := [0]
  operandBatchingDims := []
  startIndicesBatchingDims := []
  startIndexMap := [0]
  indexVectorDim := 1
  sliceSizes := ![1, 6]
  wf := gather_S100000x6_S200000x1_S200000x6_1_0_n_n_0_1_16_wf
def scatter_S100000x32_S200000x1_S200000x32_1_0_0_1 : ScatterDims S100000x32 S200000x1 S200000x32 where
  updateWindowDims := [1]
  insertedWindowDims := [0]
  scatterDimsToOperandDims := [0]
  indexVectorDim := 1
  wf := scatter_S100000x32_S200000x1_S200000x32_1_0_0_1_wf
def gather_S100000x6_S800000x1_S800000x6_1_0_n_n_0_1_16 : GatherDims S100000x6 S800000x1 S800000x6 where
  offsetDims := [1]
  collapsedSliceDims := [0]
  operandBatchingDims := []
  startIndicesBatchingDims := []
  startIndexMap := [0]
  indexVectorDim := 1
  sliceSizes := ![1, 6]
  wf := gather_S100000x6_S800000x1_S800000x6_1_0_n_n_0_1_16_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S16384x32_S32x32_S16384x32_1_0_0_1_n_n : DotDims S16384x32 S32x32 S16384x32 where
  lhsContracting := [1]
  rhsContracting := [0]
  lhsNonContracting := [0]
  rhsNonContracting := [1]
  lhsBatch := []
  rhsBatch := []
  wf := dot_S16384x32_S32x32_S16384x32_1_0_0_1_n_n_wf
def gather_S100000x32_S200000x1_S200000x32_1_0_n_n_0_1_132 : GatherDims S100000x32 S200000x1 S200000x32 where
  offsetDims := [1]
  collapsedSliceDims := [0]
  operandBatchingDims := []
  startIndicesBatchingDims := []
  startIndexMap := [0]
  indexVectorDim := 1
  sliceSizes := ![1, 32]
  wf := gather_S100000x32_S200000x1_S200000x32_1_0_n_n_0_1_132_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf

abbrev win0_0 : Pipeline.Window sig grid0 :=
  Pipeline.Window.ofSpec (Memref.whole main_v15) S16384x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v12) S6x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v16) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v17) S16384x32.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v45) S16384x6.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S6x32.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v46) S1x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v47) S16384x32.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v67) S16384x6.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v64) S6x32.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v68) S1x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v69) S16384x32.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v84) S16384x6.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v82) S6x32.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v85) S1x32.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v86) S16384x32.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v88) S8192x32.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v89) S8192x32.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v90) S8192x32.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v91) S8192x32.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v92) S8192x32.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v109) S16384x32.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v106) S32x32.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v110) S1x32.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v111) S16384x32.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v139) S16384x32.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v136) S32x32.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v140) S1x32.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v141) S16384x32.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v161) S16384x32.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v158) S32x32.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v162) S1x32.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v163) S16384x32.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v176) S8192x32.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v177) S8192x32.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v178) S8192x32.size cc8_transform_2 reads8_2 false false 2 stage8_2 sem8_2
    hrank8 hreads8_2 hinb8_2 nbuf8_2 (Memref.isWhole_whole _) hwx8_2 hstage8_2

abbrev win8_3 : Pipeline.Window sig grid8 :=
  Pipeline.Window.ofSpec (Memref.whole main_v179) S8192x32.size cc8_transform_3 reads8_3 false false 2 stage8_3 sem8_3
    hrank8 hreads8_3 hinb8_3 nbuf8_3 (Memref.isWhole_whole _) hwx8_3 hstage8_3

abbrev win8_4 : Pipeline.Window sig grid8 :=
  Pipeline.Window.ofSpec (Memref.whole main_v180) S8192x32.size cc8_transform_4 reads8_4 true false 2 stage8_4 sem8_4
    hrank8 hreads8_4 hinb8_4 nbuf8_4 (Memref.isWhole_whole _) hwx8_4 hstage8_4

abbrev win8 : Fin 5 → Pipeline.Window sig grid8 := fun | 0 => win8_0 | 1 => win8_1 | 2 => win8_2 | 3 => win8_3 | 4 => win8_4 | ⟨_ + 5, h⟩ => absurd h (Nat.not_lt.2 (Nat.le_add_left _ _))
abbrev spec8 : Fin 5 → Pipeline.WinSpec sig grid8.rank := fun w => (win8 w).toWinSpec

abbrev win9_0 : Pipeline.Window sig grid9 :=
  Pipeline.Window.ofSpec (Memref.whole main_v197) S16384x32.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v194) S32x32.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v198) S1x32.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v199) S16384x32.size cc9_transform_3 reads9_3 true false 2 stage9_3 sem9_3
    hrank9 hreads9_3 hinb9_3 nbuf9_3 (Memref.isWhole_whole _) hwx9_3 hstage9_3

abbrev win9 : Fin 4 → Pipeline.Window sig grid9 := fun | 0 => win9_0 | 1 => win9_1 | 2 => win9_2 | 3 => win9_3 | ⟨_ + 4, h⟩ => absurd h (Nat.not_lt.2 (Nat.le_add_left _ _))
abbrev spec9 : Fin 4 → Pipeline.WinSpec sig grid9.rank := fun w => (win9 w).toWinSpec

abbrev win10_0 : Pipeline.Window sig grid10 :=
  Pipeline.Window.ofSpec (Memref.whole main_v227) S16384x32.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v224) S32x32.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v228) S1x32.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v229) S16384x32.size cc10_transform_3 reads10_3 true false 2 stage10_3 sem10_3
    hrank10 hreads10_3 hinb10_3 nbuf10_3 (Memref.isWhole_whole _) hwx10_3 hstage10_3

abbrev win10 : Fin 4 → Pipeline.Window sig grid10 := fun | 0 => win10_0 | 1 => win10_1 | 2 => win10_2 | 3 => win10_3 | ⟨_ + 4, h⟩ => absurd h (Nat.not_lt.2 (Nat.le_add_left _ _))
abbrev spec10 : Fin 4 → Pipeline.WinSpec sig grid10.rank := fun w => (win10 w).toWinSpec

abbrev win11_0 : Pipeline.Window sig grid11 :=
  Pipeline.Window.ofSpec (Memref.whole main_v249) S16384x32.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v246) S32x32.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v250) S1x32.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v251) S16384x32.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v264) S8192x32.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v265) S8192x32.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v266) S8192x32.size cc12_transform_2 reads12_2 false false 2 stage12_2 sem12_2
    hrank12 hreads12_2 hinb12_2 nbuf12_2 (Memref.isWhole_whole _) hwx12_2 hstage12_2

abbrev win12_3 : Pipeline.Window sig grid12 :=
  Pipeline.Window.ofSpec (Memref.whole main_v267) S8192x32.size cc12_transform_3 reads12_3 false false 2 stage12_3 sem12_3
    hrank12 hreads12_3 hinb12_3 nbuf12_3 (Memref.isWhole_whole _) hwx12_3 hstage12_3

abbrev win12_4 : Pipeline.Window sig grid12 :=
  Pipeline.Window.ofSpec (Memref.whole main_v268) S8192x32.size cc12_transform_4 reads12_4 true false 2 stage12_4 sem12_4
    hrank12 hreads12_4 hinb12_4 nbuf12_4 (Memref.isWhole_whole _) hwx12_4 hstage12_4

abbrev win12 : Fin 5 → Pipeline.Window sig grid12 := fun | 0 => win12_0 | 1 => win12_1 | 2 => win12_2 | 3 => win12_3 | 4 => win12_4 | ⟨_ + 5, h⟩ => absurd h (Nat.not_lt.2 (Nat.le_add_left _ _))
abbrev spec12 : Fin 5 → Pipeline.WinSpec sig grid12.rank := fun w => (win12 w).toWinSpec

abbrev win13_0 : Pipeline.Window sig grid13 :=
  Pipeline.Window.ofSpec (Memref.whole main_v285) S16384x32.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v282) S32x32.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v286) S1x32.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v287) S16384x32.size cc13_transform_3 reads13_3 true false 2 stage13_3 sem13_3
    hrank13 hreads13_3 hinb13_3 nbuf13_3 (Memref.isWhole_whole _) hwx13_3 hstage13_3

abbrev win13 : Fin 4 → Pipeline.Window sig grid13 := fun | 0 => win13_0 | 1 => win13_1 | 2 => win13_2 | 3 => win13_3 | ⟨_ + 4, h⟩ => absurd h (Nat.not_lt.2 (Nat.le_add_left _ _))
abbrev spec13 : Fin 4 → Pipeline.WinSpec sig grid13.rank := fun w => (win13 w).toWinSpec

abbrev win14_0 : Pipeline.Window sig grid14 :=
  Pipeline.Window.ofSpec (Memref.whole main_v315) S16384x32.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v312) S32x32.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v316) S1x32.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v317) S16384x32.size cc14_transform_3 reads14_3 true false 2 stage14_3 sem14_3
    hrank14 hreads14_3 hinb14_3 nbuf14_3 (Memref.isWhole_whole _) hwx14_3 hstage14_3

abbrev win14 : Fin 4 → Pipeline.Window sig grid14 := fun | 0 => win14_0 | 1 => win14_1 | 2 => win14_2 | 3 => win14_3 | ⟨_ + 4, h⟩ => absurd h (Nat.not_lt.2 (Nat.le_add_left _ _))
abbrev spec14 : Fin 4 → Pipeline.WinSpec sig grid14.rank := fun w => (win14 w).toWinSpec

abbrev win15_0 : Pipeline.Window sig grid15 :=
  Pipeline.Window.ofSpec (Memref.whole main_v337) S16384x32.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v334) S32x32.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v338) S1x32.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v339) S16384x32.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v352) S8192x32.size cc16_transform_0 reads16_0 false false 2 stage16_0 sem16_0
    hrank16 hreads16_0 hinb16_0 nbuf16_0 (Memref.isWhole_whole _) hwx16_0 hstage16_0

abbrev win16_1 : Pipeline.Window sig grid16 :=
  Pipeline.Window.ofSpec (Memref.whole main_v353) S8192x32.size cc16_transform_1 reads16_1 false false 2 stage16_1 sem16_1
    hrank16 hreads16_1 hinb16_1 nbuf16_1 (Memref.isWhole_whole _) hwx16_1 hstage16_1

abbrev win16_2 : Pipeline.Window sig grid16 :=
  Pipeline.Window.ofSpec (Memref.whole main_v354) S8192x32.size cc16_transform_2 reads16_2 false false 2 stage16_2 sem16_2
    hrank16 hreads16_2 hinb16_2 nbuf16_2 (Memref.isWhole_whole _) hwx16_2 hstage16_2

abbrev win16_3 : Pipeline.Window sig grid16 :=
  Pipeline.Window.ofSpec (Memref.whole main_v355) S8192x32.size cc16_transform_3 reads16_3 false false 2 stage16_3 sem16_3
    hrank16 hreads16_3 hinb16_3 nbuf16_3 (Memref.isWhole_whole _) hwx16_3 hstage16_3

abbrev win16_4 : Pipeline.Window sig grid16 :=
  Pipeline.Window.ofSpec (Memref.whole main_v356) S8192x32.size cc16_transform_4 reads16_4 true false 2 stage16_4 sem16_4
    hrank16 hreads16_4 hinb16_4 nbuf16_4 (Memref.isWhole_whole _) hwx16_4 hstage16_4

abbrev win16 : Fin 5 → Pipeline.Window sig grid16 := fun | 0 => win16_0 | 1 => win16_1 | 2 => win16_2 | 3 => win16_3 | 4 => win16_4 | ⟨_ + 5, h⟩ => absurd h (Nat.not_lt.2 (Nat.le_add_left _ _))
abbrev spec16 : Fin 5 → Pipeline.WinSpec sig grid16.rank := fun w => (win16 w).toWinSpec

abbrev win17_0 : Pipeline.Window sig grid17 :=
  Pipeline.Window.ofSpec (Memref.whole main_v373) S16384x32.size cc17_transform_0 reads17_0 false false 2 stage17_0 sem17_0
    hrank17 hreads17_0 hinb17_0 nbuf17_0 (Memref.isWhole_whole _) hwx17_0 hstage17_0

abbrev win17_1 : Pipeline.Window sig grid17 :=
  Pipeline.Window.ofSpec (Memref.whole main_v370) S32x32.size cc17_transform_1 reads17_1 false true 1 stage17_1 sem17_1
    hrank17 hreads17_1 hinb17_1 nbuf17_1 (Memref.isWhole_whole _) hwx17_1 hstage17_1

abbrev win17_2 : Pipeline.Window sig grid17 :=
  Pipeline.Window.ofSpec (Memref.whole main_v374) S1x32.size cc17_transform_2 reads17_2 false true 1 stage17_2 sem17_2
    hrank17 hreads17_2 hinb17_2 nbuf17_2 (Memref.isWhole_whole _) hwx17_2 hstage17_2

abbrev win17_3 : Pipeline.Window sig grid17 :=
  Pipeline.Window.ofSpec (Memref.whole main_v375) S16384x32.size cc17_transform_3 reads17_3 true false 2 stage17_3 sem17_3
    hrank17 hreads17_3 hinb17_3 nbuf17_3 (Memref.isWhole_whole _) hwx17_3 hstage17_3

abbrev win17 : Fin 4 → Pipeline.Window sig grid17 := fun | 0 => win17_0 | 1 => win17_1 | 2 => win17_2 | 3 => win17_3 | ⟨_ + 4, h⟩ => absurd h (Nat.not_lt.2 (Nat.le_add_left _ _))
abbrev spec17 : Fin 4 → Pipeline.WinSpec sig grid17.rank := fun w => (win17 w).toWinSpec

abbrev win18_0 : Pipeline.Window sig grid18 :=
  Pipeline.Window.ofSpec (Memref.whole main_v403) S16384x32.size cc18_transform_0 reads18_0 false false 2 stage18_0 sem18_0
    hrank18 hreads18_0 hinb18_0 nbuf18_0 (Memref.isWhole_whole _) hwx18_0 hstage18_0

abbrev win18_1 : Pipeline.Window sig grid18 :=
  Pipeline.Window.ofSpec (Memref.whole main_v400) S32x32.size cc18_transform_1 reads18_1 false true 1 stage18_1 sem18_1
    hrank18 hreads18_1 hinb18_1 nbuf18_1 (Memref.isWhole_whole _) hwx18_1 hstage18_1

abbrev win18_2 : Pipeline.Window sig grid18 :=
  Pipeline.Window.ofSpec (Memref.whole main_v404) S1x32.size cc18_transform_2 reads18_2 false true 1 stage18_2 sem18_2
    hrank18 hreads18_2 hinb18_2 nbuf18_2 (Memref.isWhole_whole _) hwx18_2 hstage18_2

abbrev win18_3 : Pipeline.Window sig grid18 :=
  Pipeline.Window.ofSpec (Memref.whole main_v405) S16384x32.size cc18_transform_3 reads18_3 true false 2 stage18_3 sem18_3
    hrank18 hreads18_3 hinb18_3 nbuf18_3 (Memref.isWhole_whole _) hwx18_3 hstage18_3

abbrev win18 : Fin 4 → Pipeline.Window sig grid18 := fun | 0 => win18_0 | 1 => win18_1 | 2 => win18_2 | 3 => win18_3 | ⟨_ + 4, h⟩ => absurd h (Nat.not_lt.2 (Nat.le_add_left _ _))
abbrev spec18 : Fin 4 → Pipeline.WinSpec sig grid18.rank := fun w => (win18 w).toWinSpec

abbrev win19_0 : Pipeline.Window sig grid19 :=
  Pipeline.Window.ofSpec (Memref.whole main_v425) S16384x32.size cc19_transform_0 reads19_0 false false 2 stage19_0 sem19_0
    hrank19 hreads19_0 hinb19_0 nbuf19_0 (Memref.isWhole_whole _) hwx19_0 hstage19_0

abbrev win19_1 : Pipeline.Window sig grid19 :=
  Pipeline.Window.ofSpec (Memref.whole main_v422) S32x32.size cc19_transform_1 reads19_1 false true 1 stage19_1 sem19_1
    hrank19 hreads19_1 hinb19_1 nbuf19_1 (Memref.isWhole_whole _) hwx19_1 hstage19_1

abbrev win19_2 : Pipeline.Window sig grid19 :=
  Pipeline.Window.ofSpec (Memref.whole main_v426) S1x32.size cc19_transform_2 reads19_2 false true 1 stage19_2 sem19_2
    hrank19 hreads19_2 hinb19_2 nbuf19_2 (Memref.isWhole_whole _) hwx19_2 hstage19_2

abbrev win19_3 : Pipeline.Window sig grid19 :=
  Pipeline.Window.ofSpec (Memref.whole main_v427) S16384x32.size cc19_transform_3 reads19_3 true false 2 stage19_3 sem19_3
    hrank19 hreads19_3 hinb19_3 nbuf19_3 (Memref.isWhole_whole _) hwx19_3 hstage19_3

abbrev win19 : Fin 4 → Pipeline.Window sig grid19 := fun | 0 => win19_0 | 1 => win19_1 | 2 => win19_2 | 3 => win19_3 | ⟨_ + 4, h⟩ => absurd h (Nat.not_lt.2 (Nat.le_add_left _ _))
abbrev spec19 : Fin 4 → Pipeline.WinSpec sig grid19.rank := fun w => (win19 w).toWinSpec

abbrev win20_0 : Pipeline.Window sig grid20 :=
  Pipeline.Window.ofSpec (Memref.whole main_v440) S8192x32.size cc20_transform_0 reads20_0 false false 2 stage20_0 sem20_0
    hrank20 hreads20_0 hinb20_0 nbuf20_0 (Memref.isWhole_whole _) hwx20_0 hstage20_0

abbrev win20_1 : Pipeline.Window sig grid20 :=
  Pipeline.Window.ofSpec (Memref.whole main_v441) S8192x32.size cc20_transform_1 reads20_1 false false 2 stage20_1 sem20_1
    hrank20 hreads20_1 hinb20_1 nbuf20_1 (Memref.isWhole_whole _) hwx20_1 hstage20_1

abbrev win20_2 : Pipeline.Window sig grid20 :=
  Pipeline.Window.ofSpec (Memref.whole main_v442) S8192x32.size cc20_transform_2 reads20_2 false false 2 stage20_2 sem20_2
    hrank20 hreads20_2 hinb20_2 nbuf20_2 (Memref.isWhole_whole _) hwx20_2 hstage20_2

abbrev win20_3 : Pipeline.Window sig grid20 :=
  Pipeline.Window.ofSpec (Memref.whole main_v443) S8192x32.size cc20_transform_3 reads20_3 false false 2 stage20_3 sem20_3
    hrank20 hreads20_3 hinb20_3 nbuf20_3 (Memref.isWhole_whole _) hwx20_3 hstage20_3

abbrev win20_4 : Pipeline.Window sig grid20 :=
  Pipeline.Window.ofSpec (Memref.whole main_v444) S8192x32.size cc20_transform_4 reads20_4 true false 2 stage20_4 sem20_4
    hrank20 hreads20_4 hinb20_4 nbuf20_4 (Memref.isWhole_whole _) hwx20_4 hstage20_4

abbrev win20 : Fin 5 → Pipeline.Window sig grid20 := fun | 0 => win20_0 | 1 => win20_1 | 2 => win20_2 | 3 => win20_3 | 4 => win20_4 | ⟨_ + 5, h⟩ => absurd h (Nat.not_lt.2 (Nat.le_add_left _ _))
abbrev spec20 : Fin 5 → Pipeline.WinSpec sig grid20.rank := fun w => (win20 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S2x200000 : Shape := ⟨2, ![2, 200000]⟩
abbrev S2x800000 : Shape := ⟨2, ![2, 800000]⟩
abbrev S3x6x32 : Shape := ⟨3, ![3, 6, 32]⟩
abbrev S3x32 : Shape := ⟨2, ![3, 32]⟩
abbrev S4x3x32x32 : Shape := ⟨4, ![4, 3, 32, 32]⟩
abbrev S4x3x32 : Shape := ⟨3, ![4, 3, 32]⟩
abbrev S_ : Shape := ⟨0, ![]⟩
abbrev S100000x32 : Shape := ⟨2, ![100000, 32]⟩
abbrev S1x1600000 : Shape := ⟨2, ![1, 1600000]⟩
abbrev S1600000 : Shape := ⟨1, ![1600000]⟩
abbrev S1600000x1 : Shape := ⟨2, ![1600000, 1]⟩
abbrev S1600000x6 : Shape := ⟨2, ![1600000, 6]⟩
abbrev S1x6x32 : Shape := ⟨3, ![1, 6, 32]⟩
abbrev S6x32 : Shape := ⟨2, ![6, 32]⟩
abbrev S1600000x32 : Shape := ⟨2, ![1600000, 32]⟩
abbrev S1x32 : Shape := ⟨2, ![1, 32]⟩
abbrev S32 : Shape := ⟨1, ![32]⟩
abbrev S100000x1 : Shape := ⟨2, ![100000, 1]⟩
abbrev S1x200000 : Shape := ⟨2, ![1, 200000]⟩
abbrev S200000 : Shape := ⟨1, ![200000]⟩
abbrev S200000x1 : Shape := ⟨2, ![200000, 1]⟩
abbrev S200000x6 : Shape := ⟨2, ![200000, 6]⟩
abbrev S200000x32 : Shape := ⟨2, ![200000, 32]⟩
abbrev S1x800000 : Shape := ⟨2, ![1, 800000]⟩
abbrev S800000 : Shape := ⟨1, ![800000]⟩
abbrev S800000x1 : Shape := ⟨2, ![800000, 1]⟩
abbrev S800000x6 : Shape := ⟨2, ![800000, 6]⟩
abbrev S800000x32 : Shape := ⟨2, ![800000, 32]⟩
abbrev S1x3x32x32 : Shape := ⟨4, ![1, 3, 32, 32]⟩
abbrev S3x32x32 : Shape := ⟨3, ![3, 32, 32]⟩
abbrev S1x3x32 : Shape := ⟨3, ![1, 3, 32]⟩
abbrev S1x32x32 : Shape := ⟨3, ![1, 32, 32]⟩
abbrev S32x32 : Shape := ⟨2, ![32, 32]⟩

abbrev nBuf : Space → Nat
  | .hbm => 582
  | .vmem => 0
  | .smem => 0
  | _ => 0

abbrev hbmTy0_0 (i : Nat) : BufTy := match i % 128 with
  | 0 => ⟨S100000x6, .f32⟩
  | 1 => ⟨S2x1600000, .i32⟩
  | 2 => ⟨S2x200000, .i32⟩
  | 3 => ⟨S2x800000, .i32⟩
  | 4 => ⟨S3x6x32, .f32⟩
  | 5 => ⟨S3x32, .f32⟩
  | 6 => ⟨S3x6x32, .f32⟩
  | 7 => ⟨S3x32, .f32⟩
  | 8 => ⟨S4x3x32x32, .f32⟩
  | 9 => ⟨S4x3x32, .f32⟩
  | 10 => ⟨S_, .f32⟩
  | 11 => ⟨S100000x32, .f32⟩
  | 12 => ⟨S1x1600000, .i32⟩
  | 13 => ⟨S1600000, .i32⟩
  | 14 => ⟨S1x1600000, .i32⟩
  | 15 => ⟨S1600000, .i32⟩
  | 16 => ⟨S_, .i32⟩
  | 17 => ⟨S1600000, .i32⟩
  | 18 => ⟨S1600000, .i1⟩
  | 19 => ⟨S_, .i32⟩
  | 20 => ⟨S1600000, .i32⟩
  | 21 => ⟨S1600000, .i32⟩
  | 22 => ⟨S1600000, .i32⟩
  | 23 => ⟨S1600000x1, .i32⟩
  | 24 => ⟨S1600000x6, .f32⟩
  | 25 => ⟨S1x6x32, .f32⟩
  | 26 => ⟨S6x32, .f32⟩
  | 27 => ⟨S1600000x32, .f32⟩
  | 28 => ⟨S1x32, .f32⟩
  | 29 => ⟨S32, .f32⟩
  | 30 => ⟨S1x32, .f32⟩
  | 31 => ⟨S1600000x32, .f32⟩
  | 32 => ⟨S1600000x32, .f32⟩
  | 33 => ⟨S_, .f32⟩
  | 34 => ⟨S100000x32, .f32⟩
  | 35 => ⟨S1600000x1, .i32⟩
  | 36 => ⟨S100000x32, .f32⟩
  | 37 => ⟨S_, .f32⟩
  | 38 => ⟨S1600000x1, .f32⟩
  | 39 => ⟨S_, .f32⟩
  | 40 => ⟨S100000x1, .f32⟩
  | 41 => ⟨S1600000x1, .i32⟩
  | 42 => ⟨S100000x1, .f32⟩
  | 43 => ⟨S_, .f32⟩
  | 44 => ⟨S100000x1, .f32⟩
  | 45 => ⟨S100000x1, .f32⟩
  | 46 => ⟨S100000x32, .f32⟩
  | 47 => ⟨S100000x32, .f32⟩
  | 48 => ⟨S100000x32, .f32⟩
  | 49 => ⟨S1x6x32, .f32⟩
  | 50 => ⟨S6x32, .f32⟩
  | 51 => ⟨S100000x32, .f32⟩
  | 52 => ⟨S100000x32, .f32⟩
  | 53 => ⟨S1x32, .f32⟩
  | 54 => ⟨S32, .f32⟩
  | 55 => ⟨S1x32, .f32⟩
  | 56 => ⟨S100000x32, .f32⟩
  | 57 => ⟨S100000x32, .f32⟩
  | 58 => ⟨S1x200000, .i32⟩
  | 59 => ⟨S200000, .i32⟩
  | 60 => ⟨S1x200000, .i32⟩
  | 61 => ⟨S200000, .i32⟩
  | 62 => ⟨S_, .i32⟩
  | 63 => ⟨S200000, .i32⟩
  | 64 => ⟨S200000, .i1⟩
  | 65 => ⟨S_, .i32⟩
  | 66 => ⟨S200000, .i32⟩
  | 67 => ⟨S200000, .i32⟩
  | 68 => ⟨S200000, .i32⟩
  | 69 => ⟨S200000x1, .i32⟩
  | 70 => ⟨S200000x6, .f32⟩
  | 71 => ⟨S1x6x32, .f32⟩
  | 72 => ⟨S6x32, .f32⟩
  | 73 => ⟨S200000x32, .f32⟩
  | 74 => ⟨S1x32, .f32⟩
  | 75 => ⟨S32, .f32⟩
  | 76 => ⟨S1x32, .f32⟩
  | 77 => ⟨S200000x32, .f32⟩
  | 78 => ⟨S200000x32, .f32⟩
  | 79 => ⟨S_, .f32⟩
  | 80 => ⟨S100000x32, .f32⟩
  | 81 => ⟨S200000x1, .i32⟩
  | 82 => ⟨S100000x32, .f32⟩
  | 83 => ⟨S100000x32, .f32⟩
  | 84 => ⟨S1x6x32, .f32⟩
  | 85 => ⟨S6x32, .f32⟩
  | 86 => ⟨S100000x32, .f32⟩
  | 87 => ⟨S100000x32, .f32⟩
  | 88 => ⟨S1x32, .f32⟩
  | 89 => ⟨S32, .f32⟩
  | 90 => ⟨S1x32, .f32⟩
  | 91 => ⟨S100000x32, .f32⟩
  | 92 => ⟨S100000x32, .f32⟩
  | 93 => ⟨S1x800000, .i32⟩
  | 94 => ⟨S800000, .i32⟩
  | 95 => ⟨S1x800000, .i32⟩
  | 96 => ⟨S800000, .i32⟩
  | 97 => ⟨S_, .i32⟩
  | 98 => ⟨S800000, .i32⟩
  | 99 => ⟨S800000, .i1⟩
  | 100 => ⟨S_, .i32⟩
  | 101 => ⟨S800000, .i32⟩
  | 102 => ⟨S800000, .i32⟩
  | 103 => ⟨S800000, .i32⟩
  | 104 => ⟨S800000x1, .i32⟩
  | 105 => ⟨S800000x6, .f32⟩
  | 106 => ⟨S1x6x32, .f32⟩
  | 107 => ⟨S6x32, .f32⟩
  | 108 => ⟨S800000x32, .f32⟩
  | 109 => ⟨S1x32, .f32⟩
  | 110 => ⟨S32, .f32⟩
  | 111 => ⟨S1x32, .f32⟩
  | 112 => ⟨S800000x32, .f32⟩
  | 113 => ⟨S800000x32, .f32⟩
  | 114 => ⟨S_, .f32⟩
  | 115 => ⟨S100000x32, .f32⟩
  | 116 => ⟨S800000x1, .i32⟩
  | 117 => ⟨S100000x32, .f32⟩
  | 118 => ⟨S_, .f32⟩
  | 119 => ⟨S800000x1, .f32⟩
  | 120 => ⟨S_, .f32⟩
  | 121 => ⟨S100000x1, .f32⟩
  | 122 => ⟨S800000x1, .i32⟩
  | 123 => ⟨S100000x1, .f32⟩
  | 124 => ⟨S_, .f32⟩
  | 125 => ⟨S100000x1, .f32⟩
  | 126 => ⟨S100000x1, .f32⟩
  | 127 => ⟨S100000x32, .f32⟩
  | _ => ⟨S100000x6, .f32⟩

abbrev hbmTy0_1 (i : Nat) : BufTy := match i % 128 with
  | 0 => ⟨S100000x32, .f32⟩
  | 1 => ⟨S100000x32, .f32⟩
  | 2 => ⟨S1x6x32, .f32⟩
  | 3 => ⟨S6x32, .f32⟩
  | 4 => ⟨S100000x32, .f32⟩
  | 5 => ⟨S100000x32, .f32⟩
  | 6 => ⟨S1x32, .f32⟩
  | 7 => ⟨S32, .f32⟩
  | 8 => ⟨S1x32, .f32⟩
  | 9 => ⟨S100000x32, .f32⟩
  | 10 => ⟨S100000x32, .f32⟩
  | 11 => ⟨S1x3x32x32, .f32⟩
  | 12 => ⟨S3x32x32, .f32⟩
  | 13 => ⟨S1x3x32, .f32⟩
  | 14 => ⟨S3x32, .f32⟩
  | 15 => ⟨S_, .f32⟩
  | 16 => ⟨S100000x32, .f32⟩
  | 17 => ⟨S1x1600000, .i32⟩
  | 18 => ⟨S1600000, .i32⟩
  | 19 => ⟨S1x1600000, .i32⟩
  | 20 => ⟨S1600000, .i32⟩
  | 21 => ⟨S_, .i32⟩
  | 22 => ⟨S1600000, .i32⟩
  | 23 => ⟨S1600000, .i1⟩
  | 24 => ⟨S_, .i32⟩
  | 25 => ⟨S1600000, .i32⟩
  | 26 => ⟨S1600000, .i32⟩
  | 27 => ⟨S1600000, .i32⟩
  | 28 => ⟨S1600000x1, .i32⟩
  | 29 => ⟨S1600000x32, .f32⟩
  | 30 => ⟨S1x32x32, .f32⟩
  | 31 => ⟨S32x32, .f32⟩
  | 32 => ⟨S1600000x32, .f32⟩
  | 33 => ⟨S1x32, .f32⟩
  | 34 => ⟨S32, .f32⟩
  | 35 => ⟨S1x32, .f32⟩
  | 36 => ⟨S1600000x32, .f32⟩
  | 37 => ⟨S1600000x32, .f32⟩
  | 38 => ⟨S_, .f32⟩
  | 39 => ⟨S100000x32, .f32⟩
  | 40 => ⟨S1600000x1, .i32⟩
  | 41 => ⟨S100000x32, .f32⟩
  | 42 => ⟨S_, .f32⟩
  | 43 => ⟨S1600000x1, .f32⟩
  | 44 => ⟨S_, .f32⟩
  | 45 => ⟨S100000x1, .f32⟩
  | 46 => ⟨S1600000x1, .i32⟩
  | 47 => ⟨S100000x1, .f32⟩
  | 48 => ⟨S_, .f32⟩
  | 49 => ⟨S100000x1, .f32⟩
  | 50 => ⟨S100000x1, .f32⟩
  | 51 => ⟨S100000x32, .f32⟩
  | 52 => ⟨S100000x32, .f32⟩
  | 53 => ⟨S100000x32, .f32⟩
  | 54 => ⟨S100000x32, .f32⟩
  | 55 => ⟨S1x200000, .i32⟩
  | 56 => ⟨S200000, .i32⟩
  | 57 => ⟨S1x200000, .i32⟩
  | 58 => ⟨S200000, .i32⟩
  | 59 => ⟨S_, .i32⟩
  | 60 => ⟨S200000, .i32⟩
  | 61 => ⟨S200000, .i1⟩
  | 62 => ⟨S_, .i32⟩
  | 63 => ⟨S200000, .i32⟩
  | 64 => ⟨S200000, .i32⟩
  | 65 => ⟨S200000, .i32⟩
  | 66 => ⟨S200000x1, .i32⟩
  | 67 => ⟨S200000x32, .f32⟩
  | 68 => ⟨S1x32x32, .f32⟩
  | 69 => ⟨S32x32, .f32⟩
  | 70 => ⟨S200000x32, .f32⟩
  | 71 => ⟨S1x32, .f32⟩
  | 72 => ⟨S32, .f32⟩
  | 73 => ⟨S1x32, .f32⟩
  | 74 => ⟨S200000x32, .f32⟩
  | 75 => ⟨S200000x32, .f32⟩
  | 76 => ⟨S_, .f32⟩
  | 77 => ⟨S100000x32, .f32⟩
  | 78 => ⟨S200000x1, .i32⟩
  | 79 => ⟨S100000x32, .f32⟩
  | 80 => ⟨S100000x32, .f32⟩
  | 81 => ⟨S100000x32, .f32⟩
  | 82 => ⟨S1x800000, .i32⟩
  | 83 => ⟨S800000, .i32⟩
  | 84 => ⟨S1x800000, .i32⟩
  | 85 => ⟨S800000, .i32⟩
  | 86 => ⟨S_, .i32⟩
  | 87 => ⟨S800000, .i32⟩
  | 88 => ⟨S800000, .i1⟩
  | 89 => ⟨S_, .i32⟩
  | 90 => ⟨S800000, .i32⟩
  | 91 => ⟨S800000, .i32⟩
  | 92 => ⟨S800000, .i32⟩
  | 93 => ⟨S800000x1, .i32⟩
  | 94 => ⟨S800000x32, .f32⟩
  | 95 => ⟨S1x32x32, .f32⟩
  | 96 => ⟨S32x32, .f32⟩
  | 97 => ⟨S800000x32, .f32⟩
  | 98 => ⟨S1x32, .f32⟩
  | 99 => ⟨S32, .f32⟩
  | 100 => ⟨S1x32, .f32⟩
  | 101 => ⟨S800000x32, .f32⟩
  | 102 => ⟨S800000x32, .f32⟩
  | 103 => ⟨S_, .f32⟩
  | 104 => ⟨S100000x32, .f32⟩
  | 105 => ⟨S800000x1, .i32⟩
  | 106 => ⟨S100000x32, .f32⟩
  | 107 => ⟨S_, .f32⟩
  | 108 => ⟨S800000x1, .f32⟩
  | 109 => ⟨S_, .f32⟩
  | 110 => ⟨S100000x1, .f32⟩
  | 111 => ⟨S800000x1, .i32⟩
  | 112 => ⟨S100000x1, .f32⟩
  | 113 => ⟨S_, .f32⟩
  | 114 => ⟨S100000x1, .f32⟩
  | 115 => ⟨S100000x1, .f32⟩
  | 116 => ⟨S100000x32, .f32⟩
  | 117 => ⟨S100000x32, .f32⟩
  | 118 => ⟨S100000x32, .f32⟩
  | 119 => ⟨S100000x32, .f32⟩
  | 120 => ⟨S100000x32, .f32⟩
  | 121 => ⟨S1x3x32x32, .f32⟩
  | 122 => ⟨S3x32x32, .f32⟩
  | 123 => ⟨S1x3x32, .f32⟩
  | 124 => ⟨S3x32, .f32⟩
  | 125 => ⟨S_, .f32⟩
  | 126 => ⟨S100000x32, .f32⟩
  | 127 => ⟨S1x1600000, .i32⟩
  | _ => ⟨S100000x6, .f32⟩

abbrev hbmTy0_2 (i : Nat) : BufTy := match i % 128 with
  | 0 => ⟨S1600000, .i32⟩
  | 1 => ⟨S1x1600000, .i32⟩
  | 2 => ⟨S1600000, .i32⟩
  | 3 => ⟨S_, .i32⟩
  | 4 => ⟨S1600000, .i32⟩
  | 5 => ⟨S1600000, .i1⟩
  | 6 => ⟨S_, .i32⟩
  | 7 => ⟨S1600000, .i32⟩
  | 8 => ⟨S1600000, .i32⟩
  | 9 => ⟨S1600000, .i32⟩
  | 10 => ⟨S1600000x1, .i32⟩
  | 11 => ⟨S1600000x32, .f32⟩
  | 12 => ⟨S1x32x32, .f32⟩
  | 13 => ⟨S32x32, .f32⟩
  | 14 => ⟨S1600000x32, .f32⟩
  | 15 => ⟨S1x32, .f32⟩
  | 16 => ⟨S32, .f32⟩
  | 17 => ⟨S1x32, .f32⟩
  | 18 => ⟨S1600000x32, .f32⟩
  | 19 => ⟨S1600000x32, .f32⟩
  | 20 => ⟨S_, .f32⟩
  | 21 => ⟨S100000x32, .f32⟩
  | 22 => ⟨S1600000x1, .i32⟩
  | 23 => ⟨S100000x32, .f32⟩
  | 24 => ⟨S_, .f32⟩
  | 25 => ⟨S1600000x1, .f32⟩
  | 26 => ⟨S_, .f32⟩
  | 27 => ⟨S100000x1, .f32⟩
  | 28 => ⟨S1600000x1, .i32⟩
  | 29 => ⟨S100000x1, .f32⟩
  | 30 => ⟨S_, .f32⟩
  | 31 => ⟨S100000x1, .f32⟩
  | 32 => ⟨S100000x1, .f32⟩
  | 33 => ⟨S100000x32, .f32⟩
  | 34 => ⟨S100000x32, .f32⟩
  | 35 => ⟨S100000x32, .f32⟩
  | 36 => ⟨S100000x32, .f32⟩
  | 37 => ⟨S1x200000, .i32⟩
  | 38 => ⟨S200000, .i32⟩
  | 39 => ⟨S1x200000, .i32⟩
  | 40 => ⟨S200000, .i32⟩
  | 41 => ⟨S_, .i32⟩
  | 42 => ⟨S200000, .i32⟩
  | 43 => ⟨S200000, .i1⟩
  | 44 => ⟨S_, .i32⟩
  | 45 => ⟨S200000, .i32⟩
  | 46 => ⟨S200000, .i32⟩
  | 47 => ⟨S200000, .i32⟩
  | 48 => ⟨S200000x1, .i32⟩
  | 49 => ⟨S200000x32, .f32⟩
  | 50 => ⟨S1x32x32, .f32⟩
  | 51 => ⟨S32x32, .f32⟩
  | 52 => ⟨S200000x32, .f32⟩
  | 53 => ⟨S1x32, .f32⟩
  | 54 => ⟨S32, .f32⟩
  | 55 => ⟨S1x32, .f32⟩
  | 56 => ⟨S200000x32, .f32⟩
  | 57 => ⟨S200000x32, .f32⟩
  | 58 => ⟨S_, .f32⟩
  | 59 => ⟨S100000x32, .f32⟩
  | 60 => ⟨S200000x1, .i32⟩
  | 61 => ⟨S100000x32, .f32⟩
  | 62 => ⟨S100000x32, .f32⟩
  | 63 => ⟨S100000x32, .f32⟩
  | 64 => ⟨S1x800000, .i32⟩
  | 65 => ⟨S800000, .i32⟩
  | 66 => ⟨S1x800000, .i32⟩
  | 67 => ⟨S800000, .i32⟩
  | 68 => ⟨S_, .i32⟩
  | 69 => ⟨S800000, .i32⟩
  | 70 => ⟨S800000, .i1⟩
  | 71 => ⟨S_, .i32⟩
  | 72 => ⟨S800000, .i32⟩
  | 73 => ⟨S800000, .i32⟩
  | 74 => ⟨S800000, .i32⟩
  | 75 => ⟨S800000x1, .i32⟩
  | 76 => ⟨S800000x32, .f32⟩
  | 77 => ⟨S1x32x32, .f32⟩
  | 78 => ⟨S32x32, .f32⟩
  | 79 => ⟨S800000x32, .f32⟩
  | 80 => ⟨S1x32, .f32⟩
  | 81 => ⟨S32, .f32⟩
  | 82 => ⟨S1x32, .f32⟩
  | 83 => ⟨S800000x32, .f32⟩
  | 84 => ⟨S800000x32, .f32⟩
  | 85 => ⟨S_, .f32⟩
  | 86 => ⟨S100000x32, .f32⟩
  | 87 => ⟨S800000x1, .i32⟩
  | 88 => ⟨S100000x32, .f32⟩
  | 89 => ⟨S_, .f32⟩
  | 90 => ⟨S800000x1, .f32⟩
  | 91 => ⟨S_, .f32⟩
  | 92 => ⟨S100000x1, .f32⟩
  | 93 => ⟨S800000x1, .i32⟩
  | 94 => ⟨S100000x1, .f32⟩
  | 95 => ⟨S_, .f32⟩
  | 96 => ⟨S100000x1, .f32⟩
  | 97 => ⟨S100000x1, .f32⟩
  | 98 => ⟨S100000x32, .f32⟩
  | 99 => ⟨S100000x32, .f32⟩
  | 100 => ⟨S100000x32, .f32⟩
  | 101 => ⟨S100000x32, .f32⟩
  | 102 => ⟨S100000x32, .f32⟩
  | 103 => ⟨S1x3x32x32, .f32⟩
  | 104 => ⟨S3x32x32, .f32⟩
  | 105 => ⟨S1x3x32, .f32⟩
  | 106 => ⟨S3x32, .f32⟩
  | 107 => ⟨S_, .f32⟩
  | 108 => ⟨S100000x32, .f32⟩
  | 109 => ⟨S1x1600000, .i32⟩
  | 110 => ⟨S1600000, .i32⟩
  | 111 => ⟨S1x1600000, .i32⟩
  | 112 => ⟨S1600000, .i32⟩
  | 113 => ⟨S_, .i32⟩
  | 114 => ⟨S1600000, .i32⟩
  | 115 => ⟨S1600000, .i1⟩
  | 116 => ⟨S_, .i32⟩
  | 117 => ⟨S1600000, .i32⟩
  | 118 => ⟨S1600000, .i32⟩
  | 119 => ⟨S1600000, .i32⟩
  | 120 => ⟨S1600000x1, .i32⟩
  | 121 => ⟨S1600000x32, .f32⟩
  | 122 => ⟨S1x32x32, .f32⟩
  | 123 => ⟨S32x32, .f32⟩
  | 124 => ⟨S1600000x32, .f32⟩
  | 125 => ⟨S1x32, .f32⟩
  | 126 => ⟨S32, .f32⟩
  | 127 => ⟨S1x32, .f32⟩
  | _ => ⟨S100000x6, .f32⟩

abbrev hbmTy0_3 (i : Nat) : BufTy := match i % 128 with
  | 0 => ⟨S1600000x32, .f32⟩
  | 1 => ⟨S1600000x32, .f32⟩
  | 2 => ⟨S_, .f32⟩
  | 3 => ⟨S100000x32, .f32⟩
  | 4 => ⟨S1600000x1, .i32⟩
  | 5 => ⟨S100000x32, .f32⟩
  | 6 => ⟨S_, .f32⟩
  | 7 => ⟨S1600000x1, .f32⟩
  | 8 => ⟨S_, .f32⟩
  | 9 => ⟨S100000x1, .f32⟩
  | 10 => ⟨S1600000x1, .i32⟩
  | 11 => ⟨S100000x1, .f32⟩
  | 12 => ⟨S_, .f32⟩
  | 13 => ⟨S100000x1, .f32⟩
  | 14 => ⟨S100000x1, .f32⟩
  | 15 => ⟨S100000x32, .f32⟩
  | 16 => ⟨S100000x32, .f32⟩
  | 17 => ⟨S100000x32, .f32⟩
  | 18 => ⟨S100000x32, .f32⟩
  | 19 => ⟨S1x200000, .i32⟩
  | 20 => ⟨S200000, .i32⟩
  | 21 => ⟨S1x200000, .i32⟩
  | 22 => ⟨S200000, .i32⟩
  | 23 => ⟨S_, .i32⟩
  | 24 => ⟨S200000, .i32⟩
  | 25 => ⟨S200000, .i1⟩
  | 26 => ⟨S_, .i32⟩
  | 27 => ⟨S200000, .i32⟩
  | 28 => ⟨S200000, .i32⟩
  | 29 => ⟨S200000, .i32⟩
  | 30 => ⟨S200000x1, .i32⟩
  | 31 => ⟨S200000x32, .f32⟩
  | 32 => ⟨S1x32x32, .f32⟩
  | 33 => ⟨S32x32, .f32⟩
  | 34 => ⟨S200000x32, .f32⟩
  | 35 => ⟨S1x32, .f32⟩
  | 36 => ⟨S32, .f32⟩
  | 37 => ⟨S1x32, .f32⟩
  | 38 => ⟨S200000x32, .f32⟩
  | 39 => ⟨S200000x32, .f32⟩
  | 40 => ⟨S_, .f32⟩
  | 41 => ⟨S100000x32, .f32⟩
  | 42 => ⟨S200000x1, .i32⟩
  | 43 => ⟨S100000x32, .f32⟩
  | 44 => ⟨S100000x32, .f32⟩
  | 45 => ⟨S100000x32, .f32⟩
  | 46 => ⟨S1x800000, .i32⟩
  | 47 => ⟨S800000, .i32⟩
  | 48 => ⟨S1x800000, .i32⟩
  | 49 => ⟨S800000, .i32⟩
  | 50 => ⟨S_, .i32⟩
  | 51 => ⟨S800000, .i32⟩
  | 52 => ⟨S800000, .i1⟩
  | 53 => ⟨S_, .i32⟩
  | 54 => ⟨S800000, .i32⟩
  | 55 => ⟨S800000, .i32⟩
  | 56 => ⟨S800000, .i32⟩
  | 57 => ⟨S800000x1, .i32⟩
  | 58 => ⟨S800000x32, .f32⟩
  | 59 => ⟨S1x32x32, .f32⟩
  | 60 => ⟨S32x32, .f32⟩
  | 61 => ⟨S800000x32, .f32⟩
  | 62 => ⟨S1x32, .f32⟩
  | 63 => ⟨S32, .f32⟩
  | 64 => ⟨S1x32, .f32⟩
  | 65 => ⟨S800000x32, .f32⟩
  | 66 => ⟨S800000x32, .f32⟩
  | 67 => ⟨S_, .f32⟩
  | 68 => ⟨S100000x32, .f32⟩
  | 69 => ⟨S800000x1, .i32⟩
  | 70 => ⟨S100000x32, .f32⟩
  | 71 => ⟨S_, .f32⟩
  | 72 => ⟨S800000x1, .f32⟩
  | 73 => ⟨S_, .f32⟩
  | 74 => ⟨S100000x1, .f32⟩
  | 75 => ⟨S800000x1, .i32⟩
  | 76 => ⟨S100000x1, .f32⟩
  | 77 => ⟨S_, .f32⟩
  | 78 => ⟨S100000x1, .f32⟩
  | 79 => ⟨S100000x1, .f32⟩
  | 80 => ⟨S100000x32, .f32⟩
  | 81 => ⟨S100000x32, .f32⟩
  | 82 => ⟨S100000x32, .f32⟩
  | 83 => ⟨S100000x32, .f32⟩
  | 84 => ⟨S100000x32, .f32⟩
  | 85 => ⟨S1x3x32x32, .f32⟩
  | 86 => ⟨S3x32x32, .f32⟩
  | 87 => ⟨S1x3x32, .f32⟩
  | 88 => ⟨S3x32, .f32⟩
  | 89 => ⟨S_, .f32⟩
  | 90 => ⟨S100000x32, .f32⟩
  | 91 => ⟨S1x1600000, .i32⟩
  | 92 => ⟨S1600000, .i32⟩
  | 93 => ⟨S1x1600000, .i32⟩
  | 94 => ⟨S1600000, .i32⟩
  | 95 => ⟨S_, .i32⟩
  | 96 => ⟨S1600000, .i32⟩
  | 97 => ⟨S1600000, .i1⟩
  | 98 => ⟨S_, .i32⟩
  | 99 => ⟨S1600000, .i32⟩
  | 100 => ⟨S1600000, .i32⟩
  | 101 => ⟨S1600000, .i32⟩
  | 102 => ⟨S1600000x1, .i32⟩
  | 103 => ⟨S1600000x32, .f32⟩
  | 104 => ⟨S1x32x32, .f32⟩
  | 105 => ⟨S32x32, .f32⟩
  | 106 => ⟨S1600000x32, .f32⟩
  | 107 => ⟨S1x32, .f32⟩
  | 108 => ⟨S32, .f32⟩
  | 109 => ⟨S1x32, .f32⟩
  | 110 => ⟨S1600000x32, .f32⟩
  | 111 => ⟨S1600000x32, .f32⟩
  | 112 => ⟨S_, .f32⟩
  | 113 => ⟨S100000x32, .f32⟩
  | 114 => ⟨S1600000x1, .i32⟩
  | 115 => ⟨S100000x32, .f32⟩
  | 116 => ⟨S_, .f32⟩
  | 117 => ⟨S1600000x1, .f32⟩
  | 118 => ⟨S_, .f32⟩
  | 119 => ⟨S100000x1, .f32⟩
  | 120 => ⟨S1600000x1, .i32⟩
  | 121 => ⟨S100000x1, .f32⟩
  | 122 => ⟨S_, .f32⟩
  | 123 => ⟨S100000x1, .f32⟩
  | 124 => ⟨S100000x1, .f32⟩
  | 125 => ⟨S100000x32, .f32⟩
  | 126 => ⟨S100000x32, .f32⟩
  | 127 => ⟨S100000x32, .f32⟩
  | _ => ⟨S100000x6, .f32⟩

abbrev hbmTy0_4 (i : Nat) : BufTy := match i % 128 with
  | 0 => ⟨S100000x32, .f32⟩
  | 1 => ⟨S1x200000, .i32⟩
  | 2 => ⟨S200000, .i32⟩
  | 3 => ⟨S1x200000, .i32⟩
  | 4 => ⟨S200000, .i32⟩
  | 5 => ⟨S_, .i32⟩
  | 6 => ⟨S200000, .i32⟩
  | 7 => ⟨S200000, .i1⟩
  | 8 => ⟨S_, .i32⟩
  | 9 => ⟨S200000, .i32⟩
  | 10 => ⟨S200000, .i32⟩
  | 11 => ⟨S200000, .i32⟩
  | 12 => ⟨S200000x1, .i32⟩
  | 13 => ⟨S200000x32, .f32⟩
  | 14 => ⟨S1x32x32, .f32⟩
  | 15 => ⟨S32x32, .f32⟩
  | 16 => ⟨S200000x32, .f32⟩
  | 17 => ⟨S1x32, .f32⟩
  | 18 => ⟨S32, .f32⟩
  | 19 => ⟨S1x32, .f32⟩
  | 20 => ⟨S200000x32, .f32⟩
  | 21 => ⟨S200000x32, .f32⟩
  | 22 => ⟨S_, .f32⟩
  | 23 => ⟨S100000x32, .f32⟩
  | 24 => ⟨S200000x1, .i32⟩
  | 25 => ⟨S100000x32, .f32⟩
  | 26 => ⟨S100000x32, .f32⟩
  | 27 => ⟨S100000x32, .f32⟩
  | 28 => ⟨S1x800000, .i32⟩
  | 29 => ⟨S800000, .i32⟩
  | 30 => ⟨S1x800000, .i32⟩
  | 31 => ⟨S800000, .i32⟩
  | 32 => ⟨S_, .i32⟩
  | 33 => ⟨S800000, .i32⟩
  | 34 => ⟨S800000, .i1⟩
  | 35 => ⟨S_, .i32⟩
  | 36 => ⟨S800000, .i32⟩
  | 37 => ⟨S800000, .i32⟩
  | 38 => ⟨S800000, .i32⟩
  | 39 => ⟨S800000x1, .i32⟩
  | 40 => ⟨S800000x32, .f32⟩
  | 41 => ⟨S1x32x32, .f32⟩
  | 42 => ⟨S32x32, .f32⟩
  | 43 => ⟨S800000x32, .f32⟩
  | 44 => ⟨S1x32, .f32⟩
  | 45 => ⟨S32, .f32⟩
  | 46 => ⟨S1x32, .f32⟩
  | 47 => ⟨S800000x32, .f32⟩
  | 48 => ⟨S800000x32, .f32⟩
  | 49 => ⟨S_, .f32⟩
  | 50 => ⟨S100000x32, .f32⟩
  | 51 => ⟨S800000x1, .i32⟩
  | 52 => ⟨S100000x32, .f32⟩
  | 53 => ⟨S_, .f32⟩
  | 54 => ⟨S800000x1, .f32⟩
  | 55 => ⟨S_, .f32⟩
  | 56 => ⟨S100000x1, .f32⟩
  | 57 => ⟨S800000x1, .i32⟩
  | 58 => ⟨S100000x1, .f32⟩
  | 59 => ⟨S_, .f32⟩
  | 60 => ⟨S100000x1, .f32⟩
  | 61 => ⟨S100000x1, .f32⟩
  | 62 => ⟨S100000x32, .f32⟩
  | 63 => ⟨S100000x32, .f32⟩
  | 64 => ⟨S100000x32, .f32⟩
  | 65 => ⟨S100000x32, .f32⟩
  | 66 => ⟨S100000x32, .f32⟩
  | 67 => ⟨S_, .f32⟩
  | 68 => ⟨S100000x32, .f32⟩
  | 69 => ⟨S100000x32, .f32⟩
  | _ => ⟨S100000x6, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_c : Ref sig .tc := ⟨.hbm, 16, rfl⟩
abbrev main_v5 : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_2 : Ref sig .tc := ⟨.hbm, 37, rfl⟩
abbrev main_v23 : Ref sig .tc := ⟨.hbm, 38, rfl⟩
abbrev main_cst_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_cst_4 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_c_5 : Ref sig .tc := ⟨.hbm, 62, rfl⟩
abbrev main_v45 : Ref sig .tc := ⟨.hbm, 63, rfl⟩
abbrev main_v46 : Ref sig .tc := ⟨.hbm, 64, rfl⟩
abbrev main_c_6 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_cst_7 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71 : Ref sig .tc := ⟨.hbm, 91, rfl⟩
abbrev main_v72 : Ref sig .tc := ⟨.hbm, 92, rfl⟩
abbrev main_v73 : Ref sig .tc := ⟨.hbm, 93, rfl⟩
abbrev main_v74 : Ref sig .tc := ⟨.hbm, 94, rfl⟩
abbrev main_v75 : Ref sig .tc := ⟨.hbm, 95, rfl⟩
abbrev main_v76 : Ref sig .tc := ⟨.hbm, 96, rfl⟩
abbrev main_c_8 : Ref sig .tc := ⟨.hbm, 97, rfl⟩
abbrev main_v77 : Ref sig .tc := ⟨.hbm, 98, rfl⟩
abbrev main_v78 : Ref sig .tc := ⟨.hbm, 99, rfl⟩
abbrev main_c_9 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_v90 : Ref sig .tc := ⟨.hbm, 112, rfl⟩
abbrev main_v91 : Ref sig .tc := ⟨.hbm, 113, rfl⟩
abbrev main_cst_10 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_cst_11 : Ref sig .tc := ⟨.hbm, 118, rfl⟩
abbrev main_v95 : Ref sig .tc := ⟨.hbm, 119, rfl⟩
abbrev main_cst_12 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_13 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_v104 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_cst_14 : Ref sig .tc := ⟨.hbm, 143, rfl⟩
abbrev main_v117 : Ref sig .tc := ⟨.hbm, 144, rfl⟩
abbrev main_v118 : Ref sig .tc := ⟨.hbm, 145, rfl⟩
abbrev main_v119 : Ref sig .tc := ⟨.hbm, 146, rfl⟩
abbrev main_v120 : Ref sig .tc := ⟨.hbm, 147, rfl⟩
abbrev main_v121 : Ref sig .tc := ⟨.hbm, 148, rfl⟩
abbrev main_c_15 : Ref sig .tc := ⟨.hbm, 149, rfl⟩
abbrev main_v122 : Ref sig .tc := ⟨.hbm, 150, rfl⟩
abbrev main_v123 : Ref sig .tc := ⟨.hbm, 151, rfl⟩
abbrev main_c_16 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_cst_17 : Ref sig .tc := ⟨.hbm, 166, rfl⟩
abbrev main_v137 : Ref sig .tc := ⟨.hbm, 167, rfl⟩
abbrev main_v138 : Ref sig .tc := ⟨.hbm, 168, rfl⟩
abbrev main_v139 : Ref sig .tc := ⟨.hbm, 169, rfl⟩
abbrev main_cst_18 : Ref sig .tc := ⟨.hbm, 170, rfl⟩
abbrev main_v140 : Ref sig .tc := ⟨.hbm, 171, rfl⟩
abbrev main_cst_19 : Ref sig .tc := ⟨.hbm, 172, rfl⟩
abbrev main_v141 : Ref sig .tc := ⟨.hbm, 173, rfl⟩
abbrev main_v142 : Ref sig .tc := ⟨.hbm, 174, rfl⟩
abbrev main_v143 : Ref sig .tc := ⟨.hbm, 175, rfl⟩
abbrev main_cst_20 : Ref sig .tc := ⟨.hbm, 176, rfl⟩
abbrev main_v144 : Ref sig .tc := ⟨.hbm, 177, rfl⟩
abbrev main_v145 : Ref sig .tc := ⟨.hbm, 178, rfl⟩
abbrev main_v146 : Ref sig .tc := ⟨.hbm, 179, rfl⟩
abbrev main_v147 : Ref sig .tc := ⟨.hbm, 180, rfl⟩
abbrev main_v148 : Ref sig .tc := ⟨.hbm, 181, rfl⟩
abbrev main_v149 : Ref sig .tc := ⟨.hbm, 182, rfl⟩
abbrev main_v150 : Ref sig .tc := ⟨.hbm, 183, rfl⟩
abbrev main_v151 : Ref sig .tc := ⟨.hbm, 184, rfl⟩
abbrev main_v152 : Ref sig .tc := ⟨.hbm, 185, rfl⟩
abbrev main_v153 : Ref sig .tc := ⟨.hbm, 186, rfl⟩
abbrev main_c_21 : Ref sig .tc := ⟨.hbm, 187, rfl⟩
abbrev main_v154 : Ref sig .tc := ⟨.hbm, 188, rfl⟩
abbrev main_v155 : Ref sig .tc := ⟨.hbm, 189, rfl⟩
abbrev main_c_22 : Ref sig .tc := ⟨.hbm, 190, rfl⟩
abbrev main_v156 : Ref sig .tc := ⟨.hbm, 191, rfl⟩
abbrev main_v157 : Ref sig .tc := ⟨.hbm, 192, rfl⟩
abbrev main_v158 : Ref sig .tc := ⟨.hbm, 193, rfl⟩
abbrev main_v159 : Ref sig .tc := ⟨.hbm, 194, rfl⟩
abbrev main_v160 : Ref sig .tc := ⟨.hbm, 195, rfl⟩
abbrev main_v161 : Ref sig .tc := ⟨.hbm, 196, rfl⟩
abbrev main_v162 : Ref sig .tc := ⟨.hbm, 197, rfl⟩
abbrev main_v163 : Ref sig .tc := ⟨.hbm, 198, rfl⟩
abbrev main_v164 : Ref sig .tc := ⟨.hbm, 199, rfl⟩
abbrev main_v165 : Ref sig .tc := ⟨.hbm, 200, rfl⟩
abbrev main_v166 : Ref sig .tc := ⟨.hbm, 201, rfl⟩
abbrev main_v167 : Ref sig .tc := ⟨.hbm, 202, rfl⟩
abbrev main_v168 : Ref sig .tc := ⟨.hbm, 203, rfl⟩
abbrev main_cst_23 : Ref sig .tc := ⟨.hbm, 204, rfl⟩
abbrev main_v169 : Ref sig .tc := ⟨.hbm, 205, rfl⟩
abbrev main_v170 : Ref sig .tc := ⟨.hbm, 206, rfl⟩
abbrev main_v171 : Ref sig .tc := ⟨.hbm, 207, rfl⟩
abbrev main_v172 : Ref sig .tc := ⟨.hbm, 208, rfl⟩
abbrev main_v173 : Ref sig .tc := ⟨.hbm, 209, rfl⟩
abbrev main_v174 : Ref sig .tc := ⟨.hbm, 210, rfl⟩
abbrev main_v175 : Ref sig .tc := ⟨.hbm, 211, rfl⟩
abbrev main_v176 : Ref sig .tc := ⟨.hbm, 212, rfl⟩
abbrev main_v177 : Ref sig .tc := ⟨.hbm, 213, rfl⟩
abbrev main_c_24 : Ref sig .tc := ⟨.hbm, 214, rfl⟩
abbrev main_v178 : Ref sig .tc := ⟨.hbm, 215, rfl⟩
abbrev main_v179 : Ref sig .tc := ⟨.hbm, 216, rfl⟩
abbrev main_c_25 : Ref sig .tc := ⟨.hbm, 217, rfl⟩
abbrev main_v180 : Ref sig .tc := ⟨.hbm, 218, rfl⟩
abbrev main_v181 : Ref sig .tc := ⟨.hbm, 219, rfl⟩
abbrev main_v182 : Ref sig .tc := ⟨.hbm, 220, rfl⟩
abbrev main_v183 : Ref sig .tc := ⟨.hbm, 221, rfl⟩
abbrev main_v184 : Ref sig .tc := ⟨.hbm, 222, rfl⟩
abbrev main_v185 : Ref sig .tc := ⟨.hbm, 223, rfl⟩
abbrev main_v186 : Ref sig .tc := ⟨.hbm, 224, rfl⟩
abbrev main_v187 : Ref sig .tc := ⟨.hbm, 225, rfl⟩
abbrev main_v188 : Ref sig .tc := ⟨.hbm, 226, rfl⟩
abbrev main_v189 : Ref sig .tc := ⟨.hbm, 227, rfl⟩
abbrev main_v190 : Ref sig .tc := ⟨.hbm, 228, rfl⟩
abbrev main_v191 : Ref sig .tc := ⟨.hbm, 229, rfl⟩
abbrev main_v192 : Ref sig .tc := ⟨.hbm, 230, rfl⟩
abbrev main_cst_26 : Ref sig .tc := ⟨.hbm, 231, rfl⟩
abbrev main_v193 : Ref sig .tc := ⟨.hbm, 232, rfl⟩
abbrev main_v194 : Ref sig .tc := ⟨.hbm, 233, rfl⟩
abbrev main_v195 : Ref sig .tc := ⟨.hbm, 234, rfl⟩
abbrev main_cst_27 : Ref sig .tc := ⟨.hbm, 235, rfl⟩
abbrev main_v196 : Ref sig .tc := ⟨.hbm, 236, rfl⟩
abbrev main_cst_28 : Ref sig .tc := ⟨.hbm, 237, rfl⟩
abbrev main_v197 : Ref sig .tc := ⟨.hbm, 238, rfl⟩
abbrev main_v198 : Ref sig .tc := ⟨.hbm, 239, rfl⟩
abbrev main_v199 : Ref sig .tc := ⟨.hbm, 240, rfl⟩
abbrev main_cst_29 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_cst_30 : Ref sig .tc := ⟨.hbm, 253, rfl⟩
abbrev main_v211 : Ref sig .tc := ⟨.hbm, 254, rfl⟩
abbrev main_v212 : Ref sig .tc := ⟨.hbm, 255, rfl⟩
abbrev main_v213 : Ref sig .tc := ⟨.hbm, 256, rfl⟩
abbrev main_v214 : Ref sig .tc := ⟨.hbm, 257, rfl⟩
abbrev main_v215 : Ref sig .tc := ⟨.hbm, 258, rfl⟩
abbrev main_c_31 : Ref sig .tc := ⟨.hbm, 259, rfl⟩
abbrev main_v216 : Ref sig .tc := ⟨.hbm, 260, rfl⟩
abbrev main_v217 : Ref sig .tc := ⟨.hbm, 261, rfl⟩
abbrev main_c_32 : Ref sig .tc := ⟨.hbm, 262, rfl⟩
abbrev main_v218 : Ref sig .tc := ⟨.hbm, 263, rfl⟩
abbrev main_v219 : Ref sig .tc := ⟨.hbm, 264, rfl⟩
abbrev main_v220 : Ref sig .tc := ⟨.hbm, 265, rfl⟩
abbrev main_v221 : Ref sig .tc := ⟨.hbm, 266, rfl⟩
abbrev main_v222 : Ref sig .tc := ⟨.hbm, 267, rfl⟩
abbrev main_v223 : Ref sig .tc := ⟨.hbm, 268, rfl⟩
abbrev main_v224 : Ref sig .tc := ⟨.hbm, 269, rfl⟩
abbrev main_v225 : Ref sig .tc := ⟨.hbm, 270, rfl⟩
abbrev main_v226 : Ref sig .tc := ⟨.hbm, 271, rfl⟩
abbrev main_v227 : Ref sig .tc := ⟨.hbm, 272, rfl⟩
abbrev main_v228 : Ref sig .tc := ⟨.hbm, 273, rfl⟩
abbrev main_v229 : Ref sig .tc := ⟨.hbm, 274, rfl⟩
abbrev main_v230 : Ref sig .tc := ⟨.hbm, 275, rfl⟩
abbrev main_cst_33 : Ref sig .tc := ⟨.hbm, 276, rfl⟩
abbrev main_v231 : Ref sig .tc := ⟨.hbm, 277, rfl⟩
abbrev main_v232 : Ref sig .tc := ⟨.hbm, 278, rfl⟩
abbrev main_v233 : Ref sig .tc := ⟨.hbm, 279, rfl⟩
abbrev main_cst_34 : Ref sig .tc := ⟨.hbm, 280, rfl⟩
abbrev main_v234 : Ref sig .tc := ⟨.hbm, 281, rfl⟩
abbrev main_cst_35 : Ref sig .tc := ⟨.hbm, 282, rfl⟩
abbrev main_v235 : Ref sig .tc := ⟨.hbm, 283, rfl⟩
abbrev main_v236 : Ref sig .tc := ⟨.hbm, 284, rfl⟩
abbrev main_v237 : Ref sig .tc := ⟨.hbm, 285, rfl⟩
abbrev main_cst_36 : Ref sig .tc := ⟨.hbm, 286, rfl⟩
abbrev main_v238 : Ref sig .tc := ⟨.hbm, 287, rfl⟩
abbrev main_v239 : Ref sig .tc := ⟨.hbm, 288, rfl⟩
abbrev main_v240 : Ref sig .tc := ⟨.hbm, 289, rfl⟩
abbrev main_v241 : Ref sig .tc := ⟨.hbm, 290, rfl⟩
abbrev main_v242 : Ref sig .tc := ⟨.hbm, 291, rfl⟩
abbrev main_v243 : Ref sig .tc := ⟨.hbm, 292, rfl⟩
abbrev main_v244 : Ref sig .tc := ⟨.hbm, 293, rfl⟩
abbrev main_v245 : Ref sig .tc := ⟨.hbm, 294, rfl⟩
abbrev main_v246 : Ref sig .tc := ⟨.hbm, 295, rfl⟩
abbrev main_v247 : Ref sig .tc := ⟨.hbm, 296, rfl⟩
abbrev main_c_37 : Ref sig .tc := ⟨.hbm, 297, rfl⟩
abbrev main_v248 : Ref sig .tc := ⟨.hbm, 298, rfl⟩
abbrev main_v249 : Ref sig .tc := ⟨.hbm, 299, rfl⟩
abbrev main_c_38 : Ref sig .tc := ⟨.hbm, 300, rfl⟩
abbrev main_v250 : Ref sig .tc := ⟨.hbm, 301, rfl⟩
abbrev main_v251 : Ref sig .tc := ⟨.hbm, 302, rfl⟩
abbrev main_v252 : Ref sig .tc := ⟨.hbm, 303, rfl⟩
abbrev main_v253 : Ref sig .tc := ⟨.hbm, 304, rfl⟩
abbrev main_v254 : Ref sig .tc := ⟨.hbm, 305, rfl⟩
abbrev main_v255 : Ref sig .tc := ⟨.hbm, 306, rfl⟩
abbrev main_v256 : Ref sig .tc := ⟨.hbm, 307, rfl⟩
abbrev main_v257 : Ref sig .tc := ⟨.hbm, 308, rfl⟩
abbrev main_v258 : Ref sig .tc := ⟨.hbm, 309, rfl⟩
abbrev main_v259 : Ref sig .tc := ⟨.hbm, 310, rfl⟩
abbrev main_v260 : Ref sig .tc := ⟨.hbm, 311, rfl⟩
abbrev main_v261 : Ref sig .tc := ⟨.hbm, 312, rfl⟩
abbrev main_v262 : Ref sig .tc := ⟨.hbm, 313, rfl⟩
abbrev main_cst_39 : Ref sig .tc := ⟨.hbm, 314, rfl⟩
abbrev main_v263 : Ref sig .tc := ⟨.hbm, 315, rfl⟩
abbrev main_v264 : Ref sig .tc := ⟨.hbm, 316, rfl⟩
abbrev main_v265 : Ref sig .tc := ⟨.hbm, 317, rfl⟩
abbrev main_v266 : Ref sig .tc := ⟨.hbm, 318, rfl⟩
abbrev main_v267 : Ref sig .tc := ⟨.hbm, 319, rfl⟩
abbrev main_v268 : Ref sig .tc := ⟨.hbm, 320, rfl⟩
abbrev main_v269 : Ref sig .tc := ⟨.hbm, 321, rfl⟩
abbrev main_v270 : Ref sig .tc := ⟨.hbm, 322, rfl⟩
abbrev main_v271 : Ref sig .tc := ⟨.hbm, 323, rfl⟩
abbrev main_c_40 : Ref sig .tc := ⟨.hbm, 324, rfl⟩
abbrev main_v272 : Ref sig .tc := ⟨.hbm, 325, rfl⟩
abbrev main_v273 : Ref sig .tc := ⟨.hbm, 326, rfl⟩
abbrev main_c_41 : Ref sig .tc := ⟨.hbm, 327, rfl⟩
abbrev main_v274 : Ref sig .tc := ⟨.hbm, 328, rfl⟩
abbrev main_v275 : Ref sig .tc := ⟨.hbm, 329, rfl⟩
abbrev main_v276 : Ref sig .tc := ⟨.hbm, 330, rfl⟩
abbrev main_v277 : Ref sig .tc := ⟨.hbm, 331, rfl⟩
abbrev main_v278 : Ref sig .tc := ⟨.hbm, 332, rfl⟩
abbrev main_v279 : Ref sig .tc := ⟨.hbm, 333, rfl⟩
abbrev main_v280 : Ref sig .tc := ⟨.hbm, 334, rfl⟩
abbrev main_v281 : Ref sig .tc := ⟨.hbm, 335, rfl⟩
abbrev main_v282 : Ref sig .tc := ⟨.hbm, 336, rfl⟩
abbrev main_v283 : Ref sig .tc := ⟨.hbm, 337, rfl⟩
abbrev main_v284 : Ref sig .tc := ⟨.hbm, 338, rfl⟩
abbrev main_v285 : Ref sig .tc := ⟨.hbm, 339, rfl⟩
abbrev main_v286 : Ref sig .tc := ⟨.hbm, 340, rfl⟩
abbrev main_cst_42 : Ref sig .tc := ⟨.hbm, 341, rfl⟩
abbrev main_v287 : Ref sig .tc := ⟨.hbm, 342, rfl⟩
abbrev main_v288 : Ref sig .tc := ⟨.hbm, 343, rfl⟩
abbrev main_v289 : Ref sig .tc := ⟨.hbm, 344, rfl⟩
abbrev main_cst_43 : Ref sig .tc := ⟨.hbm, 345, rfl⟩
abbrev main_v290 : Ref sig .tc := ⟨.hbm, 346, rfl⟩
abbrev main_cst_44 : Ref sig .tc := ⟨.hbm, 347, rfl⟩
abbrev main_v291 : Ref sig .tc := ⟨.hbm, 348, rfl⟩
abbrev main_v292 : Ref sig .tc := ⟨.hbm, 349, rfl⟩
abbrev main_v293 : Ref sig .tc := ⟨.hbm, 350, rfl⟩
abbrev main_cst_45 : Ref sig .tc := ⟨.hbm, 351, rfl⟩
abbrev main_v294 : Ref sig .tc := ⟨.hbm, 352, rfl⟩
abbrev main_v295 : Ref sig .tc := ⟨.hbm, 353, rfl⟩
abbrev main_v296 : Ref sig .tc := ⟨.hbm, 354, rfl⟩
abbrev main_v297 : Ref sig .tc := ⟨.hbm, 355, rfl⟩
abbrev main_v298 : Ref sig .tc := ⟨.hbm, 356, rfl⟩
abbrev main_v299 : Ref sig .tc := ⟨.hbm, 357, rfl⟩
abbrev main_v300 : Ref sig .tc := ⟨.hbm, 358, rfl⟩
abbrev main_v301 : Ref sig .tc := ⟨.hbm, 359, rfl⟩
abbrev main_v302 : Ref sig .tc := ⟨.hbm, 360, rfl⟩
abbrev main_v303 : Ref sig .tc := ⟨.hbm, 361, rfl⟩
abbrev main_v304 : Ref sig .tc := ⟨.hbm, 362, rfl⟩
abbrev main_cst_46 : Ref sig .tc := ⟨.hbm, 363, rfl⟩
abbrev main_v305 : Ref sig .tc := ⟨.hbm, 364, rfl⟩
abbrev main_v306 : Ref sig .tc := ⟨.hbm, 365, rfl⟩
abbrev main_v307 : Ref sig .tc := ⟨.hbm, 366, rfl⟩
abbrev main_v308 : Ref sig .tc := ⟨.hbm, 367, rfl⟩
abbrev main_v309 : Ref sig .tc := ⟨.hbm, 368, rfl⟩
abbrev main_c_47 : Ref sig .tc := ⟨.hbm, 369, rfl⟩
abbrev main_v310 : Ref sig .tc := ⟨.hbm, 370, rfl⟩
abbrev main_v311 : Ref sig .tc := ⟨.hbm, 371, rfl⟩
abbrev main_c_48 : Ref sig .tc := ⟨.hbm, 372, rfl⟩
abbrev main_v312 : Ref sig .tc := ⟨.hbm, 373, rfl⟩
abbrev main_v313 : Ref sig .tc := ⟨.hbm, 374, rfl⟩
abbrev main_v314 : Ref sig .tc := ⟨.hbm, 375, rfl⟩
abbrev main_v315 : Ref sig .tc := ⟨.hbm, 376, rfl⟩
abbrev main_v316 : Ref sig .tc := ⟨.hbm, 377, rfl⟩
abbrev main_v317 : Ref sig .tc := ⟨.hbm, 378, rfl⟩
abbrev main_v318 : Ref sig .tc := ⟨.hbm, 379, rfl⟩
abbrev main_v319 : Ref sig .tc := ⟨.hbm, 380, rfl⟩
abbrev main_v320 : Ref sig .tc := ⟨.hbm, 381, rfl⟩
abbrev main_v321 : Ref sig .tc := ⟨.hbm, 382, rfl⟩
abbrev main_v322 : Ref sig .tc := ⟨.hbm, 383, rfl⟩
abbrev main_v323 : Ref sig .tc := ⟨.hbm, 384, rfl⟩
abbrev main_v324 : Ref sig .tc := ⟨.hbm, 385, rfl⟩
abbrev main_cst_49 : Ref sig .tc := ⟨.hbm, 386, rfl⟩
abbrev main_v325 : Ref sig .tc := ⟨.hbm, 387, rfl⟩
abbrev main_v326 : Ref sig .tc := ⟨.hbm, 388, rfl⟩
abbrev main_v327 : Ref sig .tc := ⟨.hbm, 389, rfl⟩
abbrev main_cst_50 : Ref sig .tc := ⟨.hbm, 390, rfl⟩
abbrev main_v328 : Ref sig .tc := ⟨.hbm, 391, rfl⟩
abbrev main_cst_51 : Ref sig .tc := ⟨.hbm, 392, rfl⟩
abbrev main_v329 : Ref sig .tc := ⟨.hbm, 393, rfl⟩
abbrev main_v330 : Ref sig .tc := ⟨.hbm, 394, rfl⟩
abbrev main_v331 : Ref sig .tc := ⟨.hbm, 395, rfl⟩
abbrev main_cst_52 : Ref sig .tc := ⟨.hbm, 396, rfl⟩
abbrev main_v332 : Ref sig .tc := ⟨.hbm, 397, rfl⟩
abbrev main_v333 : Ref sig .tc := ⟨.hbm, 398, rfl⟩
abbrev main_v334 : Ref sig .tc := ⟨.hbm, 399, rfl⟩
abbrev main_v335 : Ref sig .tc := ⟨.hbm, 400, rfl⟩
abbrev main_v336 : Ref sig .tc := ⟨.hbm, 401, rfl⟩
abbrev main_v337 : Ref sig .tc := ⟨.hbm, 402, rfl⟩
abbrev main_v338 : Ref sig .tc := ⟨.hbm, 403, rfl⟩
abbrev main_v339 : Ref sig .tc := ⟨.hbm, 404, rfl⟩
abbrev main_v340 : Ref sig .tc := ⟨.hbm, 405, rfl⟩
abbrev main_v341 : Ref sig .tc := ⟨.hbm, 406, rfl⟩
abbrev main_c_53 : Ref sig .tc := ⟨.hbm, 407, rfl⟩
abbrev main_v342 : Ref sig .tc := ⟨.hbm, 408, rfl⟩
abbrev main_v343 : Ref sig .tc := ⟨.hbm, 409, rfl⟩
abbrev main_c_54 : Ref sig .tc := ⟨.hbm, 410, rfl⟩
abbrev main_v344 : Ref sig .tc := ⟨.hbm, 411, rfl⟩
abbrev main_v345 : Ref sig .tc := ⟨.hbm, 412, rfl⟩
abbrev main_v346 : Ref sig .tc := ⟨.hbm, 413, rfl⟩
abbrev main_v347 : Ref sig .tc := ⟨.hbm, 414, rfl⟩
abbrev main_v348 : Ref sig .tc := ⟨.hbm, 415, rfl⟩
abbrev main_v349 : Ref sig .tc := ⟨.hbm, 416, rfl⟩
abbrev main_v350 : Ref sig .tc := ⟨.hbm, 417, rfl⟩
abbrev main_v351 : Ref sig .tc := ⟨.hbm, 418, rfl⟩
abbrev main_v352 : Ref sig .tc := ⟨.hbm, 419, rfl⟩
abbrev main_v353 : Ref sig .tc := ⟨.hbm, 420, rfl⟩
abbrev main_v354 : Ref sig .tc := ⟨.hbm, 421, rfl⟩
abbrev main_v355 : Ref sig .tc := ⟨.hbm, 422, rfl⟩
abbrev main_v356 : Ref sig .tc := ⟨.hbm, 423, rfl⟩
abbrev main_cst_55 : Ref sig .tc := ⟨.hbm, 424, rfl⟩
abbrev main_v357 : Ref sig .tc := ⟨.hbm, 425, rfl⟩
abbrev main_v358 : Ref sig .tc := ⟨.hbm, 426, rfl⟩
abbrev main_v359 : Ref sig .tc := ⟨.hbm, 427, rfl⟩
abbrev main_v360 : Ref sig .tc := ⟨.hbm, 428, rfl⟩
abbrev main_v361 : Ref sig .tc := ⟨.hbm, 429, rfl⟩
abbrev main_v362 : Ref sig .tc := ⟨.hbm, 430, rfl⟩
abbrev main_v363 : Ref sig .tc := ⟨.hbm, 431, rfl⟩
abbrev main_v364 : Ref sig .tc := ⟨.hbm, 432, rfl⟩
abbrev main_v365 : Ref sig .tc := ⟨.hbm, 433, rfl⟩
abbrev main_c_56 : Ref sig .tc := ⟨.hbm, 434, rfl⟩
abbrev main_v366 : Ref sig .tc := ⟨.hbm, 435, rfl⟩
abbrev main_v367 : Ref sig .tc := ⟨.hbm, 436, rfl⟩
abbrev main_c_57 : Ref sig .tc := ⟨.hbm, 437, rfl⟩
abbrev main_v368 : Ref sig .tc := ⟨.hbm, 438, rfl⟩
abbrev main_v369 : Ref sig .tc := ⟨.hbm, 439, rfl⟩
abbrev main_v370 : Ref sig .tc := ⟨.hbm, 440, rfl⟩
abbrev main_v371 : Ref sig .tc := ⟨.hbm, 441, rfl⟩
abbrev main_v372 : Ref sig .tc := ⟨.hbm, 442, rfl⟩
abbrev main_v373 : Ref sig .tc := ⟨.hbm, 443, rfl⟩
abbrev main_v374 : Ref sig .tc := ⟨.hbm, 444, rfl⟩
abbrev main_v375 : Ref sig .tc := ⟨.hbm, 445, rfl⟩
abbrev main_v376 : Ref sig .tc := ⟨.hbm, 446, rfl⟩
abbrev main_v377 : Ref sig .tc := ⟨.hbm, 447, rfl⟩
abbrev main_v378 : Ref sig .tc := ⟨.hbm, 448, rfl⟩
abbrev main_v379 : Ref sig .tc := ⟨.hbm, 449, rfl⟩
abbrev main_v380 : Ref sig .tc := ⟨.hbm, 450, rfl⟩
abbrev main_cst_58 : Ref sig .tc := ⟨.hbm, 451, rfl⟩
abbrev main_v381 : Ref sig .tc := ⟨.hbm, 452, rfl⟩
abbrev main_v382 : Ref sig .tc := ⟨.hbm, 453, rfl⟩
abbrev main_v383 : Ref sig .tc := ⟨.hbm, 454, rfl⟩
abbrev main_cst_59 : Ref sig .tc := ⟨.hbm, 455, rfl⟩
abbrev main_v384 : Ref sig .tc := ⟨.hbm, 456, rfl⟩
abbrev main_cst_60 : Ref sig .tc := ⟨.hbm, 457, rfl⟩
abbrev main_v385 : Ref sig .tc := ⟨.hbm, 458, rfl⟩
abbrev main_v386 : Ref sig .tc := ⟨.hbm, 459, rfl⟩
abbrev main_v387 : Ref sig .tc := ⟨.hbm, 460, rfl⟩
abbrev main_cst_61 : Ref sig .tc := ⟨.hbm, 461, rfl⟩
abbrev main_v388 : Ref sig .tc := ⟨.hbm, 462, rfl⟩
abbrev main_v389 : Ref sig .tc := ⟨.hbm, 463, rfl⟩
abbrev main_v390 : Ref sig .tc := ⟨.hbm, 464, rfl⟩
abbrev main_v391 : Ref sig .tc := ⟨.hbm, 465, rfl⟩
abbrev main_v392 : Ref sig .tc := ⟨.hbm, 466, rfl⟩
abbrev main_v393 : Ref sig .tc := ⟨.hbm, 467, rfl⟩
abbrev main_v394 : Ref sig .tc := ⟨.hbm, 468, rfl⟩
abbrev main_v395 : Ref sig .tc := ⟨.hbm, 469, rfl⟩
abbrev main_v396 : Ref sig .tc := ⟨.hbm, 470, rfl⟩
abbrev main_v397 : Ref sig .tc := ⟨.hbm, 471, rfl⟩
abbrev main_v398 : Ref sig .tc := ⟨.hbm, 472, rfl⟩
abbrev main_cst_62 : Ref sig .tc := ⟨.hbm, 473, rfl⟩
abbrev main_v399 : Ref sig .tc := ⟨.hbm, 474, rfl⟩
abbrev main_v400 : Ref sig .tc := ⟨.hbm, 475, rfl⟩
abbrev main_v401 : Ref sig .tc := ⟨.hbm, 476, rfl⟩
abbrev main_v402 : Ref sig .tc := ⟨.hbm, 477, rfl⟩
abbrev main_v403 : Ref sig .tc := ⟨.hbm, 478, rfl⟩
abbrev main_c_63 : Ref sig .tc := ⟨.hbm, 479, rfl⟩
abbrev main_v404 : Ref sig .tc := ⟨.hbm, 480, rfl⟩
abbrev main_v405 : Ref sig .tc := ⟨.hbm, 481, rfl⟩
abbrev main_c_64 : Ref sig .tc := ⟨.hbm, 482, rfl⟩
abbrev main_v406 : Ref sig .tc := ⟨.hbm, 483, rfl⟩
abbrev main_v407 : Ref sig .tc := ⟨.hbm, 484, rfl⟩
abbrev main_v408 : Ref sig .tc := ⟨.hbm, 485, rfl⟩
abbrev main_v409 : Ref sig .tc := ⟨.hbm, 486, rfl⟩
abbrev main_v410 : Ref sig .tc := ⟨.hbm, 487, rfl⟩
abbrev main_v411 : Ref sig .tc := ⟨.hbm, 488, rfl⟩
abbrev main_v412 : Ref sig .tc := ⟨.hbm, 489, rfl⟩
abbrev main_v413 : Ref sig .tc := ⟨.hbm, 490, rfl⟩
abbrev main_v414 : Ref sig .tc := ⟨.hbm, 491, rfl⟩
abbrev main_v415 : Ref sig .tc := ⟨.hbm, 492, rfl⟩
abbrev main_v416 : Ref sig .tc := ⟨.hbm, 493, rfl⟩
abbrev main_v417 : Ref sig .tc := ⟨.hbm, 494, rfl⟩
abbrev main_v418 : Ref sig .tc := ⟨.hbm, 495, rfl⟩
abbrev main_cst_65 : Ref sig .tc := ⟨.hbm, 496, rfl⟩
abbrev main_v419 : Ref sig .tc := ⟨.hbm, 497, rfl⟩
abbrev main_v420 : Ref sig .tc := ⟨.hbm, 498, rfl⟩
abbrev main_v421 : Ref sig .tc := ⟨.hbm, 499, rfl⟩
abbrev main_cst_66 : Ref sig .tc := ⟨.hbm, 500, rfl⟩
abbrev main_v422 : Ref sig .tc := ⟨.hbm, 501, rfl⟩
abbrev main_cst_67 : Ref sig .tc := ⟨.hbm, 502, rfl⟩
abbrev main_v423 : Ref sig .tc := ⟨.hbm, 503, rfl⟩
abbrev main_v424 : Ref sig .tc := ⟨.hbm, 504, rfl⟩
abbrev main_v425 : Ref sig .tc := ⟨.hbm, 505, rfl⟩
abbrev main_cst_68 : Ref sig .tc := ⟨.hbm, 506, rfl⟩
abbrev main_v426 : Ref sig .tc := ⟨.hbm, 507, rfl⟩
abbrev main_v427 : Ref sig .tc := ⟨.hbm, 508, rfl⟩
abbrev main_v428 : Ref sig .tc := ⟨.hbm, 509, rfl⟩
abbrev main_v429 : Ref sig .tc := ⟨.hbm, 510, rfl⟩
abbrev main_v430 : Ref sig .tc := ⟨.hbm, 511, rfl⟩
abbrev main_v431 : Ref sig .tc := ⟨.hbm, 512, rfl⟩
abbrev main_v432 : Ref sig .tc := ⟨.hbm, 513, rfl⟩
abbrev main_v433 : Ref sig .tc := ⟨.hbm, 514, rfl⟩
abbrev main_v434 : Ref sig .tc := ⟨.hbm, 515, rfl⟩
abbrev main_v435 : Ref sig .tc := ⟨.hbm, 516, rfl⟩
abbrev main_c_69 : Ref sig .tc := ⟨.hbm, 517, rfl⟩
abbrev main_v436 : Ref sig .tc := ⟨.hbm, 518, rfl⟩
abbrev main_v437 : Ref sig .tc := ⟨.hbm, 519, rfl⟩
abbrev main_c_70 : Ref sig .tc := ⟨.hbm, 520, rfl⟩
abbrev main_v438 : Ref sig .tc := ⟨.hbm, 521, rfl⟩
abbrev main_v439 : Ref sig .tc := ⟨.hbm, 522, rfl⟩
abbrev main_v440 : Ref sig .tc := ⟨.hbm, 523, rfl⟩
abbrev main_v441 : Ref sig .tc := ⟨.hbm, 524, rfl⟩
abbrev main_v442 : Ref sig .tc := ⟨.hbm, 525, rfl⟩
abbrev main_v443 : Ref sig .tc := ⟨.hbm, 526, rfl⟩
abbrev main_v444 : Ref sig .tc := ⟨.hbm, 527, rfl⟩
abbrev main_v445 : Ref sig .tc := ⟨.hbm, 528, rfl⟩
abbrev main_v446 : Ref sig .tc := ⟨.hbm, 529, rfl⟩
abbrev main_v447 : Ref sig .tc := ⟨.hbm, 530, rfl⟩
abbrev main_v448 : Ref sig .tc := ⟨.hbm, 531, rfl⟩
abbrev main_v449 : Ref sig .tc := ⟨.hbm, 532, rfl⟩
abbrev main_v450 : Ref sig .tc := ⟨.hbm, 533, rfl⟩
abbrev main_cst_71 : Ref sig .tc := ⟨.hbm, 534, rfl⟩
abbrev main_v451 : Ref sig .tc := ⟨.hbm, 535, rfl⟩
abbrev main_v452 : Ref sig .tc := ⟨.hbm, 536, rfl⟩
abbrev main_v453 : Ref sig .tc := ⟨.hbm, 537, rfl⟩
abbrev main_v454 : Ref sig .tc := ⟨.hbm, 538, rfl⟩
abbrev main_v455 : Ref sig .tc := ⟨.hbm, 539, rfl⟩
abbrev main_v456 : Ref sig .tc := ⟨.hbm, 540, rfl⟩
abbrev main_v457 : Ref sig .tc := ⟨.hbm, 541, rfl⟩
abbrev main_v458 : Ref sig .tc := ⟨.hbm, 542, rfl⟩
abbrev main_v459 : Ref sig .tc := ⟨.hbm, 543, rfl⟩
abbrev main_c_72 : Ref sig .tc := ⟨.hbm, 544, rfl⟩
abbrev main_v460 : Ref sig .tc := ⟨.hbm, 545, rfl⟩
abbrev main_v461 : Ref sig .tc := ⟨.hbm, 546, rfl⟩
abbrev main_c_73 : Ref sig .tc := ⟨.hbm, 547, rfl⟩
abbrev main_v462 : Ref sig .tc := ⟨.hbm, 548, rfl⟩
abbrev main_v463 : Ref sig .tc := ⟨.hbm, 549, rfl⟩
abbrev main_v464 : Ref sig .tc := ⟨.hbm, 550, rfl⟩
abbrev main_v465 : Ref sig .tc := ⟨.hbm, 551, rfl⟩
abbrev main_v466 : Ref sig .tc := ⟨.hbm, 552, rfl⟩
abbrev main_v467 : Ref sig .tc := ⟨.hbm, 553, rfl⟩
abbrev main_v468 : Ref sig .tc := ⟨.hbm, 554, rfl⟩
abbrev main_v469 : Ref sig .tc := ⟨.hbm, 555, rfl⟩
abbrev main_v470 : Ref sig .tc := ⟨.hbm, 556, rfl⟩
abbrev main_v471 : Ref sig .tc := ⟨.hbm, 557, rfl⟩
abbrev main_v472 : Ref sig .tc := ⟨.hbm, 558, rfl⟩
abbrev main_v473 : Ref sig .tc := ⟨.hbm, 559, rfl⟩
abbrev main_v474 : Ref sig .tc := ⟨.hbm, 560, rfl⟩
abbrev main_cst_74 : Ref sig .tc := ⟨.hbm, 561, rfl⟩
abbrev main_v475 : Ref sig .tc := ⟨.hbm, 562, rfl⟩
abbrev main_v476 : Ref sig .tc := ⟨.hbm, 563, rfl⟩
abbrev main_v477 : Ref sig .tc := ⟨.hbm, 564, rfl⟩
abbrev main_cst_75 : Ref sig .tc := ⟨.hbm, 565, rfl⟩
abbrev main_v478 : Ref sig .tc := ⟨.hbm, 566, rfl⟩
abbrev main_cst_76 : Ref sig .tc := ⟨.hbm, 567, rfl⟩
abbrev main_v479 : Ref sig .tc := ⟨.hbm, 568, rfl⟩
abbrev main_v480 : Ref sig .tc := ⟨.hbm, 569, rfl⟩
abbrev main_v481 : Ref sig .tc := ⟨.hbm, 570, rfl⟩
abbrev main_cst_77 : Ref sig .tc := ⟨.hbm, 571, rfl⟩
abbrev main_v482 : Ref sig .tc := ⟨.hbm, 572, rfl⟩
abbrev main_v483 : Ref sig .tc := ⟨.hbm, 573, rfl⟩
abbrev main_v484 : Ref sig .tc := ⟨.hbm, 574, rfl⟩
abbrev main_v485 : Ref sig .tc := ⟨.hbm, 575, rfl⟩
abbrev main_v486 : Ref sig .tc := ⟨.hbm, 576, rfl⟩
abbrev main_v487 : Ref sig .tc := ⟨.hbm, 577, rfl⟩
abbrev main_v488 : Ref sig .tc := ⟨.hbm, 578, rfl⟩
abbrev main_call0_cst : Ref sig .tc := ⟨.hbm, 579, rfl⟩
abbrev main_call0_v0 : Ref sig .tc := ⟨.hbm, 580, rfl⟩
abbrev main_v489 : Ref sig .tc := ⟨.hbm, 581, rfl⟩

abbrev nD : Nat := 1
abbrev τ : Topo := Topo.v7x

variable {F : FTy → Type} [FloatOps F]

class Facts₀ : Prop where
  bcast_S_S100000x32 : S_.BroadcastsInDim S100000x32 (![] : Fin 0 → Fin S100000x32.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S3x6x32_S1x6x32_0_0_0 : S3x6x32.Slices ![0, 0, 0] S1x6x32
  shapeCasts_S1x6x32_S6x32 : S1x6x32.ShapeCasts S6x32
  slices_S3x32_S1x32_0_0 : S3x32.Slices ![0, 0] S1x32
  shapeCasts_S1x32_S32 : S1x32.ShapeCasts S32
  bcast_S32_S1x32_1 : S32.BroadcastsInDim S1x32 (![1] : Fin 1 → Fin S1x32.rank)
  bcast_S1x32_S1600000x32_0_1 : S1x32.BroadcastsInDim S1600000x32 (![0, 1] : Fin 2 → Fin S1600000x32.rank)
  bcast_S_S1600000x1 : S_.BroadcastsInDim S1600000x1 (![] : Fin 0 → Fin S1600000x1.rank)
  bcast_S_S100000x1 : S_.BroadcastsInDim S100000x1 (![] : Fin 0 → Fin S100000x1.rank)
  bcast_S100000x1_S100000x32_0_1 : S100000x1.BroadcastsInDim S100000x32 (![0, 1] : Fin 2 → Fin S100000x32.rank)
  bcast_S1x32_S100000x32_0_1 : S1x32.BroadcastsInDim S100000x32 (![0, 1] : Fin 2 → Fin S100000x32.rank)
  slices_S2x200000_S1x200000_0_0 : S2x200000.Slices ![0, 0] S1x200000
  shapeCasts_S1x200000_S200000 : S1x200000.ShapeCasts S200000
  slices_S2x200000_S1x200000_1_0 : S2x200000.Slices ![1, 0] S1x200000
  bcast_S_S200000 : S_.BroadcastsInDim S200000 (![] : Fin 0 → Fin S200000.rank)
  bcast_S200000_S200000x1_0 : S200000.BroadcastsInDim S200000x1 (![0] : Fin 1 → Fin S200000x1.rank)
  slices_S3x6x32_S1x6x32_1_0_0 : S3x6x32.Slices ![1, 0, 0] S1x6x32
  slices_S3x32_S1x32_1_0 : S3x32.Slices ![1, 0] S1x32
  bcast_S1x32_S200000x32_0_1 : S1x32.BroadcastsInDim S200000x32 (![0, 1] : Fin 2 → Fin S200000x32.rank)
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  slices_S3x6x32_S1x6x32_2_0_0 : S3x6x32.Slices ![2, 0, 0] S1x6x32
  slices_S3x32_S1x32_2_0 : S3x32.Slices ![2, 0] S1x32
  bcast_S1x32_S800000x32_0_1 : S1x32.BroadcastsInDim S800000x32 (![0, 1] : Fin 2 → Fin S800000x32.rank)
  bcast_S_S800000x1 : S_.BroadcastsInDim S800000x1 (![] : Fin 0 → Fin S800000x1.rank)
  slices_S4x3x32x32_S1x3x32x32_0_0_0_0 : S4x3x32x32.Slices ![0, 0, 0, 0] S1x3x32x32
  shapeCasts_S1x3x32x32_S3x32x32 : S1x3x32x32.ShapeCasts S3x32x32
  slices_S4x3x32_S1x3x32_0_0_0 : S4x3x32.Slices ![0, 0, 0] S1x3x32
  shapeCasts_S1x3x32_S3x32 : S1x3x32.ShapeCasts S3x32
  slices_S3x32x32_S1x32x32_0_0_0 : S3x32x32.Slices ![0, 0, 0] S1x32x32
  shapeCasts_S1x32x32_S32x32 : S1x32x32.ShapeCasts S32x32
  slices_S3x32x32_S1x32x32_1_0_0 : S3x32x32.Slices ![1, 0, 0] S1x32x32
  slices_S3x32x32_S1x32x32_2_0_0 : S3x32x32.Slices ![2, 0, 0] S1x32x32
  slices_S4x3x32x32_S1x3x32x32_1_0_0_0 : S4x3x32x32.Slices ![1, 0, 0, 0] S1x3x32x32
  slices_S4x3x32_S1x3x32_1_0_0 : S4x3x32.Slices ![1, 0, 0] S1x3x32
  slices_S4x3x32x32_S1x3x32x32_2_0_0_0 : S4x3x32x32.Slices ![2, 0, 0, 0] S1x3x32x32
  slices_S4x3x32_S1x3x32_2_0_0 : S4x3x32.Slices ![2, 0, 0] S1x3x32
  slices_S4x3x32x32_S1x3x32x32_3_0_0_0 : S4x3x32x32.Slices ![3, 0, 0, 0] S1x3x32x32
  slices_S4x3x32_S1x3x32_3_0_0 : S4x3x32.Slices ![3, 0, 0] S1x3x32
  gather_S100000x6_S1600000x1_S1600000x6_1_0_n_n_0_1_16_wf : GatherDims.WF S100000x6 S1600000x1 S1600000x6 [1] [0] [] [0] [] 1 ![1, 6]
  dot_S1600000x6_S6x32_S1600000x32_1_0_0_1_n_n_wf : DotDims.WF S1600000x6 S6x32 S1600000x32 [1] [0] [0] [1] [] []
  scatter_S100000x32_S1600000x1_S1600000x32_1_0_0_1_wf : ScatterDims.WF S100000x32 S1600000x1 S1600000x32 [1] [0] [0] 1
  scatter_S100000x1_S1600000x1_S1600000x1_1_0_0_1_wf : ScatterDims.WF S100000x1 S1600000x1 S1600000x1 [1] [0] [0] 1
  dot_S100000x6_S6x32_S100000x32_1_0_0_1_n_n_wf : DotDims.WF S100000x6 S6x32 S100000x32 [1] [0] [0] [1] [] []
  gather_S100000x6_S200000x1_S200000x6_1_0_n_n_0_1_16_wf : GatherDims.WF S100000x6 S200000x1 S200000x6 [1] [0] [] [0] [] 1 ![1, 6]
  dot_S200000x6_S6x32_S200000x32_1_0_0_1_n_n_wf : DotDims.WF S200000x6 S6x32 S200000x32 [1] [0] [0] [1] [] []
  scatter_S100000x32_S200000x1_S200000x32_1_0_0_1_wf : ScatterDims.WF S100000x32 S200000x1 S200000x32 [1] [0] [0] 1
  gather_S100000x6_S800000x1_S800000x6_1_0_n_n_0_1_16_wf : GatherDims.WF S100000x6 S800000x1 S800000x6 [1] [0] [] [0] [] 1 ![1, 6]
  dot_S800000x6_S6x32_S800000x32_1_0_0_1_n_n_wf : DotDims.WF S800000x6 S6x32 S800000x32 [1] [0] [0] [1] [] []
  scatter_S100000x32_S800000x1_S800000x32_1_0_0_1_wf : ScatterDims.WF S100000x32 S800000x1 S800000x32 [1] [0] [0] 1
  scatter_S100000x1_S800000x1_S800000x1_1_0_0_1_wf : ScatterDims.WF S100000x1 S800000x1 S800000x1 [1] [0] [0] 1
  gather_S100000x32_S1600000x1_S1600000x32_1_0_n_n_0_1_132_wf : GatherDims.WF S100000x32 S1600000x1 S1600000x32 [1] [0] [] [0] [] 1 ![1, 32]
  dot_S1600000x32_S32x32_S1600000x32_1_0_0_1_n_n_wf : DotDims.WF S1600000x32 S32x32 S1600000x32 [1] [0] [0] [1] [] []
  gather_S100000x32_S200000x1_S200000x32_1_0_n_n_0_1_132_wf : GatherDims.WF S100000x32 S200000x1 S200000x32 [1] [0] [] [0] [] 1 ![1, 32]
  dot_S200000x32_S32x32_S200000x32_1_0_0_1_n_n_wf : DotDims.WF S200000x32 S32x32 S200000x32 [1] [0] [0] [1] [] []
  gather_S100000x32_S800000x1_S800000x32_1_0_n_n_0_1_132_wf : GatherDims.WF S100000x32 S800000x1 S800000x32 [1] [0] [] [0] [] 1 ![1, 32]
  dot_S800000x32_S32x32_S800000x32_1_0_0_1_n_n_wf : DotDims.WF S800000x32 S32x32 S800000x32 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def dot_S1600000x6_S6x32_S1600000x32_1_0_0_1_n_n : DotDims S1600000x6 S6x32 S1600000x32 where
  lhsContracting := [1]
  rhsContracting := [0]
  lhsNonContracting := [0]
  rhsNonContracting := [1]
  lhsBatch := []
  rhsBatch := []
  wf := dot_S1600000x6_S6x32_S1600000x32_1_0_0_1_n_n_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S100000x1_S1600000x1_S1600000x1_1_0_0_1 : ScatterDims S100000x1 S1600000x1 S1600000x1 where
  updateWindowDims := [1]
  insertedWindowDims := [0]
  scatterDimsToOperandDims := [0]
  indexVectorDim := 1
  wf := scatter_S100000x1_S1600000x1_S1600000x1_1_0_0_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def gather_S100000x6_S200000x1_S200000x6_1_0_n_n_0_1_16 : GatherDims S100000x6 S200000x1 S200000x6 where
  offsetDims := [1]
  collapsedSliceDims := [0]
  operandBatchingDims := []
  startIndicesBatchingDims := []
  startIndexMap := [0]
  indexVectorDim := 1
  sliceSizes := ![1, 6]
  wf := gather_S100000x6_S200000x1_S200000x6_1_0_n_n_0_1_16_wf
def dot_S200000x6_S6x32_S200000x32_1_0_0_1_n_n : DotDims S200000x6 S6x32 S200000x32 where
  lhsContracting := [1]
  rhsContracting := [0]
  lhsNonContracting := [0]
  rhsNonContracting := [1]
  lhsBatch := []
  rhsBatch := []
  wf := dot_S200000x6_S6x32_S200000x32_1_0_0_1_n_n_wf
def scatter_S100000x32_S200000x1_S200000x32_1_0_0_1 : ScatterDims S100000x32 S200000x1 S200000x32 where
  updateWindowDims := [1]
  insertedWindowDims := [0]
  scatterDimsToOperandDims := [0]
  indexVectorDim := 1
  wf := scatter_S100000x32_S200000x1_S200000x32_1_0_0_1_wf
def gather_S100000x6_S800000x1_S800000x6_1_0_n_n_0_1_16 : GatherDims S100000x6 S800000x1 S800000x6 where
  offsetDims := [1]
  collapsedSliceDims := [0]
  operandBatchingDims := []
  startIndicesBatchingDims := []
  startIndexMap := [0]
  indexVectorDim := 1
  sliceSizes := ![1, 6]
  wf := gather_S100000x6_S800000x1_S800000x6_1_0_n_n_0_1_16_wf
def dot_S800000x6_S6x32_S800000x32_1_0_0_1_n_n : DotDims S800000x6 S6x32 S800000x32 where
  lhsContracting := [1]
  rhsContracting := [0]
  lhsNonContracting := [0]
  rhsNonContracting := [1]
  lhsBatch := []
  rhsBatch := []
  wf := dot_S800000x6_S6x32_S800000x32_1_0_0_1_n_n_wf
def scatter_S100000x32_S800000x1_S800000x32_1_0_0_1 : ScatterDims S100000x32 S800000x1 S800000x32 where
  updateWindowDims := [1]
  insertedWindowDims := [0]
  scatterDimsToOperandDims := [0]
  indexVectorDim := 1
  wf := scatter_S100000x32_S800000x1_S800000x32_1_0_0_1_wf
def scatter_S100000x1_S800000x1_S800000x1_1_0_0_1 : ScatterDims S100000x1 S800000x1 S800000x1 where
  updateWindowDims := [1]
  insertedWindowDims := [0]
  scatterDimsToOperandDims := [0]
  indexVectorDim := 1
  wf := scatter_S100000x1_S800000x1_S800000x1_1_0_0_1_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def dot_S1600000x32_S32x32_S1600000x32_1_0_0_1_n_n : DotDims S1600000x32 S32x32 S1600000x32 where
  lhsContracting := [1]
  rhsContracting := [0]
  lhsNonContracting := [0]
  rhsNonContracting := [1]
  lhsBatch := []
  rhsBatch := []
  wf := dot_S1600000x32_S32x32_S1600000x32_1_0_0_1_n_n_wf
def gather_S100000x32_S200000x1_S200000x32_1_0_n_n_0_1_132 : GatherDims S100000x32 S200000x1 S200000x32 where
  offsetDims := [1]
  collapsedSliceDims := [0]
  operandBatchingDims := []
  startIndicesBatchingDims := []
  startIndexMap := [0]
  indexVectorDim := 1
  sliceSizes := ![1, 32]
  wf := gather_S100000x32_S200000x1_S200000x32_1_0_n_n_0_1_132_wf
def dot_S200000x32_S32x32_S200000x32_1_0_0_1_n_n : DotDims S200000x32 S32x32 S200000x32 where
  lhsContracting := [1]
  rhsContracting := [0]
  lhsNonContracting := [0]
  rhsNonContracting := [1]
  lhsBatch := []
  rhsBatch := []
  wf := dot_S200000x32_S32x32_S200000x32_1_0_0_1_n_n_wf
def gather_S100000x32_S800000x1_S800000x32_1_0_n_n_0_1_132 : GatherDims S100000x32 S800000x1 S800000x32 where
  offsetDims := [1]
  collapsedSliceDims := [0]
  operandBatchingDims := []
  startIndicesBatchingDims := []
  startIndexMap := [0]
  indexVectorDim := 1
  sliceSizes := ![1, 32]
  wf := gather_S100000x32_S800000x1_S800000x32_1_0_n_n_0_1_132_wf
def dot_S800000x32_S32x32_S800000x32_1_0_0_1_n_n : DotDims S800000x32 S32x32 S800000x32 where
  lhsContracting := [1]
  rhsContracting := [0]
  lhsNonContracting := [0]
  rhsNonContracting := [1]
  lhsBatch := []
  rhsBatch := []
  wf := dot_S800000x32_S32x32_S800000x32_1_0_0_1_n_n_wf

class Facts : Prop extends Facts₀ where

variable [Facts]
-- ==== Proof.RRun.Ops.lean ====
/- The idealized reference's @main is a straight line of 572 host operations. Here the line is cut into sixteen
   consecutive stretches `opsR0 … opsR15`: a cut stands before each operation that slices the first row of an
   edge-index argument (`main_arg1`, `main_arg2`, `main_arg3`) — all of them but the first such slice, which only a
   zero constant and its broadcast precede — and one before the rectifier's three operations, written over its
   call's buffers. With each stretch: the buffers it writes (`opsRk_W`), and three facts with one entry per operation —
   every buffer touched is a TensorCore reference, no operation leaves a result undetermined, every buffer written is
   in `opsRk_W`. -/
import proofs.«147434_j38603166057109_1_alg».proof.Proof.Gen.ReferenceIdeal
import Idealize.ShloMosaic.Lib.StableHlo.Run

set_option Elab.async false

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-- @main's operations 1 … 48 of 572. -/
abbrev opsR0 : List (HloOp τ sig (Elt F)) :=
  [ nullary main_cst (constant S_ .f32 0x00000000#32),
    unary main_cst main_v0 (broadcastInDim S100000x32 ![] bcast_S_S100000x32 : (⟨S_, .f32⟩ : BufTy).Contents (Elt F) → (⟨S100000x32, .f32⟩ : BufTy).Contents (Elt F)),
    unary main_arg1 main_v1 ((extractStridedSlice S1x1600000 ![0, 0] · slices_S2x1600000_S1x1600000_0_0) : (⟨S2x1600000, .i32⟩ : BufTy).Contents (Elt F) → (⟨S1x1600000, .i32⟩ : BufTy).Contents (Elt F)),
    reshape main_v1 main_v2 rfl shapeCasts_S1x1600000_S1600000,
    unary main_arg1 main_v3 ((extractStridedSlice S1x1600000 ![1, 0] · slices_S2x1600000_S1x1600000_1_0) : (⟨S2x1600000, .i32⟩ : BufTy).Contents (Elt F) → (⟨S1x1600000, .i32⟩ : BufTy).Contents (Elt F)),
    reshape main_v3 main_v4 rfl shapeCasts_S1x1600000_S1600000,
    nullary main_c (constantI S_ 32 0#32),
    unary main_c main_v5 (broadcastInDim S1600000 ![] bcast_S_S1600000 : (⟨S_, .i32⟩ : BufTy).Contents (Elt F) → (⟨S1600000, .i32⟩ : BufTy).Contents (Elt F)),
    binary main_v2 main_v5 main_v6 (cmpi .slt : (⟨S1600000, .i32⟩ : BufTy).Contents (Elt F) → (⟨S1600000, .i32⟩ : BufTy).Contents (Elt F) → (⟨S1600000, .i1⟩ : BufTy).Contents (Elt F)),
    nullary main_c_0 (constantI S_ 32 100000#32),
    unary main_c_0 main_v7 (broadcastInDim S1600000 ![] bcast_S_S1600000 : (⟨S_, .i32⟩ : BufTy).Contents (Elt F) → (⟨S1600000, .i32⟩ : BufTy).Contents (Elt F)),
    binary main_v2 main_v7 main_v8 (addi : (⟨S1600000, .i32⟩ : BufTy).Contents (Elt F) → (⟨S1600000, .i32⟩ : BufTy).Contents (Elt F) → (⟨S1600000, .i32⟩ : BufTy).Contents (Elt F)),
    ternary main_v6 main_v8 main_v2 main_v9 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v9 main_v10 (broadcastInDim S1600000x1 ![0] bcast_S1600000_S1600000x1_0 : (⟨S1600000, .i32⟩ : BufTy).Contents (Elt F) → (⟨S1600000x1, .i32⟩ : BufTy).Contents (Elt F)),
    binary main_arg0 main_v10 main_v11 ((fun x i => Host.gather gather_S100000x6_S1600000x1_S1600000x6_1_0_n_n_0_1_16 x i) : (⟨S100000x6, .f32⟩ : BufTy).Contents (Elt F) → (⟨S1600000x1, .i32⟩ : BufTy).Contents (Elt F) → (⟨S1600000x6, .f32⟩ : BufTy).Contents (Elt F)),
    unary main_arg4 main_v12 ((extractStridedSlice S1x6x32 ![0, 0, 0] · slices_S3x6x32_S1x6x32_0_0_0) : (⟨S3x6x32, .f32⟩ : BufTy).Contents (Elt F) → (⟨S1x6x32, .f32⟩ : BufTy).Contents (Elt F)),
    reshape main_v12 main_v13 rfl shapeCasts_S1x6x32_S6x32,
    binary main_v11 main_v13 main_v14 ((fun l r => Host.dotGeneral dot_S1600000x6_S6x32_S1600000x32_1_0_0_1_n_n none l r) : (⟨S1600000x6, .f32⟩ : BufTy).Contents (Elt F) → (⟨S6x32, .f32⟩ : BufTy).Contents (Elt F) → (⟨S1600000x32, .f32⟩ : BufTy).Contents (Elt F)),
    unary main_arg5 main_v15 ((extractStridedSlice S1x32 ![0, 0] · slices_S3x32_S1x32_0_0) : (⟨S3x32, .f32⟩ : BufTy).Contents (Elt F) → (⟨S1x32, .f32⟩ : BufTy).Contents (Elt F)),
    reshape main_v15 main_v16 rfl shapeCasts_S1x32_S32,
    unary main_v16 main_v17 (broadcastInDim S1x32 ![1] bcast_S32_S1x32_1 : (⟨S32, .f32⟩ : BufTy).Contents (Elt F) → (⟨S1x32, .f32⟩ : BufTy).Contents (Elt F)),
    unary main_v17 main_v18 (broadcastInDim S1600000x32 ![0, 1] bcast_S1x32_S1600000x32_0_1 : (⟨S1x32, .f32⟩ : BufTy).Contents (Elt F) → (⟨S1600000x32, .f32⟩ : BufTy).Contents (Elt F)),
    binary main_v14 main_v18 main_v19 (addf : (⟨S1600000x32, .f32⟩ : BufTy).Contents (Elt F) → (⟨S1600000x32, .f32⟩ : BufTy).Contents (Elt F) → (⟨S1600000x32, .f32⟩ : BufTy).Contents (Elt F)),
    nullary main_cst_1 (constant S_ .f32 0x00000000#32),
    unary main_cst_1 main_v20 (broadcastInDim S100000x32 ![] bcast_S_S100000x32 : (⟨S_, .f32⟩ : BufTy).Contents (Elt F) → (⟨S100000x32, .f32⟩ : BufTy).Contents (Elt F)),
    unary main_v4 main_v21 (broadcastInDim S1600000x1 ![0] bcast_S1600000_S1600000x1_0 : (⟨S1600000, .i32⟩ : BufTy).Contents (Elt F) → (⟨S1600000x1, .i32⟩ : BufTy).Contents (Elt F)),
    ternary main_v20 main_v21 main_v19 main_v22 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_2 (constant S_ .f32 0x3F800000#32),
    unary main_cst_2 main_v23 (broadcastInDim S1600000x1 ![] bcast_S_S1600000x1 : (⟨S_, .f32⟩ : BufTy).Contents (Elt F) → (⟨S1600000x1, .f32⟩ : BufTy).Contents (Elt F)),
    nullary main_cst_3 (constant S_ .f32 0x00000000#32),
    unary main_cst_3 main_v24 (broadcastInDim S100000x1 ![] bcast_S_S100000x1 : (⟨S_, .f32⟩ : BufTy).Contents (Elt F) → (⟨S100000x1, .f32⟩ : BufTy).Contents (Elt F)),
    unary main_v4 main_v25 (broadcastInDim S1600000x1 ![0] bcast_S1600000_S1600000x1_0 : (⟨S1600000, .i32⟩ : BufTy).Contents (Elt F) → (⟨S1600000x1, .i32⟩ : BufTy).Contents (Elt F)),
    ternary main_v24 main_v25 main_v23 main_v26 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_4 (constant S_ .f32 0x3F800000#32),
    unary main_cst_4 main_v27 (broadcastInDim S100000x1 ![] bcast_S_S100000x1 : (⟨S_, .f32⟩ : BufTy).Contents (Elt F) → (⟨S100000x1, .f32⟩ : BufTy).Contents (Elt F)),
    binary main_v26 main_v27 main_v28 (maximumf : (⟨S100000x1, .f32⟩ : BufTy).Contents (Elt F) → (⟨S100000x1, .f32⟩ : BufTy).Contents (Elt F) → (⟨S100000x1, .f32⟩ : BufTy).Contents (Elt F)),
    unary main_v28 main_v29 (broadcastInDim S100000x32 ![0, 1] bcast_S100000x1_S100000x32_0_1 : (⟨S100000x1, .f32⟩ : BufTy).Contents (Elt F) → (⟨S100000x32, .f32⟩ : BufTy).Contents (Elt F)),
    binary main_v22 main_v29 main_v30 (Host.divf : (⟨S100000x32, .f32⟩ : BufTy).Contents (Elt F) → (⟨S100000x32, .f32⟩ : BufTy).Contents (Elt F) → (⟨S100000x32, .f32⟩ : BufTy).Contents (Elt F)),
    binary main_v0 main_v30 main_v31 (addf : (⟨S100000x32, .f32⟩ : BufTy).Contents (Elt F) → (⟨S100000x32, .f32⟩ : BufTy).Contents (Elt F) → (⟨S100000x32, .f32⟩ : BufTy).Contents (Elt F)),
    unary main_arg6 main_v32 ((extractStridedSlice S1x6x32 ![0, 0, 0] · slices_S3x6x32_S1x6x32_0_0_0) : (⟨S3x6x32, .f32⟩ : BufTy).Contents (Elt F) → (⟨S1x6x32, .f32⟩ : BufTy).Contents (Elt F)),
    reshape main_v32 main_v33 rfl shapeCasts_S1x6x32_S6x32,
    binary main_arg0 main_v33 main_v34 ((fun l r => Host.dotGeneral dot_S100000x6_S6x32_S100000x32_1_0_0_1_n_n none l r) : (⟨S100000x6, .f32⟩ : BufTy).Contents (Elt F) → (⟨S6x32, .f32⟩ : BufTy).Contents (Elt F) → (⟨S100000x32, .f32⟩ : BufTy).Contents (Elt F)),
    binary main_v31 main_v34 main_v35 (addf : (⟨S100000x32, .f32⟩ : BufTy).Contents (Elt F) → (⟨S100000x32, .f32⟩ : BufTy).Contents (Elt F) → (⟨S100000x32, .f32⟩ : BufTy).Contents (Elt F)),
    unary main_arg7 main_v36 ((extractStridedSlice S1x32 ![0, 0] · slices_S3x32_S1x32_0_0) : (⟨S3x32, .f32⟩ : BufTy).Contents (Elt F) → (⟨S1x32, .f32⟩ : BufTy).Contents (Elt F)),
    reshape main_v36 main_v37 rfl shapeCasts_S1x32_S32,
    unary main_v37 main_v38 (broadcastInDim S1x32 ![1] bcast_S32_S1x32_1 : (⟨S32, .f32⟩ : BufTy).Contents (Elt F) → (⟨S1x32, .f32⟩ : BufTy).Contents (Elt F)),
    unary main_v38 main_v39 (broadcastInDim S100000x32 ![0, 1] bcast_S1x32_S100000x32_0_1 : (⟨S1x32, .f32⟩ : BufTy).Contents (Elt F) → (⟨S100000x32, .f32⟩ : BufTy).Contents (Elt F)),
    binary main_v35 main_v39 main_v40 (addf : (⟨S100000x32, .f32⟩ : BufTy).Contents (Elt F) → (⟨S100000x32, .f32⟩ : BufTy).Contents (Elt F) → (⟨S100000x32, .f32⟩ : BufTy).Contents (Elt F)) ]

/-- The buffers that `opsR0` writes, in order. -/
abbrev opsR0_W : List (Ref sig .tc) := [main_cst, main_v0, main_v1, main_v2, main_v3, main_v4, main_c, main_v5, main_v6, main_c_0, main_v7, main_v8, main_v9, main_v10, main_v11, main_v12, main_v13, main_v14, main_v15, main_v16, main_v17, main_v18, main_v19, main_cst_1, main_v20, main_v21, main_v22, main_cst_2, main_v23, main_cst_3, main_v24, main_v25, main_v26, main_cst_4, main_v27, main_v28, main_v29, main_v30, main_v31, main_v32, main_v33, main_v34, main_v35, main_v36, main_v37, main_v38, main_v39, main_v40]

theorem opsR0_sub : (opsR0 : List (HloOp τ sig (Elt F))).Forall fun op => op.bufs ⊆ tcRefs τ sig :=
  ⟨nullary_bufs_sub .., unary_bufs_sub .., unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

/-- Every operation of `opsR0` determines what it writes. -/
theorem opsR0_fresh : ∀ op ∈ (opsR0 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR0 : List (HloOp τ sig (Elt F))).Forall fun op => op.fresh = ∅)

theorem opsR0_writes : (opsR0 : List (HloOp τ sig (Elt F))).Forall fun op => op.writes ⊆ (opsR0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 49 … 83 of 572. -/
abbrev opsR1 : List (HloOp τ sig (Elt F)) :=
  [ unary main_arg2 main_v41 ((extractStridedSlice S1x200000 ![0, 0] · slices_S2x200000_S1x200000_0_0) : (⟨S2x200000, .i32⟩ : BufTy).Contents (Elt F) → (⟨S1x200000, .i32⟩ : BufTy).Contents (Elt F)),
    reshape main_v41 main_v42 rfl shapeCasts_S1x200000_S200000,
    unary main_arg2 main_v43 ((extractStridedSlice S1x200000 ![1, 0] · slices_S2x200000_S1x200000_1_0) : (⟨S2x200000, .i32⟩ : BufTy).Contents (Elt F) → (⟨S1x200000, .i32⟩ : BufTy).Contents (Elt F)),
    reshape main_v43 main_v44 rfl shapeCasts_S1x200000_S200000,
    nullary main_c_5 (constantI S_ 32 0#32),
    unary main_c_5 main_v45 (broadcastInDim S200000 ![] bcast_S_S200000 : (⟨S_, .i32⟩ : BufTy).Contents (Elt F) → (⟨S200000, .i32⟩ : BufTy).Contents (Elt F)),
    binary main_v42 main_v45 main_v46 (cmpi .slt : (⟨S200000, .i32⟩ : BufTy).Contents (Elt F) → (⟨S200000, .i32⟩ : BufTy).Contents (Elt F) → (⟨S200000, .i1⟩ : BufTy).Contents (Elt F)),
    nullary main_c_6 (constantI S_ 32 100000#32),
    unary main_c_6 main_v47 (broadcastInDim S200000 ![] bcast_S_S200000 : (⟨S_, .i32⟩ : BufTy).Contents (Elt F) → (⟨S200000, .i32⟩ : BufTy).Contents (Elt F)),
    binary main_v42 main_v47 main_v48 (addi : (⟨S200000, .i32⟩ : BufTy).Contents (Elt F) → (⟨S200000, .i32⟩ : BufTy).Contents (Elt F) → (⟨S200000, .i32⟩ : BufTy).Contents (Elt F)),
    ternary main_v46 main_v48 main_v42 main_v49 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v49 main_v50 (broadcastInDim S200000x1 ![0] bcast_S200000_S200000x1_0 : (⟨S200000, .i32⟩ : BufTy).Contents (Elt F) → (⟨S200000x1, .i32⟩ : BufTy).Contents (Elt F)),
    binary main_arg0 main_v50 main_v51 ((fun x i => Host.gather gather_S100000x6_S200000x1_S200000x6_1_0_n_n_0_1_16 x i) : (⟨S100000x6, .f32⟩ : BufTy).Contents (Elt F) → (⟨S200000x1, .i32⟩ : BufTy).Contents (Elt F) → (⟨S200000x6, .f32⟩ : BufTy).Contents (Elt F)),
    unary main_arg4 main_v52 ((extractStridedSlice S1x6x32 ![1, 0, 0] · slices_S3x6x32_S1x6x32_1_0_0) : (⟨S3x6x32, .f32⟩ : BufTy).Contents (Elt F) → (⟨S1x6x32, .f32⟩ : BufTy).Contents (Elt F)),
    reshape main_v52 main_v53 rfl shapeCasts_S1x6x32_S6x32,
    binary main_v51 main_v53 main_v54 ((fun l r => Host.dotGeneral dot_S200000x6_S6x32_S200000x32_1_0_0_1_n_n none l r) : (⟨S200000x6, .f32⟩ : BufTy).Contents (Elt F) → (⟨S6x32, .f32⟩ : BufTy).Contents (Elt F) → (⟨S200000x32, .f32⟩ : BufTy).Contents (Elt F)),
    unary main_arg5 main_v55 ((extractStridedSlice S1x32 ![1, 0] · slices_S3x32_S1x32_1_0) : (⟨S3x32, .f32⟩ : BufTy).Contents (Elt F) → (⟨S1x32, .f32⟩ : BufTy).Contents (Elt F)),
    reshape main_v55 main_v56 rfl shapeCasts_S1x32_S32,
    unary main_v56 main_v57 (broadcastInDim S1x32 ![1] bcast_S32_S1x32_1 : (⟨S32, .f32⟩ : BufTy).Contents (Elt F) → (⟨S1x32, .f32⟩ : BufTy).Contents (Elt F)),
    unary main_v57 main_v58 (broadcastInDim S200000x32 ![0, 1] bcast_S1x32_S200000x32_0_1 : (⟨S1x32, .f32⟩ : BufTy).Contents (Elt F) → (⟨S200000x32, .f32⟩ : BufTy).Contents (Elt F)),
    binary main_v54 main_v58 main_v59 (addf : (⟨S200000x32, .f32⟩ : BufTy).Contents (Elt F) → (⟨S200000x32, .f32⟩ : BufTy).Contents (Elt F) → (⟨S200000x32, .f32⟩ : BufTy).Contents (Elt F)),
    nullary main_cst_7 (constant S_ .f32 0x00000000#32),
    unary main_cst_7 main_v60 (broadcastInDim S100000x32 ![] bcast_S_S100000x32 : (⟨S_, .f32⟩ : BufTy).Contents (Elt F) → (⟨S100000x32, .f32⟩ : BufTy).Contents (Elt F)),
    unary main_v44 main_v61 (broadcastInDim S200000x1 ![0] bcast_S200000_S200000x1_0 : (⟨S200000, .i32⟩ : BufTy).Contents (Elt F) → (⟨S200000x1, .i32⟩ : BufTy).Contents (Elt F)),
    ternary main_v60 main_v61 main_v59 main_v62 ((fun x i u => Host.scatterAdd scatter_S100000x32_S200000x1_S200000x32_1_0_0_1 x i u) : (⟨S100000x32, .f32⟩ : BufTy).Contents (Elt F) → (⟨S200000x1, .i32⟩ : BufTy).Contents (Elt F) → (⟨S200000x32, .f32⟩ : BufTy).Contents (Elt F) → (⟨S100000x32, .f32⟩ : BufTy).Contents (Elt F)),
    binary main_v40 main_v62 main_v63 (addf : (⟨S100000x32, .f32⟩ : BufTy).Contents (Elt F) → (⟨S100000x32, .f32⟩ : BufTy).Contents (Elt F) → (⟨S100000x32, .f32⟩ : BufTy).Contents (Elt F)),
    unary main_arg6 main_v64 ((extractStridedSlice S1x6x32 ![1, 0, 0] · slices_S3x6x32_S1x6x32_1_0_0) : (⟨S3x6x32, .f32⟩ : BufTy).Contents (Elt F) → (⟨S1x6x32, .f32⟩ : BufTy).Contents (Elt F)),
    reshape main_v64 main_v65 rfl shapeCasts_S1x6x32_S6x32,
    binary main_arg0 main_v65 main_v66 ((fun l r => Host.dotGeneral dot_S100000x6_S6x32_S100000x32_1_0_0_1_n_n none l r) : (⟨S100000x6, .f32⟩ : BufTy).Contents (Elt F) → (⟨S6x32, .f32⟩ : BufTy).Contents (Elt F) → (⟨S100000x32, .f32⟩ : BufTy).Contents (Elt F)),
    binary main_v63 main_v66 main_v67 (addf : (⟨S100000x32, .f32⟩ : BufTy).Contents (Elt F) → (⟨S100000x32, .f32⟩ : BufTy).Contents (Elt F) → (⟨S100000x32, .f32⟩ : BufTy).Contents (Elt F)),
    unary main_arg7 main_v68 ((extractStridedSlice S1x32 ![1, 0] · slices_S3x32_S1x32_1_0) : (⟨S3x32, .f32⟩ : BufTy).Contents (Elt F) → (⟨S1x32, .f32⟩ : BufTy).Contents (Elt F)),
    reshape main_v68 main_v69 rfl shapeCasts_S1x32_S32,
    unary main_v69 main_v70 (broadcastInDim S1x32 ![1] bcast_S32_S1x32_1 : (⟨S32, .f32⟩ : BufTy).Contents (Elt F) → (⟨S1x32, .f32⟩ : BufTy).Contents (Elt F)),
    unary main_v70 main_v71 (broadcastInDim S100000x32 ![0, 1] bcast_S1x32_S100000x32_0_1 : (⟨S1x32, .f32⟩ : BufTy).Contents (Elt F) → (⟨S100000x32, .f32⟩ : BufTy).Contents (Elt F)),
    binary main_v67 main_v71 main_v72 (addf : (⟨S100000x32, .f32⟩ : BufTy).Contents (Elt F) → (⟨S100000x32, .f32⟩ : BufTy).Contents (Elt F) → (⟨S100000x32, .f32⟩ : BufTy).Contents (Elt F)) ]

/-- The buffers that `opsR1` writes, in order. -/
abbrev opsR1_W : List (Ref sig .tc) := [main_v41, main_v42, main_v43, main_v44, main_c_5, main_v45, main_v46, main_c_6, main_v47, main_v48, main_v49, main_v50, main_v51, main_v52, main_v53, main_v54, main_v55, main_v56, main_v57, main_v58, main_v59, main_cst_7, main_v60, main_v61, main_v62, main_v63, main_v64, main_v65, main_v66, main_v67, main_v68, main_v69, main_v70, main_v71, main_v72]

theorem opsR1_sub : (opsR1 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., unary_bufs_sub .., reshape_bufs_sub .., binary_bufs_sub .., binary_bufs_sub .., unary_bufs_sub .., reshape_bufs_sub .., unary_bufs_sub .., unary_bufs_sub .., binary_bufs_sub ..⟩

/-- Every operation of `opsR1` determines what it writes. -/
theorem opsR1_fresh : ∀ op ∈ (opsR1 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR1 : List (HloOp τ sig (Elt F))).Forall fun op => op.fresh = ∅)

theorem opsR1_writes : (opsR1 : List (HloOp τ sig (Elt F))).Forall fun op => op.writes ⊆ (opsR1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 84 … 135 of 572. -/
abbrev opsR2 : List (HloOp τ sig (Elt F)) :=
  [ unary main_arg3 main_v73 ((extractStridedSlice S1x800000 ![0, 0] · slices_S2x800000_S1x800000_0_0) : (⟨S2x800000, .i32⟩ : BufTy).Contents (Elt F) → (⟨S1x800000, .i32⟩ : BufTy).Contents (Elt F)),
    reshape main_v73 main_v74 rfl shapeCasts_S1x800000_S800000,
    unary main_arg3 main_v75 ((extractStridedSlice S1x800000 ![1, 0] · slices_S2x800000_S1x800000_1_0) : (⟨S2x800000, .i32⟩ : BufTy).Contents (Elt F) → (⟨S1x800000, .i32⟩ : BufTy).Contents (Elt F)),
    reshape main_v75 main_v76 rfl shapeCasts_S1x800000_S800000,
    nullary main_c_8 (constantI S_ 32 0#32),
    unary main_c_8 main_v77 (broadcastInDim S800000 ![] bcast_S_S800000 : (⟨S_, .i32⟩ : BufTy).Contents (Elt F) → (⟨S800000, .i32⟩ : BufTy).Contents (Elt F)),
    binary main_v74 main_v77 main_v78 (cmpi .slt : (⟨S800000, .i32⟩ : BufTy).Contents (Elt F) → (⟨S800000, .i32⟩ : BufTy).Contents (Elt F) → (⟨S800000, .i1⟩ : BufTy).Contents (Elt F)),
    nullary main_c_9 (constantI S_ 32 100000#32),
    unary main_c_9 main_v79 (broadcastInDim S800000 ![] bcast_S_S800000 : (⟨S_, .i32⟩ : BufTy).Contents (Elt F) → (⟨S800000, .i32⟩ : BufTy).Contents (Elt F)),
    binary main_v74 main_v79 main_v80 (addi : (⟨S800000, .i32⟩ : BufTy).Contents (Elt F) → (⟨S800000, .i32⟩ : BufTy).Contents (Elt F) → (⟨S800000, .i32⟩ : BufTy).Contents (Elt F)),
    ternary main_v78 main_v80 main_v74 main_v81 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v81 main_v82 (broadcastInDim S800000x1 ![0] bcast_S800000_S800000x1_0 : (⟨S800000, .i32⟩ : BufTy).Contents (Elt F) → (⟨S800000x1, .i32⟩ : BufTy).Contents (Elt F)),
    binary main_arg0 main_v82 main_v83 ((fun x i => Host.gather gather_S100000x6_S800000x1_S800000x6_1_0_n_n_0_1_16 x i) : (⟨S100000x6, .f32⟩ : BufTy).Contents (Elt F) → (⟨S800000x1, .i32⟩ : BufTy).Contents (Elt F) → (⟨S800000x6, .f32⟩ : BufTy).Contents (Elt F)),
    unary main_arg4 main_v84 ((extractStridedSlice S1x6x32 ![2, 0, 0] · slices_S3x6x32_S1x6x32_2_0_0) : (⟨S3x6x32, .f32⟩ : BufTy).Contents (Elt F) → (⟨S1x6x32, .f32⟩ : BufTy).Contents (Elt F)),
    reshape main_v84 main_v85 rfl shapeCasts_S1x6x32_S6x32,
    binary main_v83 main_v85 main_v86 ((fun l r => Host.dotGeneral dot_S800000x6_S6x32_S800000x32_1_0_0_1_n_n none l r) : (⟨S800000x6, .f32⟩ : BufTy).Contents (Elt F) → (⟨S6x32, .f32⟩ : BufTy).Contents (Elt F) → (⟨S800000x32, .f32⟩ : BufTy).Contents (Elt F)),
    unary main_arg5 main_v87 ((extractStridedSlice S1x32 ![2, 0] · slices_S3x32_S1x32_2_0) : (⟨S3x32, .f32⟩ : BufTy).Contents (Elt F) → (⟨S1x32, .f32⟩ : BufTy).Contents (Elt F)),
    reshape main_v87 main_v88 rfl shapeCasts_S1x32_S32,
    unary main_v88 main_v89 (broadcastInDim S1x32 ![1] bcast_S32_S1x32_1 : (⟨S32, .f32⟩ : BufTy).Contents (Elt F) → (⟨S1x32, .f32⟩ : BufTy).Contents (Elt F)),
    unary main_v89 main_v90 (broadcastInDim S800000x32 ![0, 1] bcast_S1x32_S800000x32_0_1 : (⟨S1x32, .f32⟩ : BufTy).Contents (Elt F) → (⟨S800000x32, .f32⟩ : BufTy).Contents (Elt F)),
    binary main_v86 main_v90 main_v91 (addf : (⟨S800000x32, .f32⟩ : BufTy).Contents (Elt F) → (⟨S800000x32, .f32⟩ : BufTy).Contents (Elt F) → (⟨S800000x32, .f32⟩ : BufTy).Contents (Elt F)),
    nullary main_cst_10 (constant S_ .f32 0x00000000#32),
    unary main_cst_10 main_v92 (broadcastInDim S100000x32 ![] bcast_S_S100000x32 : (⟨S_, .f32⟩ : BufTy).Contents (Elt F) → (⟨S100000x32, .f32⟩ : BufTy).Contents (Elt F)),
    unary main_v76 main_v93 (broadcastInDim S800000x1 ![0] bcast_S800000_S800000x1_0 : (⟨S800000, .i32⟩ : BufTy).Contents (Elt F) → (⟨S800000x1, .i32⟩ : BufTy).Contents (Elt F)),
    ternary main_v92 main_v93 main_v91 main_v94 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_11 (constant S_ .f32 0x3F800000#32),
    unary main_cst_11 main_v95 (broadcastInDim S800000x1 ![] bcast_S_S800000x1 : (⟨S_, .f32⟩ : BufTy).Contents (Elt F) → (⟨S800000x1, .f32⟩ : BufTy).Contents (Elt F)),
    nullary main_cst_12 (constant S_ .f32 0x00000000#32),
    unary main_cst_12 main_v96 (broadcastInDim S100000x1 ![] bcast_S_S100000x1 : (⟨S_, .f32⟩ : BufTy).Contents (Elt F) → (⟨S100000x1, .f32⟩ : BufTy).Contents (Elt F)),
    unary main_v76 main_v97 (broadcastInDim S800000x1 ![0] bcast_S800000_S800000x1_0 : (⟨S800000, .i32⟩ : BufTy).Contents (Elt F) → (⟨S800000x1, .i32⟩ : BufTy).Contents (Elt F)),
    ternary main_v96 main_v97 main_v95 main_v98 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_13 (constant S_ .f32 0x3F800000#32),
    unary main_cst_13 main_v99 (broadcastInDim S100000x1 ![] bcast_S_S100000x1 : (⟨S_, .f32⟩ : BufTy).Contents (Elt F) → (⟨S100000x1, .f32⟩ : BufTy).Contents (Elt F)),
    binary main_v98 main_v99 main_v100 (maximumf : (⟨S100000x1, .f32⟩ : BufTy).Contents (Elt F) → (⟨S100000x1, .f32⟩ : BufTy).Contents (Elt F) → (⟨S100000x1, .f32⟩ : BufTy).Contents (Elt F)),
    unary main_v100 main_v101 (broadcastInDim S100000x32 ![0, 1] bcast_S100000x1_S100000x32_0_1 : (⟨S100000x1, .f32⟩ : BufTy).Contents (Elt F) → (⟨S100000x32, .f32⟩ : BufTy).Contents (Elt F)),
    binary main_v94 main_v101 main_v102 (Host.divf : (⟨S100000x32, .f32⟩ : BufTy).Contents (Elt F) → (⟨S100000x32, .f32⟩ : BufTy).Contents (Elt F) → (⟨S100000x32, .f32⟩ : BufTy).Contents (Elt F)),
    binary main_v72 main_v102 main_v103 (addf : (⟨S100000x32, .f32⟩ : BufTy).Contents (Elt F) → (⟨S100000x32, .f32⟩ : BufTy).Contents (Elt F) → (⟨S100000x32, .f32⟩ : BufTy).Contents (Elt F)),
    unary main_arg6 main_v104 ((extractStridedSlice S1x6x32 ![2, 0, 0] · slices_S3x6x32_S1x6x32_2_0_0) : (⟨S3x6x32, .f32⟩ : BufTy).Contents (Elt F) → (⟨S1x6x32, .f32⟩ : BufTy).Contents (Elt F)),
    reshape main_v104 main_v105 rfl shapeCasts_S1x6x32_S6x32,
    binary main_arg0 main_v105 main_v106 ((fun l r => Host.dotGeneral dot_S100000x6_S6x32_S100000x32_1_0_0_1_n_n none l r) : (⟨S100000x6, .f32⟩ : BufTy).Contents (Elt F) → (⟨S6x32, .f32⟩ : BufTy).Contents (Elt F) → (⟨S100000x32, .f32⟩ : BufTy).Contents (Elt F)),
    binary main_v103 main_v106 main_v107 (addf : (⟨S100000x32, .f32⟩ : BufTy).Contents (Elt F) → (⟨S100000x32, .f32⟩ : BufTy).Contents (Elt F) → (⟨S100000x32, .f32⟩ : BufTy).Contents (Elt F)),
    unary main_arg7 main_v108 ((extractStridedSlice S1x32 ![2, 0] · slices_S3x32_S1x32_2_0) : (⟨S3x32, .f32⟩ : BufTy).Contents (Elt F) → (⟨S1x32, .f32⟩ : BufTy).Contents (Elt F)),
    reshape main_v108 main_v109 rfl shapeCasts_S1x32_S32,
    unary main_v109 main_v110 (broadcastInDim S1x32 ![1] bcast_S32_S1x32_1 : (⟨S32, .f32⟩ : BufTy).Contents (Elt F) → (⟨S1x32, .f32⟩ : BufTy).Contents (Elt F)),
    unary main_v110 main_v111 (broadcastInDim S100000x32 ![0, 1] bcast_S1x32_S100000x32_0_1 : (⟨S1x32, .f32⟩ : BufTy).Contents (Elt F) → (⟨S100000x32, .f32⟩ : BufTy).Contents (Elt F)),
    binary main_v107 main_v111 main_v112 (addf : (⟨S100000x32, .f32⟩ : BufTy).Contents (Elt F) → (⟨S100000x32, .f32⟩ : BufTy).Contents (Elt F) → (⟨S100000x32, .f32⟩ : BufTy).Contents (Elt F)),
    unary main_arg8 main_v113 ((extractStridedSlice S1x3x32x32 ![0, 0, 0, 0] · slices_S4x3x32x32_S1x3x32x32_0_0_0_0) : (⟨S4x3x32x32, .f32⟩ : BufTy).Contents (Elt F) → (⟨S1x3x32x32, .f32⟩ : BufTy).Contents (Elt F)),
    reshape main_v113 main_v114 rfl shapeCasts_S1x3x32x32_S3x32x32,
    unary main_arg9 main_v115 ((extractStridedSlice S1x3x32 ![0, 0, 0] · slices_S4x3x32_S1x3x32_0_0_0) : (⟨S4x3x32, .f32⟩ : BufTy).Contents (Elt F) → (⟨S1x3x32, .f32⟩ : BufTy).Contents (Elt F)),
    reshape main_v115 main_v116 rfl shapeCasts_S1x3x32_S3x32,
    nullary main_cst_14 (constant S_ .f32 0x00000000#32),
    unary main_cst_14 main_v117 (broadcastInDim S100000x32 ![] bcast_S_S100000x32 : (⟨S_, .f32⟩ : BufTy).Contents (Elt F) → (⟨S100000x32, .f32⟩ : BufTy).Contents (Elt F)) ]

/-- The buffers that `opsR2` writes, in order. -/
abbrev opsR2_W : List (Ref sig .tc) := [main_v73, main_v74, main_v75, main_v76, main_c_8, main_v77, main_v78, main_c_9, main_v79, main_v80, main_v81, main_v82, main_v83, main_v84, main_v85, main_v86, main_v87, main_v88, main_v89, main_v90, main_v91, main_cst_10, main_v92, main_v93, main_v94, main_cst_11, main_v95, main_cst_12, main_v96, main_v97, main_v98, main_cst_13, main_v99, main_v100, main_v101, main_v102, main_v103, main_v104, main_v105, main_v106, main_v107, main_v108, main_v109, main_v110, main_v111, main_v112, main_v113, main_v114, main_v115, main_v116, main_cst_14, main_v117]

theorem opsR2_sub : (opsR2 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., unary_bufs_sub .., reshape_bufs_sub .., binary_bufs_sub .., binary_bufs_sub .., unary_bufs_sub .., reshape_bufs_sub .., unary_bufs_sub .., unary_bufs_sub .., binary_bufs_sub .., unary_bufs_sub .., reshape_bufs_sub .., unary_bufs_sub .., reshape_bufs_sub .., nullary_bufs_sub .., unary_bufs_sub ..⟩

/-- Every operation of `opsR2` determines what it writes. -/
theorem opsR2_fresh : ∀ op ∈ (opsR2 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR2 : List (HloOp τ sig (Elt F))).Forall fun op => op.fresh = ∅)

theorem opsR2_writes : (opsR2 : List (HloOp τ sig (Elt F))).Forall fun op => op.writes ⊆ (opsR2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 136 … 173 of 572. -/
abbrev opsR3 : List (HloOp τ sig (Elt F)) :=
  [ unary main_arg1 main_v118 ((extractStridedSlice S1x1600000 ![0, 0] · slices_S2x1600000_S1x1600000_0_0) : (⟨S2x1600000, .i32⟩ : BufTy).Contents (Elt F) → (⟨S1x1600000, .i32⟩ : BufTy).Contents (Elt F)),
    reshape main_v118 main_v119 rfl shapeCasts_S1x1600000_S1600000,
    unary main_arg1 main_v120 ((extractStridedSlice S1x1600000 ![1, 0] · slices_S2x1600000_S1x1600000_1_0) : (⟨S2x1600000, .i32⟩ : BufTy).Contents (Elt F) → (⟨S1x1600000, .i32⟩ : BufTy).Contents (Elt F)),
    reshape main_v120 main_v121 rfl shapeCasts_S1x1600000_S1600000,
    nullary main_c_15 (constantI S_ 32 0#32),
    unary main_c_15 main_v122 (broadcastInDim S1600000 ![] bcast_S_S1600000 : (⟨S_, .i32⟩ : BufTy).Contents (Elt F) → (⟨S1600000, .i32⟩ : BufTy).Contents (Elt F)),
    binary main_v119 main_v122 main_v123 (cmpi .slt : (⟨S1600000, .i32⟩ : BufTy).Contents (Elt F) → (⟨S1600000, .i32⟩ : BufTy).Contents (Elt F) → (⟨S1600000, .i1⟩ : BufTy).Contents (Elt F)),
    nullary main_c_16 (constantI S_ 32 100000#32),
    unary main_c_16 main_v124 (broadcastInDim S1600000 ![] bcast_S_S1600000 : (⟨S_, .i32⟩ : BufTy).Contents (Elt F) → (⟨S1600000, .i32⟩ : BufTy).Contents (Elt F)),
    binary main_v119 main_v124 main_v125 (addi : (⟨S1600000, .i32⟩ : BufTy).Contents (Elt F) → (⟨S1600000, .i32⟩ : BufTy).Contents (Elt F) → (⟨S1600000, .i32⟩ : BufTy).Contents (Elt F)),
    ternary main_v123 main_v125 main_v119 main_v126 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v126 main_v127 (broadcastInDim S1600000x1 ![0] bcast_S1600000_S1600000x1_0 : (⟨S1600000, .i32⟩ : BufTy).Contents (Elt F) → (⟨S1600000x1, .i32⟩ : BufTy).Contents (Elt F)),
    binary main_v112 main_v127 main_v128 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v114 main_v129 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v129 main_v130 rfl shapeCasts_S1x32x32_S32x32,
    binary main_v128 main_v130 main_v131 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_v116 main_v132 ((extractStridedSlice S1x32 ![0, 0] · slices_S3x32_S1x32_0_0) : (⟨S3x32, .f32⟩ : BufTy).Contents (Elt F) → (⟨S1x32, .f32⟩ : BufTy).Contents (Elt F)),
    reshape main_v132 main_v133 rfl shapeCasts_S1x32_S32,
    unary main_v133 main_v134 (broadcastInDim S1x32 ![1] bcast_S32_S1x32_1 : (⟨S32, .f32⟩ : BufTy).Contents (Elt F) → (⟨S1x32, .f32⟩ : BufTy).Contents (Elt F)),
    unary main_v134 main_v135 (broadcastInDim S1600000x32 ![0, 1] bcast_S1x32_S1600000x32_0_1 : (⟨S1x32, .f32⟩ : BufTy).Contents (Elt F) → (⟨S1600000x32, .f32⟩ : BufTy).Contents (Elt F)),
    binary main_v131 main_v135 main_v136 (addf : (⟨S1600000x32, .f32⟩ : BufTy).Contents (Elt F) → (⟨S1600000x32, .f32⟩ : BufTy).Contents (Elt F) → (⟨S1600000x32, .f32⟩ : BufTy).Contents (Elt F)),
    nullary main_cst_17 (constant S_ .f32 0x00000000#32),
    unary main_cst_17 main_v137 (broadcastInDim S100000x32 ![] bcast_S_S100000x32 : (⟨S_, .f32⟩ : BufTy).Contents (Elt F) → (⟨S100000x32, .f32⟩ : BufTy).Contents (Elt F)),
    unary main_v121 main_v138 (broadcastInDim S1600000x1 ![0] bcast_S1600000_S1600000x1_0 : (⟨S1600000, .i32⟩ : BufTy).Contents (Elt F) → (⟨S1600000x1, .i32⟩ : BufTy).Contents (Elt F)),
    ternary main_v137 main_v138 main_v136 main_v139 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_18 (constant S_ .f32 0x3F800000#32),
    unary main_cst_18 main_v140 (broadcastInDim S1600000x1 ![] bcast_S_S1600000x1 : (⟨S_, .f32⟩ : BufTy).Contents (Elt F) → (⟨S1600000x1, .f32⟩ : BufTy).Contents (Elt F)),
    nullary main_cst_19 (constant S_ .f32 0x00000000#32),
    unary main_cst_19 main_v141 (broadcastInDim S100000x1 ![] bcast_S_S100000x1 : (⟨S_, .f32⟩ : BufTy).Contents (Elt F) → (⟨S100000x1, .f32⟩ : BufTy).Contents (Elt F)),
    unary main_v121 main_v142 (broadcastInDim S1600000x1 ![0] bcast_S1600000_S1600000x1_0 : (⟨S1600000, .i32⟩ : BufTy).Contents (Elt F) → (⟨S1600000x1, .i32⟩ : BufTy).Contents (Elt F)),
    ternary main_v141 main_v142 main_v140 main_v143 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_20 (constant S_ .f32 0x3F800000#32),
    unary main_cst_20 main_v144 (broadcastInDim S100000x1 ![] bcast_S_S100000x1 : (⟨S_, .f32⟩ : BufTy).Contents (Elt F) → (⟨S100000x1, .f32⟩ : BufTy).Contents (Elt F)),
    binary main_v143 main_v144 main_v145 (maximumf : (⟨S100000x1, .f32⟩ : BufTy).Contents (Elt F) → (⟨S100000x1, .f32⟩ : BufTy).Contents (Elt F) → (⟨S100000x1, .f32⟩ : BufTy).Contents (Elt F)),
    unary main_v145 main_v146 (broadcastInDim S100000x32 ![0, 1] bcast_S100000x1_S100000x32_0_1 : (⟨S100000x1, .f32⟩ : BufTy).Contents (Elt F) → (⟨S100000x32, .f32⟩ : BufTy).Contents (Elt F)),
    binary main_v139 main_v146 main_v147 (Host.divf : (⟨S100000x32, .f32⟩ : BufTy).Contents (Elt F) → (⟨S100000x32, .f32⟩ : BufTy).Contents (Elt F) → (⟨S100000x32, .f32⟩ : BufTy).Contents (Elt F)),
    binary main_v117 main_v147 main_v148 (addf : (⟨S100000x32, .f32⟩ : BufTy).Contents (Elt F) → (⟨S100000x32, .f32⟩ : BufTy).Contents (Elt F) → (⟨S100000x32, .f32⟩ : BufTy).Contents (Elt F)),
    binary main_v148 main_v112 main_v149 (addf : (⟨S100000x32, .f32⟩ : BufTy).Contents (Elt F) → (⟨S100000x32, .f32⟩ : BufTy).Contents (Elt F) → (⟨S100000x32, .f32⟩ : BufTy).Contents (Elt F)) ]

/-- The buffers that `opsR3` writes, in order. -/
abbrev opsR3_W : List (Ref sig .tc) := [main_v118, main_v119, main_v120, main_v121, main_c_15, main_v122, main_v123, main_c_16, main_v124, main_v125, main_v126, main_v127, main_v128, main_v129, main_v130, main_v131, main_v132, main_v133, main_v134, main_v135, main_v136, main_cst_17, main_v137, main_v138, main_v139, main_cst_18, main_v140, main_cst_19, main_v141, main_v142, main_v143, main_cst_20, main_v144, main_v145, main_v146, main_v147, main_v148, main_v149]

theorem opsR3_sub : (opsR3 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub ..⟩

/-- Every operation of `opsR3` determines what it writes. -/
theorem opsR3_fresh : ∀ op ∈ (opsR3 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR3 : List (HloOp τ sig (Elt F))).Forall fun op => op.fresh = ∅)

theorem opsR3_writes : (opsR3 : List (HloOp τ sig (Elt F))).Forall fun op => op.writes ⊆ (opsR3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 174 … 200 of 572. -/
abbrev opsR4 : List (HloOp τ sig (Elt F)) :=
  [ unary main_arg2 main_v150 ((extractStridedSlice S1x200000 ![0, 0] · slices_S2x200000_S1x200000_0_0) : (⟨S2x200000, .i32⟩ : BufTy).Contents (Elt F) → (⟨S1x200000, .i32⟩ : BufTy).Contents (Elt F)),
    reshape main_v150 main_v151 rfl shapeCasts_S1x200000_S200000,
    unary main_arg2 main_v152 ((extractStridedSlice S1x200000 ![1, 0] · slices_S2x200000_S1x200000_1_0) : (⟨S2x200000, .i32⟩ : BufTy).Contents (Elt F) → (⟨S1x200000, .i32⟩ : BufTy).Contents (Elt F)),
    reshape main_v152 main_v153 rfl shapeCasts_S1x200000_S200000,
    nullary main_c_21 (constantI S_ 32 0#32),
    unary main_c_21 main_v154 (broadcastInDim S200000 ![] bcast_S_S200000 : (⟨S_, .i32⟩ : BufTy).Contents (Elt F) → (⟨S200000, .i32⟩ : BufTy).Contents (Elt F)),
    binary main_v151 main_v154 main_v155 (cmpi .slt : (⟨S200000, .i32⟩ : BufTy).Contents (Elt F) → (⟨S200000, .i32⟩ : BufTy).Contents (Elt F) → (⟨S200000, .i1⟩ : BufTy).Contents (Elt F)),
    nullary main_c_22 (constantI S_ 32 100000#32),
    unary main_c_22 main_v156 (broadcastInDim S200000 ![] bcast_S_S200000 : (⟨S_, .i32⟩ : BufTy).Contents (Elt F) → (⟨S200000, .i32⟩ : BufTy).Contents (Elt F)),
    binary main_v151 main_v156 main_v157 (addi : (⟨S200000, .i32⟩ : BufTy).Contents (Elt F) → (⟨S200000, .i32⟩ : BufTy).Contents (Elt F) → (⟨S200000, .i32⟩ : BufTy).Contents (Elt F)),
    ternary main_v155 main_v157 main_v151 main_v158 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v158 main_v159 (broadcastInDim S200000x1 ![0] bcast_S200000_S200000x1_0 : (⟨S200000, .i32⟩ : BufTy).Contents (Elt F) → (⟨S200000x1, .i32⟩ : BufTy).Contents (Elt F)),
    binary main_v112 main_v159 main_v160 ((fun x i => Host.gather gather_S100000x32_S200000x1_S200000x32_1_0_n_n_0_1_132 x i) : (⟨S100000x32, .f32⟩ : BufTy).Contents (Elt F) → (⟨S200000x1, .i32⟩ : BufTy).Contents (Elt F) → (⟨S200000x32, .f32⟩ : BufTy).Contents (Elt F)),
    unary main_v114 main_v161 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v161 main_v162 rfl shapeCasts_S1x32x32_S32x32,
    binary main_v160 main_v162 main_v163 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    unary main_v116 main_v164 ((extractStridedSlice S1x32 ![1, 0] · slices_S3x32_S1x32_1_0) : (⟨S3x32, .f32⟩ : BufTy).Contents (Elt F) → (⟨S1x32, .f32⟩ : BufTy).Contents (Elt F)),
    reshape main_v164 main_v165 rfl shapeCasts_S1x32_S32,
    unary main_v165 main_v166 (broadcastInDim S1x32 ![1] bcast_S32_S1x32_1 : (⟨S32, .f32⟩ : BufTy).Contents (Elt F) → (⟨S1x32, .f32⟩ : BufTy).Contents (Elt F)),
    unary main_v166 main_v167 (broadcastInDim S200000x32 ![0, 1] bcast_S1x32_S200000x32_0_1 : (⟨S1x32, .f32⟩ : BufTy).Contents (Elt F) → (⟨S200000x32, .f32⟩ : BufTy).Contents (Elt F)),
    binary main_v163 main_v167 main_v168 (addf : (⟨S200000x32, .f32⟩ : BufTy).Contents (Elt F) → (⟨S200000x32, .f32⟩ : BufTy).Contents (Elt F) → (⟨S200000x32, .f32⟩ : BufTy).Contents (Elt F)),
    nullary main_cst_23 (constant S_ .f32 0x00000000#32),
    unary main_cst_23 main_v169 (broadcastInDim S100000x32 ![] bcast_S_S100000x32 : (⟨S_, .f32⟩ : BufTy).Contents (Elt F) → (⟨S100000x32, .f32⟩ : BufTy).Contents (Elt F)),
    unary main_v153 main_v170 (broadcastInDim S200000x1 ![0] bcast_S200000_S200000x1_0 : (⟨S200000, .i32⟩ : BufTy).Contents (Elt F) → (⟨S200000x1, .i32⟩ : BufTy).Contents (Elt F)),
    ternary main_v169 main_v170 main_v168 main_v171 ((fun x i u => Host.scatterAdd scatter_S100000x32_S200000x1_S200000x32_1_0_0_1 x i u) : (⟨S100000x32, .f32⟩ : BufTy).Contents (Elt F) → (⟨S200000x1, .i32⟩ : BufTy).Contents (Elt F) → (⟨S200000x32, .f32⟩ : BufTy).Contents (Elt F) → (⟨S100000x32, .f32⟩ : BufTy).Contents (Elt F)),
    binary main_v149 main_v171 main_v172 (addf : (⟨S100000x32, .f32⟩ : BufTy).Contents (Elt F) → (⟨S100000x32, .f32⟩ : BufTy).Contents (Elt F) → (⟨S100000x32, .f32⟩ : BufTy).Contents (Elt F)),
    binary main_v172 main_v112 main_v173 (addf : (⟨S100000x32, .f32⟩ : BufTy).Contents (Elt F) → (⟨S100000x32, .f32⟩ : BufTy).Contents (Elt F) → (⟨S100000x32, .f32⟩ : BufTy).Contents (Elt F)) ]

/-- The buffers that `opsR4` writes, in order. -/
abbrev opsR4_W : List (Ref sig .tc) := [main_v150, main_v151, main_v152, main_v153, main_c_21, main_v154, main_v155, main_c_22, main_v156, main_v157, main_v158, main_v159, main_v160, main_v161, main_v162, main_v163, main_v164, main_v165, main_v166, main_v167, main_v168, main_cst_23, main_v169, main_v170, main_v171, main_v172, main_v173]

theorem opsR4_sub : (opsR4 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., binary_bufs_sub ..⟩

/-- Every operation of `opsR4` determines what it writes. -/
theorem opsR4_fresh : ∀ op ∈ (opsR4 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl⟩ : (opsR4 : List (HloOp τ sig (Elt F))).Forall fun op => op.fresh = ∅)

theorem opsR4_writes : (opsR4 : List (HloOp τ sig (Elt F))).Forall fun op => op.writes ⊆ (opsR4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 201 … 245 of 572. -/
abbrev opsR5 : List (HloOp τ sig (Elt F)) :=
  [ unary main_arg3 main_v174 ((extractStridedSlice S1x800000 ![0, 0] · slices_S2x800000_S1x800000_0_0) : (⟨S2x800000, .i32⟩ : BufTy).Contents (Elt F) → (⟨S1x800000, .i32⟩ : BufTy).Contents (Elt F)),
    reshape main_v174 main_v175 rfl shapeCasts_S1x800000_S800000,
    unary main_arg3 main_v176 ((extractStridedSlice S1x800000 ![1, 0] · slices_S2x800000_S1x800000_1_0) : (⟨S2x800000, .i32⟩ : BufTy).Contents (Elt F) → (⟨S1x800000, .i32⟩ : BufTy).Contents (Elt F)),
    reshape main_v176 main_v177 rfl shapeCasts_S1x800000_S800000,
    nullary main_c_24 (constantI S_ 32 0#32),
    unary main_c_24 main_v178 (broadcastInDim S800000 ![] bcast_S_S800000 : (⟨S_, .i32⟩ : BufTy).Contents (Elt F) → (⟨S800000, .i32⟩ : BufTy).Contents (Elt F)),
    binary main_v175 main_v178 main_v179 (cmpi .slt : (⟨S800000, .i32⟩ : BufTy).Contents (Elt F) → (⟨S800000, .i32⟩ : BufTy).Contents (Elt F) → (⟨S800000, .i1⟩ : BufTy).Contents (Elt F)),
    nullary main_c_25 (constantI S_ 32 100000#32),
    unary main_c_25 main_v180 (broadcastInDim S800000 ![] bcast_S_S800000 : (⟨S_, .i32⟩ : BufTy).Contents (Elt F) → (⟨S800000, .i32⟩ : BufTy).Contents (Elt F)),
    binary main_v175 main_v180 main_v181 (addi : (⟨S800000, .i32⟩ : BufTy).Contents (Elt F) → (⟨S800000, .i32⟩ : BufTy).Contents (Elt F) → (⟨S800000, .i32⟩ : BufTy).Contents (Elt F)),
    ternary main_v179 main_v181 main_v175 main_v182 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v182 main_v183 (broadcastInDim S800000x1 ![0] bcast_S800000_S800000x1_0 : (⟨S800000, .i32⟩ : BufTy).Contents (Elt F) → (⟨S800000x1, .i32⟩ : BufTy).Contents (Elt F)),
    binary main_v112 main_v183 main_v184 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    unary main_v114 main_v185 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v185 main_v186 rfl shapeCasts_S1x32x32_S32x32,
    binary main_v184 main_v186 main_v187 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_v116 main_v188 ((extractStridedSlice S1x32 ![2, 0] · slices_S3x32_S1x32_2_0) : (⟨S3x32, .f32⟩ : BufTy).Contents (Elt F) → (⟨S1x32, .f32⟩ : BufTy).Contents (Elt F)),
    reshape main_v188 main_v189 rfl shapeCasts_S1x32_S32,
    unary main_v189 main_v190 (broadcastInDim S1x32 ![1] bcast_S32_S1x32_1 : (⟨S32, .f32⟩ : BufTy).Contents (Elt F) → (⟨S1x32, .f32⟩ : BufTy).Contents (Elt F)),
    unary main_v190 main_v191 (broadcastInDim S800000x32 ![0, 1] bcast_S1x32_S800000x32_0_1 : (⟨S1x32, .f32⟩ : BufTy).Contents (Elt F) → (⟨S800000x32, .f32⟩ : BufTy).Contents (Elt F)),
    binary main_v187 main_v191 main_v192 (addf : (⟨S800000x32, .f32⟩ : BufTy).Contents (Elt F) → (⟨S800000x32, .f32⟩ : BufTy).Contents (Elt F) → (⟨S800000x32, .f32⟩ : BufTy).Contents (Elt F)),
    nullary main_cst_26 (constant S_ .f32 0x00000000#32),
    unary main_cst_26 main_v193 (broadcastInDim S100000x32 ![] bcast_S_S100000x32 : (⟨S_, .f32⟩ : BufTy).Contents (Elt F) → (⟨S100000x32, .f32⟩ : BufTy).Contents (Elt F)),
    unary main_v177 main_v194 (broadcastInDim S800000x1 ![0] bcast_S800000_S800000x1_0 : (⟨S800000, .i32⟩ : BufTy).Contents (Elt F) → (⟨S800000x1, .i32⟩ : BufTy).Contents (Elt F)),
    ternary main_v193 main_v194 main_v192 main_v195 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_27 (constant S_ .f32 0x3F800000#32),
    unary main_cst_27 main_v196 (broadcastInDim S800000x1 ![] bcast_S_S800000x1 : (⟨S_, .f32⟩ : BufTy).Contents (Elt F) → (⟨S800000x1, .f32⟩ : BufTy).Contents (Elt F)),
    nullary main_cst_28 (constant S_ .f32 0x00000000#32),
    unary main_cst_28 main_v197 (broadcastInDim S100000x1 ![] bcast_S_S100000x1 : (⟨S_, .f32⟩ : BufTy).Contents (Elt F) → (⟨S100000x1, .f32⟩ : BufTy).Contents (Elt F)),
    unary main_v177 main_v198 (broadcastInDim S800000x1 ![0] bcast_S800000_S800000x1_0 : (⟨S800000, .i32⟩ : BufTy).Contents (Elt F) → (⟨S800000x1, .i32⟩ : BufTy).Contents (Elt F)),
    ternary main_v197 main_v198 main_v196 main_v199 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_29 (constant S_ .f32 0x3F800000#32),
    unary main_cst_29 main_v200 (broadcastInDim S100000x1 ![] bcast_S_S100000x1 : (⟨S_, .f32⟩ : BufTy).Contents (Elt F) → (⟨S100000x1, .f32⟩ : BufTy).Contents (Elt F)),
    binary main_v199 main_v200 main_v201 (maximumf : (⟨S100000x1, .f32⟩ : BufTy).Contents (Elt F) → (⟨S100000x1, .f32⟩ : BufTy).Contents (Elt F) → (⟨S100000x1, .f32⟩ : BufTy).Contents (Elt F)),
    unary main_v201 main_v202 (broadcastInDim S100000x32 ![0, 1] bcast_S100000x1_S100000x32_0_1 : (⟨S100000x1, .f32⟩ : BufTy).Contents (Elt F) → (⟨S100000x32, .f32⟩ : BufTy).Contents (Elt F)),
    binary main_v195 main_v202 main_v203 (Host.divf : (⟨S100000x32, .f32⟩ : BufTy).Contents (Elt F) → (⟨S100000x32, .f32⟩ : BufTy).Contents (Elt F) → (⟨S100000x32, .f32⟩ : BufTy).Contents (Elt F)),
    binary main_v173 main_v203 main_v204 (addf : (⟨S100000x32, .f32⟩ : BufTy).Contents (Elt F) → (⟨S100000x32, .f32⟩ : BufTy).Contents (Elt F) → (⟨S100000x32, .f32⟩ : BufTy).Contents (Elt F)),
    binary main_v204 main_v112 main_v205 (addf : (⟨S100000x32, .f32⟩ : BufTy).Contents (Elt F) → (⟨S100000x32, .f32⟩ : BufTy).Contents (Elt F) → (⟨S100000x32, .f32⟩ : BufTy).Contents (Elt F)),
    binary main_v205 main_v112 main_v206 (addf : (⟨S100000x32, .f32⟩ : BufTy).Contents (Elt F) → (⟨S100000x32, .f32⟩ : BufTy).Contents (Elt F) → (⟨S100000x32, .f32⟩ : BufTy).Contents (Elt F)),
    unary main_arg8 main_v207 ((extractStridedSlice S1x3x32x32 ![1, 0, 0, 0] · slices_S4x3x32x32_S1x3x32x32_1_0_0_0) : (⟨S4x3x32x32, .f32⟩ : BufTy).Contents (Elt F) → (⟨S1x3x32x32, .f32⟩ : BufTy).Contents (Elt F)),
    reshape main_v207 main_v208 rfl shapeCasts_S1x3x32x32_S3x32x32,
    unary main_arg9 main_v209 ((extractStridedSlice S1x3x32 ![1, 0, 0] · slices_S4x3x32_S1x3x32_1_0_0) : (⟨S4x3x32, .f32⟩ : BufTy).Contents (Elt F) → (⟨S1x3x32, .f32⟩ : BufTy).Contents (Elt F)),
    reshape main_v209 main_v210 rfl shapeCasts_S1x3x32_S3x32,
    nullary main_cst_30 (constant S_ .f32 0x00000000#32),
    unary main_cst_30 main_v211 (broadcastInDim S100000x32 ![] bcast_S_S100000x32 : (⟨S_, .f32⟩ : BufTy).Contents (Elt F) → (⟨S100000x32, .f32⟩ : BufTy).Contents (Elt F)) ]

/-- The buffers that `opsR5` writes, in order. -/
abbrev opsR5_W : List (Ref sig .tc) := [main_v174, main_v175, main_v176, main_v177, main_c_24, main_v178, main_v179, main_c_25, main_v180, main_v181, main_v182, main_v183, main_v184, main_v185, main_v186, main_v187, main_v188, main_v189, main_v190, main_v191, main_v192, main_cst_26, main_v193, main_v194, main_v195, main_cst_27, main_v196, main_cst_28, main_v197, main_v198, main_v199, main_cst_29, main_v200, main_v201, main_v202, main_v203, main_v204, main_v205, main_v206, main_v207, main_v208, main_v209, main_v210, main_cst_30, main_v211]

theorem opsR5_sub : (opsR5 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., reshape_bufs_sub .., unary_bufs_sub .., reshape_bufs_sub .., nullary_bufs_sub .., unary_bufs_sub ..⟩

/-- Every operation of `opsR5` determines what it writes. -/
theorem opsR5_fresh : ∀ op ∈ (opsR5 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR5 : List (HloOp τ sig (Elt F))).Forall fun op => op.fresh = ∅)

theorem opsR5_writes : (opsR5 : List (HloOp τ sig (Elt F))).Forall fun op => op.writes ⊆ (opsR5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 246 … 283 of 572. -/
abbrev opsR6 : List (HloOp τ sig (Elt F)) :=
  [ unary main_arg1 main_v212 ((extractStridedSlice S1x1600000 ![0, 0] · slices_S2x1600000_S1x1600000_0_0) : (⟨S2x1600000, .i32⟩ : BufTy).Contents (Elt F) → (⟨S1x1600000, .i32⟩ : BufTy).Contents (Elt F)),
    reshape main_v212 main_v213 rfl shapeCasts_S1x1600000_S1600000,
    unary main_arg1 main_v214 ((extractStridedSlice S1x1600000 ![1, 0] · slices_S2x1600000_S1x1600000_1_0) : (⟨S2x1600000, .i32⟩ : BufTy).Contents (Elt F) → (⟨S1x1600000, .i32⟩ : BufTy).Contents (Elt F)),
    reshape main_v214 main_v215 rfl shapeCasts_S1x1600000_S1600000,
    nullary main_c_31 (constantI S_ 32 0#32),
    unary main_c_31 main_v216 (broadcastInDim S1600000 ![] bcast_S_S1600000 : (⟨S_, .i32⟩ : BufTy).Contents (Elt F) → (⟨S1600000, .i32⟩ : BufTy).Contents (Elt F)),
    binary main_v213 main_v216 main_v217 (cmpi .slt : (⟨S1600000, .i32⟩ : BufTy).Contents (Elt F) → (⟨S1600000, .i32⟩ : BufTy).Contents (Elt F) → (⟨S1600000, .i1⟩ : BufTy).Contents (Elt F)),
    nullary main_c_32 (constantI S_ 32 100000#32),
    unary main_c_32 main_v218 (broadcastInDim S1600000 ![] bcast_S_S1600000 : (⟨S_, .i32⟩ : BufTy).Contents (Elt F) → (⟨S1600000, .i32⟩ : BufTy).Contents (Elt F)),
    binary main_v213 main_v218 main_v219 (addi : (⟨S1600000, .i32⟩ : BufTy).Contents (Elt F) → (⟨S1600000, .i32⟩ : BufTy).Contents (Elt F) → (⟨S1600000, .i32⟩ : BufTy).Contents (Elt F)),
    ternary main_v217 main_v219 main_v213 main_v220 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v220 main_v221 (broadcastInDim S1600000x1 ![0] bcast_S1600000_S1600000x1_0 : (⟨S1600000, .i32⟩ : BufTy).Contents (Elt F) → (⟨S1600000x1, .i32⟩ : BufTy).Contents (Elt F)),
    binary main_v206 main_v221 main_v222 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v208 main_v223 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v223 main_v224 rfl shapeCasts_S1x32x32_S32x32,
    binary main_v222 main_v224 main_v225 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_v210 main_v226 ((extractStridedSlice S1x32 ![0, 0] · slices_S3x32_S1x32_0_0) : (⟨S3x32, .f32⟩ : BufTy).Contents (Elt F) → (⟨S1x32, .f32⟩ : BufTy).Contents (Elt F)),
    reshape main_v226 main_v227 rfl shapeCasts_S1x32_S32,
    unary main_v227 main_v228 (broadcastInDim S1x32 ![1] bcast_S32_S1x32_1 : (⟨S32, .f32⟩ : BufTy).Contents (Elt F) → (⟨S1x32, .f32⟩ : BufTy).Contents (Elt F)),
    unary main_v228 main_v229 (broadcastInDim S1600000x32 ![0, 1] bcast_S1x32_S1600000x32_0_1 : (⟨S1x32, .f32⟩ : BufTy).Contents (Elt F) → (⟨S1600000x32, .f32⟩ : BufTy).Contents (Elt F)),
    binary main_v225 main_v229 main_v230 (addf : (⟨S1600000x32, .f32⟩ : BufTy).Contents (Elt F) → (⟨S1600000x32, .f32⟩ : BufTy).Contents (Elt F) → (⟨S1600000x32, .f32⟩ : BufTy).Contents (Elt F)),
    nullary main_cst_33 (constant S_ .f32 0x00000000#32),
    unary main_cst_33 main_v231 (broadcastInDim S100000x32 ![] bcast_S_S100000x32 : (⟨S_, .f32⟩ : BufTy).Contents (Elt F) → (⟨S100000x32, .f32⟩ : BufTy).Contents (Elt F)),
    unary main_v215 main_v232 (broadcastInDim S1600000x1 ![0] bcast_S1600000_S1600000x1_0 : (⟨S1600000, .i32⟩ : BufTy).Contents (Elt F) → (⟨S1600000x1, .i32⟩ : BufTy).Contents (Elt F)),
    ternary main_v231 main_v232 main_v230 main_v233 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_34 (constant S_ .f32 0x3F800000#32),
    unary main_cst_34 main_v234 (broadcastInDim S1600000x1 ![] bcast_S_S1600000x1 : (⟨S_, .f32⟩ : BufTy).Contents (Elt F) → (⟨S1600000x1, .f32⟩ : BufTy).Contents (Elt F)),
    nullary main_cst_35 (constant S_ .f32 0x00000000#32),
    unary main_cst_35 main_v235 (broadcastInDim S100000x1 ![] bcast_S_S100000x1 : (⟨S_, .f32⟩ : BufTy).Contents (Elt F) → (⟨S100000x1, .f32⟩ : BufTy).Contents (Elt F)),
    unary main_v215 main_v236 (broadcastInDim S1600000x1 ![0] bcast_S1600000_S1600000x1_0 : (⟨S1600000, .i32⟩ : BufTy).Contents (Elt F) → (⟨S1600000x1, .i32⟩ : BufTy).Contents (Elt F)),
    ternary main_v235 main_v236 main_v234 main_v237 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_36 (constant S_ .f32 0x3F800000#32),
    unary main_cst_36 main_v238 (broadcastInDim S100000x1 ![] bcast_S_S100000x1 : (⟨S_, .f32⟩ : BufTy).Contents (Elt F) → (⟨S100000x1, .f32⟩ : BufTy).Contents (Elt F)),
    binary main_v237 main_v238 main_v239 (maximumf : (⟨S100000x1, .f32⟩ : BufTy).Contents (Elt F) → (⟨S100000x1, .f32⟩ : BufTy).Contents (Elt F) → (⟨S100000x1, .f32⟩ : BufTy).Contents (Elt F)),
    unary main_v239 main_v240 (broadcastInDim S100000x32 ![0, 1] bcast_S100000x1_S100000x32_0_1 : (⟨S100000x1, .f32⟩ : BufTy).Contents (Elt F) → (⟨S100000x32, .f32⟩ : BufTy).Contents (Elt F)),
    binary main_v233 main_v240 main_v241 (Host.divf : (⟨S100000x32, .f32⟩ : BufTy).Contents (Elt F) → (⟨S100000x32, .f32⟩ : BufTy).Contents (Elt F) → (⟨S100000x32, .f32⟩ : BufTy).Contents (Elt F)),
    binary main_v211 main_v241 main_v242 (addf : (⟨S100000x32, .f32⟩ : BufTy).Contents (Elt F) → (⟨S100000x32, .f32⟩ : BufTy).Contents (Elt F) → (⟨S100000x32, .f32⟩ : BufTy).Contents (Elt F)),
    binary main_v242 main_v206 main_v243 (addf : (⟨S100000x32, .f32⟩ : BufTy).Contents (Elt F) → (⟨S100000x32, .f32⟩ : BufTy).Contents (Elt F) → (⟨S100000x32, .f32⟩ : BufTy).Contents (Elt F)) ]

/-- The buffers that `opsR6` writes, in order. -/
abbrev opsR6_W : List (Ref sig .tc) := [main_v212, main_v213, main_v214, main_v215, main_c_31, main_v216, main_v217, main_c_32, main_v218, main_v219, main_v220, main_v221, main_v222, main_v223, main_v224, main_v225, main_v226, main_v227, main_v228, main_v229, main_v230, main_cst_33, main_v231, main_v232, main_v233, main_cst_34, main_v234, main_cst_35, main_v235, main_v236, main_v237, main_cst_36, main_v238, main_v239, main_v240, main_v241, main_v242, main_v243]

theorem opsR6_sub : (opsR6 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub ..⟩

/-- Every operation of `opsR6` determines what it writes. -/
theorem opsR6_fresh : ∀ op ∈ (opsR6 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR6 : List (HloOp τ sig (Elt F))).Forall fun op => op.fresh = ∅)

theorem opsR6_writes : (opsR6 : List (HloOp τ sig (Elt F))).Forall fun op => op.writes ⊆ (opsR6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 284 … 310 of 572. -/
abbrev opsR7 : List (HloOp τ sig (Elt F)) :=
  [ unary main_arg2 main_v244 ((extractStridedSlice S1x200000 ![0, 0] · slices_S2x200000_S1x200000_0_0) : (⟨S2x200000, .i32⟩ : BufTy).Contents (Elt F) → (⟨S1x200000, .i32⟩ : BufTy).Contents (Elt F)),
    reshape main_v244 main_v245 rfl shapeCasts_S1x200000_S200000,
    unary main_arg2 main_v246 ((extractStridedSlice S1x200000 ![1, 0] · slices_S2x200000_S1x200000_1_0) : (⟨S2x200000, .i32⟩ : BufTy).Contents (Elt F) → (⟨S1x200000, .i32⟩ : BufTy).Contents (Elt F)),
    reshape main_v246 main_v247 rfl shapeCasts_S1x200000_S200000,
    nullary main_c_37 (constantI S_ 32 0#32),
    unary main_c_37 main_v248 (broadcastInDim S200000 ![] bcast_S_S200000 : (⟨S_, .i32⟩ : BufTy).Contents (Elt F) → (⟨S200000, .i32⟩ : BufTy).Contents (Elt F)),
    binary main_v245 main_v248 main_v249 (cmpi .slt : (⟨S200000, .i32⟩ : BufTy).Contents (Elt F) → (⟨S200000, .i32⟩ : BufTy).Contents (Elt F) → (⟨S200000, .i1⟩ : BufTy).Contents (Elt F)),
    nullary main_c_38 (constantI S_ 32 100000#32),
    unary main_c_38 main_v250 (broadcastInDim S200000 ![] bcast_S_S200000 : (⟨S_, .i32⟩ : BufTy).Contents (Elt F) → (⟨S200000, .i32⟩ : BufTy).Contents (Elt F)),
    binary main_v245 main_v250 main_v251 (addi : (⟨S200000, .i32⟩ : BufTy).Contents (Elt F) → (⟨S200000, .i32⟩ : BufTy).Contents (Elt F) → (⟨S200000, .i32⟩ : BufTy).Contents (Elt F)),
    ternary main_v249 main_v251 main_v245 main_v252 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v252 main_v253 (broadcastInDim S200000x1 ![0] bcast_S200000_S200000x1_0 : (⟨S200000, .i32⟩ : BufTy).Contents (Elt F) → (⟨S200000x1, .i32⟩ : BufTy).Contents (Elt F)),
    binary main_v206 main_v253 main_v254 ((fun x i => Host.gather gather_S100000x32_S200000x1_S200000x32_1_0_n_n_0_1_132 x i) : (⟨S100000x32, .f32⟩ : BufTy).Contents (Elt F) → (⟨S200000x1, .i32⟩ : BufTy).Contents (Elt F) → (⟨S200000x32, .f32⟩ : BufTy).Contents (Elt F)),
    unary main_v208 main_v255 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v255 main_v256 rfl shapeCasts_S1x32x32_S32x32,
    binary main_v254 main_v256 main_v257 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    unary main_v210 main_v258 ((extractStridedSlice S1x32 ![1, 0] · slices_S3x32_S1x32_1_0) : (⟨S3x32, .f32⟩ : BufTy).Contents (Elt F) → (⟨S1x32, .f32⟩ : BufTy).Contents (Elt F)),
    reshape main_v258 main_v259 rfl shapeCasts_S1x32_S32,
    unary main_v259 main_v260 (broadcastInDim S1x32 ![1] bcast_S32_S1x32_1 : (⟨S32, .f32⟩ : BufTy).Contents (Elt F) → (⟨S1x32, .f32⟩ : BufTy).Contents (Elt F)),
    unary main_v260 main_v261 (broadcastInDim S200000x32 ![0, 1] bcast_S1x32_S200000x32_0_1 : (⟨S1x32, .f32⟩ : BufTy).Contents (Elt F) → (⟨S200000x32, .f32⟩ : BufTy).Contents (Elt F)),
    binary main_v257 main_v261 main_v262 (addf : (⟨S200000x32, .f32⟩ : BufTy).Contents (Elt F) → (⟨S200000x32, .f32⟩ : BufTy).Contents (Elt F) → (⟨S200000x32, .f32⟩ : BufTy).Contents (Elt F)),
    nullary main_cst_39 (constant S_ .f32 0x00000000#32),
    unary main_cst_39 main_v263 (broadcastInDim S100000x32 ![] bcast_S_S100000x32 : (⟨S_, .f32⟩ : BufTy).Contents (Elt F) → (⟨S100000x32, .f32⟩ : BufTy).Contents (Elt F)),
    unary main_v247 main_v264 (broadcastInDim S200000x1 ![0] bcast_S200000_S200000x1_0 : (⟨S200000, .i32⟩ : BufTy).Contents (Elt F) → (⟨S200000x1, .i32⟩ : BufTy).Contents (Elt F)),
    ternary main_v263 main_v264 main_v262 main_v265 ((fun x i u => Host.scatterAdd scatter_S100000x32_S200000x1_S200000x32_1_0_0_1 x i u) : (⟨S100000x32, .f32⟩ : BufTy).Contents (Elt F) → (⟨S200000x1, .i32⟩ : BufTy).Contents (Elt F) → (⟨S200000x32, .f32⟩ : BufTy).Contents (Elt F) → (⟨S100000x32, .f32⟩ : BufTy).Contents (Elt F)),
    binary main_v243 main_v265 main_v266 (addf : (⟨S100000x32, .f32⟩ : BufTy).Contents (Elt F) → (⟨S100000x32, .f32⟩ : BufTy).Contents (Elt F) → (⟨S100000x32, .f32⟩ : BufTy).Contents (Elt F)),
    binary main_v266 main_v206 main_v267 (addf : (⟨S100000x32, .f32⟩ : BufTy).Contents (Elt F) → (⟨S100000x32, .f32⟩ : BufTy).Contents (Elt F) → (⟨S100000x32, .f32⟩ : BufTy).Contents (Elt F)) ]

/-- The buffers that `opsR7` writes, in order. -/
abbrev opsR7_W : List (Ref sig .tc) := [main_v244, main_v245, main_v246, main_v247, main_c_37, main_v248, main_v249, main_c_38, main_v250, main_v251, main_v252, main_v253, main_v254, main_v255, main_v256, main_v257, main_v258, main_v259, main_v260, main_v261, main_v262, main_cst_39, main_v263, main_v264, main_v265, main_v266, main_v267]

theorem opsR7_sub : (opsR7 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., binary_bufs_sub ..⟩

/-- Every operation of `opsR7` determines what it writes. -/
theorem opsR7_fresh : ∀ op ∈ (opsR7 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl⟩ : (opsR7 : List (HloOp τ sig (Elt F))).Forall fun op => op.fresh = ∅)

theorem opsR7_writes : (opsR7 : List (HloOp τ sig (Elt F))).Forall fun op => op.writes ⊆ (opsR7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 311 … 355 of 572. -/
abbrev opsR8 : List (HloOp τ sig (Elt F)) :=
  [ unary main_arg3 main_v268 ((extractStridedSlice S1x800000 ![0, 0] · slices_S2x800000_S1x800000_0_0) : (⟨S2x800000, .i32⟩ : BufTy).Contents (Elt F) → (⟨S1x800000, .i32⟩ : BufTy).Contents (Elt F)),
    reshape main_v268 main_v269 rfl shapeCasts_S1x800000_S800000,
    unary main_arg3 main_v270 ((extractStridedSlice S1x800000 ![1, 0] · slices_S2x800000_S1x800000_1_0) : (⟨S2x800000, .i32⟩ : BufTy).Contents (Elt F) → (⟨S1x800000, .i32⟩ : BufTy).Contents (Elt F)),
    reshape main_v270 main_v271 rfl shapeCasts_S1x800000_S800000,
    nullary main_c_40 (constantI S_ 32 0#32),
    unary main_c_40 main_v272 (broadcastInDim S800000 ![] bcast_S_S800000 : (⟨S_, .i32⟩ : BufTy).Contents (Elt F) → (⟨S800000, .i32⟩ : BufTy).Contents (Elt F)),
    binary main_v269 main_v272 main_v273 (cmpi .slt : (⟨S800000, .i32⟩ : BufTy).Contents (Elt F) → (⟨S800000, .i32⟩ : BufTy).Contents (Elt F) → (⟨S800000, .i1⟩ : BufTy).Contents (Elt F)),
    nullary main_c_41 (constantI S_ 32 100000#32),
    unary main_c_41 main_v274 (broadcastInDim S800000 ![] bcast_S_S800000 : (⟨S_, .i32⟩ : BufTy).Contents (Elt F) → (⟨S800000, .i32⟩ : BufTy).Contents (Elt F)),
    binary main_v269 main_v274 main_v275 (addi : (⟨S800000, .i32⟩ : BufTy).Contents (Elt F) → (⟨S800000, .i32⟩ : BufTy).Contents (Elt F) → (⟨S800000, .i32⟩ : BufTy).Contents (Elt F)),
    ternary main_v273 main_v275 main_v269 main_v276 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v276 main_v277 (broadcastInDim S800000x1 ![0] bcast_S800000_S800000x1_0 : (⟨S800000, .i32⟩ : BufTy).Contents (Elt F) → (⟨S800000x1, .i32⟩ : BufTy).Contents (Elt F)),
    binary main_v206 main_v277 main_v278 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    unary main_v208 main_v279 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v279 main_v280 rfl shapeCasts_S1x32x32_S32x32,
    binary main_v278 main_v280 main_v281 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_v210 main_v282 ((extractStridedSlice S1x32 ![2, 0] · slices_S3x32_S1x32_2_0) : (⟨S3x32, .f32⟩ : BufTy).Contents (Elt F) → (⟨S1x32, .f32⟩ : BufTy).Contents (Elt F)),
    reshape main_v282 main_v283 rfl shapeCasts_S1x32_S32,
    unary main_v283 main_v284 (broadcastInDim S1x32 ![1] bcast_S32_S1x32_1 : (⟨S32, .f32⟩ : BufTy).Contents (Elt F) → (⟨S1x32, .f32⟩ : BufTy).Contents (Elt F)),
    unary main_v284 main_v285 (broadcastInDim S800000x32 ![0, 1] bcast_S1x32_S800000x32_0_1 : (⟨S1x32, .f32⟩ : BufTy).Contents (Elt F) → (⟨S800000x32, .f32⟩ : BufTy).Contents (Elt F)),
    binary main_v281 main_v285 main_v286 (addf : (⟨S800000x32, .f32⟩ : BufTy).Contents (Elt F) → (⟨S800000x32, .f32⟩ : BufTy).Contents (Elt F) → (⟨S800000x32, .f32⟩ : BufTy).Contents (Elt F)),
    nullary main_cst_42 (constant S_ .f32 0x00000000#32),
    unary main_cst_42 main_v287 (broadcastInDim S100000x32 ![] bcast_S_S100000x32 : (⟨S_, .f32⟩ : BufTy).Contents (Elt F) → (⟨S100000x32, .f32⟩ : BufTy).Contents (Elt F)),
    unary main_v271 main_v288 (broadcastInDim S800000x1 ![0] bcast_S800000_S800000x1_0 : (⟨S800000, .i32⟩ : BufTy).Contents (Elt F) → (⟨S800000x1, .i32⟩ : BufTy).Contents (Elt F)),
    ternary main_v287 main_v288 main_v286 main_v289 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_43 (constant S_ .f32 0x3F800000#32),
    unary main_cst_43 main_v290 (broadcastInDim S800000x1 ![] bcast_S_S800000x1 : (⟨S_, .f32⟩ : BufTy).Contents (Elt F) → (⟨S800000x1, .f32⟩ : BufTy).Contents (Elt F)),
    nullary main_cst_44 (constant S_ .f32 0x00000000#32),
    unary main_cst_44 main_v291 (broadcastInDim S100000x1 ![] bcast_S_S100000x1 : (⟨S_, .f32⟩ : BufTy).Contents (Elt F) → (⟨S100000x1, .f32⟩ : BufTy).Contents (Elt F)),
    unary main_v271 main_v292 (broadcastInDim S800000x1 ![0] bcast_S800000_S800000x1_0 : (⟨S800000, .i32⟩ : BufTy).Contents (Elt F) → (⟨S800000x1, .i32⟩ : BufTy).Contents (Elt F)),
    ternary main_v291 main_v292 main_v290 main_v293 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_45 (constant S_ .f32 0x3F800000#32),
    unary main_cst_45 main_v294 (broadcastInDim S100000x1 ![] bcast_S_S100000x1 : (⟨S_, .f32⟩ : BufTy).Contents (Elt F) → (⟨S100000x1, .f32⟩ : BufTy).Contents (Elt F)),
    binary main_v293 main_v294 main_v295 (maximumf : (⟨S100000x1, .f32⟩ : BufTy).Contents (Elt F) → (⟨S100000x1, .f32⟩ : BufTy).Contents (Elt F) → (⟨S100000x1, .f32⟩ : BufTy).Contents (Elt F)),
    unary main_v295 main_v296 (broadcastInDim S100000x32 ![0, 1] bcast_S100000x1_S100000x32_0_1 : (⟨S100000x1, .f32⟩ : BufTy).Contents (Elt F) → (⟨S100000x32, .f32⟩ : BufTy).Contents (Elt F)),
    binary main_v289 main_v296 main_v297 (Host.divf : (⟨S100000x32, .f32⟩ : BufTy).Contents (Elt F) → (⟨S100000x32, .f32⟩ : BufTy).Contents (Elt F) → (⟨S100000x32, .f32⟩ : BufTy).Contents (Elt F)),
    binary main_v267 main_v297 main_v298 (addf : (⟨S100000x32, .f32⟩ : BufTy).Contents (Elt F) → (⟨S100000x32, .f32⟩ : BufTy).Contents (Elt F) → (⟨S100000x32, .f32⟩ : BufTy).Contents (Elt F)),
    binary main_v298 main_v206 main_v299 (addf : (⟨S100000x32, .f32⟩ : BufTy).Contents (Elt F) → (⟨S100000x32, .f32⟩ : BufTy).Contents (Elt F) → (⟨S100000x32, .f32⟩ : BufTy).Contents (Elt F)),
    binary main_v299 main_v206 main_v300 (addf : (⟨S100000x32, .f32⟩ : BufTy).Contents (Elt F) → (⟨S100000x32, .f32⟩ : BufTy).Contents (Elt F) → (⟨S100000x32, .f32⟩ : BufTy).Contents (Elt F)),
    unary main_arg8 main_v301 ((extractStridedSlice S1x3x32x32 ![2, 0, 0, 0] · slices_S4x3x32x32_S1x3x32x32_2_0_0_0) : (⟨S4x3x32x32, .f32⟩ : BufTy).Contents (Elt F) → (⟨S1x3x32x32, .f32⟩ : BufTy).Contents (Elt F)),
    reshape main_v301 main_v302 rfl shapeCasts_S1x3x32x32_S3x32x32,
    unary main_arg9 main_v303 ((extractStridedSlice S1x3x32 ![2, 0, 0] · slices_S4x3x32_S1x3x32_2_0_0) : (⟨S4x3x32, .f32⟩ : BufTy).Contents (Elt F) → (⟨S1x3x32, .f32⟩ : BufTy).Contents (Elt F)),
    reshape main_v303 main_v304 rfl shapeCasts_S1x3x32_S3x32,
    nullary main_cst_46 (constant S_ .f32 0x00000000#32),
    unary main_cst_46 main_v305 (broadcastInDim S100000x32 ![] bcast_S_S100000x32 : (⟨S_, .f32⟩ : BufTy).Contents (Elt F) → (⟨S100000x32, .f32⟩ : BufTy).Contents (Elt F)) ]

/-- The buffers that `opsR8` writes, in order. -/
abbrev opsR8_W : List (Ref sig .tc) := [main_v268, main_v269, main_v270, main_v271, main_c_40, main_v272, main_v273, main_c_41, main_v274, main_v275, main_v276, main_v277, main_v278, main_v279, main_v280, main_v281, main_v282, main_v283, main_v284, main_v285, main_v286, main_cst_42, main_v287, main_v288, main_v289, main_cst_43, main_v290, main_cst_44, main_v291, main_v292, main_v293, main_cst_45, main_v294, main_v295, main_v296, main_v297, main_v298, main_v299, main_v300, main_v301, main_v302, main_v303, main_v304, main_cst_46, main_v305]

theorem opsR8_sub : (opsR8 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., reshape_bufs_sub .., unary_bufs_sub .., reshape_bufs_sub .., nullary_bufs_sub .., unary_bufs_sub ..⟩

/-- Every operation of `opsR8` determines what it writes. -/
theorem opsR8_fresh : ∀ op ∈ (opsR8 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR8 : List (HloOp τ sig (Elt F))).Forall fun op => op.fresh = ∅)

theorem opsR8_writes : (opsR8 : List (HloOp τ sig (Elt F))).Forall fun op => op.writes ⊆ (opsR8_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 356 … 393 of 572. -/
abbrev opsR9 : List (HloOp τ sig (Elt F)) :=
  [ unary main_arg1 main_v306 ((extractStridedSlice S1x1600000 ![0, 0] · slices_S2x1600000_S1x1600000_0_0) : (⟨S2x1600000, .i32⟩ : BufTy).Contents (Elt F) → (⟨S1x1600000, .i32⟩ : BufTy).Contents (Elt F)),
    reshape main_v306 main_v307 rfl shapeCasts_S1x1600000_S1600000,
    unary main_arg1 main_v308 ((extractStridedSlice S1x1600000 ![1, 0] · slices_S2x1600000_S1x1600000_1_0) : (⟨S2x1600000, .i32⟩ : BufTy).Contents (Elt F) → (⟨S1x1600000, .i32⟩ : BufTy).Contents (Elt F)),
    reshape main_v308 main_v309 rfl shapeCasts_S1x1600000_S1600000,
    nullary main_c_47 (constantI S_ 32 0#32),
    unary main_c_47 main_v310 (broadcastInDim S1600000 ![] bcast_S_S1600000 : (⟨S_, .i32⟩ : BufTy).Contents (Elt F) → (⟨S1600000, .i32⟩ : BufTy).Contents (Elt F)),
    binary main_v307 main_v310 main_v311 (cmpi .slt : (⟨S1600000, .i32⟩ : BufTy).Contents (Elt F) → (⟨S1600000, .i32⟩ : BufTy).Contents (Elt F) → (⟨S1600000, .i1⟩ : BufTy).Contents (Elt F)),
    nullary main_c_48 (constantI S_ 32 100000#32),
    unary main_c_48 main_v312 (broadcastInDim S1600000 ![] bcast_S_S1600000 : (⟨S_, .i32⟩ : BufTy).Contents (Elt F) → (⟨S1600000, .i32⟩ : BufTy).Contents (Elt F)),
    binary main_v307 main_v312 main_v313 (addi : (⟨S1600000, .i32⟩ : BufTy).Contents (Elt F) → (⟨S1600000, .i32⟩ : BufTy).Contents (Elt F) → (⟨S1600000, .i32⟩ : BufTy).Contents (Elt F)),
    ternary main_v311 main_v313 main_v307 main_v314 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v314 main_v315 (broadcastInDim S1600000x1 ![0] bcast_S1600000_S1600000x1_0 : (⟨S1600000, .i32⟩ : BufTy).Contents (Elt F) → (⟨S1600000x1, .i32⟩ : BufTy).Contents (Elt F)),
    binary main_v300 main_v315 main_v316 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v302 main_v317 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v317 main_v318 rfl shapeCasts_S1x32x32_S32x32,
    binary main_v316 main_v318 main_v319 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_v304 main_v320 ((extractStridedSlice S1x32 ![0, 0] · slices_S3x32_S1x32_0_0) : (⟨S3x32, .f32⟩ : BufTy).Contents (Elt F) → (⟨S1x32, .f32⟩ : BufTy).Contents (Elt F)),
    reshape main_v320 main_v321 rfl shapeCasts_S1x32_S32,
    unary main_v321 main_v322 (broadcastInDim S1x32 ![1] bcast_S32_S1x32_1 : (⟨S32, .f32⟩ : BufTy).Contents (Elt F) → (⟨S1x32, .f32⟩ : BufTy).Contents (Elt F)),
    unary main_v322 main_v323 (broadcastInDim S1600000x32 ![0, 1] bcast_S1x32_S1600000x32_0_1 : (⟨S1x32, .f32⟩ : BufTy).Contents (Elt F) → (⟨S1600000x32, .f32⟩ : BufTy).Contents (Elt F)),
    binary main_v319 main_v323 main_v324 (addf : (⟨S1600000x32, .f32⟩ : BufTy).Contents (Elt F) → (⟨S1600000x32, .f32⟩ : BufTy).Contents (Elt F) → (⟨S1600000x32, .f32⟩ : BufTy).Contents (Elt F)),
    nullary main_cst_49 (constant S_ .f32 0x00000000#32),
    unary main_cst_49 main_v325 (broadcastInDim S100000x32 ![] bcast_S_S100000x32 : (⟨S_, .f32⟩ : BufTy).Contents (Elt F) → (⟨S100000x32, .f32⟩ : BufTy).Contents (Elt F)),
    unary main_v309 main_v326 (broadcastInDim S1600000x1 ![0] bcast_S1600000_S1600000x1_0 : (⟨S1600000, .i32⟩ : BufTy).Contents (Elt F) → (⟨S1600000x1, .i32⟩ : BufTy).Contents (Elt F)),
    ternary main_v325 main_v326 main_v324 main_v327 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_50 (constant S_ .f32 0x3F800000#32),
    unary main_cst_50 main_v328 (broadcastInDim S1600000x1 ![] bcast_S_S1600000x1 : (⟨S_, .f32⟩ : BufTy).Contents (Elt F) → (⟨S1600000x1, .f32⟩ : BufTy).Contents (Elt F)),
    nullary main_cst_51 (constant S_ .f32 0x00000000#32),
    unary main_cst_51 main_v329 (broadcastInDim S100000x1 ![] bcast_S_S100000x1 : (⟨S_, .f32⟩ : BufTy).Contents (Elt F) → (⟨S100000x1, .f32⟩ : BufTy).Contents (Elt F)),
    unary main_v309 main_v330 (broadcastInDim S1600000x1 ![0] bcast_S1600000_S1600000x1_0 : (⟨S1600000, .i32⟩ : BufTy).Contents (Elt F) → (⟨S1600000x1, .i32⟩ : BufTy).Contents (Elt F)),
    ternary main_v329 main_v330 main_v328 main_v331 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_52 (constant S_ .f32 0x3F800000#32),
    unary main_cst_52 main_v332 (broadcastInDim S100000x1 ![] bcast_S_S100000x1 : (⟨S_, .f32⟩ : BufTy).Contents (Elt F) → (⟨S100000x1, .f32⟩ : BufTy).Contents (Elt F)),
    binary main_v331 main_v332 main_v333 (maximumf : (⟨S100000x1, .f32⟩ : BufTy).Contents (Elt F) → (⟨S100000x1, .f32⟩ : BufTy).Contents (Elt F) → (⟨S100000x1, .f32⟩ : BufTy).Contents (Elt F)),
    unary main_v333 main_v334 (broadcastInDim S100000x32 ![0, 1] bcast_S100000x1_S100000x32_0_1 : (⟨S100000x1, .f32⟩ : BufTy).Contents (Elt F) → (⟨S100000x32, .f32⟩ : BufTy).Contents (Elt F)),
    binary main_v327 main_v334 main_v335 (Host.divf : (⟨S100000x32, .f32⟩ : BufTy).Contents (Elt F) → (⟨S100000x32, .f32⟩ : BufTy).Contents (Elt F) → (⟨S100000x32, .f32⟩ : BufTy).Contents (Elt F)),
    binary main_v305 main_v335 main_v336 (addf : (⟨S100000x32, .f32⟩ : BufTy).Contents (Elt F) → (⟨S100000x32, .f32⟩ : BufTy).Contents (Elt F) → (⟨S100000x32, .f32⟩ : BufTy).Contents (Elt F)),
    binary main_v336 main_v300 main_v337 (addf : (⟨S100000x32, .f32⟩ : BufTy).Contents (Elt F) → (⟨S100000x32, .f32⟩ : BufTy).Contents (Elt F) → (⟨S100000x32, .f32⟩ : BufTy).Contents (Elt F)) ]

/-- The buffers that `opsR9` writes, in order. -/
abbrev opsR9_W : List (Ref sig .tc) := [main_v306, main_v307, main_v308, main_v309, main_c_47, main_v310, main_v311, main_c_48, main_v312, main_v313, main_v314, main_v315, main_v316, main_v317, main_v318, main_v319, main_v320, main_v321, main_v322, main_v323, main_v324, main_cst_49, main_v325, main_v326, main_v327, main_cst_50, main_v328, main_cst_51, main_v329, main_v330, main_v331, main_cst_52, main_v332, main_v333, main_v334, main_v335, main_v336, main_v337]

theorem opsR9_sub : (opsR9 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub ..⟩

/-- Every operation of `opsR9` determines what it writes. -/
theorem opsR9_fresh : ∀ op ∈ (opsR9 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR9 : List (HloOp τ sig (Elt F))).Forall fun op => op.fresh = ∅)

theorem opsR9_writes : (opsR9 : List (HloOp τ sig (Elt F))).Forall fun op => op.writes ⊆ (opsR9_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 394 … 420 of 572. -/
abbrev opsR10 : List (HloOp τ sig (Elt F)) :=
  [ unary main_arg2 main_v338 ((extractStridedSlice S1x200000 ![0, 0] · slices_S2x200000_S1x200000_0_0) : (⟨S2x200000, .i32⟩ : BufTy).Contents (Elt F) → (⟨S1x200000, .i32⟩ : BufTy).Contents (Elt F)),
    reshape main_v338 main_v339 rfl shapeCasts_S1x200000_S200000,
    unary main_arg2 main_v340 ((extractStridedSlice S1x200000 ![1, 0] · slices_S2x200000_S1x200000_1_0) : (⟨S2x200000, .i32⟩ : BufTy).Contents (Elt F) → (⟨S1x200000, .i32⟩ : BufTy).Contents (Elt F)),
    reshape main_v340 main_v341 rfl shapeCasts_S1x200000_S200000,
    nullary main_c_53 (constantI S_ 32 0#32),
    unary main_c_53 main_v342 (broadcastInDim S200000 ![] bcast_S_S200000 : (⟨S_, .i32⟩ : BufTy).Contents (Elt F) → (⟨S200000, .i32⟩ : BufTy).Contents (Elt F)),
    binary main_v339 main_v342 main_v343 (cmpi .slt : (⟨S200000, .i32⟩ : BufTy).Contents (Elt F) → (⟨S200000, .i32⟩ : BufTy).Contents (Elt F) → (⟨S200000, .i1⟩ : BufTy).Contents (Elt F)),
    nullary main_c_54 (constantI S_ 32 100000#32),
    unary main_c_54 main_v344 (broadcastInDim S200000 ![] bcast_S_S200000 : (⟨S_, .i32⟩ : BufTy).Contents (Elt F) → (⟨S200000, .i32⟩ : BufTy).Contents (Elt F)),
    binary main_v339 main_v344 main_v345 (addi : (⟨S200000, .i32⟩ : BufTy).Contents (Elt F) → (⟨S200000, .i32⟩ : BufTy).Contents (Elt F) → (⟨S200000, .i32⟩ : BufTy).Contents (Elt F)),
    ternary main_v343 main_v345 main_v339 main_v346 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v346 main_v347 (broadcastInDim S200000x1 ![0] bcast_S200000_S200000x1_0 : (⟨S200000, .i32⟩ : BufTy).Contents (Elt F) → (⟨S200000x1, .i32⟩ : BufTy).Contents (Elt F)),
    binary main_v300 main_v347 main_v348 ((fun x i => Host.gather gather_S100000x32_S200000x1_S200000x32_1_0_n_n_0_1_132 x i) : (⟨S100000x32, .f32⟩ : BufTy).Contents (Elt F) → (⟨S200000x1, .i32⟩ : BufTy).Contents (Elt F) → (⟨S200000x32, .f32⟩ : BufTy).Contents (Elt F)),
    unary main_v302 main_v349 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v349 main_v350 rfl shapeCasts_S1x32x32_S32x32,
    binary main_v348 main_v350 main_v351 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    unary main_v304 main_v352 ((extractStridedSlice S1x32 ![1, 0] · slices_S3x32_S1x32_1_0) : (⟨S3x32, .f32⟩ : BufTy).Contents (Elt F) → (⟨S1x32, .f32⟩ : BufTy).Contents (Elt F)),
    reshape main_v352 main_v353 rfl shapeCasts_S1x32_S32,
    unary main_v353 main_v354 (broadcastInDim S1x32 ![1] bcast_S32_S1x32_1 : (⟨S32, .f32⟩ : BufTy).Contents (Elt F) → (⟨S1x32, .f32⟩ : BufTy).Contents (Elt F)),
    unary main_v354 main_v355 (broadcastInDim S200000x32 ![0, 1] bcast_S1x32_S200000x32_0_1 : (⟨S1x32, .f32⟩ : BufTy).Contents (Elt F) → (⟨S200000x32, .f32⟩ : BufTy).Contents (Elt F)),
    binary main_v351 main_v355 main_v356 (addf : (⟨S200000x32, .f32⟩ : BufTy).Contents (Elt F) → (⟨S200000x32, .f32⟩ : BufTy).Contents (Elt F) → (⟨S200000x32, .f32⟩ : BufTy).Contents (Elt F)),
    nullary main_cst_55 (constant S_ .f32 0x00000000#32),
    unary main_cst_55 main_v357 (broadcastInDim S100000x32 ![] bcast_S_S100000x32 : (⟨S_, .f32⟩ : BufTy).Contents (Elt F) → (⟨S100000x32, .f32⟩ : BufTy).Contents (Elt F)),
    unary main_v341 main_v358 (broadcastInDim S200000x1 ![0] bcast_S200000_S200000x1_0 : (⟨S200000, .i32⟩ : BufTy).Contents (Elt F) → (⟨S200000x1, .i32⟩ : BufTy).Contents (Elt F)),
    ternary main_v357 main_v358 main_v356 main_v359 ((fun x i u => Host.scatterAdd scatter_S100000x32_S200000x1_S200000x32_1_0_0_1 x i u) : (⟨S100000x32, .f32⟩ : BufTy).Contents (Elt F) → (⟨S200000x1, .i32⟩ : BufTy).Contents (Elt F) → (⟨S200000x32, .f32⟩ : BufTy).Contents (Elt F) → (⟨S100000x32, .f32⟩ : BufTy).Contents (Elt F)),
    binary main_v337 main_v359 main_v360 (addf : (⟨S100000x32, .f32⟩ : BufTy).Contents (Elt F) → (⟨S100000x32, .f32⟩ : BufTy).Contents (Elt F) → (⟨S100000x32, .f32⟩ : BufTy).Contents (Elt F)),
    binary main_v360 main_v300 main_v361 (addf : (⟨S100000x32, .f32⟩ : BufTy).Contents (Elt F) → (⟨S100000x32, .f32⟩ : BufTy).Contents (Elt F) → (⟨S100000x32, .f32⟩ : BufTy).Contents (Elt F)) ]

/-- The buffers that `opsR10` writes, in order. -/
abbrev opsR10_W : List (Ref sig .tc) := [main_v338, main_v339, main_v340, main_v341, main_c_53, main_v342, main_v343, main_c_54, main_v344, main_v345, main_v346, main_v347, main_v348, main_v349, main_v350, main_v351, main_v352, main_v353, main_v354, main_v355, main_v356, main_cst_55, main_v357, main_v358, main_v359, main_v360, main_v361]

theorem opsR10_sub : (opsR10 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., binary_bufs_sub ..⟩

/-- Every operation of `opsR10` determines what it writes. -/
theorem opsR10_fresh : ∀ op ∈ (opsR10 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl⟩ : (opsR10 : List (HloOp τ sig (Elt F))).Forall fun op => op.fresh = ∅)

theorem opsR10_writes : (opsR10 : List (HloOp τ sig (Elt F))).Forall fun op => op.writes ⊆ (opsR10_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 421 … 465 of 572. -/
abbrev opsR11 : List (HloOp τ sig (Elt F)) :=
  [ unary main_arg3 main_v362 ((extractStridedSlice S1x800000 ![0, 0] · slices_S2x800000_S1x800000_0_0) : (⟨S2x800000, .i32⟩ : BufTy).Contents (Elt F) → (⟨S1x800000, .i32⟩ : BufTy).Contents (Elt F)),
    reshape main_v362 main_v363 rfl shapeCasts_S1x800000_S800000,
    unary main_arg3 main_v364 ((extractStridedSlice S1x800000 ![1, 0] · slices_S2x800000_S1x800000_1_0) : (⟨S2x800000, .i32⟩ : BufTy).Contents (Elt F) → (⟨S1x800000, .i32⟩ : BufTy).Contents (Elt F)),
    reshape main_v364 main_v365 rfl shapeCasts_S1x800000_S800000,
    nullary main_c_56 (constantI S_ 32 0#32),
    unary main_c_56 main_v366 (broadcastInDim S800000 ![] bcast_S_S800000 : (⟨S_, .i32⟩ : BufTy).Contents (Elt F) → (⟨S800000, .i32⟩ : BufTy).Contents (Elt F)),
    binary main_v363 main_v366 main_v367 (cmpi .slt : (⟨S800000, .i32⟩ : BufTy).Contents (Elt F) → (⟨S800000, .i32⟩ : BufTy).Contents (Elt F) → (⟨S800000, .i1⟩ : BufTy).Contents (Elt F)),
    nullary main_c_57 (constantI S_ 32 100000#32),
    unary main_c_57 main_v368 (broadcastInDim S800000 ![] bcast_S_S800000 : (⟨S_, .i32⟩ : BufTy).Contents (Elt F) → (⟨S800000, .i32⟩ : BufTy).Contents (Elt F)),
    binary main_v363 main_v368 main_v369 (addi : (⟨S800000, .i32⟩ : BufTy).Contents (Elt F) → (⟨S800000, .i32⟩ : BufTy).Contents (Elt F) → (⟨S800000, .i32⟩ : BufTy).Contents (Elt F)),
    ternary main_v367 main_v369 main_v363 main_v370 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v370 main_v371 (broadcastInDim S800000x1 ![0] bcast_S800000_S800000x1_0 : (⟨S800000, .i32⟩ : BufTy).Contents (Elt F) → (⟨S800000x1, .i32⟩ : BufTy).Contents (Elt F)),
    binary main_v300 main_v371 main_v372 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    unary main_v302 main_v373 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v373 main_v374 rfl shapeCasts_S1x32x32_S32x32,
    binary main_v372 main_v374 main_v375 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_v304 main_v376 ((extractStridedSlice S1x32 ![2, 0] · slices_S3x32_S1x32_2_0) : (⟨S3x32, .f32⟩ : BufTy).Contents (Elt F) → (⟨S1x32, .f32⟩ : BufTy).Contents (Elt F)),
    reshape main_v376 main_v377 rfl shapeCasts_S1x32_S32,
    unary main_v377 main_v378 (broadcastInDim S1x32 ![1] bcast_S32_S1x32_1 : (⟨S32, .f32⟩ : BufTy).Contents (Elt F) → (⟨S1x32, .f32⟩ : BufTy).Contents (Elt F)),
    unary main_v378 main_v379 (broadcastInDim S800000x32 ![0, 1] bcast_S1x32_S800000x32_0_1 : (⟨S1x32, .f32⟩ : BufTy).Contents (Elt F) → (⟨S800000x32, .f32⟩ : BufTy).Contents (Elt F)),
    binary main_v375 main_v379 main_v380 (addf : (⟨S800000x32, .f32⟩ : BufTy).Contents (Elt F) → (⟨S800000x32, .f32⟩ : BufTy).Contents (Elt F) → (⟨S800000x32, .f32⟩ : BufTy).Contents (Elt F)),
    nullary main_cst_58 (constant S_ .f32 0x00000000#32),
    unary main_cst_58 main_v381 (broadcastInDim S100000x32 ![] bcast_S_S100000x32 : (⟨S_, .f32⟩ : BufTy).Contents (Elt F) → (⟨S100000x32, .f32⟩ : BufTy).Contents (Elt F)),
    unary main_v365 main_v382 (broadcastInDim S800000x1 ![0] bcast_S800000_S800000x1_0 : (⟨S800000, .i32⟩ : BufTy).Contents (Elt F) → (⟨S800000x1, .i32⟩ : BufTy).Contents (Elt F)),
    ternary main_v381 main_v382 main_v380 main_v383 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_59 (constant S_ .f32 0x3F800000#32),
    unary main_cst_59 main_v384 (broadcastInDim S800000x1 ![] bcast_S_S800000x1 : (⟨S_, .f32⟩ : BufTy).Contents (Elt F) → (⟨S800000x1, .f32⟩ : BufTy).Contents (Elt F)),
    nullary main_cst_60 (constant S_ .f32 0x00000000#32),
    unary main_cst_60 main_v385 (broadcastInDim S100000x1 ![] bcast_S_S100000x1 : (⟨S_, .f32⟩ : BufTy).Contents (Elt F) → (⟨S100000x1, .f32⟩ : BufTy).Contents (Elt F)),
    unary main_v365 main_v386 (broadcastInDim S800000x1 ![0] bcast_S800000_S800000x1_0 : (⟨S800000, .i32⟩ : BufTy).Contents (Elt F) → (⟨S800000x1, .i32⟩ : BufTy).Contents (Elt F)),
    ternary main_v385 main_v386 main_v384 main_v387 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_61 (constant S_ .f32 0x3F800000#32),
    unary main_cst_61 main_v388 (broadcastInDim S100000x1 ![] bcast_S_S100000x1 : (⟨S_, .f32⟩ : BufTy).Contents (Elt F) → (⟨S100000x1, .f32⟩ : BufTy).Contents (Elt F)),
    binary main_v387 main_v388 main_v389 (maximumf : (⟨S100000x1, .f32⟩ : BufTy).Contents (Elt F) → (⟨S100000x1, .f32⟩ : BufTy).Contents (Elt F) → (⟨S100000x1, .f32⟩ : BufTy).Contents (Elt F)),
    unary main_v389 main_v390 (broadcastInDim S100000x32 ![0, 1] bcast_S100000x1_S100000x32_0_1 : (⟨S100000x1, .f32⟩ : BufTy).Contents (Elt F) → (⟨S100000x32, .f32⟩ : BufTy).Contents (Elt F)),
    binary main_v383 main_v390 main_v391 (Host.divf : (⟨S100000x32, .f32⟩ : BufTy).Contents (Elt F) → (⟨S100000x32, .f32⟩ : BufTy).Contents (Elt F) → (⟨S100000x32, .f32⟩ : BufTy).Contents (Elt F)),
    binary main_v361 main_v391 main_v392 (addf : (⟨S100000x32, .f32⟩ : BufTy).Contents (Elt F) → (⟨S100000x32, .f32⟩ : BufTy).Contents (Elt F) → (⟨S100000x32, .f32⟩ : BufTy).Contents (Elt F)),
    binary main_v392 main_v300 main_v393 (addf : (⟨S100000x32, .f32⟩ : BufTy).Contents (Elt F) → (⟨S100000x32, .f32⟩ : BufTy).Contents (Elt F) → (⟨S100000x32, .f32⟩ : BufTy).Contents (Elt F)),
    binary main_v393 main_v300 main_v394 (addf : (⟨S100000x32, .f32⟩ : BufTy).Contents (Elt F) → (⟨S100000x32, .f32⟩ : BufTy).Contents (Elt F) → (⟨S100000x32, .f32⟩ : BufTy).Contents (Elt F)),
    unary main_arg8 main_v395 ((extractStridedSlice S1x3x32x32 ![3, 0, 0, 0] · slices_S4x3x32x32_S1x3x32x32_3_0_0_0) : (⟨S4x3x32x32, .f32⟩ : BufTy).Contents (Elt F) → (⟨S1x3x32x32, .f32⟩ : BufTy).Contents (Elt F)),
    reshape main_v395 main_v396 rfl shapeCasts_S1x3x32x32_S3x32x32,
    unary main_arg9 main_v397 ((extractStridedSlice S1x3x32 ![3, 0, 0] · slices_S4x3x32_S1x3x32_3_0_0) : (⟨S4x3x32, .f32⟩ : BufTy).Contents (Elt F) → (⟨S1x3x32, .f32⟩ : BufTy).Contents (Elt F)),
    reshape main_v397 main_v398 rfl shapeCasts_S1x3x32_S3x32,
    nullary main_cst_62 (constant S_ .f32 0x00000000#32),
    unary main_cst_62 main_v399 (broadcastInDim S100000x32 ![] bcast_S_S100000x32 : (⟨S_, .f32⟩ : BufTy).Contents (Elt F) → (⟨S100000x32, .f32⟩ : BufTy).Contents (Elt F)) ]

/-- The buffers that `opsR11` writes, in order. -/
abbrev opsR11_W : List (Ref sig .tc) := [main_v362, main_v363, main_v364, main_v365, main_c_56, main_v366, main_v367, main_c_57, main_v368, main_v369, main_v370, main_v371, main_v372, main_v373, main_v374, main_v375, main_v376, main_v377, main_v378, main_v379, main_v380, main_cst_58, main_v381, main_v382, main_v383, main_cst_59, main_v384, main_cst_60, main_v385, main_v386, main_v387, main_cst_61, main_v388, main_v389, main_v390, main_v391, main_v392, main_v393, main_v394, main_v395, main_v396, main_v397, main_v398, main_cst_62, main_v399]

theorem opsR11_sub : (opsR11 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub .., unary_bufs_sub .., reshape_bufs_sub .., unary_bufs_sub .., reshape_bufs_sub .., nullary_bufs_sub .., unary_bufs_sub ..⟩

/-- Every operation of `opsR11` determines what it writes. -/
theorem opsR11_fresh : ∀ op ∈ (opsR11 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR11 : List (HloOp τ sig (Elt F))).Forall fun op => op.fresh = ∅)

theorem opsR11_writes : (opsR11 : List (HloOp τ sig (Elt F))).Forall fun op => op.writes ⊆ (opsR11_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 466 … 503 of 572. -/
abbrev opsR12 : List (HloOp τ sig (Elt F)) :=
  [ unary main_arg1 main_v400 ((extractStridedSlice S1x1600000 ![0, 0] · slices_S2x1600000_S1x1600000_0_0) : (⟨S2x1600000, .i32⟩ : BufTy).Contents (Elt F) → (⟨S1x1600000, .i32⟩ : BufTy).Contents (Elt F)),
    reshape main_v400 main_v401 rfl shapeCasts_S1x1600000_S1600000,
    unary main_arg1 main_v402 ((extractStridedSlice S1x1600000 ![1, 0] · slices_S2x1600000_S1x1600000_1_0) : (⟨S2x1600000, .i32⟩ : BufTy).Contents (Elt F) → (⟨S1x1600000, .i32⟩ : BufTy).Contents (Elt F)),
    reshape main_v402 main_v403 rfl shapeCasts_S1x1600000_S1600000,
    nullary main_c_63 (constantI S_ 32 0#32),
    unary main_c_63 main_v404 (broadcastInDim S1600000 ![] bcast_S_S1600000 : (⟨S_, .i32⟩ : BufTy).Contents (Elt F) → (⟨S1600000, .i32⟩ : BufTy).Contents (Elt F)),
    binary main_v401 main_v404 main_v405 (cmpi .slt : (⟨S1600000, .i32⟩ : BufTy).Contents (Elt F) → (⟨S1600000, .i32⟩ : BufTy).Contents (Elt F) → (⟨S1600000, .i1⟩ : BufTy).Contents (Elt F)),
    nullary main_c_64 (constantI S_ 32 100000#32),
    unary main_c_64 main_v406 (broadcastInDim S1600000 ![] bcast_S_S1600000 : (⟨S_, .i32⟩ : BufTy).Contents (Elt F) → (⟨S1600000, .i32⟩ : BufTy).Contents (Elt F)),
    binary main_v401 main_v406 main_v407 (addi : (⟨S1600000, .i32⟩ : BufTy).Contents (Elt F) → (⟨S1600000, .i32⟩ : BufTy).Contents (Elt F) → (⟨S1600000, .i32⟩ : BufTy).Contents (Elt F)),
    ternary main_v405 main_v407 main_v401 main_v408 (select : (⟨S1600000, .i1⟩ : BufTy).Contents (Elt F) → (⟨S1600000, .i32⟩ : BufTy).Contents (Elt F) → (⟨S1600000, .i32⟩ : BufTy).Contents (Elt F) → (⟨S1600000, .i32⟩ : BufTy).Contents (Elt F)),
    unary main_v408 main_v409 (broadcastInDim S1600000x1 ![0] bcast_S1600000_S1600000x1_0 : (⟨S1600000, .i32⟩ : BufTy).Contents (Elt F) → (⟨S1600000x1, .i32⟩ : BufTy).Contents (Elt F)),
    binary main_v394 main_v409 main_v410 ((fun x i => Host.gather gather_S100000x32_S1600000x1_S1600000x32_1_0_n_n_0_1_132 x i) : (⟨S100000x32, .f32⟩ : BufTy).Contents (Elt F) → (⟨S1600000x1, .i32⟩ : BufTy).Contents (Elt F) → (⟨S1600000x32, .f32⟩ : BufTy).Contents (Elt F)),
    unary main_v396 main_v411 ((extractStridedSlice S1x32x32 ![0, 0, 0] · slices_S3x32x32_S1x32x32_0_0_0) : (⟨S3x32x32, .f32⟩ : BufTy).Contents (Elt F) → (⟨S1x32x32, .f32⟩ : BufTy).Contents (Elt F)),
    reshape main_v411 main_v412 rfl shapeCasts_S1x32x32_S32x32,
    binary main_v410 main_v412 main_v413 ((fun l r => Host.dotGeneral dot_S1600000x32_S32x32_S1600000x32_1_0_0_1_n_n none l r) : (⟨S1600000x32, .f32⟩ : BufTy).Contents (Elt F) → (⟨S32x32, .f32⟩ : BufTy).Contents (Elt F) → (⟨S1600000x32, .f32⟩ : BufTy).Contents (Elt F)),
    unary main_v398 main_v414 ((extractStridedSlice S1x32 ![0, 0] · slices_S3x32_S1x32_0_0) : (⟨S3x32, .f32⟩ : BufTy).Contents (Elt F) → (⟨S1x32, .f32⟩ : BufTy).Contents (Elt F)),
    reshape main_v414 main_v415 rfl shapeCasts_S1x32_S32,
    unary main_v415 main_v416 (broadcastInDim S1x32 ![1] bcast_S32_S1x32_1 : (⟨S32, .f32⟩ : BufTy).Contents (Elt F) → (⟨S1x32, .f32⟩ : BufTy).Contents (Elt F)),
    unary main_v416 main_v417 (broadcastInDim S1600000x32 ![0, 1] bcast_S1x32_S1600000x32_0_1 : (⟨S1x32, .f32⟩ : BufTy).Contents (Elt F) → (⟨S1600000x32, .f32⟩ : BufTy).Contents (Elt F)),
    binary main_v413 main_v417 main_v418 (addf : (⟨S1600000x32, .f32⟩ : BufTy).Contents (Elt F) → (⟨S1600000x32, .f32⟩ : BufTy).Contents (Elt F) → (⟨S1600000x32, .f32⟩ : BufTy).Contents (Elt F)),
    nullary main_cst_65 (constant S_ .f32 0x00000000#32),
    unary main_cst_65 main_v419 (broadcastInDim S100000x32 ![] bcast_S_S100000x32 : (⟨S_, .f32⟩ : BufTy).Contents (Elt F) → (⟨S100000x32, .f32⟩ : BufTy).Contents (Elt F)),
    unary main_v403 main_v420 (broadcastInDim S1600000x1 ![0] bcast_S1600000_S1600000x1_0 : (⟨S1600000, .i32⟩ : BufTy).Contents (Elt F) → (⟨S1600000x1, .i32⟩ : BufTy).Contents (Elt F)),
    ternary main_v419 main_v420 main_v418 main_v421 ((fun x i u => Host.scatterAdd scatter_S100000x32_S1600000x1_S1600000x32_1_0_0_1 x i u) : (⟨S100000x32, .f32⟩ : BufTy).Contents (Elt F) → (⟨S1600000x1, .i32⟩ : BufTy).Contents (Elt F) → (⟨S1600000x32, .f32⟩ : BufTy).Contents (Elt F) → (⟨S100000x32, .f32⟩ : BufTy).Contents (Elt F)),
    nullary main_cst_66 (constant S_ .f32 0x3F800000#32),
    unary main_cst_66 main_v422 (broadcastInDim S1600000x1 ![] bcast_S_S1600000x1 : (⟨S_, .f32⟩ : BufTy).Contents (Elt F) → (⟨S1600000x1, .f32⟩ : BufTy).Contents (Elt F)),
    nullary main_cst_67 (constant S_ .f32 0x00000000#32),
    unary main_cst_67 main_v423 (broadcastInDim S100000x1 ![] bcast_S_S100000x1 : (⟨S_, .f32⟩ : BufTy).Contents (Elt F) → (⟨S100000x1, .f32⟩ : BufTy).Contents (Elt F)),
    unary main_v403 main_v424 (broadcastInDim S1600000x1 ![0] bcast_S1600000_S1600000x1_0 : (⟨S1600000, .i32⟩ : BufTy).Contents (Elt F) → (⟨S1600000x1, .i32⟩ : BufTy).Contents (Elt F)),
    ternary main_v423 main_v424 main_v422 main_v425 ((fun x i u => Host.scatterAdd scatter_S100000x1_S1600000x1_S1600000x1_1_0_0_1 x i u) : (⟨S100000x1, .f32⟩ : BufTy).Contents (Elt F) → (⟨S1600000x1, .i32⟩ : BufTy).Contents (Elt F) → (⟨S1600000x1, .f32⟩ : BufTy).Contents (Elt F) → (⟨S100000x1, .f32⟩ : BufTy).Contents (Elt F)),
    nullary main_cst_68 (constant S_ .f32 0x3F800000#32),
    unary main_cst_68 main_v426 (broadcastInDim S100000x1 ![] bcast_S_S100000x1 : (⟨S_, .f32⟩ : BufTy).Contents (Elt F) → (⟨S100000x1, .f32⟩ : BufTy).Contents (Elt F)),
    binary main_v425 main_v426 main_v427 (maximumf : (⟨S100000x1, .f32⟩ : BufTy).Contents (Elt F) → (⟨S100000x1, .f32⟩ : BufTy).Contents (Elt F) → (⟨S100000x1, .f32⟩ : BufTy).Contents (Elt F)),
    unary main_v427 main_v428 (broadcastInDim S100000x32 ![0, 1] bcast_S100000x1_S100000x32_0_1 : (⟨S100000x1, .f32⟩ : BufTy).Contents (Elt F) → (⟨S100000x32, .f32⟩ : BufTy).Contents (Elt F)),
    binary main_v421 main_v428 main_v429 (Host.divf : (⟨S100000x32, .f32⟩ : BufTy).Contents (Elt F) → (⟨S100000x32, .f32⟩ : BufTy).Contents (Elt F) → (⟨S100000x32, .f32⟩ : BufTy).Contents (Elt F)),
    binary main_v399 main_v429 main_v430 (addf : (⟨S100000x32, .f32⟩ : BufTy).Contents (Elt F) → (⟨S100000x32, .f32⟩ : BufTy).Contents (Elt F) → (⟨S100000x32, .f32⟩ : BufTy).Contents (Elt F)),
    binary main_v430 main_v394 main_v431 (addf : (⟨S100000x32, .f32⟩ : BufTy).Contents (Elt F) → (⟨S100000x32, .f32⟩ : BufTy).Contents (Elt F) → (⟨S100000x32, .f32⟩ : BufTy).Contents (Elt F)) ]

/-- The buffers that `opsR12` writes, in order. -/
abbrev opsR12_W : List (Ref sig .tc) := [main_v400, main_v401, main_v402, main_v403, main_c_63, main_v404, main_v405, main_c_64, main_v406, main_v407, main_v408, main_v409, main_v410, main_v411, main_v412, main_v413, main_v414, main_v415, main_v416, main_v417, main_v418, main_cst_65, main_v419, main_v420, main_v421, main_cst_66, main_v422, main_cst_67, main_v423, main_v424, main_v425, main_cst_68, main_v426, main_v427, main_v428, main_v429, main_v430, main_v431]

theorem opsR12_sub : (opsR12 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub ..⟩

/-- Every operation of `opsR12` determines what it writes. -/
theorem opsR12_fresh : ∀ op ∈ (opsR12 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR12 : List (HloOp τ sig (Elt F))).Forall fun op => op.fresh = ∅)

theorem opsR12_writes : (opsR12 : List (HloOp τ sig (Elt F))).Forall fun op => op.writes ⊆ (opsR12_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 504 … 530 of 572. -/
abbrev opsR13 : List (HloOp τ sig (Elt F)) :=
  [ unary main_arg2 main_v432 ((extractStridedSlice S1x200000 ![0, 0] · slices_S2x200000_S1x200000_0_0) : (⟨S2x200000, .i32⟩ : BufTy).Contents (Elt F) → (⟨S1x200000, .i32⟩ : BufTy).Contents (Elt F)),
    reshape main_v432 main_v433 rfl shapeCasts_S1x200000_S200000,
    unary main_arg2 main_v434 ((extractStridedSlice S1x200000 ![1, 0] · slices_S2x200000_S1x200000_1_0) : (⟨S2x200000, .i32⟩ : BufTy).Contents (Elt F) → (⟨S1x200000, .i32⟩ : BufTy).Contents (Elt F)),
    reshape main_v434 main_v435 rfl shapeCasts_S1x200000_S200000,
    nullary main_c_69 (constantI S_ 32 0#32),
    unary main_c_69 main_v436 (broadcastInDim S200000 ![] bcast_S_S200000 : (⟨S_, .i32⟩ : BufTy).Contents (Elt F) → (⟨S200000, .i32⟩ : BufTy).Contents (Elt F)),
    binary main_v433 main_v436 main_v437 (cmpi .slt : (⟨S200000, .i32⟩ : BufTy).Contents (Elt F) → (⟨S200000, .i32⟩ : BufTy).Contents (Elt F) → (⟨S200000, .i1⟩ : BufTy).Contents (Elt F)),
    nullary main_c_70 (constantI S_ 32 100000#32),
    unary main_c_70 main_v438 (broadcastInDim S200000 ![] bcast_S_S200000 : (⟨S_, .i32⟩ : BufTy).Contents (Elt F) → (⟨S200000, .i32⟩ : BufTy).Contents (Elt F)),
    binary main_v433 main_v438 main_v439 (addi : (⟨S200000, .i32⟩ : BufTy).Contents (Elt F) → (⟨S200000, .i32⟩ : BufTy).Contents (Elt F) → (⟨S200000, .i32⟩ : BufTy).Contents (Elt F)),
    ternary main_v437 main_v439 main_v433 main_v440 (select : (⟨S200000, .i1⟩ : BufTy).Contents (Elt F) → (⟨S200000, .i32⟩ : BufTy).Contents (Elt F) → (⟨S200000, .i32⟩ : BufTy).Contents (Elt F) → (⟨S200000, .i32⟩ : BufTy).Contents (Elt F)),
    unary main_v440 main_v441 (broadcastInDim S200000x1 ![0] bcast_S200000_S200000x1_0 : (⟨S200000, .i32⟩ : BufTy).Contents (Elt F) → (⟨S200000x1, .i32⟩ : BufTy).Contents (Elt F)),
    binary main_v394 main_v441 main_v442 ((fun x i => Host.gather gather_S100000x32_S200000x1_S200000x32_1_0_n_n_0_1_132 x i) : (⟨S100000x32, .f32⟩ : BufTy).Contents (Elt F) → (⟨S200000x1, .i32⟩ : BufTy).Contents (Elt F) → (⟨S200000x32, .f32⟩ : BufTy).Contents (Elt F)),
    unary main_v396 main_v443 ((extractStridedSlice S1x32x32 ![1, 0, 0] · slices_S3x32x32_S1x32x32_1_0_0) : (⟨S3x32x32, .f32⟩ : BufTy).Contents (Elt F) → (⟨S1x32x32, .f32⟩ : BufTy).Contents (Elt F)),
    reshape main_v443 main_v444 rfl shapeCasts_S1x32x32_S32x32,
    binary main_v442 main_v444 main_v445 ((fun l r => Host.dotGeneral dot_S200000x32_S32x32_S200000x32_1_0_0_1_n_n none l r) : (⟨S200000x32, .f32⟩ : BufTy).Contents (Elt F) → (⟨S32x32, .f32⟩ : BufTy).Contents (Elt F) → (⟨S200000x32, .f32⟩ : BufTy).Contents (Elt F)),
    unary main_v398 main_v446 ((extractStridedSlice S1x32 ![1, 0] · slices_S3x32_S1x32_1_0) : (⟨S3x32, .f32⟩ : BufTy).Contents (Elt F) → (⟨S1x32, .f32⟩ : BufTy).Contents (Elt F)),
    reshape main_v446 main_v447 rfl shapeCasts_S1x32_S32,
    unary main_v447 main_v448 (broadcastInDim S1x32 ![1] bcast_S32_S1x32_1 : (⟨S32, .f32⟩ : BufTy).Contents (Elt F) → (⟨S1x32, .f32⟩ : BufTy).Contents (Elt F)),
    unary main_v448 main_v449 (broadcastInDim S200000x32 ![0, 1] bcast_S1x32_S200000x32_0_1 : (⟨S1x32, .f32⟩ : BufTy).Contents (Elt F) → (⟨S200000x32, .f32⟩ : BufTy).Contents (Elt F)),
    binary main_v445 main_v449 main_v450 (addf : (⟨S200000x32, .f32⟩ : BufTy).Contents (Elt F) → (⟨S200000x32, .f32⟩ : BufTy).Contents (Elt F) → (⟨S200000x32, .f32⟩ : BufTy).Contents (Elt F)),
    nullary main_cst_71 (constant S_ .f32 0x00000000#32),
    unary main_cst_71 main_v451 (broadcastInDim S100000x32 ![] bcast_S_S100000x32 : (⟨S_, .f32⟩ : BufTy).Contents (Elt F) → (⟨S100000x32, .f32⟩ : BufTy).Contents (Elt F)),
    unary main_v435 main_v452 (broadcastInDim S200000x1 ![0] bcast_S200000_S200000x1_0 : (⟨S200000, .i32⟩ : BufTy).Contents (Elt F) → (⟨S200000x1, .i32⟩ : BufTy).Contents (Elt F)),
    ternary main_v451 main_v452 main_v450 main_v453 ((fun x i u => Host.scatterAdd scatter_S100000x32_S200000x1_S200000x32_1_0_0_1 x i u) : (⟨S100000x32, .f32⟩ : BufTy).Contents (Elt F) → (⟨S200000x1, .i32⟩ : BufTy).Contents (Elt F) → (⟨S200000x32, .f32⟩ : BufTy).Contents (Elt F) → (⟨S100000x32, .f32⟩ : BufTy).Contents (Elt F)),
    binary main_v431 main_v453 main_v454 (addf : (⟨S100000x32, .f32⟩ : BufTy).Contents (Elt F) → (⟨S100000x32, .f32⟩ : BufTy).Contents (Elt F) → (⟨S100000x32, .f32⟩ : BufTy).Contents (Elt F)),
    binary main_v454 main_v394 main_v455 (addf : (⟨S100000x32, .f32⟩ : BufTy).Contents (Elt F) → (⟨S100000x32, .f32⟩ : BufTy).Contents (Elt F) → (⟨S100000x32, .f32⟩ : BufTy).Contents (Elt F)) ]

/-- The buffers that `opsR13` writes, in order. -/
abbrev opsR13_W : List (Ref sig .tc) := [main_v432, main_v433, main_v434, main_v435, main_c_69, main_v436, main_v437, main_c_70, main_v438, main_v439, main_v440, main_v441, main_v442, main_v443, main_v444, main_v445, main_v446, main_v447, main_v448, main_v449, main_v450, main_cst_71, main_v451, main_v452, main_v453, main_v454, main_v455]

theorem opsR13_sub : (opsR13 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., binary_bufs_sub .., binary_bufs_sub ..⟩

/-- Every operation of `opsR13` determines what it writes. -/
theorem opsR13_fresh : ∀ op ∈ (opsR13 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl⟩ : (opsR13 : List (HloOp τ sig (Elt F))).Forall fun op => op.fresh = ∅)

theorem opsR13_writes : (opsR13 : List (HloOp τ sig (Elt F))).Forall fun op => op.writes ⊆ (opsR13_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 531 … 569 of 572. -/
abbrev opsR14 : List (HloOp τ sig (Elt F)) :=
  [ unary main_arg3 main_v456 ((extractStridedSlice S1x800000 ![0, 0] · slices_S2x800000_S1x800000_0_0) : (⟨S2x800000, .i32⟩ : BufTy).Contents (Elt F) → (⟨S1x800000, .i32⟩ : BufTy).Contents (Elt F)),
    reshape main_v456 main_v457 rfl shapeCasts_S1x800000_S800000,
    unary main_arg3 main_v458 ((extractStridedSlice S1x800000 ![1, 0] · slices_S2x800000_S1x800000_1_0) : (⟨S2x800000, .i32⟩ : BufTy).Contents (Elt F) → (⟨S1x800000, .i32⟩ : BufTy).Contents (Elt F)),
    reshape main_v458 main_v459 rfl shapeCasts_S1x800000_S800000,
    nullary main_c_72 (constantI S_ 32 0#32),
    unary main_c_72 main_v460 (broadcastInDim S800000 ![] bcast_S_S800000 : (⟨S_, .i32⟩ : BufTy).Contents (Elt F) → (⟨S800000, .i32⟩ : BufTy).Contents (Elt F)),
    binary main_v457 main_v460 main_v461 (cmpi .slt : (⟨S800000, .i32⟩ : BufTy).Contents (Elt F) → (⟨S800000, .i32⟩ : BufTy).Contents (Elt F) → (⟨S800000, .i1⟩ : BufTy).Contents (Elt F)),
    nullary main_c_73 (constantI S_ 32 100000#32),
    unary main_c_73 main_v462 (broadcastInDim S800000 ![] bcast_S_S800000 : (⟨S_, .i32⟩ : BufTy).Contents (Elt F) → (⟨S800000, .i32⟩ : BufTy).Contents (Elt F)),
    binary main_v457 main_v462 main_v463 (addi : (⟨S800000, .i32⟩ : BufTy).Contents (Elt F) → (⟨S800000, .i32⟩ : BufTy).Contents (Elt F) → (⟨S800000, .i32⟩ : BufTy).Contents (Elt F)),
    ternary main_v461 main_v463 main_v457 main_v464 (select : (⟨S800000, .i1⟩ : BufTy).Contents (Elt F) → (⟨S800000, .i32⟩ : BufTy).Contents (Elt F) → (⟨S800000, .i32⟩ : BufTy).Contents (Elt F) → (⟨S800000, .i32⟩ : BufTy).Contents (Elt F)),
    unary main_v464 main_v465 (broadcastInDim S800000x1 ![0] bcast_S800000_S800000x1_0 : (⟨S800000, .i32⟩ : BufTy).Contents (Elt F) → (⟨S800000x1, .i32⟩ : BufTy).Contents (Elt F)),
    binary main_v394 main_v465 main_v466 ((fun x i => Host.gather gather_S100000x32_S800000x1_S800000x32_1_0_n_n_0_1_132 x i) : (⟨S100000x32, .f32⟩ : BufTy).Contents (Elt F) → (⟨S800000x1, .i32⟩ : BufTy).Contents (Elt F) → (⟨S800000x32, .f32⟩ : BufTy).Contents (Elt F)),
    unary main_v396 main_v467 ((extractStridedSlice S1x32x32 ![2, 0, 0] · slices_S3x32x32_S1x32x32_2_0_0) : (⟨S3x32x32, .f32⟩ : BufTy).Contents (Elt F) → (⟨S1x32x32, .f32⟩ : BufTy).Contents (Elt F)),
    reshape main_v467 main_v468 rfl shapeCasts_S1x32x32_S32x32,
    binary main_v466 main_v468 main_v469 ((fun l r => Host.dotGeneral dot_S800000x32_S32x32_S800000x32_1_0_0_1_n_n none l r) : (⟨S800000x32, .f32⟩ : BufTy).Contents (Elt F) → (⟨S32x32, .f32⟩ : BufTy).Contents (Elt F) → (⟨S800000x32, .f32⟩ : BufTy).Contents (Elt F)),
    unary main_v398 main_v470 ((extractStridedSlice S1x32 ![2, 0] · slices_S3x32_S1x32_2_0) : (⟨S3x32, .f32⟩ : BufTy).Contents (Elt F) → (⟨S1x32, .f32⟩ : BufTy).Contents (Elt F)),
    reshape main_v470 main_v471 rfl shapeCasts_S1x32_S32,
    unary main_v471 main_v472 (broadcastInDim S1x32 ![1] bcast_S32_S1x32_1 : (⟨S32, .f32⟩ : BufTy).Contents (Elt F) → (⟨S1x32, .f32⟩ : BufTy).Contents (Elt F)),
    unary main_v472 main_v473 (broadcastInDim S800000x32 ![0, 1] bcast_S1x32_S800000x32_0_1 : (⟨S1x32, .f32⟩ : BufTy).Contents (Elt F) → (⟨S800000x32, .f32⟩ : BufTy).Contents (Elt F)),
    binary main_v469 main_v473 main_v474 (addf : (⟨S800000x32, .f32⟩ : BufTy).Contents (Elt F) → (⟨S800000x32, .f32⟩ : BufTy).Contents (Elt F) → (⟨S800000x32, .f32⟩ : BufTy).Contents (Elt F)),
    nullary main_cst_74 (constant S_ .f32 0x00000000#32),
    unary main_cst_74 main_v475 (broadcastInDim S100000x32 ![] bcast_S_S100000x32 : (⟨S_, .f32⟩ : BufTy).Contents (Elt F) → (⟨S100000x32, .f32⟩ : BufTy).Contents (Elt F)),
    unary main_v459 main_v476 (broadcastInDim S800000x1 ![0] bcast_S800000_S800000x1_0 : (⟨S800000, .i32⟩ : BufTy).Contents (Elt F) → (⟨S800000x1, .i32⟩ : BufTy).Contents (Elt F)),
    ternary main_v475 main_v476 main_v474 main_v477 ((fun x i u => Host.scatterAdd scatter_S100000x32_S800000x1_S800000x32_1_0_0_1 x i u) : (⟨S100000x32, .f32⟩ : BufTy).Contents (Elt F) → (⟨S800000x1, .i32⟩ : BufTy).Contents (Elt F) → (⟨S800000x32, .f32⟩ : BufTy).Contents (Elt F) → (⟨S100000x32, .f32⟩ : BufTy).Contents (Elt F)),
    nullary main_cst_75 (constant S_ .f32 0x3F800000#32),
    unary main_cst_75 main_v478 (broadcastInDim S800000x1 ![] bcast_S_S800000x1 : (⟨S_, .f32⟩ : BufTy).Contents (Elt F) → (⟨S800000x1, .f32⟩ : BufTy).Contents (Elt F)),
    nullary main_cst_76 (constant S_ .f32 0x00000000#32),
    unary main_cst_76 main_v479 (broadcastInDim S100000x1 ![] bcast_S_S100000x1 : (⟨S_, .f32⟩ : BufTy).Contents (Elt F) → (⟨S100000x1, .f32⟩ : BufTy).Contents (Elt F)),
    unary main_v459 main_v480 (broadcastInDim S800000x1 ![0] bcast_S800000_S800000x1_0 : (⟨S800000, .i32⟩ : BufTy).Contents (Elt F) → (⟨S800000x1, .i32⟩ : BufTy).Contents (Elt F)),
    ternary main_v479 main_v480 main_v478 main_v481 ((fun x i u => Host.scatterAdd scatter_S100000x1_S800000x1_S800000x1_1_0_0_1 x i u) : (⟨S100000x1, .f32⟩ : BufTy).Contents (Elt F) → (⟨S800000x1, .i32⟩ : BufTy).Contents (Elt F) → (⟨S800000x1, .f32⟩ : BufTy).Contents (Elt F) → (⟨S100000x1, .f32⟩ : BufTy).Contents (Elt F)),
    nullary main_cst_77 (constant S_ .f32 0x3F800000#32),
    unary main_cst_77 main_v482 (broadcastInDim S100000x1 ![] bcast_S_S100000x1 : (⟨S_, .f32⟩ : BufTy).Contents (Elt F) → (⟨S100000x1, .f32⟩ : BufTy).Contents (Elt F)),
    binary main_v481 main_v482 main_v483 (maximumf : (⟨S100000x1, .f32⟩ : BufTy).Contents (Elt F) → (⟨S100000x1, .f32⟩ : BufTy).Contents (Elt F) → (⟨S100000x1, .f32⟩ : BufTy).Contents (Elt F)),
    unary main_v483 main_v484 (broadcastInDim S100000x32 ![0, 1] bcast_S100000x1_S100000x32_0_1 : (⟨S100000x1, .f32⟩ : BufTy).Contents (Elt F) → (⟨S100000x32, .f32⟩ : BufTy).Contents (Elt F)),
    binary main_v477 main_v484 main_v485 (Host.divf : (⟨S100000x32, .f32⟩ : BufTy).Contents (Elt F) → (⟨S100000x32, .f32⟩ : BufTy).Contents (Elt F) → (⟨S100000x32, .f32⟩ : BufTy).Contents (Elt F)),
    binary main_v455 main_v485 main_v486 (addf : (⟨S100000x32, .f32⟩ : BufTy).Contents (Elt F) → (⟨S100000x32, .f32⟩ : BufTy).Contents (Elt F) → (⟨S100000x32, .f32⟩ : BufTy).Contents (Elt F)),
    binary main_v486 main_v394 main_v487 (addf : (⟨S100000x32, .f32⟩ : BufTy).Contents (Elt F) → (⟨S100000x32, .f32⟩ : BufTy).Contents (Elt F) → (⟨S100000x32, .f32⟩ : BufTy).Contents (Elt F)),
    binary main_v487 main_v394 main_v488 (addf : (⟨S100000x32, .f32⟩ : BufTy).Contents (Elt F) → (⟨S100000x32, .f32⟩ : BufTy).Contents (Elt F) → (⟨S100000x32, .f32⟩ : BufTy).Contents (Elt F)) ]

/-- The buffers that `opsR14` writes, in order. -/
abbrev opsR14_W : List (Ref sig .tc) := [main_v456, main_v457, main_v458, main_v459, main_c_72, main_v460, main_v461, main_c_73, main_v462, main_v463, main_v464, main_v465, main_v466, main_v467, main_v468, main_v469, main_v470, main_v471, main_v472, main_v473, main_v474, main_cst_74, main_v475, main_v476, main_v477, main_cst_75, main_v478, main_cst_76, main_v479, main_v480, main_v481, main_cst_77, main_v482, main_v483, main_v484, main_v485, main_v486, main_v487, main_v488]

theorem opsR14_sub : (opsR14 : List (HloOp τ sig (Elt F))).Forall fun op => op.bufs ⊆ tcRefs τ sig :=
  ⟨unary_bufs_sub .., reshape_bufs_sub .., unary_bufs_sub .., reshape_bufs_sub .., nullary_bufs_sub .., unary_bufs_sub .., binary_bufs_sub .., nullary_bufs_sub .., unary_bufs_sub .., binary_bufs_sub .., ternary_bufs_sub .., unary_bufs_sub .., binary_bufs_sub .., unary_bufs_sub .., reshape_bufs_sub .., binary_bufs_sub .., unary_bufs_sub .., reshape_bufs_sub .., unary_bufs_sub .., unary_bufs_sub .., binary_bufs_sub .., nullary_bufs_sub .., unary_bufs_sub .., unary_bufs_sub .., ternary_bufs_sub .., nullary_bufs_sub .., unary_bufs_sub .., nullary_bufs_sub .., unary_bufs_sub .., unary_bufs_sub .., ternary_bufs_sub .., nullary_bufs_sub .., unary_bufs_sub .., binary_bufs_sub .., unary_bufs_sub .., binary_bufs_sub .., binary_bufs_sub .., binary_bufs_sub .., binary_bufs_sub ..⟩

/-- Every operation of `opsR14` determines what it writes. -/
theorem opsR14_fresh : ∀ op ∈ (opsR14 : List (HloOp τ sig (Elt F))), op.fresh = ∅ :=
  List.forall_iff_forall_mem.mp (⟨rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl, rfl⟩ : (opsR14 : List (HloOp τ sig (Elt F))).Forall fun op => op.fresh = ∅)

theorem opsR14_writes : (opsR14 : List (HloOp τ sig (Elt F))).Forall fun op => op.writes ⊆ (opsR14_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

/-- @main's operations 570 … 572 of 572 (the rectifier's three, its call inlined). -/
abbrev opsR15 : List (HloOp τ sig (Elt F)) :=
  [ nullary main_call0_cst (constant S_ .f32 0x00000000#32),
    unary main_call0_cst main_call0_v0 (broadcastInDim S100000x32 ![] bcast_S_S100000x32 : (⟨S_, .f32⟩ : BufTy).Contents (Elt F) → (⟨S100000x32, .f32⟩ : BufTy).Contents (Elt F)),
    binary main_v488 main_call0_v0 main_v489 (maximumf : (⟨S100000x32, .f32⟩ : BufTy).Contents (Elt F) → (⟨S100000x32, .f32⟩ : BufTy).Contents (Elt F) → (⟨S100000x32, .f32⟩ : BufTy).Contents (Elt F)) ]

/-- The buffers that `opsR15` writes, in order. -/
abbrev opsR15_W : List (Ref sig .tc) := [main_call0_cst, main_call0_v0, main_v489]

theorem opsR15_sub : (opsR15 : List (HloOp τ sig (Elt F))).Forall fun op => op.bufs ⊆ tcRefs τ sig :=
  ⟨nullary_bufs_sub .., unary_bufs_sub .., binary_bufs_sub ..⟩

/-- Every operation of `opsR15` determines what it writes. -/
theorem opsR15_fresh : ∀ op ∈ (opsR15 : List (HloOp τ sig (Elt F))), op.fresh = ∅ :=
  List.forall_iff_forall_mem.mp (⟨rfl, rfl, rfl⟩ : (opsR15 : List (HloOp τ sig (Elt F))).Forall fun op => op.fresh = ∅)

theorem opsR15_writes : (opsR15 : List (HloOp τ sig (Elt F))).Forall fun op => op.writes ⊆ (opsR15_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide),
    by simp only [nullary_writes, unary_writes, binary_writes, ternary_writes, quaternary_writes, reshape_writes, binaryIndexed_writes, nary_writes, unaryIndexed_writes, Finset.singleton_subset_iff, List.mem_toFinset]; exact List.mem_map_of_mem (by decide)⟩

end Cert.ReferenceIdeal.RunP

end
-- ==== Proof.RRun.lean ====
/- The run of the idealized reference's @main, stated over the FOLD of its operation list. RRun/Ops.lean lists the 572
   host operations as sixteen consecutive stretches `opsR0 … opsR15`. Here: @main is the straight line of the sixteen
   stretches in a row (`main_eq`); `U0 m c` is device `c`'s launch contents and `U(k+1) m c` is `after opsRk (Uk m c)`,
   so the fold of the whole line from the launch contents is `U16 m c` (`after_opsAll`); a buffer that stretch `k` does
   not write holds after it what it held before (`U(k+1)_keep`), and no stretch writes an argument, so each argument
   ends as launched (`U16_argJ`). Every weakly fair execution of @main therefore terminates with the result buffer at
   `U16 m c` and the ten arguments unchanged (`run_fold`). No composed term of the result is ever written. -/
import proofs.«147434_j38603166057109_1_alg».proof.Proof.RRun.Ops
import Idealize.ShloMosaic.Lib.StableHlo.Run
import Idealize.ShloMosaic.Lib.Pipeline.Frame
import Idealize.ShloMosaic.Lib.Pipeline.Regions

set_option Elab.async false

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

/-! ## The whole line -/

/-- @main's 572 operations, in order: the sixteen stretches one after the other. -/
abbrev opsAll : List (HloOp τ sig (Elt F)) :=
  opsR0 ++ (opsR1 ++ (opsR2 ++ (opsR3 ++ (opsR4 ++ (opsR5 ++ (opsR6 ++ (opsR7 ++ (opsR8 ++ (opsR9 ++ (opsR10 ++
    (opsR11 ++ (opsR12 ++ (opsR13 ++ (opsR14 ++ opsR15))))))))))))))

/-- A property of every member of two lists holds of every member of their concatenation. -/
theorem forall_mem_append' {α : Type} {p : α → Prop} {l₁ l₂ : List α} (h₁ : ∀ x ∈ l₁, p x) (h₂ : ∀ x ∈ l₂, p x) :
    ∀ x ∈ l₁ ++ l₂, p x := fun x hx => (List.mem_append.mp hx).elim (h₁ x) (h₂ x)

/-- Every buffer the line touches is a TensorCore reference: stretch by stretch. -/
theorem opsAll_sub : (opsAll : List (HloOp τ sig (Elt F))).Forall fun op => op.bufs ⊆ tcRefs τ sig :=
  List.forall_iff_forall_mem.mpr <|
    forall_mem_append' (List.forall_iff_forall_mem.mp opsR0_sub) <|
    forall_mem_append' (List.forall_iff_forall_mem.mp opsR1_sub) <|
    forall_mem_append' (List.forall_iff_forall_mem.mp opsR2_sub) <|
    forall_mem_append' (List.forall_iff_forall_mem.mp opsR3_sub) <|
    forall_mem_append' (List.forall_iff_forall_mem.mp opsR4_sub) <|
    forall_mem_append' (List.forall_iff_forall_mem.mp opsR5_sub) <|
    forall_mem_append' (List.forall_iff_forall_mem.mp opsR6_sub) <|
    forall_mem_append' (List.forall_iff_forall_mem.mp opsR7_sub) <|
    forall_mem_append' (List.forall_iff_forall_mem.mp opsR8_sub) <|
    forall_mem_append' (List.forall_iff_forall_mem.mp opsR9_sub) <|
    forall_mem_append' (List.forall_iff_forall_mem.mp opsR10_sub) <|
    forall_mem_append' (List.forall_iff_forall_mem.mp opsR11_sub) <|
    forall_mem_append' (List.forall_iff_forall_mem.mp opsR12_sub) <|
    forall_mem_append' (List.forall_iff_forall_mem.mp opsR13_sub) <|
    forall_mem_append' (List.forall_iff_forall_mem.mp opsR14_sub) (List.forall_iff_forall_mem.mp opsR15_sub)

/-- Every operation of the line determines what it writes: stretch by stretch. -/
theorem opsAll_fresh : ∀ op ∈ (opsAll : List (HloOp τ sig (Elt F))), op.fresh = ∅ :=
  forall_mem_append' opsR0_fresh <| forall_mem_append' opsR1_fresh <| forall_mem_append' opsR2_fresh <|
  forall_mem_append' opsR3_fresh <| forall_mem_append' opsR4_fresh <| forall_mem_append' opsR5_fresh <|
  forall_mem_append' opsR6_fresh <| forall_mem_append' opsR7_fresh <| forall_mem_append' opsR8_fresh <|
  forall_mem_append' opsR9_fresh <| forall_mem_append' opsR10_fresh <| forall_mem_append' opsR11_fresh <|
  forall_mem_append' opsR12_fresh <| forall_mem_append' opsR13_fresh <| forall_mem_append' opsR14_fresh opsR15_fresh

/-- The fold over sixteen lists in a row is the sixteen folds, one inside the other. -/
theorem after_append16 {Val : EltTy → Type} (l0 l1 l2 l3 l4 l5 l6 l7 l8 l9 l10 l11 l12 l13 l14 l15 : List (HloOp τ sig Val))
    (V : Valuation τ sig Val) :
    after (l0 ++ (l1 ++ (l2 ++ (l3 ++ (l4 ++ (l5 ++ (l6 ++ (l7 ++ (l8 ++ (l9 ++ (l10 ++ (l11 ++ (l12 ++ (l13 ++ (l14 ++ l15))))))))))))))) V
      = after l15 (after l14 (after l13 (after l12 (after l11 (after l10 (after l9 (after l8 (after l7 (after l6 (after l5
          (after l4 (after l3 (after l2 (after l1 (after l0 V))))))))))))))) := by
  simp only [StableHlo.after_append]

/-! ## @main is the line -/

/-- @main — its ten windows in order, the rectifier's body at its call — is the line: both sides are one chain of
    `hlo` steps once sequencing is re-associated, which is a computation. -/
theorem main_eq (c : Dev nD) : main (F := F) c = seq opsAll := by chain_rfl

theorem scopedRefs_eq : (Finset.univ.filter fun b : Ref sig .tc => b.isScoped) = ∅ := by decide
theorem scopedSems_eq : (Finset.univ.filter fun sm : SemLoc sig => sm.isScoped .tc) = ∅ := by decide

/-! ## The contents after each stretch -/

/-- Device `c`'s buffer contents at launch. -/
abbrev U0 (m : (ℓ : Loc nD τ sig) → Buf (Elt F) ℓ) (c : Dev nD) : Valuation τ sig (Elt F) := launchContents m c
/-- Device `c`'s buffer contents after the first stretch. -/
abbrev U1 (m : (ℓ : Loc nD τ sig) → Buf (Elt F) ℓ) (c : Dev nD) : Valuation τ sig (Elt F) := after opsR0 (U0 m c)
/-- After the first two stretches; and so on, one stretch more each line. -/
abbrev U2 (m : (ℓ : Loc nD τ sig) → Buf (Elt F) ℓ) (c : Dev nD) : Valuation τ sig (Elt F) := after opsR1 (U1 m c)
abbrev U3 (m : (ℓ : Loc nD τ sig) → Buf (Elt F) ℓ) (c : Dev nD) : Valuation τ sig (Elt F) := after opsR2 (U2 m c)
abbrev U4 (m : (ℓ : Loc nD τ sig) → Buf (Elt F) ℓ) (c : Dev nD) : Valuation τ sig (Elt F) := after opsR3 (U3 m c)
abbrev U5 (m : (ℓ : Loc nD τ sig) → Buf (Elt F) ℓ) (c : Dev nD) : Valuation τ sig (Elt F) := after opsR4 (U4 m c)
abbrev U6 (m : (ℓ : Loc nD τ sig) → Buf (Elt F) ℓ) (c : Dev nD) : Valuation τ sig (Elt F) := after opsR5 (U5 m c)
abbrev U7 (m : (ℓ : Loc nD τ sig) → Buf (Elt F) ℓ) (c : Dev nD) : Valuation τ sig (Elt F) := after opsR6 (U6 m c)
abbrev U8 (m : (ℓ : Loc nD τ sig) → Buf (Elt F) ℓ) (c : Dev nD) : Valuation τ sig (Elt F) := after opsR7 (U7 m c)
abbrev U9 (m : (ℓ : Loc nD τ sig) → Buf (Elt F) ℓ) (c : Dev nD) : Valuation τ sig (Elt F) := after opsR8 (U8 m c)
abbrev U10 (m : (ℓ : Loc nD τ sig) → Buf (Elt F) ℓ) (c : Dev nD) : Valuation τ sig (Elt F) := after opsR9 (U9 m c)
abbrev U11 (m : (ℓ : Loc nD τ sig) → Buf (Elt F) ℓ) (c : Dev nD) : Valuation τ sig (Elt F) := after opsR10 (U10 m c)
abbrev U12 (m : (ℓ : Loc nD τ sig) → Buf (Elt F) ℓ) (c : Dev nD) : Valuation τ sig (Elt F) := after opsR11 (U11 m c)
abbrev U13 (m : (ℓ : Loc nD τ sig) → Buf (Elt F) ℓ) (c : Dev nD) : Valuation τ sig (Elt F) := after opsR12 (U12 m c)
abbrev U14 (m : (ℓ : Loc nD τ sig) → Buf (Elt F) ℓ) (c : Dev nD) : Valuation τ sig (Elt F) := after opsR13 (U13 m c)
abbrev U15 (m : (ℓ : Loc nD τ sig) → Buf (Elt F) ℓ) (c : Dev nD) : Valuation τ sig (Elt F) := after opsR14 (U14 m c)
/-- Device `c`'s buffer contents after the whole line. -/
abbrev U16 (m : (ℓ : Loc nD τ sig) → Buf (Elt F) ℓ) (c : Dev nD) : Valuation τ sig (Elt F) := after opsR15 (U15 m c)

/-- The fold of the whole line from the launch contents is the last of them. -/
theorem after_opsAll (m : (ℓ : Loc nD τ sig) → Buf (Elt F) ℓ) (c : Dev nD) : after opsAll (launchContents m c) = U16 m c :=
  after_append16 opsR0 opsR1 opsR2 opsR3 opsR4 opsR5 opsR6 opsR7 opsR8 opsR9 opsR10 opsR11 opsR12 opsR13 opsR14 opsR15
    (launchContents m c)

/-! ## What a stretch does not write it keeps -/

theorem U1_keep (m : (ℓ : Loc nD τ sig) → Buf (Elt F) ℓ) (c : Dev nD) (r : Ref sig .tc) (h : r ∉ opsR0_W) :
    U1 m c (Proc.devRef .tc r) = U0 m c (Proc.devRef .tc r) := after_of_writes_sub opsR0 _ opsR0_writes h
theorem U2_keep (m : (ℓ : Loc nD τ sig) → Buf (Elt F) ℓ) (c : Dev nD) (r : Ref sig .tc) (h : r ∉ opsR1_W) :
    U2 m c (Proc.devRef .tc r) = U1 m c (Proc.devRef .tc r) := after_of_writes_sub opsR1 _ opsR1_writes h
theorem U3_keep (m : (ℓ : Loc nD τ sig) → Buf (Elt F) ℓ) (c : Dev nD) (r : Ref sig .tc) (h : r ∉ opsR2_W) :
    U3 m c (Proc.devRef .tc r) = U2 m c (Proc.devRef .tc r) := after_of_writes_sub opsR2 _ opsR2_writes h
theorem U4_keep (m : (ℓ : Loc nD τ sig) → Buf (Elt F) ℓ) (c : Dev nD) (r : Ref sig .tc) (h : r ∉ opsR3_W) :
    U4 m c (Proc.devRef .tc r) = U3 m c (Proc.devRef .tc r) := after_of_writes_sub opsR3 _ opsR3_writes h
theorem U5_keep (m : (ℓ : Loc nD τ sig) → Buf (Elt F) ℓ) (c : Dev nD) (r : Ref sig .tc) (h : r ∉ opsR4_W) :
    U5 m c (Proc.devRef .tc r) = U4 m c (Proc.devRef .tc r) := after_of_writes_sub opsR4 _ opsR4_writes h
theorem U6_keep (m : (ℓ : Loc nD τ sig) → Buf (Elt F) ℓ) (c : Dev nD) (r : Ref sig .tc) (h : r ∉ opsR5_W) :
    U6 m c (Proc.devRef .tc r) = U5 m c (Proc.devRef .tc r) := after_of_writes_sub opsR5 _ opsR5_writes h
theorem U7_keep (m : (ℓ : Loc nD τ sig) → Buf (Elt F) ℓ) (c : Dev nD) (r : Ref sig .tc) (h : r ∉ opsR6_W) :
    U7 m c (Proc.devRef .tc r) = U6 m c (Proc.devRef .tc r) := after_of_writes_sub opsR6 _ opsR6_writes h
theorem U8_keep (m : (ℓ : Loc nD τ sig) → Buf (Elt F) ℓ) (c : Dev nD) (r : Ref sig .tc) (h : r ∉ opsR7_W) :
    U8 m c (Proc.devRef .tc r) = U7 m c (Proc.devRef .tc r) := after_of_writes_sub opsR7 _ opsR7_writes h
theorem U9_keep (m : (ℓ : Loc nD τ sig) → Buf (Elt F) ℓ) (c : Dev nD) (r : Ref sig .tc) (h : r ∉ opsR8_W) :
    U9 m c (Proc.devRef .tc r) = U8 m c (Proc.devRef .tc r) := after_of_writes_sub opsR8 _ opsR8_writes h
theorem U10_keep (m : (ℓ : Loc nD τ sig) → Buf (Elt F) ℓ) (c : Dev nD) (r : Ref sig .tc) (h : r ∉ opsR9_W) :
    U10 m c (Proc.devRef .tc r) = U9 m c (Proc.devRef .tc r) := after_of_writes_sub opsR9 _ opsR9_writes h
theorem U11_keep (m : (ℓ : Loc nD τ sig) → Buf (Elt F) ℓ) (c : Dev nD) (r : Ref sig .tc) (h : r ∉ opsR10_W) :
    U11 m c (Proc.devRef .tc r) = U10 m c (Proc.devRef .tc r) := after_of_writes_sub opsR10 _ opsR10_writes h
theorem U12_keep (m : (ℓ : Loc nD τ sig) → Buf (Elt F) ℓ) (c : Dev nD) (r : Ref sig .tc) (h : r ∉ opsR11_W) :
    U12 m c (Proc.devRef .tc r) = U11 m c (Proc.devRef .tc r) := after_of_writes_sub opsR11 _ opsR11_writes h
theorem U13_keep (m : (ℓ : Loc nD τ sig) → Buf (Elt F) ℓ) (c : Dev nD) (r : Ref sig .tc) (h : r ∉ opsR12_W) :
    U13 m c (Proc.devRef .tc r) = U12 m c (Proc.devRef .tc r) := after_of_writes_sub opsR12 _ opsR12_writes h
theorem U14_keep (m : (ℓ : Loc nD τ sig) → Buf (Elt F) ℓ) (c : Dev nD) (r : Ref sig .tc) (h : r ∉ opsR13_W) :
    U14 m c (Proc.devRef .tc r) = U13 m c (Proc.devRef .tc r) := after_of_writes_sub opsR13 _ opsR13_writes h
theorem U15_keep (m : (ℓ : Loc nD τ sig) → Buf (Elt F) ℓ) (c : Dev nD) (r : Ref sig .tc) (h : r ∉ opsR14_W) :
    U15 m c (Proc.devRef .tc r) = U14 m c (Proc.devRef .tc r) := after_of_writes_sub opsR14 _ opsR14_writes h
theorem U16_keep (m : (ℓ : Loc nD τ sig) → Buf (Elt F) ℓ) (c : Dev nD) (r : Ref sig .tc) (h : r ∉ opsR15_W) :
    U16 m c (Proc.devRef .tc r) = U15 m c (Proc.devRef .tc r) := after_of_writes_sub opsR15 _ opsR15_writes h

/-- A buffer that no stretch writes holds after the whole line what the launch dealt it: the sixteen keep lemmas in a row. -/
theorem U16_unwritten (m : (ℓ : Loc nD τ sig) → Buf (Elt F) ℓ) (c : Dev nD) (r : Ref sig .tc)
    (h0 : r ∉ opsR0_W) (h1 : r ∉ opsR1_W) (h2 : r ∉ opsR2_W) (h3 : r ∉ opsR3_W) (h4 : r ∉ opsR4_W) (h5 : r ∉ opsR5_W)
    (h6 : r ∉ opsR6_W) (h7 : r ∉ opsR7_W) (h8 : r ∉ opsR8_W) (h9 : r ∉ opsR9_W) (h10 : r ∉ opsR10_W) (h11 : r ∉ opsR11_W)
    (h12 : r ∉ opsR12_W) (h13 : r ∉ opsR13_W) (h14 : r ∉ opsR14_W) (h15 : r ∉ opsR15_W) :
    U16 m c (Proc.devRef .tc r) = m ((c.tc : Thread nD τ).loc r) :=
  calc U16 m c (Proc.devRef .tc r)
    _ = U15 m c (Proc.devRef .tc r) := U16_keep m c r h15
    _ = U14 m c (Proc.devRef .tc r) := U15_keep m c r h14
    _ = U13 m c (Proc.devRef .tc r) := U14_keep m c r h13
    _ = U12 m c (Proc.devRef .tc r) := U13_keep m c r h12
    _ = U11 m c (Proc.devRef .tc r) := U12_keep m c r h11
    _ = U10 m c (Proc.devRef .tc r) := U11_keep m c r h10
    _ = U9 m c (Proc.devRef .tc r) := U10_keep m c r h9
    _ = U8 m c (Proc.devRef .tc r) := U9_keep m c r h8
    _ = U7 m c (Proc.devRef .tc r) := U8_keep m c r h7
    _ = U6 m c (Proc.devRef .tc r) := U7_keep m c r h6
    _ = U5 m c (Proc.devRef .tc r) := U6_keep m c r h5
    _ = U4 m c (Proc.devRef .tc r) := U5_keep m c r h4
    _ = U3 m c (Proc.devRef .tc r) := U4_keep m c r h3
    _ = U2 m c (Proc.devRef .tc r) := U3_keep m c r h2
    _ = U1 m c (Proc.devRef .tc r) := U2_keep m c r h1
    _ = U0 m c (Proc.devRef .tc r) := U1_keep m c r h0
    _ = m ((c.tc : Thread nD τ).loc r) := rfl

/-! ## No stretch writes an argument -/

theorem U16_arg0 (m : (ℓ : Loc nD τ sig) → Buf (Elt F) ℓ) (c : Dev nD) : U16 m c (Proc.devRef .tc main_arg0) = m ((c.tc : Thread nD τ).loc main_arg0) :=
  U16_unwritten m c main_arg0 (by decide) (by decide) (by decide) (by decide) (by decide) (by decide) (by decide) (by decide)
    (by decide) (by decide) (by decide) (by decide) (by decide) (by decide) (by decide) (by decide)
theorem U16_arg1 (m : (ℓ : Loc nD τ sig) → Buf (Elt F) ℓ) (c : Dev nD) : U16 m c (Proc.devRef .tc main_arg1) = m ((c.tc : Thread nD τ).loc main_arg1) :=
  U16_unwritten m c main_arg1 (by decide) (by decide) (by decide) (by decide) (by decide) (by decide) (by decide) (by decide)
    (by decide) (by decide) (by decide) (by decide) (by decide) (by decide) (by decide) (by decide)
theorem U16_arg2 (m : (ℓ : Loc nD τ sig) → Buf (Elt F) ℓ) (c : Dev nD) : U16 m c (Proc.devRef .tc main_arg2) = m ((c.tc : Thread nD τ).loc main_arg2) :=
  U16_unwritten m c main_arg2 (by decide) (by decide) (by decide) (by decide) (by decide) (by decide) (by decide) (by decide)
    (by decide) (by decide) (by decide) (by decide) (by decide) (by decide) (by decide) (by decide)
theorem U16_arg3 (m : (ℓ : Loc nD τ sig) → Buf (Elt F) ℓ) (c : Dev nD) : U16 m c (Proc.devRef .tc main_arg3) = m ((c.tc : Thread nD τ).loc main_arg3) :=
  U16_unwritten m c main_arg3 (by decide) (by decide) (by decide) (by decide) (by decide) (by decide) (by decide) (by decide)
    (by decide) (by decide) (by decide) (by decide) (by decide) (by decide) (by decide) (by decide)
theorem U16_arg4 (m : (ℓ : Loc nD τ sig) → Buf (Elt F) ℓ) (c : Dev nD) : U16 m c (Proc.devRef .tc main_arg4) = m ((c.tc : Thread nD τ).loc main_arg4) :=
  U16_unwritten m c main_arg4 (by decide) (by decide) (by decide) (by decide) (by decide) (by decide) (by decide) (by decide)
    (by decide) (by decide) (by decide) (by decide) (by decide) (by decide) (by decide) (by decide)
theorem U16_arg5 (m : (ℓ : Loc nD τ sig) → Buf (Elt F) ℓ) (c : Dev nD) : U16 m c (Proc.devRef .tc main_arg5) = m ((c.tc : Thread nD τ).loc main_arg5) :=
  U16_unwritten m c main_arg5 (by decide) (by decide) (by decide) (by decide) (by decide) (by decide) (by decide) (by decide)
    (by decide) (by decide) (by decide) (by decide) (by decide) (by decide) (by decide) (by decide)
theorem U16_arg6 (m : (ℓ : Loc nD τ sig) → Buf (Elt F) ℓ) (c : Dev nD) : U16 m c (Proc.devRef .tc main_arg6) = m ((c.tc : Thread nD τ).loc main_arg6) :=
  U16_unwritten m c main_arg6 (by decide) (by decide) (by decide) (by decide) (by decide) (by decide) (by decide) (by decide)
    (by decide) (by decide) (by decide) (by decide) (by decide) (by decide) (by decide) (by decide)
theorem U16_arg7 (m : (ℓ : Loc nD τ sig) → Buf (Elt F) ℓ) (c : Dev nD) : U16 m c (Proc.devRef .tc main_arg7) = m ((c.tc : Thread nD τ).loc main_arg7) :=
  U16_unwritten m c main_arg7 (by decide) (by decide) (by decide) (by decide) (by decide) (by decide) (by decide) (by decide)
    (by decide) (by decide) (by decide) (by decide) (by decide) (by decide) (by decide) (by decide)
theorem U16_arg8 (m : (ℓ : Loc nD τ sig) → Buf (Elt F) ℓ) (c : Dev nD) : U16 m c (Proc.devRef .tc main_arg8) = m ((c.tc : Thread nD τ).loc main_arg8) :=
  U16_unwritten m c main_arg8 (by decide) (by decide) (by decide) (by decide) (by decide) (by decide) (by decide) (by decide)
    (by decide) (by decide) (by decide) (by decide) (by decide) (by decide) (by decide) (by decide)
theorem U16_arg9 (m : (ℓ : Loc nD τ sig) → Buf (Elt F) ℓ) (c : Dev nD) : U16 m c (Proc.devRef .tc main_arg9) = m ((c.tc : Thread nD τ).loc main_arg9) :=
  U16_unwritten m c main_arg9 (by decide) (by decide) (by decide) (by decide) (by decide) (by decide) (by decide) (by decide)
    (by decide) (by decide) (by decide) (by decide) (by decide) (by decide) (by decide) (by decide)

/-! ## The run -/

/-- On every device, for any float values, from any memory with zero counters: every weakly fair execution of @main
    terminates with every TensorCore buffer at the fold of the whole line over the launch contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc),
        r.2.mem ((c.tc : Thread nD τ).loc b) = after opsAll (launchContents m c) (Proc.devRef .tc b) :=
  run_seq scopedRefs_eq scopedSems_eq defs main (fun _ => opsAll) main_eq (fun _ => opsAll_sub) m ρ (fun _ => opsAll_fresh)

/-- The same, read at the result and the arguments: the result buffer ends at the sixteenth fold, each argument as
    launched. -/
theorem run_fold (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v489) = U16 m c (Proc.devRef .tc main_v489)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
      have e : ∀ b : Ref sig .tc, after opsAll (launchContents m c) (Proc.devRef .tc b) = U16 m c (Proc.devRef .tc b) :=
        fun b => congrFun (after_opsAll m c) _
      ⟨(h c main_v489).trans (e _),
       (h c main_arg0).trans ((e _).trans (U16_arg0 m c)),
       (h c main_arg1).trans ((e _).trans (U16_arg1 m c)),
       (h c main_arg2).trans ((e _).trans (U16_arg2 m c)),
       (h c main_arg3).trans ((e _).trans (U16_arg3 m c)),
       (h c main_arg4).trans ((e _).trans (U16_arg4 m c)),
       (h c main_arg5).trans ((e _).trans (U16_arg5 m c)),
       (h c main_arg6).trans ((e _).trans (U16_arg6 m c)),
       (h c main_arg7).trans ((e _).trans (U16_arg7 m c)),
       (h c main_arg8).trans ((e _).trans (U16_arg8 m c)),
       (h c main_arg9).trans ((e _).trans (U16_arg9 m c))⟩)
    (run_all m ρ)

end Cert.ReferenceIdeal.RunP

end
-- ==== Proof.Spec.Rel0.lean ====
/-
  Relation 0 of the graph: 1600000 edges.  The edge list's two rows as index columns, the rows of the node features gathered at
  the edges' sources, and the messages summed at the edges' destinations — each named as the host operations that compute it.
-/
import proofs.«147434_j38603166057109_1_alg».proof.Proof.Gen.KernelIdeal

noncomputable section

namespace Cert.KernelIdeal.Spec

open Idealize.ShloMosaic Cert.KernelIdeal Cert.KernelIdeal.Gen

variable {F : FTy → Type} [FloatOps F]

/-- The source endpoints (row 0 of the edge list) as a column of gather indices; a negative entry is wrapped by the
    node count, as jnp indexing does. -/
def src0 (e : Vec F S2x1600000 .i32) : Vec F S1600000x1 .i32 :=
  broadcastInDim S1600000x1 ![0] bcast_S1600000_S1600000x1_0
    (select
      (cmpi .slt (shapeCast S1600000 (extractStridedSlice S1x1600000 ![0, 0] e slices_S2x1600000_S1x1600000_0_0) shapeCasts_S1x1600000_S1600000)
        (broadcastInDim S1600000 ![] bcast_S_S1600000 (constantI S_ 32 0#32)))
      (addi (shapeCast S1600000 (extractStridedSlice S1x1600000 ![0, 0] e slices_S2x1600000_S1x1600000_0_0) shapeCasts_S1x1600000_S1600000)
        (broadcastInDim S1600000 ![] bcast_S_S1600000 (constantI S_ 32 100000#32)))
      (shapeCast S1600000 (extractStridedSlice S1x1600000 ![0, 0] e slices_S2x1600000_S1x1600000_0_0) shapeCasts_S1x1600000_S1600000))

/-- The destination endpoints (row 1 of the edge list) as a column of scatter indices. -/
def dst0 (e : Vec F S2x1600000 .i32) : Vec F S1600000x1 .i32 :=
  broadcastInDim S1600000x1 ![0] bcast_S1600000_S1600000x1_0
    (shapeCast S1600000 (extractStridedSlice S1x1600000 ![1, 0] e slices_S2x1600000_S1x1600000_1_0) shapeCasts_S1x1600000_S1600000)

/-- Per node, the sum of the messages of the edges that end there. -/
def scat0 (msg : Vec F S1600000x32 .f32) (d : Vec F S1600000x1 .i32) : Vec F S100000x32 .f32 :=
  Host.scatterAdd scatter_S100000x32_S1600000x1_S1600000x32_1_0_0_1
    (broadcastInDim S100000x32 ![] bcast_S_S100000x32 (constant S_ .f32 0x00000000#32)) d msg

/-- The rows of the six-feature input at the source endpoints. -/
def gath6_0 (x : Vec F S100000x6 .f32) (e : Vec F S2x1600000 .i32) : Vec F S1600000x6 .f32 :=
  Host.gather gather_S100000x6_S1600000x1_S1600000x6_1_0_n_n_0_1_16 x (src0 e)

/-- The rows of the hidden features at the source endpoints. -/
def gath32_0 (h : Vec F S100000x32 .f32) (e : Vec F S2x1600000 .i32) : Vec F S1600000x32 .f32 :=
  Host.gather gather_S100000x32_S1600000x1_S1600000x32_1_0_n_n_0_1_132 h (src0 e)

end Cert.KernelIdeal.Spec

end
-- ==== Proof.Spec.Rel1.lean ====
/-
  Relation 1 of the graph: 200000 edges.  The edge list's two rows as index columns, the rows of the node features gathered at
  the edges' sources, and the messages summed at the edges' destinations — each named as the host operations that compute it.
-/
import proofs.«147434_j38603166057109_1_alg».proof.Proof.Gen.KernelIdeal

noncomputable section

namespace Cert.KernelIdeal.Spec

open Idealize.ShloMosaic Cert.KernelIdeal Cert.KernelIdeal.Gen

variable {F : FTy → Type} [FloatOps F]

/-- The source endpoints (row 0 of the edge list) as a column of gather indices; a negative entry is wrapped by the
    node count, as jnp indexing does. -/
def src1 (e : Vec F S2x200000 .i32) : Vec F S200000x1 .i32 :=
  broadcastInDim S200000x1 ![0] bcast_S200000_S200000x1_0
    (select
      (cmpi .slt (shapeCast S200000 (extractStridedSlice S1x200000 ![0, 0] e slices_S2x200000_S1x200000_0_0) shapeCasts_S1x200000_S200000)
        (broadcastInDim S200000 ![] bcast_S_S200000 (constantI S_ 32 0#32)))
      (addi (shapeCast S200000 (extractStridedSlice S1x200000 ![0, 0] e slices_S2x200000_S1x200000_0_0) shapeCasts_S1x200000_S200000)
        (broadcastInDim S200000 ![] bcast_S_S200000 (constantI S_ 32 100000#32)))
      (shapeCast S200000 (extractStridedSlice S1x200000 ![0, 0] e slices_S2x200000_S1x200000_0_0) shapeCasts_S1x200000_S200000))

/-- The destination endpoints (row 1 of the edge list) as a column of scatter indices. -/
def dst1 (e : Vec F S2x200000 .i32) : Vec F S200000x1 .i32 :=
  broadcastInDim S200000x1 ![0] bcast_S200000_S200000x1_0
    (shapeCast S200000 (extractStridedSlice S1x200000 ![1, 0] e slices_S2x200000_S1x200000_1_0) shapeCasts_S1x200000_S200000)

/-- Per node, the sum of the messages of the edges that end there. -/
def scat1 (msg : Vec F S200000x32 .f32) (d : Vec F S200000x1 .i32) : Vec F S100000x32 .f32 :=
  Host.scatterAdd scatter_S100000x32_S200000x1_S200000x32_1_0_0_1
    (broadcastInDim S100000x32 ![] bcast_S_S100000x32 (constant S_ .f32 0x00000000#32)) d msg

/-- The rows of the six-feature input at the source endpoints. -/
def gath6_1 (x : Vec F S100000x6 .f32) (e : Vec F S2x200000 .i32) : Vec F S200000x6 .f32 :=
  Host.gather gather_S100000x6_S200000x1_S200000x6_1_0_n_n_0_1_16 x (src1 e)

/-- The rows of the hidden features at the source endpoints. -/
def gath32_1 (h : Vec F S100000x32 .f32) (e : Vec F S2x200000 .i32) : Vec F S200000x32 .f32 :=
  Host.gather gather_S100000x32_S200000x1_S200000x32_1_0_n_n_0_1_132 h (src1 e)

end Cert.KernelIdeal.Spec

end
-- ==== Proof.Spec.Rel2.lean ====
/-
  Relation 2 of the graph: 800000 edges.  The edge list's two rows as index columns, the rows of the node features gathered at
  the edges' sources, and the messages summed at the edges' destinations — each named as the host operations that compute it.
-/
import proofs.«147434_j38603166057109_1_alg».proof.Proof.Gen.KernelIdeal

noncomputable section

namespace Cert.KernelIdeal.Spec

open Idealize.ShloMosaic Cert.KernelIdeal Cert.KernelIdeal.Gen

variable {F : FTy → Type} [FloatOps F]

/-- The source endpoints (row 0 of the edge list) as a column of gather indices; a negative entry is wrapped by the
    node count, as jnp indexing does. -/
def src2 (e : Vec F S2x800000 .i32) : Vec F S800000x1 .i32 :=
  broadcastInDim S800000x1 ![0] bcast_S800000_S800000x1_0
    (select
      (cmpi .slt (shapeCast S800000 (extractStridedSlice S1x800000 ![0, 0] e slices_S2x800000_S1x800000_0_0) shapeCasts_S1x800000_S800000)
        (broadcastInDim S800000 ![] bcast_S_S800000 (constantI S_ 32 0#32)))
      (addi (shapeCast S800000 (extractStridedSlice S1x800000 ![0, 0] e slices_S2x800000_S1x800000_0_0) shapeCasts_S1x800000_S800000)
        (broadcastInDim S800000 ![] bcast_S_S800000 (constantI S_ 32 100000#32)))
      (shapeCast S800000 (extractStridedSlice S1x800000 ![0, 0] e slices_S2x800000_S1x800000_0_0) shapeCasts_S1x800000_S800000))

/-- The destination endpoints (row 1 of the edge list) as a column of scatter indices. -/
def dst2 (e : Vec F S2x800000 .i32) : Vec F S800000x1 .i32 :=
  broadcastInDim S800000x1 ![0] bcast_S800000_S800000x1_0
    (shapeCast S800000 (extractStridedSlice S1x800000 ![1, 0] e slices_S2x800000_S1x800000_1_0) shapeCasts_S1x800000_S800000)

/-- Per node, the sum of the messages of the edges that end there. -/
def scat2 (msg : Vec F S800000x32 .f32) (d : Vec F S800000x1 .i32) : Vec F S100000x32 .f32 :=
  Host.scatterAdd scatter_S100000x32_S800000x1_S800000x32_1_0_0_1
    (broadcastInDim S100000x32 ![] bcast_S_S100000x32 (constant S_ .f32 0x00000000#32)) d msg

/-- The rows of the six-feature input at the source endpoints. -/
def gath6_2 (x : Vec F S100000x6 .f32) (e : Vec F S2x800000 .i32) : Vec F S800000x6 .f32 :=
  Host.gather gather_S100000x6_S800000x1_S800000x6_1_0_n_n_0_1_16 x (src2 e)

/-- The rows of the hidden features at the source endpoints. -/
def gath32_2 (h : Vec F S100000x32 .f32) (e : Vec F S2x800000 .i32) : Vec F S800000x32 .f32 :=
  Host.gather gather_S100000x32_S800000x1_S800000x32_1_0_n_n_0_1_132 h (src2 e)

end Cert.KernelIdeal.Spec

end
-- ==== Proof.Spec.lean ====
/-
  The mathematics both programs compute, stated once.  A graph network over 100000 nodes with three edge relations: in every
  block each relation gathers the node features at its edges' sources, maps every gathered row through a weight matrix and a
  bias (the edge's message), and sums (relations 0 and 2: averages) the messages at each edge's destination; the block's output
  adds the three aggregates to a self term.  The edge-index columns, the gathers and the sums are host operations both programs
  apply alike (Spec/Rel0 … Rel2); a message, a weight slice and a block's combination are named here by what they hold at an index.
-/
import proofs.«147434_j38603166057109_1_alg».proof.Proof.Spec.Rel0
import proofs.«147434_j38603166057109_1_alg».proof.Proof.Spec.Rel1
import proofs.«147434_j38603166057109_1_alg».proof.Proof.Spec.Rel2
import Idealize.ShloMosaic.Lib.ValueIdx
import Idealize.ShloMosaic.PureOps.Ideal

noncomputable section

open scoped BigOperators

namespace Cert.KernelIdeal.Spec

open Idealize.ShloMosaic Idealize.ShloMosaic.ValueIdx Cert.KernelIdeal Cert.KernelIdeal.Gen

variable {F : FTy → Type} [FloatOps F]

/-! ## The three aggregations -/

/-- Relation 0 averages: the summed messages over the number of incoming edges, that number taken as at least one. -/
def agg0 (msg : Vec F S1600000x32 .f32) (d : Vec F S1600000x1 .i32) : Vec F S100000x32 .f32 :=
  Host.divf (scat0 msg d)
    (broadcastInDim S100000x32 ![0, 1] bcast_S100000x1_S100000x32_0_1
      (maximumf
        (Host.scatterAdd scatter_S100000x1_S1600000x1_S1600000x1_1_0_0_1
          (broadcastInDim S100000x1 ![] bcast_S_S100000x1 (constant S_ .f32 0x00000000#32)) d
          (broadcastInDim S1600000x1 ![] bcast_S_S1600000x1 (constant S_ .f32 0x3F800000#32)))
        (broadcastInDim S100000x1 ![] bcast_S_S100000x1 (constant S_ .f32 0x3F800000#32))))

/-- Relation 1 sums. -/
def agg1 (msg : Vec F S200000x32 .f32) (d : Vec F S200000x1 .i32) : Vec F S100000x32 .f32 := scat1 msg d

/-- Relation 2 averages, as relation 0 does. -/
def agg2 (msg : Vec F S800000x32 .f32) (d : Vec F S800000x1 .i32) : Vec F S100000x32 .f32 :=
  Host.divf (scat2 msg d)
    (broadcastInDim S100000x32 ![0, 1] bcast_S100000x1_S100000x32_0_1
      (maximumf
        (Host.scatterAdd scatter_S100000x1_S800000x1_S800000x1_1_0_0_1
          (broadcastInDim S100000x1 ![] bcast_S_S100000x1 (constant S_ .f32 0x00000000#32)) d
          (broadcastInDim S800000x1 ![] bcast_S_S800000x1 (constant S_ .f32 0x3F800000#32)))
        (broadcastInDim S100000x1 ![] bcast_S_S100000x1 (constant S_ .f32 0x3F800000#32))))
/-! ## Messages, weights and the blocks' combinations at an index (extended reals) -/

/-- Every row of `feat` through the weights, plus the bias: entry (p, q) is Σₖ feat[p, k] · W[k, q] + b[q]. -/
def msg {E D : ℕ} (feat : (⟨2, ![E, D]⟩ : Shape).Idx → EReal) (W : (⟨2, ![D, 32]⟩ : Shape).Idx → EReal)
    (b : (⟨1, ![32]⟩ : Shape).Idx → EReal) : (⟨2, ![E, 32]⟩ : Shape).Idx → EReal :=
  fun i => (∑ k : Fin D, feat (ix2 (i 0) k) * W (ix2 k (i 1))) + b (ix1 (i 1))

/-- The same over a bias kept as a one-row matrix: entry (p, q) is Σₖ X[p, k] · W[k, q] + b₂[0, q]. -/
def mmb {M D : ℕ} (X : (⟨2, ![M, D]⟩ : Shape).Idx → EReal) (W : (⟨2, ![D, 32]⟩ : Shape).Idx → EReal)
    (b2 : (⟨2, ![1, 32]⟩ : Shape).Idx → EReal) : (⟨2, ![M, 32]⟩ : Shape).Idx → EReal :=
  fun i => (∑ k : Fin D, X (ix2 (i 0) k) * W (ix2 k (i 1))) + b2 (ix2 (0 : Fin 1) (i 1))

/-- Every row of `feat` through the weights, no bias. -/
def mm {E D : ℕ} (feat : (⟨2, ![E, D]⟩ : Shape).Idx → EReal) (W : (⟨2, ![D, 32]⟩ : Shape).Idx → EReal) :
    (⟨2, ![E, 32]⟩ : Shape).Idx → EReal :=
  fun i => ∑ k : Fin D, feat (ix2 (i 0) k) * W (ix2 k (i 1))

/-- Relation `r`'s head weights and bias. -/
def wRel (r : Fin 3) (Wm : Vec Ideal S3x6x32 .f32) : (⟨2, ![6, 32]⟩ : Shape).Idx → EReal := fun i => Wm (ix3 r (i 0) (i 1))
def bRel (r : Fin 3) (bm : Vec Ideal S3x32 .f32) : (⟨1, ![32]⟩ : Shape).Idx → EReal := fun i => bm (ix2 r (i 0))
/-- Layer `l`, relation `r`: its weights and bias. -/
def wLay (l : Fin 4) (r : Fin 3) (Wm : Vec Ideal S4x3x32x32 .f32) : (⟨2, ![32, 32]⟩ : Shape).Idx → EReal :=
  fun i => Wm (ix4 l r (i 0) (i 1))
def bLay (l : Fin 4) (r : Fin 3) (bm : Vec Ideal S4x3x32 .f32) : (⟨1, ![32]⟩ : Shape).Idx → EReal := fun i => bm (ix3 l r (i 0))
/-- The self weights and biases summed over the three relations, from zero. -/
def wSum (Ws : Vec Ideal S3x6x32 .f32) : (⟨2, ![6, 32]⟩ : Shape).Idx → EReal :=
  fun i => Ideal.ofBits .f32 0x00000000#32 + ∑ r : Fin 3, Ws (ix3 r (i 0) (i 1))
def bSum (bs : Vec Ideal S3x32 .f32) : (⟨1, ![32]⟩ : Shape).Idx → EReal :=
  fun i => Ideal.ofBits .f32 0x00000000#32 + ∑ r : Fin 3, bs (ix2 r (i 0))

/-- The three relations' aggregates of a block over six-feature rows. -/
def A0_6 (x : Vec Ideal S100000x6 .f32) (e : Vec Ideal S2x1600000 .i32) (W : (⟨2, ![6, 32]⟩ : Shape).Idx → EReal) (b : (⟨1, ![32]⟩ : Shape).Idx → EReal) :
    Vec Ideal S100000x32 .f32 := agg0 (F := Ideal) (msg (gath6_0 (F := Ideal) x e) W b) (dst0 (F := Ideal) e)
def A1_6 (x : Vec Ideal S100000x6 .f32) (e : Vec Ideal S2x200000 .i32) (W : (⟨2, ![6, 32]⟩ : Shape).Idx → EReal) (b : (⟨1, ![32]⟩ : Shape).Idx → EReal) :
    Vec Ideal S100000x32 .f32 := agg1 (F := Ideal) (msg (gath6_1 (F := Ideal) x e) W b) (dst1 (F := Ideal) e)
def A2_6 (x : Vec Ideal S100000x6 .f32) (e : Vec Ideal S2x800000 .i32) (W : (⟨2, ![6, 32]⟩ : Shape).Idx → EReal) (b : (⟨1, ![32]⟩ : Shape).Idx → EReal) :
    Vec Ideal S100000x32 .f32 := agg2 (F := Ideal) (msg (gath6_2 (F := Ideal) x e) W b) (dst2 (F := Ideal) e)
/-- The same over hidden rows. -/
def A0_32 (h : Vec Ideal S100000x32 .f32) (e : Vec Ideal S2x1600000 .i32) (W : (⟨2, ![32, 32]⟩ : Shape).Idx → EReal) (b : (⟨1, ![32]⟩ : Shape).Idx → EReal) :
    Vec Ideal S100000x32 .f32 := agg0 (F := Ideal) (msg (gath32_0 (F := Ideal) h e) W b) (dst0 (F := Ideal) e)
def A1_32 (h : Vec Ideal S100000x32 .f32) (e : Vec Ideal S2x200000 .i32) (W : (⟨2, ![32, 32]⟩ : Shape).Idx → EReal) (b : (⟨1, ![32]⟩ : Shape).Idx → EReal) :
    Vec Ideal S100000x32 .f32 := agg1 (F := Ideal) (msg (gath32_1 (F := Ideal) h e) W b) (dst1 (F := Ideal) e)
def A2_32 (h : Vec Ideal S100000x32 .f32) (e : Vec Ideal S2x800000 .i32) (W : (⟨2, ![32, 32]⟩ : Shape).Idx → EReal) (b : (⟨1, ![32]⟩ : Shape).Idx → EReal) :
    Vec Ideal S100000x32 .f32 := agg2 (F := Ideal) (msg (gath32_2 (F := Ideal) h e) W b) (dst2 (F := Ideal) e)

/-- One kind of combination, over any index set: the three aggregates added left to right, then `s` times the fourth operand. -/
def comb {S : Shape} (s : EReal) (a0 a1 a2 d : S.Idx → EReal) : S.Idx → EReal :=
  fun i => ((a0 i + a1 i) + a2 i) + s * d i
/-- The same with negative entries replaced by zero. -/
def combRelu {S : Shape} (s : EReal) (a0 a1 a2 d : S.Idx → EReal) : S.Idx → EReal :=
  fun i => max (((a0 i + a1 i) + a2 i) + s * d i) (Ideal.ofBits .f32 0x00000000#32)
/-- That combination over the node-by-feature arrays. -/
def combK (s : EReal) (a0 a1 a2 d : Vec Ideal S100000x32 .f32) : Vec Ideal S100000x32 .f32 := comb (S := S100000x32) s a0 a1 a2 d
/-- The other kind: from zero, each aggregate followed by that relation's self term and self bias. -/
def combHeadR (a0 a1 a2 s0 s1 s2 : Vec Ideal S100000x32 .f32) (c0 c1 c2 : (⟨1, ![32]⟩ : Shape).Idx → EReal) : Vec Ideal S100000x32 .f32 :=
  fun i => ((((((((Ideal.ofBits .f32 0x00000000#32 + a0 i) + s0 i) + c0 (ix1 (i 1))) + a1 i) + s1 i) + c1 (ix1 (i 1))) + a2 i) + s2 i) + c2 (ix1 (i 1))
/-- From zero, each aggregate followed by the block's input, and the input once more. -/
def combLayR (a0 a1 a2 h : Vec Ideal S100000x32 .f32) : Vec Ideal S100000x32 .f32 :=
  fun i => ((((((Ideal.ofBits .f32 0x00000000#32 + a0 i) + h i) + a1 i) + h i) + a2 i) + h i) + h i
/-- Negative entries replaced by zero. -/
def relu (v : Vec Ideal S100000x32 .f32) : Vec Ideal S100000x32 .f32 := fun i => max (v i) (Ideal.ofBits .f32 0x00000000#32)

/-- The first 100000 rows of an array padded to 106496 rows (the rows a combination's grid adds are dropped again). -/
def unpadN (a : Vec F S106496x32 .f32) : Vec F S100000x32 .f32 :=
  extractStridedSlice S100000x32 ![0, 0] a slices_S106496x32_S100000x32_0_0

/-- The head block as the kernel arranges it: one self product against the summed self weights. -/
def headK (x : Vec Ideal S100000x6 .f32) (e0 : Vec Ideal S2x1600000 .i32) (e1 : Vec Ideal S2x200000 .i32) (e2 : Vec Ideal S2x800000 .i32)
    (Wm : Vec Ideal S3x6x32 .f32) (bm : Vec Ideal S3x32 .f32) (Ws : Vec Ideal S3x6x32 .f32) (bs : Vec Ideal S3x32 .f32) : Vec Ideal S100000x32 .f32 :=
  combK (Ideal.ofBits .f32 0x3F800000#32) (A0_6 x e0 (wRel 0 Wm) (bRel 0 bm)) (A1_6 x e1 (wRel 1 Wm) (bRel 1 bm)) (A2_6 x e2 (wRel 2 Wm) (bRel 2 bm))
    (msg x (wSum Ws) (bSum bs))
/-- The head block as the reference arranges it: a self product and a self bias per relation. -/
def headR (x : Vec Ideal S100000x6 .f32) (e0 : Vec Ideal S2x1600000 .i32) (e1 : Vec Ideal S2x200000 .i32) (e2 : Vec Ideal S2x800000 .i32)
    (Wm : Vec Ideal S3x6x32 .f32) (bm : Vec Ideal S3x32 .f32) (Ws : Vec Ideal S3x6x32 .f32) (bs : Vec Ideal S3x32 .f32) : Vec Ideal S100000x32 .f32 :=
  combHeadR (A0_6 x e0 (wRel 0 Wm) (bRel 0 bm)) (A1_6 x e1 (wRel 1 Wm) (bRel 1 bm)) (A2_6 x e2 (wRel 2 Wm) (bRel 2 bm))
    (mm x (wRel 0 Ws)) (mm x (wRel 1 Ws)) (mm x (wRel 2 Ws)) (bRel 0 bs) (bRel 1 bs) (bRel 2 bs)
/-- A residual layer as the kernel arranges it: the aggregates plus four times the input. -/
def layK (l : Fin 4) (h : Vec Ideal S100000x32 .f32) (e0 : Vec Ideal S2x1600000 .i32) (e1 : Vec Ideal S2x200000 .i32) (e2 : Vec Ideal S2x800000 .i32)
    (Wm : Vec Ideal S4x3x32x32 .f32) (bm : Vec Ideal S4x3x32 .f32) : Vec Ideal S100000x32 .f32 :=
  combK (Ideal.ofBits .f32 0x40800000#32) (A0_32 h e0 (wLay l 0 Wm) (bLay l 0 bm)) (A1_32 h e1 (wLay l 1 Wm) (bLay l 1 bm)) (A2_32 h e2 (wLay l 2 Wm) (bLay l 2 bm)) h
/-- A residual layer as the reference arranges it. -/
def layR (l : Fin 4) (h : Vec Ideal S100000x32 .f32) (e0 : Vec Ideal S2x1600000 .i32) (e1 : Vec Ideal S2x200000 .i32) (e2 : Vec Ideal S2x800000 .i32)
    (Wm : Vec Ideal S4x3x32x32 .f32) (bm : Vec Ideal S4x3x32 .f32) : Vec Ideal S100000x32 .f32 :=
  combLayR (A0_32 h e0 (wLay l 0 Wm) (bLay l 0 bm)) (A1_32 h e1 (wLay l 1 Wm) (bLay l 1 bm)) (A2_32 h e2 (wLay l 2 Wm) (bLay l 2 bm)) h

end Cert.KernelIdeal.Spec

end
-- ==== Proof.RV.CB4.lean ====
/-
  Combination region 4 of the kernel program, read as a whole.  Its thirteen grid points each take rows 8192·t … 8192·t + 8191
  of four [106496, 32] arrays, add the first three blocks left to right, add the fourth block times the constant the body
  names, and write the sum back to the same rows of the output array.  The thirteen blocks tile the array, so the output
  array ends as that combination of the four whole arrays, index by index.
-/
import proofs.«147434_j38603166057109_1_alg».proof.Proof.Gen.KernelIdeal.Frame
import proofs.«147434_j38603166057109_1_alg».proof.Proof.Spec
import Idealize.ShloMosaic.Lib.Pipeline.Value
import Idealize.ShloMosaic.Lib.ValueIdx

noncomputable section

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store go through the whole block: offsets zero on both axes. -/
theorem zero_off4 : (![0, 0] : Fin 2 → Nat) = fun _ => 0 := funext fun a => by fin_cases a <;> rfl

/-- The body's result at an index of the block: the first three blocks added left to right, plus the constant times the
    fourth (the same-shape casts are identities). -/
theorem pay4_apply (x0 x1 x2 x3 : Vec Ideal S8192x32 .f32) (j : S8192x32.Idx) :
    k4_pay1 x0 x1 x2 x3 j = ((x0 j + x1 j) + x2 j) + Ideal.ofBits .f32 0x3F800000#32 * x3 j := by
  unfold k4_pay1
  simp only [shapeCast_self]
  rfl

/-- The five index maps, decided over the thirteen grid points: every window's block at point t is block (t, 0). -/
theorem idx_facts4 : ∀ t : Fin cfg4.N,
      win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0
    ∧ win4_4.index t (0 : Fin 2) = t.val ∧ win4_4.index t (1 : Fin 2) = 0 :=
  (by decide +kernel : ∀ t : Fin grid4.N, _)

/-- Point t's block of the first input array sits where its block of the output array sits: a block's coordinate is
    block index × block size + the coordinate inside the block, and the two block indices agree. -/
theorem emb4_0 (t : Fin cfg4.N) (j : S8192x32.Idx) :
    ((cfg4.win 0).blk t).view.emb j = ((cfg4.win 4).blk t).view.emb j := by
  obtain ⟨p0, q0, -, -, -, -, -, -, po, qo⟩ := idx_facts4 t
  funext a; apply Fin.ext
  match a with
  | ⟨0, _⟩ => show win4_0.index t (0 : Fin 2) * 8192 + 1 * (j 0).val = win4_4.index t (0 : Fin 2) * 8192 + 1 * (j 0).val; omega
  | ⟨1, _⟩ => show win4_0.index t (1 : Fin 2) * 32 + 1 * (j 1).val = win4_4.index t (1 : Fin 2) * 32 + 1 * (j 1).val; omega

/-- The same for the second input array. -/
theorem emb4_1 (t : Fin cfg4.N) (j : S8192x32.Idx) :
    ((cfg4.win 1).blk t).view.emb j = ((cfg4.win 4).blk t).view.emb j := by
  obtain ⟨-, -, p1, q1, -, -, -, -, po, qo⟩ := idx_facts4 t
  funext a; apply Fin.ext
  match a with
  | ⟨0, _⟩ => show win4_1.index t (0 : Fin 2) * 8192 + 1 * (j 0).val = win4_4.index t (0 : Fin 2) * 8192 + 1 * (j 0).val; omega
  | ⟨1, _⟩ => show win4_1.index t (1 : Fin 2) * 32 + 1 * (j 1).val = win4_4.index t (1 : Fin 2) * 32 + 1 * (j 1).val; omega

/-- The same for the third input array. -/
theorem emb4_2 (t : Fin cfg4.N) (j : S8192x32.Idx) :
    ((cfg4.win 2).blk t).view.emb j = ((cfg4.win 4).blk t).view.emb j := by
  obtain ⟨-, -, -, -, p2, q2, -, -, po, qo⟩ := idx_facts4 t
  funext a; apply Fin.ext
  match a with
  | ⟨0, _⟩ => show win4_2.index t (0 : Fin 2) * 8192 + 1 * (j 0).val = win4_4.index t (0 : Fin 2) * 8192 + 1 * (j 0).val; omega
  | ⟨1, _⟩ => show win4_2.index t (1 : Fin 2) * 32 + 1 * (j 1).val = win4_4.index t (1 : Fin 2) * 32 + 1 * (j 1).val; omega

/-- The same for the fourth input array. -/
theorem emb4_3 (t : Fin cfg4.N) (j : S8192x32.Idx) :
    ((cfg4.win 3).blk t).view.emb j = ((cfg4.win 4).blk t).view.emb j := by
  obtain ⟨-, -, -, -, -, -, p3, q3, po, qo⟩ := idx_facts4 t
  funext a; apply Fin.ext
  match a with
  | ⟨0, _⟩ => show win4_3.index t (0 : Fin 2) * 8192 + 1 * (j 0).val = win4_4.index t (0 : Fin 2) * 8192 + 1 * (j 0).val; omega
  | ⟨1, _⟩ => show win4_3.index t (1 : Fin 2) * 32 + 1 * (j 1).val = win4_4.index t (1 : Fin 2) * 32 + 1 * (j 1).val; omega

/-- The combination at one index: four arrays read at four positions that are all one position. -/
theorem comb_at4 (a0 a1 a2 a3 : Vec Ideal S106496x32 .f32) (e0 e1 e2 e3 e : S106496x32.Idx)
    (h0 : e0 = e) (h1 : e1 = e) (h2 : e2 = e) (h3 : e3 = e) :
    ((a0 e0 + a1 e1) + a2 e2) + Ideal.ofBits .f32 0x3F800000#32 * a3 e3
      = Spec.comb (S := S106496x32) (Ideal.ofBits .f32 0x3F800000#32) a0 a1 a2 a3 e := by
  rw [h0, h1, h2, h3]; rfl

/-- WHAT POINT t WRITES BACK is its block of the combination of the four arrays as the region finds them. -/
theorem flushed4_eq (c : Dev nD) (t : Fin cfg4.N) :
    (dat4 (F := Ideal) V c).flushed 4 t
      = ((cfg4.win 4).blk t).view.read (Elt Ideal)
          (Spec.comb (S := S106496x32) (Ideal.ofBits .f32 0x3F800000#32) (V c (Pipeline.arrRef spec4 0)) (V c (Pipeline.arrRef spec4 1))
            (V c (Pipeline.arrRef spec4 2)) (V c (Pipeline.arrRef spec4 3))) := by
  show (cfg4.win 4).cut (grid4.coords t) ((dat4 V c).after 4 t) = _
  rw [after4_4]
  unfold out4_4
  rw [View.canon_unit_zero zero_off4]
  simp only [View.ld_unit_zero (S := S8192x32) zero_off4]
  funext j
  refine (pay4_apply (iblk4 V c 0 t) (iblk4 V c 1 t) (iblk4 V c 2 t) (iblk4 V c 3 t) j).trans ?_
  exact comb_at4 (V c (Pipeline.arrRef spec4 0)) (V c (Pipeline.arrRef spec4 1)) (V c (Pipeline.arrRef spec4 2)) (V c (Pipeline.arrRef spec4 3))
    _ _ _ _ _ (emb4_0 t j) (emb4_1 t j) (emb4_2 t j) (emb4_3 t j)

/-- An index of the array is in point t's block iff each coordinate is in the block's range on its axis. -/
theorem mem_blk4 (t : Fin cfg4.N) (i : S106496x32.Idx) :
    i ∈ ((cfg4.win 4).blk t).view.set ↔ ∀ a : Fin 2, win4_4.index t a * S8192x32.size a ≤ (i a).val ∧ (i a).val < win4_4.index t a * S8192x32.size a + S8192x32.size a := by
  show i ∈ ((View.whole (Pipeline.arrRef spec4 4)).slice (win4_4.rect t)).set ↔ _
  rw [View.set_slice_whole, Rect.mem_set_unit]
  exact Iff.rfl

/-- THE BLOCKS TILE THE ARRAY: row r lies in the block of point r / 8192 (106496 = 13 · 8192), every column in block 0. -/
theorem cover4 (i : S106496x32.Idx) :
    ∃ t : Fin cfg4.N, (cfg4.win 4).flush t = true ∧ i ∈ ((cfg4.win 4).blk t).view.set := by
  have hi0 : (i 0).val < 106496 := (i 0).isLt
  have hi1 : (i 1).val < 32 := (i 1).isLt
  have hN : cfg4.N = 13 := rfl
  obtain ⟨t, ht⟩ : ∃ t : Fin cfg4.N, t.val = (i 0).val / 8192 := ⟨⟨(i 0).val / 8192, by rw [hN]; omega⟩, rfl⟩
  obtain ⟨-, -, -, -, -, -, -, -, po, qo⟩ := idx_facts4 t
  refine ⟨t, flush4_4 t, ?_⟩
  rw [mem_blk4]
  intro a
  match a with
  | ⟨0, _⟩ => show win4_4.index t (0 : Fin 2) * 8192 ≤ (i 0).val ∧ (i 0).val < win4_4.index t (0 : Fin 2) * 8192 + 8192; omega
  | ⟨1, _⟩ => show win4_4.index t (1 : Fin 2) * 32 ≤ (i 1).val ∧ (i 1).val < win4_4.index t (1 : Fin 2) * 32 + 32; omega

/-- THE OUTPUT ARRAY after the region's write-backs: the combination of the four input arrays as the region finds them. -/
theorem final4 (c : Dev nD) : (Gen.dat4 (F := Ideal) V c).arrAt 4 cfg4.N
    = Spec.comb (S := S106496x32) (Ideal.ofBits .f32 0x3F800000#32) (V c (Pipeline.arrRef spec4 0)) (V c (Pipeline.arrRef spec4 1))
        (V c (Pipeline.arrRef spec4 2)) (V c (Pipeline.arrRef spec4 3)) :=
  (dat4 V c).arrAt_eq_of_cover 4 _ (fun t _ => flushed4_eq V c t) cover4

end Cert.KernelIdeal.RV

end
-- ==== Proof.KOps.lean ====
/-
  The host operations the kernel's program places around its regions, read at an index: what the program hands to a region
  and what it keeps of the region's result, in the terms the two programs' common mathematics is stated in.

  ROWS.
  The rows of a message, as the kernel's program reaches them.  The program pads the E gathered rows with further rows up to a
  whole number of row blocks (M rows), multiplies every one of the M rows by the weights and adds the bias held as a one-row
  matrix, and then keeps the first E rows of the result.  Row p < E of the padded array is row p of the gathered one, entry
  (0, q) of the one-row bias is entry q of the bias, so entry (p, q) of what is kept is Σₖ feat[p, k] · W[k, q] + b[q]: the
  message.  The rows that were added are cut away again, so what they were filled with never enters.

  WEIGHTS.
  The weights as the kernel's program reaches them.  A relation's head weights are plane r of the stacked [3, 6, 32] weights:
  the program cuts the slab [r : r + 1, 0 : 6, 0 : 32] and drops its unit axis, so entry (k, q) is entry (r, k, q) of the stack;
  a relation's head bias is row r of the stacked [3, 32] biases in the same way; a layer's weights and bias are the slab
  [l : l + 1, r : r + 1, …] of the [4, 3, 32, 32] and [4, 3, 32] stacks with both unit axes dropped.  Dropping unit axes keeps
  the row-major position, and a slab's entry is the stack's entry moved by the slab's offsets.  The self weights are the
  stacked self weights summed over the relation axis, starting from zero.

  COMBINATIONS.
  A block's combination, as the kernel's program reaches it.  The program pads each of the four [100000, 32] operands with
  further rows up to 106496 rows, combines the padded arrays entry by entry, and keeps the first 100000 rows of the result.
  An entry-by-entry combination of padded arrays, read at a row below 100000, is the combination of the operands' own entries
  there; the rows that were added are cut away again, so what they were filled with never enters.
-/
import proofs.«147434_j38603166057109_1_alg».proof.Proof.Spec
import Idealize.ShloMosaic.Lib.ValueIdx
import Idealize.ShloMosaic.Lib.IdealHost
import Idealize.ShloMosaic.Lib.Pipeline.Value
import Idealize.ShloMosaic.Lib.KernelVsHost
import Idealize.ShloMosaic.PureOps.Ideal.Laws

noncomputable section

open scoped BigOperators

namespace Cert.KernelIdeal.KOps

open Idealize.ShloMosaic Idealize.ShloMosaic.ValueIdx Cert.KernelIdeal Cert.KernelIdeal.Gen

/-! # Rows: the padded rows are cut away again -/

/-- At any extents: the first E rows of (the E rows padded below to M rows, times W, plus the one-row bias) are the
    message rows Σₖ feat[p, k] · W[k, q] + b[q].  An index of the kept part has row p < E ≤ M; there the padded array
    reads feat[p, ·], whatever fills the added rows. -/
theorem msg_of_padded {E M D : ℕ} (hEM : E ≤ M) (hi : Fin 2 → ℕ)
    (feat : (⟨2, ![E, D]⟩ : Shape).Idx → EReal) (W : (⟨2, ![D, 32]⟩ : Shape).Idx → EReal) (b : Vec Ideal S32 .f32)
    (z : Vec Ideal S_ .f32)
    (hp : (⟨2, ![E, D]⟩ : Shape).Pads (![0, 0] : Fin 2 → ℕ) hi ![0, 0] (⟨2, ![M, D]⟩ : Shape))
    (hs : (⟨2, ![M, 32]⟩ : Shape).Slices ![0, 0] (⟨2, ![E, 32]⟩ : Shape)) :
    extractStridedSlice (⟨2, ![E, 32]⟩ : Shape) ![0, 0]
      (Spec.mmb (pad (⟨2, ![M, D]⟩ : Shape) ![0, 0] hi ![0, 0] feat z hp h_S_) W (shapeCast S1x32 b shapeCasts_S32_S1x32)) hs
      = Spec.msg feat W b := by
  funext i
  have h0 : (i 0).val < E := idx2_lt0 i
  -- the kept entry (p, q) is entry (p, q) of the padded product
  refine (extractStridedSlice_apply _ _ hs i (ix2 (⟨(i 0).val, by omega⟩ : Fin M) (⟨(i 1).val, idx2_lt1 i⟩ : Fin 32))
    (fun a => match a with
      | ⟨0, _⟩ => by show (i 0).val = 0 + (i 0).val; omega
      | ⟨1, _⟩ => by show (i 1).val = 0 + (i 1).val; omega)).trans ?_
  unfold Spec.mmb Spec.msg
  refine congrArg₂ (· + ·) (Finset.sum_congr rfl fun k _ => congrArg₂ (· * ·) ?_ rfl) ?_
  · -- row p of the padded array is row p of feat
    exact pad_apply_of_inside _ _ _ feat z hp h_S_ _ (ix2 (i 0) k)
      (fun a => match a with
        | ⟨0, _⟩ => by show (i 0).val = 0 + (i 0).val * (0 + 1); omega
        | ⟨1, _⟩ => by show k.val = 0 + k.val * (0 + 1); omega)
  · -- entry (0, q) of the bias as a one-row matrix is entry q of the bias
    exact shapeCast_apply b shapeCasts_S32_S1x32 _ (ix1 (i 1))
      (by rw [Shape.rowMajor_val_one, Shape.rowMajor_val_two]; show (i 1).val = 0 * 32 + (i 1).val; omega)

/-! The seven extents the program uses: relation 0 (1600000 edges), relation 1 (200000), relation 2 (800000) over
    six-feature and over hidden rows, and the self term over the 100000 nodes' six-feature rows. -/

theorem msg_1600000_6 (feat : Vec Ideal S1600000x6 .f32) (W : Vec Ideal S6x32 .f32) (b : Vec Ideal S32 .f32) (z : Vec Ideal S_ .f32) :
    extractStridedSlice S1600000x32 ![0, 0]
      (Spec.mmb (pad S1605632x6 ![0, 0] ![5632, 0] ![0, 0] feat z pads_S1600000x6_S1605632x6_056320_000 h_S_) W
        (shapeCast S1x32 b shapeCasts_S32_S1x32)) slices_S1605632x32_S1600000x32_0_0 = Spec.msg feat W b :=
  msg_of_padded (by omega) _ feat W b z pads_S1600000x6_S1605632x6_056320_000 slices_S1605632x32_S1600000x32_0_0

theorem msg_200000_6 (feat : Vec Ideal S200000x6 .f32) (W : Vec Ideal S6x32 .f32) (b : Vec Ideal S32 .f32) (z : Vec Ideal S_ .f32) :
    extractStridedSlice S200000x32 ![0, 0]
      (Spec.mmb (pad S212992x6 ![0, 0] ![12992, 0] ![0, 0] feat z pads_S200000x6_S212992x6_0129920_000 h_S_) W
        (shapeCast S1x32 b shapeCasts_S32_S1x32)) slices_S212992x32_S200000x32_0_0 = Spec.msg feat W b :=
  msg_of_padded (by omega) _ feat W b z pads_S200000x6_S212992x6_0129920_000 slices_S212992x32_S200000x32_0_0

theorem msg_800000_6 (feat : Vec Ideal S800000x6 .f32) (W : Vec Ideal S6x32 .f32) (b : Vec Ideal S32 .f32) (z : Vec Ideal S_ .f32) :
    extractStridedSlice S800000x32 ![0, 0]
      (Spec.mmb (pad S802816x6 ![0, 0] ![2816, 0] ![0, 0] feat z pads_S800000x6_S802816x6_028160_000 h_S_) W
        (shapeCast S1x32 b shapeCasts_S32_S1x32)) slices_S802816x32_S800000x32_0_0 = Spec.msg feat W b :=
  msg_of_padded (by omega) _ feat W b z pads_S800000x6_S802816x6_028160_000 slices_S802816x32_S800000x32_0_0

theorem msg_100000_6 (feat : Vec Ideal S100000x6 .f32) (W : Vec Ideal S6x32 .f32) (b : Vec Ideal S32 .f32) (z : Vec Ideal S_ .f32) :
    extractStridedSlice S100000x32 ![0, 0]
      (Spec.mmb (pad S114688x6 ![0, 0] ![14688, 0] ![0, 0] feat z pads_S100000x6_S114688x6_0146880_000 h_S_) W
        (shapeCast S1x32 b shapeCasts_S32_S1x32)) slices_S114688x32_S100000x32_0_0 = Spec.msg feat W b :=
  msg_of_padded (by omega) _ feat W b z pads_S100000x6_S114688x6_0146880_000 slices_S114688x32_S100000x32_0_0

theorem msg_1600000_32 (feat : Vec Ideal S1600000x32 .f32) (W : Vec Ideal S32x32 .f32) (b : Vec Ideal S32 .f32) (z : Vec Ideal S_ .f32) :
    extractStridedSlice S1600000x32 ![0, 0]
      (Spec.mmb (pad S1605632x32 ![0, 0] ![5632, 0] ![0, 0] feat z pads_S1600000x32_S1605632x32_056320_000 h_S_) W
        (shapeCast S1x32 b shapeCasts_S32_S1x32)) slices_S1605632x32_S1600000x32_0_0 = Spec.msg feat W b :=
  msg_of_padded (by omega) _ feat W b z pads_S1600000x32_S1605632x32_056320_000 slices_S1605632x32_S1600000x32_0_0

theorem msg_200000_32 (feat : Vec Ideal S200000x32 .f32) (W : Vec Ideal S32x32 .f32) (b : Vec Ideal S32 .f32) (z : Vec Ideal S_ .f32) :
    extractStridedSlice S200000x32 ![0, 0]
      (Spec.mmb (pad S212992x32 ![0, 0] ![12992, 0] ![0, 0] feat z pads_S200000x32_S212992x32_0129920_000 h_S_) W
        (shapeCast S1x32 b shapeCasts_S32_S1x32)) slices_S212992x32_S200000x32_0_0 = Spec.msg feat W b :=
  msg_of_padded (by omega) _ feat W b z pads_S200000x32_S212992x32_0129920_000 slices_S212992x32_S200000x32_0_0

theorem msg_800000_32 (feat : Vec Ideal S800000x32 .f32) (W : Vec Ideal S32x32 .f32) (b : Vec Ideal S32 .f32) (z : Vec Ideal S_ .f32) :
    extractStridedSlice S800000x32 ![0, 0]
      (Spec.mmb (pad S802816x32 ![0, 0] ![2816, 0] ![0, 0] feat z pads_S800000x32_S802816x32_028160_000 h_S_) W
        (shapeCast S1x32 b shapeCasts_S32_S1x32)) slices_S802816x32_S800000x32_0_0 = Spec.msg feat W b :=
  msg_of_padded (by omega) _ feat W b z pads_S800000x32_S802816x32_028160_000 slices_S802816x32_S800000x32_0_0

/-! # Weights: a slab of a stack with its unit axes dropped, and a stack summed over its first axis -/

/-! ## A relation's head weights and bias -/

/-- The slab [r : r + 1, 0 : 6, 0 : 32] of the stacked weights, its unit axis dropped, holds at (k, q) the stack's (r, k, q). -/
theorem wRel_of_slab (r : Fin 3) (Wm : Vec Ideal S3x6x32 .f32) (hs : S3x6x32.Slices ![r.val, 0, 0] S1x6x32) :
    shapeCast S6x32 (extractStridedSlice S1x6x32 ![r.val, 0, 0] Wm hs) shapeCasts_S1x6x32_S6x32 = Spec.wRel r Wm := by
  funext i
  -- position 32 k + q of the [6, 32] array is position (0 · 6 + k) · 32 + q of the [1, 6, 32] slab
  refine (shapeCast_apply _ shapeCasts_S1x6x32_S6x32 i
    (ix3 (0 : Fin 1) (⟨(i 0).val, idx2_lt0 i⟩ : Fin 6) (⟨(i 1).val, idx2_lt1 i⟩ : Fin 32))
    (by rw [Shape.rowMajor_val_three, Shape.rowMajor_val_two]
        show (0 * 6 + (i 0).val) * 32 + (i 1).val = (i 0).val * 32 + (i 1).val; omega)).trans ?_
  -- the slab's (0, k, q) is the stack's (r + 0, k, q)
  exact extractStridedSlice_apply _ Wm hs _ (ix3 r (i 0) (i 1))
    (fun a => match a with
      | ⟨0, _⟩ => by show r.val = r.val + 0; omega
      | ⟨1, _⟩ => by show (i 0).val = 0 + (i 0).val; omega
      | ⟨2, _⟩ => by show (i 1).val = 0 + (i 1).val; omega)

/-- The slab [r : r + 1, 0 : 32] of the stacked biases, its unit axis dropped, holds at q the stack's (r, q). -/
theorem bRel_of_slab (r : Fin 3) (bm : Vec Ideal S3x32 .f32) (hs : S3x32.Slices ![r.val, 0] S1x32) :
    shapeCast S32 (extractStridedSlice S1x32 ![r.val, 0] bm hs) shapeCasts_S1x32_S32 = Spec.bRel r bm := by
  funext i
  refine (shapeCast_apply _ shapeCasts_S1x32_S32 i (ix2 (0 : Fin 1) (⟨(i 0).val, (i 0).isLt⟩ : Fin 32))
    (by rw [Shape.rowMajor_val_two, Shape.rowMajor_val_one]
        show 0 * 32 + (i 0).val = (i 0).val; omega)).trans ?_
  exact extractStridedSlice_apply _ bm hs _ (ix2 r (i 0))
    (fun a => match a with
      | ⟨0, _⟩ => by show r.val = r.val + 0; omega
      | ⟨1, _⟩ => by show (i 0).val = 0 + (i 0).val; omega)

theorem wRel_0 (Wm : Vec Ideal S3x6x32 .f32) :
    shapeCast S6x32 (extractStridedSlice S1x6x32 ![0, 0, 0] Wm slices_S3x6x32_S1x6x32_0_0_0) shapeCasts_S1x6x32_S6x32 = Spec.wRel 0 Wm :=
  wRel_of_slab 0 Wm slices_S3x6x32_S1x6x32_0_0_0

theorem wRel_1 (Wm : Vec Ideal S3x6x32 .f32) :
    shapeCast S6x32 (extractStridedSlice S1x6x32 ![1, 0, 0] Wm slices_S3x6x32_S1x6x32_1_0_0) shapeCasts_S1x6x32_S6x32 = Spec.wRel 1 Wm :=
  wRel_of_slab 1 Wm slices_S3x6x32_S1x6x32_1_0_0

theorem wRel_2 (Wm : Vec Ideal S3x6x32 .f32) :
    shapeCast S6x32 (extractStridedSlice S1x6x32 ![2, 0, 0] Wm slices_S3x6x32_S1x6x32_2_0_0) shapeCasts_S1x6x32_S6x32 = Spec.wRel 2 Wm :=
  wRel_of_slab 2 Wm slices_S3x6x32_S1x6x32_2_0_0

theorem bRel_0 (bm : Vec Ideal S3x32 .f32) :
    shapeCast S32 (extractStridedSlice S1x32 ![0, 0] bm slices_S3x32_S1x32_0_0) shapeCasts_S1x32_S32 = Spec.bRel 0 bm :=
  bRel_of_slab 0 bm slices_S3x32_S1x32_0_0

theorem bRel_1 (bm : Vec Ideal S3x32 .f32) :
    shapeCast S32 (extractStridedSlice S1x32 ![1, 0] bm slices_S3x32_S1x32_1_0) shapeCasts_S1x32_S32 = Spec.bRel 1 bm :=
  bRel_of_slab 1 bm slices_S3x32_S1x32_1_0

theorem bRel_2 (bm : Vec Ideal S3x32 .f32) :
    shapeCast S32 (extractStridedSlice S1x32 ![2, 0] bm slices_S3x32_S1x32_2_0) shapeCasts_S1x32_S32 = Spec.bRel 2 bm :=
  bRel_of_slab 2 bm slices_S3x32_S1x32_2_0

/-! ## A layer's weights and bias -/

/-- The slab [l : l + 1, r : r + 1, 0 : 32, 0 : 32] of the stacked layer weights, both unit axes dropped, holds at (k, q)
    the stack's (l, r, k, q). -/
theorem wLay_of_slab (l : Fin 4) (r : Fin 3) (Wm : Vec Ideal S4x3x32x32 .f32)
    (hs : S4x3x32x32.Slices ![l.val, r.val, 0, 0] S1x1x32x32) :
    shapeCast S32x32 (extractStridedSlice S1x1x32x32 ![l.val, r.val, 0, 0] Wm hs) shapeCasts_S1x1x32x32_S32x32 = Spec.wLay l r Wm := by
  funext i
  refine (shapeCast_apply _ shapeCasts_S1x1x32x32_S32x32 i
    (ix4 (0 : Fin 1) (0 : Fin 1) (⟨(i 0).val, idx2_lt0 i⟩ : Fin 32) (⟨(i 1).val, idx2_lt1 i⟩ : Fin 32))
    (by rw [Shape.rowMajor_val_four, Shape.rowMajor_val_two]
        show ((0 * 1 + 0) * 32 + (i 0).val) * 32 + (i 1).val = (i 0).val * 32 + (i 1).val; omega)).trans ?_
  exact extractStridedSlice_apply _ Wm hs _ (ix4 l r (i 0) (i 1))
    (fun a => match a with
      | ⟨0, _⟩ => by show l.val = l.val + 0; omega
      | ⟨1, _⟩ => by show r.val = r.val + 0; omega
      | ⟨2, _⟩ => by show (i 0).val = 0 + (i 0).val; omega
      | ⟨3, _⟩ => by show (i 1).val = 0 + (i 1).val; omega)

/-- The slab [l : l + 1, r : r + 1, 0 : 32] of the stacked layer biases, both unit axes dropped, holds at q the stack's (l, r, q). -/
theorem bLay_of_slab (l : Fin 4) (r : Fin 3) (bm : Vec Ideal S4x3x32 .f32) (hs : S4x3x32.Slices ![l.val, r.val, 0] S1x1x32) :
    shapeCast S32 (extractStridedSlice S1x1x32 ![l.val, r.val, 0] bm hs) shapeCasts_S1x1x32_S32 = Spec.bLay l r bm := by
  funext i
  refine (shapeCast_apply _ shapeCasts_S1x1x32_S32 i (ix3 (0 : Fin 1) (0 : Fin 1) (⟨(i 0).val, (i 0).isLt⟩ : Fin 32))
    (by rw [Shape.rowMajor_val_three, Shape.rowMajor_val_one]
        show (0 * 1 + 0) * 32 + (i 0).val = (i 0).val; omega)).trans ?_
  exact extractStridedSlice_apply _ bm hs _ (ix3 l r (i 0))
    (fun a => match a with
      | ⟨0, _⟩ => by show l.val = l.val + 0; omega
      | ⟨1, _⟩ => by show r.val = r.val + 0; omega
      | ⟨2, _⟩ => by show (i 0).val = 0 + (i 0).val; omega)

theorem wLay_0_0 (Wm : Vec Ideal S4x3x32x32 .f32) :
    shapeCast S32x32 (extractStridedSlice S1x1x32x32 ![0, 0, 0, 0] Wm slices_S4x3x32x32_S1x1x32x32_0_0_0_0) shapeCasts_S1x1x32x32_S32x32
      = Spec.wLay 0 0 Wm :=
  wLay_of_slab 0 0 Wm slices_S4x3x32x32_S1x1x32x32_0_0_0_0

theorem wLay_0_1 (Wm : Vec Ideal S4x3x32x32 .f32) :
    shapeCast S32x32 (extractStridedSlice S1x1x32x32 ![0, 1, 0, 0] Wm slices_S4x3x32x32_S1x1x32x32_0_1_0_0) shapeCasts_S1x1x32x32_S32x32
      = Spec.wLay 0 1 Wm :=
  wLay_of_slab 0 1 Wm slices_S4x3x32x32_S1x1x32x32_0_1_0_0

theorem wLay_0_2 (Wm : Vec Ideal S4x3x32x32 .f32) :
    shapeCast S32x32 (extractStridedSlice S1x1x32x32 ![0, 2, 0, 0] Wm slices_S4x3x32x32_S1x1x32x32_0_2_0_0) shapeCasts_S1x1x32x32_S32x32
      = Spec.wLay 0 2 Wm :=
  wLay_of_slab 0 2 Wm slices_S4x3x32x32_S1x1x32x32_0_2_0_0

theorem wLay_1_0 (Wm : Vec Ideal S4x3x32x32 .f32) :
    shapeCast S32x32 (extractStridedSlice S1x1x32x32 ![1, 0, 0, 0] Wm slices_S4x3x32x32_S1x1x32x32_1_0_0_0) shapeCasts_S1x1x32x32_S32x32
      = Spec.wLay 1 0 Wm :=
  wLay_of_slab 1 0 Wm slices_S4x3x32x32_S1x1x32x32_1_0_0_0

theorem wLay_1_1 (Wm : Vec Ideal S4x3x32x32 .f32) :
    shapeCast S32x32 (extractStridedSlice S1x1x32x32 ![1, 1, 0, 0] Wm slices_S4x3x32x32_S1x1x32x32_1_1_0_0) shapeCasts_S1x1x32x32_S32x32
      = Spec.wLay 1 1 Wm :=
  wLay_of_slab 1 1 Wm slices_S4x3x32x32_S1x1x32x32_1_1_0_0

theorem wLay_1_2 (Wm : Vec Ideal S4x3x32x32 .f32) :
    shapeCast S32x32 (extractStridedSlice S1x1x32x32 ![1, 2, 0, 0] Wm slices_S4x3x32x32_S1x1x32x32_1_2_0_0) shapeCasts_S1x1x32x32_S32x32
      = Spec.wLay 1 2 Wm :=
  wLay_of_slab 1 2 Wm slices_S4x3x32x32_S1x1x32x32_1_2_0_0

theorem wLay_2_0 (Wm : Vec Ideal S4x3x32x32 .f32) :
    shapeCast S32x32 (extractStridedSlice S1x1x32x32 ![2, 0, 0, 0] Wm slices_S4x3x32x32_S1x1x32x32_2_0_0_0) shapeCasts_S1x1x32x32_S32x32
      = Spec.wLay 2 0 Wm :=
  wLay_of_slab 2 0 Wm slices_S4x3x32x32_S1x1x32x32_2_0_0_0

theorem wLay_2_1 (Wm : Vec Ideal S4x3x32x32 .f32) :
    shapeCast S32x32 (extractStridedSlice S1x1x32x32 ![2, 1, 0, 0] Wm slices_S4x3x32x32_S1x1x32x32_2_1_0_0) shapeCasts_S1x1x32x32_S32x32
      = Spec.wLay 2 1 Wm :=
  wLay_of_slab 2 1 Wm slices_S4x3x32x32_S1x1x32x32_2_1_0_0

theorem wLay_2_2 (Wm : Vec Ideal S4x3x32x32 .f32) :
    shapeCast S32x32 (extractStridedSlice S1x1x32x32 ![2, 2, 0, 0] Wm slices_S4x3x32x32_S1x1x32x32_2_2_0_0) shapeCasts_S1x1x32x32_S32x32
      = Spec.wLay 2 2 Wm :=
  wLay_of_slab 2 2 Wm slices_S4x3x32x32_S1x1x32x32_2_2_0_0

theorem wLay_3_0 (Wm : Vec Ideal S4x3x32x32 .f32) :
    shapeCast S32x32 (extractStridedSlice S1x1x32x32 ![3, 0, 0, 0] Wm slices_S4x3x32x32_S1x1x32x32_3_0_0_0) shapeCasts_S1x1x32x32_S32x32
      = Spec.wLay 3 0 Wm :=
  wLay_of_slab 3 0 Wm slices_S4x3x32x32_S1x1x32x32_3_0_0_0

theorem wLay_3_1 (Wm : Vec Ideal S4x3x32x32 .f32) :
    shapeCast S32x32 (extractStridedSlice S1x1x32x32 ![3, 1, 0, 0] Wm slices_S4x3x32x32_S1x1x32x32_3_1_0_0) shapeCasts_S1x1x32x32_S32x32
      = Spec.wLay 3 1 Wm :=
  wLay_of_slab 3 1 Wm slices_S4x3x32x32_S1x1x32x32_3_1_0_0

theorem wLay_3_2 (Wm : Vec Ideal S4x3x32x32 .f32) :
    shapeCast S32x32 (extractStridedSlice S1x1x32x32 ![3, 2, 0, 0] Wm slices_S4x3x32x32_S1x1x32x32_3_2_0_0) shapeCasts_S1x1x32x32_S32x32
      = Spec.wLay 3 2 Wm :=
  wLay_of_slab 3 2 Wm slices_S4x3x32x32_S1x1x32x32_3_2_0_0

theorem bLay_0_0 (bm : Vec Ideal S4x3x32 .f32) :
    shapeCast S32 (extractStridedSlice S1x1x32 ![0, 0, 0] bm slices_S4x3x32_S1x1x32_0_0_0) shapeCasts_S1x1x32_S32 = Spec.bLay 0 0 bm :=
  bLay_of_slab 0 0 bm slices_S4x3x32_S1x1x32_0_0_0

theorem bLay_0_1 (bm : Vec Ideal S4x3x32 .f32) :
    shapeCast S32 (extractStridedSlice S1x1x32 ![0, 1, 0] bm slices_S4x3x32_S1x1x32_0_1_0) shapeCasts_S1x1x32_S32 = Spec.bLay 0 1 bm :=
  bLay_of_slab 0 1 bm slices_S4x3x32_S1x1x32_0_1_0

theorem bLay_0_2 (bm : Vec Ideal S4x3x32 .f32) :
    shapeCast S32 (extractStridedSlice S1x1x32 ![0, 2, 0] bm slices_S4x3x32_S1x1x32_0_2_0) shapeCasts_S1x1x32_S32 = Spec.bLay 0 2 bm :=
  bLay_of_slab 0 2 bm slices_S4x3x32_S1x1x32_0_2_0

theorem bLay_1_0 (bm : Vec Ideal S4x3x32 .f32) :
    shapeCast S32 (extractStridedSlice S1x1x32 ![1, 0, 0] bm slices_S4x3x32_S1x1x32_1_0_0) shapeCasts_S1x1x32_S32 = Spec.bLay 1 0 bm :=
  bLay_of_slab 1 0 bm slices_S4x3x32_S1x1x32_1_0_0

theorem bLay_1_1 (bm : Vec Ideal S4x3x32 .f32) :
    shapeCast S32 (extractStridedSlice S1x1x32 ![1, 1, 0] bm slices_S4x3x32_S1x1x32_1_1_0) shapeCasts_S1x1x32_S32 = Spec.bLay 1 1 bm :=
  bLay_of_slab 1 1 bm slices_S4x3x32_S1x1x32_1_1_0

theorem bLay_1_2 (bm : Vec Ideal S4x3x32 .f32) :
    shapeCast S32 (extractStridedSlice S1x1x32 ![1, 2, 0] bm slices_S4x3x32_S1x1x32_1_2_0) shapeCasts_S1x1x32_S32 = Spec.bLay 1 2 bm :=
  bLay_of_slab 1 2 bm slices_S4x3x32_S1x1x32_1_2_0

theorem bLay_2_0 (bm : Vec Ideal S4x3x32 .f32) :
    shapeCast S32 (extractStridedSlice S1x1x32 ![2, 0, 0] bm slices_S4x3x32_S1x1x32_2_0_0) shapeCasts_S1x1x32_S32 = Spec.bLay 2 0 bm :=
  bLay_of_slab 2 0 bm slices_S4x3x32_S1x1x32_2_0_0

theorem bLay_2_1 (bm : Vec Ideal S4x3x32 .f32) :
    shapeCast S32 (extractStridedSlice S1x1x32 ![2, 1, 0] bm slices_S4x3x32_S1x1x32_2_1_0) shapeCasts_S1x1x32_S32 = Spec.bLay 2 1 bm :=
  bLay_of_slab 2 1 bm slices_S4x3x32_S1x1x32_2_1_0

theorem bLay_2_2 (bm : Vec Ideal S4x3x32 .f32) :
    shapeCast S32 (extractStridedSlice S1x1x32 ![2, 2, 0] bm slices_S4x3x32_S1x1x32_2_2_0) shapeCasts_S1x1x32_S32 = Spec.bLay 2 2 bm :=
  bLay_of_slab 2 2 bm slices_S4x3x32_S1x1x32_2_2_0

theorem bLay_3_0 (bm : Vec Ideal S4x3x32 .f32) :
    shapeCast S32 (extractStridedSlice S1x1x32 ![3, 0, 0] bm slices_S4x3x32_S1x1x32_3_0_0) shapeCasts_S1x1x32_S32 = Spec.bLay 3 0 bm :=
  bLay_of_slab 3 0 bm slices_S4x3x32_S1x1x32_3_0_0

theorem bLay_3_1 (bm : Vec Ideal S4x3x32 .f32) :
    shapeCast S32 (extractStridedSlice S1x1x32 ![3, 1, 0] bm slices_S4x3x32_S1x1x32_3_1_0) shapeCasts_S1x1x32_S32 = Spec.bLay 3 1 bm :=
  bLay_of_slab 3 1 bm slices_S4x3x32_S1x1x32_3_1_0

theorem bLay_3_2 (bm : Vec Ideal S4x3x32 .f32) :
    shapeCast S32 (extractStridedSlice S1x1x32 ![3, 2, 0] bm slices_S4x3x32_S1x1x32_3_2_0) shapeCasts_S1x1x32_S32 = Spec.bLay 3 2 bm :=
  bLay_of_slab 3 2 bm slices_S4x3x32_S1x1x32_3_2_0

/-! ## The self weights: the stack summed over the relation axis -/

/-- The host's sum of the [3, 6, 32] stack over its first axis from the constant zero is, at (k, q), zero plus Σᵣ Ws[r, k, q]. -/
theorem wSum_eq (Ws : Vec Ideal S3x6x32 .f32) :
    Host.reduceAdd Ws (constant (F := Ideal) S_ .f32 0x00000000#32) reducesTo_S3x6x32_S6x32_d0 h_S_ = Spec.wSum Ws := by
  funext i
  have hR : S3x6x32.Reduces [0] S6x32 := by decide
  refine (hostReduceAdd_apply Ws _ reducesTo_S3x6x32_S6x32_d0 h_S_ i).trans ?_
  refine (Ideal.hostReduceAdd_single reducesTo_S3x6x32_S6x32_d0 hR Ws _ i).trans ?_
  unfold Spec.wSum
  -- the index with r put back on the summed axis is (r, k, q)
  refine congrArg₂ (· + ·) rfl (Finset.sum_congr rfl fun k _ => congrArg Ws ?_)
  funext a
  match a with
  | ⟨0, _⟩ => rfl
  | ⟨1, _⟩ => rfl
  | ⟨2, _⟩ => rfl

/-- The host's sum of the [3, 32] stack over its first axis from the constant zero is, at q, zero plus Σᵣ bs[r, q]. -/
theorem bSum_eq (bs : Vec Ideal S3x32 .f32) :
    Host.reduceAdd bs (constant (F := Ideal) S_ .f32 0x00000000#32) reducesTo_S3x32_S32_d0 h_S_ = Spec.bSum bs := by
  funext i
  have hR : S3x32.Reduces [0] S32 := by decide
  refine (hostReduceAdd_apply bs _ reducesTo_S3x32_S32_d0 h_S_ i).trans ?_
  refine (Ideal.hostReduceAdd_single reducesTo_S3x32_S32_d0 hR bs _ i).trans ?_
  unfold Spec.bSum
  refine congrArg₂ (· + ·) rfl (Finset.sum_congr rfl fun k _ => congrArg bs ?_)
  funext a
  match a with
  | ⟨0, _⟩ => rfl
  | ⟨1, _⟩ => rfl

/-! # Combinations: padded, combined entry by entry, cut back -/

/-- A row below 100000 of an array padded to 106496 rows is the array's own row. -/
theorem pad_row (a : Vec Ideal S100000x32 .f32) (z : Vec Ideal S_ .f32) (i : S100000x32.Idx) (h0 : (i 0).val < 106496) :
    pad S106496x32 ![0, 0] ![6496, 0] ![0, 0] a z pads_S100000x32_S106496x32_064960_000 h_S_
      (ix2 (⟨(i 0).val, h0⟩ : Fin 106496) (⟨(i 1).val, idx2_lt1 i⟩ : Fin 32)) = a i :=
  pad_apply_of_inside _ _ _ a z pads_S100000x32_S106496x32_064960_000 h_S_ _ i
    (fun b => match b with
      | ⟨0, _⟩ => by show (i 0).val = 0 + (i 0).val * (0 + 1); omega
      | ⟨1, _⟩ => by show (i 1).val = 0 + (i 1).val * (0 + 1); omega)

/-- Entry (p, q), p < 100000, of the first 100000 rows of a 106496-row array is the array's entry (p, q). -/
theorem unpadN_apply (x : Vec Ideal S106496x32 .f32) (i : S100000x32.Idx) (h0 : (i 0).val < 106496) :
    Spec.unpadN (F := Ideal) x i = x (ix2 (⟨(i 0).val, h0⟩ : Fin 106496) (⟨(i 1).val, idx2_lt1 i⟩ : Fin 32)) := by
  unfold Spec.unpadN
  exact extractStridedSlice_apply _ x slices_S106496x32_S100000x32_0_0 i _
    (fun a => match a with
      | ⟨0, _⟩ => by show (i 0).val = 0 + (i 0).val; omega
      | ⟨1, _⟩ => by show (i 1).val = 0 + (i 1).val; omega)

/-- The three aggregates added left to right plus s times the fourth operand, over the padded arrays and cut back, is
    that combination of the operands. -/
theorem comb_unpad (s : EReal) (a0 a1 a2 d : Vec Ideal S100000x32 .f32) (z0 z1 z2 z3 : Vec Ideal S_ .f32) :
    Spec.unpadN (F := Ideal) (Spec.comb (S := S106496x32) s
      (pad S106496x32 ![0, 0] ![6496, 0] ![0, 0] a0 z0 pads_S100000x32_S106496x32_064960_000 h_S_)
      (pad S106496x32 ![0, 0] ![6496, 0] ![0, 0] a1 z1 pads_S100000x32_S106496x32_064960_000 h_S_)
      (pad S106496x32 ![0, 0] ![6496, 0] ![0, 0] a2 z2 pads_S100000x32_S106496x32_064960_000 h_S_)
      (pad S106496x32 ![0, 0] ![6496, 0] ![0, 0] d z3 pads_S100000x32_S106496x32_064960_000 h_S_)) = Spec.combK s a0 a1 a2 d := by
  funext i
  have h0 : (i 0).val < 100000 := idx2_lt0 i
  have h0' : (i 0).val < 106496 := by omega
  refine (unpadN_apply _ i h0').trans ?_
  unfold Spec.combK Spec.comb
  exact congrArg₂ (· + ·)
    (congrArg₂ (· + ·) (congrArg₂ (· + ·) (pad_row a0 z0 i h0') (pad_row a1 z1 i h0')) (pad_row a2 z2 i h0'))
    (congrArg (s * ·) (pad_row d z3 i h0'))

/-- The same with negative entries replaced by zero: the replacement is entry by entry too. -/
theorem combRelu_unpad (s : EReal) (a0 a1 a2 d : Vec Ideal S100000x32 .f32) (z0 z1 z2 z3 : Vec Ideal S_ .f32) :
    Spec.unpadN (F := Ideal) (Spec.combRelu (S := S106496x32) s
      (pad S106496x32 ![0, 0] ![6496, 0] ![0, 0] a0 z0 pads_S100000x32_S106496x32_064960_000 h_S_)
      (pad S106496x32 ![0, 0] ![6496, 0] ![0, 0] a1 z1 pads_S100000x32_S106496x32_064960_000 h_S_)
      (pad S106496x32 ![0, 0] ![6496, 0] ![0, 0] a2 z2 pads_S100000x32_S106496x32_064960_000 h_S_)
      (pad S106496x32 ![0, 0] ![6496, 0] ![0, 0] d z3 pads_S100000x32_S106496x32_064960_000 h_S_)) = Spec.relu (Spec.combK s a0 a1 a2 d) := by
  funext i
  have h0 : (i 0).val < 100000 := idx2_lt0 i
  have h0' : (i 0).val < 106496 := by omega
  refine (unpadN_apply _ i h0').trans ?_
  unfold Spec.relu Spec.combK Spec.combRelu Spec.comb
  exact congrArg (max · (Ideal.ofBits .f32 0x00000000#32)) (congrArg₂ (· + ·)
    (congrArg₂ (· + ·) (congrArg₂ (· + ·) (pad_row a0 z0 i h0') (pad_row a1 z1 i h0')) (pad_row a2 z2 i h0'))
    (congrArg (s * ·) (pad_row d z3 i h0')))

end Cert.KernelIdeal.KOps

end
-- ==== Proof.LibCarry.lean ====
/-
  A buffer that no operation of a stretch of host operations writes holds after the stretch what it held before it.
  `keep_host ops` closes a goal `StableHlo.after ops V b = V b` (also when the left side is an abbreviation for it) for a
  literal list `ops` and a literal buffer `b`: it unfolds the list, reads off what each operation writes, and tells each
  written buffer from `b` by deciding that the two references differ.
-/
import Idealize.ShloMosaic.Lib.StableHlo.Run

open Idealize.ShloMosaic

/-- `keep_host ops`: the stretch `ops` does not write the goal's buffer. -/
macro "keep_host " ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))
-- ==== Proof.KChain.B0.S4.lean ====
/-
  The head block's combination, the host side: each of its four operands is a node-by-feature array followed by rows of
  one constant up to the combination's 106496 rows, from any buffer contents `V` the padding stretch starts at.
-/
import proofs.«147434_j38603166057109_1_alg».proof.Proof.Gen.KernelIdeal.Launch
import Idealize.ShloMosaic.Lib.StableHlo.Run

noncomputable section

namespace Cert.KernelIdeal.KChain

open Idealize.ShloMosaic Idealize.SL.Sem Cert.KernelIdeal Cert.KernelIdeal.Gen

variable {F : FTy → Type} [FloatOps F]

/-- The first operand: relation 0's aggregate, padded. -/
theorem pad_a0 (V : Valuation τ sig (Elt F)) :
    StableHlo.after hostOps4_1 V (Proc.devRef .tc main_v88)
      = pad S106496x32 ![0, 0] ![6496, 0] ![0, 0] (V (Proc.devRef .tc main_v29)) (sitofp .f32 (V (Proc.devRef .tc main_c_19)))
          pads_S100000x32_S106496x32_064960_000 h_S_ := by
  after_results
  all_goals rfl

/-- The second operand: relation 1's aggregate, padded. -/
theorem pad_a1 (V : Valuation τ sig (Elt F)) :
    StableHlo.after hostOps4_3 V (Proc.devRef .tc main_v89)
      = pad S106496x32 ![0, 0] ![6496, 0] ![0, 0] (V (Proc.devRef .tc main_v51)) (sitofp .f32 (V (Proc.devRef .tc main_c_20)))
          pads_S100000x32_S106496x32_064960_000 h_S_ := by
  after_results
  all_goals rfl

/-- The third operand: relation 2's aggregate, padded. -/
theorem pad_a2 (V : Valuation τ sig (Elt F)) :
    StableHlo.after hostOps4_5 V (Proc.devRef .tc main_v90)
      = pad S106496x32 ![0, 0] ![6496, 0] ![0, 0] (V (Proc.devRef .tc main_v81)) (sitofp .f32 (V (Proc.devRef .tc main_c_21)))
          pads_S100000x32_S106496x32_064960_000 h_S_ := by
  after_results
  all_goals rfl

/-- The fourth operand: the self term, padded. -/
theorem pad_d (V : Valuation τ sig (Elt F)) :
    StableHlo.after hostOps4_7 V (Proc.devRef .tc main_v91)
      = pad S106496x32 ![0, 0] ![6496, 0] ![0, 0] (V (Proc.devRef .tc main_v87)) (sitofp .f32 (V (Proc.devRef .tc main_c_22)))
          pads_S100000x32_S106496x32_064960_000 h_S_ := by
  after_results
  all_goals rfl

end Cert.KernelIdeal.KChain

end
-- ==== Proof.RV.Pay6.lean ====
/-
  The payload of a matmul-plus-bias region over six-feature rows, read at one entry: a block of 16384 rows X, the weights W
  and the bias row b go to  X W + b,  entry (p, q) being  Σₖ X[p, k] · W[k, q] + b[0, q].  The changes of format to bf16
  are the identity at the extended reals, the product into a zero accumulator is the plain sum over the one contracted
  axis, and the bias row is repeated down the rows.
-/
import proofs.«147434_j38603166057109_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.RV

open Idealize.ShloMosaic Idealize.ShloMosaic.ValueIdx Cert.KernelIdeal Cert.KernelIdeal.Gen

/-! ## The product's operand indices, axis by axis -/

/-- The left operand's row is the output's row. -/
theorem lhs6_0 (i : S16384x32.Idx) (q : dot_S16384x6_S6x32_S16384x32_1_0_0_1_n_n.contr.Idx) :
    (dot_S16384x6_S6x32_S16384x32_1_0_0_1_n_n.lhsIdx i q 0).val = (i 0).val := by
  unfold DotDims.lhsIdx
  rw [dif_neg (show ¬(0 : Fin S16384x6.rank) ∈ dot_S16384x6_S6x32_S16384x32_1_0_0_1_n_n.lhsBatch by decide),
    dif_pos (show (0 : Fin S16384x6.rank) ∈ dot_S16384x6_S6x32_S16384x32_1_0_0_1_n_n.lhsNonContracting by decide)]
  rfl

/-- The left operand's column is the contracted position. -/
theorem lhs6_1 (i : S16384x32.Idx) (q : dot_S16384x6_S6x32_S16384x32_1_0_0_1_n_n.contr.Idx) :
    (dot_S16384x6_S6x32_S16384x32_1_0_0_1_n_n.lhsIdx i q 1).val = (q ⟨0, by decide⟩).val :=
  dot_S16384x6_S6x32_S16384x32_1_0_0_1_n_n.lhsIdx_val_of_single rfl i q

/-- The right operand's row is the contracted position. -/
theorem rhs6_0 (i : S16384x32.Idx) (q : dot_S16384x6_S6x32_S16384x32_1_0_0_1_n_n.contr.Idx) :
    (dot_S16384x6_S6x32_S16384x32_1_0_0_1_n_n.rhsIdx i q 0).val = (q ⟨0, by decide⟩).val :=
  dot_S16384x6_S6x32_S16384x32_1_0_0_1_n_n.rhsIdx_val_of_single rfl i q

/-- The right operand's column is the output's column. -/
theorem rhs6_1 (i : S16384x32.Idx) (q : dot_S16384x6_S6x32_S16384x32_1_0_0_1_n_n.contr.Idx) :
    (dot_S16384x6_S6x32_S16384x32_1_0_0_1_n_n.rhsIdx i q 1).val = (i 1).val := by
  unfold DotDims.rhsIdx
  rw [dif_neg (show ¬(1 : Fin S6x32.rank) ∈ dot_S16384x6_S6x32_S16384x32_1_0_0_1_n_n.rhsBatch by decide),
    dif_pos (show (1 : Fin S6x32.rank) ∈ dot_S16384x6_S6x32_S16384x32_1_0_0_1_n_n.rhsNonContracting by decide)]
  rfl

/-! ## The payload at an entry -/

/-- Entry (p, q) of the payload:  Σₖ X[p, k] · W[k, q] + b[0, q]. -/
theorem pay6_apply (x0 : Vec Ideal S16384x6 .f32) (x1 : Vec Ideal S6x32 .f32) (x2 : Vec Ideal S1x32 .f32)
    (p : Fin 16384) (q : Fin 32) :
    k0_pay1 (F := Ideal) x0 x1 x2 (ix2 p q)
      = (∑ k : Fin 6, x0 (ix2 p k) * x1 (ix2 k q)) + x2 (ix2 (0 : Fin 1) q) := by
  unfold k0_pay1
  simp only [shapeCast_self, matmul]
  rw [addf_apply, Ideal.matmul_constant_zero_apply,
    ← Equiv.sum_comp (contrEquiv1 dot_S16384x6_S6x32_S16384x32_1_0_0_1_n_n 6 rfl rfl).symm]
  congr 1
  · refine Finset.sum_congr rfl fun k _ => ?_
    have hk := contrEquiv1_symm_val dot_S16384x6_S6x32_S16384x32_1_0_0_1_n_n 6 rfl rfl k
    have el : dot_S16384x6_S6x32_S16384x32_1_0_0_1_n_n.lhsIdx (ix2 p q)
        ((contrEquiv1 dot_S16384x6_S6x32_S16384x32_1_0_0_1_n_n 6 rfl rfl).symm k) = ix2 p k :=
      funext fun a => Fin.ext (by
        match a with
        | ⟨0, _⟩ => exact lhs6_0 _ _
        | ⟨1, _⟩ => exact (lhs6_1 _ _).trans hk)
    have er : dot_S16384x6_S6x32_S16384x32_1_0_0_1_n_n.rhsIdx (ix2 p q)
        ((contrEquiv1 dot_S16384x6_S6x32_S16384x32_1_0_0_1_n_n 6 rfl rfl).symm k) = ix2 k q :=
      funext fun a => Fin.ext (by
        match a with
        | ⟨0, _⟩ => exact (rhs6_0 _ _).trans hk
        | ⟨1, _⟩ => exact rhs6_1 _ _)
    rw [truncf_apply, truncf_apply, el, er]
  · refine broadcastTo_apply x2 _ (ix2 p q) (ix2 (0 : Fin 1) q) fun a => ?_
    match a with
    | ⟨0, _⟩ => rfl
    | ⟨1, _⟩ => rfl

end Cert.KernelIdeal.RV

end
-- ==== Proof.RV.MM0.lean ====
/-
  What region 0 leaves in its output array.  The region multiplies a padded array X of 1605632 rows of 6 features by the
  weights W and adds the bias row b, 16384 rows at a time over a grid of 98 points: point t reads rows 16384·t … 16384·t + 16383
  of X and the whole of W and b, and writes the same rows of the output.  Each point's block is therefore the restriction of
  ONE function of the three arrays,  (p, q) ↦ Σₖ X[p, k] · W[k, q] + b[0, q],  and the 98 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay6
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz0 : (![0, 0] : Fin 2 → Nat) = fun _ => 0 := funext fun a => by fin_cases a <;> rfl

/-- The block indices at point t: the rows' windows sit at block t, the weights' and the bias's at block 0. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- One entry of a point's payload is the same entry of the whole product: the block x0 holds rows 16384·n … of X, the
    blocks x1 and x2 are W and b, and entry j of the block is entry i of the array, 16384·n rows further down. -/
theorem point0 (x0 : Vec Ideal S16384x6 .f32) (x1 : Vec Ideal S6x32 .f32) (x2 : Vec Ideal S1x32 .f32)
    (X : Vec Ideal S1605632x6 .f32) (W : Vec Ideal S6x32 .f32) (B : Vec Ideal S1x32 .f32)
    (n : Nat) (j : S16384x32.Idx) (i : S1605632x32.Idx)
    (hi0 : (i 0).val = n * 16384 + (j 0).val) (hi1 : (i 1).val = (j 1).val)
    (h0 : ∀ (y : S16384x6.Idx) (k : S1605632x6.Idx), (k 0).val = n * 16384 + (y 0).val → (k 1).val = (y 1).val → x0 y = X k)
    (h1 : x1 = W) (h2 : x2 = B) :
    k0_pay1 (F := Ideal) x0 x1 x2 j = Spec.mmb (M := 1605632) (D := 6) X W B i := by
  obtain ⟨p, q, rfl⟩ : ∃ (p : Fin 16384) (q : Fin 32), j = ix2 p q := ⟨j 0, j 1, eq_ix2 j⟩
  subst h1 h2
  refine (pay6_apply x0 x1 x2 p q).trans ?_
  have hq : (i 1 : Fin 32) = q := Fin.ext hi1
  show (∑ k : Fin 6, x0 (ix2 p k) * x1 (ix2 k q)) + x2 (ix2 (0 : Fin 1) q)
    = (∑ k : Fin 6, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed0_eq (c : Dev nD) (t : Fin cfg0.N) :
    (dat0 (F := Ideal) V c).flushed 3 t = ((cfg0.win 3).blk t).view.read (Elt Ideal)
      (Spec.mmb (M := 1605632) (D := 6) (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero hz0]
  simp only [View.ld_unit_zero (S := S16384x6) hz0, View.ld_unit_zero (S := S6x32) hz0, View.ld_unit_zero (S := S1x32) hz0]
  obtain ⟨e00, e01, e10, e11, e20, e21, e30, e31⟩ := idx_facts0 t
  funext j
  show k0_pay1 (F := Ideal) (iblk0 V c 0 t) (iblk0 V c 1 t) (iblk0 V c 2 t) j
    = Spec.mmb (M := 1605632) (D := 6) (V c (Pipeline.arrRef spec0 0)) (V c (Pipeline.arrRef spec0 1)) (V c (Pipeline.arrRef spec0 2))
        (((cfg0.win 3).blk t).view.emb j)
  refine point0 _ _ _ _ _ _ t.val j _ ?_ ?_ ?_ ?_ ?_
  · show win0_3.index t (0 : Fin 2) * 16384 + 1 * (j 0).val = t.val * 16384 + (j 0).val
    omega
  · show win0_3.index t (1 : Fin 2) * 32 + 1 * (j 1).val = (j 1).val
    omega
  · intro y k hk0 hk1
    have e : ((cfg0.win 0).blk t).view.emb y = k := by
      funext a; apply Fin.ext
      match a with
      | ⟨0, _⟩ => show win0_0.index t (0 : Fin 2) * 16384 + 1 * (y 0).val = (k 0).val; omega
      | ⟨1, _⟩ => show win0_0.index t (1 : Fin 2) * 6 + 1 * (y 1).val = (k 1).val; omega
    show V c (Pipeline.arrRef spec0 0) (((cfg0.win 0).blk t).view.emb y) = V c (Pipeline.arrRef spec0 0) k
    rw [e]
  · funext y
    have e : ((cfg0.win 1).blk t).view.emb y = y := by
      funext a; apply Fin.ext
      match a with
      | ⟨0, _⟩ => show win0_1.index t (0 : Fin 2) * 6 + 1 * (y 0).val = (y 0).val; omega
      | ⟨1, _⟩ => show win0_1.index t (1 : Fin 2) * 32 + 1 * (y 1).val = (y 1).val; omega
    show V c (Pipeline.arrRef spec0 1) (((cfg0.win 1).blk t).view.emb y) = V c (Pipeline.arrRef spec0 1) y
    rw [e]
  · funext y
    have e : ((cfg0.win 2).blk t).view.emb y = y := by
      funext a; apply Fin.ext
      match a with
      | ⟨0, _⟩ => show win0_2.index t (0 : Fin 2) * 1 + 1 * (y 0).val = (y 0).val; omega
      | ⟨1, _⟩ => show win0_2.index t (1 : Fin 2) * 32 + 1 * (y 1).val = (y 1).val; omega
    show V c (Pipeline.arrRef spec0 2) (((cfg0.win 2).blk t).view.emb y) = V c (Pipeline.arrRef spec0 2) y
    rw [e]

/-- An index of the output array is in point t's block iff each coordinate is in the block's range on its axis. -/
theorem mem_blk0 (t : Fin cfg0.N) (i : S1605632x32.Idx) :
    i ∈ ((cfg0.win 3).blk t).view.set ↔ ∀ a : Fin 2, win0_3.index t a * S16384x32.size a ≤ (i a).val ∧ (i a).val < win0_3.index t a * S16384x32.size a + S16384x32.size a := by
  show i ∈ ((View.whole (Pipeline.arrRef spec0 3)).slice (win0_3.rect t)).set ↔ _
  rw [View.set_slice_whole, Rect.mem_set_unit]
  exact Iff.rfl

/-- Every entry of the output array is in some point's block: row r is in the block of point r / 16384. -/
theorem cover0 (i : S1605632x32.Idx) :
    ∃ t : Fin cfg0.N, (cfg0.win 3).flush t = true ∧ i ∈ ((cfg0.win 3).blk t).view.set := by
  have hi0 : (i 0).val < 1605632 := (i 0).isLt
  have hi1 : (i 1).val < 32 := (i 1).isLt
  have hN : grid0.N = 98 := N_0
  let t : Fin cfg0.N := ⟨(i 0).val / 16384, by show (i 0).val / 16384 < grid0.N; rw [hN]; omega⟩
  obtain ⟨-, -, -, -, -, -, e30, e31⟩ := idx_facts0 t
  have ht : t.val = (i 0).val / 16384 := rfl
  refine ⟨t, flush0_3 t, ?_⟩
  rw [mem_blk0]
  intro a
  match a with
  | ⟨0, _⟩ => show win0_3.index t (0 : Fin 2) * 16384 ≤ (i 0).val ∧ (i 0).val < win0_3.index t (0 : Fin 2) * 16384 + 16384; omega
  | ⟨1, _⟩ => show win0_3.index t (1 : Fin 2) * 32 ≤ (i 1).val ∧ (i 1).val < win0_3.index t (1 : Fin 2) * 32 + 32; omega

/-- THE OUTPUT ARRAY after the region: entry (p, q) is Σₖ X[p, k] · W[k, q] + b[0, q] over the whole padded array X. -/
theorem final0 (c : Dev nD) : (Gen.dat0 (F := Ideal) V c).arrAt 3 cfg0.N
    = Spec.mmb (M := 1605632) (D := 6) (V c (Pipeline.arrRef spec0 0)) (V c (Pipeline.arrRef spec0 1)) (V c (Pipeline.arrRef spec0 2)) :=
  (dat0 (F := Ideal) V c).arrAt_eq_of_cover 3 _ (fun t _ => flushed0_eq V c t) cover0

end Cert.KernelIdeal.RV

end
-- ==== Proof.KChain.B0.S0.lean ====
/-
  Relation 0 of the head block, the host side. What the stretches of host operations around the relation's product leave,
  from any buffer contents `V` a stretch starts at: the six-feature rows gathered at the source endpoints, the destination
  row of the edge list, and the relation's slice of the head weights and of the head bias (the stretch before the product's
  padding); the gathered rows padded with rows of a constant to the product's grid; the bias as a one-row matrix; and, from
  the product's padded output, the relation's aggregate over the destinations (the stretch after the product).
-/
import proofs.«147434_j38603166057109_1_alg».proof.Proof.Gen.KernelIdeal.Launch
import proofs.«147434_j38603166057109_1_alg».proof.Proof.Spec
import Idealize.ShloMosaic.Lib.StableHlo.Run

noncomputable section

namespace Cert.KernelIdeal.KChain

open Idealize.ShloMosaic Idealize.SL.Sem Cert.KernelIdeal Cert.KernelIdeal.Gen

variable {F : FTy → Type} [FloatOps F]

/-- The rows of the node features at relation 0's source endpoints (negative endpoints wrapped). -/
theorem gath_r0 (V : Valuation τ sig (Elt F)) :
    StableHlo.after hostOps0 V (Proc.devRef .tc main_v10)
      = Spec.gath6_0 (V (Proc.devRef .tc main_arg0)) (V (Proc.devRef .tc main_arg1)) := by
  after_results_simp
  all_goals rfl

/-- Row 1 of relation 0's edge list, as a vector: the destination endpoints. -/
theorem dstrow_r0 (V : Valuation τ sig (Elt F)) :
    StableHlo.after hostOps0 V (Proc.devRef .tc main_v3)
      = shapeCast S1600000 (extractStridedSlice S1x1600000 ![1, 0] (V (Proc.devRef .tc main_arg1)) slices_S2x1600000_S1x1600000_1_0)
          shapeCasts_S1x1600000_S1600000 := by
  after_results
  all_goals rfl

/-- Relation 0's 6 × 32 slice of the head weights. -/
theorem wslice_r0 (V : Valuation τ sig (Elt F)) :
    StableHlo.after hostOps0 V (Proc.devRef .tc main_v12)
      = shapeCast S6x32 (extractStridedSlice S1x6x32 ![0, 0, 0] (V (Proc.devRef .tc main_arg4)) slices_S3x6x32_S1x6x32_0_0_0)
          shapeCasts_S1x6x32_S6x32 := by
  after_results
  all_goals rfl

/-- Relation 0's slice of the head bias, as a vector. -/
theorem bslice_r0 (V : Valuation τ sig (Elt F)) :
    StableHlo.after hostOps0 V (Proc.devRef .tc main_v14)
      = shapeCast S32 (extractStridedSlice S1x32 ![0, 0] (V (Proc.devRef .tc main_arg5)) slices_S3x32_S1x32_0_0) shapeCasts_S1x32_S32 := by
  after_results
  all_goals rfl

/-- The gathered rows, followed by rows of one constant up to the product's 1605632 rows. -/
theorem padded_r0 (V : Valuation τ sig (Elt F)) :
    StableHlo.after hostOps0_1 V (Proc.devRef .tc main_v15)
      = pad S1605632x6 ![0, 0] ![5632, 0] ![0, 0] (V (Proc.devRef .tc main_v10)) (sitofp .f32 (V (Proc.devRef .tc main_c_1)))
          pads_S1600000x6_S1605632x6_056320_000 h_S_ := by
  after_results
  all_goals rfl

/-- The bias vector as a one-row matrix. -/
theorem brow_r0 (V : Valuation τ sig (Elt F)) :
    StableHlo.after hostOps0_2 V (Proc.devRef .tc main_v16)
      = shapeCast S1x32 (V (Proc.devRef .tc main_v14)) shapeCasts_S32_S1x32 := by
  after_results
  all_goals rfl

/-- From the product's padded output and the destination row: the first 1600000 rows are the messages, and relation 0's
    aggregate is their average over each node's incoming edges. -/
theorem agg_r0 (V : Valuation τ sig (Elt F)) :
    StableHlo.after hostOps1 V (Proc.devRef .tc main_v29)
      = Spec.agg0 (extractStridedSlice S1600000x32 ![0, 0] (V (Proc.devRef .tc main_v17)) slices_S1605632x32_S1600000x32_0_0)
          (broadcastInDim S1600000x1 ![0] bcast_S1600000_S1600000x1_0 (V (Proc.devRef .tc main_v3))) := by
  after_results_simp
  all_goals rfl

end Cert.KernelIdeal.KChain

end
-- ==== Proof.KChain.B0.Args.lean ====
/-
  The argument arrays where the head block's stretches read them. No host operation and no region of the block writes an
  argument, so at each of these boundaries an argument's buffer holds the launch contents.
-/
import proofs.«147434_j38603166057109_1_alg».proof.Proof.Gen.KernelIdeal.Frame
import proofs.«147434_j38603166057109_1_alg».proof.Proof.KChain.CarryB0r1
import proofs.«147434_j38603166057109_1_alg».proof.Proof.KChain.CarryB0r2
import proofs.«147434_j38603166057109_1_alg».proof.Proof.KChain.CarryB0s

noncomputable section

namespace Cert.KernelIdeal.KChain

open Idealize.ShloMosaic Idealize.ShloMosaic.TcCoe Idealize.SL.Sem Cert.KernelIdeal Cert.KernelIdeal.Gen

variable {F : FTy → Type} [FloatOps F]
variable (m : (ℓ : Loc nD τ sig) → Buf (Elt F) ℓ) (ρ : Dev nD → PrngReg)

/-! At the launch (relation 0's first stretch). -/
theorem arg0_at_0 (c : Dev nD) : W0 m ρ c (Proc.devRef .tc main_arg0) = m ((c : Thread nD τ).loc main_arg0) := rfl
theorem arg1_at_0 (c : Dev nD) : W0 m ρ c (Proc.devRef .tc main_arg1) = m ((c : Thread nD τ).loc main_arg1) := rfl
theorem arg4_at_0 (c : Dev nD) : W0 m ρ c (Proc.devRef .tc main_arg4) = m ((c : Thread nD τ).loc main_arg4) := rfl
theorem arg5_at_0 (c : Dev nD) : W0 m ρ c (Proc.devRef .tc main_arg5) = m ((c : Thread nD τ).loc main_arg5) := rfl

/-! After region 0 (where relation 1's operands are prepared). -/
theorem arg0_at_4 (c : Dev nD) : W4 m ρ c (Proc.devRef .tc main_arg0) = m ((c : Thread nD τ).loc main_arg0) :=
  (CarryB0r1.c_arg0_0_4 m ρ c).trans rfl
theorem arg2_at_4 (c : Dev nD) : W4 m ρ c (Proc.devRef .tc main_arg2) = m ((c : Thread nD τ).loc main_arg2) :=
  (CarryB0r1.c_arg2_0_4 m ρ c).trans rfl
theorem arg4_at_4 (c : Dev nD) : W4 m ρ c (Proc.devRef .tc main_arg4) = m ((c : Thread nD τ).loc main_arg4) :=
  (CarryB0r1.c_arg4_0_4 m ρ c).trans rfl
theorem arg5_at_4 (c : Dev nD) : W4 m ρ c (Proc.devRef .tc main_arg5) = m ((c : Thread nD τ).loc main_arg5) :=
  (CarryB0r1.c_arg5_0_4 m ρ c).trans rfl

/-! After region 1 (where relation 2's operands are prepared). -/
theorem arg0_at_8 (c : Dev nD) : W8 m ρ c (Proc.devRef .tc main_arg0) = m ((c : Thread nD τ).loc main_arg0) :=
  (CarryB0r2.c_arg0_0_8 m ρ c).trans rfl
theorem arg3_at_8 (c : Dev nD) : W8 m ρ c (Proc.devRef .tc main_arg3) = m ((c : Thread nD τ).loc main_arg3) :=
  (CarryB0r2.c_arg3_0_8 m ρ c).trans rfl
theorem arg4_at_8 (c : Dev nD) : W8 m ρ c (Proc.devRef .tc main_arg4) = m ((c : Thread nD τ).loc main_arg4) :=
  (CarryB0r2.c_arg4_0_8 m ρ c).trans rfl
theorem arg5_at_8 (c : Dev nD) : W8 m ρ c (Proc.devRef .tc main_arg5) = m ((c : Thread nD τ).loc main_arg5) :=
  (CarryB0r2.c_arg5_0_8 m ρ c).trans rfl

/-! After region 2 (the self weights and biases are summed) and one stretch later (the features themselves are padded). -/
theorem arg6_at_12 (c : Dev nD) : W12 m ρ c (Proc.devRef .tc main_arg6) = m ((c : Thread nD τ).loc main_arg6) :=
  (CarryB0s.c_arg6_0_12 m ρ c).trans rfl
theorem arg7_at_12 (c : Dev nD) : W12 m ρ c (Proc.devRef .tc main_arg7) = m ((c : Thread nD τ).loc main_arg7) :=
  (CarryB0s.c_arg7_0_12 m ρ c).trans rfl
theorem arg0_at_13 (c : Dev nD) : W13 m ρ c (Proc.devRef .tc main_arg0) = m ((c : Thread nD τ).loc main_arg0) :=
  (CarryB0s.c_arg0_0_13 m ρ c).trans rfl

end Cert.KernelIdeal.KChain

end
-- ==== Proof.KChain.B0.Rel0.lean ====
/-
  Relation 0 of the head block, evaluated. The relation's product region takes the gathered rows of the launch features
  (padded to its grid), the relation's weight slice and its bias as a one-row matrix, and leaves the padded product; the
  rows the padding added are sliced off again, which leaves the edge messages, and the messages are averaged over each
  node's incoming edges. So the aggregate's buffer holds the specification's first aggregate of the launch contents, and
  still holds it where the combination reads it.
-/
import proofs.«147434_j38603166057109_1_alg».proof.Proof.Gen.KernelIdeal.Frame
import proofs.«147434_j38603166057109_1_alg».proof.Proof.Spec
import proofs.«147434_j38603166057109_1_alg».proof.Proof.RV.MM0
import proofs.«147434_j38603166057109_1_alg».proof.Proof.KOps
import proofs.«147434_j38603166057109_1_alg».proof.Proof.KChain.CarryB0r0
import proofs.«147434_j38603166057109_1_alg».proof.Proof.KChain.B0.S0
import proofs.«147434_j38603166057109_1_alg».proof.Proof.KChain.B0.Args

noncomputable section

namespace Cert.KernelIdeal.KChain

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The gathered rows are those of the launch features at the launch edge list's sources. -/
theorem feat_r0 (c : Dev nD) :
    W1 m ρ c (Proc.devRef .tc main_v10)
      = Spec.gath6_0 (F := Ideal) (m ((c : Thread nD τ).loc main_arg0)) (m ((c : Thread nD τ).loc main_arg1)) :=
  (gath_r0 (W0 m ρ c)).trans (congrArg₂ (Spec.gath6_0 (F := Ideal)) (arg0_at_0 m ρ c) (arg1_at_0 m ρ c))

/-- The product's left operand: those rows, then rows of a constant. -/
theorem x_r0 (c : Dev nD) :
    W3 m ρ c (Proc.devRef .tc main_v15)
      = pad S1605632x6 ![0, 0] ![5632, 0] ![0, 0]
          (Spec.gath6_0 (F := Ideal) (m ((c : Thread nD τ).loc main_arg0)) (m ((c : Thread nD τ).loc main_arg1)))
          (sitofp (F := Ideal) .f32 (W1 m ρ c (Proc.devRef .tc main_c_1))) pads_S1600000x6_S1605632x6_056320_000 h_S_ :=
  (CarryB0r0.c_v15_2_3 m ρ c).trans ((padded_r0 (W1 m ρ c)).trans
    (congrArg (fun x : Vec Ideal S1600000x6 .f32 => pad S1605632x6 ![0, 0] ![5632, 0] ![0, 0] x (sitofp (F := Ideal) .f32 (W1 m ρ c (Proc.devRef .tc main_c_1)))
      pads_S1600000x6_S1605632x6_056320_000 h_S_) (feat_r0 m ρ c)))

/-- The product's weights: relation 0's head weights. -/
theorem w_r0 (c : Dev nD) :
    W3 m ρ c (Proc.devRef .tc main_v12) = Spec.wRel 0 (m ((c : Thread nD τ).loc main_arg4)) :=
  (CarryB0r0.c_v12_1_3 m ρ c).trans ((wslice_r0 (W0 m ρ c)).trans
    ((congrArg (fun a : Vec Ideal S3x6x32 .f32 =>
        shapeCast S6x32 (extractStridedSlice S1x6x32 ![0, 0, 0] a slices_S3x6x32_S1x6x32_0_0_0) shapeCasts_S1x6x32_S6x32)
      (arg4_at_0 m ρ c)).trans (KOps.wRel_0 _)))

/-- The bias vector before it is made a one-row matrix: relation 0's head bias. -/
theorem bvec_r0 (c : Dev nD) :
    W2 m ρ c (Proc.devRef .tc main_v14) = (Spec.bRel 0 (m ((c : Thread nD τ).loc main_arg5)) : Vec Ideal S32 .f32) :=
  (CarryB0r0.c_v14_1_2 m ρ c).trans ((bslice_r0 (W0 m ρ c)).trans
    ((congrArg (fun a : Vec Ideal S3x32 .f32 =>
        shapeCast S32 (extractStridedSlice S1x32 ![0, 0] a slices_S3x32_S1x32_0_0) shapeCasts_S1x32_S32)
      (arg5_at_0 m ρ c)).trans (KOps.bRel_0 _)))

/-- The product's bias operand. -/
theorem b_r0 (c : Dev nD) :
    W3 m ρ c (Proc.devRef .tc main_v16)
      = shapeCast S1x32 (Spec.bRel 0 (m ((c : Thread nD τ).loc main_arg5)) : Vec Ideal S32 .f32) shapeCasts_S32_S1x32 :=
  (brow_r0 (W2 m ρ c)).trans
    (congrArg (fun v : Vec Ideal S32 .f32 => shapeCast S1x32 v shapeCasts_S32_S1x32) (bvec_r0 m ρ c))

/-- What the product region leaves: entry by entry the product of its operands plus the bias row. -/
theorem prod_r0 (c : Dev nD) :
    W4 m ρ c (Proc.devRef .tc main_v17)
      = Spec.mmb (M := 1605632) (D := 6) (W3 m ρ c (Proc.devRef .tc main_v15)) (W3 m ρ c (Proc.devRef .tc main_v12))
          (W3 m ρ c (Proc.devRef .tc main_v16)) :=
  (W4_arr m ρ c 3).trans (RV.final0 (V3 m ρ) c)

/-- The first 1600000 rows of the product are the edge messages. -/
theorem msg_r0 (c : Dev nD) :
    extractStridedSlice S1600000x32 ![0, 0] (W4 m ρ c (Proc.devRef .tc main_v17)) slices_S1605632x32_S1600000x32_0_0
      = Spec.msg (Spec.gath6_0 (F := Ideal) (m ((c : Thread nD τ).loc main_arg0)) (m ((c : Thread nD τ).loc main_arg1)))
          (Spec.wRel 0 (m ((c : Thread nD τ).loc main_arg4))) (Spec.bRel 0 (m ((c : Thread nD τ).loc main_arg5))) := by
  rw [prod_r0 m ρ c, x_r0 m ρ c, w_r0 m ρ c, b_r0 m ρ c]
  exact KOps.msg_1600000_6 _ _ _ _

/-- The destination row where the aggregation reads it: row 1 of the launch edge list, as a vector. -/
theorem dstvec_r0 (c : Dev nD) :
    W4 m ρ c (Proc.devRef .tc main_v3)
      = shapeCast S1600000 (extractStridedSlice S1x1600000 ![1, 0] (m ((c : Thread nD τ).loc main_arg1)) slices_S2x1600000_S1x1600000_1_0)
          shapeCasts_S1x1600000_S1600000 :=
  (CarryB0r0.c_v3_1_4 m ρ c).trans ((dstrow_r0 (W0 m ρ c)).trans
    (congrArg (fun e : Vec Ideal S2x1600000 .i32 =>
        shapeCast S1600000 (extractStridedSlice S1x1600000 ![1, 0] e slices_S2x1600000_S1x1600000_1_0) shapeCasts_S1x1600000_S1600000)
      (arg1_at_0 m ρ c)))

/-- The scatter's index column: the launch edge list's destinations. -/
theorem dst_r0 (c : Dev nD) :
    broadcastInDim S1600000x1 ![0] bcast_S1600000_S1600000x1_0 (W4 m ρ c (Proc.devRef .tc main_v3))
      = Spec.dst0 (F := Ideal) (m ((c : Thread nD τ).loc main_arg1)) := by
  unfold Spec.dst0
  rw [dstvec_r0 m ρ c]

/-- Relation 0's aggregate, where it is computed. -/
theorem rel0 (c : Dev nD) :
    W5 m ρ c (Proc.devRef .tc main_v29)
      = Spec.A0_6 (m ((c : Thread nD τ).loc main_arg0)) (m ((c : Thread nD τ).loc main_arg1))
          (Spec.wRel 0 (m ((c : Thread nD τ).loc main_arg4))) (Spec.bRel 0 (m ((c : Thread nD τ).loc main_arg5))) :=
  (agg_r0 (W4 m ρ c)).trans (congrArg₂ (Spec.agg0 (F := Ideal)) (msg_r0 m ρ c) (dst_r0 m ρ c))

/-- … and where the combination reads it. -/
theorem rel0_at (c : Dev nD) :
    W17 m ρ c (Proc.devRef .tc main_v29)
      = Spec.A0_6 (m ((c : Thread nD τ).loc main_arg0)) (m ((c : Thread nD τ).loc main_arg1))
          (Spec.wRel 0 (m ((c : Thread nD τ).loc main_arg4))) (Spec.bRel 0 (m ((c : Thread nD τ).loc main_arg5))) :=
  (CarryB0r0.c_v29_5_17 m ρ c).trans (rel0 m ρ c)

end Cert.KernelIdeal.KChain

end
-- ==== Proof.RV.MM1.lean ====
/-
  What region 1 leaves in its output array.  The region multiplies a padded array X of 212992 rows of 6 features by the
  weights W and adds the bias row b, 16384 rows at a time over a grid of 13 points: point t reads rows 16384·t … 16384·t + 16383
  of X and the whole of W and b, and writes the same rows of the output.  Each point's block is therefore the restriction of
  ONE function of the three arrays,  (p, q) ↦ Σₖ X[p, k] · W[k, q] + b[0, q],  and the 13 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay6
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz1 : (![0, 0] : Fin 2 → Nat) = fun _ => 0 := funext fun a => by fin_cases a <;> rfl

/-- The block indices at point t: the rows' windows sit at block t, the weights' and the bias's at block 0. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- One entry of a point's payload is the same entry of the whole product: the block x0 holds rows 16384·n … of X, the
    blocks x1 and x2 are W and b, and entry j of the block is entry i of the array, 16384·n rows further down. -/
theorem point1 (x0 : Vec Ideal S16384x6 .f32) (x1 : Vec Ideal S6x32 .f32) (x2 : Vec Ideal S1x32 .f32)
    (X : Vec Ideal S212992x6 .f32) (W : Vec Ideal S6x32 .f32) (B : Vec Ideal S1x32 .f32)
    (n : Nat) (j : S16384x32.Idx) (i : S212992x32.Idx)
    (hi0 : (i 0).val = n * 16384 + (j 0).val) (hi1 : (i 1).val = (j 1).val)
    (h0 : ∀ (y : S16384x6.Idx) (k : S212992x6.Idx), (k 0).val = n * 16384 + (y 0).val → (k 1).val = (y 1).val → x0 y = X k)
    (h1 : x1 = W) (h2 : x2 = B) :
    k1_pay1 (F := Ideal) x0 x1 x2 j = Spec.mmb (M := 212992) (D := 6) X W B i := by
  obtain ⟨p, q, rfl⟩ : ∃ (p : Fin 16384) (q : Fin 32), j = ix2 p q := ⟨j 0, j 1, eq_ix2 j⟩
  subst h1 h2
  refine (pay6_apply x0 x1 x2 p q).trans ?_
  have hq : (i 1 : Fin 32) = q := Fin.ext hi1
  show (∑ k : Fin 6, x0 (ix2 p k) * x1 (ix2 k q)) + x2 (ix2 (0 : Fin 1) q)
    = (∑ k : Fin 6, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed1_eq (c : Dev nD) (t : Fin cfg1.N) :
    (dat1 (F := Ideal) V c).flushed 3 t = ((cfg1.win 3).blk t).view.read (Elt Ideal)
      (Spec.mmb (M := 212992) (D := 6) (V c (Pipeline.arrRef spec1 0)) (V c (Pipeline.arrRef spec1 1)) (V c (Pipeline.arrRef spec1 2))) := by
  show (cfg1.win 3).cut (grid1.coords t) ((dat1 V c).after 3 t) = _
  rw [after1_3]
  unfold out1_3
  rw [View.canon_unit_zero hz1]
  simp only [View.ld_unit_zero (S := S16384x6) hz1, View.ld_unit_zero (S := S6x32) hz1, View.ld_unit_zero (S := S1x32) hz1]
  obtain ⟨e00, e01, e10, e11, e20, e21, e30, e31⟩ := idx_facts1 t
  funext j
  show k1_pay1 (F := Ideal) (iblk1 V c 0 t) (iblk1 V c 1 t) (iblk1 V c 2 t) j
    = Spec.mmb (M := 212992) (D := 6) (V c (Pipeline.arrRef spec1 0)) (V c (Pipeline.arrRef spec1 1)) (V c (Pipeline.arrRef spec1 2))
        (((cfg1.win 3).blk t).view.emb j)
  refine point1 _ _ _ _ _ _ t.val j _ ?_ ?_ ?_ ?_ ?_
  · show win1_3.index t (0 : Fin 2) * 16384 + 1 * (j 0).val = t.val * 16384 + (j 0).val
    omega
  · show win1_3.index t (1 : Fin 2) * 32 + 1 * (j 1).val = (j 1).val
    omega
  · intro y k hk0 hk1
    have e : ((cfg1.win 0).blk t).view.emb y = k := by
      funext a; apply Fin.ext
      match a with
      | ⟨0, _⟩ => show win1_0.index t (0 : Fin 2) * 16384 + 1 * (y 0).val = (k 0).val; omega
      | ⟨1, _⟩ => show win1_0.index t (1 : Fin 2) * 6 + 1 * (y 1).val = (k 1).val; omega
    show V c (Pipeline.arrRef spec1 0) (((cfg1.win 0).blk t).view.emb y) = V c (Pipeline.arrRef spec1 0) k
    rw [e]
  · funext y
    have e : ((cfg1.win 1).blk t).view.emb y = y := by
      funext a; apply Fin.ext
      match a with
      | ⟨0, _⟩ => show win1_1.index t (0 : Fin 2) * 6 + 1 * (y 0).val = (y 0).val; omega
      | ⟨1, _⟩ => show win1_1.index t (1 : Fin 2) * 32 + 1 * (y 1).val = (y 1).val; omega
    show V c (Pipeline.arrRef spec1 1) (((cfg1.win 1).blk t).view.emb y) = V c (Pipeline.arrRef spec1 1) y
    rw [e]
  · funext y
    have e : ((cfg1.win 2).blk t).view.emb y = y := by
      funext a; apply Fin.ext
      match a with
      | ⟨0, _⟩ => show win1_2.index t (0 : Fin 2) * 1 + 1 * (y 0).val = (y 0).val; omega
      | ⟨1, _⟩ => show win1_2.index t (1 : Fin 2) * 32 + 1 * (y 1).val = (y 1).val; omega
    show V c (Pipeline.arrRef spec1 2) (((cfg1.win 2).blk t).view.emb y) = V c (Pipeline.arrRef spec1 2) y
    rw [e]

/-- An index of the output array is in point t's block iff each coordinate is in the block's range on its axis. -/
theorem mem_blk1 (t : Fin cfg1.N) (i : S212992x32.Idx) :
    i ∈ ((cfg1.win 3).blk t).view.set ↔ ∀ a : Fin 2, win1_3.index t a * S16384x32.size a ≤ (i a).val ∧ (i a).val < win1_3.index t a * S16384x32.size a + S16384x32.size a := by
  show i ∈ ((View.whole (Pipeline.arrRef spec1 3)).slice (win1_3.rect t)).set ↔ _
  rw [View.set_slice_whole, Rect.mem_set_unit]
  exact Iff.rfl

/-- Every entry of the output array is in some point's block: row r is in the block of point r / 16384. -/
theorem cover1 (i : S212992x32.Idx) :
    ∃ t : Fin cfg1.N, (cfg1.win 3).flush t = true ∧ i ∈ ((cfg1.win 3).blk t).view.set := by
  have hi0 : (i 0).val < 212992 := (i 0).isLt
  have hi1 : (i 1).val < 32 := (i 1).isLt
  have hN : grid1.N = 13 := N_1
  let t : Fin cfg1.N := ⟨(i 0).val / 16384, by show (i 0).val / 16384 < grid1.N; rw [hN]; omega⟩
  obtain ⟨-, -, -, -, -, -, e30, e31⟩ := idx_facts1 t
  have ht : t.val = (i 0).val / 16384 := rfl
  refine ⟨t, flush1_3 t, ?_⟩
  rw [mem_blk1]
  intro a
  match a with
  | ⟨0, _⟩ => show win1_3.index t (0 : Fin 2) * 16384 ≤ (i 0).val ∧ (i 0).val < win1_3.index t (0 : Fin 2) * 16384 + 16384; omega
  | ⟨1, _⟩ => show win1_3.index t (1 : Fin 2) * 32 ≤ (i 1).val ∧ (i 1).val < win1_3.index t (1 : Fin 2) * 32 + 32; omega

/-- THE OUTPUT ARRAY after the region: entry (p, q) is Σₖ X[p, k] · W[k, q] + b[0, q] over the whole padded array X. -/
theorem final1 (c : Dev nD) : (Gen.dat1 (F := Ideal) V c).arrAt 3 cfg1.N
    = Spec.mmb (M := 212992) (D := 6) (V c (Pipeline.arrRef spec1 0)) (V c (Pipeline.arrRef spec1 1)) (V c (Pipeline.arrRef spec1 2)) :=
  (dat1 (F := Ideal) V c).arrAt_eq_of_cover 3 _ (fun t _ => flushed1_eq V c t) cover1

end Cert.KernelIdeal.RV

end
-- ==== Proof.RV.MM2.lean ====
/-
  What region 2 leaves in its output array.  The region multiplies a padded array X of 802816 rows of 6 features by the
  weights W and adds the bias row b, 16384 rows at a time over a grid of 49 points: point t reads rows 16384·t … 16384·t + 16383
  of X and the whole of W and b, and writes the same rows of the output.  Each point's block is therefore the restriction of
  ONE function of the three arrays,  (p, q) ↦ Σₖ X[p, k] · W[k, q] + b[0, q],  and the 49 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay6
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz2 : (![0, 0] : Fin 2 → Nat) = fun _ => 0 := funext fun a => by fin_cases a <;> rfl

/-- The block indices at point t: the rows' windows sit at block t, the weights' and the bias's at block 0. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- One entry of a point's payload is the same entry of the whole product: the block x0 holds rows 16384·n … of X, the
    blocks x1 and x2 are W and b, and entry j of the block is entry i of the array, 16384·n rows further down. -/
theorem point2 (x0 : Vec Ideal S16384x6 .f32) (x1 : Vec Ideal S6x32 .f32) (x2 : Vec Ideal S1x32 .f32)
    (X : Vec Ideal S802816x6 .f32) (W : Vec Ideal S6x32 .f32) (B : Vec Ideal S1x32 .f32)
    (n : Nat) (j : S16384x32.Idx) (i : S802816x32.Idx)
    (hi0 : (i 0).val = n * 16384 + (j 0).val) (hi1 : (i 1).val = (j 1).val)
    (h0 : ∀ (y : S16384x6.Idx) (k : S802816x6.Idx), (k 0).val = n * 16384 + (y 0).val → (k 1).val = (y 1).val → x0 y = X k)
    (h1 : x1 = W) (h2 : x2 = B) :
    k2_pay1 (F := Ideal) x0 x1 x2 j = Spec.mmb (M := 802816) (D := 6) X W B i := by
  obtain ⟨p, q, rfl⟩ : ∃ (p : Fin 16384) (q : Fin 32), j = ix2 p q := ⟨j 0, j 1, eq_ix2 j⟩
  subst h1 h2
  refine (pay6_apply x0 x1 x2 p q).trans ?_
  have hq : (i 1 : Fin 32) = q := Fin.ext hi1
  show (∑ k : Fin 6, x0 (ix2 p k) * x1 (ix2 k q)) + x2 (ix2 (0 : Fin 1) q)
    = (∑ k : Fin 6, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed2_eq (c : Dev nD) (t : Fin cfg2.N) :
    (dat2 (F := Ideal) V c).flushed 3 t = ((cfg2.win 3).blk t).view.read (Elt Ideal)
      (Spec.mmb (M := 802816) (D := 6) (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero hz2]
  simp only [View.ld_unit_zero (S := S16384x6) hz2, View.ld_unit_zero (S := S6x32) hz2, View.ld_unit_zero (S := S1x32) hz2]
  obtain ⟨e00, e01, e10, e11, e20, e21, e30, e31⟩ := idx_facts2 t
  funext j
  show k2_pay1 (F := Ideal) (iblk2 V c 0 t) (iblk2 V c 1 t) (iblk2 V c 2 t) j
    = Spec.mmb (M := 802816) (D := 6) (V c (Pipeline.arrRef spec2 0)) (V c (Pipeline.arrRef spec2 1)) (V c (Pipeline.arrRef spec2 2))
        (((cfg2.win 3).blk t).view.emb j)
  refine point2 _ _ _ _ _ _ t.val j _ ?_ ?_ ?_ ?_ ?_
  · show win2_3.index t (0 : Fin 2) * 16384 + 1 * (j 0).val = t.val * 16384 + (j 0).val
    omega
  · show win2_3.index t (1 : Fin 2) * 32 + 1 * (j 1).val = (j 1).val
    omega
  · intro y k hk0 hk1
    have e : ((cfg2.win 0).blk t).view.emb y = k := by
      funext a; apply Fin.ext
      match a with
      | ⟨0, _⟩ => show win2_0.index t (0 : Fin 2) * 16384 + 1 * (y 0).val = (k 0).val; omega
      | ⟨1, _⟩ => show win2_0.index t (1 : Fin 2) * 6 + 1 * (y 1).val = (k 1).val; omega
    show V c (Pipeline.arrRef spec2 0) (((cfg2.win 0).blk t).view.emb y) = V c (Pipeline.arrRef spec2 0) k
    rw [e]
  · funext y
    have e : ((cfg2.win 1).blk t).view.emb y = y := by
      funext a; apply Fin.ext
      match a with
      | ⟨0, _⟩ => show win2_1.index t (0 : Fin 2) * 6 + 1 * (y 0).val = (y 0).val; omega
      | ⟨1, _⟩ => show win2_1.index t (1 : Fin 2) * 32 + 1 * (y 1).val = (y 1).val; omega
    show V c (Pipeline.arrRef spec2 1) (((cfg2.win 1).blk t).view.emb y) = V c (Pipeline.arrRef spec2 1) y
    rw [e]
  · funext y
    have e : ((cfg2.win 2).blk t).view.emb y = y := by
      funext a; apply Fin.ext
      match a with
      | ⟨0, _⟩ => show win2_2.index t (0 : Fin 2) * 1 + 1 * (y 0).val = (y 0).val; omega
      | ⟨1, _⟩ => show win2_2.index t (1 : Fin 2) * 32 + 1 * (y 1).val = (y 1).val; omega
    show V c (Pipeline.arrRef spec2 2) (((cfg2.win 2).blk t).view.emb y) = V c (Pipeline.arrRef spec2 2) y
    rw [e]

/-- An index of the output array is in point t's block iff each coordinate is in the block's range on its axis. -/
theorem mem_blk2 (t : Fin cfg2.N) (i : S802816x32.Idx) :
    i ∈ ((cfg2.win 3).blk t).view.set ↔ ∀ a : Fin 2, win2_3.index t a * S16384x32.size a ≤ (i a).val ∧ (i a).val < win2_3.index t a * S16384x32.size a + S16384x32.size a := by
  show i ∈ ((View.whole (Pipeline.arrRef spec2 3)).slice (win2_3.rect t)).set ↔ _
  rw [View.set_slice_whole, Rect.mem_set_unit]
  exact Iff.rfl

/-- Every entry of the output array is in some point's block: row r is in the block of point r / 16384. -/
theorem cover2 (i : S802816x32.Idx) :
    ∃ t : Fin cfg2.N, (cfg2.win 3).flush t = true ∧ i ∈ ((cfg2.win 3).blk t).view.set := by
  have hi0 : (i 0).val < 802816 := (i 0).isLt
  have hi1 : (i 1).val < 32 := (i 1).isLt
  have hN : grid2.N = 49 := N_2
  let t : Fin cfg2.N := ⟨(i 0).val / 16384, by show (i 0).val / 16384 < grid2.N; rw [hN]; omega⟩
  obtain ⟨-, -, -, -, -, -, e30, e31⟩ := idx_facts2 t
  have ht : t.val = (i 0).val / 16384 := rfl
  refine ⟨t, flush2_3 t, ?_⟩
  rw [mem_blk2]
  intro a
  match a with
  | ⟨0, _⟩ => show win2_3.index t (0 : Fin 2) * 16384 ≤ (i 0).val ∧ (i 0).val < win2_3.index t (0 : Fin 2) * 16384 + 16384; omega
  | ⟨1, _⟩ => show win2_3.index t (1 : Fin 2) * 32 ≤ (i 1).val ∧ (i 1).val < win2_3.index t (1 : Fin 2) * 32 + 32; omega

/-- THE OUTPUT ARRAY after the region: entry (p, q) is Σₖ X[p, k] · W[k, q] + b[0, q] over the whole padded array X. -/
theorem final2 (c : Dev nD) : (Gen.dat2 (F := Ideal) V c).arrAt 3 cfg2.N
    = Spec.mmb (M := 802816) (D := 6) (V c (Pipeline.arrRef spec2 0)) (V c (Pipeline.arrRef spec2 1)) (V c (Pipeline.arrRef spec2 2)) :=
  (dat2 (F := Ideal) V c).arrAt_eq_of_cover 3 _ (fun t _ => flushed2_eq V c t) cover2

end Cert.KernelIdeal.RV

end
-- ==== Proof.RV.MM3.lean ====
/-
  What region 3 leaves in its output array.  The region multiplies a padded array X of 114688 rows of 6 features by the
  weights W and adds the bias row b, 16384 rows at a time over a grid of 7 points: point t reads rows 16384·t … 16384·t + 16383
  of X and the whole of W and b, and writes the same rows of the output.  Each point's block is therefore the restriction of
  ONE function of the three arrays,  (p, q) ↦ Σₖ X[p, k] · W[k, q] + b[0, q],  and the 7 blocks cover every row, so the
  output array ends holding that function.  The three input blocks are read off their arrays in lemmas of their own.
-/
import proofs.«147434_j38603166057109_1_alg».proof.Proof.Gen.KernelIdeal.Frame
import proofs.«147434_j38603166057109_1_alg».proof.Proof.Spec
import proofs.«147434_j38603166057109_1_alg».proof.Proof.RV.Pay6
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz3 : (![0, 0] : Fin 2 → Nat) = fun _ => 0 := funext fun a => by fin_cases a <;> rfl

/-- The block indices at point t: the rows' windows sit at block t, the weights' and the bias's at block 0. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

/-- One entry of a point's payload is the same entry of the whole product: the block x0 holds rows 16384·n … of X, the
    blocks x1 and x2 are W and b, and entry j of the block is entry i of the array, 16384·n rows further down. -/
theorem point3 (x0 : Vec Ideal S16384x6 .f32) (x1 : Vec Ideal S6x32 .f32) (x2 : Vec Ideal S1x32 .f32)
    (X : Vec Ideal S114688x6 .f32) (W : Vec Ideal S6x32 .f32) (B : Vec Ideal S1x32 .f32)
    (n : Nat) (j : S16384x32.Idx) (i : S114688x32.Idx)
    (hi0 : (i 0).val = n * 16384 + (j 0).val) (hi1 : (i 1).val = (j 1).val)
    (h0 : ∀ (y : S16384x6.Idx) (k : S114688x6.Idx), (k 0).val = n * 16384 + (y 0).val → (k 1).val = (y 1).val → x0 y = X k)
    (h1 : x1 = W) (h2 : x2 = B) :
    k3_pay1 (F := Ideal) x0 x1 x2 j = Spec.mmb (M := 114688) (D := 6) X W B i := by
  obtain ⟨p, q, rfl⟩ : ∃ (p : Fin 16384) (q : Fin 32), j = ix2 p q := ⟨j 0, j 1, eq_ix2 j⟩
  subst h1 h2
  refine (pay6_apply x0 x1 x2 p q).trans ?_
  have hq : (i 1 : Fin 32) = q := Fin.ext hi1
  show (∑ k : Fin 6, x0 (ix2 p k) * x1 (ix2 k q)) + x2 (ix2 (0 : Fin 1) q)
    = (∑ k : Fin 6, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- The rows' block at point t is rows 16384·t … 16384·t + 16383 of the array X. -/
theorem blk3_0 (c : Dev nD) (t : Fin cfg3.N) (y : S16384x6.Idx) (k : S114688x6.Idx)
    (hk0 : (k 0).val = t.val * 16384 + (y 0).val) (hk1 : (k 1).val = (y 1).val) :
    iblk3 V c 0 t y = V c (Pipeline.arrRef spec3 0) k := by
  obtain ⟨e00, e01, -, -, -, -, -, -⟩ := idx_facts3 t
  have e : ((cfg3.win 0).blk t).view.emb y = k := by
    funext a; apply Fin.ext
    match a with
    | ⟨0, _⟩ => show win3_0.index t (0 : Fin 2) * 16384 + 1 * (y 0).val = (k 0).val; omega
    | ⟨1, _⟩ => show win3_0.index t (1 : Fin 2) * 6 + 1 * (y 1).val = (k 1).val; omega
  show V c (Pipeline.arrRef spec3 0) (((cfg3.win 0).blk t).view.emb y) = V c (Pipeline.arrRef spec3 0) k
  rw [e]

/-- The weights' block at every point is the whole array W. -/
theorem blk3_1 (c : Dev nD) (t : Fin cfg3.N) : iblk3 V c 1 t = V c (Pipeline.arrRef spec3 1) := by
  obtain ⟨-, -, e10, e11, -, -, -, -⟩ := idx_facts3 t
  funext y
  have e : ((cfg3.win 1).blk t).view.emb y = y := by
    funext a; apply Fin.ext
    match a with
    | ⟨0, _⟩ => show win3_1.index t (0 : Fin 2) * 6 + 1 * (y 0).val = (y 0).val; omega
    | ⟨1, _⟩ => show win3_1.index t (1 : Fin 2) * 32 + 1 * (y 1).val = (y 1).val; omega
  show V c (Pipeline.arrRef spec3 1) (((cfg3.win 1).blk t).view.emb y) = V c (Pipeline.arrRef spec3 1) y
  rw [e]

/-- The bias's block at every point is the whole row b. -/
theorem blk3_2 (c : Dev nD) (t : Fin cfg3.N) : iblk3 V c 2 t = V c (Pipeline.arrRef spec3 2) := by
  obtain ⟨-, -, -, -, e20, e21, -, -⟩ := idx_facts3 t
  funext y
  have e : ((cfg3.win 2).blk t).view.emb y = y := by
    funext a; apply Fin.ext
    match a with
    | ⟨0, _⟩ => show win3_2.index t (0 : Fin 2) * 1 + 1 * (y 0).val = (y 0).val; omega
    | ⟨1, _⟩ => show win3_2.index t (1 : Fin 2) * 32 + 1 * (y 1).val = (y 1).val; omega
  show V c (Pipeline.arrRef spec3 2) (((cfg3.win 2).blk t).view.emb y) = V c (Pipeline.arrRef spec3 2) y
  rw [e]

/-- WHAT POINT t WRITES BACK is block t of the whole product of the arrays as the region finds them. -/
theorem flushed3_eq (c : Dev nD) (t : Fin cfg3.N) :
    (dat3 (F := Ideal) V c).flushed 3 t = ((cfg3.win 3).blk t).view.read (Elt Ideal)
      (Spec.mmb (M := 114688) (D := 6) (V c (Pipeline.arrRef spec3 0)) (V c (Pipeline.arrRef spec3 1)) (V c (Pipeline.arrRef spec3 2))) := by
  show (cfg3.win 3).cut (grid3.coords t) ((dat3 V c).after 3 t) = _
  rw [after3_3]
  unfold out3_3
  rw [View.canon_unit_zero hz3]
  simp only [View.ld_unit_zero (S := S16384x6) hz3, View.ld_unit_zero (S := S6x32) hz3, View.ld_unit_zero (S := S1x32) hz3]
  obtain ⟨-, -, -, -, -, -, e30, e31⟩ := idx_facts3 t
  funext j
  show k3_pay1 (F := Ideal) (iblk3 V c 0 t) (iblk3 V c 1 t) (iblk3 V c 2 t) j
    = Spec.mmb (M := 114688) (D := 6) (V c (Pipeline.arrRef spec3 0)) (V c (Pipeline.arrRef spec3 1)) (V c (Pipeline.arrRef spec3 2))
        (((cfg3.win 3).blk t).view.emb j)
  refine point3 _ _ _ _ _ _ t.val j _ ?_ ?_ (blk3_0 V c t) (blk3_1 V c t) (blk3_2 V c t)
  · show win3_3.index t (0 : Fin 2) * 16384 + 1 * (j 0).val = t.val * 16384 + (j 0).val
    omega
  · show win3_3.index t (1 : Fin 2) * 32 + 1 * (j 1).val = (j 1).val
    omega

/-- An index of the output array is in point t's block iff each coordinate is in the block's range on its axis. -/
theorem mem_blk3 (t : Fin cfg3.N) (i : S114688x32.Idx) :
    i ∈ ((cfg3.win 3).blk t).view.set ↔ ∀ a : Fin 2, win3_3.index t a * S16384x32.size a ≤ (i a).val ∧ (i a).val < win3_3.index t a * S16384x32.size a + S16384x32.size a := by
  show i ∈ ((View.whole (Pipeline.arrRef spec3 3)).slice (win3_3.rect t)).set ↔ _
  rw [View.set_slice_whole, Rect.mem_set_unit]
  exact Iff.rfl

/-- Every entry of the output array is in some point's block: row r is in the block of point r / 16384. -/
theorem cover3 (i : S114688x32.Idx) :
    ∃ t : Fin cfg3.N, (cfg3.win 3).flush t = true ∧ i ∈ ((cfg3.win 3).blk t).view.set := by
  have hi0 : (i 0).val < 114688 := (i 0).isLt
  have hi1 : (i 1).val < 32 := (i 1).isLt
  have hN : grid3.N = 7 := N_3
  let t : Fin cfg3.N := ⟨(i 0).val / 16384, by show (i 0).val / 16384 < grid3.N; rw [hN]; omega⟩
  obtain ⟨-, -, -, -, -, -, e30, e31⟩ := idx_facts3 t
  have ht : t.val = (i 0).val / 16384 := rfl
  refine ⟨t, flush3_3 t, ?_⟩
  rw [mem_blk3]
  intro a
  match a with
  | ⟨0, _⟩ => show win3_3.index t (0 : Fin 2) * 16384 ≤ (i 0).val ∧ (i 0).val < win3_3.index t (0 : Fin 2) * 16384 + 16384; omega
  | ⟨1, _⟩ => show win3_3.index t (1 : Fin 2) * 32 ≤ (i 1).val ∧ (i 1).val < win3_3.index t (1 : Fin 2) * 32 + 32; omega

/-- THE OUTPUT ARRAY after the region: entry (p, q) is Σₖ X[p, k] · W[k, q] + b[0, q] over the whole padded array X. -/
theorem final3 (c : Dev nD) : (Gen.dat3 (F := Ideal) V c).arrAt 3 cfg3.N
    = Spec.mmb (M := 114688) (D := 6) (V c (Pipeline.arrRef spec3 0)) (V c (Pipeline.arrRef spec3 1)) (V c (Pipeline.arrRef spec3 2)) :=
  (dat3 (F := Ideal) V c).arrAt_eq_of_cover 3 _ (fun t _ => flushed3_eq V c t) cover3

end Cert.KernelIdeal.RV

end
-- ==== Proof.KChain.B0.S3.lean ====
/-
  The self term of the head block, the host side. From any buffer contents `V` a stretch starts at: the three relations'
  self weights summed from a zero constant, and their self biases likewise; the node features padded with rows of a
  constant to the product's grid; the summed bias as a one-row matrix; and the product's padded output cut back to the
  100000 nodes.
-/
import proofs.«147434_j38603166057109_1_alg».proof.Proof.Gen.KernelIdeal.Launch
import Idealize.ShloMosaic.Lib.StableHlo.Run

noncomputable section

namespace Cert.KernelIdeal.KChain

open Idealize.ShloMosaic Idealize.SL.Sem Cert.KernelIdeal Cert.KernelIdeal.Gen

variable {F : FTy → Type} [FloatOps F]

/-- The self weights summed over the relation axis. -/
theorem wsum_s (V : Valuation τ sig (Elt F)) :
    StableHlo.after hostOps3 V (Proc.devRef .tc main_v82)
      = Host.reduceAdd (V (Proc.devRef .tc main_arg6)) (constant S_ .f32 0x00000000#32) reducesTo_S3x6x32_S6x32_d0 h_S_ := by
  after_results
  all_goals rfl

/-- The self biases summed over the relation axis. -/
theorem bsum_s (V : Valuation τ sig (Elt F)) :
    StableHlo.after hostOps3 V (Proc.devRef .tc main_v83)
      = Host.reduceAdd (V (Proc.devRef .tc main_arg7)) (constant S_ .f32 0x00000000#32) reducesTo_S3x32_S32_d0 h_S_ := by
  after_results
  all_goals rfl

/-- The node features, followed by rows of one constant up to the product's 114688 rows. -/
theorem padded_s (V : Valuation τ sig (Elt F)) :
    StableHlo.after hostOps3_1 V (Proc.devRef .tc main_v84)
      = pad S114688x6 ![0, 0] ![14688, 0] ![0, 0] (V (Proc.devRef .tc main_arg0)) (sitofp .f32 (V (Proc.devRef .tc main_c_18)))
          pads_S100000x6_S114688x6_0146880_000 h_S_ := by
  after_results
  all_goals rfl

/-- The summed bias as a one-row matrix. -/
theorem brow_s (V : Valuation τ sig (Elt F)) :
    StableHlo.after hostOps3_2 V (Proc.devRef .tc main_v85)
      = shapeCast S1x32 (V (Proc.devRef .tc main_v83)) shapeCasts_S32_S1x32 := by
  after_results
  all_goals rfl

/-- The first 100000 rows of the product's output. -/
theorem slice_s (V : Valuation τ sig (Elt F)) :
    StableHlo.after hostOps4 V (Proc.devRef .tc main_v87)
      = extractStridedSlice S100000x32 ![0, 0] (V (Proc.devRef .tc main_v86)) slices_S114688x32_S100000x32_0_0 := by
  after_results
  all_goals rfl

end Cert.KernelIdeal.KChain

end
-- ==== Proof.KChain.B0.Self.lean ====
/-
  The self term of the head block, evaluated. The three relations' self weights and self biases are summed first, so one
  product region — over the launch node features padded to its grid, the summed weights and the summed bias as a one-row
  matrix — computes the whole self term; its output cut back to the 100000 nodes is the specification's self product of the
  launch contents, and still is where the combination reads it.
-/
import proofs.«147434_j38603166057109_1_alg».proof.Proof.Gen.KernelIdeal.Frame
import proofs.«147434_j38603166057109_1_alg».proof.Proof.Spec
import proofs.«147434_j38603166057109_1_alg».proof.Proof.RV.MM3
import proofs.«147434_j38603166057109_1_alg».proof.Proof.KOps
import proofs.«147434_j38603166057109_1_alg».proof.Proof.KChain.CarryB0s
import proofs.«147434_j38603166057109_1_alg».proof.Proof.KChain.B0.S3
import proofs.«147434_j38603166057109_1_alg».proof.Proof.KChain.B0.Args

noncomputable section

namespace Cert.KernelIdeal.KChain

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The product's left operand: the launch node features, then rows of a constant. -/
theorem x_s (c : Dev nD) :
    W15 m ρ c (Proc.devRef .tc main_v84)
      = pad S114688x6 ![0, 0] ![14688, 0] ![0, 0] (m ((c : Thread nD τ).loc main_arg0))
          (sitofp (F := Ideal) .f32 (W13 m ρ c (Proc.devRef .tc main_c_18))) pads_S100000x6_S114688x6_0146880_000 h_S_ :=
  (CarryB0s.c_v84_14_15 m ρ c).trans ((padded_s (W13 m ρ c)).trans
    (congrArg (fun x : Vec Ideal S100000x6 .f32 => pad S114688x6 ![0, 0] ![14688, 0] ![0, 0] x
      (sitofp (F := Ideal) .f32 (W13 m ρ c (Proc.devRef .tc main_c_18))) pads_S100000x6_S114688x6_0146880_000 h_S_) (arg0_at_13 m ρ c)))

/-- The product's weights: the self weights summed over the three relations. -/
theorem w_s (c : Dev nD) :
    W15 m ρ c (Proc.devRef .tc main_v82) = Spec.wSum (m ((c : Thread nD τ).loc main_arg6)) :=
  (CarryB0s.c_v82_13_15 m ρ c).trans ((wsum_s (W12 m ρ c)).trans
    ((congrArg (fun a : Vec Ideal S3x6x32 .f32 =>
        Host.reduceAdd a (constant (F := Ideal) S_ .f32 0x00000000#32) reducesTo_S3x6x32_S6x32_d0 h_S_)
      (arg6_at_12 m ρ c)).trans (KOps.wSum_eq _)))

/-- The summed bias before it is made a one-row matrix. -/
theorem bvec_s (c : Dev nD) :
    W14 m ρ c (Proc.devRef .tc main_v83) = (Spec.bSum (m ((c : Thread nD τ).loc main_arg7)) : Vec Ideal S32 .f32) :=
  (CarryB0s.c_v83_13_14 m ρ c).trans ((bsum_s (W12 m ρ c)).trans
    ((congrArg (fun a : Vec Ideal S3x32 .f32 =>
        Host.reduceAdd a (constant (F := Ideal) S_ .f32 0x00000000#32) reducesTo_S3x32_S32_d0 h_S_)
      (arg7_at_12 m ρ c)).trans (KOps.bSum_eq _)))

/-- The product's bias operand. -/
theorem b_s (c : Dev nD) :
    W15 m ρ c (Proc.devRef .tc main_v85)
      = shapeCast S1x32 (Spec.bSum (m ((c : Thread nD τ).loc main_arg7)) : Vec Ideal S32 .f32) shapeCasts_S32_S1x32 :=
  (brow_s (W14 m ρ c)).trans
    (congrArg (fun v : Vec Ideal S32 .f32 => shapeCast S1x32 v shapeCasts_S32_S1x32) (bvec_s m ρ c))

/-- What the product region leaves: entry by entry the product of its operands plus the bias row. -/
theorem prod_s (c : Dev nD) :
    W16 m ρ c (Proc.devRef .tc main_v86)
      = Spec.mmb (M := 114688) (D := 6) (W15 m ρ c (Proc.devRef .tc main_v84)) (W15 m ρ c (Proc.devRef .tc main_v82))
          (W15 m ρ c (Proc.devRef .tc main_v85)) :=
  (W16_arr m ρ c 3).trans (RV.final3 (V15 m ρ) c)

/-- The self term, where it is computed: every node's features through the summed weights, plus the summed bias. -/
theorem self_s (c : Dev nD) :
    W17 m ρ c (Proc.devRef .tc main_v87)
      = Spec.msg (m ((c : Thread nD τ).loc main_arg0) : Vec Ideal S100000x6 .f32) (Spec.wSum (m ((c : Thread nD τ).loc main_arg6))) (Spec.bSum (m ((c : Thread nD τ).loc main_arg7))) := by
  refine (slice_s (W16 m ρ c)).trans ?_
  rw [prod_s m ρ c, x_s m ρ c, w_s m ρ c, b_s m ρ c]
  exact KOps.msg_100000_6 _ _ _ _

/-- … and where the combination reads it. -/
theorem self_at (c : Dev nD) :
    W23 m ρ c (Proc.devRef .tc main_v87)
      = Spec.msg (m ((c : Thread nD τ).loc main_arg0) : Vec Ideal S100000x6 .f32) (Spec.wSum (m ((c : Thread nD τ).loc main_arg6))) (Spec.bSum (m ((c : Thread nD τ).loc main_arg7))) :=
  (CarryB0s.c_v87_17_23 m ρ c).trans (self_s m ρ c)

end Cert.KernelIdeal.KChain

end
-- ==== Proof.KChain.B0.lean ====
/-
  The head block of the kernel program, evaluated from the launch to the exit of its combination region. The three
  relations' aggregates and the self term are each padded with rows of a constant to the combination's grid; the region
  adds the aggregates left to right and then the self term (times one); cutting the result back to the 100000 nodes drops
  exactly the rows the paddings added, which leaves the specification's head block of the launch contents.
-/
import proofs.«147434_j38603166057109_1_alg».proof.Proof.Gen.KernelIdeal.Frame
import proofs.«147434_j38603166057109_1_alg».proof.Proof.Spec
import proofs.«147434_j38603166057109_1_alg».proof.Proof.RV.CB4
import proofs.«147434_j38603166057109_1_alg».proof.Proof.KOps
import proofs.«147434_j38603166057109_1_alg».proof.Proof.KChain.CarryB0s
import proofs.«147434_j38603166057109_1_alg».proof.Proof.KChain.B0.S4
import proofs.«147434_j38603166057109_1_alg».proof.Proof.KChain.B0.Rel0
import proofs.«147434_j38603166057109_1_alg».proof.Proof.KChain.B0.Rel1
import proofs.«147434_j38603166057109_1_alg».proof.Proof.KChain.B0.Rel2
import proofs.«147434_j38603166057109_1_alg».proof.Proof.KChain.B0.Self

noncomputable section

namespace Cert.KernelIdeal.KChain

open Idealize.ShloMosaic Idealize.ShloMosaic.TcCoe Idealize.SL.Sem Cert.KernelIdeal Cert.KernelIdeal.Gen

variable (m : (ℓ : Loc nD τ sig) → Buf (Elt Ideal) ℓ) (ρ : Dev nD → PrngReg)

/-- The combination's first operand: relation 0's aggregate of the launch contents, padded. -/
theorem op_a0 (c : Dev nD) :
    W24 m ρ c (Proc.devRef .tc main_v88)
      = pad S106496x32 ![0, 0] ![6496, 0] ![0, 0]
          (Spec.A0_6 (m ((c : Thread nD τ).loc main_arg0)) (m ((c : Thread nD τ).loc main_arg1))
          (Spec.wRel 0 (m ((c : Thread nD τ).loc main_arg4))) (Spec.bRel 0 (m ((c : Thread nD τ).loc main_arg5))))
          (sitofp (F := Ideal) .f32 (W17 m ρ c (Proc.devRef .tc main_c_19))) pads_S100000x32_S106496x32_064960_000 h_S_ :=
  (CarryB0s.c_v88_18_24 m ρ c).trans ((pad_a0 (W17 m ρ c)).trans
    (congrArg (fun a : Vec Ideal S100000x32 .f32 => pad S106496x32 ![0, 0] ![6496, 0] ![0, 0] a
      (sitofp (F := Ideal) .f32 (W17 m ρ c (Proc.devRef .tc main_c_19))) pads_S100000x32_S106496x32_064960_000 h_S_) (rel0_at m ρ c)))

/-- Its second operand: relation 1's aggregate, padded. -/
theorem op_a1 (c : Dev nD) :
    W24 m ρ c (Proc.devRef .tc main_v89)
      = pad S106496x32 ![0, 0] ![6496, 0] ![0, 0]
          (Spec.A1_6 (m ((c : Thread nD τ).loc main_arg0)) (m ((c : Thread nD τ).loc main_arg2))
          (Spec.wRel 1 (m ((c : Thread nD τ).loc main_arg4))) (Spec.bRel 1 (m ((c : Thread nD τ).loc main_arg5))))
          (sitofp (F := Ideal) .f32 (W19 m ρ c (Proc.devRef .tc main_c_20))) pads_S100000x32_S106496x32_064960_000 h_S_ :=
  (CarryB0s.c_v89_20_24 m ρ c).trans ((pad_a1 (W19 m ρ c)).trans
    (congrArg (fun a : Vec Ideal S100000x32 .f32 => pad S106496x32 ![0, 0] ![6496, 0] ![0, 0] a
      (sitofp (F := Ideal) .f32 (W19 m ρ c (Proc.devRef .tc main_c_20))) pads_S100000x32_S106496x32_064960_000 h_S_) (rel1_at m ρ c)))

/-- Its third operand: relation 2's aggregate, padded. -/
theorem op_a2 (c : Dev nD) :
    W24 m ρ c (Proc.devRef .tc main_v90)
      = pad S106496x32 ![0, 0] ![6496, 0] ![0, 0]
          (Spec.A2_6 (m ((c : Thread nD τ).loc main_arg0)) (m ((c : Thread nD τ).loc main_arg3))
          (Spec.wRel 2 (m ((c : Thread nD τ).loc main_arg4))) (Spec.bRel 2 (m ((c : Thread nD τ).loc main_arg5))))
          (sitofp (F := Ideal) .f32 (W21 m ρ c (Proc.devRef .tc main_c_21))) pads_S100000x32_S106496x32_064960_000 h_S_ :=
  (CarryB0s.c_v90_22_24 m ρ c).trans ((pad_a2 (W21 m ρ c)).trans
    (congrArg (fun a : Vec Ideal S100000x32 .f32 => pad S106496x32 ![0, 0] ![6496, 0] ![0, 0] a
      (sitofp (F := Ideal) .f32 (W21 m ρ c (Proc.devRef .tc main_c_21))) pads_S100000x32_S106496x32_064960_000 h_S_) (rel2_at m ρ c)))

/-- Its fourth operand: the self term, padded. -/
theorem op_d (c : Dev nD) :
    W24 m ρ c (Proc.devRef .tc main_v91)
      = pad S106496x32 ![0, 0] ![6496, 0] ![0, 0]
          (Spec.msg (m ((c : Thread nD τ).loc main_arg0) : Vec Ideal S100000x6 .f32) (Spec.wSum (m ((c : Thread nD τ).loc main_arg6))) (Spec.bSum (m ((c : Thread nD τ).loc main_arg7))))
          (sitofp (F := Ideal) .f32 (W23 m ρ c (Proc.devRef .tc main_c_22))) pads_S100000x32_S106496x32_064960_000 h_S_ :=
  (pad_d (W23 m ρ c)).trans
    (congrArg (fun a : Vec Ideal S100000x32 .f32 => pad S106496x32 ![0, 0] ![6496, 0] ![0, 0] a
      (sitofp (F := Ideal) .f32 (W23 m ρ c (Proc.devRef .tc main_c_22))) pads_S100000x32_S106496x32_064960_000 h_S_) (self_at m ρ c))

/-- What the combination region leaves: entry by entry the three aggregates added left to right, plus one times the
    self term. -/
theorem comb_head (c : Dev nD) :
    W25 m ρ c (Proc.devRef .tc main_v92)
      = Spec.comb (S := S106496x32) (Ideal.ofBits .f32 0x3F800000#32) (W24 m ρ c (Proc.devRef .tc main_v88))
          (W24 m ρ c (Proc.devRef .tc main_v89)) (W24 m ρ c (Proc.devRef .tc main_v90)) (W24 m ρ c (Proc.devRef .tc main_v91)) :=
  (W25_arr m ρ c 4).trans (RV.final4 (V24 m ρ) c)

/-- The head block: the combination's output, cut back to the 100000 nodes, is the specification's head block (in the
    kernel's arrangement) of the launch contents. -/
theorem block0 (c : Dev nD) :
    Spec.unpadN (F := Ideal) (Gen.W25 (F := Ideal) m ρ c (Proc.devRef .tc main_v92))
      = Spec.headK (m ((c : Thread nD τ).loc main_arg0)) (m ((c : Thread nD τ).loc main_arg1)) (m ((c : Thread nD τ).loc main_arg2)) (m ((c : Thread nD τ).loc main_arg3))
          (m ((c : Thread nD τ).loc main_arg4)) (m ((c : Thread nD τ).loc main_arg5)) (m ((c : Thread nD τ).loc main_arg6)) (m ((c : Thread nD τ).loc main_arg7)) := by
  unfold Spec.headK
  rw [comb_head m ρ c, op_a0 m ρ c, op_a1 m ρ c, op_a2 m ρ c, op_d m ρ c]
  exact KOps.comb_unpad _ _ _ _ _ _ _ _ _

end Cert.KernelIdeal.KChain

end
-- ==== Proof.RV.Pay32.lean ====
/-
  The payload of a matmul-plus-bias region over rows of 32 features, read at one entry: a block of 16384 rows X, the weights W
  and the bias row b go to  X W + b,  entry (p, q) being  Σₖ X[p, k] · W[k, q] + b[0, q].  The changes of format to bf16
  are the identity at the extended reals, the product into a zero accumulator is the plain sum over the one contracted
  axis, and the bias row is repeated down the rows.
-/
import proofs.«147434_j38603166057109_1_alg».proof.Proof.Gen.KernelIdeal.Skeleton
import Idealize.ShloMosaic.Lib.ValueIdx
import Idealize.ShloMosaic.Lib.Pipeline.Value
import Idealize.ShloMosaic.PureOps.Ideal.Laws

noncomputable section

open scoped BigOperators

namespace Cert.KernelIdeal.RV

open Idealize.ShloMosaic Idealize.ShloMosaic.ValueIdx Cert.KernelIdeal Cert.KernelIdeal.Gen

/-! ## The product's operand indices, axis by axis -/

/-- The left operand's row is the output's row. -/
theorem lhs32_0 (i : S16384x32.Idx) (q : dot_S16384x32_S32x32_S16384x32_1_0_0_1_n_n.contr.Idx) :
    (dot_S16384x32_S32x32_S16384x32_1_0_0_1_n_n.lhsIdx i q 0).val = (i 0).val := by
  unfold DotDims.lhsIdx
  rw [dif_neg (show ¬(0 : Fin S16384x32.rank) ∈ dot_S16384x32_S32x32_S16384x32_1_0_0_1_n_n.lhsBatch by decide),
    dif_pos (show (0 : Fin S16384x32.rank) ∈ dot_S16384x32_S32x32_S16384x32_1_0_0_1_n_n.lhsNonContracting by decide)]
  rfl

/-- The left operand's column is the contracted position. -/
theorem lhs32_1 (i : S16384x32.Idx) (q : dot_S16384x32_S32x32_S16384x32_1_0_0_1_n_n.contr.Idx) :
    (dot_S16384x32_S32x32_S16384x32_1_0_0_1_n_n.lhsIdx i q 1).val = (q ⟨0, by decide⟩).val :=
  dot_S16384x32_S32x32_S16384x32_1_0_0_1_n_n.lhsIdx_val_of_single rfl i q

/-- The right operand's row is the contracted position. -/
theorem rhs32_0 (i : S16384x32.Idx) (q : dot_S16384x32_S32x32_S16384x32_1_0_0_1_n_n.contr.Idx) :
    (dot_S16384x32_S32x32_S16384x32_1_0_0_1_n_n.rhsIdx i q 0).val = (q ⟨0, by decide⟩).val :=
  dot_S16384x32_S32x32_S16384x32_1_0_0_1_n_n.rhsIdx_val_of_single rfl i q

/-- The right operand's column is the output's column. -/
theorem rhs32_1 (i : S16384x32.Idx) (q : dot_S16384x32_S32x32_S16384x32_1_0_0_1_n_n.contr.Idx) :
    (dot_S16384x32_S32x32_S16384x32_1_0_0_1_n_n.rhsIdx i q 1).val = (i 1).val := by
  unfold DotDims.rhsIdx
  rw [dif_neg (show ¬(1 : Fin S32x32.rank) ∈ dot_S16384x32_S32x32_S16384x32_1_0_0_1_n_n.rhsBatch by decide),
    dif_pos (show (1 : Fin S32x32.rank) ∈ dot_S16384x32_S32x32_S16384x32_1_0_0_1_n_n.rhsNonContracting by decide)]
  rfl

/-! ## The payload at an entry -/

/-- Entry (p, q) of the payload:  Σₖ X[p, k] · W[k, q] + b[0, q]. -/
theorem pay32_apply (x0 : Vec Ideal S16384x32 .f32) (x1 : Vec Ideal S32x32 .f32) (x2 : Vec Ideal S1x32 .f32)
    (p : Fin 16384) (q : Fin 32) :
    k5_pay1 (F := Ideal) x0 x1 x2 (ix2 p q)
      = (∑ k : Fin 32, x0 (ix2 p k) * x1 (ix2 k q)) + x2 (ix2 (0 : Fin 1) q) := by
  unfold k5_pay1
  simp only [shapeCast_self, matmul]
  rw [addf_apply, Ideal.matmul_constant_zero_apply,
    ← Equiv.sum_comp (contrEquiv1 dot_S16384x32_S32x32_S16384x32_1_0_0_1_n_n 32 rfl rfl).symm]
  congr 1
  · refine Finset.sum_congr rfl fun k _ => ?_
    have hk := contrEquiv1_symm_val dot_S16384x32_S32x32_S16384x32_1_0_0_1_n_n 32 rfl rfl k
    have el : dot_S16384x32_S32x32_S16384x32_1_0_0_1_n_n.lhsIdx (ix2 p q)
        ((contrEquiv1 dot_S16384x32_S32x32_S16384x32_1_0_0_1_n_n 32 rfl rfl).symm k) = ix2 p k :=
      funext fun a => Fin.ext (by
        match a with
        | ⟨0, _⟩ => exact lhs32_0 _ _
        | ⟨1, _⟩ => exact (lhs32_1 _ _).trans hk)
    have er : dot_S16384x32_S32x32_S16384x32_1_0_0_1_n_n.rhsIdx (ix2 p q)
        ((contrEquiv1 dot_S16384x32_S32x32_S16384x32_1_0_0_1_n_n 32 rfl rfl).symm k) = ix2 k q :=
      funext fun a => Fin.ext (by
        match a with
        | ⟨0, _⟩ => exact (rhs32_0 _ _).trans hk
        | ⟨1, _⟩ => exact rhs32_1 _ _)
    rw [truncf_apply, truncf_apply, el, er]
  · refine broadcastTo_apply x2 _ (ix2 p q) (ix2 (0 : Fin 1) q) fun a => ?_
    match a with
    | ⟨0, _⟩ => rfl
    | ⟨1, _⟩ => rfl

end Cert.KernelIdeal.RV

end
-- ==== Proof.RV.MM5.lean ====
/-
  What region 5 leaves in its output array.  The region multiplies a padded array X of 1605632 rows of 32 features by the
  weights W and adds the bias row b, 16384 rows at a time over a grid of 98 points: point t reads rows 16384·t … 16384·t + 16383
  of X and the whole of W and b, and writes the same rows of the output.  Each point's block is therefore the restriction of
  ONE function of the three arrays,  (p, q) ↦ Σₖ X[p, k] · W[k, q] + b[0, q],  and the 98 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz5 : (![0, 0] : Fin 2 → Nat) = fun _ => 0 := funext fun a => by fin_cases a <;> rfl

/-- The block indices at point t: the rows' windows sit at block t, the weights' and the bias's at block 0. -/
theorem idx_facts5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

/-- One entry of a point's payload is the same entry of the whole product: the block x0 holds rows 16384·n … of X, the
    blocks x1 and x2 are W and b, and entry j of the block is entry i of the array, 16384·n rows further down. -/
theorem point5 (x0 : Vec Ideal S16384x32 .f32) (x1 : Vec Ideal S32x32 .f32) (x2 : Vec Ideal S1x32 .f32)
    (X : Vec Ideal S1605632x32 .f32) (W : Vec Ideal S32x32 .f32) (B : Vec Ideal S1x32 .f32)
    (n : Nat) (j : S16384x32.Idx) (i : S1605632x32.Idx)
    (hi0 : (i 0).val = n * 16384 + (j 0).val) (hi1 : (i 1).val = (j 1).val)
    (h0 : ∀ (y : S16384x32.Idx) (k : S1605632x32.Idx), (k 0).val = n * 16384 + (y 0).val → (k 1).val = (y 1).val → x0 y = X k)
    (h1 : x1 = W) (h2 : x2 = B) :
    k5_pay1 (F := Ideal) x0 x1 x2 j = Spec.mmb (M := 1605632) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed5_eq (c : Dev nD) (t : Fin cfg5.N) :
    (dat5 (F := Ideal) V c).flushed 3 t = ((cfg5.win 3).blk t).view.read (Elt Ideal)
      (Spec.mmb (M := 1605632) (D := 32) (V c (Pipeline.arrRef spec5 0)) (V c (Pipeline.arrRef spec5 1)) (V c (Pipeline.arrRef spec5 2))) := by
  show (cfg5.win 3).cut (grid5.coords t) ((dat5 V c).after 3 t) = _
  rw [after5_3]
  unfold out5_3
  rw [View.canon_unit_zero hz5]
  simp only [View.ld_unit_zero (S := S16384x32) hz5, View.ld_unit_zero (S := S32x32) hz5, View.ld_unit_zero (S := S1x32) hz5]
  obtain ⟨e00, e01, e10, e11, e20, e21, e30, e31⟩ := idx_facts5 t
  funext j
  show k5_pay1 (F := Ideal) (iblk5 V c 0 t) (iblk5 V c 1 t) (iblk5 V c 2 t) j
    = Spec.mmb (M := 1605632) (D := 32) (V c (Pipeline.arrRef spec5 0)) (V c (Pipeline.arrRef spec5 1)) (V c (Pipeline.arrRef spec5 2))
        (((cfg5.win 3).blk t).view.emb j)
  refine point5 _ _ _ _ _ _ t.val j _ ?_ ?_ ?_ ?_ ?_
  · show win5_3.index t (0 : Fin 2) * 16384 + 1 * (j 0).val = t.val * 16384 + (j 0).val
    omega
  · show win5_3.index t (1 : Fin 2) * 32 + 1 * (j 1).val = (j 1).val
    omega
  · intro y k hk0 hk1
    have e : ((cfg5.win 0).blk t).view.emb y = k := by
      funext a; apply Fin.ext
      match a with
      | ⟨0, _⟩ => show win5_0.index t (0 : Fin 2) * 16384 + 1 * (y 0).val = (k 0).val; omega
      | ⟨1, _⟩ => show win5_0.index t (1 : Fin 2) * 32 + 1 * (y 1).val = (k 1).val; omega
    show V c (Pipeline.arrRef spec5 0) (((cfg5.win 0).blk t).view.emb y) = V c (Pipeline.arrRef spec5 0) k
    rw [e]
  · funext y
    have e : ((cfg5.win 1).blk t).view.emb y = y := by
      funext a; apply Fin.ext
      match a with
      | ⟨0, _⟩ => show win5_1.index t (0 : Fin 2) * 32 + 1 * (y 0).val = (y 0).val; omega
      | ⟨1, _⟩ => show win5_1.index t (1 : Fin 2) * 32 + 1 * (y 1).val = (y 1).val; omega
    show V c (Pipeline.arrRef spec5 1) (((cfg5.win 1).blk t).view.emb y) = V c (Pipeline.arrRef spec5 1) y
    rw [e]
  · funext y
    have e : ((cfg5.win 2).blk t).view.emb y = y := by
      funext a; apply Fin.ext
      match a with
      | ⟨0, _⟩ => show win5_2.index t (0 : Fin 2) * 1 + 1 * (y 0).val = (y 0).val; omega
      | ⟨1, _⟩ => show win5_2.index t (1 : Fin 2) * 32 + 1 * (y 1).val = (y 1).val; omega
    show V c (Pipeline.arrRef spec5 2) (((cfg5.win 2).blk t).view.emb y) = V c (Pipeline.arrRef spec5 2) y
    rw [e]

/-- An index of the output array is in point t's block iff each coordinate is in the block's range on its axis. -/
theorem mem_blk5 (t : Fin cfg5.N) (i : S1605632x32.Idx) :
    i ∈ ((cfg5.win 3).blk t).view.set ↔ ∀ a : Fin 2, win5_3.index t a * S16384x32.size a ≤ (i a).val ∧ (i a).val < win5_3.index t a * S16384x32.size a + S16384x32.size a := by
  show i ∈ ((View.whole (Pipeline.arrRef spec5 3)).slice (win5_3.rect t)).set ↔ _
  rw [View.set_slice_whole, Rect.mem_set_unit]
  exact Iff.rfl

/-- Every entry of the output array is in some point's block: row r is in the block of point r / 16384. -/
theorem cover5 (i : S1605632x32.Idx) :
    ∃ t : Fin cfg5.N, (cfg5.win 3).flush t = true ∧ i ∈ ((cfg5.win 3).blk t).view.set := by
  have hi0 : (i 0).val < 1605632 := (i 0).isLt
  have hi1 : (i 1).val < 32 := (i 1).isLt
  have hN : grid5.N = 98 := N_5
  let t : Fin cfg5.N := ⟨(i 0).val / 16384, by show (i 0).val / 16384 < grid5.N; rw [hN]; omega⟩
  obtain ⟨-, -, -, -, -, -, e30, e31⟩ := idx_facts5 t
  have ht : t.val = (i 0).val / 16384 := rfl
  refine ⟨t, flush5_3 t, ?_⟩
  rw [mem_blk5]
  intro a
  match a with
  | ⟨0, _⟩ => show win5_3.index t (0 : Fin 2) * 16384 ≤ (i 0).val ∧ (i 0).val < win5_3.index t (0 : Fin 2) * 16384 + 16384; omega
  | ⟨1, _⟩ => show win5_3.index t (1 : Fin 2) * 32 ≤ (i 1).val ∧ (i 1).val < win5_3.index t (1 : Fin 2) * 32 + 32; omega

/-- THE OUTPUT ARRAY after the region: entry (p, q) is Σₖ X[p, k] · W[k, q] + b[0, q] over the whole padded array X. -/
theorem final5 (c : Dev nD) : (Gen.dat5 (F := Ideal) V c).arrAt 3 cfg5.N
    = Spec.mmb (M := 1605632) (D := 32) (V c (Pipeline.arrRef spec5 0)) (V c (Pipeline.arrRef spec5 1)) (V c (Pipeline.arrRef spec5 2)) :=
  (dat5 (F := Ideal) V c).arrAt_eq_of_cover 3 _ (fun t _ => flushed5_eq V c t) cover5

end Cert.KernelIdeal.RV

end
-- ==== Proof.KChain.Args.lean ====
/-
  The three edge lists and the layers' weights and biases are arguments of the program: no host operation and no region
  writes them, so at the entry of each residual layer every one of them still holds what it held at the launch.
-/
import proofs.«147434_j38603166057109_1_alg».proof.Proof.KChain.CarryArgs0
import proofs.«147434_j38603166057109_1_alg».proof.Proof.KChain.CarryArgs1
import proofs.«147434_j38603166057109_1_alg».proof.Proof.KChain.CarryArgs2
import proofs.«147434_j38603166057109_1_alg».proof.Proof.KChain.CarryArgs3

noncomputable section

namespace Cert.KernelIdeal.KChain.Args

open Idealize.ShloMosaic Idealize.SL.Sem Cert.KernelIdeal Cert.KernelIdeal.Gen

variable {F : FTy → Type} [FloatOps F]
variable (m : (ℓ : Loc nD τ sig) → Buf (Elt F) ℓ) (ρ : Dev nD → PrngReg)

/-- `arg1` at the entry of each of the four layers. -/
theorem arg1_25 (c : Dev nD) : W25 m ρ c (Proc.devRef .tc main_arg1) = m ((c.tc : Thread nD τ).loc main_arg1) :=
  (CarryArgs0.c_arg1_0_25 m ρ c).trans rfl
theorem arg1_46 (c : Dev nD) : W46 m ρ c (Proc.devRef .tc main_arg1) = m ((c.tc : Thread nD τ).loc main_arg1) :=
  (CarryArgs1.c_arg1_25_46 m ρ c).trans (arg1_25 m ρ c)
theorem arg1_67 (c : Dev nD) : W67 m ρ c (Proc.devRef .tc main_arg1) = m ((c.tc : Thread nD τ).loc main_arg1) :=
  (CarryArgs2.c_arg1_46_67 m ρ c).trans (arg1_46 m ρ c)
theorem arg1_88 (c : Dev nD) : W88 m ρ c (Proc.devRef .tc main_arg1) = m ((c.tc : Thread nD τ).loc main_arg1) :=
  (CarryArgs3.c_arg1_67_88 m ρ c).trans (arg1_67 m ρ c)

/-- `arg2` at the entry of each of the four layers. -/
theorem arg2_25 (c : Dev nD) : W25 m ρ c (Proc.devRef .tc main_arg2) = m ((c.tc : Thread nD τ).loc main_arg2) :=
  (CarryArgs0.c_arg2_0_25 m ρ c).trans rfl
theorem arg2_46 (c : Dev nD) : W46 m ρ c (Proc.devRef .tc main_arg2) = m ((c.tc : Thread nD τ).loc main_arg2) :=
  (CarryArgs1.c_arg2_25_46 m ρ c).trans (arg2_25 m ρ c)
theorem arg2_67 (c : Dev nD) : W67 m ρ c (Proc.devRef .tc main_arg2) = m ((c.tc : Thread nD τ).loc main_arg2) :=
  (CarryArgs2.c_arg2_46_67 m ρ c).trans (arg2_46 m ρ c)
theorem arg2_88 (c : Dev nD) : W88 m ρ c (Proc.devRef .tc main_arg2) = m ((c.tc : Thread nD τ).loc main_arg2) :=
  (CarryArgs3.c_arg2_67_88 m ρ c).trans (arg2_67 m ρ c)

/-- `arg3` at the entry of each of the four layers. -/
theorem arg3_25 (c : Dev nD) : W25 m ρ c (Proc.devRef .tc main_arg3) = m ((c.tc : Thread nD τ).loc main_arg3) :=
  (CarryArgs0.c_arg3_0_25 m ρ c).trans rfl
theorem arg3_46 (c : Dev nD) : W46 m ρ c (Proc.devRef .tc main_arg3) = m ((c.tc : Thread nD τ).loc main_arg3) :=
  (CarryArgs1.c_arg3_25_46 m ρ c).trans (arg3_25 m ρ c)
theorem arg3_67 (c : Dev nD) : W67 m ρ c (Proc.devRef .tc main_arg3) = m ((c.tc : Thread nD τ).loc main_arg3) :=
  (CarryArgs2.c_arg3_46_67 m ρ c).trans (arg3_46 m ρ c)
theorem arg3_88 (c : Dev nD) : W88 m ρ c (Proc.devRef .tc main_arg3) = m ((c.tc : Thread nD τ).loc main_arg3) :=
  (CarryArgs3.c_arg3_67_88 m ρ c).trans (arg3_67 m ρ c)

/-- `arg8` at the entry of each of the four layers. -/
theorem arg8_25 (c : Dev nD) : W25 m ρ c (Proc.devRef .tc main_arg8) = m ((c.tc : Thread nD τ).loc main_arg8) :=
  (CarryArgs0.c_arg8_0_25 m ρ c).trans rfl
theorem arg8_46 (c : Dev nD) : W46 m ρ c (Proc.devRef .tc main_arg8) = m ((c.tc : Thread nD τ).loc main_arg8) :=
  (CarryArgs1.c_arg8_25_46 m ρ c).trans (arg8_25 m ρ c)
theorem arg8_67 (c : Dev nD) : W67 m ρ c (Proc.devRef .tc main_arg8) = m ((c.tc : Thread nD τ).loc main_arg8) :=
  (CarryArgs2.c_arg8_46_67 m ρ c).trans (arg8_46 m ρ c)
theorem arg8_88 (c : Dev nD) : W88 m ρ c (Proc.devRef .tc main_arg8) = m ((c.tc : Thread nD τ).loc main_arg8) :=
  (CarryArgs3.c_arg8_67_88 m ρ c).trans (arg8_67 m ρ c)

/-- `arg9` at the entry of each of the four layers. -/
theorem arg9_25 (c : Dev nD) : W25 m ρ c (Proc.devRef .tc main_arg9) = m ((c.tc : Thread nD τ).loc main_arg9) :=
  (CarryArgs0.c_arg9_0_25 m ρ c).trans rfl
theorem arg9_46 (c : Dev nD) : W46 m ρ c (Proc.devRef .tc main_arg9) = m ((c.tc : Thread nD τ).loc main_arg9) :=
  (CarryArgs1.c_arg9_25_46 m ρ c).trans (arg9_25 m ρ c)
theorem arg9_67 (c : Dev nD) : W67 m ρ c (Proc.devRef .tc main_arg9) = m ((c.tc : Thread nD τ).loc main_arg9) :=
  (CarryArgs2.c_arg9_46_67 m ρ c).trans (arg9_46 m ρ c)
theorem arg9_88 (c : Dev nD) : W88 m ρ c (Proc.devRef .tc main_arg9) = m ((c.tc : Thread nD τ).loc main_arg9) :=
  (CarryArgs3.c_arg9_67_88 m ρ c).trans (arg9_67 m ρ c)

end Cert.KernelIdeal.KChain.Args

end
-- ==== Proof.KChain.B1.Rel0St.lean ====
/-
  Layer 0, relation 0: what the host operations around the relation's region write, stated over ANY contents `V` of the
  buffers before the stretch — the layer's input cut back to the node count, its rows gathered at the edges' sources, the
  destination row, the layer's weight and bias slices, the padded rows, the bias as a row matrix, and the product cut back
  and averaged at the destinations.
-/
import proofs.«147434_j38603166057109_1_alg».proof.Proof.Gen.KernelIdeal.Launch
import proofs.«147434_j38603166057109_1_alg».proof.Proof.Spec
import Idealize.ShloMosaic.Lib.StableHlo.Run

set_option maxRecDepth 16384

noncomputable section

namespace Cert.KernelIdeal.KChain.B1

open Idealize.ShloMosaic Idealize.SL.Sem Cert.KernelIdeal Cert.KernelIdeal.Gen

/-! ## What the host stretches write, over any contents `V` before them -/

section Stretches

variable {F : FTy → Type} [FloatOps F] (V : Valuation τ sig (Elt F))

/-- The layer's input: the previous result without its padding rows. -/
theorem st_in : StableHlo.after hostOps5 V (Proc.devRef .tc main_v93) = Spec.unpadN (V (Proc.devRef .tc main_v92) : Vec F S106496x32 .f32) := by
  after_results_simp; rfl

/-- The input's rows at relation 0's sources. -/
theorem st_gath0 : StableHlo.after hostOps5 V (Proc.devRef .tc main_v104)
    = Spec.gath32_0 (Spec.unpadN (V (Proc.devRef .tc main_v92) : Vec F S106496x32 .f32)) (V (Proc.devRef .tc main_arg1) : Vec F S2x1600000 .i32) := by
  after_results_simp; rfl

/-- Relation 0's destination row. -/
theorem st_dst0 : StableHlo.after hostOps5 V (Proc.devRef .tc main_v97)
    = shapeCast S1600000 (extractStridedSlice S1x1600000 ![1, 0] (V (Proc.devRef .tc main_arg1) : Vec F S2x1600000 .i32)
        slices_S2x1600000_S1x1600000_1_0) shapeCasts_S1x1600000_S1600000 := by
  after_results_simp; rfl

/-- The layer's weights for relation 0. -/
theorem st_w0 : StableHlo.after hostOps5 V (Proc.devRef .tc main_v106)
    = shapeCast S32x32 (extractStridedSlice S1x1x32x32 ![0, 0, 0, 0] (V (Proc.devRef .tc main_arg8) : Vec F S4x3x32x32 .f32)
        slices_S4x3x32x32_S1x1x32x32_0_0_0_0) shapeCasts_S1x1x32x32_S32x32 := by
  after_results_simp; rfl

/-- The layer's bias for relation 0. -/
theorem st_b0 : StableHlo.after hostOps5 V (Proc.devRef .tc main_v108)
    = shapeCast S32 (extractStridedSlice S1x1x32 ![0, 0, 0] (V (Proc.devRef .tc main_arg9) : Vec F S4x3x32 .f32)
        slices_S4x3x32_S1x1x32_0_0_0) shapeCasts_S1x1x32_S32 := by
  after_results_simp; rfl

/-- The gathered rows padded to the region's grid; the padding value is the scalar the stretch itself leaves. -/
theorem st_pad0 : StableHlo.after hostOps5_1 V (Proc.devRef .tc main_v109)
    = pad S1605632x32 ![0, 0] ![5632, 0] ![0, 0] (V (Proc.devRef .tc main_v104) : Vec F S1600000x32 .f32)
        (StableHlo.after hostOps5_1 V (Proc.devRef .tc main_call8_v0) : Vec F S_ .f32) pads_S1600000x32_S1605632x32_056320_000 h_S_ := by
  after_results; rfl

/-- The bias as a one-row matrix. -/
theorem st_row0 : StableHlo.after hostOps5_2 V (Proc.devRef .tc main_v110)
    = shapeCast S1x32 (V (Proc.devRef .tc main_v108) : Vec F S32 .f32) shapeCasts_S32_S1x32 := by
  after_results; rfl

/-- The product cut back to the edge count, averaged at the destinations. -/
theorem st_agg0 : StableHlo.after hostOps6 V (Proc.devRef .tc main_v123)
    = Spec.agg0 (extractStridedSlice S1600000x32 ![0, 0] (V (Proc.devRef .tc main_v111) : Vec F S1605632x32 .f32) slices_S1605632x32_S1600000x32_0_0)
        (broadcastInDim S1600000x1 ![0] bcast_S1600000_S1600000x1_0 (V (Proc.devRef .tc main_v97) : Vec F S1600000 .i32)) := by
  after_results_simp; rfl

end Stretches

end Cert.KernelIdeal.KChain.B1

end
-- ==== Proof.KChain.B1.Rel0.lean ====
/-
  Layer 0, relation 0 (1600000 edges): from the layer's input h — the previous block's padded result cut back to the node
  count — to the relation's aggregate.  The host gathers h's rows at the edges' sources and pads them to the region's grid;
  the region multiplies the padded rows by this relation's weights of the layer and adds its bias; the host cuts the product
  back to the edge count, which gives the edges' messages, and averages the messages at the edges' destinations.
-/
import proofs.«147434_j38603166057109_1_alg».proof.Proof.Gen.KernelIdeal.Frame
import proofs.«147434_j38603166057109_1_alg».proof.Proof.Spec
import proofs.«147434_j38603166057109_1_alg».proof.Proof.RV.MM5
import proofs.«147434_j38603166057109_1_alg».proof.Proof.KOps
import proofs.«147434_j38603166057109_1_alg».proof.Proof.KChain.Args
import proofs.«147434_j38603166057109_1_alg».proof.Proof.KChain.CarryB1R0
import proofs.«147434_j38603166057109_1_alg».proof.Proof.KChain.B1.Rel0St

set_option maxRecDepth 16384

noncomputable section

namespace Cert.KernelIdeal.KChain.B1

open Idealize.ShloMosaic Idealize.SL.Sem Cert.KernelIdeal Cert.KernelIdeal.Gen

section Chain

variable (m : (ℓ : Loc nD τ sig) → Buf (Elt Ideal) ℓ) (ρ : Dev nD → PrngReg) (c : Dev nD)

/-- Region 5 leaves the product of its entry arrays. -/
theorem region0 : W29 m ρ c (Proc.devRef .tc main_v111)
    = Spec.mmb (M := 1605632) (D := 32) (W28 m ρ c (Proc.devRef .tc main_v109)) (W28 m ρ c (Proc.devRef .tc main_v106)) (W28 m ρ c (Proc.devRef .tc main_v110)) :=
  (W29_arr m ρ c 3).trans (RV.final5 (V28 m ρ) c)

/-- The layer's input at the boundary after the first stretch. -/
theorem input (H : Vec Ideal S100000x32 .f32) (hH : Spec.unpadN (F := Ideal) (W25 (F := Ideal) m ρ c (Proc.devRef .tc main_v92)) = H) :
    W26 m ρ c (Proc.devRef .tc main_v93) = H :=
  (st_in (W25 m ρ c)).trans hH

/-- Relation 0's aggregate of layer 0. -/
theorem aggregate0 (H : Vec Ideal S100000x32 .f32) (hH : Spec.unpadN (F := Ideal) (W25 (F := Ideal) m ρ c (Proc.devRef .tc main_v92)) = H) :
    W30 m ρ c (Proc.devRef .tc main_v123)
      = Spec.A0_32 H (m ((c.tc : Thread nD τ).loc main_arg1)) (Spec.wLay 0 0 (m ((c.tc : Thread nD τ).loc main_arg8))) (Spec.bLay 0 0 (m ((c.tc : Thread nD τ).loc main_arg9))) := by
  -- the three arrays region 5 is entered with
  have eX : W28 m ρ c (Proc.devRef .tc main_v109)
      = pad S1605632x32 ![0, 0] ![5632, 0] ![0, 0] (Spec.gath32_0 (F := Ideal) H (m ((c.tc : Thread nD τ).loc main_arg1)))
          (W27 m ρ c (Proc.devRef .tc main_call8_v0) : Vec Ideal S_ .f32) pads_S1600000x32_S1605632x32_056320_000 h_S_ := by
    rw [CarryB1R0.c_v109_27_28 m ρ c, show W27 m ρ c (Proc.devRef .tc main_v109) = _ from st_pad0 (W26 m ρ c),
      show W26 m ρ c (Proc.devRef .tc main_v104) = _ from st_gath0 (W25 m ρ c), hH, Args.arg1_25 m ρ c]
  have eW : W28 m ρ c (Proc.devRef .tc main_v106) = Spec.wLay 0 0 (m ((c.tc : Thread nD τ).loc main_arg8)) := by
    rw [CarryB1R0.c_v106_26_28 m ρ c, show W26 m ρ c (Proc.devRef .tc main_v106) = _ from st_w0 (W25 m ρ c), Args.arg8_25 m ρ c]
    exact KOps.wLay_0_0 _
  have eb : W27 m ρ c (Proc.devRef .tc main_v108) = Spec.bLay 0 0 (m ((c.tc : Thread nD τ).loc main_arg9)) := by
    rw [CarryB1R0.c_v108_26_27 m ρ c, show W26 m ρ c (Proc.devRef .tc main_v108) = _ from st_b0 (W25 m ρ c), Args.arg9_25 m ρ c]
    exact KOps.bLay_0_0 _
  have eB : W28 m ρ c (Proc.devRef .tc main_v110) = shapeCast S1x32 (Spec.bLay 0 0 (m ((c.tc : Thread nD τ).loc main_arg9))) shapeCasts_S32_S1x32 := by
    rw [show W28 m ρ c (Proc.devRef .tc main_v110) = _ from st_row0 (W27 m ρ c), eb]
  -- the destinations
  have eD : W29 m ρ c (Proc.devRef .tc main_v97)
      = shapeCast S1600000 (extractStridedSlice S1x1600000 ![1, 0] (m ((c.tc : Thread nD τ).loc main_arg1)) slices_S2x1600000_S1x1600000_1_0) shapeCasts_S1x1600000_S1600000 := by
    rw [CarryB1R0.c_v97_26_29 m ρ c, show W26 m ρ c (Proc.devRef .tc main_v97) = _ from st_dst0 (W25 m ρ c), Args.arg1_25 m ρ c]
  rw [show W30 m ρ c (Proc.devRef .tc main_v123) = _ from st_agg0 (W29 m ρ c), region0 m ρ c, eX, eW, eB, eD, KOps.msg_1600000_32]
  rfl

end Chain

end Cert.KernelIdeal.KChain.B1

end
-- ==== Proof.RV.MM6.lean ====
/-
  What region 6 leaves in its output array.  The region multiplies a padded array X of 212992 rows of 32 features by the
  weights W and adds the bias row b, 16384 rows at a time over a grid of 13 points: point t reads rows 16384·t … 16384·t + 16383
  of X and the whole of W and b, and writes the same rows of the output.  Each point's block is therefore the restriction of
  ONE function of the three arrays,  (p, q) ↦ Σₖ X[p, k] · W[k, q] + b[0, q],  and the 13 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz6 : (![0, 0] : Fin 2 → Nat) = fun _ => 0 := funext fun a => by fin_cases a <;> rfl

/-- The block indices at point t: the rows' windows sit at block t, the weights' and the bias's at block 0. -/
theorem idx_facts6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = t.val ∧ win6_3.index t (1 : Fin 2) = 0 :=
  (by decide +kernel : ∀ t : Fin grid6.N, _)

/-- One entry of a point's payload is the same entry of the whole product: the block x0 holds rows 16384·n … of X, the
    blocks x1 and x2 are W and b, and entry j of the block is entry i of the array, 16384·n rows further down. -/
theorem point6 (x0 : Vec Ideal S16384x32 .f32) (x1 : Vec Ideal S32x32 .f32) (x2 : Vec Ideal S1x32 .f32)
    (X : Vec Ideal S212992x32 .f32) (W : Vec Ideal S32x32 .f32) (B : Vec Ideal S1x32 .f32)
    (n : Nat) (j : S16384x32.Idx) (i : S212992x32.Idx)
    (hi0 : (i 0).val = n * 16384 + (j 0).val) (hi1 : (i 1).val = (j 1).val)
    (h0 : ∀ (y : S16384x32.Idx) (k : S212992x32.Idx), (k 0).val = n * 16384 + (y 0).val → (k 1).val = (y 1).val → x0 y = X k)
    (h1 : x1 = W) (h2 : x2 = B) :
    k6_pay1 (F := Ideal) x0 x1 x2 j = Spec.mmb (M := 212992) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed6_eq (c : Dev nD) (t : Fin cfg6.N) :
    (dat6 (F := Ideal) V c).flushed 3 t = ((cfg6.win 3).blk t).view.read (Elt Ideal)
      (Spec.mmb (M := 212992) (D := 32) (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero hz6]
  simp only [View.ld_unit_zero (S := S16384x32) hz6, View.ld_unit_zero (S := S32x32) hz6, View.ld_unit_zero (S := S1x32) hz6]
  obtain ⟨e00, e01, e10, e11, e20, e21, e30, e31⟩ := idx_facts6 t
  funext j
  show k6_pay1 (F := Ideal) (iblk6 V c 0 t) (iblk6 V c 1 t) (iblk6 V c 2 t) j
    = Spec.mmb (M := 212992) (D := 32) (V c (Pipeline.arrRef spec6 0)) (V c (Pipeline.arrRef spec6 1)) (V c (Pipeline.arrRef spec6 2))
        (((cfg6.win 3).blk t).view.emb j)
  refine point6 _ _ _ _ _ _ t.val j _ ?_ ?_ ?_ ?_ ?_
  · show win6_3.index t (0 : Fin 2) * 16384 + 1 * (j 0).val = t.val * 16384 + (j 0).val
    omega
  · show win6_3.index t (1 : Fin 2) * 32 + 1 * (j 1).val = (j 1).val
    omega
  · intro y k hk0 hk1
    have e : ((cfg6.win 0).blk t).view.emb y = k := by
      funext a; apply Fin.ext
      match a with
      | ⟨0, _⟩ => show win6_0.index t (0 : Fin 2) * 16384 + 1 * (y 0).val = (k 0).val; omega
      | ⟨1, _⟩ => show win6_0.index t (1 : Fin 2) * 32 + 1 * (y 1).val = (k 1).val; omega
    show V c (Pipeline.arrRef spec6 0) (((cfg6.win 0).blk t).view.emb y) = V c (Pipeline.arrRef spec6 0) k
    rw [e]
  · funext y
    have e : ((cfg6.win 1).blk t).view.emb y = y := by
      funext a; apply Fin.ext
      match a with
      | ⟨0, _⟩ => show win6_1.index t (0 : Fin 2) * 32 + 1 * (y 0).val = (y 0).val; omega
      | ⟨1, _⟩ => show win6_1.index t (1 : Fin 2) * 32 + 1 * (y 1).val = (y 1).val; omega
    show V c (Pipeline.arrRef spec6 1) (((cfg6.win 1).blk t).view.emb y) = V c (Pipeline.arrRef spec6 1) y
    rw [e]
  · funext y
    have e : ((cfg6.win 2).blk t).view.emb y = y := by
      funext a; apply Fin.ext
      match a with
      | ⟨0, _⟩ => show win6_2.index t (0 : Fin 2) * 1 + 1 * (y 0).val = (y 0).val; omega
      | ⟨1, _⟩ => show win6_2.index t (1 : Fin 2) * 32 + 1 * (y 1).val = (y 1).val; omega
    show V c (Pipeline.arrRef spec6 2) (((cfg6.win 2).blk t).view.emb y) = V c (Pipeline.arrRef spec6 2) y
    rw [e]

/-- An index of the output array is in point t's block iff each coordinate is in the block's range on its axis. -/
theorem mem_blk6 (t : Fin cfg6.N) (i : S212992x32.Idx) :
    i ∈ ((cfg6.win 3).blk t).view.set ↔ ∀ a : Fin 2, win6_3.index t a * S16384x32.size a ≤ (i a).val ∧ (i a).val < win6_3.index t a * S16384x32.size a + S16384x32.size a := by
  show i ∈ ((View.whole (Pipeline.arrRef spec6 3)).slice (win6_3.rect t)).set ↔ _
  rw [View.set_slice_whole, Rect.mem_set_unit]
  exact Iff.rfl

/-- Every entry of the output array is in some point's block: row r is in the block of point r / 16384. -/
theorem cover6 (i : S212992x32.Idx) :
    ∃ t : Fin cfg6.N, (cfg6.win 3).flush t = true ∧ i ∈ ((cfg6.win 3).blk t).view.set := by
  have hi0 : (i 0).val < 212992 := (i 0).isLt
  have hi1 : (i 1).val < 32 := (i 1).isLt
  have hN : grid6.N = 13 := N_6
  let t : Fin cfg6.N := ⟨(i 0).val / 16384, by show (i 0).val / 16384 < grid6.N; rw [hN]; omega⟩
  obtain ⟨-, -, -, -, -, -, e30, e31⟩ := idx_facts6 t
  have ht : t.val = (i 0).val / 16384 := rfl
  refine ⟨t, flush6_3 t, ?_⟩
  rw [mem_blk6]
  intro a
  match a with
  | ⟨0, _⟩ => show win6_3.index t (0 : Fin 2) * 16384 ≤ (i 0).val ∧ (i 0).val < win6_3.index t (0 : Fin 2) * 16384 + 16384; omega
  | ⟨1, _⟩ => show win6_3.index t (1 : Fin 2) * 32 ≤ (i 1).val ∧ (i 1).val < win6_3.index t (1 : Fin 2) * 32 + 32; omega

/-- THE OUTPUT ARRAY after the region: entry (p, q) is Σₖ X[p, k] · W[k, q] + b[0, q] over the whole padded array X. -/
theorem final6 (c : Dev nD) : (Gen.dat6 (F := Ideal) V c).arrAt 3 cfg6.N
    = Spec.mmb (M := 212992) (D := 32) (V c (Pipeline.arrRef spec6 0)) (V c (Pipeline.arrRef spec6 1)) (V c (Pipeline.arrRef spec6 2)) :=
  (dat6 (F := Ideal) V c).arrAt_eq_of_cover 3 _ (fun t _ => flushed6_eq V c t) cover6

end Cert.KernelIdeal.RV

end
-- ==== Proof.KChain.B1.Rel1St.lean ====
/-
  Layer 0, relation 1: what the host operations around the relation's region write, stated over ANY contents `V` of the
  buffers before the stretch — the input's rows gathered at the edges' sources, the destination row, the layer's weight and
  bias slices, the padded rows, the bias as a row matrix, and the product cut back and summed at the destinations.
-/
import proofs.«147434_j38603166057109_1_alg».proof.Proof.Gen.KernelIdeal.Launch
import proofs.«147434_j38603166057109_1_alg».proof.Proof.Spec
import Idealize.ShloMosaic.Lib.StableHlo.Run

set_option maxRecDepth 16384

noncomputable section

namespace Cert.KernelIdeal.KChain.B1

open Idealize.ShloMosaic Idealize.SL.Sem Cert.KernelIdeal Cert.KernelIdeal.Gen

/-! ## What the host stretches write, over any contents `V` before them -/

section Stretches

variable {F : FTy → Type} [FloatOps F] (V : Valuation τ sig (Elt F))

/-- The input's rows at relation 1's sources. -/
theorem st_gath1 : StableHlo.after hostOps6 V (Proc.devRef .tc main_v134)
    = Spec.gath32_1 (V (Proc.devRef .tc main_v93) : Vec F S100000x32 .f32) (V (Proc.devRef .tc main_arg2) : Vec F S2x200000 .i32) := by
  after_results_simp; rfl

/-- Relation 1's destination row. -/
theorem st_dst1 : StableHlo.after hostOps6 V (Proc.devRef .tc main_v127)
    = shapeCast S200000 (extractStridedSlice S1x200000 ![1, 0] (V (Proc.devRef .tc main_arg2) : Vec F S2x200000 .i32)
        slices_S2x200000_S1x200000_1_0) shapeCasts_S1x200000_S200000 := by
  after_results_simp; rfl

/-- The layer's weights for relation 1. -/
theorem st_w1 : StableHlo.after hostOps6 V (Proc.devRef .tc main_v136)
    = shapeCast S32x32 (extractStridedSlice S1x1x32x32 ![0, 1, 0, 0] (V (Proc.devRef .tc main_arg8) : Vec F S4x3x32x32 .f32)
        slices_S4x3x32x32_S1x1x32x32_0_1_0_0) shapeCasts_S1x1x32x32_S32x32 := by
  after_results_simp; rfl

/-- The layer's bias for relation 1. -/
theorem st_b1 : StableHlo.after hostOps6 V (Proc.devRef .tc main_v138)
    = shapeCast S32 (extractStridedSlice S1x1x32 ![0, 1, 0] (V (Proc.devRef .tc main_arg9) : Vec F S4x3x32 .f32)
        slices_S4x3x32_S1x1x32_0_1_0) shapeCasts_S1x1x32_S32 := by
  after_results_simp; rfl

/-- The gathered rows padded to the region's grid; the padding value is the scalar the stretch itself leaves. -/
theorem st_pad1 : StableHlo.after hostOps6_1 V (Proc.devRef .tc main_v139)
    = pad S212992x32 ![0, 0] ![12992, 0] ![0, 0] (V (Proc.devRef .tc main_v134) : Vec F S200000x32 .f32)
        (StableHlo.after hostOps6_1 V (Proc.devRef .tc main_call9_v0) : Vec F S_ .f32) pads_S200000x32_S212992x32_0129920_000 h_S_ := by
  after_results; rfl

/-- The bias as a one-row matrix. -/
theorem st_row1 : StableHlo.after hostOps6_2 V (Proc.devRef .tc main_v140)
    = shapeCast S1x32 (V (Proc.devRef .tc main_v138) : Vec F S32 .f32) shapeCasts_S32_S1x32 := by
  after_results; rfl

/-- The product cut back to the edge count, summed at the destinations. -/
theorem st_agg1 : StableHlo.after hostOps7 V (Proc.devRef .tc main_v145)
    = Spec.agg1 (extractStridedSlice S200000x32 ![0, 0] (V (Proc.devRef .tc main_v141) : Vec F S212992x32 .f32) slices_S212992x32_S200000x32_0_0)
        (broadcastInDim S200000x1 ![0] bcast_S200000_S200000x1_0 (V (Proc.devRef .tc main_v127) : Vec F S200000 .i32)) := by
  after_results_simp; rfl

end Stretches

end Cert.KernelIdeal.KChain.B1

end
-- ==== Proof.KChain.B1.Rel1.lean ====
/-
  Layer 0, relation 1 (200000 edges): the layer's input h to the relation's aggregate.  The host gathers h's rows at the
  edges' sources and pads them; the region multiplies the padded rows by this relation's weights of the layer and adds its
  bias; the host cuts the product back to the edge count — the edges' messages — and sums the messages at the edges'
  destinations (this relation sums, it does not average).
-/
import proofs.«147434_j38603166057109_1_alg».proof.Proof.Gen.KernelIdeal.Frame
import proofs.«147434_j38603166057109_1_alg».proof.Proof.Spec
import proofs.«147434_j38603166057109_1_alg».proof.Proof.RV.MM6
import proofs.«147434_j38603166057109_1_alg».proof.Proof.KOps
import proofs.«147434_j38603166057109_1_alg».proof.Proof.KChain.Args
import proofs.«147434_j38603166057109_1_alg».proof.Proof.KChain.CarryB1R1
import proofs.«147434_j38603166057109_1_alg».proof.Proof.KChain.B1.Rel1St

set_option maxRecDepth 16384

noncomputable section

namespace Cert.KernelIdeal.KChain.B1

open Idealize.ShloMosaic Idealize.SL.Sem Cert.KernelIdeal Cert.KernelIdeal.Gen

section Chain

variable (m : (ℓ : Loc nD τ sig) → Buf (Elt Ideal) ℓ) (ρ : Dev nD → PrngReg) (c : Dev nD)

/-- Region 6 leaves the product of its entry arrays. -/
theorem region1 : W33 m ρ c (Proc.devRef .tc main_v141)
    = Spec.mmb (M := 212992) (D := 32) (W32 m ρ c (Proc.devRef .tc main_v139)) (W32 m ρ c (Proc.devRef .tc main_v136)) (W32 m ρ c (Proc.devRef .tc main_v140)) :=
  (W33_arr m ρ c 3).trans (RV.final6 (V32 m ρ) c)

/-- Relation 1's aggregate of layer 0; `hh` says the layer's input is still held where the first stretch left it. -/
theorem aggregate1 (H : Vec Ideal S100000x32 .f32) (hh : W26 m ρ c (Proc.devRef .tc main_v93) = H) :
    W34 m ρ c (Proc.devRef .tc main_v145)
      = Spec.A1_32 H (m ((c.tc : Thread nD τ).loc main_arg2)) (Spec.wLay 0 1 (m ((c.tc : Thread nD τ).loc main_arg8))) (Spec.bLay 0 1 (m ((c.tc : Thread nD τ).loc main_arg9))) := by
  have a2 : W29 m ρ c (Proc.devRef .tc main_arg2) = (m ((c.tc : Thread nD τ).loc main_arg2)) := (CarryB1R1.c_arg2_25_29 m ρ c).trans (Args.arg2_25 m ρ c)
  have a8 : W29 m ρ c (Proc.devRef .tc main_arg8) = (m ((c.tc : Thread nD τ).loc main_arg8)) := (CarryB1R1.c_arg8_25_29 m ρ c).trans (Args.arg8_25 m ρ c)
  have a9 : W29 m ρ c (Proc.devRef .tc main_arg9) = (m ((c.tc : Thread nD τ).loc main_arg9)) := (CarryB1R1.c_arg9_25_29 m ρ c).trans (Args.arg9_25 m ρ c)
  have hin : W29 m ρ c (Proc.devRef .tc main_v93) = H := (CarryB1R1.c_v93_26_29 m ρ c).trans hh
  -- the three arrays region 6 is entered with
  have eX : W32 m ρ c (Proc.devRef .tc main_v139)
      = pad S212992x32 ![0, 0] ![12992, 0] ![0, 0] (Spec.gath32_1 (F := Ideal) H (m ((c.tc : Thread nD τ).loc main_arg2)))
          (W31 m ρ c (Proc.devRef .tc main_call9_v0) : Vec Ideal S_ .f32) pads_S200000x32_S212992x32_0129920_000 h_S_ := by
    rw [CarryB1R1.c_v139_31_32 m ρ c, show W31 m ρ c (Proc.devRef .tc main_v139) = _ from st_pad1 (W30 m ρ c),
      show W30 m ρ c (Proc.devRef .tc main_v134) = _ from st_gath1 (W29 m ρ c), hin, a2]
  have eW : W32 m ρ c (Proc.devRef .tc main_v136) = Spec.wLay 0 1 (m ((c.tc : Thread nD τ).loc main_arg8)) := by
    rw [CarryB1R1.c_v136_30_32 m ρ c, show W30 m ρ c (Proc.devRef .tc main_v136) = _ from st_w1 (W29 m ρ c), a8]
    exact KOps.wLay_0_1 _
  have eb : W31 m ρ c (Proc.devRef .tc main_v138) = Spec.bLay 0 1 (m ((c.tc : Thread nD τ).loc main_arg9)) := by
    rw [CarryB1R1.c_v138_30_31 m ρ c, show W30 m ρ c (Proc.devRef .tc main_v138) = _ from st_b1 (W29 m ρ c), a9]
    exact KOps.bLay_0_1 _
  have eB : W32 m ρ c (Proc.devRef .tc main_v140) = shapeCast S1x32 (Spec.bLay 0 1 (m ((c.tc : Thread nD τ).loc main_arg9))) shapeCasts_S32_S1x32 := by
    rw [show W32 m ρ c (Proc.devRef .tc main_v140) = _ from st_row1 (W31 m ρ c), eb]
  -- the destinations
  have eD : W33 m ρ c (Proc.devRef .tc main_v127)
      = shapeCast S200000 (extractStridedSlice S1x200000 ![1, 0] (m ((c.tc : Thread nD τ).loc main_arg2)) slices_S2x200000_S1x200000_1_0) shapeCasts_S1x200000_S200000 := by
    rw [CarryB1R1.c_v127_30_33 m ρ c, show W30 m ρ c (Proc.devRef .tc main_v127) = _ from st_dst1 (W29 m ρ c), a2]
  rw [show W34 m ρ c (Proc.devRef .tc main_v145) = _ from st_agg1 (W33 m ρ c), region1 m ρ c, eX, eW, eB, eD, KOps.msg_200000_32]
  rfl

end Chain

end Cert.KernelIdeal.KChain.B1

end
-- ==== Proof.RV.MM7.lean ====
/-
  What region 7 leaves in its output array.  The region multiplies a padded array X of 802816 rows of 32 features by the
  weights W and adds the bias row b, 16384 rows at a time over a grid of 49 points: point t reads rows 16384·t … 16384·t + 16383
  of X and the whole of W and b, and writes the same rows of the output.  Each point's block is therefore the restriction of
  ONE function of the three arrays,  (p, q) ↦ Σₖ X[p, k] · W[k, q] + b[0, q],  and the 49 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz7 : (![0, 0] : Fin 2 → Nat) = fun _ => 0 := funext fun a => by fin_cases a <;> rfl

/-- The block indices at point t: the rows' windows sit at block t, the weights' and the bias's at block 0. -/
theorem idx_facts7 : ∀ t : Fin cfg7.N, win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0 :=
  (by decide +kernel : ∀ t : Fin grid7.N, _)

/-- One entry of a point's payload is the same entry of the whole product: the block x0 holds rows 16384·n … of X, the
    blocks x1 and x2 are W and b, and entry j of the block is entry i of the array, 16384·n rows further down. -/
theorem point7 (x0 : Vec Ideal S16384x32 .f32) (x1 : Vec Ideal S32x32 .f32) (x2 : Vec Ideal S1x32 .f32)
    (X : Vec Ideal S802816x32 .f32) (W : Vec Ideal S32x32 .f32) (B : Vec Ideal S1x32 .f32)
    (n : Nat) (j : S16384x32.Idx) (i : S802816x32.Idx)
    (hi0 : (i 0).val = n * 16384 + (j 0).val) (hi1 : (i 1).val = (j 1).val)
    (h0 : ∀ (y : S16384x32.Idx) (k : S802816x32.Idx), (k 0).val = n * 16384 + (y 0).val → (k 1).val = (y 1).val → x0 y = X k)
    (h1 : x1 = W) (h2 : x2 = B) :
    k7_pay1 (F := Ideal) x0 x1 x2 j = Spec.mmb (M := 802816) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed7_eq (c : Dev nD) (t : Fin cfg7.N) :
    (dat7 (F := Ideal) V c).flushed 3 t = ((cfg7.win 3).blk t).view.read (Elt Ideal)
      (Spec.mmb (M := 802816) (D := 32) (V c (Pipeline.arrRef spec7 0)) (V c (Pipeline.arrRef spec7 1)) (V c (Pipeline.arrRef spec7 2))) := by
  show (cfg7.win 3).cut (grid7.coords t) ((dat7 V c).after 3 t) = _
  rw [after7_3]
  unfold out7_3
  rw [View.canon_unit_zero hz7]
  simp only [View.ld_unit_zero (S := S16384x32) hz7, View.ld_unit_zero (S := S32x32) hz7, View.ld_unit_zero (S := S1x32) hz7]
  obtain ⟨e00, e01, e10, e11, e20, e21, e30, e31⟩ := idx_facts7 t
  funext j
  show k7_pay1 (F := Ideal) (iblk7 V c 0 t) (iblk7 V c 1 t) (iblk7 V c 2 t) j
    = Spec.mmb (M := 802816) (D := 32) (V c (Pipeline.arrRef spec7 0)) (V c (Pipeline.arrRef spec7 1)) (V c (Pipeline.arrRef spec7 2))
        (((cfg7.win 3).blk t).view.emb j)
  refine point7 _ _ _ _ _ _ t.val j _ ?_ ?_ ?_ ?_ ?_
  · show win7_3.index t (0 : Fin 2) * 16384 + 1 * (j 0).val = t.val * 16384 + (j 0).val
    omega
  · show win7_3.index t (1 : Fin 2) * 32 + 1 * (j 1).val = (j 1).val
    omega
  · intro y k hk0 hk1
    have e : ((cfg7.win 0).blk t).view.emb y = k := by
      funext a; apply Fin.ext
      match a with
      | ⟨0, _⟩ => show win7_0.index t (0 : Fin 2) * 16384 + 1 * (y 0).val = (k 0).val; omega
      | ⟨1, _⟩ => show win7_0.index t (1 : Fin 2) * 32 + 1 * (y 1).val = (k 1).val; omega
    show V c (Pipeline.arrRef spec7 0) (((cfg7.win 0).blk t).view.emb y) = V c (Pipeline.arrRef spec7 0) k
    rw [e]
  · funext y
    have e : ((cfg7.win 1).blk t).view.emb y = y := by
      funext a; apply Fin.ext
      match a with
      | ⟨0, _⟩ => show win7_1.index t (0 : Fin 2) * 32 + 1 * (y 0).val = (y 0).val; omega
      | ⟨1, _⟩ => show win7_1.index t (1 : Fin 2) * 32 + 1 * (y 1).val = (y 1).val; omega
    show V c (Pipeline.arrRef spec7 1) (((cfg7.win 1).blk t).view.emb y) = V c (Pipeline.arrRef spec7 1) y
    rw [e]
  · funext y
    have e : ((cfg7.win 2).blk t).view.emb y = y := by
      funext a; apply Fin.ext
      match a with
      | ⟨0, _⟩ => show win7_2.index t (0 : Fin 2) * 1 + 1 * (y 0).val = (y 0).val; omega
      | ⟨1, _⟩ => show win7_2.index t (1 : Fin 2) * 32 + 1 * (y 1).val = (y 1).val; omega
    show V c (Pipeline.arrRef spec7 2) (((cfg7.win 2).blk t).view.emb y) = V c (Pipeline.arrRef spec7 2) y
    rw [e]

/-- An index of the output array is in point t's block iff each coordinate is in the block's range on its axis. -/
theorem mem_blk7 (t : Fin cfg7.N) (i : S802816x32.Idx) :
    i ∈ ((cfg7.win 3).blk t).view.set ↔ ∀ a : Fin 2, win7_3.index t a * S16384x32.size a ≤ (i a).val ∧ (i a).val < win7_3.index t a * S16384x32.size a + S16384x32.size a := by
  show i ∈ ((View.whole (Pipeline.arrRef spec7 3)).slice (win7_3.rect t)).set ↔ _
  rw [View.set_slice_whole, Rect.mem_set_unit]
  exact Iff.rfl

/-- Every entry of the output array is in some point's block: row r is in the block of point r / 16384. -/
theorem cover7 (i : S802816x32.Idx) :
    ∃ t : Fin cfg7.N, (cfg7.win 3).flush t = true ∧ i ∈ ((cfg7.win 3).blk t).view.set := by
  have hi0 : (i 0).val < 802816 := (i 0).isLt
  have hi1 : (i 1).val < 32 := (i 1).isLt
  have hN : grid7.N = 49 := N_7
  let t : Fin cfg7.N := ⟨(i 0).val / 16384, by show (i 0).val / 16384 < grid7.N; rw [hN]; omega⟩
  obtain ⟨-, -, -, -, -, -, e30, e31⟩ := idx_facts7 t
  have ht : t.val = (i 0).val / 16384 := rfl
  refine ⟨t, flush7_3 t, ?_⟩
  rw [mem_blk7]
  intro a
  match a with
  | ⟨0, _⟩ => show win7_3.index t (0 : Fin 2) * 16384 ≤ (i 0).val ∧ (i 0).val < win7_3.index t (0 : Fin 2) * 16384 + 16384; omega
  | ⟨1, _⟩ => show win7_3.index t (1 : Fin 2) * 32 ≤ (i 1).val ∧ (i 1).val < win7_3.index t (1 : Fin 2) * 32 + 32; omega

/-- THE OUTPUT ARRAY after the region: entry (p, q) is Σₖ X[p, k] · W[k, q] + b[0, q] over the whole padded array X. -/
theorem final7 (c : Dev nD) : (Gen.dat7 (F := Ideal) V c).arrAt 3 cfg7.N
    = Spec.mmb (M := 802816) (D := 32) (V c (Pipeline.arrRef spec7 0)) (V c (Pipeline.arrRef spec7 1)) (V c (Pipeline.arrRef spec7 2)) :=
  (dat7 (F := Ideal) V c).arrAt_eq_of_cover 3 _ (fun t _ => flushed7_eq V c t) cover7

end Cert.KernelIdeal.RV

end
-- ==== Proof.KChain.B1.Rel2St.lean ====
/-
  Layer 0, relation 2: what the host operations around the relation's region write, stated over ANY contents `V` of the
  buffers before the stretch — the input's rows gathered at the edges' sources, the destination row, the layer's weight and
  bias slices, the padded rows, the bias as a row matrix, and the product cut back and averaged at the destinations.
-/
import proofs.«147434_j38603166057109_1_alg».proof.Proof.Gen.KernelIdeal.Launch
import proofs.«147434_j38603166057109_1_alg».proof.Proof.Spec
import Idealize.ShloMosaic.Lib.StableHlo.Run

set_option maxRecDepth 16384

noncomputable section

namespace Cert.KernelIdeal.KChain.B1

open Idealize.ShloMosaic Idealize.SL.Sem Cert.KernelIdeal Cert.KernelIdeal.Gen

/-! ## What the host stretches write, over any contents `V` before them -/

section Stretches

variable {F : FTy → Type} [FloatOps F] (V : Valuation τ sig (Elt F))

/-- The input's rows at relation 2's sources. -/
theorem st_gath2 : StableHlo.after hostOps7 V (Proc.devRef .tc main_v156)
    = Spec.gath32_2 (V (Proc.devRef .tc main_v93) : Vec F S100000x32 .f32) (V (Proc.devRef .tc main_arg3) : Vec F S2x800000 .i32) := by
  after_results_simp; rfl

/-- Relation 2's destination row. -/
theorem st_dst2 : StableHlo.after hostOps7 V (Proc.devRef .tc main_v149)
    = shapeCast S800000 (extractStridedSlice S1x800000 ![1, 0] (V (Proc.devRef .tc main_arg3) : Vec F S2x800000 .i32)
        slices_S2x800000_S1x800000_1_0) shapeCasts_S1x800000_S800000 := by
  after_results_simp; rfl

/-- The layer's weights for relation 2. -/
theorem st_w2 : StableHlo.after hostOps7 V (Proc.devRef .tc main_v158)
    = shapeCast S32x32 (extractStridedSlice S1x1x32x32 ![0, 2, 0, 0] (V (Proc.devRef .tc main_arg8) : Vec F S4x3x32x32 .f32)
        slices_S4x3x32x32_S1x1x32x32_0_2_0_0) shapeCasts_S1x1x32x32_S32x32 := by
  after_results_simp; rfl

/-- The layer's bias for relation 2. -/
theorem st_b2 : StableHlo.after hostOps7 V (Proc.devRef .tc main_v160)
    = shapeCast S32 (extractStridedSlice S1x1x32 ![0, 2, 0] (V (Proc.devRef .tc main_arg9) : Vec F S4x3x32 .f32)
        slices_S4x3x32_S1x1x32_0_2_0) shapeCasts_S1x1x32_S32 := by
  after_results_simp; rfl

/-- The gathered rows padded to the region's grid; the padding value is the scalar the stretch itself leaves. -/
theorem st_pad2 : StableHlo.after hostOps7_1 V (Proc.devRef .tc main_v161)
    = pad S802816x32 ![0, 0] ![2816, 0] ![0, 0] (V (Proc.devRef .tc main_v156) : Vec F S800000x32 .f32)
        (StableHlo.after hostOps7_1 V (Proc.devRef .tc main_call10_v0) : Vec F S_ .f32) pads_S800000x32_S802816x32_028160_000 h_S_ := by
  after_results; rfl

/-- The bias as a one-row matrix. -/
theorem st_row2 : StableHlo.after hostOps7_2 V (Proc.devRef .tc main_v162)
    = shapeCast S1x32 (V (Proc.devRef .tc main_v160) : Vec F S32 .f32) shapeCasts_S32_S1x32 := by
  after_results; rfl

/-- The product cut back to the edge count, averaged at the destinations. -/
theorem st_agg2 : StableHlo.after hostOps8 V (Proc.devRef .tc main_v175)
    = Spec.agg2 (extractStridedSlice S800000x32 ![0, 0] (V (Proc.devRef .tc main_v163) : Vec F S802816x32 .f32) slices_S802816x32_S800000x32_0_0)
        (broadcastInDim S800000x1 ![0] bcast_S800000_S800000x1_0 (V (Proc.devRef .tc main_v149) : Vec F S800000 .i32)) := by
  after_results_simp; rfl

end Stretches

end Cert.KernelIdeal.KChain.B1

end
-- ==== Proof.KChain.B1.Rel2.lean ====
/-
  Layer 0, relation 2 (800000 edges): the layer's input h to the relation's aggregate.  The host gathers h's rows at the
  edges' sources and pads them; the region multiplies the padded rows by this relation's weights of the layer and adds its
  bias; the host cuts the product back to the edge count — the edges' messages — and averages the messages at the edges'
  destinations.
-/
import proofs.«147434_j38603166057109_1_alg».proof.Proof.Gen.KernelIdeal.Frame
import proofs.«147434_j38603166057109_1_alg».proof.Proof.Spec
import proofs.«147434_j38603166057109_1_alg».proof.Proof.RV.MM7
import proofs.«147434_j38603166057109_1_alg».proof.Proof.KOps
import proofs.«147434_j38603166057109_1_alg».proof.Proof.KChain.Args
import proofs.«147434_j38603166057109_1_alg».proof.Proof.KChain.CarryB1R2
import proofs.«147434_j38603166057109_1_alg».proof.Proof.KChain.B1.Rel2St

set_option maxRecDepth 16384

noncomputable section

namespace Cert.KernelIdeal.KChain.B1

open Idealize.ShloMosaic Idealize.SL.Sem Cert.KernelIdeal Cert.KernelIdeal.Gen

section Chain

variable (m : (ℓ : Loc nD τ sig) → Buf (Elt Ideal) ℓ) (ρ : Dev nD → PrngReg) (c : Dev nD)

/-- Region 7 leaves the product of its entry arrays. -/
theorem region2 : W37 m ρ c (Proc.devRef .tc main_v163)
    = Spec.mmb (M := 802816) (D := 32) (W36 m ρ c (Proc.devRef .tc main_v161)) (W36 m ρ c (Proc.devRef .tc main_v158)) (W36 m ρ c (Proc.devRef .tc main_v162)) :=
  (W37_arr m ρ c 3).trans (RV.final7 (V36 m ρ) c)

/-- Relation 2's aggregate of layer 0; `hh` says the layer's input is still held where the first stretch left it. -/
theorem aggregate2 (H : Vec Ideal S100000x32 .f32) (hh : W26 m ρ c (Proc.devRef .tc main_v93) = H) :
    W38 m ρ c (Proc.devRef .tc main_v175)
      = Spec.A2_32 H (m ((c.tc : Thread nD τ).loc main_arg3)) (Spec.wLay 0 2 (m ((c.tc : Thread nD τ).loc main_arg8))) (Spec.bLay 0 2 (m ((c.tc : Thread nD τ).loc main_arg9))) := by
  have a3 : W33 m ρ c (Proc.devRef .tc main_arg3) = (m ((c.tc : Thread nD τ).loc main_arg3)) := (CarryB1R2.c_arg3_25_33 m ρ c).trans (Args.arg3_25 m ρ c)
  have a8 : W33 m ρ c (Proc.devRef .tc main_arg8) = (m ((c.tc : Thread nD τ).loc main_arg8)) := (CarryB1R2.c_arg8_25_33 m ρ c).trans (Args.arg8_25 m ρ c)
  have a9 : W33 m ρ c (Proc.devRef .tc main_arg9) = (m ((c.tc : Thread nD τ).loc main_arg9)) := (CarryB1R2.c_arg9_25_33 m ρ c).trans (Args.arg9_25 m ρ c)
  have hin : W33 m ρ c (Proc.devRef .tc main_v93) = H := (CarryB1R2.c_v93_26_33 m ρ c).trans hh
  -- the three arrays region 7 is entered with
  have eX : W36 m ρ c (Proc.devRef .tc main_v161)
      = pad S802816x32 ![0, 0] ![2816, 0] ![0, 0] (Spec.gath32_2 (F := Ideal) H (m ((c.tc : Thread nD τ).loc main_arg3)))
          (W35 m ρ c (Proc.devRef .tc main_call10_v0) : Vec Ideal S_ .f32) pads_S800000x32_S802816x32_028160_000 h_S_ := by
    rw [CarryB1R2.c_v161_35_36 m ρ c, show W35 m ρ c (Proc.devRef .tc main_v161) = _ from st_pad2 (W34 m ρ c),
      show W34 m ρ c (Proc.devRef .tc main_v156) = _ from st_gath2 (W33 m ρ c), hin, a3]
  have eW : W36 m ρ c (Proc.devRef .tc main_v158) = Spec.wLay 0 2 (m ((c.tc : Thread nD τ).loc main_arg8)) := by
    rw [CarryB1R2.c_v158_34_36 m ρ c, show W34 m ρ c (Proc.devRef .tc main_v158) = _ from st_w2 (W33 m ρ c), a8]
    exact KOps.wLay_0_2 _
  have eb : W35 m ρ c (Proc.devRef .tc main_v160) = Spec.bLay 0 2 (m ((c.tc : Thread nD τ).loc main_arg9)) := by
    rw [CarryB1R2.c_v160_34_35 m ρ c, show W34 m ρ c (Proc.devRef .tc main_v160) = _ from st_b2 (W33 m ρ c), a9]
    exact KOps.bLay_0_2 _
  have eB : W36 m ρ c (Proc.devRef .tc main_v162) = shapeCast S1x32 (Spec.bLay 0 2 (m ((c.tc : Thread nD τ).loc main_arg9))) shapeCasts_S32_S1x32 := by
    rw [show W36 m ρ c (Proc.devRef .tc main_v162) = _ from st_row2 (W35 m ρ c), eb]
  -- the destinations
  have eD : W37 m ρ c (Proc.devRef .tc main_v149)
      = shapeCast S800000 (extractStridedSlice S1x800000 ![1, 0] (m ((c.tc : Thread nD τ).loc main_arg3)) slices_S2x800000_S1x800000_1_0) shapeCasts_S1x800000_S800000 := by
    rw [CarryB1R2.c_v149_34_37 m ρ c, show W34 m ρ c (Proc.devRef .tc main_v149) = _ from st_dst2 (W33 m ρ c), a3]
  rw [show W38 m ρ c (Proc.devRef .tc main_v175) = _ from st_agg2 (W37 m ρ c), region2 m ρ c, eX, eW, eB, eD, KOps.msg_800000_32]
  rfl

end Chain

end Cert.KernelIdeal.KChain.B1

end
-- ==== Proof.RV.CB8.lean ====
/-
  Combination region 8 of the kernel program, read as a whole.  Its thirteen grid points each take rows 8192·t … 8192·t + 8191
  of four [106496, 32] arrays, add the first three blocks left to right, add the fourth block times the constant the body
  names, and write the sum back to the same rows of the output array.  The thirteen blocks tile the array, so the output
  array ends as that combination of the four whole arrays, index by index.
-/
import proofs.«147434_j38603166057109_1_alg».proof.Proof.Gen.KernelIdeal.Frame
import proofs.«147434_j38603166057109_1_alg».proof.Proof.Spec
import Idealize.ShloMosaic.Lib.Pipeline.Value
import Idealize.ShloMosaic.Lib.ValueIdx

noncomputable section

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store go through the whole block: offsets zero on both axes. -/
theorem zero_off8 : (![0, 0] : Fin 2 → Nat) = fun _ => 0 := funext fun a => by fin_cases a <;> rfl

/-- The body's result at an index of the block: the first three blocks added left to right, plus the constant times the
    fourth (the same-shape casts are identities). -/
theorem pay8_apply (x0 x1 x2 x3 : Vec Ideal S8192x32 .f32) (j : S8192x32.Idx) :
    k8_pay1 x0 x1 x2 x3 j = ((x0 j + x1 j) + x2 j) + Ideal.ofBits .f32 0x40800000#32 * x3 j := by
  unfold k8_pay1
  simp only [shapeCast_self]
  rfl

/-- The five index maps, decided over the thirteen grid points: every window's block at point t is block (t, 0). -/
theorem idx_facts8 : ∀ t : Fin cfg8.N,
      win8_0.index t (0 : Fin 2) = t.val ∧ win8_0.index t (1 : Fin 2) = 0
    ∧ win8_1.index t (0 : Fin 2) = t.val ∧ win8_1.index t (1 : Fin 2) = 0
    ∧ win8_2.index t (0 : Fin 2) = t.val ∧ win8_2.index t (1 : Fin 2) = 0
    ∧ win8_3.index t (0 : Fin 2) = t.val ∧ win8_3.index t (1 : Fin 2) = 0
    ∧ win8_4.index t (0 : Fin 2) = t.val ∧ win8_4.index t (1 : Fin 2) = 0 :=
  (by decide +kernel : ∀ t : Fin grid8.N, _)

/-- Point t's block of the first input array sits where its block of the output array sits: a block's coordinate is
    block index × block size + the coordinate inside the block, and the two block indices agree. -/
theorem emb8_0 (t : Fin cfg8.N) (j : S8192x32.Idx) :
    ((cfg8.win 0).blk t).view.emb j = ((cfg8.win 4).blk t).view.emb j := by
  obtain ⟨p0, q0, -, -, -, -, -, -, po, qo⟩ := idx_facts8 t
  funext a; apply Fin.ext
  match a with
  | ⟨0, _⟩ => show win8_0.index t (0 : Fin 2) * 8192 + 1 * (j 0).val = win8_4.index t (0 : Fin 2) * 8192 + 1 * (j 0).val; omega
  | ⟨1, _⟩ => show win8_0.index t (1 : Fin 2) * 32 + 1 * (j 1).val = win8_4.index t (1 : Fin 2) * 32 + 1 * (j 1).val; omega

/-- The same for the second input array. -/
theorem emb8_1 (t : Fin cfg8.N) (j : S8192x32.Idx) :
    ((cfg8.win 1).blk t).view.emb j = ((cfg8.win 4).blk t).view.emb j := by
  obtain ⟨-, -, p1, q1, -, -, -, -, po, qo⟩ := idx_facts8 t
  funext a; apply Fin.ext
  match a with
  | ⟨0, _⟩ => show win8_1.index t (0 : Fin 2) * 8192 + 1 * (j 0).val = win8_4.index t (0 : Fin 2) * 8192 + 1 * (j 0).val; omega
  | ⟨1, _⟩ => show win8_1.index t (1 : Fin 2) * 32 + 1 * (j 1).val = win8_4.index t (1 : Fin 2) * 32 + 1 * (j 1).val; omega

/-- The same for the third input array. -/
theorem emb8_2 (t : Fin cfg8.N) (j : S8192x32.Idx) :
    ((cfg8.win 2).blk t).view.emb j = ((cfg8.win 4).blk t).view.emb j := by
  obtain ⟨-, -, -, -, p2, q2, -, -, po, qo⟩ := idx_facts8 t
  funext a; apply Fin.ext
  match a with
  | ⟨0, _⟩ => show win8_2.index t (0 : Fin 2) * 8192 + 1 * (j 0).val = win8_4.index t (0 : Fin 2) * 8192 + 1 * (j 0).val; omega
  | ⟨1, _⟩ => show win8_2.index t (1 : Fin 2) * 32 + 1 * (j 1).val = win8_4.index t (1 : Fin 2) * 32 + 1 * (j 1).val; omega

/-- The same for the fourth input array. -/
theorem emb8_3 (t : Fin cfg8.N) (j : S8192x32.Idx) :
    ((cfg8.win 3).blk t).view.emb j = ((cfg8.win 4).blk t).view.emb j := by
  obtain ⟨-, -, -, -, -, -, p3, q3, po, qo⟩ := idx_facts8 t
  funext a; apply Fin.ext
  match a with
  | ⟨0, _⟩ => show win8_3.index t (0 : Fin 2) * 8192 + 1 * (j 0).val = win8_4.index t (0 : Fin 2) * 8192 + 1 * (j 0).val; omega
  | ⟨1, _⟩ => show win8_3.index t (1 : Fin 2) * 32 + 1 * (j 1).val = win8_4.index t (1 : Fin 2) * 32 + 1 * (j 1).val; omega

/-- The combination at one index: four arrays read at four positions that are all one position. -/
theorem comb_at8 (a0 a1 a2 a3 : Vec Ideal S106496x32 .f32) (e0 e1 e2 e3 e : S106496x32.Idx)
    (h0 : e0 = e) (h1 : e1 = e) (h2 : e2 = e) (h3 : e3 = e) :
    ((a0 e0 + a1 e1) + a2 e2) + Ideal.ofBits .f32 0x40800000#32 * a3 e3
      = Spec.comb (S := S106496x32) (Ideal.ofBits .f32 0x40800000#32) a0 a1 a2 a3 e := by
  rw [h0, h1, h2, h3]; rfl

/-- WHAT POINT t WRITES BACK is its block of the combination of the four arrays as the region finds them. -/
theorem flushed8_eq (c : Dev nD) (t : Fin cfg8.N) :
    (dat8 (F := Ideal) V c).flushed 4 t
      = ((cfg8.win 4).blk t).view.read (Elt Ideal)
          (Spec.comb (S := S106496x32) (Ideal.ofBits .f32 0x40800000#32) (V c (Pipeline.arrRef spec8 0)) (V c (Pipeline.arrRef spec8 1))
            (V c (Pipeline.arrRef spec8 2)) (V c (Pipeline.arrRef spec8 3))) := by
  show (cfg8.win 4).cut (grid8.coords t) ((dat8 V c).after 4 t) = _
  rw [after8_4]
  unfold out8_4
  rw [View.canon_unit_zero zero_off8]
  simp only [View.ld_unit_zero (S := S8192x32) zero_off8]
  funext j
  refine (pay8_apply (iblk8 V c 0 t) (iblk8 V c 1 t) (iblk8 V c 2 t) (iblk8 V c 3 t) j).trans ?_
  exact comb_at8 (V c (Pipeline.arrRef spec8 0)) (V c (Pipeline.arrRef spec8 1)) (V c (Pipeline.arrRef spec8 2)) (V c (Pipeline.arrRef spec8 3))
    _ _ _ _ _ (emb8_0 t j) (emb8_1 t j) (emb8_2 t j) (emb8_3 t j)

/-- An index of the array is in point t's block iff each coordinate is in the block's range on its axis. -/
theorem mem_blk8 (t : Fin cfg8.N) (i : S106496x32.Idx) :
    i ∈ ((cfg8.win 4).blk t).view.set ↔ ∀ a : Fin 2, win8_4.index t a * S8192x32.size a ≤ (i a).val ∧ (i a).val < win8_4.index t a * S8192x32.size a + S8192x32.size a := by
  show i ∈ ((View.whole (Pipeline.arrRef spec8 4)).slice (win8_4.rect t)).set ↔ _
  rw [View.set_slice_whole, Rect.mem_set_unit]
  exact Iff.rfl

/-- THE BLOCKS TILE THE ARRAY: row r lies in the block of point r / 8192 (106496 = 13 · 8192), every column in block 0. -/
theorem cover8 (i : S106496x32.Idx) :
    ∃ t : Fin cfg8.N, (cfg8.win 4).flush t = true ∧ i ∈ ((cfg8.win 4).blk t).view.set := by
  have hi0 : (i 0).val < 106496 := (i 0).isLt
  have hi1 : (i 1).val < 32 := (i 1).isLt
  have hN : cfg8.N = 13 := rfl
  obtain ⟨t, ht⟩ : ∃ t : Fin cfg8.N, t.val = (i 0).val / 8192 := ⟨⟨(i 0).val / 8192, by rw [hN]; omega⟩, rfl⟩
  obtain ⟨-, -, -, -, -, -, -, -, po, qo⟩ := idx_facts8 t
  refine ⟨t, flush8_4 t, ?_⟩
  rw [mem_blk8]
  intro a
  match a with
  | ⟨0, _⟩ => show win8_4.index t (0 : Fin 2) * 8192 ≤ (i 0).val ∧ (i 0).val < win8_4.index t (0 : Fin 2) * 8192 + 8192; omega
  | ⟨1, _⟩ => show win8_4.index t (1 : Fin 2) * 32 ≤ (i 1).val ∧ (i 1).val < win8_4.index t (1 : Fin 2) * 32 + 32; omega

/-- THE OUTPUT ARRAY after the region's write-backs: the combination of the four input arrays as the region finds them. -/
theorem final8 (c : Dev nD) : (Gen.dat8 (F := Ideal) V c).arrAt 4 cfg8.N
    = Spec.comb (S := S106496x32) (Ideal.ofBits .f32 0x40800000#32) (V c (Pipeline.arrRef spec8 0)) (V c (Pipeline.arrRef spec8 1))
        (V c (Pipeline.arrRef spec8 2)) (V c (Pipeline.arrRef spec8 3)) :=
  (dat8 V c).arrAt_eq_of_cover 4 _ (fun t _ => flushed8_eq V c t) cover8

end Cert.KernelIdeal.RV

end
-- ==== Proof.KChain.B1.CombSt.lean ====
/-
  Layer 0, the combination: what the four padding stretches before the combining region write, stated over ANY contents
  `V` of the buffers before the stretch — each aggregate, and the layer's input, padded to the region's grid.
-/
import proofs.«147434_j38603166057109_1_alg».proof.Proof.Gen.KernelIdeal.Launch
import proofs.«147434_j38603166057109_1_alg».proof.Proof.Spec
import Idealize.ShloMosaic.Lib.StableHlo.Run

set_option maxRecDepth 16384

noncomputable section

namespace Cert.KernelIdeal.KChain.B1

open Idealize.ShloMosaic Idealize.SL.Sem Cert.KernelIdeal Cert.KernelIdeal.Gen

/-! ## What the host stretches write, over any contents `V` before them -/

section Stretches

variable {F : FTy → Type} [FloatOps F] (V : Valuation τ sig (Elt F))

/-- Relation 0's aggregate padded; the padding value is the scalar the stretch itself leaves. -/
theorem st_padA0 : StableHlo.after hostOps8_1 V (Proc.devRef .tc main_v176)
    = pad S106496x32 ![0, 0] ![6496, 0] ![0, 0] (V (Proc.devRef .tc main_v123) : Vec F S100000x32 .f32)
        (StableHlo.after hostOps8_1 V (Proc.devRef .tc main_call11_v0) : Vec F S_ .f32) pads_S100000x32_S106496x32_064960_000 h_S_ := by
  after_results; rfl

/-- Relation 1's aggregate padded. -/
theorem st_padA1 : StableHlo.after hostOps8_3 V (Proc.devRef .tc main_v177)
    = pad S106496x32 ![0, 0] ![6496, 0] ![0, 0] (V (Proc.devRef .tc main_v145) : Vec F S100000x32 .f32)
        (StableHlo.after hostOps8_3 V (Proc.devRef .tc main_call12_v0) : Vec F S_ .f32) pads_S100000x32_S106496x32_064960_000 h_S_ := by
  after_results; rfl

/-- Relation 2's aggregate padded. -/
theorem st_padA2 : StableHlo.after hostOps8_5 V (Proc.devRef .tc main_v178)
    = pad S106496x32 ![0, 0] ![6496, 0] ![0, 0] (V (Proc.devRef .tc main_v175) : Vec F S100000x32 .f32)
        (StableHlo.after hostOps8_5 V (Proc.devRef .tc main_call13_v0) : Vec F S_ .f32) pads_S100000x32_S106496x32_064960_000 h_S_ := by
  after_results; rfl

/-- The layer's input padded. -/
theorem st_padH : StableHlo.after hostOps8_7 V (Proc.devRef .tc main_v179)
    = pad S106496x32 ![0, 0] ![6496, 0] ![0, 0] (V (Proc.devRef .tc main_v93) : Vec F S100000x32 .f32)
        (StableHlo.after hostOps8_7 V (Proc.devRef .tc main_call14_v0) : Vec F S_ .f32) pads_S100000x32_S106496x32_064960_000 h_S_ := by
  after_results; rfl

end Stretches

end Cert.KernelIdeal.KChain.B1

end
-- ==== Proof.KChain.B1.Comb.lean ====
/-
  Layer 0, the combination: the three relations' aggregates and the layer's input h are each padded to the combining
  region's grid, the region adds the three aggregates and four times h, row by row, and the first rows of its result —
  the node count — are the layer's output.
-/
import proofs.«147434_j38603166057109_1_alg».proof.Proof.Gen.KernelIdeal.Frame
import proofs.«147434_j38603166057109_1_alg».proof.Proof.Spec
import proofs.«147434_j38603166057109_1_alg».proof.Proof.RV.CB8
import proofs.«147434_j38603166057109_1_alg».proof.Proof.KOps
import proofs.«147434_j38603166057109_1_alg».proof.Proof.KChain.CarryB1C
import proofs.«147434_j38603166057109_1_alg».proof.Proof.KChain.B1.CombSt

set_option maxRecDepth 16384

noncomputable section

namespace Cert.KernelIdeal.KChain.B1

open Idealize.ShloMosaic Idealize.SL.Sem Cert.KernelIdeal Cert.KernelIdeal.Gen

section Chain

variable (m : (ℓ : Loc nD τ sig) → Buf (Elt Ideal) ℓ) (ρ : Dev nD → PrngReg) (c : Dev nD)

/-- Region 8 leaves the combination of its entry arrays: the three aggregates plus four times the fourth. -/
theorem regionC : W46 m ρ c (Proc.devRef .tc main_v180)
    = Spec.comb (S := S106496x32) (Ideal.ofBits .f32 0x40800000#32) (W45 m ρ c (Proc.devRef .tc main_v176)) (W45 m ρ c (Proc.devRef .tc main_v177))
        (W45 m ρ c (Proc.devRef .tc main_v178)) (W45 m ρ c (Proc.devRef .tc main_v179)) :=
  (W46_arr m ρ c 4).trans (RV.final8 (V45 m ρ) c)

/-- The layer's output from its input `H` and the three aggregates, each read where it was last written. -/
theorem output (H a0 a1 a2 : Vec Ideal S100000x32 .f32) (hh : W26 m ρ c (Proc.devRef .tc main_v93) = H)
    (h0 : W30 m ρ c (Proc.devRef .tc main_v123) = a0) (h1 : W34 m ρ c (Proc.devRef .tc main_v145) = a1) (h2 : W38 m ρ c (Proc.devRef .tc main_v175) = a2) :
    Spec.unpadN (F := Ideal) (W46 (F := Ideal) m ρ c (Proc.devRef .tc main_v180))
      = Spec.combK (Ideal.ofBits .f32 0x40800000#32) a0 a1 a2 H := by
  have eP0 : W45 m ρ c (Proc.devRef .tc main_v176)
      = pad S106496x32 ![0, 0] ![6496, 0] ![0, 0] a0
        (W39 m ρ c (Proc.devRef .tc main_call11_v0) : Vec Ideal S_ .f32) pads_S100000x32_S106496x32_064960_000 h_S_ := by
    rw [CarryB1C.c_v176_39_45 m ρ c, show W39 m ρ c (Proc.devRef .tc main_v176) = _ from st_padA0 (W38 m ρ c),
      CarryB1C.c_v123_30_38 m ρ c, h0]
  have eP1 : W45 m ρ c (Proc.devRef .tc main_v177)
      = pad S106496x32 ![0, 0] ![6496, 0] ![0, 0] a1
        (W41 m ρ c (Proc.devRef .tc main_call12_v0) : Vec Ideal S_ .f32) pads_S100000x32_S106496x32_064960_000 h_S_ := by
    rw [CarryB1C.c_v177_41_45 m ρ c, show W41 m ρ c (Proc.devRef .tc main_v177) = _ from st_padA1 (W40 m ρ c),
      CarryB1C.c_v145_34_40 m ρ c, h1]
  have eP2 : W45 m ρ c (Proc.devRef .tc main_v178)
      = pad S106496x32 ![0, 0] ![6496, 0] ![0, 0] a2
        (W43 m ρ c (Proc.devRef .tc main_call13_v0) : Vec Ideal S_ .f32) pads_S100000x32_S106496x32_064960_000 h_S_ := by
    rw [CarryB1C.c_v178_43_45 m ρ c, show W43 m ρ c (Proc.devRef .tc main_v178) = _ from st_padA2 (W42 m ρ c),
      CarryB1C.c_v175_38_42 m ρ c, h2]
  have ePH : W45 m ρ c (Proc.devRef .tc main_v179)
      = pad S106496x32 ![0, 0] ![6496, 0] ![0, 0] H
        (W45 m ρ c (Proc.devRef .tc main_call14_v0) : Vec Ideal S_ .f32) pads_S100000x32_S106496x32_064960_000 h_S_ := by
    rw [show W45 m ρ c (Proc.devRef .tc main_v179) = _ from st_padH (W44 m ρ c), CarryB1C.c_v93_26_44 m ρ c, hh]
  rw [regionC m ρ c, eP0, eP1, eP2, ePH]
  exact KOps.comb_unpad _ _ _ _ _ _ _ _ _

end Chain

end Cert.KernelIdeal.KChain.B1

end
-- ==== Proof.KChain.B1.lean ====
/-
  The first residual layer.  With H the layer's input — the previous block's padded result cut back to the node count —
  the program's result at the layer's last boundary, cut back likewise, is the layer as the kernel arranges it: the three
  relations' aggregates of H, each through the layer's weights and bias for that relation, plus four times H.
-/
import proofs.«147434_j38603166057109_1_alg».proof.Proof.KChain.B1.Rel0
import proofs.«147434_j38603166057109_1_alg».proof.Proof.KChain.B1.Rel1
import proofs.«147434_j38603166057109_1_alg».proof.Proof.KChain.B1.Rel2
import proofs.«147434_j38603166057109_1_alg».proof.Proof.KChain.B1.Comb

noncomputable section

namespace Cert.KernelIdeal.KChain

open Idealize.ShloMosaic Idealize.SL.Sem Cert.KernelIdeal Cert.KernelIdeal.Gen

theorem block1 (m : (ℓ : Loc nD τ sig) → Buf (Elt Ideal) ℓ) (ρ : Dev nD → PrngReg) (c : Dev nD) (H : Vec Ideal S100000x32 .f32)
    (hH : Spec.unpadN (F := Ideal) (Gen.W25 (F := Ideal) m ρ c (Proc.devRef .tc main_v92)) = H) :
    Spec.unpadN (F := Ideal) (Gen.W46 (F := Ideal) m ρ c (Proc.devRef .tc main_v180))
      = Spec.layK 0 H (m ((c.tc : Thread nD τ).loc main_arg1)) (m ((c.tc : Thread nD τ).loc main_arg2)) (m ((c.tc : Thread nD τ).loc main_arg3))
          (m ((c.tc : Thread nD τ).loc main_arg8)) (m ((c.tc : Thread nD τ).loc main_arg9)) := by
  have hh := B1.input m ρ c H hH
  unfold Spec.layK
  exact B1.output m ρ c H _ _ _ hh (B1.aggregate0 m ρ c H hH) (B1.aggregate1 m ρ c H hh) (B1.aggregate2 m ρ c H hh)

end Cert.KernelIdeal.KChain

end
-- ==== Proof.RV.MM9.lean ====
/-
  What region 9 leaves in its output array.  The region multiplies a padded array X of 1605632 rows of 32 features by the
  weights W and adds the bias row b, 16384 rows at a time over a grid of 98 points: point t reads rows 16384·t … 16384·t + 16383
  of X and the whole of W and b, and writes the same rows of the output.  Each point's block is therefore the restriction of
  ONE function of the three arrays,  (p, q) ↦ Σₖ X[p, k] · W[k, q] + b[0, q],  and the 98 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz9 : (![0, 0] : Fin 2 → Nat) = fun _ => 0 := funext fun a => by fin_cases a <;> rfl

/-- The block indices at point t: the rows' windows sit at block t, the weights' and the bias's at block 0. -/
theorem idx_facts9 : ∀ t : Fin cfg9.N, win9_0.index t (0 : Fin 2) = t.val ∧ win9_0.index t (1 : Fin 2) = 0
    ∧ win9_1.index t (0 : Fin 2) = 0 ∧ win9_1.index t (1 : Fin 2) = 0
    ∧ win9_2.index t (0 : Fin 2) = 0 ∧ win9_2.index t (1 : Fin 2) = 0
    ∧ win9_3.index t (0 : Fin 2) = t.val ∧ win9_3.index t (1 : Fin 2) = 0 :=
  (by decide +kernel : ∀ t : Fin grid9.N, _)

/-- One entry of a point's payload is the same entry of the whole product: the block x0 holds rows 16384·n … of X, the
    blocks x1 and x2 are W and b, and entry j of the block is entry i of the array, 16384·n rows further down. -/
theorem point9 (x0 : Vec Ideal S16384x32 .f32) (x1 : Vec Ideal S32x32 .f32) (x2 : Vec Ideal S1x32 .f32)
    (X : Vec Ideal S1605632x32 .f32) (W : Vec Ideal S32x32 .f32) (B : Vec Ideal S1x32 .f32)
    (n : Nat) (j : S16384x32.Idx) (i : S1605632x32.Idx)
    (hi0 : (i 0).val = n * 16384 + (j 0).val) (hi1 : (i 1).val = (j 1).val)
    (h0 : ∀ (y : S16384x32.Idx) (k : S1605632x32.Idx), (k 0).val = n * 16384 + (y 0).val → (k 1).val = (y 1).val → x0 y = X k)
    (h1 : x1 = W) (h2 : x2 = B) :
    k9_pay1 (F := Ideal) x0 x1 x2 j = Spec.mmb (M := 1605632) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed9_eq (c : Dev nD) (t : Fin cfg9.N) :
    (dat9 (F := Ideal) V c).flushed 3 t = ((cfg9.win 3).blk t).view.read (Elt Ideal)
      (Spec.mmb (M := 1605632) (D := 32) (V c (Pipeline.arrRef spec9 0)) (V c (Pipeline.arrRef spec9 1)) (V c (Pipeline.arrRef spec9 2))) := by
  show (cfg9.win 3).cut (grid9.coords t) ((dat9 V c).after 3 t) = _
  rw [after9_3]
  unfold out9_3
  rw [View.canon_unit_zero hz9]
  simp only [View.ld_unit_zero (S := S16384x32) hz9, View.ld_unit_zero (S := S32x32) hz9, View.ld_unit_zero (S := S1x32) hz9]
  obtain ⟨e00, e01, e10, e11, e20, e21, e30, e31⟩ := idx_facts9 t
  funext j
  show k9_pay1 (F := Ideal) (iblk9 V c 0 t) (iblk9 V c 1 t) (iblk9 V c 2 t) j
    = Spec.mmb (M := 1605632) (D := 32) (V c (Pipeline.arrRef spec9 0)) (V c (Pipeline.arrRef spec9 1)) (V c (Pipeline.arrRef spec9 2))
        (((cfg9.win 3).blk t).view.emb j)
  refine point9 _ _ _ _ _ _ t.val j _ ?_ ?_ ?_ ?_ ?_
  · show win9_3.index t (0 : Fin 2) * 16384 + 1 * (j 0).val = t.val * 16384 + (j 0).val
    omega
  · show win9_3.index t (1 : Fin 2) * 32 + 1 * (j 1).val = (j 1).val
    omega
  · intro y k hk0 hk1
    have e : ((cfg9.win 0).blk t).view.emb y = k := by
      funext a; apply Fin.ext
      match a with
      | ⟨0, _⟩ => show win9_0.index t (0 : Fin 2) * 16384 + 1 * (y 0).val = (k 0).val; omega
      | ⟨1, _⟩ => show win9_0.index t (1 : Fin 2) * 32 + 1 * (y 1).val = (k 1).val; omega
    show V c (Pipeline.arrRef spec9 0) (((cfg9.win 0).blk t).view.emb y) = V c (Pipeline.arrRef spec9 0) k
    rw [e]
  · funext y
    have e : ((cfg9.win 1).blk t).view.emb y = y := by
      funext a; apply Fin.ext
      match a with
      | ⟨0, _⟩ => show win9_1.index t (0 : Fin 2) * 32 + 1 * (y 0).val = (y 0).val; omega
      | ⟨1, _⟩ => show win9_1.index t (1 : Fin 2) * 32 + 1 * (y 1).val = (y 1).val; omega
    show V c (Pipeline.arrRef spec9 1) (((cfg9.win 1).blk t).view.emb y) = V c (Pipeline.arrRef spec9 1) y
    rw [e]
  · funext y
    have e : ((cfg9.win 2).blk t).view.emb y = y := by
      funext a; apply Fin.ext
      match a with
      | ⟨0, _⟩ => show win9_2.index t (0 : Fin 2) * 1 + 1 * (y 0).val = (y 0).val; omega
      | ⟨1, _⟩ => show win9_2.index t (1 : Fin 2) * 32 + 1 * (y 1).val = (y 1).val; omega
    show V c (Pipeline.arrRef spec9 2) (((cfg9.win 2).blk t).view.emb y) = V c (Pipeline.arrRef spec9 2) y
    rw [e]

/-- An index of the output array is in point t's block iff each coordinate is in the block's range on its axis. -/
theorem mem_blk9 (t : Fin cfg9.N) (i : S1605632x32.Idx) :
    i ∈ ((cfg9.win 3).blk t).view.set ↔ ∀ a : Fin 2, win9_3.index t a * S16384x32.size a ≤ (i a).val ∧ (i a).val < win9_3.index t a * S16384x32.size a + S16384x32.size a := by
  show i ∈ ((View.whole (Pipeline.arrRef spec9 3)).slice (win9_3.rect t)).set ↔ _
  rw [View.set_slice_whole, Rect.mem_set_unit]
  exact Iff.rfl

/-- Every entry of the output array is in some point's block: row r is in the block of point r / 16384. -/
theorem cover9 (i : S1605632x32.Idx) :
    ∃ t : Fin cfg9.N, (cfg9.win 3).flush t = true ∧ i ∈ ((cfg9.win 3).blk t).view.set := by
  have hi0 : (i 0).val < 1605632 := (i 0).isLt
  have hi1 : (i 1).val < 32 := (i 1).isLt
  have hN : grid9.N = 98 := N_9
  let t : Fin cfg9.N := ⟨(i 0).val / 16384, by show (i 0).val / 16384 < grid9.N; rw [hN]; omega⟩
  obtain ⟨-, -, -, -, -, -, e30, e31⟩ := idx_facts9 t
  have ht : t.val = (i 0).val / 16384 := rfl
  refine ⟨t, flush9_3 t, ?_⟩
  rw [mem_blk9]
  intro a
  match a with
  | ⟨0, _⟩ => show win9_3.index t (0 : Fin 2) * 16384 ≤ (i 0).val ∧ (i 0).val < win9_3.index t (0 : Fin 2) * 16384 + 16384; omega
  | ⟨1, _⟩ => show win9_3.index t (1 : Fin 2) * 32 ≤ (i 1).val ∧ (i 1).val < win9_3.index t (1 : Fin 2) * 32 + 32; omega

/-- THE OUTPUT ARRAY after the region: entry (p, q) is Σₖ X[p, k] · W[k, q] + b[0, q] over the whole padded array X. -/
theorem final9 (c : Dev nD) : (Gen.dat9 (F := Ideal) V c).arrAt 3 cfg9.N
    = Spec.mmb (M := 1605632) (D := 32) (V c (Pipeline.arrRef spec9 0)) (V c (Pipeline.arrRef spec9 1)) (V c (Pipeline.arrRef spec9 2)) :=
  (dat9 (F := Ideal) V c).arrAt_eq_of_cover 3 _ (fun t _ => flushed9_eq V c t) cover9

end Cert.KernelIdeal.RV

end
-- ==== Proof.RV.MM10.lean ====
/-
  What region 10 leaves in its output array.  The region multiplies a padded array X of 212992 rows of 32 features by the
  weights W and adds the bias row b, 16384 rows at a time over a grid of 13 points: point t reads rows 16384·t … 16384·t + 16383
  of X and the whole of W and b, and writes the same rows of the output.  Each point's block is therefore the restriction of
  ONE function of the three arrays,  (p, q) ↦ Σₖ X[p, k] · W[k, q] + b[0, q],  and the 13 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz10 : (![0, 0] : Fin 2 → Nat) = fun _ => 0 := funext fun a => by fin_cases a <;> rfl

/-- The block indices at point t: the rows' windows sit at block t, the weights' and the bias's at block 0. -/
theorem idx_facts10 : ∀ t : Fin cfg10.N, win10_0.index t (0 : Fin 2) = t.val ∧ win10_0.index t (1 : Fin 2) = 0
    ∧ win10_1.index t (0 : Fin 2) = 0 ∧ win10_1.index t (1 : Fin 2) = 0
    ∧ win10_2.index t (0 : Fin 2) = 0 ∧ win10_2.index t (1 : Fin 2) = 0
    ∧ win10_3.index t (0 : Fin 2) = t.val ∧ win10_3.index t (1 : Fin 2) = 0 :=
  (by decide +kernel : ∀ t : Fin grid10.N, _)

/-- One entry of a point's payload is the same entry of the whole product: the block x0 holds rows 16384·n … of X, the
    blocks x1 and x2 are W and b, and entry j of the block is entry i of the array, 16384·n rows further down. -/
theorem point10 (x0 : Vec Ideal S16384x32 .f32) (x1 : Vec Ideal S32x32 .f32) (x2 : Vec Ideal S1x32 .f32)
    (X : Vec Ideal S212992x32 .f32) (W : Vec Ideal S32x32 .f32) (B : Vec Ideal S1x32 .f32)
    (n : Nat) (j : S16384x32.Idx) (i : S212992x32.Idx)
    (hi0 : (i 0).val = n * 16384 + (j 0).val) (hi1 : (i 1).val = (j 1).val)
    (h0 : ∀ (y : S16384x32.Idx) (k : S212992x32.Idx), (k 0).val = n * 16384 + (y 0).val → (k 1).val = (y 1).val → x0 y = X k)
    (h1 : x1 = W) (h2 : x2 = B) :
    k10_pay1 (F := Ideal) x0 x1 x2 j = Spec.mmb (M := 212992) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed10_eq (c : Dev nD) (t : Fin cfg10.N) :
    (dat10 (F := Ideal) V c).flushed 3 t = ((cfg10.win 3).blk t).view.read (Elt Ideal)
      (Spec.mmb (M := 212992) (D := 32) (V c (Pipeline.arrRef spec10 0)) (V c (Pipeline.arrRef spec10 1)) (V c (Pipeline.arrRef spec10 2))) := by
  show (cfg10.win 3).cut (grid10.coords t) ((dat10 V c).after 3 t) = _
  rw [after10_3]
  unfold out10_3
  rw [View.canon_unit_zero hz10]
  simp only [View.ld_unit_zero (S := S16384x32) hz10, View.ld_unit_zero (S := S32x32) hz10, View.ld_unit_zero (S := S1x32) hz10]
  obtain ⟨e00, e01, e10, e11, e20, e21, e30, e31⟩ := idx_facts10 t
  funext j
  show k10_pay1 (F := Ideal) (iblk10 V c 0 t) (iblk10 V c 1 t) (iblk10 V c 2 t) j
    = Spec.mmb (M := 212992) (D := 32) (V c (Pipeline.arrRef spec10 0)) (V c (Pipeline.arrRef spec10 1)) (V c (Pipeline.arrRef spec10 2))
        (((cfg10.win 3).blk t).view.emb j)
  refine point10 _ _ _ _ _ _ t.val j _ ?_ ?_ ?_ ?_ ?_
  · show win10_3.index t (0 : Fin 2) * 16384 + 1 * (j 0).val = t.val * 16384 + (j 0).val
    omega
  · show win10_3.index t (1 : Fin 2) * 32 + 1 * (j 1).val = (j 1).val
    omega
  · intro y k hk0 hk1
    have e : ((cfg10.win 0).blk t).view.emb y = k := by
      funext a; apply Fin.ext
      match a with
      | ⟨0, _⟩ => show win10_0.index t (0 : Fin 2) * 16384 + 1 * (y 0).val = (k 0).val; omega
      | ⟨1, _⟩ => show win10_0.index t (1 : Fin 2) * 32 + 1 * (y 1).val = (k 1).val; omega
    show V c (Pipeline.arrRef spec10 0) (((cfg10.win 0).blk t).view.emb y) = V c (Pipeline.arrRef spec10 0) k
    rw [e]
  · funext y
    have e : ((cfg10.win 1).blk t).view.emb y = y := by
      funext a; apply Fin.ext
      match a with
      | ⟨0, _⟩ => show win10_1.index t (0 : Fin 2) * 32 + 1 * (y 0).val = (y 0).val; omega
      | ⟨1, _⟩ => show win10_1.index t (1 : Fin 2) * 32 + 1 * (y 1).val = (y 1).val; omega
    show V c (Pipeline.arrRef spec10 1) (((cfg10.win 1).blk t).view.emb y) = V c (Pipeline.arrRef spec10 1) y
    rw [e]
  · funext y
    have e : ((cfg10.win 2).blk t).view.emb y = y := by
      funext a; apply Fin.ext
      match a with
      | ⟨0, _⟩ => show win10_2.index t (0 : Fin 2) * 1 + 1 * (y 0).val = (y 0).val; omega
      | ⟨1, _⟩ => show win10_2.index t (1 : Fin 2) * 32 + 1 * (y 1).val = (y 1).val; omega
    show V c (Pipeline.arrRef spec10 2) (((cfg10.win 2).blk t).view.emb y) = V c (Pipeline.arrRef spec10 2) y
    rw [e]

/-- An index of the output array is in point t's block iff each coordinate is in the block's range on its axis. -/
theorem mem_blk10 (t : Fin cfg10.N) (i : S212992x32.Idx) :
    i ∈ ((cfg10.win 3).blk t).view.set ↔ ∀ a : Fin 2, win10_3.index t a * S16384x32.size a ≤ (i a).val ∧ (i a).val < win10_3.index t a * S16384x32.size a + S16384x32.size a := by
  show i ∈ ((View.whole (Pipeline.arrRef spec10 3)).slice (win10_3.rect t)).set ↔ _
  rw [View.set_slice_whole, Rect.mem_set_unit]
  exact Iff.rfl

/-- Every entry of the output array is in some point's block: row r is in the block of point r / 16384. -/
theorem cover10 (i : S212992x32.Idx) :
    ∃ t : Fin cfg10.N, (cfg10.win 3).flush t = true ∧ i ∈ ((cfg10.win 3).blk t).view.set := by
  have hi0 : (i 0).val < 212992 := (i 0).isLt
  have hi1 : (i 1).val < 32 := (i 1).isLt
  have hN : grid10.N = 13 := N_10
  let t : Fin cfg10.N := ⟨(i 0).val / 16384, by show (i 0).val / 16384 < grid10.N; rw [hN]; omega⟩
  obtain ⟨-, -, -, -, -, -, e30, e31⟩ := idx_facts10 t
  have ht : t.val = (i 0).val / 16384 := rfl
  refine ⟨t, flush10_3 t, ?_⟩
  rw [mem_blk10]
  intro a
  match a with
  | ⟨0, _⟩ => show win10_3.index t (0 : Fin 2) * 16384 ≤ (i 0).val ∧ (i 0).val < win10_3.index t (0 : Fin 2) * 16384 + 16384; omega
  | ⟨1, _⟩ => show win10_3.index t (1 : Fin 2) * 32 ≤ (i 1).val ∧ (i 1).val < win10_3.index t (1 : Fin 2) * 32 + 32; omega

/-- THE OUTPUT ARRAY after the region: entry (p, q) is Σₖ X[p, k] · W[k, q] + b[0, q] over the whole padded array X. -/
theorem final10 (c : Dev nD) : (Gen.dat10 (F := Ideal) V c).arrAt 3 cfg10.N
    = Spec.mmb (M := 212992) (D := 32) (V c (Pipeline.arrRef spec10 0)) (V c (Pipeline.arrRef spec10 1)) (V c (Pipeline.arrRef spec10 2)) :=
  (dat10 (F := Ideal) V c).arrAt_eq_of_cover 3 _ (fun t _ => flushed10_eq V c t) cover10

end Cert.KernelIdeal.RV

end
-- ==== Proof.RV.MM11.lean ====
/-
  What region 11 leaves in its output array.  The region multiplies a padded array X of 802816 rows of 32 features by the
  weights W and adds the bias row b, 16384 rows at a time over a grid of 49 points: point t reads rows 16384·t … 16384·t + 16383
  of X and the whole of W and b, and writes the same rows of the output.  Each point's block is therefore the restriction of
  ONE function of the three arrays,  (p, q) ↦ Σₖ X[p, k] · W[k, q] + b[0, q],  and the 49 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz11 : (![0, 0] : Fin 2 → Nat) = fun _ => 0 := funext fun a => by fin_cases a <;> rfl

/-- The block indices at point t: the rows' windows sit at block t, the weights' and the bias's at block 0. -/
theorem idx_facts11 : ∀ t : Fin cfg11.N, win11_0.index t (0 : Fin 2) = t.val ∧ win11_0.index t (1 : Fin 2) = 0
    ∧ win11_1.index t (0 : Fin 2) = 0 ∧ win11_1.index t (1 : Fin 2) = 0
    ∧ win11_2.index t (0 : Fin 2) = 0 ∧ win11_2.index t (1 : Fin 2) = 0
    ∧ win11_3.index t (0 : Fin 2) = t.val ∧ win11_3.index t (1 : Fin 2) = 0 :=
  (by decide +kernel : ∀ t : Fin grid11.N, _)

/-- One entry of a point's payload is the same entry of the whole product: the block x0 holds rows 16384·n … of X, the
    blocks x1 and x2 are W and b, and entry j of the block is entry i of the array, 16384·n rows further down. -/
theorem point11 (x0 : Vec Ideal S16384x32 .f32) (x1 : Vec Ideal S32x32 .f32) (x2 : Vec Ideal S1x32 .f32)
    (X : Vec Ideal S802816x32 .f32) (W : Vec Ideal S32x32 .f32) (B : Vec Ideal S1x32 .f32)
    (n : Nat) (j : S16384x32.Idx) (i : S802816x32.Idx)
    (hi0 : (i 0).val = n * 16384 + (j 0).val) (hi1 : (i 1).val = (j 1).val)
    (h0 : ∀ (y : S16384x32.Idx) (k : S802816x32.Idx), (k 0).val = n * 16384 + (y 0).val → (k 1).val = (y 1).val → x0 y = X k)
    (h1 : x1 = W) (h2 : x2 = B) :
    k11_pay1 (F := Ideal) x0 x1 x2 j = Spec.mmb (M := 802816) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed11_eq (c : Dev nD) (t : Fin cfg11.N) :
    (dat11 (F := Ideal) V c).flushed 3 t = ((cfg11.win 3).blk t).view.read (Elt Ideal)
      (Spec.mmb (M := 802816) (D := 32) (V c (Pipeline.arrRef spec11 0)) (V c (Pipeline.arrRef spec11 1)) (V c (Pipeline.arrRef spec11 2))) := by
  show (cfg11.win 3).cut (grid11.coords t) ((dat11 V c).after 3 t) = _
  rw [after11_3]
  unfold out11_3
  rw [View.canon_unit_zero hz11]
  simp only [View.ld_unit_zero (S := S16384x32) hz11, View.ld_unit_zero (S := S32x32) hz11, View.ld_unit_zero (S := S1x32) hz11]
  obtain ⟨e00, e01, e10, e11, e20, e21, e30, e31⟩ := idx_facts11 t
  funext j
  show k11_pay1 (F := Ideal) (iblk11 V c 0 t) (iblk11 V c 1 t) (iblk11 V c 2 t) j
    = Spec.mmb (M := 802816) (D := 32) (V c (Pipeline.arrRef spec11 0)) (V c (Pipeline.arrRef spec11 1)) (V c (Pipeline.arrRef spec11 2))
        (((cfg11.win 3).blk t).view.emb j)
  refine point11 _ _ _ _ _ _ t.val j _ ?_ ?_ ?_ ?_ ?_
  · show win11_3.index t (0 : Fin 2) * 16384 + 1 * (j 0).val = t.val * 16384 + (j 0).val
    omega
  · show win11_3.index t (1 : Fin 2) * 32 + 1 * (j 1).val = (j 1).val
    omega
  · intro y k hk0 hk1
    have e : ((cfg11.win 0).blk t).view.emb y = k := by
      funext a; apply Fin.ext
      match a with
      | ⟨0, _⟩ => show win11_0.index t (0 : Fin 2) * 16384 + 1 * (y 0).val = (k 0).val; omega
      | ⟨1, _⟩ => show win11_0.index t (1 : Fin 2) * 32 + 1 * (y 1).val = (k 1).val; omega
    show V c (Pipeline.arrRef spec11 0) (((cfg11.win 0).blk t).view.emb y) = V c (Pipeline.arrRef spec11 0) k
    rw [e]
  · funext y
    have e : ((cfg11.win 1).blk t).view.emb y = y := by
      funext a; apply Fin.ext
      match a with
      | ⟨0, _⟩ => show win11_1.index t (0 : Fin 2) * 32 + 1 * (y 0).val = (y 0).val; omega
      | ⟨1, _⟩ => show win11_1.index t (1 : Fin 2) * 32 + 1 * (y 1).val = (y 1).val; omega
    show V c (Pipeline.arrRef spec11 1) (((cfg11.win 1).blk t).view.emb y) = V c (Pipeline.arrRef spec11 1) y
    rw [e]
  · funext y
    have e : ((cfg11.win 2).blk t).view.emb y = y := by
      funext a; apply Fin.ext
      match a with
      | ⟨0, _⟩ => show win11_2.index t (0 : Fin 2) * 1 + 1 * (y 0).val = (y 0).val; omega
      | ⟨1, _⟩ => show win11_2.index t (1 : Fin 2) * 32 + 1 * (y 1).val = (y 1).val; omega
    show V c (Pipeline.arrRef spec11 2) (((cfg11.win 2).blk t).view.emb y) = V c (Pipeline.arrRef spec11 2) y
    rw [e]

/-- An index of the output array is in point t's block iff each coordinate is in the block's range on its axis. -/
theorem mem_blk11 (t : Fin cfg11.N) (i : S802816x32.Idx) :
    i ∈ ((cfg11.win 3).blk t).view.set ↔ ∀ a : Fin 2, win11_3.index t a * S16384x32.size a ≤ (i a).val ∧ (i a).val < win11_3.index t a * S16384x32.size a + S16384x32.size a := by
  show i ∈ ((View.whole (Pipeline.arrRef spec11 3)).slice (win11_3.rect t)).set ↔ _
  rw [View.set_slice_whole, Rect.mem_set_unit]
  exact Iff.rfl

/-- Every entry of the output array is in some point's block: row r is in the block of point r / 16384. -/
theorem cover11 (i : S802816x32.Idx) :
    ∃ t : Fin cfg11.N, (cfg11.win 3).flush t = true ∧ i ∈ ((cfg11.win 3).blk t).view.set := by
  have hi0 : (i 0).val < 802816 := (i 0).isLt
  have hi1 : (i 1).val < 32 := (i 1).isLt
  have hN : grid11.N = 49 := N_11
  let t : Fin cfg11.N := ⟨(i 0).val / 16384, by show (i 0).val / 16384 < grid11.N; rw [hN]; omega⟩
  obtain ⟨-, -, -, -, -, -, e30, e31⟩ := idx_facts11 t
  have ht : t.val = (i 0).val / 16384 := rfl
  refine ⟨t, flush11_3 t, ?_⟩
  rw [mem_blk11]
  intro a
  match a with
  | ⟨0, _⟩ => show win11_3.index t (0 : Fin 2) * 16384 ≤ (i 0).val ∧ (i 0).val < win11_3.index t (0 : Fin 2) * 16384 + 16384; omega
  | ⟨1, _⟩ => show win11_3.index t (1 : Fin 2) * 32 ≤ (i 1).val ∧ (i 1).val < win11_3.index t (1 : Fin 2) * 32 + 32; omega

/-- THE OUTPUT ARRAY after the region: entry (p, q) is Σₖ X[p, k] · W[k, q] + b[0, q] over the whole padded array X. -/
theorem final11 (c : Dev nD) : (Gen.dat11 (F := Ideal) V c).arrAt 3 cfg11.N
    = Spec.mmb (M := 802816) (D := 32) (V c (Pipeline.arrRef spec11 0)) (V c (Pipeline.arrRef spec11 1)) (V c (Pipeline.arrRef spec11 2)) :=
  (dat11 (F := Ideal) V c).arrAt_eq_of_cover 3 _ (fun t _ => flushed11_eq V c t) cover11

end Cert.KernelIdeal.RV

end
-- ==== Proof.RV.CB12.lean ====
/-
  Combination region 12 of the kernel program, read as a whole.  Its thirteen grid points each take rows 8192·t … 8192·t + 8191
  of four [106496, 32] arrays, add the first three blocks left to right, add the fourth block times the constant the body
  names, and write the sum back to the same rows of the output array.  The thirteen blocks tile the array, so the output
  array ends as that combination of the four whole arrays, index by index.
-/
import proofs.«147434_j38603166057109_1_alg».proof.Proof.Gen.KernelIdeal.Frame
import proofs.«147434_j38603166057109_1_alg».proof.Proof.Spec
import Idealize.ShloMosaic.Lib.Pipeline.Value
import Idealize.ShloMosaic.Lib.ValueIdx

noncomputable section

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store go through the whole block: offsets zero on both axes. -/
theorem zero_off12 : (![0, 0] : Fin 2 → Nat) = fun _ => 0 := funext fun a => by fin_cases a <;> rfl

/-- The body's result at an index of the block: the first three blocks added left to right, plus the constant times the
    fourth (the same-shape casts are identities). -/
theorem pay12_apply (x0 x1 x2 x3 : Vec Ideal S8192x32 .f32) (j : S8192x32.Idx) :
    k12_pay1 x0 x1 x2 x3 j = ((x0 j + x1 j) + x2 j) + Ideal.ofBits .f32 0x40800000#32 * x3 j := by
  unfold k12_pay1
  simp only [shapeCast_self]
  rfl

/-- The five index maps, decided over the thirteen grid points: every window's block at point t is block (t, 0). -/
theorem idx_facts12 : ∀ t : Fin cfg12.N,
      win12_0.index t (0 : Fin 2) = t.val ∧ win12_0.index t (1 : Fin 2) = 0
    ∧ win12_1.index t (0 : Fin 2) = t.val ∧ win12_1.index t (1 : Fin 2) = 0
    ∧ win12_2.index t (0 : Fin 2) = t.val ∧ win12_2.index t (1 : Fin 2) = 0
    ∧ win12_3.index t (0 : Fin 2) = t.val ∧ win12_3.index t (1 : Fin 2) = 0
    ∧ win12_4.index t (0 : Fin 2) = t.val ∧ win12_4.index t (1 : Fin 2) = 0 :=
  (by decide +kernel : ∀ t : Fin grid12.N, _)

/-- Point t's block of the first input array sits where its block of the output array sits: a block's coordinate is
    block index × block size + the coordinate inside the block, and the two block indices agree. -/
theorem emb12_0 (t : Fin cfg12.N) (j : S8192x32.Idx) :
    ((cfg12.win 0).blk t).view.emb j = ((cfg12.win 4).blk t).view.emb j := by
  obtain ⟨p0, q0, -, -, -, -, -, -, po, qo⟩ := idx_facts12 t
  funext a; apply Fin.ext
  match a with
  | ⟨0, _⟩ => show win12_0.index t (0 : Fin 2) * 8192 + 1 * (j 0).val = win12_4.index t (0 : Fin 2) * 8192 + 1 * (j 0).val; omega
  | ⟨1, _⟩ => show win12_0.index t (1 : Fin 2) * 32 + 1 * (j 1).val = win12_4.index t (1 : Fin 2) * 32 + 1 * (j 1).val; omega

/-- The same for the second input array. -/
theorem emb12_1 (t : Fin cfg12.N) (j : S8192x32.Idx) :
    ((cfg12.win 1).blk t).view.emb j = ((cfg12.win 4).blk t).view.emb j := by
  obtain ⟨-, -, p1, q1, -, -, -, -, po, qo⟩ := idx_facts12 t
  funext a; apply Fin.ext
  match a with
  | ⟨0, _⟩ => show win12_1.index t (0 : Fin 2) * 8192 + 1 * (j 0).val = win12_4.index t (0 : Fin 2) * 8192 + 1 * (j 0).val; omega
  | ⟨1, _⟩ => show win12_1.index t (1 : Fin 2) * 32 + 1 * (j 1).val = win12_4.index t (1 : Fin 2) * 32 + 1 * (j 1).val; omega

/-- The same for the third input array. -/
theorem emb12_2 (t : Fin cfg12.N) (j : S8192x32.Idx) :
    ((cfg12.win 2).blk t).view.emb j = ((cfg12.win 4).blk t).view.emb j := by
  obtain ⟨-, -, -, -, p2, q2, -, -, po, qo⟩ := idx_facts12 t
  funext a; apply Fin.ext
  match a with
  | ⟨0, _⟩ => show win12_2.index t (0 : Fin 2) * 8192 + 1 * (j 0).val = win12_4.index t (0 : Fin 2) * 8192 + 1 * (j 0).val; omega
  | ⟨1, _⟩ => show win12_2.index t (1 : Fin 2) * 32 + 1 * (j 1).val = win12_4.index t (1 : Fin 2) * 32 + 1 * (j 1).val; omega

/-- The same for the fourth input array. -/
theorem emb12_3 (t : Fin cfg12.N) (j : S8192x32.Idx) :
    ((cfg12.win 3).blk t).view.emb j = ((cfg12.win 4).blk t).view.emb j := by
  obtain ⟨-, -, -, -, -, -, p3, q3, po, qo⟩ := idx_facts12 t
  funext a; apply Fin.ext
  match a with
  | ⟨0, _⟩ => show win12_3.index t (0 : Fin 2) * 8192 + 1 * (j 0).val = win12_4.index t (0 : Fin 2) * 8192 + 1 * (j 0).val; omega
  | ⟨1, _⟩ => show win12_3.index t (1 : Fin 2) * 32 + 1 * (j 1).val = win12_4.index t (1 : Fin 2) * 32 + 1 * (j 1).val; omega

/-- The combination at one index: four arrays read at four positions that are all one position. -/
theorem comb_at12 (a0 a1 a2 a3 : Vec Ideal S106496x32 .f32) (e0 e1 e2 e3 e : S106496x32.Idx)
    (h0 : e0 = e) (h1 : e1 = e) (h2 : e2 = e) (h3 : e3 = e) :
    ((a0 e0 + a1 e1) + a2 e2) + Ideal.ofBits .f32 0x40800000#32 * a3 e3
      = Spec.comb (S := S106496x32) (Ideal.ofBits .f32 0x40800000#32) a0 a1 a2 a3 e := by
  rw [h0, h1, h2, h3]; rfl

/-- WHAT POINT t WRITES BACK is its block of the combination of the four arrays as the region finds them. -/
theorem flushed12_eq (c : Dev nD) (t : Fin cfg12.N) :
    (dat12 (F := Ideal) V c).flushed 4 t
      = ((cfg12.win 4).blk t).view.read (Elt Ideal)
          (Spec.comb (S := S106496x32) (Ideal.ofBits .f32 0x40800000#32) (V c (Pipeline.arrRef spec12 0)) (V c (Pipeline.arrRef spec12 1))
            (V c (Pipeline.arrRef spec12 2)) (V c (Pipeline.arrRef spec12 3))) := by
  show (cfg12.win 4).cut (grid12.coords t) ((dat12 V c).after 4 t) = _
  rw [after12_4]
  unfold out12_4
  rw [View.canon_unit_zero zero_off12]
  simp only [View.ld_unit_zero (S := S8192x32) zero_off12]
  funext j
  refine (pay12_apply (iblk12 V c 0 t) (iblk12 V c 1 t) (iblk12 V c 2 t) (iblk12 V c 3 t) j).trans ?_
  exact comb_at12 (V c (Pipeline.arrRef spec12 0)) (V c (Pipeline.arrRef spec12 1)) (V c (Pipeline.arrRef spec12 2)) (V c (Pipeline.arrRef spec12 3))
    _ _ _ _ _ (emb12_0 t j) (emb12_1 t j) (emb12_2 t j) (emb12_3 t j)

/-- An index of the array is in point t's block iff each coordinate is in the block's range on its axis. -/
theorem mem_blk12 (t : Fin cfg12.N) (i : S106496x32.Idx) :
    i ∈ ((cfg12.win 4).blk t).view.set ↔ ∀ a : Fin 2, win12_4.index t a * S8192x32.size a ≤ (i a).val ∧ (i a).val < win12_4.index t a * S8192x32.size a + S8192x32.size a := by
  show i ∈ ((View.whole (Pipeline.arrRef spec12 4)).slice (win12_4.rect t)).set ↔ _
  rw [View.set_slice_whole, Rect.mem_set_unit]
  exact Iff.rfl

/-- THE BLOCKS TILE THE ARRAY: row r lies in the block of point r / 8192 (106496 = 13 · 8192), every column in block 0. -/
theorem cover12 (i : S106496x32.Idx) :
    ∃ t : Fin cfg12.N, (cfg12.win 4).flush t = true ∧ i ∈ ((cfg12.win 4).blk t).view.set := by
  have hi0 : (i 0).val < 106496 := (i 0).isLt
  have hi1 : (i 1).val < 32 := (i 1).isLt
  have hN : cfg12.N = 13 := rfl
  obtain ⟨t, ht⟩ : ∃ t : Fin cfg12.N, t.val = (i 0).val / 8192 := ⟨⟨(i 0).val / 8192, by rw [hN]; omega⟩, rfl⟩
  obtain ⟨-, -, -, -, -, -, -, -, po, qo⟩ := idx_facts12 t
  refine ⟨t, flush12_4 t, ?_⟩
  rw [mem_blk12]
  intro a
  match a with
  | ⟨0, _⟩ => show win12_4.index t (0 : Fin 2) * 8192 ≤ (i 0).val ∧ (i 0).val < win12_4.index t (0 : Fin 2) * 8192 + 8192; omega
  | ⟨1, _⟩ => show win12_4.index t (1 : Fin 2) * 32 ≤ (i 1).val ∧ (i 1).val < win12_4.index t (1 : Fin 2) * 32 + 32; omega

/-- THE OUTPUT ARRAY after the region's write-backs: the combination of the four input arrays as the region finds them. -/
theorem final12 (c : Dev nD) : (Gen.dat12 (F := Ideal) V c).arrAt 4 cfg12.N
    = Spec.comb (S := S106496x32) (Ideal.ofBits .f32 0x40800000#32) (V c (Pipeline.arrRef spec12 0)) (V c (Pipeline.arrRef spec12 1))
        (V c (Pipeline.arrRef spec12 2)) (V c (Pipeline.arrRef spec12 3)) :=
  (dat12 V c).arrAt_eq_of_cover 4 _ (fun t _ => flushed12_eq V c t) cover12

end Cert.KernelIdeal.RV

end
-- ==== Proof.RV.MM13.lean ====
/-
  What region 13 leaves in its output array.  The region multiplies a padded array X of 1605632 rows of 32 features by the
  weights W and adds the bias row b, 16384 rows at a time over a grid of 98 points: point t reads rows 16384·t … 16384·t + 16383
  of X and the whole of W and b, and writes the same rows of the output.  Each point's block is therefore the restriction of
  ONE function of the three arrays,  (p, q) ↦ Σₖ X[p, k] · W[k, q] + b[0, q],  and the 98 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz13 : (![0, 0] : Fin 2 → Nat) = fun _ => 0 := funext fun a => by fin_cases a <;> rfl

/-- The block indices at point t: the rows' windows sit at block t, the weights' and the bias's at block 0. -/
theorem idx_facts13 : ∀ t : Fin cfg13.N, win13_0.index t (0 : Fin 2) = t.val ∧ win13_0.index t (1 : Fin 2) = 0
    ∧ win13_1.index t (0 : Fin 2) = 0 ∧ win13_1.index t (1 : Fin 2) = 0
    ∧ win13_2.index t (0 : Fin 2) = 0 ∧ win13_2.index t (1 : Fin 2) = 0
    ∧ win13_3.index t (0 : Fin 2) = t.val ∧ win13_3.index t (1 : Fin 2) = 0 :=
  (by decide +kernel : ∀ t : Fin grid13.N, _)

/-- One entry of a point's payload is the same entry of the whole product: the block x0 holds rows 16384·n … of X, the
    blocks x1 and x2 are W and b, and entry j of the block is entry i of the array, 16384·n rows further down. -/
theorem point13 (x0 : Vec Ideal S16384x32 .f32) (x1 : Vec Ideal S32x32 .f32) (x2 : Vec Ideal S1x32 .f32)
    (X : Vec Ideal S1605632x32 .f32) (W : Vec Ideal S32x32 .f32) (B : Vec Ideal S1x32 .f32)
    (n : Nat) (j : S16384x32.Idx) (i : S1605632x32.Idx)
    (hi0 : (i 0).val = n * 16384 + (j 0).val) (hi1 : (i 1).val = (j 1).val)
    (h0 : ∀ (y : S16384x32.Idx) (k : S1605632x32.Idx), (k 0).val = n * 16384 + (y 0).val → (k 1).val = (y 1).val → x0 y = X k)
    (h1 : x1 = W) (h2 : x2 = B) :
    k13_pay1 (F := Ideal) x0 x1 x2 j = Spec.mmb (M := 1605632) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed13_eq (c : Dev nD) (t : Fin cfg13.N) :
    (dat13 (F := Ideal) V c).flushed 3 t = ((cfg13.win 3).blk t).view.read (Elt Ideal)
      (Spec.mmb (M := 1605632) (D := 32) (V c (Pipeline.arrRef spec13 0)) (V c (Pipeline.arrRef spec13 1)) (V c (Pipeline.arrRef spec13 2))) := by
  show (cfg13.win 3).cut (grid13.coords t) ((dat13 V c).after 3 t) = _
  rw [after13_3]
  unfold out13_3
  rw [View.canon_unit_zero hz13]
  simp only [View.ld_unit_zero (S := S16384x32) hz13, View.ld_unit_zero (S := S32x32) hz13, View.ld_unit_zero (S := S1x32) hz13]
  obtain ⟨e00, e01, e10, e11, e20, e21, e30, e31⟩ := idx_facts13 t
  funext j
  show k13_pay1 (F := Ideal) (iblk13 V c 0 t) (iblk13 V c 1 t) (iblk13 V c 2 t) j
    = Spec.mmb (M := 1605632) (D := 32) (V c (Pipeline.arrRef spec13 0)) (V c (Pipeline.arrRef spec13 1)) (V c (Pipeline.arrRef spec13 2))
        (((cfg13.win 3).blk t).view.emb j)
  refine point13 _ _ _ _ _ _ t.val j _ ?_ ?_ ?_ ?_ ?_
  · show win13_3.index t (0 : Fin 2) * 16384 + 1 * (j 0).val = t.val * 16384 + (j 0).val
    omega
  · show win13_3.index t (1 : Fin 2) * 32 + 1 * (j 1).val = (j 1).val
    omega
  · intro y k hk0 hk1
    have e : ((cfg13.win 0).blk t).view.emb y = k := by
      funext a; apply Fin.ext
      match a with
      | ⟨0, _⟩ => show win13_0.index t (0 : Fin 2) * 16384 + 1 * (y 0).val = (k 0).val; omega
      | ⟨1, _⟩ => show win13_0.index t (1 : Fin 2) * 32 + 1 * (y 1).val = (k 1).val; omega
    show V c (Pipeline.arrRef spec13 0) (((cfg13.win 0).blk t).view.emb y) = V c (Pipeline.arrRef spec13 0) k
    rw [e]
  · funext y
    have e : ((cfg13.win 1).blk t).view.emb y = y := by
      funext a; apply Fin.ext
      match a with
      | ⟨0, _⟩ => show win13_1.index t (0 : Fin 2) * 32 + 1 * (y 0).val = (y 0).val; omega
      | ⟨1, _⟩ => show win13_1.index t (1 : Fin 2) * 32 + 1 * (y 1).val = (y 1).val; omega
    show V c (Pipeline.arrRef spec13 1) (((cfg13.win 1).blk t).view.emb y) = V c (Pipeline.arrRef spec13 1) y
    rw [e]
  · funext y
    have e : ((cfg13.win 2).blk t).view.emb y = y := by
      funext a; apply Fin.ext
      match a with
      | ⟨0, _⟩ => show win13_2.index t (0 : Fin 2) * 1 + 1 * (y 0).val = (y 0).val; omega
      | ⟨1, _⟩ => show win13_2.index t (1 : Fin 2) * 32 + 1 * (y 1).val = (y 1).val; omega
    show V c (Pipeline.arrRef spec13 2) (((cfg13.win 2).blk t).view.emb y) = V c (Pipeline.arrRef spec13 2) y
    rw [e]

/-- An index of the output array is in point t's block iff each coordinate is in the block's range on its axis. -/
theorem mem_blk13 (t : Fin cfg13.N) (i : S1605632x32.Idx) :
    i ∈ ((cfg13.win 3).blk t).view.set ↔ ∀ a : Fin 2, win13_3.index t a * S16384x32.size a ≤ (i a).val ∧ (i a).val < win13_3.index t a * S16384x32.size a + S16384x32.size a := by
  show i ∈ ((View.whole (Pipeline.arrRef spec13 3)).slice (win13_3.rect t)).set ↔ _
  rw [View.set_slice_whole, Rect.mem_set_unit]
  exact Iff.rfl

/-- Every entry of the output array is in some point's block: row r is in the block of point r / 16384. -/
theorem cover13 (i : S1605632x32.Idx) :
    ∃ t : Fin cfg13.N, (cfg13.win 3).flush t = true ∧ i ∈ ((cfg13.win 3).blk t).view.set := by
  have hi0 : (i 0).val < 1605632 := (i 0).isLt
  have hi1 : (i 1).val < 32 := (i 1).isLt
  have hN : grid13.N = 98 := N_13
  let t : Fin cfg13.N := ⟨(i 0).val / 16384, by show (i 0).val / 16384 < grid13.N; rw [hN]; omega⟩
  obtain ⟨-, -, -, -, -, -, e30, e31⟩ := idx_facts13 t
  have ht : t.val = (i 0).val / 16384 := rfl
  refine ⟨t, flush13_3 t, ?_⟩
  rw [mem_blk13]
  intro a
  match a with
  | ⟨0, _⟩ => show win13_3.index t (0 : Fin 2) * 16384 ≤ (i 0).val ∧ (i 0).val < win13_3.index t (0 : Fin 2) * 16384 + 16384; omega
  | ⟨1, _⟩ => show win13_3.index t (1 : Fin 2) * 32 ≤ (i 1).val ∧ (i 1).val < win13_3.index t (1 : Fin 2) * 32 + 32; omega

/-- THE OUTPUT ARRAY after the region: entry (p, q) is Σₖ X[p, k] · W[k, q] + b[0, q] over the whole padded array X. -/
theorem final13 (c : Dev nD) : (Gen.dat13 (F := Ideal) V c).arrAt 3 cfg13.N
    = Spec.mmb (M := 1605632) (D := 32) (V c (Pipeline.arrRef spec13 0)) (V c (Pipeline.arrRef spec13 1)) (V c (Pipeline.arrRef spec13 2)) :=
  (dat13 (F := Ideal) V c).arrAt_eq_of_cover 3 _ (fun t _ => flushed13_eq V c t) cover13

end Cert.KernelIdeal.RV

end
-- ==== Proof.RV.MM14.lean ====
/-
  What region 14 leaves in its output array.  The region multiplies a padded array X of 212992 rows of 32 features by the
  weights W and adds the bias row b, 16384 rows at a time over a grid of 13 points: point t reads rows 16384·t … 16384·t + 16383
  of X and the whole of W and b, and writes the same rows of the output.  Each point's block is therefore the restriction of
  ONE function of the three arrays,  (p, q) ↦ Σₖ X[p, k] · W[k, q] + b[0, q],  and the 13 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz14 : (![0, 0] : Fin 2 → Nat) = fun _ => 0 := funext fun a => by fin_cases a <;> rfl

/-- The block indices at point t: the rows' windows sit at block t, the weights' and the bias's at block 0. -/
theorem idx_facts14 : ∀ t : Fin cfg14.N, win14_0.index t (0 : Fin 2) = t.val ∧ win14_0.index t (1 : Fin 2) = 0
    ∧ win14_1.index t (0 : Fin 2) = 0 ∧ win14_1.index t (1 : Fin 2) = 0
    ∧ win14_2.index t (0 : Fin 2) = 0 ∧ win14_2.index t (1 : Fin 2) = 0
    ∧ win14_3.index t (0 : Fin 2) = t.val ∧ win14_3.index t (1 : Fin 2) = 0 :=
  (by decide +kernel : ∀ t : Fin grid14.N, _)

/-- One entry of a point's payload is the same entry of the whole product: the block x0 holds rows 16384·n … of X, the
    blocks x1 and x2 are W and b, and entry j of the block is entry i of the array, 16384·n rows further down. -/
theorem point14 (x0 : Vec Ideal S16384x32 .f32) (x1 : Vec Ideal S32x32 .f32) (x2 : Vec Ideal S1x32 .f32)
    (X : Vec Ideal S212992x32 .f32) (W : Vec Ideal S32x32 .f32) (B : Vec Ideal S1x32 .f32)
    (n : Nat) (j : S16384x32.Idx) (i : S212992x32.Idx)
    (hi0 : (i 0).val = n * 16384 + (j 0).val) (hi1 : (i 1).val = (j 1).val)
    (h0 : ∀ (y : S16384x32.Idx) (k : S212992x32.Idx), (k 0).val = n * 16384 + (y 0).val → (k 1).val = (y 1).val → x0 y = X k)
    (h1 : x1 = W) (h2 : x2 = B) :
    k14_pay1 (F := Ideal) x0 x1 x2 j = Spec.mmb (M := 212992) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed14_eq (c : Dev nD) (t : Fin cfg14.N) :
    (dat14 (F := Ideal) V c).flushed 3 t = ((cfg14.win 3).blk t).view.read (Elt Ideal)
      (Spec.mmb (M := 212992) (D := 32) (V c (Pipeline.arrRef spec14 0)) (V c (Pipeline.arrRef spec14 1)) (V c (Pipeline.arrRef spec14 2))) := by
  show (cfg14.win 3).cut (grid14.coords t) ((dat14 V c).after 3 t) = _
  rw [after14_3]
  unfold out14_3
  rw [View.canon_unit_zero hz14]
  simp only [View.ld_unit_zero (S := S16384x32) hz14, View.ld_unit_zero (S := S32x32) hz14, View.ld_unit_zero (S := S1x32) hz14]
  obtain ⟨e00, e01, e10, e11, e20, e21, e30, e31⟩ := idx_facts14 t
  funext j
  show k14_pay1 (F := Ideal) (iblk14 V c 0 t) (iblk14 V c 1 t) (iblk14 V c 2 t) j
    = Spec.mmb (M := 212992) (D := 32) (V c (Pipeline.arrRef spec14 0)) (V c (Pipeline.arrRef spec14 1)) (V c (Pipeline.arrRef spec14 2))
        (((cfg14.win 3).blk t).view.emb j)
  refine point14 _ _ _ _ _ _ t.val j _ ?_ ?_ ?_ ?_ ?_
  · show win14_3.index t (0 : Fin 2) * 16384 + 1 * (j 0).val = t.val * 16384 + (j 0).val
    omega
  · show win14_3.index t (1 : Fin 2) * 32 + 1 * (j 1).val = (j 1).val
    omega
  · intro y k hk0 hk1
    have e : ((cfg14.win 0).blk t).view.emb y = k := by
      funext a; apply Fin.ext
      match a with
      | ⟨0, _⟩ => show win14_0.index t (0 : Fin 2) * 16384 + 1 * (y 0).val = (k 0).val; omega
      | ⟨1, _⟩ => show win14_0.index t (1 : Fin 2) * 32 + 1 * (y 1).val = (k 1).val; omega
    show V c (Pipeline.arrRef spec14 0) (((cfg14.win 0).blk t).view.emb y) = V c (Pipeline.arrRef spec14 0) k
    rw [e]
  · funext y
    have e : ((cfg14.win 1).blk t).view.emb y = y := by
      funext a; apply Fin.ext
      match a with
      | ⟨0, _⟩ => show win14_1.index t (0 : Fin 2) * 32 + 1 * (y 0).val = (y 0).val; omega
      | ⟨1, _⟩ => show win14_1.index t (1 : Fin 2) * 32 + 1 * (y 1).val = (y 1).val; omega
    show V c (Pipeline.arrRef spec14 1) (((cfg14.win 1).blk t).view.emb y) = V c (Pipeline.arrRef spec14 1) y
    rw [e]
  · funext y
    have e : ((cfg14.win 2).blk t).view.emb y = y := by
      funext a; apply Fin.ext
      match a with
      | ⟨0, _⟩ => show win14_2.index t (0 : Fin 2) * 1 + 1 * (y 0).val = (y 0).val; omega
      | ⟨1, _⟩ => show win14_2.index t (1 : Fin 2) * 32 + 1 * (y 1).val = (y 1).val; omega
    show V c (Pipeline.arrRef spec14 2) (((cfg14.win 2).blk t).view.emb y) = V c (Pipeline.arrRef spec14 2) y
    rw [e]

/-- An index of the output array is in point t's block iff each coordinate is in the block's range on its axis. -/
theorem mem_blk14 (t : Fin cfg14.N) (i : S212992x32.Idx) :
    i ∈ ((cfg14.win 3).blk t).view.set ↔ ∀ a : Fin 2, win14_3.index t a * S16384x32.size a ≤ (i a).val ∧ (i a).val < win14_3.index t a * S16384x32.size a + S16384x32.size a := by
  show i ∈ ((View.whole (Pipeline.arrRef spec14 3)).slice (win14_3.rect t)).set ↔ _
  rw [View.set_slice_whole, Rect.mem_set_unit]
  exact Iff.rfl

/-- Every entry of the output array is in some point's block: row r is in the block of point r / 16384. -/
theorem cover14 (i : S212992x32.Idx) :
    ∃ t : Fin cfg14.N, (cfg14.win 3).flush t = true ∧ i ∈ ((cfg14.win 3).blk t).view.set := by
  have hi0 : (i 0).val < 212992 := (i 0).isLt
  have hi1 : (i 1).val < 32 := (i 1).isLt
  have hN : grid14.N = 13 := N_14
  let t : Fin cfg14.N := ⟨(i 0).val / 16384, by show (i 0).val / 16384 < grid14.N; rw [hN]; omega⟩
  obtain ⟨-, -, -, -, -, -, e30, e31⟩ := idx_facts14 t
  have ht : t.val = (i 0).val / 16384 := rfl
  refine ⟨t, flush14_3 t, ?_⟩
  rw [mem_blk14]
  intro a
  match a with
  | ⟨0, _⟩ => show win14_3.index t (0 : Fin 2) * 16384 ≤ (i 0).val ∧ (i 0).val < win14_3.index t (0 : Fin 2) * 16384 + 16384; omega
  | ⟨1, _⟩ => show win14_3.index t (1 : Fin 2) * 32 ≤ (i 1).val ∧ (i 1).val < win14_3.index t (1 : Fin 2) * 32 + 32; omega

/-- THE OUTPUT ARRAY after the region: entry (p, q) is Σₖ X[p, k] · W[k, q] + b[0, q] over the whole padded array X. -/
theorem final14 (c : Dev nD) : (Gen.dat14 (F := Ideal) V c).arrAt 3 cfg14.N
    = Spec.mmb (M := 212992) (D := 32) (V c (Pipeline.arrRef spec14 0)) (V c (Pipeline.arrRef spec14 1)) (V c (Pipeline.arrRef spec14 2)) :=
  (dat14 (F := Ideal) V c).arrAt_eq_of_cover 3 _ (fun t _ => flushed14_eq V c t) cover14

end Cert.KernelIdeal.RV

end
-- ==== Proof.RV.MM15.lean ====
/-
  What region 15 leaves in its output array.  The region multiplies a padded array X of 802816 rows of 32 features by the
  weights W and adds the bias row b, 16384 rows at a time over a grid of 49 points: point t reads rows 16384·t … 16384·t + 16383
  of X and the whole of W and b, and writes the same rows of the output.  Each point's block is therefore the restriction of
  ONE function of the three arrays,  (p, q) ↦ Σₖ X[p, k] · W[k, q] + b[0, q],  and the 49 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz15 : (![0, 0] : Fin 2 → Nat) = fun _ => 0 := funext fun a => by fin_cases a <;> rfl

/-- The block indices at point t: the rows' windows sit at block t, the weights' and the bias's at block 0. -/
theorem idx_facts15 : ∀ t : Fin cfg15.N, win15_0.index t (0 : Fin 2) = t.val ∧ win15_0.index t (1 : Fin 2) = 0
    ∧ win15_1.index t (0 : Fin 2) = 0 ∧ win15_1.index t (1 : Fin 2) = 0
    ∧ win15_2.index t (0 : Fin 2) = 0 ∧ win15_2.index t (1 : Fin 2) = 0
    ∧ win15_3.index t (0 : Fin 2) = t.val ∧ win15_3.index t (1 : Fin 2) = 0 :=
  (by decide +kernel : ∀ t : Fin grid15.N, _)

/-- One entry of a point's payload is the same entry of the whole product: the block x0 holds rows 16384·n … of X, the
    blocks x1 and x2 are W and b, and entry j of the block is entry i of the array, 16384·n rows further down. -/
theorem point15 (x0 : Vec Ideal S16384x32 .f32) (x1 : Vec Ideal S32x32 .f32) (x2 : Vec Ideal S1x32 .f32)
    (X : Vec Ideal S802816x32 .f32) (W : Vec Ideal S32x32 .f32) (B : Vec Ideal S1x32 .f32)
    (n : Nat) (j : S16384x32.Idx) (i : S802816x32.Idx)
    (hi0 : (i 0).val = n * 16384 + (j 0).val) (hi1 : (i 1).val = (j 1).val)
    (h0 : ∀ (y : S16384x32.Idx) (k : S802816x32.Idx), (k 0).val = n * 16384 + (y 0).val → (k 1).val = (y 1).val → x0 y = X k)
    (h1 : x1 = W) (h2 : x2 = B) :
    k15_pay1 (F := Ideal) x0 x1 x2 j = Spec.mmb (M := 802816) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed15_eq (c : Dev nD) (t : Fin cfg15.N) :
    (dat15 (F := Ideal) V c).flushed 3 t = ((cfg15.win 3).blk t).view.read (Elt Ideal)
      (Spec.mmb (M := 802816) (D := 32) (V c (Pipeline.arrRef spec15 0)) (V c (Pipeline.arrRef spec15 1)) (V c (Pipeline.arrRef spec15 2))) := by
  show (cfg15.win 3).cut (grid15.coords t) ((dat15 V c).after 3 t) = _
  rw [after15_3]
  unfold out15_3
  rw [View.canon_unit_zero hz15]
  simp only [View.ld_unit_zero (S := S16384x32) hz15, View.ld_unit_zero (S := S32x32) hz15, View.ld_unit_zero (S := S1x32) hz15]
  obtain ⟨e00, e01, e10, e11, e20, e21, e30, e31⟩ := idx_facts15 t
  funext j
  show k15_pay1 (F := Ideal) (iblk15 V c 0 t) (iblk15 V c 1 t) (iblk15 V c 2 t) j
    = Spec.mmb (M := 802816) (D := 32) (V c (Pipeline.arrRef spec15 0)) (V c (Pipeline.arrRef spec15 1)) (V c (Pipeline.arrRef spec15 2))
        (((cfg15.win 3).blk t).view.emb j)
  refine point15 _ _ _ _ _ _ t.val j _ ?_ ?_ ?_ ?_ ?_
  · show win15_3.index t (0 : Fin 2) * 16384 + 1 * (j 0).val = t.val * 16384 + (j 0).val
    omega
  · show win15_3.index t (1 : Fin 2) * 32 + 1 * (j 1).val = (j 1).val
    omega
  · intro y k hk0 hk1
    have e : ((cfg15.win 0).blk t).view.emb y = k := by
      funext a; apply Fin.ext
      match a with
      | ⟨0, _⟩ => show win15_0.index t (0 : Fin 2) * 16384 + 1 * (y 0).val = (k 0).val; omega
      | ⟨1, _⟩ => show win15_0.index t (1 : Fin 2) * 32 + 1 * (y 1).val = (k 1).val; omega
    show V c (Pipeline.arrRef spec15 0) (((cfg15.win 0).blk t).view.emb y) = V c (Pipeline.arrRef spec15 0) k
    rw [e]
  · funext y
    have e : ((cfg15.win 1).blk t).view.emb y = y := by
      funext a; apply Fin.ext
      match a with
      | ⟨0, _⟩ => show win15_1.index t (0 : Fin 2) * 32 + 1 * (y 0).val = (y 0).val; omega
      | ⟨1, _⟩ => show win15_1.index t (1 : Fin 2) * 32 + 1 * (y 1).val = (y 1).val; omega
    show V c (Pipeline.arrRef spec15 1) (((cfg15.win 1).blk t).view.emb y) = V c (Pipeline.arrRef spec15 1) y
    rw [e]
  · funext y
    have e : ((cfg15.win 2).blk t).view.emb y = y := by
      funext a; apply Fin.ext
      match a with
      | ⟨0, _⟩ => show win15_2.index t (0 : Fin 2) * 1 + 1 * (y 0).val = (y 0).val; omega
      | ⟨1, _⟩ => show win15_2.index t (1 : Fin 2) * 32 + 1 * (y 1).val = (y 1).val; omega
    show V c (Pipeline.arrRef spec15 2) (((cfg15.win 2).blk t).view.emb y) = V c (Pipeline.arrRef spec15 2) y
    rw [e]

/-- An index of the output array is in point t's block iff each coordinate is in the block's range on its axis. -/
theorem mem_blk15 (t : Fin cfg15.N) (i : S802816x32.Idx) :
    i ∈ ((cfg15.win 3).blk t).view.set ↔ ∀ a : Fin 2, win15_3.index t a * S16384x32.size a ≤ (i a).val ∧ (i a).val < win15_3.index t a * S16384x32.size a + S16384x32.size a := by
  show i ∈ ((View.whole (Pipeline.arrRef spec15 3)).slice (win15_3.rect t)).set ↔ _
  rw [View.set_slice_whole, Rect.mem_set_unit]
  exact Iff.rfl

/-- Every entry of the output array is in some point's block: row r is in the block of point r / 16384. -/
theorem cover15 (i : S802816x32.Idx) :
    ∃ t : Fin cfg15.N, (cfg15.win 3).flush t = true ∧ i ∈ ((cfg15.win 3).blk t).view.set := by
  have hi0 : (i 0).val < 802816 := (i 0).isLt
  have hi1 : (i 1).val < 32 := (i 1).isLt
  have hN : grid15.N = 49 := N_15
  let t : Fin cfg15.N := ⟨(i 0).val / 16384, by show (i 0).val / 16384 < grid15.N; rw [hN]; omega⟩
  obtain ⟨-, -, -, -, -, -, e30, e31⟩ := idx_facts15 t
  have ht : t.val = (i 0).val / 16384 := rfl
  refine ⟨t, flush15_3 t, ?_⟩
  rw [mem_blk15]
  intro a
  match a with
  | ⟨0, _⟩ => show win15_3.index t (0 : Fin 2) * 16384 ≤ (i 0).val ∧ (i 0).val < win15_3.index t (0 : Fin 2) * 16384 + 16384; omega
  | ⟨1, _⟩ => show win15_3.index t (1 : Fin 2) * 32 ≤ (i 1).val ∧ (i 1).val < win15_3.index t (1 : Fin 2) * 32 + 32; omega

/-- THE OUTPUT ARRAY after the region: entry (p, q) is Σₖ X[p, k] · W[k, q] + b[0, q] over the whole padded array X. -/
theorem final15 (c : Dev nD) : (Gen.dat15 (F := Ideal) V c).arrAt 3 cfg15.N
    = Spec.mmb (M := 802816) (D := 32) (V c (Pipeline.arrRef spec15 0)) (V c (Pipeline.arrRef spec15 1)) (V c (Pipeline.arrRef spec15 2)) :=
  (dat15 (F := Ideal) V c).arrAt_eq_of_cover 3 _ (fun t _ => flushed15_eq V c t) cover15

end Cert.KernelIdeal.RV

end
-- ==== Proof.RV.CB16.lean ====
/-
  Combination region 16 of the kernel program, read as a whole.  Its thirteen grid points each take rows 8192·t … 8192·t + 8191
  of four [106496, 32] arrays, add the first three blocks left to right, add the fourth block times the constant the body
  names, and write the sum back to the same rows of the output array.  The thirteen blocks tile the array, so the output
  array ends as that combination of the four whole arrays, index by index.
-/
import proofs.«147434_j38603166057109_1_alg».proof.Proof.Gen.KernelIdeal.Frame
import proofs.«147434_j38603166057109_1_alg».proof.Proof.Spec
import Idealize.ShloMosaic.Lib.Pipeline.Value
import Idealize.ShloMosaic.Lib.ValueIdx

noncomputable section

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store go through the whole block: offsets zero on both axes. -/
theorem zero_off16 : (![0, 0] : Fin 2 → Nat) = fun _ => 0 := funext fun a => by fin_cases a <;> rfl

/-- The body's result at an index of the block: the first three blocks added left to right, plus the constant times the
    fourth (the same-shape casts are identities). -/
theorem pay16_apply (x0 x1 x2 x3 : Vec Ideal S8192x32 .f32) (j : S8192x32.Idx) :
    k16_pay1 x0 x1 x2 x3 j = ((x0 j + x1 j) + x2 j) + Ideal.ofBits .f32 0x40800000#32 * x3 j := by
  unfold k16_pay1
  simp only [shapeCast_self]
  rfl

/-- The five index maps, decided over the thirteen grid points: every window's block at point t is block (t, 0). -/
theorem idx_facts16 : ∀ t : Fin cfg16.N,
      win16_0.index t (0 : Fin 2) = t.val ∧ win16_0.index t (1 : Fin 2) = 0
    ∧ win16_1.index t (0 : Fin 2) = t.val ∧ win16_1.index t (1 : Fin 2) = 0
    ∧ win16_2.index t (0 : Fin 2) = t.val ∧ win16_2.index t (1 : Fin 2) = 0
    ∧ win16_3.index t (0 : Fin 2) = t.val ∧ win16_3.index t (1 : Fin 2) = 0
    ∧ win16_4.index t (0 : Fin 2) = t.val ∧ win16_4.index t (1 : Fin 2) = 0 :=
  (by decide +kernel : ∀ t : Fin grid16.N, _)

/-- Point t's block of the first input array sits where its block of the output array sits: a block's coordinate is
    block index × block size + the coordinate inside the block, and the two block indices agree. -/
theorem emb16_0 (t : Fin cfg16.N) (j : S8192x32.Idx) :
    ((cfg16.win 0).blk t).view.emb j = ((cfg16.win 4).blk t).view.emb j := by
  obtain ⟨p0, q0, -, -, -, -, -, -, po, qo⟩ := idx_facts16 t
  funext a; apply Fin.ext
  match a with
  | ⟨0, _⟩ => show win16_0.index t (0 : Fin 2) * 8192 + 1 * (j 0).val = win16_4.index t (0 : Fin 2) * 8192 + 1 * (j 0).val; omega
  | ⟨1, _⟩ => show win16_0.index t (1 : Fin 2) * 32 + 1 * (j 1).val = win16_4.index t (1 : Fin 2) * 32 + 1 * (j 1).val; omega

/-- The same for the second input array. -/
theorem emb16_1 (t : Fin cfg16.N) (j : S8192x32.Idx) :
    ((cfg16.win 1).blk t).view.emb j = ((cfg16.win 4).blk t).view.emb j := by
  obtain ⟨-, -, p1, q1, -, -, -, -, po, qo⟩ := idx_facts16 t
  funext a; apply Fin.ext
  match a with
  | ⟨0, _⟩ => show win16_1.index t (0 : Fin 2) * 8192 + 1 * (j 0).val = win16_4.index t (0 : Fin 2) * 8192 + 1 * (j 0).val; omega
  | ⟨1, _⟩ => show win16_1.index t (1 : Fin 2) * 32 + 1 * (j 1).val = win16_4.index t (1 : Fin 2) * 32 + 1 * (j 1).val; omega

/-- The same for the third input array. -/
theorem emb16_2 (t : Fin cfg16.N) (j : S8192x32.Idx) :
    ((cfg16.win 2).blk t).view.emb j = ((cfg16.win 4).blk t).view.emb j := by
  obtain ⟨-, -, -, -, p2, q2, -, -, po, qo⟩ := idx_facts16 t
  funext a; apply Fin.ext
  match a with
  | ⟨0, _⟩ => show win16_2.index t (0 : Fin 2) * 8192 + 1 * (j 0).val = win16_4.index t (0 : Fin 2) * 8192 + 1 * (j 0).val; omega
  | ⟨1, _⟩ => show win16_2.index t (1 : Fin 2) * 32 + 1 * (j 1).val = win16_4.index t (1 : Fin 2) * 32 + 1 * (j 1).val; omega

/-- The same for the fourth input array. -/
theorem emb16_3 (t : Fin cfg16.N) (j : S8192x32.Idx) :
    ((cfg16.win 3).blk t).view.emb j = ((cfg16.win 4).blk t).view.emb j := by
  obtain ⟨-, -, -, -, -, -, p3, q3, po, qo⟩ := idx_facts16 t
  funext a; apply Fin.ext
  match a with
  | ⟨0, _⟩ => show win16_3.index t (0 : Fin 2) * 8192 + 1 * (j 0).val = win16_4.index t (0 : Fin 2) * 8192 + 1 * (j 0).val; omega
  | ⟨1, _⟩ => show win16_3.index t (1 : Fin 2) * 32 + 1 * (j 1).val = win16_4.index t (1 : Fin 2) * 32 + 1 * (j 1).val; omega

/-- The combination at one index: four arrays read at four positions that are all one position. -/
theorem comb_at16 (a0 a1 a2 a3 : Vec Ideal S106496x32 .f32) (e0 e1 e2 e3 e : S106496x32.Idx)
    (h0 : e0 = e) (h1 : e1 = e) (h2 : e2 = e) (h3 : e3 = e) :
    ((a0 e0 + a1 e1) + a2 e2) + Ideal.ofBits .f32 0x40800000#32 * a3 e3
      = Spec.comb (S := S106496x32) (Ideal.ofBits .f32 0x40800000#32) a0 a1 a2 a3 e := by
  rw [h0, h1, h2, h3]; rfl

/-- WHAT POINT t WRITES BACK is its block of the combination of the four arrays as the region finds them. -/
theorem flushed16_eq (c : Dev nD) (t : Fin cfg16.N) :
    (dat16 (F := Ideal) V c).flushed 4 t
      = ((cfg16.win 4).blk t).view.read (Elt Ideal)
          (Spec.comb (S := S106496x32) (Ideal.ofBits .f32 0x40800000#32) (V c (Pipeline.arrRef spec16 0)) (V c (Pipeline.arrRef spec16 1))
            (V c (Pipeline.arrRef spec16 2)) (V c (Pipeline.arrRef spec16 3))) := by
  show (cfg16.win 4).cut (grid16.coords t) ((dat16 V c).after 4 t) = _
  rw [after16_4]
  unfold out16_4
  rw [View.canon_unit_zero zero_off16]
  simp only [View.ld_unit_zero (S := S8192x32) zero_off16]
  funext j
  refine (pay16_apply (iblk16 V c 0 t) (iblk16 V c 1 t) (iblk16 V c 2 t) (iblk16 V c 3 t) j).trans ?_
  exact comb_at16 (V c (Pipeline.arrRef spec16 0)) (V c (Pipeline.arrRef spec16 1)) (V c (Pipeline.arrRef spec16 2)) (V c (Pipeline.arrRef spec16 3))
    _ _ _ _ _ (emb16_0 t j) (emb16_1 t j) (emb16_2 t j) (emb16_3 t j)

/-- An index of the array is in point t's block iff each coordinate is in the block's range on its axis. -/
theorem mem_blk16 (t : Fin cfg16.N) (i : S106496x32.Idx) :
    i ∈ ((cfg16.win 4).blk t).view.set ↔ ∀ a : Fin 2, win16_4.index t a * S8192x32.size a ≤ (i a).val ∧ (i a).val < win16_4.index t a * S8192x32.size a + S8192x32.size a := by
  show i ∈ ((View.whole (Pipeline.arrRef spec16 4)).slice (win16_4.rect t)).set ↔ _
  rw [View.set_slice_whole, Rect.mem_set_unit]
  exact Iff.rfl

/-- THE BLOCKS TILE THE ARRAY: row r lies in the block of point r / 8192 (106496 = 13 · 8192), every column in block 0. -/
theorem cover16 (i : S106496x32.Idx) :
    ∃ t : Fin cfg16.N, (cfg16.win 4).flush t = true ∧ i ∈ ((cfg16.win 4).blk t).view.set := by
  have hi0 : (i 0).val < 106496 := (i 0).isLt
  have hi1 : (i 1).val < 32 := (i 1).isLt
  have hN : cfg16.N = 13 := rfl
  obtain ⟨t, ht⟩ : ∃ t : Fin cfg16.N, t.val = (i 0).val / 8192 := ⟨⟨(i 0).val / 8192, by rw [hN]; omega⟩, rfl⟩
  obtain ⟨-, -, -, -, -, -, -, -, po, qo⟩ := idx_facts16 t
  refine ⟨t, flush16_4 t, ?_⟩
  rw [mem_blk16]
  intro a
  match a with
  | ⟨0, _⟩ => show win16_4.index t (0 : Fin 2) * 8192 ≤ (i 0).val ∧ (i 0).val < win16_4.index t (0 : Fin 2) * 8192 + 8192; omega
  | ⟨1, _⟩ => show win16_4.index t (1 : Fin 2) * 32 ≤ (i 1).val ∧ (i 1).val < win16_4.index t (1 : Fin 2) * 32 + 32; omega

/-- THE OUTPUT ARRAY after the region's write-backs: the combination of the four input arrays as the region finds them. -/
theorem final16 (c : Dev nD) : (Gen.dat16 (F := Ideal) V c).arrAt 4 cfg16.N
    = Spec.comb (S := S106496x32) (Ideal.ofBits .f32 0x40800000#32) (V c (Pipeline.arrRef spec16 0)) (V c (Pipeline.arrRef spec16 1))
        (V c (Pipeline.arrRef spec16 2)) (V c (Pipeline.arrRef spec16 3)) :=
  (dat16 V c).arrAt_eq_of_cover 4 _ (fun t _ => flushed16_eq V c t) cover16

end Cert.KernelIdeal.RV

end
-- ==== Proof.RV.MM17.lean ====
/-
  What region 17 leaves in its output array.  The region multiplies a padded array X of 1605632 rows of 32 features by the
  weights W and adds the bias row b, 16384 rows at a time over a grid of 98 points: point t reads rows 16384·t … 16384·t + 16383
  of X and the whole of W and b, and writes the same rows of the output.  Each point's block is therefore the restriction of
  ONE function of the three arrays,  (p, q) ↦ Σₖ X[p, k] · W[k, q] + b[0, q],  and the 98 blocks cover every row, so the
  output array ends holding that function.  The three input blocks are read off their arrays in lemmas of their own.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz17 : (![0, 0] : Fin 2 → Nat) = fun _ => 0 := funext fun a => by fin_cases a <;> rfl

/-- The block indices at point t: the rows' windows sit at block t, the weights' and the bias's at block 0. -/
theorem idx_facts17 : ∀ t : Fin cfg17.N, win17_0.index t (0 : Fin 2) = t.val ∧ win17_0.index t (1 : Fin 2) = 0
    ∧ win17_1.index t (0 : Fin 2) = 0 ∧ win17_1.index t (1 : Fin 2) = 0
    ∧ win17_2.index t (0 : Fin 2) = 0 ∧ win17_2.index t (1 : Fin 2) = 0
    ∧ win17_3.index t (0 : Fin 2) = t.val ∧ win17_3.index t (1 : Fin 2) = 0 :=
  (by decide +kernel : ∀ t : Fin grid17.N, _)

/-- One entry of a point's payload is the same entry of the whole product: the block x0 holds rows 16384·n … of X, the
    blocks x1 and x2 are W and b, and entry j of the block is entry i of the array, 16384·n rows further down. -/
theorem point17 (x0 : Vec Ideal S16384x32 .f32) (x1 : Vec Ideal S32x32 .f32) (x2 : Vec Ideal S1x32 .f32)
    (X : Vec Ideal S1605632x32 .f32) (W : Vec Ideal S32x32 .f32) (B : Vec Ideal S1x32 .f32)
    (n : Nat) (j : S16384x32.Idx) (i : S1605632x32.Idx)
    (hi0 : (i 0).val = n * 16384 + (j 0).val) (hi1 : (i 1).val = (j 1).val)
    (h0 : ∀ (y : S16384x32.Idx) (k : S1605632x32.Idx), (k 0).val = n * 16384 + (y 0).val → (k 1).val = (y 1).val → x0 y = X k)
    (h1 : x1 = W) (h2 : x2 = B) :
    k17_pay1 (F := Ideal) x0 x1 x2 j = Spec.mmb (M := 1605632) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- The rows' block at point t is rows 16384·t … 16384·t + 16383 of the array X. -/
theorem blk17_0 (c : Dev nD) (t : Fin cfg17.N) (y : S16384x32.Idx) (k : S1605632x32.Idx)
    (hk0 : (k 0).val = t.val * 16384 + (y 0).val) (hk1 : (k 1).val = (y 1).val) :
    iblk17 V c 0 t y = V c (Pipeline.arrRef spec17 0) k := by
  obtain ⟨e00, e01, -, -, -, -, -, -⟩ := idx_facts17 t
  have e : ((cfg17.win 0).blk t).view.emb y = k := by
    funext a; apply Fin.ext
    match a with
    | ⟨0, _⟩ => show win17_0.index t (0 : Fin 2) * 16384 + 1 * (y 0).val = (k 0).val; omega
    | ⟨1, _⟩ => show win17_0.index t (1 : Fin 2) * 32 + 1 * (y 1).val = (k 1).val; omega
  show V c (Pipeline.arrRef spec17 0) (((cfg17.win 0).blk t).view.emb y) = V c (Pipeline.arrRef spec17 0) k
  rw [e]

/-- The weights' block at every point is the whole array W. -/
theorem blk17_1 (c : Dev nD) (t : Fin cfg17.N) : iblk17 V c 1 t = V c (Pipeline.arrRef spec17 1) := by
  obtain ⟨-, -, e10, e11, -, -, -, -⟩ := idx_facts17 t
  funext y
  have e : ((cfg17.win 1).blk t).view.emb y = y := by
    funext a; apply Fin.ext
    match a with
    | ⟨0, _⟩ => show win17_1.index t (0 : Fin 2) * 32 + 1 * (y 0).val = (y 0).val; omega
    | ⟨1, _⟩ => show win17_1.index t (1 : Fin 2) * 32 + 1 * (y 1).val = (y 1).val; omega
  show V c (Pipeline.arrRef spec17 1) (((cfg17.win 1).blk t).view.emb y) = V c (Pipeline.arrRef spec17 1) y
  rw [e]

/-- The bias's block at every point is the whole row b. -/
theorem blk17_2 (c : Dev nD) (t : Fin cfg17.N) : iblk17 V c 2 t = V c (Pipeline.arrRef spec17 2) := by
  obtain ⟨-, -, -, -, e20, e21, -, -⟩ := idx_facts17 t
  funext y
  have e : ((cfg17.win 2).blk t).view.emb y = y := by
    funext a; apply Fin.ext
    match a with
    | ⟨0, _⟩ => show win17_2.index t (0 : Fin 2) * 1 + 1 * (y 0).val = (y 0).val; omega
    | ⟨1, _⟩ => show win17_2.index t (1 : Fin 2) * 32 + 1 * (y 1).val = (y 1).val; omega
  show V c (Pipeline.arrRef spec17 2) (((cfg17.win 2).blk t).view.emb y) = V c (Pipeline.arrRef spec17 2) y
  rw [e]

/-- WHAT POINT t WRITES BACK is block t of the whole product of the arrays as the region finds them. -/
theorem flushed17_eq (c : Dev nD) (t : Fin cfg17.N) :
    (dat17 (F := Ideal) V c).flushed 3 t = ((cfg17.win 3).blk t).view.read (Elt Ideal)
      (Spec.mmb (M := 1605632) (D := 32) (V c (Pipeline.arrRef spec17 0)) (V c (Pipeline.arrRef spec17 1)) (V c (Pipeline.arrRef spec17 2))) := by
  show (cfg17.win 3).cut (grid17.coords t) ((dat17 V c).after 3 t) = _
  rw [after17_3]
  unfold out17_3
  rw [View.canon_unit_zero hz17]
  simp only [View.ld_unit_zero (S := S16384x32) hz17, View.ld_unit_zero (S := S32x32) hz17, View.ld_unit_zero (S := S1x32) hz17]
  obtain ⟨-, -, -, -, -, -, e30, e31⟩ := idx_facts17 t
  funext j
  show k17_pay1 (F := Ideal) (iblk17 V c 0 t) (iblk17 V c 1 t) (iblk17 V c 2 t) j
    = Spec.mmb (M := 1605632) (D := 32) (V c (Pipeline.arrRef spec17 0)) (V c (Pipeline.arrRef spec17 1)) (V c (Pipeline.arrRef spec17 2))
        (((cfg17.win 3).blk t).view.emb j)
  refine point17 _ _ _ _ _ _ t.val j _ ?_ ?_ (blk17_0 V c t) (blk17_1 V c t) (blk17_2 V c t)
  · show win17_3.index t (0 : Fin 2) * 16384 + 1 * (j 0).val = t.val * 16384 + (j 0).val
    omega
  · show win17_3.index t (1 : Fin 2) * 32 + 1 * (j 1).val = (j 1).val
    omega

/-- An index of the output array is in point t's block iff each coordinate is in the block's range on its axis. -/
theorem mem_blk17 (t : Fin cfg17.N) (i : S1605632x32.Idx) :
    i ∈ ((cfg17.win 3).blk t).view.set ↔ ∀ a : Fin 2, win17_3.index t a * S16384x32.size a ≤ (i a).val ∧ (i a).val < win17_3.index t a * S16384x32.size a + S16384x32.size a := by
  show i ∈ ((View.whole (Pipeline.arrRef spec17 3)).slice (win17_3.rect t)).set ↔ _
  rw [View.set_slice_whole, Rect.mem_set_unit]
  exact Iff.rfl

/-- Every entry of the output array is in some point's block: row r is in the block of point r / 16384. -/
theorem cover17 (i : S1605632x32.Idx) :
    ∃ t : Fin cfg17.N, (cfg17.win 3).flush t = true ∧ i ∈ ((cfg17.win 3).blk t).view.set := by
  have hi0 : (i 0).val < 1605632 := (i 0).isLt
  have hi1 : (i 1).val < 32 := (i 1).isLt
  have hN : grid17.N = 98 := N_17
  let t : Fin cfg17.N := ⟨(i 0).val / 16384, by show (i 0).val / 16384 < grid17.N; rw [hN]; omega⟩
  obtain ⟨-, -, -, -, -, -, e30, e31⟩ := idx_facts17 t
  have ht : t.val = (i 0).val / 16384 := rfl
  refine ⟨t, flush17_3 t, ?_⟩
  rw [mem_blk17]
  intro a
  match a with
  | ⟨0, _⟩ => show win17_3.index t (0 : Fin 2) * 16384 ≤ (i 0).val ∧ (i 0).val < win17_3.index t (0 : Fin 2) * 16384 + 16384; omega
  | ⟨1, _⟩ => show win17_3.index t (1 : Fin 2) * 32 ≤ (i 1).val ∧ (i 1).val < win17_3.index t (1 : Fin 2) * 32 + 32; omega

/-- THE OUTPUT ARRAY after the region: entry (p, q) is Σₖ X[p, k] · W[k, q] + b[0, q] over the whole padded array X. -/
theorem final17 (c : Dev nD) : (Gen.dat17 (F := Ideal) V c).arrAt 3 cfg17.N
    = Spec.mmb (M := 1605632) (D := 32) (V c (Pipeline.arrRef spec17 0)) (V c (Pipeline.arrRef spec17 1)) (V c (Pipeline.arrRef spec17 2)) :=
  (dat17 (F := Ideal) V c).arrAt_eq_of_cover 3 _ (fun t _ => flushed17_eq V c t) cover17

end Cert.KernelIdeal.RV

end
-- ==== Proof.RV.MM18.lean ====
/-
  What region 18 leaves in its output array.  The region multiplies a padded array X of 212992 rows of 32 features by the
  weights W and adds the bias row b, 16384 rows at a time over a grid of 13 points: point t reads rows 16384·t … 16384·t + 16383
  of X and the whole of W and b, and writes the same rows of the output.  Each point's block is therefore the restriction of
  ONE function of the three arrays,  (p, q) ↦ Σₖ X[p, k] · W[k, q] + b[0, q],  and the 13 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz18 : (![0, 0] : Fin 2 → Nat) = fun _ => 0 := funext fun a => by fin_cases a <;> rfl

/-- The block indices at point t: the rows' windows sit at block t, the weights' and the bias's at block 0. -/
theorem idx_facts18 : ∀ t : Fin cfg18.N, win18_0.index t (0 : Fin 2) = t.val ∧ win18_0.index t (1 : Fin 2) = 0
    ∧ win18_1.index t (0 : Fin 2) = 0 ∧ win18_1.index t (1 : Fin 2) = 0
    ∧ win18_2.index t (0 : Fin 2) = 0 ∧ win18_2.index t (1 : Fin 2) = 0
    ∧ win18_3.index t (0 : Fin 2) = t.val ∧ win18_3.index t (1 : Fin 2) = 0 :=
  (by decide +kernel : ∀ t : Fin grid18.N, _)

/-- One entry of a point's payload is the same entry of the whole product: the block x0 holds rows 16384·n … of X, the
    blocks x1 and x2 are W and b, and entry j of the block is entry i of the array, 16384·n rows further down. -/
theorem point18 (x0 : Vec Ideal S16384x32 .f32) (x1 : Vec Ideal S32x32 .f32) (x2 : Vec Ideal S1x32 .f32)
    (X : Vec Ideal S212992x32 .f32) (W : Vec Ideal S32x32 .f32) (B : Vec Ideal S1x32 .f32)
    (n : Nat) (j : S16384x32.Idx) (i : S212992x32.Idx)
    (hi0 : (i 0).val = n * 16384 + (j 0).val) (hi1 : (i 1).val = (j 1).val)
    (h0 : ∀ (y : S16384x32.Idx) (k : S212992x32.Idx), (k 0).val = n * 16384 + (y 0).val → (k 1).val = (y 1).val → x0 y = X k)
    (h1 : x1 = W) (h2 : x2 = B) :
    k18_pay1 (F := Ideal) x0 x1 x2 j = Spec.mmb (M := 212992) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed18_eq (c : Dev nD) (t : Fin cfg18.N) :
    (dat18 (F := Ideal) V c).flushed 3 t = ((cfg18.win 3).blk t).view.read (Elt Ideal)
      (Spec.mmb (M := 212992) (D := 32) (V c (Pipeline.arrRef spec18 0)) (V c (Pipeline.arrRef spec18 1)) (V c (Pipeline.arrRef spec18 2))) := by
  show (cfg18.win 3).cut (grid18.coords t) ((dat18 V c).after 3 t) = _
  rw [after18_3]
  unfold out18_3
  rw [View.canon_unit_zero hz18]
  simp only [View.ld_unit_zero (S := S16384x32) hz18, View.ld_unit_zero (S := S32x32) hz18, View.ld_unit_zero (S := S1x32) hz18]
  obtain ⟨e00, e01, e10, e11, e20, e21, e30, e31⟩ := idx_facts18 t
  funext j
  show k18_pay1 (F := Ideal) (iblk18 V c 0 t) (iblk18 V c 1 t) (iblk18 V c 2 t) j
    = Spec.mmb (M := 212992) (D := 32) (V c (Pipeline.arrRef spec18 0)) (V c (Pipeline.arrRef spec18 1)) (V c (Pipeline.arrRef spec18 2))
        (((cfg18.win 3).blk t).view.emb j)
  refine point18 _ _ _ _ _ _ t.val j _ ?_ ?_ ?_ ?_ ?_
  · show win18_3.index t (0 : Fin 2) * 16384 + 1 * (j 0).val = t.val * 16384 + (j 0).val
    omega
  · show win18_3.index t (1 : Fin 2) * 32 + 1 * (j 1).val = (j 1).val
    omega
  · intro y k hk0 hk1
    have e : ((cfg18.win 0).blk t).view.emb y = k := by
      funext a; apply Fin.ext
      match a with
      | ⟨0, _⟩ => show win18_0.index t (0 : Fin 2) * 16384 + 1 * (y 0).val = (k 0).val; omega
      | ⟨1, _⟩ => show win18_0.index t (1 : Fin 2) * 32 + 1 * (y 1).val = (k 1).val; omega
    show V c (Pipeline.arrRef spec18 0) (((cfg18.win 0).blk t).view.emb y) = V c (Pipeline.arrRef spec18 0) k
    rw [e]
  · funext y
    have e : ((cfg18.win 1).blk t).view.emb y = y := by
      funext a; apply Fin.ext
      match a with
      | ⟨0, _⟩ => show win18_1.index t (0 : Fin 2) * 32 + 1 * (y 0).val = (y 0).val; omega
      | ⟨1, _⟩ => show win18_1.index t (1 : Fin 2) * 32 + 1 * (y 1).val = (y 1).val; omega
    show V c (Pipeline.arrRef spec18 1) (((cfg18.win 1).blk t).view.emb y) = V c (Pipeline.arrRef spec18 1) y
    rw [e]
  · funext y
    have e : ((cfg18.win 2).blk t).view.emb y = y := by
      funext a; apply Fin.ext
      match a with
      | ⟨0, _⟩ => show win18_2.index t (0 : Fin 2) * 1 + 1 * (y 0).val = (y 0).val; omega
      | ⟨1, _⟩ => show win18_2.index t (1 : Fin 2) * 32 + 1 * (y 1).val = (y 1).val; omega
    show V c (Pipeline.arrRef spec18 2) (((cfg18.win 2).blk t).view.emb y) = V c (Pipeline.arrRef spec18 2) y
    rw [e]

/-- An index of the output array is in point t's block iff each coordinate is in the block's range on its axis. -/
theorem mem_blk18 (t : Fin cfg18.N) (i : S212992x32.Idx) :
    i ∈ ((cfg18.win 3).blk t).view.set ↔ ∀ a : Fin 2, win18_3.index t a * S16384x32.size a ≤ (i a).val ∧ (i a).val < win18_3.index t a * S16384x32.size a + S16384x32.size a := by
  show i ∈ ((View.whole (Pipeline.arrRef spec18 3)).slice (win18_3.rect t)).set ↔ _
  rw [View.set_slice_whole, Rect.mem_set_unit]
  exact Iff.rfl

/-- Every entry of the output array is in some point's block: row r is in the block of point r / 16384. -/
theorem cover18 (i : S212992x32.Idx) :
    ∃ t : Fin cfg18.N, (cfg18.win 3).flush t = true ∧ i ∈ ((cfg18.win 3).blk t).view.set := by
  have hi0 : (i 0).val < 212992 := (i 0).isLt
  have hi1 : (i 1).val < 32 := (i 1).isLt
  have hN : grid18.N = 13 := N_18
  let t : Fin cfg18.N := ⟨(i 0).val / 16384, by show (i 0).val / 16384 < grid18.N; rw [hN]; omega⟩
  obtain ⟨-, -, -, -, -, -, e30, e31⟩ := idx_facts18 t
  have ht : t.val = (i 0).val / 16384 := rfl
  refine ⟨t, flush18_3 t, ?_⟩
  rw [mem_blk18]
  intro a
  match a with
  | ⟨0, _⟩ => show win18_3.index t (0 : Fin 2) * 16384 ≤ (i 0).val ∧ (i 0).val < win18_3.index t (0 : Fin 2) * 16384 + 16384; omega
  | ⟨1, _⟩ => show win18_3.index t (1 : Fin 2) * 32 ≤ (i 1).val ∧ (i 1).val < win18_3.index t (1 : Fin 2) * 32 + 32; omega

/-- THE OUTPUT ARRAY after the region: entry (p, q) is Σₖ X[p, k] · W[k, q] + b[0, q] over the whole padded array X. -/
theorem final18 (c : Dev nD) : (Gen.dat18 (F := Ideal) V c).arrAt 3 cfg18.N
    = Spec.mmb (M := 212992) (D := 32) (V c (Pipeline.arrRef spec18 0)) (V c (Pipeline.arrRef spec18 1)) (V c (Pipeline.arrRef spec18 2)) :=
  (dat18 (F := Ideal) V c).arrAt_eq_of_cover 3 _ (fun t _ => flushed18_eq V c t) cover18

end Cert.KernelIdeal.RV

end
-- ==== Proof.RV.MM19.lean ====
/-
  What region 19 leaves in its output array.  The region multiplies a padded array X of 802816 rows of 32 features by the
  weights W and adds the bias row b, 16384 rows at a time over a grid of 49 points: point t reads rows 16384·t … 16384·t + 16383
  of X and the whole of W and b, and writes the same rows of the output.  Each point's block is therefore the restriction of
  ONE function of the three arrays,  (p, q) ↦ Σₖ X[p, k] · W[k, q] + b[0, q],  and the 49 blocks cover every row, so the
  output array ends holding that function.
-/
import proofs.«147434_j38603166057109_1_alg».proof.Proof.Gen.KernelIdeal.Frame
import proofs.«147434_j38603166057109_1_alg».proof.Proof.Spec
import proofs.«147434_j38603166057109_1_alg».proof.Proof.RV.Pay32
import Idealize.ShloMosaic.Lib.Pipeline.Value
import Idealize.ShloMosaic.Lib.ValueIdx

noncomputable section

open scoped BigOperators

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- Zero offsets on both axes, however spelt. -/
theorem hz19 : (![0, 0] : Fin 2 → Nat) = fun _ => 0 := funext fun a => by fin_cases a <;> rfl

/-- The block indices at point t: the rows' windows sit at block t, the weights' and the bias's at block 0. -/
theorem idx_facts19 : ∀ t : Fin cfg19.N, win19_0.index t (0 : Fin 2) = t.val ∧ win19_0.index t (1 : Fin 2) = 0
    ∧ win19_1.index t (0 : Fin 2) = 0 ∧ win19_1.index t (1 : Fin 2) = 0
    ∧ win19_2.index t (0 : Fin 2) = 0 ∧ win19_2.index t (1 : Fin 2) = 0
    ∧ win19_3.index t (0 : Fin 2) = t.val ∧ win19_3.index t (1 : Fin 2) = 0 :=
  (by decide +kernel : ∀ t : Fin grid19.N, _)

/-- One entry of a point's payload is the same entry of the whole product: the block x0 holds rows 16384·n … of X, the
    blocks x1 and x2 are W and b, and entry j of the block is entry i of the array, 16384·n rows further down. -/
theorem point19 (x0 : Vec Ideal S16384x32 .f32) (x1 : Vec Ideal S32x32 .f32) (x2 : Vec Ideal S1x32 .f32)
    (X : Vec Ideal S802816x32 .f32) (W : Vec Ideal S32x32 .f32) (B : Vec Ideal S1x32 .f32)
    (n : Nat) (j : S16384x32.Idx) (i : S802816x32.Idx)
    (hi0 : (i 0).val = n * 16384 + (j 0).val) (hi1 : (i 1).val = (j 1).val)
    (h0 : ∀ (y : S16384x32.Idx) (k : S802816x32.Idx), (k 0).val = n * 16384 + (y 0).val → (k 1).val = (y 1).val → x0 y = X k)
    (h1 : x1 = W) (h2 : x2 = B) :
    k19_pay1 (F := Ideal) x0 x1 x2 j = Spec.mmb (M := 802816) (D := 32) X W B i := by
  obtain ⟨p, q, rfl⟩ : ∃ (p : Fin 16384) (q : Fin 32), j = ix2 p q := ⟨j 0, j 1, eq_ix2 j⟩
  subst h1 h2
  refine (pay32_apply x0 x1 x2 p q).trans ?_
  have hq : (i 1 : Fin 32) = q := Fin.ext hi1
  show (∑ k : Fin 32, x0 (ix2 p k) * x1 (ix2 k q)) + x2 (ix2 (0 : Fin 1) q)
    = (∑ k : Fin 32, X (ix2 (i 0) k) * x1 (ix2 k (i 1))) + x2 (ix2 (0 : Fin 1) (i 1))
  rw [hq]
  refine congrArg (· + x2 (ix2 (0 : Fin 1) q)) (Finset.sum_congr rfl fun k _ => ?_)
  rw [h0 (ix2 p k) (ix2 (i 0) k) hi0 rfl]

/-- WHAT POINT t WRITES BACK is block t of the whole product of the arrays as the region finds them. -/
theorem flushed19_eq (c : Dev nD) (t : Fin cfg19.N) :
    (dat19 (F := Ideal) V c).flushed 3 t = ((cfg19.win 3).blk t).view.read (Elt Ideal)
      (Spec.mmb (M := 802816) (D := 32) (V c (Pipeline.arrRef spec19 0)) (V c (Pipeline.arrRef spec19 1)) (V c (Pipeline.arrRef spec19 2))) := by
  show (cfg19.win 3).cut (grid19.coords t) ((dat19 V c).after 3 t) = _
  rw [after19_3]
  unfold out19_3
  rw [View.canon_unit_zero hz19]
  simp only [View.ld_unit_zero (S := S16384x32) hz19, View.ld_unit_zero (S := S32x32) hz19, View.ld_unit_zero (S := S1x32) hz19]
  obtain ⟨e00, e01, e10, e11, e20, e21, e30, e31⟩ := idx_facts19 t
  funext j
  show k19_pay1 (F := Ideal) (iblk19 V c 0 t) (iblk19 V c 1 t) (iblk19 V c 2 t) j
    = Spec.mmb (M := 802816) (D := 32) (V c (Pipeline.arrRef spec19 0)) (V c (Pipeline.arrRef spec19 1)) (V c (Pipeline.arrRef spec19 2))
        (((cfg19.win 3).blk t).view.emb j)
  refine point19 _ _ _ _ _ _ t.val j _ ?_ ?_ ?_ ?_ ?_
  · show win19_3.index t (0 : Fin 2) * 16384 + 1 * (j 0).val = t.val * 16384 + (j 0).val
    omega
  · show win19_3.index t (1 : Fin 2) * 32 + 1 * (j 1).val = (j 1).val
    omega
  · intro y k hk0 hk1
    have e : ((cfg19.win 0).blk t).view.emb y = k := by
      funext a; apply Fin.ext
      match a with
      | ⟨0, _⟩ => show win19_0.index t (0 : Fin 2) * 16384 + 1 * (y 0).val = (k 0).val; omega
      | ⟨1, _⟩ => show win19_0.index t (1 : Fin 2) * 32 + 1 * (y 1).val = (k 1).val; omega
    show V c (Pipeline.arrRef spec19 0) (((cfg19.win 0).blk t).view.emb y) = V c (Pipeline.arrRef spec19 0) k
    rw [e]
  · funext y
    have e : ((cfg19.win 1).blk t).view.emb y = y := by
      funext a; apply Fin.ext
      match a with
      | ⟨0, _⟩ => show win19_1.index t (0 : Fin 2) * 32 + 1 * (y 0).val = (y 0).val; omega
      | ⟨1, _⟩ => show win19_1.index t (1 : Fin 2) * 32 + 1 * (y 1).val = (y 1).val; omega
    show V c (Pipeline.arrRef spec19 1) (((cfg19.win 1).blk t).view.emb y) = V c (Pipeline.arrRef spec19 1) y
    rw [e]
  · funext y
    have e : ((cfg19.win 2).blk t).view.emb y = y := by
      funext a; apply Fin.ext
      match a with
      | ⟨0, _⟩ => show win19_2.index t (0 : Fin 2) * 1 + 1 * (y 0).val = (y 0).val; omega
      | ⟨1, _⟩ => show win19_2.index t (1 : Fin 2) * 32 + 1 * (y 1).val = (y 1).val; omega
    show V c (Pipeline.arrRef spec19 2) (((cfg19.win 2).blk t).view.emb y) = V c (Pipeline.arrRef spec19 2) y
    rw [e]

/-- An index of the output array is in point t's block iff each coordinate is in the block's range on its axis. -/
theorem mem_blk19 (t : Fin cfg19.N) (i : S802816x32.Idx) :
    i ∈ ((cfg19.win 3).blk t).view.set ↔ ∀ a : Fin 2, win19_3.index t a * S16384x32.size a ≤ (i a).val ∧ (i a).val < win19_3.index t a * S16384x32.size a + S16384x32.size a := by
  show i ∈ ((View.whole (Pipeline.arrRef spec19 3)).slice (win19_3.rect t)).set ↔ _
  rw [View.set_slice_whole, Rect.mem_set_unit]
  exact Iff.rfl

/-- Every entry of the output array is in some point's block: row r is in the block of point r / 16384. -/
theorem cover19 (i : S802816x32.Idx) :
    ∃ t : Fin cfg19.N, (cfg19.win 3).flush t = true ∧ i ∈ ((cfg19.win 3).blk t).view.set := by
  have hi0 : (i 0).val < 802816 := (i 0).isLt
  have hi1 : (i 1).val < 32 := (i 1).isLt
  have hN : grid19.N = 49 := N_19
  let t : Fin cfg19.N := ⟨(i 0).val / 16384, by show (i 0).val / 16384 < grid19.N; rw [hN]; omega⟩
  obtain ⟨-, -, -, -, -, -, e30, e31⟩ := idx_facts19 t
  have ht : t.val = (i 0).val / 16384 := rfl
  refine ⟨t, flush19_3 t, ?_⟩
  rw [mem_blk19]
  intro a
  match a with
  | ⟨0, _⟩ => show win19_3.index t (0 : Fin 2) * 16384 ≤ (i 0).val ∧ (i 0).val < win19_3.index t (0 : Fin 2) * 16384 + 16384; omega
  | ⟨1, _⟩ => show win19_3.index t (1 : Fin 2) * 32 ≤ (i 1).val ∧ (i 1).val < win19_3.index t (1 : Fin 2) * 32 + 32; omega

/-- THE OUTPUT ARRAY after the region: entry (p, q) is Σₖ X[p, k] · W[k, q] + b[0, q] over the whole padded array X. -/
theorem final19 (c : Dev nD) : (Gen.dat19 (F := Ideal) V c).arrAt 3 cfg19.N
    = Spec.mmb (M := 802816) (D := 32) (V c (Pipeline.arrRef spec19 0)) (V c (Pipeline.arrRef spec19 1)) (V c (Pipeline.arrRef spec19 2)) :=
  (dat19 (F := Ideal) V c).arrAt_eq_of_cover 3 _ (fun t _ => flushed19_eq V c t) cover19

end Cert.KernelIdeal.RV

end
-- ==== Proof.RV.CB20.lean ====
/-
  The last combination region of the kernel program (region 20), read as a whole.  Its thirteen grid points each take rows
  8192·t … 8192·t + 8191 of four [106496, 32] arrays, add the first three blocks left to right, add the fourth block times
  the constant the body names, replace every negative entry by zero (the maximum with the constant zero), and write the
  result back to the same rows of the output array.  The thirteen blocks tile the array, so the output array ends as that
  combination of the four whole arrays with its negative entries replaced by zero, index by index.
-/
import proofs.«147434_j38603166057109_1_alg».proof.Proof.Gen.KernelIdeal.Frame
import proofs.«147434_j38603166057109_1_alg».proof.Proof.Spec
import Idealize.ShloMosaic.Lib.Pipeline.Value
import Idealize.ShloMosaic.Lib.ValueIdx

noncomputable section

namespace Cert.KernelIdeal.RV

open Cert.KernelIdeal Cert.KernelIdeal.Gen Idealize.ShloMosaic Idealize.ShloMosaic.TcCoe Idealize.SL.Sem
open Idealize.ShloMosaic.ValueIdx
open Idealize.ShloMosaic.Pipeline (Dat)

variable (V : (c : Dev nD) → (b : Ref sig .tc) → Buf (Elt Ideal) ((c : Thread nD τ).loc b))

/-- The body's loads and its store go through the whole block: offsets zero on both axes. -/
theorem zero_off20 : (![0, 0] : Fin 2 → Nat) = fun _ => 0 := funext fun a => by fin_cases a <;> rfl

/-- The body's result at an index of the block: the first three blocks added left to right, plus the constant times the
    fourth, and of that the maximum with the constant zero (the same-shape casts are identities). -/
theorem pay20_apply (x0 x1 x2 x3 : Vec Ideal S8192x32 .f32) (j : S8192x32.Idx) :
    k20_pay1 x0 x1 x2 x3 j
      = max (((x0 j + x1 j) + x2 j) + Ideal.ofBits .f32 0x40800000#32 * x3 j) (Ideal.ofBits .f32 0x00000000#32) := by
  unfold k20_pay1
  simp only [shapeCast_self]
  rfl

/-- The five index maps, decided over the thirteen grid points: every window's block at point t is block (t, 0). -/
theorem idx_facts20 : ∀ t : Fin cfg20.N,
      win20_0.index t (0 : Fin 2) = t.val ∧ win20_0.index t (1 : Fin 2) = 0
    ∧ win20_1.index t (0 : Fin 2) = t.val ∧ win20_1.index t (1 : Fin 2) = 0
    ∧ win20_2.index t (0 : Fin 2) = t.val ∧ win20_2.index t (1 : Fin 2) = 0
    ∧ win20_3.index t (0 : Fin 2) = t.val ∧ win20_3.index t (1 : Fin 2) = 0
    ∧ win20_4.index t (0 : Fin 2) = t.val ∧ win20_4.index t (1 : Fin 2) = 0 :=
  (by decide +kernel : ∀ t : Fin grid20.N, _)

/-- Point t's block of the first input array sits where its block of the output array sits: a block's coordinate is
    block index × block size + the coordinate inside the block, and the two block indices agree. -/
theorem emb20_0 (t : Fin cfg20.N) (j : S8192x32.Idx) :
    ((cfg20.win 0).blk t).view.emb j = ((cfg20.win 4).blk t).view.emb j := by
  obtain ⟨p0, q0, -, -, -, -, -, -, po, qo⟩ := idx_facts20 t
  funext a; apply Fin.ext
  match a with
  | ⟨0, _⟩ => show win20_0.index t (0 : Fin 2) * 8192 + 1 * (j 0).val = win20_4.index t (0 : Fin 2) * 8192 + 1 * (j 0).val; omega
  | ⟨1, _⟩ => show win20_0.index t (1 : Fin 2) * 32 + 1 * (j 1).val = win20_4.index t (1 : Fin 2) * 32 + 1 * (j 1).val; omega

/-- The same for the second input array. -/
theorem emb20_1 (t : Fin cfg20.N) (j : S8192x32.Idx) :
    ((cfg20.win 1).blk t).view.emb j = ((cfg20.win 4).blk t).view.emb j := by
  obtain ⟨-, -, p1, q1, -, -, -, -, po, qo⟩ := idx_facts20 t
  funext a; apply Fin.ext
  match a with
  | ⟨0, _⟩ => show win20_1.index t (0 : Fin 2) * 8192 + 1 * (j 0).val = win20_4.index t (0 : Fin 2) * 8192 + 1 * (j 0).val; omega
  | ⟨1, _⟩ => show win20_1.index t (1 : Fin 2) * 32 + 1 * (j 1).val = win20_4.index t (1 : Fin 2) * 32 + 1 * (j 1).val; omega

/-- The same for the third input array. -/
theorem emb20_2 (t : Fin cfg20.N) (j : S8192x32.Idx) :
    ((cfg20.win 2).blk t).view.emb j = ((cfg20.win 4).blk t).view.emb j := by
  obtain ⟨-, -, -, -, p2, q2, -, -, po, qo⟩ := idx_facts20 t
  funext a; apply Fin.ext
  match a with
  | ⟨0, _⟩ => show win20_2.index t (0 : Fin 2) * 8192 + 1 * (j 0).val = win20_4.index t (0 : Fin 2) * 8192 + 1 * (j 0).val; omega
  | ⟨1, _⟩ => show win20_2.index t (1 : Fin 2) * 32 + 1 * (j 1).val = win20_4.index t (1 : Fin 2) * 32 + 1 * (j 1).val; omega

/-- The same for the fourth input array. -/
theorem emb20_3 (t : Fin cfg20.N) (j : S8192x32.Idx) :
    ((cfg20.win 3).blk t).view.emb j = ((cfg20.win 4).blk t).view.emb j := by
  obtain ⟨-, -, -, -, -, -, p3, q3, po, qo⟩ := idx_facts20 t
  funext a; apply Fin.ext
  match a with
  | ⟨0, _⟩ => show win20_3.index t (0 : Fin 2) * 8192 + 1 * (j 0).val = win20_4.index t (0 : Fin 2) * 8192 + 1 * (j 0).val; omega
  | ⟨1, _⟩ => show win20_3.index t (1 : Fin 2) * 32 + 1 * (j 1).val = win20_4.index t (1 : Fin 2) * 32 + 1 * (j 1).val; omega

/-- The combination, negative values replaced by zero, at one index: four arrays read at four positions that are all one
    position. -/
theorem comb_at20 (a0 a1 a2 a3 : Vec Ideal S106496x32 .f32) (e0 e1 e2 e3 e : S106496x32.Idx)
    (h0 : e0 = e) (h1 : e1 = e) (h2 : e2 = e) (h3 : e3 = e) :
    max (((a0 e0 + a1 e1) + a2 e2) + Ideal.ofBits .f32 0x40800000#32 * a3 e3) (Ideal.ofBits .f32 0x00000000#32)
      = Spec.combRelu (S := S106496x32) (Ideal.ofBits .f32 0x40800000#32) a0 a1 a2 a3 e := by
  rw [h0, h1, h2, h3]; rfl

/-- WHAT POINT t WRITES BACK is its block of the combination, negative entries replaced by zero, of the four arrays as the
    region finds them. -/
theorem flushed20_eq (c : Dev nD) (t : Fin cfg20.N) :
    (dat20 (F := Ideal) V c).flushed 4 t
      = ((cfg20.win 4).blk t).view.read (Elt Ideal)
          (Spec.combRelu (S := S106496x32) (Ideal.ofBits .f32 0x40800000#32) (V c (Pipeline.arrRef spec20 0)) (V c (Pipeline.arrRef spec20 1))
            (V c (Pipeline.arrRef spec20 2)) (V c (Pipeline.arrRef spec20 3))) := by
  show (cfg20.win 4).cut (grid20.coords t) ((dat20 V c).after 4 t) = _
  rw [after20_4]
  unfold out20_4
  rw [View.canon_unit_zero zero_off20]
  simp only [View.ld_unit_zero (S := S8192x32) zero_off20]
  funext j
  refine (pay20_apply (iblk20 V c 0 t) (iblk20 V c 1 t) (iblk20 V c 2 t) (iblk20 V c 3 t) j).trans ?_
  exact comb_at20 (V c (Pipeline.arrRef spec20 0)) (V c (Pipeline.arrRef spec20 1)) (V c (Pipeline.arrRef spec20 2)) (V c (Pipeline.arrRef spec20 3))
    _ _ _ _ _ (emb20_0 t j) (emb20_1 t j) (emb20_2 t j) (emb20_3 t j)

/-- An index of the array is in point t's block iff each coordinate is in the block's range on its axis. -/
theorem mem_blk20 (t : Fin cfg20.N) (i : S106496x32.Idx) :
    i ∈ ((cfg20.win 4).blk t).view.set ↔ ∀ a : Fin 2, win20_4.index t a * S8192x32.size a ≤ (i a).val ∧ (i a).val < win20_4.index t a * S8192x32.size a + S8192x32.size a := by
  show i ∈ ((View.whole (Pipeline.arrRef spec20 4)).slice (win20_4.rect t)).set ↔ _
  rw [View.set_slice_whole, Rect.mem_set_unit]
  exact Iff.rfl

/-- THE BLOCKS TILE THE ARRAY: row r lies in the block of point r / 8192 (106496 = 13 · 8192), every column in block 0. -/
theorem cover20 (i : S106496x32.Idx) :
    ∃ t : Fin cfg20.N, (cfg20.win 4).flush t = true ∧ i ∈ ((cfg20.win 4).blk t).view.set := by
  have hi0 : (i 0).val < 106496 := (i 0).isLt
  have hi1 : (i 1).val < 32 := (i 1).isLt
  have hN : cfg20.N = 13 := rfl
  obtain ⟨t, ht⟩ : ∃ t : Fin cfg20.N, t.val = (i 0).val / 8192 := ⟨⟨(i 0).val / 8192, by rw [hN]; omega⟩, rfl⟩
  obtain ⟨-, -, -, -, -, -, -, -, po, qo⟩ := idx_facts20 t
  refine ⟨t, flush20_4 t, ?_⟩
  rw [mem_blk20]
  intro a
  match a with
  | ⟨0, _⟩ => show win20_4.index t (0 : Fin 2) * 8192 ≤ (i 0).val ∧ (i 0).val < win20_4.index t (0 : Fin 2) * 8192 + 8192; omega
  | ⟨1, _⟩ => show win20_4.index t (1 : Fin 2) * 32 ≤ (i 1).val ∧ (i 1).val < win20_4.index t (1 : Fin 2) * 32 + 32; omega

/-- THE OUTPUT ARRAY after the region's write-backs: the combination of the four input arrays as the region finds them,
    negative entries replaced by zero. -/
theorem final20 (c : Dev nD) : (Gen.dat20 (F := Ideal) V c).arrAt 4 cfg20.N
    = Spec.combRelu (S := S106496x32) (Ideal.ofBits .f32 0x40800000#32) (V c (Pipeline.arrRef spec20 0)) (V c (Pipeline.arrRef spec20 1))
        (V c (Pipeline.arrRef spec20 2)) (V c (Pipeline.arrRef spec20 3)) :=
  (dat20 V c).arrAt_eq_of_cover 4 _ (fun t _ => flushed20_eq V c t) cover20

end Cert.KernelIdeal.RV

end
-- ==== Proof.KChain.B4.CombSt.lean ====
/-
  Layer 3, the combination and the program's last operation: what the four padding stretches before the combining region
  and the final slice write, stated over ANY contents `V` of the buffers before the stretch — each aggregate, and the
  layer's input, padded to the region's grid; and the region's result cut back to the node count.
-/
import proofs.«147434_j38603166057109_1_alg».proof.Proof.Gen.KernelIdeal.Launch
import proofs.«147434_j38603166057109_1_alg».proof.Proof.Spec
import Idealize.ShloMosaic.Lib.StableHlo.Run

set_option maxRecDepth 16384

noncomputable section

namespace Cert.KernelIdeal.KChain.B4

open Idealize.ShloMosaic Idealize.SL.Sem Cert.KernelIdeal Cert.KernelIdeal.Gen

/-! ## What the host stretches write, over any contents `V` before them -/

section Stretches

variable {F : FTy → Type} [FloatOps F] (V : Valuation τ sig (Elt F))

/-- Relation 0's aggregate padded; the padding value is the scalar the stretch itself leaves. -/
theorem st_padA0 : StableHlo.after hostOps20_1 V (Proc.devRef .tc main_v440)
    = pad S106496x32 ![0, 0] ![6496, 0] ![0, 0] (V (Proc.devRef .tc main_v387) : Vec F S100000x32 .f32)
        (StableHlo.after hostOps20_1 V (Proc.devRef .tc main_call32_v0) : Vec F S_ .f32) pads_S100000x32_S106496x32_064960_000 h_S_ := by
  after_results; rfl

/-- Relation 1's aggregate padded. -/
theorem st_padA1 : StableHlo.after hostOps20_3 V (Proc.devRef .tc main_v441)
    = pad S106496x32 ![0, 0] ![6496, 0] ![0, 0] (V (Proc.devRef .tc main_v409) : Vec F S100000x32 .f32)
        (StableHlo.after hostOps20_3 V (Proc.devRef .tc main_call33_v0) : Vec F S_ .f32) pads_S100000x32_S106496x32_064960_000 h_S_ := by
  after_results; rfl

/-- Relation 2's aggregate padded. -/
theorem st_padA2 : StableHlo.after hostOps20_5 V (Proc.devRef .tc main_v442)
    = pad S106496x32 ![0, 0] ![6496, 0] ![0, 0] (V (Proc.devRef .tc main_v439) : Vec F S100000x32 .f32)
        (StableHlo.after hostOps20_5 V (Proc.devRef .tc main_call34_v0) : Vec F S_ .f32) pads_S100000x32_S106496x32_064960_000 h_S_ := by
  after_results; rfl

/-- The layer's input padded. -/
theorem st_padH : StableHlo.after hostOps20_7 V (Proc.devRef .tc main_v443)
    = pad S106496x32 ![0, 0] ![6496, 0] ![0, 0] (V (Proc.devRef .tc main_v357) : Vec F S100000x32 .f32)
        (StableHlo.after hostOps20_7 V (Proc.devRef .tc main_call35_v0) : Vec F S_ .f32) pads_S100000x32_S106496x32_064960_000 h_S_ := by
  after_results; rfl

/-- The program's last operation: the combining region's result without its padding rows. -/
theorem st_out : StableHlo.after hostOps21 V (Proc.devRef .tc main_v445) = Spec.unpadN (V (Proc.devRef .tc main_v444) : Vec F S106496x32 .f32) := by
  after_results; rfl

end Stretches

end Cert.KernelIdeal.KChain.B4

end
-- ==== Proof.KChain.B4.Comb.lean ====
/-
  Layer 3, the combination, the rectifier and the program's result: the three relations' aggregates and the layer's input h
  are each padded to the combining region's grid; the region adds the three aggregates and four times h, row by row, and
  replaces every negative entry by zero; the program's last operation keeps the first rows of that — the node count —
  which is the program's result.
-/
import proofs.«147434_j38603166057109_1_alg».proof.Proof.Gen.KernelIdeal.Frame
import proofs.«147434_j38603166057109_1_alg».proof.Proof.Spec
import proofs.«147434_j38603166057109_1_alg».proof.Proof.RV.CB20
import proofs.«147434_j38603166057109_1_alg».proof.Proof.KOps
import proofs.«147434_j38603166057109_1_alg».proof.Proof.KChain.CarryB4C
import proofs.«147434_j38603166057109_1_alg».proof.Proof.KChain.B4.CombSt

set_option maxRecDepth 16384

noncomputable section

namespace Cert.KernelIdeal.KChain.B4

open Idealize.ShloMosaic Idealize.SL.Sem Cert.KernelIdeal Cert.KernelIdeal.Gen

section Chain

variable (m : (ℓ : Loc nD τ sig) → Buf (Elt Ideal) ℓ) (ρ : Dev nD → PrngReg) (c : Dev nD)

/-- Region 20 leaves the rectified combination of its entry arrays: the three aggregates plus four times the fourth, negative entries replaced by zero. -/
theorem regionC : W109 m ρ c (Proc.devRef .tc main_v444)
    = Spec.combRelu (S := S106496x32) (Ideal.ofBits .f32 0x40800000#32) (W108 m ρ c (Proc.devRef .tc main_v440)) (W108 m ρ c (Proc.devRef .tc main_v441))
        (W108 m ρ c (Proc.devRef .tc main_v442)) (W108 m ρ c (Proc.devRef .tc main_v443)) :=
  (W109_arr m ρ c 4).trans (RV.final20 (V108 m ρ) c)

/-- The program's result from the layer's input `H` and the three aggregates, each read where it was last written. -/
theorem output (H a0 a1 a2 : Vec Ideal S100000x32 .f32) (hh : W89 m ρ c (Proc.devRef .tc main_v357) = H)
    (h0 : W93 m ρ c (Proc.devRef .tc main_v387) = a0) (h1 : W97 m ρ c (Proc.devRef .tc main_v409) = a1) (h2 : W101 m ρ c (Proc.devRef .tc main_v439) = a2) :
    W110 (F := Ideal) m ρ c (Proc.devRef .tc main_v445)
      = Spec.relu (Spec.combK (Ideal.ofBits .f32 0x40800000#32) a0 a1 a2 H) := by
  have eP0 : W108 m ρ c (Proc.devRef .tc main_v440)
      = pad S106496x32 ![0, 0] ![6496, 0] ![0, 0] a0
        (W102 m ρ c (Proc.devRef .tc main_call32_v0) : Vec Ideal S_ .f32) pads_S100000x32_S106496x32_064960_000 h_S_ := by
    rw [CarryB4C.c_v440_102_108 m ρ c, show W102 m ρ c (Proc.devRef .tc main_v440) = _ from st_padA0 (W101 m ρ c),
      CarryB4C.c_v387_93_101 m ρ c, h0]
  have eP1 : W108 m ρ c (Proc.devRef .tc main_v441)
      = pad S106496x32 ![0, 0] ![6496, 0] ![0, 0] a1
        (W104 m ρ c (Proc.devRef .tc main_call33_v0) : Vec Ideal S_ .f32) pads_S100000x32_S106496x32_064960_000 h_S_ := by
    rw [CarryB4C.c_v441_104_108 m ρ c, show W104 m ρ c (Proc.devRef .tc main_v441) = _ from st_padA1 (W103 m ρ c),
      CarryB4C.c_v409_97_103 m ρ c, h1]
  have eP2 : W108 m ρ c (Proc.devRef .tc main_v442)
      = pad S106496x32 ![0, 0] ![6496, 0] ![0, 0] a2
        (W106 m ρ c (Proc.devRef .tc main_call34_v0) : Vec Ideal S_ .f32) pads_S100000x32_S106496x32_064960_000 h_S_ := by
    rw [CarryB4C.c_v442_106_108 m ρ c, show W106 m ρ c (Proc.devRef .tc main_v442) = _ from st_padA2 (W105 m ρ c),
      CarryB4C.c_v439_101_105 m ρ c, h2]
  have ePH : W108 m ρ c (Proc.devRef .tc main_v443)
      = pad S106496x32 ![0, 0] ![6496, 0] ![0, 0] H
        (W108 m ρ c (Proc.devRef .tc main_call35_v0) : Vec Ideal S_ .f32) pads_S100000x32_S106496x32_064960_000 h_S_ := by
    rw [show W108 m ρ c (Proc.devRef .tc main_v443) = _ from st_padH (W107 m ρ c), CarryB4C.c_v357_89_107 m ρ c, hh]
  rw [show W110 m ρ c (Proc.devRef .tc main_v445) = _ from st_out (W109 m ρ c), regionC m ρ c, eP0, eP1, eP2, ePH]
  exact KOps.combRelu_unpad _ _ _ _ _ _ _ _ _

end Chain

end Cert.KernelIdeal.KChain.B4

end
-- ==== Proof.KChain.B4.lean ====
/-
  The fourth residual layer and the program's result.  With H the layer's input — the previous block's padded result cut
  back to the node count — the program's result buffer at the last boundary holds the layer as the kernel arranges it,
  rectified: the three relations' aggregates of H, each through the layer's weights and bias for that relation, plus four
  times H, with every negative entry replaced by zero.
-/
import proofs.«147434_j38603166057109_1_alg».proof.Proof.KChain.B4.Rel0
import proofs.«147434_j38603166057109_1_alg».proof.Proof.KChain.B4.Rel1
import proofs.«147434_j38603166057109_1_alg».proof.Proof.KChain.B4.Rel2
import proofs.«147434_j38603166057109_1_alg».proof.Proof.KChain.B4.Comb

noncomputable section

namespace Cert.KernelIdeal.KChain

open Idealize.ShloMosaic Idealize.SL.Sem Cert.KernelIdeal Cert.KernelIdeal.Gen

theorem block4 (m : (ℓ : Loc nD τ sig) → Buf (Elt Ideal) ℓ) (ρ : Dev nD → PrngReg) (c : Dev nD) (H : Vec Ideal S100000x32 .f32)
    (hH : Spec.unpadN (F := Ideal) (Gen.W88 (F := Ideal) m ρ c (Proc.devRef .tc main_v356)) = H) :
    Gen.W110 (F := Ideal) m ρ c (Proc.devRef .tc main_v445)
      = Spec.relu (Spec.layK 3 H (m ((c.tc : Thread nD τ).loc main_arg1)) (m ((c.tc : Thread nD τ).loc main_arg2)) (m ((c.tc : Thread nD τ).loc main_arg3))
          (m ((c.tc : Thread nD τ).loc main_arg8)) (m ((c.tc : Thread nD τ).loc main_arg9))) := by
  have hh := B4.input m ρ c H hH
  unfold Spec.layK
  exact B4.output m ρ c H _ _ _ hh (B4.aggregate0 m ρ c H hH) (B4.aggregate1 m ρ c H hh) (B4.aggregate2 m ρ c H hh)

end Cert.KernelIdeal.KChain

end
-- ==== Proof.RRun.Args.lean ====
/- No stretch of the reference's line writes an argument: after each of the first fifteen stretches, and at launch, each of
   the ten arguments' buffers holds what the launch memory holds (after the sixteenth: `U16_argJ`, beside the run). One line
   a stretch and argument, by the stretch's keep lemma and the line before. -/
import proofs.«147434_j38603166057109_1_alg».proof.Proof.RRun

set_option Elab.async false

noncomputable section

namespace Cert.ReferenceIdeal.RunP

open Cert.ReferenceIdeal Cert.ReferenceIdeal.Gen Idealize.ShloMosaic Idealize.ShloMosaic.TcCoe Idealize.SL.Sem Idealize.ShloMosaic.StableHlo

variable {F : FTy → Type} [FloatOps F]

theorem U0_arg0 (m : (ℓ : Loc nD τ sig) → Buf (Elt F) ℓ) (c : Dev nD) :
    U0 m c (Proc.devRef .tc main_arg0) = m ((c.tc : Thread nD τ).loc main_arg0) := rfl
theorem U0_arg1 (m : (ℓ : Loc nD τ sig) → Buf (Elt F) ℓ) (c : Dev nD) :
    U0 m c (Proc.devRef .tc main_arg1) = m ((c.tc : Thread nD τ).loc main_arg1) := rfl
theorem U0_arg2 (m : (ℓ : Loc nD τ sig) → Buf (Elt F) ℓ) (c : Dev nD) :
    U0 m c (Proc.devRef .tc main_arg2) = m ((c.tc : Thread nD τ).loc main_arg2) := rfl
theorem U0_arg3 (m : (ℓ : Loc nD τ sig) → Buf (Elt F) ℓ) (c : Dev nD) :
    U0 m c (Proc.devRef .tc main_arg3) = m ((c.tc : Thread nD τ).loc main_arg3) := rfl
theorem U0_arg4 (m : (ℓ : Loc nD τ sig) → Buf (Elt F) ℓ) (c : Dev nD) :
    U0 m c (Proc.devRef .tc main_arg4) = m ((c.tc : Thread nD τ).loc main_arg4) := rfl
theorem U0_arg5 (m : (ℓ : Loc nD τ sig) → Buf (Elt F) ℓ) (c : Dev nD) :
    U0 m c (Proc.devRef .tc main_arg5) = m ((c.tc : Thread nD τ).loc main_arg5) := rfl
theorem U0_arg6 (m : (ℓ : Loc nD τ sig) → Buf (Elt F) ℓ) (c : Dev nD) :
    U0 m c (Proc.devRef .tc main_arg6) = m ((c.tc : Thread nD τ).loc main_arg6) := rfl
theorem U0_arg7 (m : (ℓ : Loc nD τ sig) → Buf (Elt F) ℓ) (c : Dev nD) :
    U0 m c (Proc.devRef .tc main_arg7) = m ((c.tc : Thread nD τ).loc main_arg7) := rfl
theorem U0_arg8 (m : (ℓ : Loc nD τ sig) → Buf (Elt F) ℓ) (c : Dev nD) :
    U0 m c (Proc.devRef .tc main_arg8) = m ((c.tc : Thread nD τ).loc main_arg8) := rfl
theorem U0_arg9 (m : (ℓ : Loc nD τ sig) → Buf (Elt F) ℓ) (c : Dev nD) :
    U0 m c (Proc.devRef .tc main_arg9) = m ((c.tc : Thread nD τ).loc main_arg9) := rfl
theorem U1_arg0 (m : (ℓ : Loc nD τ sig) → Buf (Elt F) ℓ) (c : Dev nD) :
    U1 m c (Proc.devRef .tc main_arg0) = m ((c.tc : Thread nD τ).loc main_arg0) :=
  (U1_keep m c main_arg0 (by decide)).trans (U0_arg0 m c)
theorem U1_arg1 (m : (ℓ : Loc nD τ sig) → Buf (Elt F) ℓ) (c : Dev nD) :
    U1 m c (Proc.devRef .tc main_arg1) = m ((c.tc : Thread nD τ).loc main_arg1) :=
  (U1_keep m c main_arg1 (by decide)).trans (U0_arg1 m c)
theorem U1_arg2 (m : (ℓ : Loc nD τ sig) → Buf (Elt F) ℓ) (c : Dev nD) :
    U1 m c (Proc.devRef .tc main_arg2) = m ((c.tc : Thread nD τ).loc main_arg2) :=
  (U1_keep m c main_arg2 (by decide)).trans (U0_arg2 m c)
theorem U1_arg3 (m : (ℓ : Loc nD τ sig) → Buf (Elt F) ℓ) (c : Dev nD) :
    U1 m c (Proc.devRef .tc main_arg3) = m ((c.tc : Thread nD τ).loc main_arg3) :=
  (U1_keep m c main_arg3 (by decide)).trans (U0_arg3 m c)
theorem U1_arg4 (m : (ℓ : Loc nD τ sig) → Buf (Elt F) ℓ) (c : Dev nD) :
    U1 m c (Proc.devRef .tc main_arg4) = m ((c.tc : Thread nD τ).loc main_arg4) :=
  (U1_keep m c main_arg4 (by decide)).trans (U0_arg4 m c)
theorem U1_arg5 (m : (ℓ : Loc nD τ sig) → Buf (Elt F) ℓ) (c : Dev nD) :
    U1 m c (Proc.devRef .tc main_arg5) = m ((c.tc : Thread nD τ).loc main_arg5) :=
  (U1_keep m c main_arg5 (by decide)).trans (U0_arg5 m c)
theorem U1_arg6 (m : (ℓ : Loc nD τ sig) → Buf (Elt F) ℓ) (c : Dev nD) :
    U1 m c (Proc.devRef .tc main_arg6) = m ((c.tc : Thread nD τ).loc main_arg6) :=
  (U1_keep m c main_arg6 (by decide)).trans (U0_arg6 m c)
theorem U1_arg7 (m : (ℓ : Loc nD τ sig) → Buf (Elt F) ℓ) (c : Dev nD) :
    U1 m c (Proc.devRef .tc main_arg7) = m ((c.tc : Thread nD τ).loc main_arg7) :=
  (U1_keep m c main_arg7 (by decide)).trans (U0_arg7 m c)
theorem U1_arg8 (m : (ℓ : Loc nD τ sig) → Buf (Elt F) ℓ) (c : Dev nD) :
    U1 m c (Proc.devRef .tc main_arg8) = m ((c.tc : Thread nD τ).loc main_arg8) :=
  (U1_keep m c main_arg8 (by decide)).trans (U0_arg8 m c)
theorem U1_arg9 (m : (ℓ : Loc nD τ sig) → Buf (Elt F) ℓ) (c : Dev nD) :
    U1 m c (Proc.devRef .tc main_arg9) = m ((c.tc : Thread nD τ).loc main_arg9) :=
  (U1_keep m c main_arg9 (by decide)).trans (U0_arg9 m c)
theorem U2_arg0 (m : (ℓ : Loc nD τ sig) → Buf (Elt F) ℓ) (c : Dev nD) :
    U2 m c (Proc.devRef .tc main_arg0) = m ((c.tc : Thread nD τ).loc main_arg0) :=
  (U2_keep m c main_arg0 (by decide)).trans (U1_arg0 m c)
theorem U2_arg1 (m : (ℓ : Loc nD τ sig) → Buf (Elt F) ℓ) (c : Dev nD) :
    U2 m c (Proc.devRef .tc main_arg1) = m ((c.tc : Thread nD τ).loc main_arg1) :=
  (U2_keep m c main_arg1 (by decide)).trans (U1_arg1 m c)
theorem U2_arg2 (m : (ℓ : Loc nD τ sig) → Buf (Elt F) ℓ) (c : Dev nD) :
    U2 m c (Proc.devRef .tc main_arg2) = m ((c.tc : Thread nD τ).loc main_arg2) :=
  (U2_keep m c main_arg2 (by decide)).trans (U1_arg2 m c)
theorem U2_arg3 (m : (ℓ : Loc nD τ sig) → Buf (Elt F) ℓ) (c : Dev nD) :
    U2 m c (Proc.devRef .tc main_arg3) = m ((c.tc : Thread nD τ).loc main_arg3) :=
  (U2_keep m c main_arg3 (by decide)).trans (U1_arg3 m c)
theorem U2_arg4 (m : (ℓ : Loc nD τ sig) → Buf (Elt F) ℓ) (c : Dev nD) :
    U2 m c (Proc.devRef .tc main_arg4) = m ((c.tc : Thread nD τ).loc main_arg4) :=
  (U2_keep m c main_arg4 (by decide)).trans (U1_arg4 m c)
theorem U2_arg5 (m : (ℓ : Loc nD τ sig) → Buf (Elt F) ℓ) (c : Dev nD) :
    U2 m c (Proc.devRef .tc main_arg5) = m ((c.tc : Thread nD τ).loc main_arg5) :=
  (U2_keep m c main_arg5 (by decide)).trans (U1_arg5 m c)
theorem U2_arg6 (m : (ℓ : Loc nD τ sig) → Buf (Elt F) ℓ) (c : Dev nD) :
    U2 m c (Proc.devRef .tc main_arg6) = m ((c.tc : Thread nD τ).loc main_arg6) :=
  (U2_keep m c main_arg6 (by decide)).trans (U1_arg6 m c)
theorem U2_arg7 (m : (ℓ : Loc nD τ sig) → Buf (Elt F) ℓ) (c : Dev nD) :
    U2 m c (Proc.devRef .tc main_arg7) = m ((c.tc : Thread nD τ).loc main_arg7) :=
  (U2_keep m c main_arg7 (by decide)).trans (U1_arg7 m c)
theorem U2_arg8 (m : (ℓ : Loc nD τ sig) → Buf (Elt F) ℓ) (c : Dev nD) :
    U2 m c (Proc.devRef .tc main_arg8) = m ((c.tc : Thread nD τ).loc main_arg8) :=
  (U2_keep m c main_arg8 (by decide)).trans (U1_arg8 m c)
theorem U2_arg9 (m : (ℓ : Loc nD τ sig) → Buf (Elt F) ℓ) (c : Dev nD) :
    U2 m c (Proc.devRef .tc main_arg9) = m ((c.tc : Thread nD τ).loc main_arg9) :=
  (U2_keep m c main_arg9 (by decide)).trans (U1_arg9 m c)
theorem U3_arg0 (m : (ℓ : Loc nD τ sig) → Buf (Elt F) ℓ) (c : Dev nD) :
    U3 m c (Proc.devRef .tc main_arg0) = m ((c.tc : Thread nD τ).loc main_arg0) :=
  (U3_keep m c main_arg0 (by decide)).trans (U2_arg0 m c)
theorem U3_arg1 (m : (ℓ : Loc nD τ sig) → Buf (Elt F) ℓ) (c : Dev nD) :
    U3 m c (Proc.devRef .tc main_arg1) = m ((c.tc : Thread nD τ).loc main_arg1) :=
  (U3_keep m c main_arg1 (by decide)).trans (U2_arg1 m c)
theorem U3_arg2 (m : (ℓ : Loc nD τ sig) → Buf (Elt F) ℓ) (c : Dev nD) :
    U3 m c (Proc.devRef .tc main_arg2) = m ((c.tc : Thread nD τ).loc main_arg2) :=
  (U3_keep m c main_arg2 (by decide)).trans (U2_arg2 m c)
theorem U3_arg3 (m : (ℓ : Loc nD τ sig) → Buf (Elt F) ℓ) (c : Dev nD) :
    U3 m c (Proc.devRef .tc main_arg3) = m ((c.tc : Thread nD τ).loc main_arg3) :=
  (U3_keep m c main_arg3 (by decide)).trans (U2_arg3 m c)
theorem U3_arg4 (m : (ℓ : Loc nD τ sig) → Buf (Elt F) ℓ) (c : Dev nD) :
    U3 m c (Proc.devRef .tc main_arg4) = m ((c.tc : Thread nD τ).loc main_arg4) :=
  (U3_keep m c main_arg4 (by decide)).trans (U2_arg4 m c)
theorem U3_arg5 (m : (ℓ : Loc nD τ sig) → Buf (Elt F) ℓ) (c : Dev nD) :
    U3 m c (Proc.devRef .tc main_arg5) = m ((c.tc : Thread nD τ).loc main_arg5) :=
  (U3_keep m c main_arg5 (by decide)).trans (U2_arg5 m c)
theorem U3_arg6 (m : (ℓ : Loc nD τ sig) → Buf (Elt F) ℓ) (c : Dev nD) :
    U3 m c (Proc.devRef .tc main_arg6) = m ((c.tc : Thread nD τ).loc main_arg6) :=
  (U3_keep m c main_arg6 (by decide)).trans (U2_arg6 m c)
theorem U3_arg7 (m : (ℓ : Loc nD τ sig) → Buf (Elt F) ℓ) (c : Dev nD) :
    U3 m c (Proc.devRef .tc main_arg7) = m ((c.tc : Thread nD τ).loc main_arg7) :=
  (U3_keep m c main_arg7 (by decide)).trans (U2_arg7 m c)
theorem U3_arg8 (m : (ℓ : Loc nD τ sig) → Buf (Elt F) ℓ) (c : Dev nD) :
    U3 m c (Proc.devRef .tc main_arg8) = m ((c.tc : Thread nD τ).loc main_arg8) :=
  (U3_keep m c main_arg8 (by decide)).trans (U2_arg8 m c)
theorem U3_arg9 (m : (ℓ : Loc nD τ sig) → Buf (Elt F) ℓ) (c : Dev nD) :
    U3 m c (Proc.devRef .tc main_arg9) = m ((c.tc : Thread nD τ).loc main_arg9) :=
  (U3_keep m c main_arg9 (by decide)).trans (U2_arg9 m c)
theorem U4_arg0 (m : (ℓ : Loc nD τ sig) → Buf (Elt F) ℓ) (c : Dev nD) :
    U4 m c (Proc.devRef .tc main_arg0) = m ((c.tc : Thread nD τ).loc main_arg0) :=
  (U4_keep m c main_arg0 (by decide)).trans (U3_arg0 m c)
theorem U4_arg1 (m : (ℓ : Loc nD τ sig) → Buf (Elt F) ℓ) (c : Dev nD) :
    U4 m c (Proc.devRef .tc main_arg1) = m ((c.tc : Thread nD τ).loc main_arg1) :=
  (U4_keep m c main_arg1 (by decide)).trans (U3_arg1 m c)
theorem U4_arg2 (m : (ℓ : Loc nD τ sig) → Buf (Elt F) ℓ) (c : Dev nD) :
    U4 m c (Proc.devRef .tc main_arg2) = m ((c.tc : Thread nD τ).loc main_arg2) :=
  (U4_keep m c main_arg2 (by decide)).trans (U3_arg2 m c)
theorem U4_arg3 (m : (ℓ : Loc nD τ sig) → Buf (Elt F) ℓ) (c : Dev nD) :
    U4 m c (Proc.devRef .tc main_arg3) = m ((c.tc : Thread nD τ).loc main_arg3) :=
  (U4_keep m c main_arg3 (by decide)).trans (U3_arg3 m c)
theorem U4_arg4 (m : (ℓ : Loc nD τ sig) → Buf (Elt F) ℓ) (c : Dev nD) :
    U4 m c (Proc.devRef .tc main_arg4) = m ((c.tc : Thread nD τ).loc main_arg4) :=
  (U4_keep m c main_arg4 (by decide)).trans (U3_arg4 m c)
theorem U4_arg5 (m : (ℓ : Loc nD τ sig) → Buf (Elt F) ℓ) (c : Dev nD) :
    U4 m c (Proc.devRef .tc main_arg5) = m ((c.tc : Thread nD τ).loc main_arg5) :=
  (U4_keep m c main_arg5 (by decide)).trans (U3_arg5 m c)
theorem U4_arg6 (m : (ℓ : Loc nD τ sig) → Buf (Elt F) ℓ) (c : Dev nD) :
    U4 m c (Proc.devRef .tc main_arg6) = m ((c.tc : Thread nD τ).loc main_arg6) :=
  (U4_keep m c main_arg6 (by decide)).trans (U3_arg6 m c)
theorem U4_arg7 (m : (ℓ : Loc nD τ sig) → Buf (Elt F) ℓ) (c : Dev nD) :
    U4 m c (Proc.devRef .tc main_arg7) = m ((c.tc : Thread nD τ).loc main_arg7) :=
  (U4_keep m c main_arg7 (by decide)).trans (U3_arg7 m c)
theorem U4_arg8 (m : (ℓ : Loc nD τ sig) → Buf (Elt F) ℓ) (c : Dev nD) :
    U4 m c (Proc.devRef .tc main_arg8) = m ((c.tc : Thread nD τ).loc main_arg8) :=
  (U4_keep m c main_arg8 (by decide)).trans (U3_arg8 m c)
theorem U4_arg9 (m : (ℓ : Loc nD τ sig) → Buf (Elt F) ℓ) (c : Dev nD) :
    U4 m c (Proc.devRef .tc main_arg9) = m ((c.tc : Thread nD τ).loc main_arg9) :=
  (U4_keep m c main_arg9 (by decide)).trans (U3_arg9 m c)
theorem U5_arg0 (m : (ℓ : Loc nD τ sig) → Buf (Elt F) ℓ) (c : Dev nD) :
    U5 m c (Proc.devRef .tc main_arg0) = m ((c.tc : Thread nD τ).loc main_arg0) :=
  (U5_keep m c main_arg0 (by decide)).trans (U4_arg0 m c)
theorem U5_arg1 (m : (ℓ : Loc nD τ sig) → Buf (Elt F) ℓ) (c : Dev nD) :
    U5 m c (Proc.devRef .tc main_arg1) = m ((c.tc : Thread nD τ).loc main_arg1) :=
  (U5_keep m c main_arg1 (by decide)).trans (U4_arg1 m c)
theorem U5_arg2 (m : (ℓ : Loc nD τ sig) → Buf (Elt F) ℓ) (c : Dev nD) :
    U5 m c (Proc.devRef .tc main_arg2) = m ((c.tc : Thread nD τ).loc main_arg2) :=
  (U5_keep m c main_arg2 (by decide)).trans (U4_arg2 m c)
theorem U5_arg3 (m : (ℓ : Loc nD τ sig) → Buf (Elt F) ℓ) (c : Dev nD) :
    U5 m c (Proc.devRef .tc main_arg3) = m ((c.tc : Thread nD τ).loc main_arg3) :=
  (U5_keep m c main_arg3 (by decide)).trans (U4_arg3 m c)
theorem U5_arg4 (m : (ℓ : Loc nD τ sig) → Buf (Elt F) ℓ) (c : Dev nD) :
    U5 m c (Proc.devRef .tc main_arg4) = m ((c.tc : Thread nD τ).loc main_arg4) :=
  (U5_keep m c main_arg4 (by decide)).trans (U4_arg4 m c)
theorem U5_arg5 (m : (ℓ : Loc nD τ sig) → Buf (Elt F) ℓ) (c : Dev nD) :
    U5 m c (Proc.devRef .tc main_arg5) = m ((c.tc : Thread nD τ).loc main_arg5) :=
  (U5_keep m c main_arg5 (by decide)).trans (U4_arg5 m c)
theorem U5_arg6 (m : (ℓ : Loc nD τ sig) → Buf (Elt F) ℓ) (c : Dev nD) :
    U5 m c (Proc.devRef .tc main_arg6) = m ((c.tc : Thread nD τ).loc main_arg6) :=
  (U5_keep m c main_arg6 (by decide)).trans (U4_arg6 m c)
theorem U5_arg7 (m : (ℓ : Loc nD τ sig) → Buf (Elt F) ℓ) (c : Dev nD) :
    U5 m c (Proc.devRef .tc main_arg7) = m ((c.tc : Thread nD τ).loc main_arg7) :=
  (U5_keep m c main_arg7 (by decide)).trans (U4_arg7 m c)
theorem U5_arg8 (m : (ℓ : Loc nD τ sig) → Buf (Elt F) ℓ) (c : Dev nD) :
    U5 m c (Proc.devRef .tc main_arg8) = m ((c.tc : Thread nD τ).loc main_arg8) :=
  (U5_keep m c main_arg8 (by decide)).trans (U4_arg8 m c)
theorem U5_arg9 (m : (ℓ : Loc nD τ sig) → Buf (Elt F) ℓ) (c : Dev nD) :
    U5 m c (Proc.devRef .tc main_arg9) = m ((c.tc : Thread nD τ).loc main_arg9) :=
  (U5_keep m c main_arg9 (by decide)).trans (U4_arg9 m c)
theorem U6_arg0 (m : (ℓ : Loc nD τ sig) → Buf (Elt F) ℓ) (c : Dev nD) :
    U6 m c (Proc.devRef .tc main_arg0) = m ((c.tc : Thread nD τ).loc main_arg0) :=
  (U6_keep m c main_arg0 (by decide)).trans (U5_arg0 m c)
theorem U6_arg1 (m : (ℓ : Loc nD τ sig) → Buf (Elt F) ℓ) (c : Dev nD) :
    U6 m c (Proc.devRef .tc main_arg1) = m ((c.tc : Thread nD τ).loc main_arg1) :=
  (U6_keep m c main_arg1 (by decide)).trans (U5_arg1 m c)
theorem U6_arg2 (m : (ℓ : Loc nD τ sig) → Buf (Elt F) ℓ) (c : Dev nD) :
    U6 m c (Proc.devRef .tc main_arg2) = m ((c.tc : Thread nD τ).loc main_arg2) :=
  (U6_keep m c main_arg2 (by decide)).trans (U5_arg2 m c)
theorem U6_arg3 (m : (ℓ : Loc nD τ sig) → Buf (Elt F) ℓ) (c : Dev nD) :
    U6 m c (Proc.devRef .tc main_arg3) = m ((c.tc : Thread nD τ).loc main_arg3) :=
  (U6_keep m c main_arg3 (by decide)).trans (U5_arg3 m c)
theorem U6_arg4 (m : (ℓ : Loc nD τ sig) → Buf (Elt F) ℓ) (c : Dev nD) :
    U6 m c (Proc.devRef .tc main_arg4) = m ((c.tc : Thread nD τ).loc main_arg4) :=
  (U6_keep m c main_arg4 (by decide)).trans (U5_arg4 m c)
theorem U6_arg5 (m : (ℓ : Loc nD τ sig) → Buf (Elt F) ℓ) (c : Dev nD) :
    U6 m c (Proc.devRef .tc main_arg5) = m ((c.tc : Thread nD τ).loc main_arg5) :=
  (U6_keep m c main_arg5 (by decide)).trans (U5_arg5 m c)
theorem U6_arg6 (m : (ℓ : Loc nD τ sig) → Buf (Elt F) ℓ) (c : Dev nD) :
    U6 m c (Proc.devRef .tc main_arg6) = m ((c.tc : Thread nD τ).loc main_arg6) :=
  (U6_keep m c main_arg6 (by decide)).trans (U5_arg6 m c)
theorem U6_arg7 (m : (ℓ : Loc nD τ sig) → Buf (Elt F) ℓ) (c : Dev nD) :
    U6 m c (Proc.devRef .tc main_arg7) = m ((c.tc : Thread nD τ).loc main_arg7) :=
  (U6_keep m c main_arg7 (by decide)).trans (U5_arg7 m c)
theorem U6_arg8 (m : (ℓ : Loc nD τ sig) → Buf (Elt F) ℓ) (c : Dev nD) :
    U6 m c (Proc.devRef .tc main_arg8) = m ((c.tc : Thread nD τ).loc main_arg8) :=
  (U6_keep m c main_arg8 (by decide)).trans (U5_arg8 m c)
theorem U6_arg9 (m : (ℓ : Loc nD τ sig) → Buf (Elt F) ℓ) (c : Dev nD) :
    U6 m c (Proc.devRef .tc main_arg9) = m ((c.tc : Thread nD τ).loc main_arg9) :=
  (U6_keep m c main_arg9 (by decide)).trans (U5_arg9 m c)
theorem U7_arg0 (m : (ℓ : Loc nD τ sig) → Buf (Elt F) ℓ) (c : Dev nD) :
    U7 m c (Proc.devRef .tc main_arg0) = m ((c.tc : Thread nD τ).loc main_arg0) :=
  (U7_keep m c main_arg0 (by decide)).trans (U6_arg0 m c)
theorem U7_arg1 (m : (ℓ : Loc nD τ sig) → Buf (Elt F) ℓ) (c : Dev nD) :
    U7 m c (Proc.devRef .tc main_arg1) = m ((c.tc : Thread nD τ).loc main_arg1) :=
  (U7_keep m c main_arg1 (by decide)).trans (U6_arg1 m c)
theorem U7_arg2 (m : (ℓ : Loc nD τ sig) → Buf (Elt F) ℓ) (c : Dev nD) :
    U7 m c (Proc.devRef .tc main_arg2) = m ((c.tc : Thread nD τ).loc main_arg2) :=
  (U7_keep m c main_arg2 (by decide)).trans (U6_arg2 m c)
theorem U7_arg3 (m : (ℓ : Loc nD τ sig) → Buf (Elt F) ℓ) (c : Dev nD) :
    U7 m c (Proc.devRef .tc main_arg3) = m ((c.tc : Thread nD τ).loc main_arg3) :=
  (U7_keep m c main_arg3 (by decide)).trans (U6_arg3 m c)
theorem U7_arg4 (m : (ℓ : Loc nD τ sig) → Buf (Elt F) ℓ) (c : Dev nD) :
    U7 m c (Proc.devRef .tc main_arg4) = m ((c.tc : Thread nD τ).loc main_arg4) :=
  (U7_keep m c main_arg4 (by decide)).trans (U6_arg4 m c)
theorem U7_arg5 (m : (ℓ : Loc nD τ sig) → Buf (Elt F) ℓ) (c : Dev nD) :
    U7 m c (Proc.devRef .tc main_arg5) = m ((c.tc : Thread nD τ).loc main_arg5) :=
  (U7_keep m c main_arg5 (by decide)).trans (U6_arg5 m c)
theorem U7_arg6 (m : (ℓ : Loc nD τ sig) → Buf (Elt F) ℓ) (c : Dev nD) :
    U7 m c (Proc.devRef .tc main_arg6) = m ((c.tc : Thread nD τ).loc main_arg6) :=
  (U7_keep m c main_arg6 (by decide)).trans (U6_arg6 m c)
theorem U7_arg7 (m : (ℓ : Loc nD τ sig) → Buf (Elt F) ℓ) (c : Dev nD) :
    U7 m c (Proc.devRef .tc main_arg7) = m ((c.tc : Thread nD τ).loc main_arg7) :=
  (U7_keep m c main_arg7 (by decide)).trans (U6_arg7 m c)
theorem U7_arg8 (m : (ℓ : Loc nD τ sig) → Buf (Elt F) ℓ) (c : Dev nD) :
    U7 m c (Proc.devRef .tc main_arg8) = m ((c.tc : Thread nD τ).loc main_arg8) :=
  (U7_keep m c main_arg8 (by decide)).trans (U6_arg8 m c)
theorem U7_arg9 (m : (ℓ : Loc nD τ sig) → Buf (Elt F) ℓ) (c : Dev nD) :
    U7 m c (Proc.devRef .tc main_arg9) = m ((c.tc : Thread nD τ).loc main_arg9) :=
  (U7_keep m c main_arg9 (by decide)).trans (U6_arg9 m c)
theorem U8_arg0 (m : (ℓ : Loc nD τ sig) → Buf (Elt F) ℓ) (c : Dev nD) :
    U8 m c (Proc.devRef .tc main_arg0) = m ((c.tc : Thread nD τ).loc main_arg0) :=
  (U8_keep m c main_arg0 (by decide)).trans (U7_arg0 m c)
theorem U8_arg1 (m : (ℓ : Loc nD τ sig) → Buf (Elt F) ℓ) (c : Dev nD) :
    U8 m c (Proc.devRef .tc main_arg1) = m ((c.tc : Thread nD τ).loc main_arg1) :=
  (U8_keep m c main_arg1 (by decide)).trans (U7_arg1 m c)
theorem U8_arg2 (m : (ℓ : Loc nD τ sig) → Buf (Elt F) ℓ) (c : Dev nD) :
    U8 m c (Proc.devRef .tc main_arg2) = m ((c.tc : Thread nD τ).loc main_arg2) :=
  (U8_keep m c main_arg2 (by decide)).trans (U7_arg2 m c)
theorem U8_arg3 (m : (ℓ : Loc nD τ sig) → Buf (Elt F) ℓ) (c : Dev nD) :
    U8 m c (Proc.devRef .tc main_arg3) = m ((c.tc : Thread nD τ).loc main_arg3) :=
  (U8_keep m c main_arg3 (by decide)).trans (U7_arg3 m c)
theorem U8_arg4 (m : (ℓ : Loc nD τ sig) → Buf (Elt F) ℓ) (c : Dev nD) :
    U8 m c (Proc.devRef .tc main_arg4) = m ((c.tc : Thread nD τ).loc main_arg4) :=
  (U8_keep m c main_arg4 (by decide)).trans (U7_arg4 m c)
theorem U8_arg5 (m : (ℓ : Loc nD τ sig) → Buf (Elt F) ℓ) (c : Dev nD) :
    U8 m c (Proc.devRef .tc main_arg5) = m ((c.tc : Thread nD τ).loc main_arg5) :=
  (U8_keep m c main_arg5 (by decide)).trans (U7_arg5 m c)
theorem U8_arg6 (m : (ℓ : Loc nD τ sig) → Buf (Elt F) ℓ) (c : Dev nD) :
    U8 m c (Proc.devRef .tc main_arg6) = m ((c.tc : Thread nD τ).loc main_arg6) :=
  (U8_keep m c main_arg6 (by decide)).trans (U7_arg6 m c)
theorem U8_arg7 (m : (ℓ : Loc nD τ sig) → Buf (Elt F) ℓ) (c : Dev nD) :
    U8 m c (Proc.devRef .tc main_arg7) = m ((c.tc : Thread nD τ).loc main_arg7) :=
  (U8_keep m c main_arg7 (by decide)).trans (U7_arg7 m c)
theorem U8_arg8 (m : (ℓ : Loc nD τ sig) → Buf (Elt F) ℓ) (c : Dev nD) :
    U8 m c (Proc.devRef .tc main_arg8) = m ((c.tc : Thread nD τ).loc main_arg8) :=
  (U8_keep m c main_arg8 (by decide)).trans (U7_arg8 m c)
theorem U8_arg9 (m : (ℓ : Loc nD τ sig) → Buf (Elt F) ℓ) (c : Dev nD) :
    U8 m c (Proc.devRef .tc main_arg9) = m ((c.tc : Thread nD τ).loc main_arg9) :=
  (U8_keep m c main_arg9 (by decide)).trans (U7_arg9 m c)
theorem U9_arg0 (m : (ℓ : Loc nD τ sig) → Buf (Elt F) ℓ) (c : Dev nD) :
    U9 m c (Proc.devRef .tc main_arg0) = m ((c.tc : Thread nD τ).loc main_arg0) :=
  (U9_keep m c main_arg0 (by decide)).trans (U8_arg0 m c)
theorem U9_arg1 (m : (ℓ : Loc nD τ sig) → Buf (Elt F) ℓ) (c : Dev nD) :
    U9 m c (Proc.devRef .tc main_arg1) = m ((c.tc : Thread nD τ).loc main_arg1) :=
  (U9_keep m c main_arg1 (by decide)).trans (U8_arg1 m c)
theorem U9_arg2 (m : (ℓ : Loc nD τ sig) → Buf (Elt F) ℓ) (c : Dev nD) :
    U9 m c (Proc.devRef .tc main_arg2) = m ((c.tc : Thread nD τ).loc main_arg2) :=
  (U9_keep m c main_arg2 (by decide)).trans (U8_arg2 m c)
theorem U9_arg3 (m : (ℓ : Loc nD τ sig) → Buf (Elt F) ℓ) (c : Dev nD) :
    U9 m c (Proc.devRef .tc main_arg3) = m ((c.tc : Thread nD τ).loc main_arg3) :=
  (U9_keep m c main_arg3 (by decide)).trans (U8_arg3 m c)
theorem U9_arg4 (m : (ℓ : Loc nD τ sig) → Buf (Elt F) ℓ) (c : Dev nD) :
    U9 m c (Proc.devRef .tc main_arg4) = m ((c.tc : Thread nD τ).loc main_arg4) :=
  (U9_keep m c main_arg4 (by decide)).trans (U8_arg4 m c)
theorem U9_arg5 (m : (ℓ : Loc nD τ sig) → Buf (Elt F) ℓ) (c : Dev nD) :
    U9 m c (Proc.devRef .tc main_arg5) = m ((c.tc : Thread nD τ).loc main_arg5) :=
  (U9_keep m c main_arg5 (by decide)).trans (U8_arg5 m c)
theorem U9_arg6 (m : (ℓ : Loc nD τ sig) → Buf (Elt F) ℓ) (c : Dev nD) :
    U9 m c (Proc.devRef .tc main_arg6) = m ((c.tc : Thread nD τ).loc main_arg6) :=
  (U9_keep m c main_arg6 (by decide)).trans (U8_arg6 m c)
theorem U9_arg7 (m : (ℓ : Loc nD τ sig) → Buf (Elt F) ℓ) (c : Dev nD) :
    U9 m c (Proc.devRef .tc main_arg7) = m ((c.tc : Thread nD τ).loc main_arg7) :=
  (U9_keep m c main_arg7 (by decide)).trans (U8_arg7 m c)
theorem U9_arg8 (m : (ℓ : Loc nD τ sig) → Buf (Elt F) ℓ) (c : Dev nD) :
    U9 m c (Proc.devRef .tc main_arg8) = m ((c.tc : Thread nD τ).loc main_arg8) :=
  (U9_keep m c main_arg8 (by decide)).trans (U8_arg8 m c)
theorem U9_arg9 (m : (ℓ : Loc nD τ sig) → Buf (Elt F) ℓ) (c : Dev nD) :
    U9 m c (Proc.devRef .tc main_arg9) = m ((c.tc : Thread nD τ).loc main_arg9) :=
  (U9_keep m c main_arg9 (by decide)).trans (U8_arg9 m c)
theorem U10_arg0 (m : (ℓ : Loc nD τ sig) → Buf (Elt F) ℓ) (c : Dev nD) :
    U10 m c (Proc.devRef .tc main_arg0) = m ((c.tc : Thread nD τ).loc main_arg0) :=
  (U10_keep m c main_arg0 (by decide)).trans (U9_arg0 m c)
theorem U10_arg1 (m : (ℓ : Loc nD τ sig) → Buf (Elt F) ℓ) (c : Dev nD) :
    U10 m c (Proc.devRef .tc main_arg1) = m ((c.tc : Thread nD τ).loc main_arg1) :=
  (U10_keep m c main_arg1 (by decide)).trans (U9_arg1 m c)
theorem U10_arg2 (m : (ℓ : Loc nD τ sig) → Buf (Elt F) ℓ) (c : Dev nD) :
    U10 m c (Proc.devRef .tc main_arg2) = m ((c.tc : Thread nD τ).loc main_arg2) :=
  (U10_keep m c main_arg2 (by decide)).trans (U9_arg2 m c)
theorem U10_arg3 (m : (ℓ : Loc nD τ sig) → Buf (Elt F) ℓ) (c : Dev nD) :
    U10 m c (Proc.devRef .tc main_arg3) = m ((c.tc : Thread nD τ).loc main_arg3) :=
  (U10_keep m c main_arg3 (by decide)).trans (U9_arg3 m c)
theorem U10_arg4 (m : (ℓ : Loc nD τ sig) → Buf (Elt F) ℓ) (c : Dev nD) :
    U10 m c (Proc.devRef .tc main_arg4) = m ((c.tc : Thread nD τ).loc main_arg4) :=
  (U10_keep m c main_arg4 (by decide)).trans (U9_arg4 m c)
theorem U10_arg5 (m : (ℓ : Loc nD τ sig) → Buf (Elt F) ℓ) (c : Dev nD) :
    U10 m c (Proc.devRef .tc main_arg5) = m ((c.tc : Thread nD τ).loc main_arg5) :=
  (U10_keep m c main_arg5 (by decide)).trans (U9_arg5 m c)
theorem U10_arg6 (m : (ℓ : Loc nD τ sig) → Buf (Elt F) ℓ) (c : Dev nD) :
    U10 m c (Proc.devRef .tc main_arg6) = m ((c.tc : Thread nD τ).loc main_arg6) :=
  (U10_keep m c main_arg6 (by decide)).trans (U9_arg6 m c)
theorem U10_arg7 (m : (ℓ : Loc nD τ sig) → Buf (Elt F) ℓ) (c : Dev nD) :
    U10 m c (Proc.devRef .tc main_arg7) = m ((c.tc : Thread nD τ).loc main_arg7) :=
  (U10_keep m c main_arg7 (by decide)).trans (U9_arg7 m c)
theorem U10_arg8 (m : (ℓ : Loc nD τ sig) → Buf (Elt F) ℓ) (c : Dev nD) :
    U10 m c (Proc.devRef .tc main_arg8) = m ((c.tc : Thread nD τ).loc main_arg8) :=
  (U10_keep m c main_arg8 (by decide)).trans (U9_arg8 m c)
theorem U10_arg9 (m : (ℓ : Loc nD τ sig) → Buf (Elt F) ℓ) (c : Dev nD) :
    U10 m c (Proc.devRef .tc main_arg9) = m ((c.tc : Thread nD τ).loc main_arg9) :=
  (U10_keep m c main_arg9 (by decide)).trans (U9_arg9 m c)
theorem U11_arg0 (m : (ℓ : Loc nD τ sig) → Buf (Elt F) ℓ) (c : Dev nD) :
    U11 m c (Proc.devRef .tc main_arg0) = m ((c.tc : Thread nD τ).loc main_arg0) :=
  (U11_keep m c main_arg0 (by decide)).trans (U10_arg0 m c)
theorem U11_arg1 (m : (ℓ : Loc nD τ sig) → Buf (Elt F) ℓ) (c : Dev nD) :
    U11 m c (Proc.devRef .tc main_arg1) = m ((c.tc : Thread nD τ).loc main_arg1) :=
  (U11_keep m c main_arg1 (by decide)).trans (U10_arg1 m c)
theorem U11_arg2 (m : (ℓ : Loc nD τ sig) → Buf (Elt F) ℓ) (c : Dev nD) :
    U11 m c (Proc.devRef .tc main_arg2) = m ((c.tc : Thread nD τ).loc main_arg2) :=
  (U11_keep m c main_arg2 (by decide)).trans (U10_arg2 m c)
theorem U11_arg3 (m : (ℓ : Loc nD τ sig) → Buf (Elt F) ℓ) (c : Dev nD) :
    U11 m c (Proc.devRef .tc main_arg3) = m ((c.tc : Thread nD τ).loc main_arg3) :=
  (U11_keep m c main_arg3 (by decide)).trans (U10_arg3 m c)
theorem U11_arg4 (m : (ℓ : Loc nD τ sig) → Buf (Elt F) ℓ) (c : Dev nD) :
    U11 m c (Proc.devRef .tc main_arg4) = m ((c.tc : Thread nD τ).loc main_arg4) :=
  (U11_keep m c main_arg4 (by decide)).trans (U10_arg4 m c)
theorem U11_arg5 (m : (ℓ : Loc nD τ sig) → Buf (Elt F) ℓ) (c : Dev nD) :
    U11 m c (Proc.devRef .tc main_arg5) = m ((c.tc : Thread nD τ).loc main_arg5) :=
  (U11_keep m c main_arg5 (by decide)).trans (U10_arg5 m c)
theorem U11_arg6 (m : (ℓ : Loc nD τ sig) → Buf (Elt F) ℓ) (c : Dev nD) :
    U11 m c (Proc.devRef .tc main_arg6) = m ((c.tc : Thread nD τ).loc main_arg6) :=
  (U11_keep m c main_arg6 (by decide)).trans (U10_arg6 m c)
theorem U11_arg7 (m : (ℓ : Loc nD τ sig) → Buf (Elt F) ℓ) (c : Dev nD) :
    U11 m c (Proc.devRef .tc main_arg7) = m ((c.tc : Thread nD τ).loc main_arg7) :=
  (U11_keep m c main_arg7 (by decide)).trans (U10_arg7 m c)
theorem U11_arg8 (m : (ℓ : Loc nD τ sig) → Buf (Elt F) ℓ) (c : Dev nD) :
    U11 m c (Proc.devRef .tc main_arg8) = m ((c.tc : Thread nD τ).loc main_arg8) :=
  (U11_keep m c main_arg8 (by decide)).trans (U10_arg8 m c)
theorem U11_arg9 (m : (ℓ : Loc nD τ sig) → Buf (Elt F) ℓ) (c : Dev nD) :
    U11 m c (Proc.devRef .tc main_arg9) = m ((c.tc : Thread nD τ).loc main_arg9) :=
  (U11_keep m c main_arg9 (by decide)).trans (U10_arg9 m c)
theorem U12_arg0 (m : (ℓ : Loc nD τ sig) → Buf (Elt F) ℓ) (c : Dev nD) :
    U12 m c (Proc.devRef .tc main_arg0) = m ((c.tc : Thread nD τ).loc main_arg0) :=
  (U12_keep m c main_arg0 (by decide)).trans (U11_arg0 m c)
theorem U12_arg1 (m : (ℓ : Loc nD τ sig) → Buf (Elt F) ℓ) (c : Dev nD) :
    U12 m c (Proc.devRef .tc main_arg1) = m ((c.tc : Thread nD τ).loc main_arg1) :=
  (U12_keep m c main_arg1 (by decide)).trans (U11_arg1 m c)
theorem U12_arg2 (m : (ℓ : Loc nD τ sig) → Buf (Elt F) ℓ) (c : Dev nD) :
    U12 m c (Proc.devRef .tc main_arg2) = m ((c.tc : Thread nD τ).loc main_arg2) :=
  (U12_keep m c main_arg2 (by decide)).trans (U11_arg2 m c)
theorem U12_arg3 (m : (ℓ : Loc nD τ sig) → Buf (Elt F) ℓ) (c : Dev nD) :
    U12 m c (Proc.devRef .tc main_arg3) = m ((c.tc : Thread nD τ).loc main_arg3) :=
  (U12_keep m c main_arg3 (by decide)).trans (U11_arg3 m c)
theorem U12_arg4 (m : (ℓ : Loc nD τ sig) → Buf (Elt F) ℓ) (c : Dev nD) :
    U12 m c (Proc.devRef .tc main_arg4) = m ((c.tc : Thread nD τ).loc main_arg4) :=
  (U12_keep m c main_arg4 (by decide)).trans (U11_arg4 m c)
theorem U12_arg5 (m : (ℓ : Loc nD τ sig) → Buf (Elt F) ℓ) (c : Dev nD) :
    U12 m c (Proc.devRef .tc main_arg5) = m ((c.tc : Thread nD τ).loc main_arg5) :=
  (U12_keep m c main_arg5 (by decide)).trans (U11_arg5 m c)
theorem U12_arg6 (m : (ℓ : Loc nD τ sig) → Buf (Elt F) ℓ) (c : Dev nD) :
    U12 m c (Proc.devRef .tc main_arg6) = m ((c.tc : Thread nD τ).loc main_arg6) :=
  (U12_keep m c main_arg6 (by decide)).trans (U11_arg6 m c)
theorem U12_arg7 (m : (ℓ : Loc nD τ sig) → Buf (Elt F) ℓ) (c : Dev nD) :
    U12 m c (Proc.devRef .tc main_arg7) = m ((c.tc : Thread nD τ).loc main_arg7) :=
  (U12_keep m c main_arg7 (by decide)).trans (U11_arg7 m c)
theorem U12_arg8 (m : (ℓ : Loc nD τ sig) → Buf (Elt F) ℓ) (c : Dev nD) :
    U12 m c (Proc.devRef .tc main_arg8) = m ((c.tc : Thread nD τ).loc main_arg8) :=
  (U12_keep m c main_arg8 (by decide)).trans (U11_arg8 m c)
theorem U12_arg9 (m : (ℓ : Loc nD τ sig) → Buf (Elt F) ℓ) (c : Dev nD) :
    U12 m c (Proc.devRef .tc main_arg9) = m ((c.tc : Thread nD τ).loc main_arg9) :=
  (U12_keep m c main_arg9 (by decide)).trans (U11_arg9 m c)
theorem U13_arg0 (m : (ℓ : Loc nD τ sig) → Buf (Elt F) ℓ) (c : Dev nD) :
    U13 m c (Proc.devRef .tc main_arg0) = m ((c.tc : Thread nD τ).loc main_arg0) :=
  (U13_keep m c main_arg0 (by decide)).trans (U12_arg0 m c)
theorem U13_arg1 (m : (ℓ : Loc nD τ sig) → Buf (Elt F) ℓ) (c : Dev nD) :
    U13 m c (Proc.devRef .tc main_arg1) = m ((c.tc : Thread nD τ).loc main_arg1) :=
  (U13_keep m c main_arg1 (by decide)).trans (U12_arg1 m c)
theorem U13_arg2 (m : (ℓ : Loc nD τ sig) → Buf (Elt F) ℓ) (c : Dev nD) :
    U13 m c (Proc.devRef .tc main_arg2) = m ((c.tc : Thread nD τ).loc main_arg2) :=
  (U13_keep m c main_arg2 (by decide)).trans (U12_arg2 m c)
theorem U13_arg3 (m : (ℓ : Loc nD τ sig) → Buf (Elt F) ℓ) (c : Dev nD) :
    U13 m c (Proc.devRef .tc main_arg3) = m ((c.tc : Thread nD τ).loc main_arg3) :=
  (U13_keep m c main_arg3 (by decide)).trans (U12_arg3 m c)
theorem U13_arg4 (m : (ℓ : Loc nD τ sig) → Buf (Elt F) ℓ) (c : Dev nD) :
    U13 m c (Proc.devRef .tc main_arg4) = m ((c.tc : Thread nD τ).loc main_arg4) :=
  (U13_keep m c main_arg4 (by decide)).trans (U12_arg4 m c)
theorem U13_arg5 (m : (ℓ : Loc nD τ sig) → Buf (Elt F) ℓ) (c : Dev nD) :
    U13 m c (Proc.devRef .tc main_arg5) = m ((c.tc : Thread nD τ).loc main_arg5) :=
  (U13_keep m c main_arg5 (by decide)).trans (U12_arg5 m c)
theorem U13_arg6 (m : (ℓ : Loc nD τ sig) → Buf (Elt F) ℓ) (c : Dev nD) :
    U13 m c (Proc.devRef .tc main_arg6) = m ((c.tc : Thread nD τ).loc main_arg6) :=
  (U13_keep m c main_arg6 (by decide)).trans (U12_arg6 m c)
theorem U13_arg7 (m : (ℓ : Loc nD τ sig) → Buf (Elt F) ℓ) (c : Dev nD) :
    U13 m c (Proc.devRef .tc main_arg7) = m ((c.tc : Thread nD τ).loc main_arg7) :=
  (U13_keep m c main_arg7 (by decide)).trans (U12_arg7 m c)
theorem U13_arg8 (m : (ℓ : Loc nD τ sig) → Buf (Elt F) ℓ) (c : Dev nD) :
    U13 m c (Proc.devRef .tc main_arg8) = m ((c.tc : Thread nD τ).loc main_arg8) :=
  (U13_keep m c main_arg8 (by decide)).trans (U12_arg8 m c)
theorem U13_arg9 (m : (ℓ : Loc nD τ sig) → Buf (Elt F) ℓ) (c : Dev nD) :
    U13 m c (Proc.devRef .tc main_arg9) = m ((c.tc : Thread nD τ).loc main_arg9) :=
  (U13_keep m c main_arg9 (by decide)).trans (U12_arg9 m c)
theorem U14_arg0 (m : (ℓ : Loc nD τ sig) → Buf (Elt F) ℓ) (c : Dev nD) :
    U14 m c (Proc.devRef .tc main_arg0) = m ((c.tc : Thread nD τ).loc main_arg0) :=
  (U14_keep m c main_arg0 (by decide)).trans (U13_arg0 m c)
theorem U14_arg1 (m : (ℓ : Loc nD τ sig) → Buf (Elt F) ℓ) (c : Dev nD) :
    U14 m c (Proc.devRef .tc main_arg1) = m ((c.tc : Thread nD τ).loc main_arg1) :=
  (U14_keep m c main_arg1 (by decide)).trans (U13_arg1 m c)
theorem U14_arg2 (m : (ℓ : Loc nD τ sig) → Buf (Elt F) ℓ) (c : Dev nD) :
    U14 m c (Proc.devRef .tc main_arg2) = m ((c.tc : Thread nD τ).loc main_arg2) :=
  (U14_keep m c main_arg2 (by decide)).trans (U13_arg2 m c)
theorem U14_arg3 (m : (ℓ : Loc nD τ sig) → Buf (Elt F) ℓ) (c : Dev nD) :
    U14 m c (Proc.devRef .tc main_arg3) = m ((c.tc : Thread nD τ).loc main_arg3) :=
  (U14_keep m c main_arg3 (by decide)).trans (U13_arg3 m c)
theorem U14_arg4 (m : (ℓ : Loc nD τ sig) → Buf (Elt F) ℓ) (c : Dev nD) :
    U14 m c (Proc.devRef .tc main_arg4) = m ((c.tc : Thread nD τ).loc main_arg4) :=
  (U14_keep m c main_arg4 (by decide)).trans (U13_arg4 m c)
theorem U14_arg5 (m : (ℓ : Loc nD τ sig) → Buf (Elt F) ℓ) (c : Dev nD) :
    U14 m c (Proc.devRef .tc main_arg5) = m ((c.tc : Thread nD τ).loc main_arg5) :=
  (U14_keep m c main_arg5 (by decide)).trans (U13_arg5 m c)
theorem U14_arg6 (m : (ℓ : Loc nD τ sig) → Buf (Elt F) ℓ) (c : Dev nD) :
    U14 m c (Proc.devRef .tc main_arg6) = m ((c.tc : Thread nD τ).loc main_arg6) :=
  (U14_keep m c main_arg6 (by decide)).trans (U13_arg6 m c)
theorem U14_arg7 (m : (ℓ : Loc nD τ sig) → Buf (Elt F) ℓ) (c : Dev nD) :
    U14 m c (Proc.devRef .tc main_arg7) = m ((c.tc : Thread nD τ).loc main_arg7) :=
  (U14_keep m c main_arg7 (by decide)).trans (U13_arg7 m c)
theorem U14_arg8 (m : (ℓ : Loc nD τ sig) → Buf (Elt F) ℓ) (c : Dev nD) :
    U14 m c (Proc.devRef .tc main_arg8) = m ((c.tc : Thread nD τ).loc main_arg8) :=
  (U14_keep m c main_arg8 (by decide)).trans (U13_arg8 m c)
theorem U14_arg9 (m : (ℓ : Loc nD τ sig) → Buf (Elt F) ℓ) (c : Dev nD) :
    U14 m c (Proc.devRef .tc main_arg9) = m ((c.tc : Thread nD τ).loc main_arg9) :=
  (U14_keep m c main_arg9 (by decide)).trans (U13_arg9 m c)
theorem U15_arg0 (m : (ℓ : Loc nD τ sig) → Buf (Elt F) ℓ) (c : Dev nD) :
    U15 m c (Proc.devRef .tc main_arg0) = m ((c.tc : Thread nD τ).loc main_arg0) :=
  (U15_keep m c main_arg0 (by decide)).trans (U14_arg0 m c)
theorem U15_arg1 (m : (ℓ : Loc nD τ sig) → Buf (Elt F) ℓ) (c : Dev nD) :
    U15 m c (Proc.devRef .tc main_arg1) = m ((c.tc : Thread nD τ).loc main_arg1) :=
  (U15_keep m c main_arg1 (by decide)).trans (U14_arg1 m c)
theorem U15_arg2 (m : (ℓ : Loc nD τ sig) → Buf (Elt F) ℓ) (c : Dev nD) :
    U15 m c (Proc.devRef .tc main_arg2) = m ((c.tc : Thread nD τ).loc main_arg2) :=
  (U15_keep m c main_arg2 (by decide)).trans (U14_arg2 m c)
theorem U15_arg3 (m : (ℓ : Loc nD τ sig) → Buf (Elt F) ℓ) (c : Dev nD) :
    U15 m c (Proc.devRef .tc main_arg3) = m ((c.tc : Thread nD τ).loc main_arg3) :=
  (U15_keep m c main_arg3 (by decide)).trans (U14_arg3 m c)
theorem U15_arg4 (m : (ℓ : Loc nD τ sig) → Buf (Elt F) ℓ) (c : Dev nD) :
    U15 m c (Proc.devRef .tc main_arg4) = m ((c.tc : Thread nD τ).loc main_arg4) :=
  (U15_keep m c main_arg4 (by decide)).trans (U14_arg4 m c)
theorem U15_arg5 (m : (ℓ : Loc nD τ sig) → Buf (Elt F) ℓ) (c : Dev nD) :
    U15 m c (Proc.devRef .tc main_arg5) = m ((c.tc : Thread nD τ).loc main_arg5) :=
  (U15_keep m c main_arg5 (by decide)).trans (U14_arg5 m c)
theorem U15_arg6 (m : (ℓ : Loc nD τ sig) → Buf (Elt F) ℓ) (c : Dev nD) :
    U15 m c (Proc.devRef .tc main_arg6) = m ((c.tc : Thread nD τ).loc main_arg6) :=
  (U15_keep m c main_arg6 (by decide)).trans (U14_arg6 m c)
theorem U15_arg7 (m : (ℓ : Loc nD τ sig) → Buf (Elt F) ℓ) (c : Dev nD) :
    U15 m c (Proc.devRef .tc main_arg7) = m ((c.tc : Thread nD τ).loc main_arg7) :=
  (U15_keep m c main_arg7 (by decide)).trans (U14_arg7 m c)
theorem U15_arg8 (m : (ℓ : Loc nD τ sig) → Buf (Elt F) ℓ) (c : Dev nD) :
    U15 m c (Proc.devRef .tc main_arg8) = m ((c.tc : Thread nD τ).loc main_arg8) :=
  (U15_keep m c main_arg8 (by decide)).trans (U14_arg8 m c)
theorem U15_arg9 (m : (ℓ : Loc nD τ sig) → Buf (Elt F) ℓ) (c : Dev nD) :
    U15 m c (Proc.devRef .tc main_arg9) = m ((c.tc : Thread nD τ).loc main_arg9) :=
  (U15_keep m c main_arg9 (by decide)).trans (U14_arg9 m c)

end Cert.ReferenceIdeal.RunP

end
-- ==== Proof.RChain.B0.Defs.lean ====
/-
  The head block of the reference, one relation at a time.  For each of the three edge relations the reference adds, to a
  running sum over the 100000 nodes, first the relation's aggregate (the messages of the edges ending at a node, summed, and
  for relations 0 and 2 divided by their number), then the product of the node features with that relation's self weights,
  then that relation's self bias down every row.  `step r` names that share as the host operations that compute it, for
  any float values; the running sum starts at the all-zero array.
-/
import proofs.«147434_j38603166057109_1_alg».proof.Proof.Spec
import proofs.«147434_j38603166057109_1_alg».proof.Proof.Gen.ReferenceIdeal

noncomputable section

namespace Cert.ReferenceIdeal.RChain

open Idealize.ShloMosaic Cert.ReferenceIdeal Cert.ReferenceIdeal.Gen

variable {F : FTy → Type} [FloatOps F]

/-- The all-zero array the head block's sum starts from. -/
def zero32 : Vec F S100000x32 .f32 := broadcastInDim S100000x32 ![] bcast_S_S100000x32 (constant S_ .f32 0x00000000#32)

/-- Relation 0's share: the averaged messages x[src]·Wm[0] + bm[0], then x·Ws[0], then bs[0]. -/
def step0 (acc : Vec F S100000x32 .f32) (x : Vec F S100000x6 .f32) (e : Vec F S2x1600000 .i32)
    (Wm : Vec F S3x6x32 .f32) (bm : Vec F S3x32 .f32) (Ws : Vec F S3x6x32 .f32) (bs : Vec F S3x32 .f32) : Vec F S100000x32 .f32 :=
  addf
    (addf
      (addf acc
        (Cert.KernelIdeal.Spec.agg0
          (addf
            (Host.dotGeneral dot_S1600000x6_S6x32_S1600000x32_1_0_0_1_n_n none (Cert.KernelIdeal.Spec.gath6_0 x e)
              (shapeCast S6x32 (extractStridedSlice S1x6x32 ![0, 0, 0] Wm slices_S3x6x32_S1x6x32_0_0_0) shapeCasts_S1x6x32_S6x32))
            (broadcastInDim S1600000x32 ![0, 1] bcast_S1x32_S1600000x32_0_1
              (broadcastInDim S1x32 ![1] bcast_S32_S1x32_1
                (shapeCast S32 (extractStridedSlice S1x32 ![0, 0] bm slices_S3x32_S1x32_0_0) shapeCasts_S1x32_S32))))
          (Cert.KernelIdeal.Spec.dst0 e)))
      (Host.dotGeneral dot_S100000x6_S6x32_S100000x32_1_0_0_1_n_n none x
        (shapeCast S6x32 (extractStridedSlice S1x6x32 ![0, 0, 0] Ws slices_S3x6x32_S1x6x32_0_0_0) shapeCasts_S1x6x32_S6x32)))
    (broadcastInDim S100000x32 ![0, 1] bcast_S1x32_S100000x32_0_1
      (broadcastInDim S1x32 ![1] bcast_S32_S1x32_1
        (shapeCast S32 (extractStridedSlice S1x32 ![0, 0] bs slices_S3x32_S1x32_0_0) shapeCasts_S1x32_S32)))

/-- Relation 1's share: the summed messages x[src]·Wm[1] + bm[1], then x·Ws[1], then bs[1]. -/
def step1 (acc : Vec F S100000x32 .f32) (x : Vec F S100000x6 .f32) (e : Vec F S2x200000 .i32)
    (Wm : Vec F S3x6x32 .f32) (bm : Vec F S3x32 .f32) (Ws : Vec F S3x6x32 .f32) (bs : Vec F S3x32 .f32) : Vec F S100000x32 .f32 :=
  addf
    (addf
      (addf acc
        (Cert.KernelIdeal.Spec.agg1
          (addf
            (Host.dotGeneral dot_S200000x6_S6x32_S200000x32_1_0_0_1_n_n none (Cert.KernelIdeal.Spec.gath6_1 x e)
              (shapeCast S6x32 (extractStridedSlice S1x6x32 ![1, 0, 0] Wm slices_S3x6x32_S1x6x32_1_0_0) shapeCasts_S1x6x32_S6x32))
            (broadcastInDim S200000x32 ![0, 1] bcast_S1x32_S200000x32_0_1
              (broadcastInDim S1x32 ![1] bcast_S32_S1x32_1
                (shapeCast S32 (extractStridedSlice S1x32 ![1, 0] bm slices_S3x32_S1x32_1_0) shapeCasts_S1x32_S32))))
          (Cert.KernelIdeal.Spec.dst1 e)))
      (Host.dotGeneral dot_S100000x6_S6x32_S100000x32_1_0_0_1_n_n none x
        (shapeCast S6x32 (extractStridedSlice S1x6x32 ![1, 0, 0] Ws slices_S3x6x32_S1x6x32_1_0_0) shapeCasts_S1x6x32_S6x32)))
    (broadcastInDim S100000x32 ![0, 1] bcast_S1x32_S100000x32_0_1
      (broadcastInDim S1x32 ![1] bcast_S32_S1x32_1
        (shapeCast S32 (extractStridedSlice S1x32 ![1, 0] bs slices_S3x32_S1x32_1_0) shapeCasts_S1x32_S32)))

/-- Relation 2's share: the averaged messages x[src]·Wm[2] + bm[2], then x·Ws[2], then bs[2]. -/
def step2 (acc : Vec F S100000x32 .f32) (x : Vec F S100000x6 .f32) (e : Vec F S2x800000 .i32)
    (Wm : Vec F S3x6x32 .f32) (bm : Vec F S3x32 .f32) (Ws : Vec F S3x6x32 .f32) (bs : Vec F S3x32 .f32) : Vec F S100000x32 .f32 :=
  addf
    (addf
      (addf acc
        (Cert.KernelIdeal.Spec.agg2
          (addf
            (Host.dotGeneral dot_S800000x6_S6x32_S800000x32_1_0_0_1_n_n none (Cert.KernelIdeal.Spec.gath6_2 x e)
              (shapeCast S6x32 (extractStridedSlice S1x6x32 ![2, 0, 0] Wm slices_S3x6x32_S1x6x32_2_0_0) shapeCasts_S1x6x32_S6x32))
            (broadcastInDim S800000x32 ![0, 1] bcast_S1x32_S800000x32_0_1
              (broadcastInDim S1x32 ![1] bcast_S32_S1x32_1
                (shapeCast S32 (extractStridedSlice S1x32 ![2, 0] bm slices_S3x32_S1x32_2_0) shapeCasts_S1x32_S32))))
          (Cert.KernelIdeal.Spec.dst2 e)))
      (Host.dotGeneral dot_S100000x6_S6x32_S100000x32_1_0_0_1_n_n none x
        (shapeCast S6x32 (extractStridedSlice S1x6x32 ![2, 0, 0] Ws slices_S3x6x32_S1x6x32_2_0_0) shapeCasts_S1x6x32_S6x32)))
    (broadcastInDim S100000x32 ![0, 1] bcast_S1x32_S100000x32_0_1
      (broadcastInDim S1x32 ![1] bcast_S32_S1x32_1
        (shapeCast S32 (extractStridedSlice S1x32 ![2, 0] bs slices_S3x32_S1x32_2_0) shapeCasts_S1x32_S32)))

end Cert.ReferenceIdeal.RChain

end
-- ==== Proof.RChain.B0.S0.lean ====
/-
  The reference's first stretch of host operations (relation 0 of the head block): from any contents, the buffer it ends at
  holds relation 0's share added to the all-zero array, as a function of the node features, relation 0's edge list and the
  head's four weight arguments.  The operations' results are composed in order; nothing is evaluated.
-/
import proofs.«147434_j38603166057109_1_alg».proof.Proof.RRun.Ops
import proofs.«147434_j38603166057109_1_alg».proof.Proof.RChain.B0.Defs

noncomputable section

namespace Cert.ReferenceIdeal.RChain

open Idealize.ShloMosaic Idealize.SL.Sem Cert.ReferenceIdeal Cert.ReferenceIdeal.RunP

variable {F : FTy → Type} [FloatOps F]

theorem str0 (U : Valuation τ sig (Elt F)) :
    StableHlo.after (opsR0 (F := F)) U (Proc.devRef .tc main_v40)
      = step0 zero32 (U (Proc.devRef .tc main_arg0)) (U (Proc.devRef .tc main_arg1))
          (U (Proc.devRef .tc main_arg4)) (U (Proc.devRef .tc main_arg5)) (U (Proc.devRef .tc main_arg6)) (U (Proc.devRef .tc main_arg7)) := by
  after_results_simp
  rfl

end Cert.ReferenceIdeal.RChain

end
-- ==== Proof.RChain.B0.S1.lean ====
/-
  The reference's second stretch of host operations (relation 1 of the head block): from any contents, the buffer it ends
  at holds relation 1's share added to what the first stretch left, as a function of the node features, relation 1's edge
  list and the head's four weight arguments.  The operations' results are composed in order; nothing is evaluated.
-/
import proofs.«147434_j38603166057109_1_alg».proof.Proof.RRun.Ops
import proofs.«147434_j38603166057109_1_alg».proof.Proof.RChain.B0.Defs

noncomputable section

namespace Cert.ReferenceIdeal.RChain

open Idealize.ShloMosaic Idealize.SL.Sem Cert.ReferenceIdeal Cert.ReferenceIdeal.RunP

variable {F : FTy → Type} [FloatOps F]

theorem str1 (U : Valuation τ sig (Elt F)) :
    StableHlo.after (opsR1 (F := F)) U (Proc.devRef .tc main_v72)
      = step1 (U (Proc.devRef .tc main_v40)) (U (Proc.devRef .tc main_arg0)) (U (Proc.devRef .tc main_arg2))
          (U (Proc.devRef .tc main_arg4)) (U (Proc.devRef .tc main_arg5)) (U (Proc.devRef .tc main_arg6)) (U (Proc.devRef .tc main_arg7)) := by
  after_results_simp
  rfl

end Cert.ReferenceIdeal.RChain

end
-- ==== Proof.RChain.B0.S2.lean ====
/-
  The reference's third stretch of host operations (relation 2 of the head block): from any contents, the buffer the head
  block ends at holds relation 2's share added to what the second stretch left, as a function of the node features,
  relation 2's edge list and the head's four weight arguments.  The operations' results are composed in order; nothing is
  evaluated.
-/
import proofs.«147434_j38603166057109_1_alg».proof.Proof.RRun.Ops
import proofs.«147434_j38603166057109_1_alg».proof.Proof.RChain.B0.Defs

noncomputable section

namespace Cert.ReferenceIdeal.RChain

open Idealize.ShloMosaic Idealize.SL.Sem Cert.ReferenceIdeal Cert.ReferenceIdeal.RunP

variable {F : FTy → Type} [FloatOps F]

theorem str2 (U : Valuation τ sig (Elt F)) :
    StableHlo.after (opsR2 (F := F)) U (Proc.devRef .tc main_v112)
      = step2 (U (Proc.devRef .tc main_v72)) (U (Proc.devRef .tc main_arg0)) (U (Proc.devRef .tc main_arg3))
          (U (Proc.devRef .tc main_arg4)) (U (Proc.devRef .tc main_arg5)) (U (Proc.devRef .tc main_arg6)) (U (Proc.devRef .tc main_arg7)) := by
  after_results_simp
  rfl

end Cert.ReferenceIdeal.RChain

end
-- ==== Proof.ROps.Index.lean ====
/-
  Reading a few host operations at an index, over any extents: a bias broadcast down the rows, the plain matrix product, a
  message (product plus bias), and a leading slice of a stack followed by dropping the slice's unit axis.
-/
import Idealize.ShloMosaic.Lib.StackMember
import Idealize.ShloMosaic.Lib.ValueLayout
import Idealize.ShloMosaic.Lib.ValueIdx
import Idealize.ShloMosaic.PureOps.Ideal

noncomputable section

open scoped BigOperators

namespace Cert.ReferenceIdeal.ROps

open Idealize.ShloMosaic Idealize.ShloMosaic.ValueIdx

variable {α : Type}

/-- A bias of 32 entries broadcast to one row and then down every row reads, at (p, q), the bias at q. -/
theorem bias_rows_apply {M : ℕ} (h1 : (⟨1, ![32]⟩ : Shape).BroadcastsInDim ⟨2, ![1, 32]⟩ ![1])
    (h2 : (⟨2, ![1, 32]⟩ : Shape).BroadcastsInDim ⟨2, ![M, 32]⟩ ![0, 1]) (b : (⟨1, ![32]⟩ : Shape).Idx → α)
    (i : (⟨2, ![M, 32]⟩ : Shape).Idx) :
    broadcastInDim ⟨2, ![M, 32]⟩ ![0, 1] h2 (broadcastInDim ⟨2, ![1, 32]⟩ ![1] h1 b) i = b (ix1 (i 1)) :=
  (broadcastInDim_apply ![0, 1] h2 _ i (ix2 (0 : Fin 1) (i 1)) fun a =>
      match a with | ⟨0, _⟩ => rfl | ⟨1, _⟩ => rfl).trans
    (broadcastInDim_apply ![1] h1 b _ (ix1 (i 1)) fun a => match a with | ⟨0, _⟩ => rfl)

/-- The plain product of an M×K by a K×32 matrix: entry (p, q) is Σₖ x[p, k] · W[k, q]. -/
theorem dot_plain_apply {M K : ℕ} (x : FVec Ideal ⟨2, ![M, K]⟩ .f32) (W : FVec Ideal ⟨2, ![K, 32]⟩ .f32)
    (i : (⟨2, ![M, 32]⟩ : Shape).Idx) :
    Host.dotGeneral (DotDims.plain M K 32) none x W i = ∑ k : Fin K, x (ix2 (i 0) k) * W (ix2 k (i 1)) := by
  obtain ⟨p, q, rfl⟩ : ∃ (p : Fin M) (q : Fin 32), i = ix2 p q := ⟨i 0, i 1, eq_ix2 i⟩
  exact StackMember.dotGeneral_plain_apply none x W p q

/-- The same as an equation of arrays. -/
theorem dot_plain {M K : ℕ} (x : FVec Ideal ⟨2, ![M, K]⟩ .f32) (W : FVec Ideal ⟨2, ![K, 32]⟩ .f32) :
    Host.dotGeneral (DotDims.plain M K 32) none x W = fun i => ∑ k : Fin K, x (ix2 (i 0) k) * W (ix2 k (i 1)) :=
  funext fun i => dot_plain_apply x W i

/-- A message: the plain product plus the bias broadcast down the rows; entry (p, q) is Σₖ x[p, k] · W[k, q] + b[q]. -/
theorem msg_plain {M K : ℕ} (h1 : (⟨1, ![32]⟩ : Shape).BroadcastsInDim ⟨2, ![1, 32]⟩ ![1])
    (h2 : (⟨2, ![1, 32]⟩ : Shape).BroadcastsInDim ⟨2, ![M, 32]⟩ ![0, 1])
    (x : FVec Ideal ⟨2, ![M, K]⟩ .f32) (W : FVec Ideal ⟨2, ![K, 32]⟩ .f32) (b : FVec Ideal ⟨1, ![32]⟩ .f32) :
    addf (Host.dotGeneral (DotDims.plain M K 32) none x W)
        (broadcastInDim ⟨2, ![M, 32]⟩ ![0, 1] h2 (broadcastInDim ⟨2, ![1, 32]⟩ ![1] h1 b))
      = fun i => (∑ k : Fin K, x (ix2 (i 0) k) * W (ix2 k (i 1))) + b (ix1 (i 1)) := by
  funext i
  rw [addf_apply, dot_plain_apply, bias_rows_apply]

/-- Row `o` of a matrix, its unit axis dropped: entry p is x[o, p]. -/
theorem slice_drop2 {R A o : ℕ} (ho : o < R) (x : (⟨2, ![R, A]⟩ : Shape).Idx → α)
    (hs : (⟨2, ![R, A]⟩ : Shape).Slices ![o, 0] ⟨2, ![1, A]⟩)
    (hc : (⟨2, ![1, A]⟩ : Shape).ShapeCasts ⟨1, ![A]⟩) (i : (⟨1, ![A]⟩ : Shape).Idx) :
    shapeCast ⟨1, ![A]⟩ (extractStridedSlice ⟨2, ![1, A]⟩ ![o, 0] x hs) hc i = x (ix2 ⟨o, ho⟩ (i 0)) := by
  obtain ⟨p, rfl⟩ : ∃ (p : Fin A), i = ix1 p := ⟨i 0, eq_ix1 i⟩
  rw [shapeCast_1a_a_apply]
  exact extractStridedSlice_apply _ x hs _ _ fun a => match a with
    | ⟨0, _⟩ => rfl
    | ⟨1, _⟩ => (Nat.zero_add _).symm

/-- Member `o` of a stack of matrices, its unit axis dropped: entry (p, q) is x[o, p, q]. -/
theorem slice_drop3 {R A B o : ℕ} (ho : o < R) (x : (⟨3, ![R, A, B]⟩ : Shape).Idx → α)
    (hs : (⟨3, ![R, A, B]⟩ : Shape).Slices ![o, 0, 0] ⟨3, ![1, A, B]⟩)
    (hc : (⟨3, ![1, A, B]⟩ : Shape).ShapeCasts ⟨2, ![A, B]⟩) (i : (⟨2, ![A, B]⟩ : Shape).Idx) :
    shapeCast ⟨2, ![A, B]⟩ (extractStridedSlice ⟨3, ![1, A, B]⟩ ![o, 0, 0] x hs) hc i = x (ix3 ⟨o, ho⟩ (i 0) (i 1)) := by
  obtain ⟨p, q, rfl⟩ : ∃ (p : Fin A) (q : Fin B), i = ix2 p q := ⟨i 0, i 1, eq_ix2 i⟩
  rw [shapeCast_1ab_ab_apply]
  exact extractStridedSlice_apply _ x hs _ _ fun a => match a with
    | ⟨0, _⟩ => rfl
    | ⟨1, _⟩ => (Nat.zero_add _).symm
    | ⟨2, _⟩ => (Nat.zero_add _).symm

/-- Member `o` of a stack of rank-3 arrays, its unit axis dropped: entry (p, q, r) is x[o, p, q, r]. -/
theorem slice_drop4 {R A B C o : ℕ} (ho : o < R) (x : (⟨4, ![R, A, B, C]⟩ : Shape).Idx → α)
    (hs : (⟨4, ![R, A, B, C]⟩ : Shape).Slices ![o, 0, 0, 0] ⟨4, ![1, A, B, C]⟩)
    (hc : (⟨4, ![1, A, B, C]⟩ : Shape).ShapeCasts ⟨3, ![A, B, C]⟩) (i : (⟨3, ![A, B, C]⟩ : Shape).Idx) :
    shapeCast ⟨3, ![A, B, C]⟩ (extractStridedSlice ⟨4, ![1, A, B, C]⟩ ![o, 0, 0, 0] x hs) hc i
      = x (ix4 ⟨o, ho⟩ (i 0) (i 1) (i 2)) := by
  obtain ⟨p, q, r, rfl⟩ : ∃ (p : Fin A) (q : Fin B) (r : Fin C), i = ix3 p q r := ⟨i 0, i 1, i 2, eq_ix3 i⟩
  rw [shapeCast_1abc_abc_apply]
  exact extractStridedSlice_apply _ x hs _ _ fun a => match a with
    | ⟨0, _⟩ => rfl
    | ⟨1, _⟩ => (Nat.zero_add _).symm
    | ⟨2, _⟩ => (Nat.zero_add _).symm
    | ⟨3, _⟩ => (Nat.zero_add _).symm

end Cert.ReferenceIdeal.ROps

end
-- ==== Proof.ROps.Msg0.lean ====
/-
  Relation 0's messages as the reference computes them: the gathered rows times the weights (a plain matrix product) plus the
  bias broadcast down the 1600000 rows — at an index, Σₖ feat[p, k] · W[k, q] + b[q].
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- The product's dimension numbers are the plain ones: rows by the contracted axis, times the contracted axis by columns. -/
theorem dot_1600000_6_rec : Cert.ReferenceIdeal.dot_S1600000x6_S6x32_S1600000x32_1_0_0_1_n_n = DotDims.plain 1600000 6 32 := rfl
theorem dot_1600000_32_rec : Cert.ReferenceIdeal.dot_S1600000x32_S32x32_S1600000x32_1_0_0_1_n_n = DotDims.plain 1600000 32 32 := rfl

/-- The message over six-feature rows. -/
theorem msg_1600000_6 (feat : Vec Ideal S1600000x6 .f32) (W : Vec Ideal S6x32 .f32) (b : Vec Ideal S32 .f32) :
    addf (F := Ideal) (Host.dotGeneral (F := Ideal) (φ₁ := .f32) (φ₂ := .f32) Cert.ReferenceIdeal.dot_S1600000x6_S6x32_S1600000x32_1_0_0_1_n_n none feat W)
        (broadcastInDim S1600000x32 ![0, 1] bcast_S1x32_S1600000x32_0_1 (broadcastInDim S1x32 ![1] bcast_S32_S1x32_1 b))
      = Cert.KernelIdeal.Spec.msg feat W b := by
  rw [dot_1600000_6_rec]
  exact msg_plain (M := 1600000) (K := 6) bcast_S32_S1x32_1 bcast_S1x32_S1600000x32_0_1 feat W b

/-- The message over hidden rows. -/
theorem msg_1600000_32 (feat : Vec Ideal S1600000x32 .f32) (W : Vec Ideal S32x32 .f32) (b : Vec Ideal S32 .f32) :
    addf (F := Ideal) (Host.dotGeneral (F := Ideal) (φ₁ := .f32) (φ₂ := .f32) Cert.ReferenceIdeal.dot_S1600000x32_S32x32_S1600000x32_1_0_0_1_n_n none feat W)
        (broadcastInDim S1600000x32 ![0, 1] bcast_S1x32_S1600000x32_0_1 (broadcastInDim S1x32 ![1] bcast_S32_S1x32_1 b))
      = Cert.KernelIdeal.Spec.msg feat W b := by
  rw [dot_1600000_32_rec]
  exact msg_plain (M := 1600000) (K := 32) bcast_S32_S1x32_1 bcast_S1x32_S1600000x32_0_1 feat W b

end Cert.ReferenceIdeal.ROps

end
-- ==== Proof.ROps.Msg1.lean ====
/-
  Relation 1's messages as the reference computes them: the gathered rows times the weights (a plain matrix product) plus the
  bias broadcast down the 200000 rows — at an index, Σₖ feat[p, k] · W[k, q] + b[q].
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- The product's dimension numbers are the plain ones: rows by the contracted axis, times the contracted axis by columns. -/
theorem dot_200000_6_rec : Cert.ReferenceIdeal.dot_S200000x6_S6x32_S200000x32_1_0_0_1_n_n = DotDims.plain 200000 6 32 := rfl
theorem dot_200000_32_rec : Cert.ReferenceIdeal.dot_S200000x32_S32x32_S200000x32_1_0_0_1_n_n = DotDims.plain 200000 32 32 := rfl

/-- The message over six-feature rows. -/
theorem msg_200000_6 (feat : Vec Ideal S200000x6 .f32) (W : Vec Ideal S6x32 .f32) (b : Vec Ideal S32 .f32) :
    addf (F := Ideal) (Host.dotGeneral (F := Ideal) (φ₁ := .f32) (φ₂ := .f32) Cert.ReferenceIdeal.dot_S200000x6_S6x32_S200000x32_1_0_0_1_n_n none feat W)
        (broadcastInDim S200000x32 ![0, 1] bcast_S1x32_S200000x32_0_1 (broadcastInDim S1x32 ![1] bcast_S32_S1x32_1 b))
      = Cert.KernelIdeal.Spec.msg feat W b := by
  rw [dot_200000_6_rec]
  exact msg_plain (M := 200000) (K := 6) bcast_S32_S1x32_1 bcast_S1x32_S200000x32_0_1 feat W b

/-- The message over hidden rows. -/
theorem msg_200000_32 (feat : Vec Ideal S200000x32 .f32) (W : Vec Ideal S32x32 .f32) (b : Vec Ideal S32 .f32) :
    addf (F := Ideal) (Host.dotGeneral (F := Ideal) (φ₁ := .f32) (φ₂ := .f32) Cert.ReferenceIdeal.dot_S200000x32_S32x32_S200000x32_1_0_0_1_n_n none feat W)
        (broadcastInDim S200000x32 ![0, 1] bcast_S1x32_S200000x32_0_1 (broadcastInDim S1x32 ![1] bcast_S32_S1x32_1 b))
      = Cert.KernelIdeal.Spec.msg feat W b := by
  rw [dot_200000_32_rec]
  exact msg_plain (M := 200000) (K := 32) bcast_S32_S1x32_1 bcast_S1x32_S200000x32_0_1 feat W b

end Cert.ReferenceIdeal.ROps

end
-- ==== Proof.ROps.Msg2.lean ====
/-
  Relation 2's messages as the reference computes them: the gathered rows times the weights (a plain matrix product) plus the
  bias broadcast down the 800000 rows — at an index, Σₖ feat[p, k] · W[k, q] + b[q].
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- The product's dimension numbers are the plain ones: rows by the contracted axis, times the contracted axis by columns. -/
theorem dot_800000_6_rec : Cert.ReferenceIdeal.dot_S800000x6_S6x32_S800000x32_1_0_0_1_n_n = DotDims.plain 800000 6 32 := rfl
theorem dot_800000_32_rec : Cert.ReferenceIdeal.dot_S800000x32_S32x32_S800000x32_1_0_0_1_n_n = DotDims.plain 800000 32 32 := rfl

/-- The message over six-feature rows. -/
theorem msg_800000_6 (feat : Vec Ideal S800000x6 .f32) (W : Vec Ideal S6x32 .f32) (b : Vec Ideal S32 .f32) :
    addf (F := Ideal) (Host.dotGeneral (F := Ideal) (φ₁ := .f32) (φ₂ := .f32) Cert.ReferenceIdeal.dot_S800000x6_S6x32_S800000x32_1_0_0_1_n_n none feat W)
        (broadcastInDim S800000x32 ![0, 1] bcast_S1x32_S800000x32_0_1 (broadcastInDim S1x32 ![1] bcast_S32_S1x32_1 b))
      = Cert.KernelIdeal.Spec.msg feat W b := by
  rw [dot_800000_6_rec]
  exact msg_plain (M := 800000) (K := 6) bcast_S32_S1x32_1 bcast_S1x32_S800000x32_0_1 feat W b

/-- The message over hidden rows. -/
theorem msg_800000_32 (feat : Vec Ideal S800000x32 .f32) (W : Vec Ideal S32x32 .f32) (b : Vec Ideal S32 .f32) :
    addf (F := Ideal) (Host.dotGeneral (F := Ideal) (φ₁ := .f32) (φ₂ := .f32) Cert.ReferenceIdeal.dot_S800000x32_S32x32_S800000x32_1_0_0_1_n_n none feat W)
        (broadcastInDim S800000x32 ![0, 1] bcast_S1x32_S800000x32_0_1 (broadcastInDim S1x32 ![1] bcast_S32_S1x32_1 b))
      = Cert.KernelIdeal.Spec.msg feat W b := by
  rw [dot_800000_32_rec]
  exact msg_plain (M := 800000) (K := 32) bcast_S32_S1x32_1 bcast_S1x32_S800000x32_0_1 feat W b

end Cert.ReferenceIdeal.ROps

end
-- ==== Proof.ROps.Self.lean ====
/-
  The head block's self terms as the reference computes them — the node features times a relation's self weights (a plain
  matrix product, no bias), the self bias broadcast down the 100000 rows and added separately — and the final
  replacement of negative entries by zero (a maximum with a broadcast zero).
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- The product's dimension numbers are the plain ones. -/
theorem dot_100000_6_rec : Cert.ReferenceIdeal.dot_S100000x6_S6x32_S100000x32_1_0_0_1_n_n = DotDims.plain 100000 6 32 := rfl

/-- The self product: entry (p, q) is Σₖ x[p, k] · W[k, q]. -/
theorem mm_self (x : Vec Ideal S100000x6 .f32) (W : Vec Ideal S6x32 .f32) :
    Host.dotGeneral (F := Ideal) (φ₁ := .f32) (φ₂ := .f32) Cert.ReferenceIdeal.dot_S100000x6_S6x32_S100000x32_1_0_0_1_n_n none x W
      = Cert.KernelIdeal.Spec.mm x W := by
  rw [dot_100000_6_rec]
  exact dot_plain (M := 100000) (K := 6) x W

/-- The self bias broadcast down the rows reads, at (p, q), the bias at q. -/
theorem bias_self (b : Vec Ideal S32 .f32) (i : S100000x32.Idx) :
    broadcastInDim S100000x32 ![0, 1] bcast_S1x32_S100000x32_0_1 (broadcastInDim S1x32 ![1] bcast_S32_S1x32_1 b) i
      = b (ValueIdx.ix1 (i 1)) :=
  bias_rows_apply (M := 100000) bcast_S32_S1x32_1 bcast_S1x32_S100000x32_0_1 b i

/-- The maximum with a broadcast zero replaces negative entries by zero. -/
theorem relu_eq (v : Vec Ideal S100000x32 .f32) :
    maximumf (F := Ideal) v (broadcastInDim S100000x32 ![] bcast_S_S100000x32 (constant (F := Ideal) S_ .f32 0x00000000#32))
      = Cert.KernelIdeal.Spec.relu v := rfl

end Cert.ReferenceIdeal.ROps

end
-- ==== Proof.ROps.Head.lean ====
/-
  The head block's weights as the reference cuts them from the stacked arrays: one slice along the relation axis and a
  reshape that drops the unit axis (the message weights and the self weights have the same shapes: one statement serves both).
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- Relation 0's head weights: member 0 of the stack, its unit axis dropped. -/
theorem wRel_0 (Wm : Vec Ideal S3x6x32 .f32) :
    shapeCast S6x32 (extractStridedSlice S1x6x32 ![0, 0, 0] Wm slices_S3x6x32_S1x6x32_0_0_0) shapeCasts_S1x6x32_S6x32
      = Cert.KernelIdeal.Spec.wRel 0 Wm :=
  funext fun i => slice_drop3 (R := 3) (A := 6) (B := 32) (o := 0) (by decide) Wm slices_S3x6x32_S1x6x32_0_0_0 shapeCasts_S1x6x32_S6x32 i

/-- Relation 0's head bias: row 0 of the matrix, its unit axis dropped. -/
theorem bRel_0 (bm : Vec Ideal S3x32 .f32) :
    shapeCast S32 (extractStridedSlice S1x32 ![0, 0] bm slices_S3x32_S1x32_0_0) shapeCasts_S1x32_S32
      = Cert.KernelIdeal.Spec.bRel 0 bm :=
  funext fun i => slice_drop2 (R := 3) (A := 32) (o := 0) (by decide) bm slices_S3x32_S1x32_0_0 shapeCasts_S1x32_S32 i

/-- Relation 1's head weights: member 1 of the stack, its unit axis dropped. -/
theorem wRel_1 (Wm : Vec Ideal S3x6x32 .f32) :
    shapeCast S6x32 (extractStridedSlice S1x6x32 ![1, 0, 0] Wm slices_S3x6x32_S1x6x32_1_0_0) shapeCasts_S1x6x32_S6x32
      = Cert.KernelIdeal.Spec.wRel 1 Wm :=
  funext fun i => slice_drop3 (R := 3) (A := 6) (B := 32) (o := 1) (by decide) Wm slices_S3x6x32_S1x6x32_1_0_0 shapeCasts_S1x6x32_S6x32 i

/-- Relation 1's head bias: row 1 of the matrix, its unit axis dropped. -/
theorem bRel_1 (bm : Vec Ideal S3x32 .f32) :
    shapeCast S32 (extractStridedSlice S1x32 ![1, 0] bm slices_S3x32_S1x32_1_0) shapeCasts_S1x32_S32
      = Cert.KernelIdeal.Spec.bRel 1 bm :=
  funext fun i => slice_drop2 (R := 3) (A := 32) (o := 1) (by decide) bm slices_S3x32_S1x32_1_0 shapeCasts_S1x32_S32 i

/-- Relation 2's head weights: member 2 of the stack, its unit axis dropped. -/
theorem wRel_2 (Wm : Vec Ideal S3x6x32 .f32) :
    shapeCast S6x32 (extractStridedSlice S1x6x32 ![2, 0, 0] Wm slices_S3x6x32_S1x6x32_2_0_0) shapeCasts_S1x6x32_S6x32
      = Cert.KernelIdeal.Spec.wRel 2 Wm :=
  funext fun i => slice_drop3 (R := 3) (A := 6) (B := 32) (o := 2) (by decide) Wm slices_S3x6x32_S1x6x32_2_0_0 shapeCasts_S1x6x32_S6x32 i

/-- Relation 2's head bias: row 2 of the matrix, its unit axis dropped. -/
theorem bRel_2 (bm : Vec Ideal S3x32 .f32) :
    shapeCast S32 (extractStridedSlice S1x32 ![2, 0] bm slices_S3x32_S1x32_2_0) shapeCasts_S1x32_S32
      = Cert.KernelIdeal.Spec.bRel 2 bm :=
  funext fun i => slice_drop2 (R := 3) (A := 32) (o := 2) (by decide) bm slices_S3x32_S1x32_2_0 shapeCasts_S1x32_S32 i

end Cert.ReferenceIdeal.ROps

end
-- ==== Proof.RChain.B0.Steps.lean ====
/-
  Each relation's share of the head block read at a node and a feature, at the extended reals: the host operations of
  `step r` are the aggregate of the messages Σₖ x[src, k] · Wm[r, k, q] + bm[r, q], the self product Σₖ x[p, k] · Ws[r, k, q]
  and the self bias bs[r, q], added to the running sum in that order.
-/
import proofs.«147434_j38603166057109_1_alg».proof.Proof.RChain.B0.Defs
import proofs.«147434_j38603166057109_1_alg».proof.Proof.ROps.Msg0
import proofs.«147434_j38603166057109_1_alg».proof.Proof.ROps.Msg1
import proofs.«147434_j38603166057109_1_alg».proof.Proof.ROps.Msg2
import proofs.«147434_j38603166057109_1_alg».proof.Proof.ROps.Self
import proofs.«147434_j38603166057109_1_alg».proof.Proof.ROps.Head
import Idealize.ShloMosaic.Lib.ValueIdx

noncomputable section

namespace Cert.ReferenceIdeal.RChain

open Idealize.ShloMosaic Idealize.ShloMosaic.ValueIdx Cert.ReferenceIdeal Cert.ReferenceIdeal.Gen

/-- Relation 0's share at a node and feature: the running sum, plus the aggregate, plus the self product, plus the self bias. -/
theorem step0_apply (acc : Vec Ideal S100000x32 .f32) (x : Vec Ideal S100000x6 .f32) (e : Vec Ideal S2x1600000 .i32)
    (Wm : Vec Ideal S3x6x32 .f32) (bm : Vec Ideal S3x32 .f32) (Ws : Vec Ideal S3x6x32 .f32) (bs : Vec Ideal S3x32 .f32) (i : S100000x32.Idx) :
    step0 (F := Ideal) acc x e Wm bm Ws bs i
      = ((acc i + Cert.KernelIdeal.Spec.A0_6 x e (Cert.KernelIdeal.Spec.wRel 0 Wm) (Cert.KernelIdeal.Spec.bRel 0 bm) i) + Cert.KernelIdeal.Spec.mm x (Cert.KernelIdeal.Spec.wRel 0 Ws) i) + Cert.KernelIdeal.Spec.bRel 0 bs (ix1 (i 1)) := by
  unfold step0
  rw [addf_apply, addf_apply, addf_apply, ROps.bias_self, ROps.mm_self, ROps.msg_1600000_6, ROps.wRel_0 Wm, ROps.wRel_0 Ws,
    ROps.bRel_0 bm, ROps.bRel_0 bs]
  rfl

/-- Relation 1's share at a node and feature: the running sum, plus the aggregate, plus the self product, plus the self bias. -/
theorem step1_apply (acc : Vec Ideal S100000x32 .f32) (x : Vec Ideal S100000x6 .f32) (e : Vec Ideal S2x200000 .i32)
    (Wm : Vec Ideal S3x6x32 .f32) (bm : Vec Ideal S3x32 .f32) (Ws : Vec Ideal S3x6x32 .f32) (bs : Vec Ideal S3x32 .f32) (i : S100000x32.Idx) :
    step1 (F := Ideal) acc x e Wm bm Ws bs i
      = ((acc i + Cert.KernelIdeal.Spec.A1_6 x e (Cert.KernelIdeal.Spec.wRel 1 Wm) (Cert.KernelIdeal.Spec.bRel 1 bm) i) + Cert.KernelIdeal.Spec.mm x (Cert.KernelIdeal.Spec.wRel 1 Ws) i) + Cert.KernelIdeal.Spec.bRel 1 bs (ix1 (i 1)) := by
  unfold step1
  rw [addf_apply, addf_apply, addf_apply, ROps.bias_self, ROps.mm_self, ROps.msg_200000_6, ROps.wRel_1 Wm, ROps.wRel_1 Ws,
    ROps.bRel_1 bm, ROps.bRel_1 bs]
  rfl

/-- Relation 2's share at a node and feature: the running sum, plus the aggregate, plus the self product, plus the self bias. -/
theorem step2_apply (acc : Vec Ideal S100000x32 .f32) (x : Vec Ideal S100000x6 .f32) (e : Vec Ideal S2x800000 .i32)
    (Wm : Vec Ideal S3x6x32 .f32) (bm : Vec Ideal S3x32 .f32) (Ws : Vec Ideal S3x6x32 .f32) (bs : Vec Ideal S3x32 .f32) (i : S100000x32.Idx) :
    step2 (F := Ideal) acc x e Wm bm Ws bs i
      = ((acc i + Cert.KernelIdeal.Spec.A2_6 x e (Cert.KernelIdeal.Spec.wRel 2 Wm) (Cert.KernelIdeal.Spec.bRel 2 bm) i) + Cert.KernelIdeal.Spec.mm x (Cert.KernelIdeal.Spec.wRel 2 Ws) i) + Cert.KernelIdeal.Spec.bRel 2 bs (ix1 (i 1)) := by
  unfold step2
  rw [addf_apply, addf_apply, addf_apply, ROps.bias_self, ROps.mm_self, ROps.msg_800000_6, ROps.wRel_2 Wm, ROps.wRel_2 Ws,
    ROps.bRel_2 bm, ROps.bRel_2 bs]
  rfl

end Cert.ReferenceIdeal.RChain

end
-- ==== Proof.RChain.B0.lean ====
/-
  The reference's head block, evaluated.  Three stretches of host operations, one per edge relation, each add that relation's
  share (aggregate, self product, self bias) to a running sum that starts at zero; no stretch writes an argument.  So the
  buffer the head block ends at holds, at every node and feature, the nine-term sum the specification names `headR` of the
  launch contents of the node features, the three edge lists and the head's four weight arguments.
-/
import proofs.«147434_j38603166057109_1_alg».proof.Proof.RRun.Args
import proofs.«147434_j38603166057109_1_alg».proof.Proof.RChain.B0.S0
import proofs.«147434_j38603166057109_1_alg».proof.Proof.RChain.B0.S1
import proofs.«147434_j38603166057109_1_alg».proof.Proof.RChain.B0.S2
import proofs.«147434_j38603166057109_1_alg».proof.Proof.RChain.B0.Steps

noncomputable section

namespace Cert.ReferenceIdeal.RChain

open Idealize.ShloMosaic Idealize.SL.Sem Cert.ReferenceIdeal Cert.ReferenceIdeal.RunP

/-- The three stretches composed, for any float values: relation 2's share of relation 1's share of relation 0's share of
    zero, each over the launch contents of the arguments. -/
theorem chain0 {F : FTy → Type} [FloatOps F] (m : (ℓ : Loc nD τ sig) → Buf (Elt F) ℓ) (c : Dev nD) :
    RunP.U3 m c (Proc.devRef .tc main_v112)
      = step2
          (step1
            (step0 zero32 (m ((c.tc : Thread nD τ).loc main_arg0)) (m ((c.tc : Thread nD τ).loc main_arg1)) (m ((c.tc : Thread nD τ).loc main_arg4)) (m ((c.tc : Thread nD τ).loc main_arg5)) (m ((c.tc : Thread nD τ).loc main_arg6)) (m ((c.tc : Thread nD τ).loc main_arg7)))
            (m ((c.tc : Thread nD τ).loc main_arg0)) (m ((c.tc : Thread nD τ).loc main_arg2)) (m ((c.tc : Thread nD τ).loc main_arg4)) (m ((c.tc : Thread nD τ).loc main_arg5)) (m ((c.tc : Thread nD τ).loc main_arg6)) (m ((c.tc : Thread nD τ).loc main_arg7)))
          (m ((c.tc : Thread nD τ).loc main_arg0)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) := by
  rw [show RunP.U3 m c (Proc.devRef .tc main_v112) = _ from str2 (RunP.U2 m c),
    show RunP.U2 m c (Proc.devRef .tc main_v72) = _ from str1 (RunP.U1 m c),
    show RunP.U1 m c (Proc.devRef .tc main_v40) = _ from str0 (RunP.U0 m c),
    RunP.U2_arg0, RunP.U2_arg3, RunP.U2_arg4, RunP.U2_arg5, RunP.U2_arg6, RunP.U2_arg7,
    RunP.U1_arg0, RunP.U1_arg2, RunP.U1_arg4, RunP.U1_arg5, RunP.U1_arg6, RunP.U1_arg7,
    RunP.U0_arg0, RunP.U0_arg1, RunP.U0_arg4, RunP.U0_arg5, RunP.U0_arg6, RunP.U0_arg7]

/-- The head block's result buffer after the third stretch is the specification's head block of the launch contents. -/
theorem block0 (m : (ℓ : Loc nD τ sig) → Buf (Elt Ideal) ℓ) (c : Dev nD) :
    RunP.U3 (F := Ideal) m c (Proc.devRef .tc main_v112)
      = Cert.KernelIdeal.Spec.headR (m ((c.tc : Thread nD τ).loc main_arg0)) (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (m ((c.tc : Thread nD τ).loc main_arg6)) (m ((c.tc : Thread nD τ).loc main_arg7)) := by
  funext i
  rw [chain0 m c, step2_apply, step1_apply, step0_apply]
  rfl

end Cert.ReferenceIdeal.RChain

end
-- ==== Proof.RChain.BRel.lean ====
/-
  One relation's share of a residual layer, as the host operations that compute it: the hidden rows gathered at the edges'
  sources go through the relation's 32-by-32 weights (one of the layer's three) and get its bias added; the results are
  aggregated at the edges' destinations.  Stated for any float values; the gathers, index columns and aggregations are the
  ones the shared specification names.
-/
import proofs.«147434_j38603166057109_1_alg».proof.Proof.Spec
import proofs.«147434_j38603166057109_1_alg».proof.Proof.Gen.ReferenceIdeal
import Idealize.ShloMosaic.Lib.ValueIdx
import Idealize.ShloMosaic.Lib.IdealHost

noncomputable section

namespace Cert.ReferenceIdeal.RChain

open Idealize.ShloMosaic Idealize.ShloMosaic.ValueIdx Cert.ReferenceIdeal Cert.ReferenceIdeal.Gen
open Cert.KernelIdeal.Spec (agg0 agg1 agg2 gath32_0 gath32_1 gath32_2 dst0 dst1 dst2)

variable {F : FTy → Type} [FloatOps F]

/-- Relation 0's aggregate in a residual layer: the hidden rows at the 1600000 edges' sources, each through slice 0 of the layer's
    weights plus slice 0 of its biases, averaged at the edges' destinations. -/
def rel0 (h : Vec F S100000x32 .f32) (e : Vec F S2x1600000 .i32) (W3 : Vec F S3x32x32 .f32) (b3 : Vec F S3x32 .f32) :
    Vec F S100000x32 .f32 :=
  agg0
    (addf
      (Host.dotGeneral dot_S1600000x32_S32x32_S1600000x32_1_0_0_1_n_n none (gath32_0 h e)
        (shapeCast S32x32 (extractStridedSlice S1x32x32 ![0, 0, 0] W3 slices_S3x32x32_S1x32x32_0_0_0) shapeCasts_S1x32x32_S32x32))
      (broadcastInDim S1600000x32 ![0, 1] bcast_S1x32_S1600000x32_0_1
        (broadcastInDim S1x32 ![1] bcast_S32_S1x32_1
          (shapeCast S32 (extractStridedSlice S1x32 ![0, 0] b3 slices_S3x32_S1x32_0_0) shapeCasts_S1x32_S32))))
    (dst0 e)

/-- Relation 1's aggregate in a residual layer: the hidden rows at the 200000 edges' sources, each through slice 1 of the layer's
    weights plus slice 1 of its biases, summed at the edges' destinations. -/
def rel1 (h : Vec F S100000x32 .f32) (e : Vec F S2x200000 .i32) (W3 : Vec F S3x32x32 .f32) (b3 : Vec F S3x32 .f32) :
    Vec F S100000x32 .f32 :=
  agg1
    (addf
      (Host.dotGeneral dot_S200000x32_S32x32_S200000x32_1_0_0_1_n_n none (gath32_1 h e)
        (shapeCast S32x32 (extractStridedSlice S1x32x32 ![1, 0, 0] W3 slices_S3x32x32_S1x32x32_1_0_0) shapeCasts_S1x32x32_S32x32))
      (broadcastInDim S200000x32 ![0, 1] bcast_S1x32_S200000x32_0_1
        (broadcastInDim S1x32 ![1] bcast_S32_S1x32_1
          (shapeCast S32 (extractStridedSlice S1x32 ![1, 0] b3 slices_S3x32_S1x32_1_0) shapeCasts_S1x32_S32))))
    (dst1 e)

/-- Relation 2's aggregate in a residual layer: the hidden rows at the 800000 edges' sources, each through slice 2 of the layer's
    weights plus slice 2 of its biases, averaged at the edges' destinations. -/
def rel2 (h : Vec F S100000x32 .f32) (e : Vec F S2x800000 .i32) (W3 : Vec F S3x32x32 .f32) (b3 : Vec F S3x32 .f32) :
    Vec F S100000x32 .f32 :=
  agg2
    (addf
      (Host.dotGeneral dot_S800000x32_S32x32_S800000x32_1_0_0_1_n_n none (gath32_2 h e)
        (shapeCast S32x32 (extractStridedSlice S1x32x32 ![2, 0, 0] W3 slices_S3x32x32_S1x32x32_2_0_0) shapeCasts_S1x32x32_S32x32))
      (broadcastInDim S800000x32 ![0, 1] bcast_S1x32_S800000x32_0_1
        (broadcastInDim S1x32 ![1] bcast_S32_S1x32_1
          (shapeCast S32 (extractStridedSlice S1x32 ![2, 0] b3 slices_S3x32_S1x32_2_0) shapeCasts_S1x32_S32))))
    (dst2 e)

/-- The zero array a layer's sum starts from. -/
def zeroN : Vec F S100000x32 .f32 := broadcastInDim S100000x32 ![] bcast_S_S100000x32 (constant S_ .f32 0x00000000#32)

/-- The sum a layer builds: from zero, each relation's aggregate followed by the layer's input, and the input once more. -/
def laySum (a0 a1 a2 h : Vec F S100000x32 .f32) : Vec F S100000x32 .f32 :=
  addf (addf (addf (addf (addf (addf (addf zeroN a0) h) a1) h) a2) h) h

/-- At the extended reals that sum is at every index the specification's residual combination. -/
theorem comb_eq (a0 a1 a2 h : Vec Ideal S100000x32 .f32) :
    laySum (F := Ideal) a0 a1 a2 h = Cert.KernelIdeal.Spec.combLayR a0 a1 a2 h := by
  funext i
  first
    | rfl
    | (simp only [laySum, addf_apply, zeroN, broadcastInDim_scalar_apply, constant_apply, Cert.KernelIdeal.Spec.combLayR] <;> rfl)

end Cert.ReferenceIdeal.RChain

end
-- ==== Proof.RChain.B1.S.lean ====
/-
  Residual layer 0 of the reference's run, read as host operations, for any float values.  The stretch before boundary 3 ends by
  slicing the layer's three weight matrices and three biases out of the four layers' and setting up a zero array; each of the
  layer's three stretches (boundaries 3 to 6) then writes, from what it finds in the buffers it reads, the running sum plus one
  relation's aggregate plus the layer's input h — the last stretch plus h once more.
-/
import proofs.«147434_j38603166057109_1_alg».proof.Proof.RRun.Ops
import proofs.«147434_j38603166057109_1_alg».proof.Proof.RChain.BRel
import Idealize.ShloMosaic.Lib.StableHlo.Run

noncomputable section

namespace Cert.ReferenceIdeal.RChain

open Idealize.ShloMosaic Idealize.ShloMosaic.StableHlo Idealize.SL.Sem
open Cert.ReferenceIdeal Cert.ReferenceIdeal.Gen Cert.ReferenceIdeal.RunP

section AnyFloat

variable {F : FTy → Type} [FloatOps F]

/-- Layer 0's three weight matrices: its slice of the four layers'. -/
def layW0 (Wm : Vec F S4x3x32x32 .f32) : Vec F S3x32x32 .f32 :=
  shapeCast S3x32x32 (extractStridedSlice S1x3x32x32 ![0, 0, 0, 0] Wm slices_S4x3x32x32_S1x3x32x32_0_0_0_0) shapeCasts_S1x3x32x32_S3x32x32
/-- Layer 0's three biases. -/
def layB0 (bm : Vec F S4x3x32 .f32) : Vec F S3x32 .f32 :=
  shapeCast S3x32 (extractStridedSlice S1x3x32 ![0, 0, 0] bm slices_S4x3x32_S1x3x32_0_0_0) shapeCasts_S1x3x32_S3x32

/-- The stretch before the layer leaves the layer's weights, -/
theorem b1_preW (V : Valuation τ sig (Elt F)) (Wm : Vec F S4x3x32x32 .f32) (hW : V (Proc.devRef .tc main_arg8) = Wm) :
    after opsR2 V (Proc.devRef .tc main_v114) = layW0 Wm := by
  subst hW
  after_results_simp
  all_goals rfl
/-- its biases, -/
theorem b1_preB (V : Valuation τ sig (Elt F)) (bm : Vec F S4x3x32 .f32) (hb : V (Proc.devRef .tc main_arg9) = bm) :
    after opsR2 V (Proc.devRef .tc main_v116) = layB0 bm := by
  subst hb
  after_results_simp
  all_goals rfl
/-- and the zero array. -/
theorem b1_preZ (V : Valuation τ sig (Elt F)) : after opsR2 V (Proc.devRef .tc main_v117) = zeroN (F := F) := by
  after_results_simp
  all_goals rfl

/-- The first stretch: the running sum, then relation 0's aggregate, then h. -/
theorem b1_s0 (V : Valuation τ sig (Elt F)) (h : Vec F S100000x32 .f32) (e : Vec F S2x1600000 .i32) (W3 : Vec F S3x32x32 .f32)
    (b3 : Vec F S3x32 .f32) (a : Vec F S100000x32 .f32)
    (hh : V (Proc.devRef .tc main_v112) = h) (he : V (Proc.devRef .tc main_arg1) = e) (hW : V (Proc.devRef .tc main_v114) = W3)
    (hb : V (Proc.devRef .tc main_v116) = b3) (ha : V (Proc.devRef .tc main_v117) = a) :
    after opsR3 V (Proc.devRef .tc main_v149) = addf (addf a (rel0 h e W3 b3)) h := by
  subst hh he hW hb ha
  after_results_simp
  all_goals rfl

/-- The second stretch: relation 1's aggregate, then h. -/
theorem b1_s1 (V : Valuation τ sig (Elt F)) (h : Vec F S100000x32 .f32) (e : Vec F S2x200000 .i32) (W3 : Vec F S3x32x32 .f32)
    (b3 : Vec F S3x32 .f32) (a : Vec F S100000x32 .f32)
    (hh : V (Proc.devRef .tc main_v112) = h) (he : V (Proc.devRef .tc main_arg2) = e) (hW : V (Proc.devRef .tc main_v114) = W3)
    (hb : V (Proc.devRef .tc main_v116) = b3) (ha : V (Proc.devRef .tc main_v149) = a) :
    after opsR4 V (Proc.devRef .tc main_v173) = addf (addf a (rel1 h e W3 b3)) h := by
  subst hh he hW hb ha
  after_results_simp
  all_goals rfl

/-- The third stretch: relation 2's aggregate, then h twice. -/
theorem b1_s2 (V : Valuation τ sig (Elt F)) (h : Vec F S100000x32 .f32) (e : Vec F S2x800000 .i32) (W3 : Vec F S3x32x32 .f32)
    (b3 : Vec F S3x32 .f32) (a : Vec F S100000x32 .f32)
    (hh : V (Proc.devRef .tc main_v112) = h) (he : V (Proc.devRef .tc main_arg3) = e) (hW : V (Proc.devRef .tc main_v114) = W3)
    (hb : V (Proc.devRef .tc main_v116) = b3) (ha : V (Proc.devRef .tc main_v173) = a) :
    after opsR5 V (Proc.devRef .tc main_v206) = addf (addf (addf a (rel2 h e W3 b3)) h) h := by
  subst hh he hW hb ha
  after_results_simp
  all_goals rfl

end AnyFloat

end Cert.ReferenceIdeal.RChain

end
-- ==== Proof.ROps.Lay0.lean ====
/-
  Layer 0's weights and biases as the reference cuts them from the stacked arrays: a slice along the layer axis and a reshape
  that drops its unit axis, then a slice along the relation axis and a second such reshape — entry (p, q) of the result is
  Wm[0, r, p, q] (the bias: bm[0, r, p]).
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- Layer 0, relation 0: the weights, cut by layer and then by relation. -/
theorem wLay_0_0 (Wm : Vec Ideal S4x3x32x32 .f32) :
    shapeCast S32x32 (extractStridedSlice S1x32x32 ![0, 0, 0]
        (shapeCast S3x32x32 (extractStridedSlice S1x3x32x32 ![0, 0, 0, 0] Wm slices_S4x3x32x32_S1x3x32x32_0_0_0_0) shapeCasts_S1x3x32x32_S3x32x32)
        slices_S3x32x32_S1x32x32_0_0_0) shapeCasts_S1x32x32_S32x32
      = Cert.KernelIdeal.Spec.wLay 0 0 Wm :=
  funext fun i =>
    (slice_drop3 (R := 3) (A := 32) (B := 32) (o := 0) (by decide) _ slices_S3x32x32_S1x32x32_0_0_0 shapeCasts_S1x32x32_S32x32 i).trans
      (slice_drop4 (R := 4) (A := 3) (B := 32) (C := 32) (o := 0) (by decide) Wm slices_S4x3x32x32_S1x3x32x32_0_0_0_0
        shapeCasts_S1x3x32x32_S3x32x32 _)

/-- Layer 0, relation 0: the bias, cut by layer and then by relation. -/
theorem bLay_0_0 (bm : Vec Ideal S4x3x32 .f32) :
    shapeCast S32 (extractStridedSlice S1x32 ![0, 0]
        (shapeCast S3x32 (extractStridedSlice S1x3x32 ![0, 0, 0] bm slices_S4x3x32_S1x3x32_0_0_0) shapeCasts_S1x3x32_S3x32)
        slices_S3x32_S1x32_0_0) shapeCasts_S1x32_S32
      = Cert.KernelIdeal.Spec.bLay 0 0 bm :=
  funext fun i =>
    (slice_drop2 (R := 3) (A := 32) (o := 0) (by decide) _ slices_S3x32_S1x32_0_0 shapeCasts_S1x32_S32 i).trans
      (slice_drop3 (R := 4) (A := 3) (B := 32) (o := 0) (by decide) bm slices_S4x3x32_S1x3x32_0_0_0 shapeCasts_S1x3x32_S3x32 _)

/-- Layer 0, relation 1: the weights, cut by layer and then by relation. -/
theorem wLay_0_1 (Wm : Vec Ideal S4x3x32x32 .f32) :
    shapeCast S32x32 (extractStridedSlice S1x32x32 ![1, 0, 0]
        (shapeCast S3x32x32 (extractStridedSlice S1x3x32x32 ![0, 0, 0, 0] Wm slices_S4x3x32x32_S1x3x32x32_0_0_0_0) shapeCasts_S1x3x32x32_S3x32x32)
        slices_S3x32x32_S1x32x32_1_0_0) shapeCasts_S1x32x32_S32x32
      = Cert.KernelIdeal.Spec.wLay 0 1 Wm :=
  funext fun i =>
    (slice_drop3 (R := 3) (A := 32) (B := 32) (o := 1) (by decide) _ slices_S3x32x32_S1x32x32_1_0_0 shapeCasts_S1x32x32_S32x32 i).trans
      (slice_drop4 (R := 4) (A := 3) (B := 32) (C := 32) (o := 0) (by decide) Wm slices_S4x3x32x32_S1x3x32x32_0_0_0_0
        shapeCasts_S1x3x32x32_S3x32x32 _)

/-- Layer 0, relation 1: the bias, cut by layer and then by relation. -/
theorem bLay_0_1 (bm : Vec Ideal S4x3x32 .f32) :
    shapeCast S32 (extractStridedSlice S1x32 ![1, 0]
        (shapeCast S3x32 (extractStridedSlice S1x3x32 ![0, 0, 0] bm slices_S4x3x32_S1x3x32_0_0_0) shapeCasts_S1x3x32_S3x32)
        slices_S3x32_S1x32_1_0) shapeCasts_S1x32_S32
      = Cert.KernelIdeal.Spec.bLay 0 1 bm :=
  funext fun i =>
    (slice_drop2 (R := 3) (A := 32) (o := 1) (by decide) _ slices_S3x32_S1x32_1_0 shapeCasts_S1x32_S32 i).trans
      (slice_drop3 (R := 4) (A := 3) (B := 32) (o := 0) (by decide) bm slices_S4x3x32_S1x3x32_0_0_0 shapeCasts_S1x3x32_S3x32 _)

/-- Layer 0, relation 2: the weights, cut by layer and then by relation. -/
theorem wLay_0_2 (Wm : Vec Ideal S4x3x32x32 .f32) :
    shapeCast S32x32 (extractStridedSlice S1x32x32 ![2, 0, 0]
        (shapeCast S3x32x32 (extractStridedSlice S1x3x32x32 ![0, 0, 0, 0] Wm slices_S4x3x32x32_S1x3x32x32_0_0_0_0) shapeCasts_S1x3x32x32_S3x32x32)
        slices_S3x32x32_S1x32x32_2_0_0) shapeCasts_S1x32x32_S32x32
      = Cert.KernelIdeal.Spec.wLay 0 2 Wm :=
  funext fun i =>
    (slice_drop3 (R := 3) (A := 32) (B := 32) (o := 2) (by decide) _ slices_S3x32x32_S1x32x32_2_0_0 shapeCasts_S1x32x32_S32x32 i).trans
      (slice_drop4 (R := 4) (A := 3) (B := 32) (C := 32) (o := 0) (by decide) Wm slices_S4x3x32x32_S1x3x32x32_0_0_0_0
        shapeCasts_S1x3x32x32_S3x32x32 _)

/-- Layer 0, relation 2: the bias, cut by layer and then by relation. -/
theorem bLay_0_2 (bm : Vec Ideal S4x3x32 .f32) :
    shapeCast S32 (extractStridedSlice S1x32 ![2, 0]
        (shapeCast S3x32 (extractStridedSlice S1x3x32 ![0, 0, 0] bm slices_S4x3x32_S1x3x32_0_0_0) shapeCasts_S1x3x32_S3x32)
        slices_S3x32_S1x32_2_0) shapeCasts_S1x32_S32
      = Cert.KernelIdeal.Spec.bLay 0 2 bm :=
  funext fun i =>
    (slice_drop2 (R := 3) (A := 32) (o := 2) (by decide) _ slices_S3x32_S1x32_2_0 shapeCasts_S1x32_S32 i).trans
      (slice_drop3 (R := 4) (A := 3) (B := 32) (o := 0) (by decide) bm slices_S4x3x32_S1x3x32_0_0_0 shapeCasts_S1x3x32_S3x32 _)

end Cert.ReferenceIdeal.ROps

end
-- ==== Proof.RChain.B1.lean ====
/-
  Residual layer 0 of the reference's run at the extended reals, between its boundaries 3 and 6.  The layer's input h, its
  slice of the weights and biases and the three edge lists stay where they are through the layer's three stretches; each
  relation's aggregate at the layer's slices is the specification's, and the sum the stretches build — from zero, each
  aggregate followed by h, and h once more — is at every index the specification's residual combination.
-/
import proofs.«147434_j38603166057109_1_alg».proof.Proof.RRun.Args
import proofs.«147434_j38603166057109_1_alg».proof.Proof.RChain.B1.S
import proofs.«147434_j38603166057109_1_alg».proof.Proof.ROps.Lay0
import proofs.«147434_j38603166057109_1_alg».proof.Proof.ROps.Msg0
import proofs.«147434_j38603166057109_1_alg».proof.Proof.ROps.Msg1
import proofs.«147434_j38603166057109_1_alg».proof.Proof.ROps.Msg2

noncomputable section

namespace Cert.ReferenceIdeal.RChain

open Idealize.ShloMosaic Idealize.ShloMosaic.TcCoe Idealize.ShloMosaic.StableHlo Idealize.SL.Sem
open Cert.ReferenceIdeal Cert.ReferenceIdeal.Gen Cert.ReferenceIdeal.RunP

/-- Relation 0's share, at this layer's slices of the weights and biases, is the specification's aggregate. -/
theorem b1_A0 (H : Vec Ideal S100000x32 .f32) (e : Vec Ideal S2x1600000 .i32) (Wm : Vec Ideal S4x3x32x32 .f32) (bm : Vec Ideal S4x3x32 .f32) :
    rel0 H e (layW0 Wm) (layB0 bm)
      = Cert.KernelIdeal.Spec.A0_32 H e (Cert.KernelIdeal.Spec.wLay 0 0 Wm) (Cert.KernelIdeal.Spec.bLay 0 0 bm) := by
  unfold rel0 layW0 layB0 Cert.KernelIdeal.Spec.A0_32
  rw [ROps.wLay_0_0, ROps.bLay_0_0, ROps.msg_1600000_32]

/-- Relation 1's share, at this layer's slices of the weights and biases, is the specification's aggregate. -/
theorem b1_A1 (H : Vec Ideal S100000x32 .f32) (e : Vec Ideal S2x200000 .i32) (Wm : Vec Ideal S4x3x32x32 .f32) (bm : Vec Ideal S4x3x32 .f32) :
    rel1 H e (layW0 Wm) (layB0 bm)
      = Cert.KernelIdeal.Spec.A1_32 H e (Cert.KernelIdeal.Spec.wLay 0 1 Wm) (Cert.KernelIdeal.Spec.bLay 0 1 bm) := by
  unfold rel1 layW0 layB0 Cert.KernelIdeal.Spec.A1_32
  rw [ROps.wLay_0_1, ROps.bLay_0_1, ROps.msg_200000_32]

/-- Relation 2's share, at this layer's slices of the weights and biases, is the specification's aggregate. -/
theorem b1_A2 (H : Vec Ideal S100000x32 .f32) (e : Vec Ideal S2x800000 .i32) (Wm : Vec Ideal S4x3x32x32 .f32) (bm : Vec Ideal S4x3x32 .f32) :
    rel2 H e (layW0 Wm) (layB0 bm)
      = Cert.KernelIdeal.Spec.A2_32 H e (Cert.KernelIdeal.Spec.wLay 0 2 Wm) (Cert.KernelIdeal.Spec.bLay 0 2 bm) := by
  unfold rel2 layW0 layB0 Cert.KernelIdeal.Spec.A2_32
  rw [ROps.wLay_0_2, ROps.bLay_0_2, ROps.msg_800000_32]

/-- Layer 0 of the reference: from h at boundary 3 to the specification's residual layer of h at boundary 6. -/
theorem block1 (m : (ℓ : Loc nD τ sig) → Buf (Elt Ideal) ℓ) (c : Dev nD) (H : Vec Ideal S100000x32 .f32)
    (hH : RunP.U3 (F := Ideal) m c (Proc.devRef .tc main_v112) = H) :
    RunP.U6 (F := Ideal) m c (Proc.devRef .tc main_v206)
      = Cert.KernelIdeal.Spec.layR 0 H (m ((c.tc : Thread nD τ).loc main_arg1)) (m ((c.tc : Thread nD τ).loc main_arg2))
          (m ((c.tc : Thread nD τ).loc main_arg3)) (m ((c.tc : Thread nD τ).loc main_arg8)) (m ((c.tc : Thread nD τ).loc main_arg9)) := by
  have h4 : U4 m c (Proc.devRef .tc main_v112) = H := (U4_keep m c main_v112 (by decide)).trans hH
  have h5 : U5 m c (Proc.devRef .tc main_v112) = H := (U5_keep m c main_v112 (by decide)).trans h4
  have w3 : U3 m c (Proc.devRef .tc main_v114) = layW0 (F := Ideal) (m ((c.tc : Thread nD τ).loc main_arg8)) := b1_preW (U2 m c) _ (U2_arg8 m c)
  have w4 : U4 m c (Proc.devRef .tc main_v114) = layW0 (F := Ideal) (m ((c.tc : Thread nD τ).loc main_arg8)) := (U4_keep m c main_v114 (by decide)).trans w3
  have w5 : U5 m c (Proc.devRef .tc main_v114) = layW0 (F := Ideal) (m ((c.tc : Thread nD τ).loc main_arg8)) := (U5_keep m c main_v114 (by decide)).trans w4
  have q3 : U3 m c (Proc.devRef .tc main_v116) = layB0 (F := Ideal) (m ((c.tc : Thread nD τ).loc main_arg9)) := b1_preB (U2 m c) _ (U2_arg9 m c)
  have q4 : U4 m c (Proc.devRef .tc main_v116) = layB0 (F := Ideal) (m ((c.tc : Thread nD τ).loc main_arg9)) := (U4_keep m c main_v116 (by decide)).trans q3
  have q5 : U5 m c (Proc.devRef .tc main_v116) = layB0 (F := Ideal) (m ((c.tc : Thread nD τ).loc main_arg9)) := (U5_keep m c main_v116 (by decide)).trans q4
  have s0 := b1_s0 (U3 m c) H _ _ _ _ hH (U3_arg1 m c) w3 q3 (b1_preZ (U2 m c))
  have s1 := b1_s1 (U4 m c) H _ _ _ _ h4 (U4_arg2 m c) w4 q4 s0
  have s2 := b1_s2 (U5 m c) H _ _ _ _ h5 (U5_arg3 m c) w5 q5 s1
  refine s2.trans ?_
  rw [b1_A0, b1_A1, b1_A2]
  exact comb_eq _ _ _ _

end Cert.ReferenceIdeal.RChain

end
-- ==== Proof.ROps.Lay1.lean ====
/-
  Layer 1's weights and biases as the reference cuts them from the stacked arrays: a slice along the layer axis and a reshape
  that drops its unit axis, then a slice along the relation axis and a second such reshape — entry (p, q) of the result is
  Wm[1, r, p, q] (the bias: bm[1, r, p]).
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- Layer 1, relation 0: the weights, cut by layer and then by relation. -/
theorem wLay_1_0 (Wm : Vec Ideal S4x3x32x32 .f32) :
    shapeCast S32x32 (extractStridedSlice S1x32x32 ![0, 0, 0]
        (shapeCast S3x32x32 (extractStridedSlice S1x3x32x32 ![1, 0, 0, 0] Wm slices_S4x3x32x32_S1x3x32x32_1_0_0_0) shapeCasts_S1x3x32x32_S3x32x32)
        slices_S3x32x32_S1x32x32_0_0_0) shapeCasts_S1x32x32_S32x32
      = Cert.KernelIdeal.Spec.wLay 1 0 Wm :=
  funext fun i =>
    (slice_drop3 (R := 3) (A := 32) (B := 32) (o := 0) (by decide) _ slices_S3x32x32_S1x32x32_0_0_0 shapeCasts_S1x32x32_S32x32 i).trans
      (slice_drop4 (R := 4) (A := 3) (B := 32) (C := 32) (o := 1) (by decide) Wm slices_S4x3x32x32_S1x3x32x32_1_0_0_0
        shapeCasts_S1x3x32x32_S3x32x32 _)

/-- Layer 1, relation 0: the bias, cut by layer and then by relation. -/
theorem bLay_1_0 (bm : Vec Ideal S4x3x32 .f32) :
    shapeCast S32 (extractStridedSlice S1x32 ![0, 0]
        (shapeCast S3x32 (extractStridedSlice S1x3x32 ![1, 0, 0] bm slices_S4x3x32_S1x3x32_1_0_0) shapeCasts_S1x3x32_S3x32)
        slices_S3x32_S1x32_0_0) shapeCasts_S1x32_S32
      = Cert.KernelIdeal.Spec.bLay 1 0 bm :=
  funext fun i =>
    (slice_drop2 (R := 3) (A := 32) (o := 0) (by decide) _ slices_S3x32_S1x32_0_0 shapeCasts_S1x32_S32 i).trans
      (slice_drop3 (R := 4) (A := 3) (B := 32) (o := 1) (by decide) bm slices_S4x3x32_S1x3x32_1_0_0 shapeCasts_S1x3x32_S3x32 _)

/-- Layer 1, relation 1: the weights, cut by layer and then by relation. -/
theorem wLay_1_1 (Wm : Vec Ideal S4x3x32x32 .f32) :
    shapeCast S32x32 (extractStridedSlice S1x32x32 ![1, 0, 0]
        (shapeCast S3x32x32 (extractStridedSlice S1x3x32x32 ![1, 0, 0, 0] Wm slices_S4x3x32x32_S1x3x32x32_1_0_0_0) shapeCasts_S1x3x32x32_S3x32x32)
        slices_S3x32x32_S1x32x32_1_0_0) shapeCasts_S1x32x32_S32x32
      = Cert.KernelIdeal.Spec.wLay 1 1 Wm :=
  funext fun i =>
    (slice_drop3 (R := 3) (A := 32) (B := 32) (o := 1) (by decide) _ slices_S3x32x32_S1x32x32_1_0_0 shapeCasts_S1x32x32_S32x32 i).trans
      (slice_drop4 (R := 4) (A := 3) (B := 32) (C := 32) (o := 1) (by decide) Wm slices_S4x3x32x32_S1x3x32x32_1_0_0_0
        shapeCasts_S1x3x32x32_S3x32x32 _)

/-- Layer 1, relation 1: the bias, cut by layer and then by relation. -/
theorem bLay_1_1 (bm : Vec Ideal S4x3x32 .f32) :
    shapeCast S32 (extractStridedSlice S1x32 ![1, 0]
        (shapeCast S3x32 (extractStridedSlice S1x3x32 ![1, 0, 0] bm slices_S4x3x32_S1x3x32_1_0_0) shapeCasts_S1x3x32_S3x32)
        slices_S3x32_S1x32_1_0) shapeCasts_S1x32_S32
      = Cert.KernelIdeal.Spec.bLay 1 1 bm :=
  funext fun i =>
    (slice_drop2 (R := 3) (A := 32) (o := 1) (by decide) _ slices_S3x32_S1x32_1_0 shapeCasts_S1x32_S32 i).trans
      (slice_drop3 (R := 4) (A := 3) (B := 32) (o := 1) (by decide) bm slices_S4x3x32_S1x3x32_1_0_0 shapeCasts_S1x3x32_S3x32 _)

/-- Layer 1, relation 2: the weights, cut by layer and then by relation. -/
theorem wLay_1_2 (Wm : Vec Ideal S4x3x32x32 .f32) :
    shapeCast S32x32 (extractStridedSlice S1x32x32 ![2, 0, 0]
        (shapeCast S3x32x32 (extractStridedSlice S1x3x32x32 ![1, 0, 0, 0] Wm slices_S4x3x32x32_S1x3x32x32_1_0_0_0) shapeCasts_S1x3x32x32_S3x32x32)
        slices_S3x32x32_S1x32x32_2_0_0) shapeCasts_S1x32x32_S32x32
      = Cert.KernelIdeal.Spec.wLay 1 2 Wm :=
  funext fun i =>
    (slice_drop3 (R := 3) (A := 32) (B := 32) (o := 2) (by decide) _ slices_S3x32x32_S1x32x32_2_0_0 shapeCasts_S1x32x32_S32x32 i).trans
      (slice_drop4 (R := 4) (A := 3) (B := 32) (C := 32) (o := 1) (by decide) Wm slices_S4x3x32x32_S1x3x32x32_1_0_0_0
        shapeCasts_S1x3x32x32_S3x32x32 _)

/-- Layer 1, relation 2: the bias, cut by layer and then by relation. -/
theorem bLay_1_2 (bm : Vec Ideal S4x3x32 .f32) :
    shapeCast S32 (extractStridedSlice S1x32 ![2, 0]
        (shapeCast S3x32 (extractStridedSlice S1x3x32 ![1, 0, 0] bm slices_S4x3x32_S1x3x32_1_0_0) shapeCasts_S1x3x32_S3x32)
        slices_S3x32_S1x32_2_0) shapeCasts_S1x32_S32
      = Cert.KernelIdeal.Spec.bLay 1 2 bm :=
  funext fun i =>
    (slice_drop2 (R := 3) (A := 32) (o := 2) (by decide) _ slices_S3x32_S1x32_2_0 shapeCasts_S1x32_S32 i).trans
      (slice_drop3 (R := 4) (A := 3) (B := 32) (o := 1) (by decide) bm slices_S4x3x32_S1x3x32_1_0_0 shapeCasts_S1x3x32_S3x32 _)

end Cert.ReferenceIdeal.ROps

end
-- ==== Proof.ROps.Lay2.lean ====
/-
  Layer 2's weights and biases as the reference cuts them from the stacked arrays: a slice along the layer axis and a reshape
  that drops its unit axis, then a slice along the relation axis and a second such reshape — entry (p, q) of the result is
  Wm[2, r, p, q] (the bias: bm[2, r, p]).
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- Layer 2, relation 0: the weights, cut by layer and then by relation. -/
theorem wLay_2_0 (Wm : Vec Ideal S4x3x32x32 .f32) :
    shapeCast S32x32 (extractStridedSlice S1x32x32 ![0, 0, 0]
        (shapeCast S3x32x32 (extractStridedSlice S1x3x32x32 ![2, 0, 0, 0] Wm slices_S4x3x32x32_S1x3x32x32_2_0_0_0) shapeCasts_S1x3x32x32_S3x32x32)
        slices_S3x32x32_S1x32x32_0_0_0) shapeCasts_S1x32x32_S32x32
      = Cert.KernelIdeal.Spec.wLay 2 0 Wm :=
  funext fun i =>
    (slice_drop3 (R := 3) (A := 32) (B := 32) (o := 0) (by decide) _ slices_S3x32x32_S1x32x32_0_0_0 shapeCasts_S1x32x32_S32x32 i).trans
      (slice_drop4 (R := 4) (A := 3) (B := 32) (C := 32) (o := 2) (by decide) Wm slices_S4x3x32x32_S1x3x32x32_2_0_0_0
        shapeCasts_S1x3x32x32_S3x32x32 _)

/-- Layer 2, relation 0: the bias, cut by layer and then by relation. -/
theorem bLay_2_0 (bm : Vec Ideal S4x3x32 .f32) :
    shapeCast S32 (extractStridedSlice S1x32 ![0, 0]
        (shapeCast S3x32 (extractStridedSlice S1x3x32 ![2, 0, 0] bm slices_S4x3x32_S1x3x32_2_0_0) shapeCasts_S1x3x32_S3x32)
        slices_S3x32_S1x32_0_0) shapeCasts_S1x32_S32
      = Cert.KernelIdeal.Spec.bLay 2 0 bm :=
  funext fun i =>
    (slice_drop2 (R := 3) (A := 32) (o := 0) (by decide) _ slices_S3x32_S1x32_0_0 shapeCasts_S1x32_S32 i).trans
      (slice_drop3 (R := 4) (A := 3) (B := 32) (o := 2) (by decide) bm slices_S4x3x32_S1x3x32_2_0_0 shapeCasts_S1x3x32_S3x32 _)

/-- Layer 2, relation 1: the weights, cut by layer and then by relation. -/
theorem wLay_2_1 (Wm : Vec Ideal S4x3x32x32 .f32) :
    shapeCast S32x32 (extractStridedSlice S1x32x32 ![1, 0, 0]
        (shapeCast S3x32x32 (extractStridedSlice S1x3x32x32 ![2, 0, 0, 0] Wm slices_S4x3x32x32_S1x3x32x32_2_0_0_0) shapeCasts_S1x3x32x32_S3x32x32)
        slices_S3x32x32_S1x32x32_1_0_0) shapeCasts_S1x32x32_S32x32
      = Cert.KernelIdeal.Spec.wLay 2 1 Wm :=
  funext fun i =>
    (slice_drop3 (R := 3) (A := 32) (B := 32) (o := 1) (by decide) _ slices_S3x32x32_S1x32x32_1_0_0 shapeCasts_S1x32x32_S32x32 i).trans
      (slice_drop4 (R := 4) (A := 3) (B := 32) (C := 32) (o := 2) (by decide) Wm slices_S4x3x32x32_S1x3x32x32_2_0_0_0
        shapeCasts_S1x3x32x32_S3x32x32 _)

/-- Layer 2, relation 1: the bias, cut by layer and then by relation. -/
theorem bLay_2_1 (bm : Vec Ideal S4x3x32 .f32) :
    shapeCast S32 (extractStridedSlice S1x32 ![1, 0]
        (shapeCast S3x32 (extractStridedSlice S1x3x32 ![2, 0, 0] bm slices_S4x3x32_S1x3x32_2_0_0) shapeCasts_S1x3x32_S3x32)
        slices_S3x32_S1x32_1_0) shapeCasts_S1x32_S32
      = Cert.KernelIdeal.Spec.bLay 2 1 bm :=
  funext fun i =>
    (slice_drop2 (R := 3) (A := 32) (o := 1) (by decide) _ slices_S3x32_S1x32_1_0 shapeCasts_S1x32_S32 i).trans
      (slice_drop3 (R := 4) (A := 3) (B := 32) (o := 2) (by decide) bm slices_S4x3x32_S1x3x32_2_0_0 shapeCasts_S1x3x32_S3x32 _)

/-- Layer 2, relation 2: the weights, cut by layer and then by relation. -/
theorem wLay_2_2 (Wm : Vec Ideal S4x3x32x32 .f32) :
    shapeCast S32x32 (extractStridedSlice S1x32x32 ![2, 0, 0]
        (shapeCast S3x32x32 (extractStridedSlice S1x3x32x32 ![2, 0, 0, 0] Wm slices_S4x3x32x32_S1x3x32x32_2_0_0_0) shapeCasts_S1x3x32x32_S3x32x32)
        slices_S3x32x32_S1x32x32_2_0_0) shapeCasts_S1x32x32_S32x32
      = Cert.KernelIdeal.Spec.wLay 2 2 Wm :=
  funext fun i =>
    (slice_drop3 (R := 3) (A := 32) (B := 32) (o := 2) (by decide) _ slices_S3x32x32_S1x32x32_2_0_0 shapeCasts_S1x32x32_S32x32 i).trans
      (slice_drop4 (R := 4) (A := 3) (B := 32) (C := 32) (o := 2) (by decide) Wm slices_S4x3x32x32_S1x3x32x32_2_0_0_0
        shapeCasts_S1x3x32x32_S3x32x32 _)

/-- Layer 2, relation 2: the bias, cut by layer and then by relation. -/
theorem bLay_2_2 (bm : Vec Ideal S4x3x32 .f32) :
    shapeCast S32 (extractStridedSlice S1x32 ![2, 0]
        (shapeCast S3x32 (extractStridedSlice S1x3x32 ![2, 0, 0] bm slices_S4x3x32_S1x3x32_2_0_0) shapeCasts_S1x3x32_S3x32)
        slices_S3x32_S1x32_2_0) shapeCasts_S1x32_S32
      = Cert.KernelIdeal.Spec.bLay 2 2 bm :=
  funext fun i =>
    (slice_drop2 (R := 3) (A := 32) (o := 2) (by decide) _ slices_S3x32_S1x32_2_0 shapeCasts_S1x32_S32 i).trans
      (slice_drop3 (R := 4) (A := 3) (B := 32) (o := 2) (by decide) bm slices_S4x3x32_S1x3x32_2_0_0 shapeCasts_S1x3x32_S3x32 _)

end Cert.ReferenceIdeal.ROps

end
-- ==== Proof.ROps.Lay3.lean ====
/-
  Layer 3's weights and biases as the reference cuts them from the stacked arrays: a slice along the layer axis and a reshape
  that drops its unit axis, then a slice along the relation axis and a second such reshape — entry (p, q) of the result is
  Wm[3, r, p, q] (the bias: bm[3, r, p]).
-/
import proofs.«147434_j38603166057109_1_alg».proof.Proof.Spec
import proofs.«147434_j38603166057109_1_alg».proof.Proof.Gen.ReferenceIdeal
import proofs.«147434_j38603166057109_1_alg».proof.Proof.ROps.Index

noncomputable section

open scoped BigOperators

namespace Cert.ReferenceIdeal.ROps

open Idealize.ShloMosaic Idealize.ShloMosaic.ValueIdx Cert.ReferenceIdeal.Gen

/-- Layer 3, relation 0: the weights, cut by layer and then by relation. -/
theorem wLay_3_0 (Wm : Vec Ideal S4x3x32x32 .f32) :
    shapeCast S32x32 (extractStridedSlice S1x32x32 ![0, 0, 0]
        (shapeCast S3x32x32 (extractStridedSlice S1x3x32x32 ![3, 0, 0, 0] Wm slices_S4x3x32x32_S1x3x32x32_3_0_0_0) shapeCasts_S1x3x32x32_S3x32x32)
        slices_S3x32x32_S1x32x32_0_0_0) shapeCasts_S1x32x32_S32x32
      = Cert.KernelIdeal.Spec.wLay 3 0 Wm :=
  funext fun i =>
    (slice_drop3 (R := 3) (A := 32) (B := 32) (o := 0) (by decide) _ slices_S3x32x32_S1x32x32_0_0_0 shapeCasts_S1x32x32_S32x32 i).trans
      (slice_drop4 (R := 4) (A := 3) (B := 32) (C := 32) (o := 3) (by decide) Wm slices_S4x3x32x32_S1x3x32x32_3_0_0_0
        shapeCasts_S1x3x32x32_S3x32x32 _)

/-- Layer 3, relation 0: the bias, cut by layer and then by relation. -/
theorem bLay_3_0 (bm : Vec Ideal S4x3x32 .f32) :
    shapeCast S32 (extractStridedSlice S1x32 ![0, 0]
        (shapeCast S3x32 (extractStridedSlice S1x3x32 ![3, 0, 0] bm slices_S4x3x32_S1x3x32_3_0_0) shapeCasts_S1x3x32_S3x32)
        slices_S3x32_S1x32_0_0) shapeCasts_S1x32_S32
      = Cert.KernelIdeal.Spec.bLay 3 0 bm :=
  funext fun i =>
    (slice_drop2 (R := 3) (A := 32) (o := 0) (by decide) _ slices_S3x32_S1x32_0_0 shapeCasts_S1x32_S32 i).trans
      (slice_drop3 (R := 4) (A := 3) (B := 32) (o := 3) (by decide) bm slices_S4x3x32_S1x3x32_3_0_0 shapeCasts_S1x3x32_S3x32 _)

/-- Layer 3, relation 1: the weights, cut by layer and then by relation. -/
theorem wLay_3_1 (Wm : Vec Ideal S4x3x32x32 .f32) :
    shapeCast S32x32 (extractStridedSlice S1x32x32 ![1, 0, 0]
        (shapeCast S3x32x32 (extractStridedSlice S1x3x32x32 ![3, 0, 0, 0] Wm slices_S4x3x32x32_S1x3x32x32_3_0_0_0) shapeCasts_S1x3x32x32_S3x32x32)
        slices_S3x32x32_S1x32x32_1_0_0) shapeCasts_S1x32x32_S32x32
      = Cert.KernelIdeal.Spec.wLay 3 1 Wm :=
  funext fun i =>
    (slice_drop3 (R := 3) (A := 32) (B := 32) (o := 1) (by decide) _ slices_S3x32x32_S1x32x32_1_0_0 shapeCasts_S1x32x32_S32x32 i).trans
      (slice_drop4 (R := 4) (A := 3) (B := 32) (C := 32) (o := 3) (by decide) Wm slices_S4x3x32x32_S1x3x32x32_3_0_0_0
        shapeCasts_S1x3x32x32_S3x32x32 _)

/-- Layer 3, relation 1: the bias, cut by layer and then by relation. -/
theorem bLay_3_1 (bm : Vec Ideal S4x3x32 .f32) :
    shapeCast S32 (extractStridedSlice S1x32 ![1, 0]
        (shapeCast S3x32 (extractStridedSlice S1x3x32 ![3, 0, 0] bm slices_S4x3x32_S1x3x32_3_0_0) shapeCasts_S1x3x32_S3x32)
        slices_S3x32_S1x32_1_0) shapeCasts_S1x32_S32
      = Cert.KernelIdeal.Spec.bLay 3 1 bm :=
  funext fun i =>
    (slice_drop2 (R := 3) (A := 32) (o := 1) (by decide) _ slices_S3x32_S1x32_1_0 shapeCasts_S1x32_S32 i).trans
      (slice_drop3 (R := 4) (A := 3) (B := 32) (o := 3) (by decide) bm slices_S4x3x32_S1x3x32_3_0_0 shapeCasts_S1x3x32_S3x32 _)

/-- Layer 3, relation 2: the weights, cut by layer and then by relation. -/
theorem wLay_3_2 (Wm : Vec Ideal S4x3x32x32 .f32) :
    shapeCast S32x32 (extractStridedSlice S1x32x32 ![2, 0, 0]
        (shapeCast S3x32x32 (extractStridedSlice S1x3x32x32 ![3, 0, 0, 0] Wm slices_S4x3x32x32_S1x3x32x32_3_0_0_0) shapeCasts_S1x3x32x32_S3x32x32)
        slices_S3x32x32_S1x32x32_2_0_0) shapeCasts_S1x32x32_S32x32
      = Cert.KernelIdeal.Spec.wLay 3 2 Wm :=
  funext fun i =>
    (slice_drop3 (R := 3) (A := 32) (B := 32) (o := 2) (by decide) _ slices_S3x32x32_S1x32x32_2_0_0 shapeCasts_S1x32x32_S32x32 i).trans
      (slice_drop4 (R := 4) (A := 3) (B := 32) (C := 32) (o := 3) (by decide) Wm slices_S4x3x32x32_S1x3x32x32_3_0_0_0
        shapeCasts_S1x3x32x32_S3x32x32 _)

/-- Layer 3, relation 2: the bias, cut by layer and then by relation. -/
theorem bLay_3_2 (bm : Vec Ideal S4x3x32 .f32) :
    shapeCast S32 (extractStridedSlice S1x32 ![2, 0]
        (shapeCast S3x32 (extractStridedSlice S1x3x32 ![3, 0, 0] bm slices_S4x3x32_S1x3x32_3_0_0) shapeCasts_S1x3x32_S3x32)
        slices_S3x32_S1x32_2_0) shapeCasts_S1x32_S32
      = Cert.KernelIdeal.Spec.bLay 3 2 bm :=
  funext fun i =>
    (slice_drop2 (R := 3) (A := 32) (o := 2) (by decide) _ slices_S3x32_S1x32_2_0 shapeCasts_S1x32_S32 i).trans
      (slice_drop3 (R := 4) (A := 3) (B := 32) (o := 3) (by decide) bm slices_S4x3x32_S1x3x32_3_0_0 shapeCasts_S1x3x32_S3x32 _)

end Cert.ReferenceIdeal.ROps

end
-- ==== Proof.RChain.B4End.lean ====
/-
  The end of the reference's run: after residual layer 3 (boundary 15) the rectifier's three operations take the maximum of the
  layer's output with a zero array, which at the extended reals is the specification's rectifier of it.
-/
import proofs.«147434_j38603166057109_1_alg».proof.Proof.RChain.B4
import proofs.«147434_j38603166057109_1_alg».proof.Proof.ROps.Self

noncomputable section

namespace Cert.ReferenceIdeal.RChain

open Idealize.ShloMosaic Idealize.ShloMosaic.TcCoe Idealize.ShloMosaic.StableHlo Idealize.SL.Sem
open Cert.ReferenceIdeal Cert.ReferenceIdeal.Gen Cert.ReferenceIdeal.RunP

/-- The last stretch writes the maximum of what it finds in the layer's output buffer with a zero array (any float values). -/
theorem b4_relu {F : FTy → Type} [FloatOps F] (V : Valuation τ sig (Elt F)) (v : Vec F S100000x32 .f32)
    (hv : V (Proc.devRef .tc main_v488) = v) :
    after opsR15 V (Proc.devRef .tc main_v489)
      = maximumf v (broadcastInDim S100000x32 ![] bcast_S_S100000x32 (constant S_ .f32 0x00000000#32)) := by
  subst hv
  after_results_simp
  all_goals rfl

/-- Layer 3 and the rectifier: from h at boundary 12 to the rectified residual layer of h in the result buffer. -/
theorem block4 (m : (ℓ : Loc nD τ sig) → Buf (Elt Ideal) ℓ) (c : Dev nD) (H : Vec Ideal S100000x32 .f32)
    (hH : RunP.U12 (F := Ideal) m c (Proc.devRef .tc main_v394) = H) :
    RunP.U16 (F := Ideal) m c (Proc.devRef .tc main_v489)
      = Cert.KernelIdeal.Spec.relu (Cert.KernelIdeal.Spec.layR 3 H (m ((c.tc : Thread nD τ).loc main_arg1)) (m ((c.tc : Thread nD τ).loc main_arg2))
          (m ((c.tc : Thread nD τ).loc main_arg3)) (m ((c.tc : Thread nD τ).loc main_arg8)) (m ((c.tc : Thread nD τ).loc main_arg9))) :=
  (b4_relu (U15 m c) _ (block4_lay m c H hH)).trans (ROps.relu_eq _)

end Cert.ReferenceIdeal.RChain

end
-- ==== Proof.Bridge.lean ====
/-
  The two arrangements of every block are equal over the extended reals.

  A residual layer is arranged either as the three aggregates added up and then four times the block's input, or from
  zero with the input added once after each aggregate and once more. Addition of extended reals is commutative and
  associative without exception, and four times an extended real is that number added to itself four times (at an
  infinity both are that infinity), so the two agree for every input, finite or not.

  The head block is arranged either as the three aggregates and then ONE product of the features against the three
  self weight matrices summed, plus the three self biases summed, or from zero with a product and a bias per relation
  after each aggregate. Besides reordering sums, this distributes a feature entry over a sum of three weights, which
  holds inside the extended reals when the entry and the weights are real numbers; the aggregates may be infinite.
-/
import proofs.«147434_j38603166057109_1_alg».proof.Proof.Spec
import Idealize.ShloMosaic.Lib.IdealHost
import Mathlib.Data.EReal.Operations
import Mathlib.Algebra.BigOperators.Fin
import Mathlib.Tactic.Abel
import Mathlib.Tactic.Ring

noncomputable section

open scoped BigOperators

namespace Cert.KernelIdeal.Bridge

open Idealize.ShloMosaic Idealize.ShloMosaic.ValueIdx Cert.KernelIdeal Cert.KernelIdeal.Gen

/-! ## At one entry, over plain extended reals -/

/-- The single-precision word of the number four denotes the real 4. -/
theorem ofBits_four_f32 : Ideal.ofBits .f32 0x40800000#32 = ((4 : ℝ) : EReal) := by
  simp [Ideal.ofBits, Ideal.ieee, -EReal.coe_mul]; norm_num

/-- Four times an extended real is that number added to itself four times: at the two infinities both sides are that
    infinity, and at a real number it is arithmetic. -/
theorem four_mul (h : EReal) : ((4 : ℝ) : EReal) * h = h + h + h + h := by
  induction h using EReal.rec with
  | bot => rw [EReal.coe_mul_bot_of_pos (by norm_num : (0 : ℝ) < 4)]; simp
  | top => rw [EReal.coe_mul_top_of_pos (by norm_num : (0 : ℝ) < 4)]; simp
  | coe r => rw [← EReal.coe_mul, ← EReal.coe_add, ← EReal.coe_add, ← EReal.coe_add]; congr 1; ring

/-- A residual layer's two arrangements at one entry: the aggregates and then four times the input, against the input
    added once after each aggregate and once more. -/
theorem lay_alg (a0 a1 a2 h : EReal) :
    ((a0 + a1) + a2) + ((4 : ℝ) : EReal) * h = ((((((0 + a0) + h) + a1) + h) + a2) + h) + h := by
  rw [four_mul, zero_add]; abel

/-- A real number distributes over a sum of three real numbers, inside the extended reals. -/
theorem mul_add3 {x w0 w1 w2 : EReal} (hx : ∃ r : ℝ, x = (r : EReal)) (h0 : ∃ r : ℝ, w0 = (r : EReal))
    (h1 : ∃ r : ℝ, w1 = (r : EReal)) (h2 : ∃ r : ℝ, w2 = (r : EReal)) :
    x * (w0 + w1 + w2) = x * w0 + x * w1 + x * w2 := by
  obtain ⟨r, rfl⟩ := hx; obtain ⟨s0, rfl⟩ := h0; obtain ⟨s1, rfl⟩ := h1; obtain ⟨s2, rfl⟩ := h2
  simp only [← EReal.coe_mul, ← EReal.coe_add]
  congr 1; ring

/-- The head block's two arrangements at one entry: one product against the three self weights summed (from zero) plus
    the three self biases summed (from zero), against a product and a bias per relation after each aggregate. The
    aggregates are arbitrary extended reals; only the entries multiplied and the self weights are real numbers. -/
theorem head_alg {D : ℕ} (a0 a1 a2 : EReal) (x w0 w1 w2 : Fin D → EReal) (c0 c1 c2 : EReal)
    (hx : ∀ k, ∃ r : ℝ, x k = (r : EReal)) (h0 : ∀ k, ∃ r : ℝ, w0 k = (r : EReal))
    (h1 : ∀ k, ∃ r : ℝ, w1 k = (r : EReal)) (h2 : ∀ k, ∃ r : ℝ, w2 k = (r : EReal)) :
    ((a0 + a1) + a2) + 1 * ((∑ k, x k * (0 + (w0 k + w1 k + w2 k))) + (0 + (c0 + c1 + c2)))
      = ((((((((0 + a0) + ∑ k, x k * w0 k) + c0) + a1) + ∑ k, x k * w1 k) + c1) + a2) + ∑ k, x k * w2 k) + c2 := by
  have hs : (∑ k, x k * (0 + (w0 k + w1 k + w2 k))) = (∑ k, x k * w0 k) + (∑ k, x k * w1 k) + ∑ k, x k * w2 k := by
    rw [← Finset.sum_add_distrib, ← Finset.sum_add_distrib]
    refine Finset.sum_congr rfl fun k _ => ?_
    rw [zero_add, mul_add3 (hx k) (h0 k) (h1 k) (h2 k)]
  rw [hs, one_mul, zero_add, zero_add]; abel

/-! ## The blocks -/

/-- The head block: the kernel's arrangement equals the reference's when the features and the self weights are real. -/
theorem head_eq (x : Vec Ideal S100000x6 .f32) (e0 : Vec Ideal S2x1600000 .i32) (e1 : Vec Ideal S2x200000 .i32)
    (e2 : Vec Ideal S2x800000 .i32) (Wm : Vec Ideal S3x6x32 .f32) (bm : Vec Ideal S3x32 .f32)
    (Ws : Vec Ideal S3x6x32 .f32) (bs : Vec Ideal S3x32 .f32)
    (hx : ∀ i, ∃ r : ℝ, x i = (r : EReal)) (hWs : ∀ i, ∃ r : ℝ, Ws i = (r : EReal)) :
    Spec.headK x e0 e1 e2 Wm bm Ws bs = Spec.headR x e0 e1 e2 Wm bm Ws bs := by
  funext i
  unfold Spec.headK Spec.headR
  generalize Spec.A0_6 x e0 (Spec.wRel 0 Wm) (Spec.bRel 0 bm) = a0
  generalize Spec.A1_6 x e1 (Spec.wRel 1 Wm) (Spec.bRel 1 bm) = a1
  generalize Spec.A2_6 x e2 (Spec.wRel 2 Wm) (Spec.bRel 2 bm) = a2
  simp only [Spec.combK, Spec.comb, Spec.combHeadR, Spec.msg, Spec.mm, Spec.wSum, Spec.bSum, Spec.wRel, Spec.bRel,
    Ideal.ofBits_zero_f32, Ideal.ofBits_one_f32, Fin.sum_univ_three]
  exact head_alg (a0 i) (a1 i) (a2 i) (fun k => x (ix2 (i 0) k)) _ _ _ _ _ _
    (fun k => hx _) (fun k => hWs _) (fun k => hWs _) (fun k => hWs _)

/-- A residual layer: the kernel's arrangement equals the reference's, for every input. -/
theorem lay_eq (l : Fin 4) (h : Vec Ideal S100000x32 .f32) (e0 : Vec Ideal S2x1600000 .i32)
    (e1 : Vec Ideal S2x200000 .i32) (e2 : Vec Ideal S2x800000 .i32) (Wm : Vec Ideal S4x3x32x32 .f32)
    (bm : Vec Ideal S4x3x32 .f32) : Spec.layK l h e0 e1 e2 Wm bm = Spec.layR l h e0 e1 e2 Wm bm := by
  funext i
  unfold Spec.layK Spec.layR
  generalize Spec.A0_32 h e0 (Spec.wLay l 0 Wm) (Spec.bLay l 0 bm) = a0
  generalize Spec.A1_32 h e1 (Spec.wLay l 1 Wm) (Spec.bLay l 1 bm) = a1
  generalize Spec.A2_32 h e2 (Spec.wLay l 2 Wm) (Spec.bLay l 2 bm) = a2
  simp only [Spec.combK, Spec.comb, Spec.combLayR, Ideal.ofBits_zero_f32, ofBits_four_f32]
  exact lay_alg (a0 i) (a1 i) (a2 i) (h i)

end Cert.KernelIdeal.Bridge

end
-- ==== Proof.Finite.lean ====
/-
  What the precondition gives the head block: every entry of the node features and every entry of the head's self
  weights is a real number. The precondition says that "every entry has absolute value below plus infinity", taken over
  each of the seven float arguments and joined by "and", comes out true; an "and" over a whole array that is true was
  true at every entry, and an extended real whose absolute value max(x, -x) lies below plus infinity is neither
  infinity, hence a real.
-/
import proofs.«147434_j38603166057109_1_alg».proof.Defs
import Idealize.ShloMosaic.Lib.ReduceAll
import Idealize.ShloMosaic.Lib.ValueIdx
import Mathlib.Data.EReal.Basic

noncomputable section

namespace Cert.KernelIdeal.Bridge

open Idealize.ShloMosaic Idealize.SL.Sem Idealize.ShloMosaic.ValueIdx

/-- The index set of a rank-zero array has one element. -/
instance subsingleton_scalar_idx : Subsingleton Cert.Pre_finite_inputs.S_.Idx :=
  ⟨fun a b => funext fun d => d.elim0⟩

/-- The single-precision word with all exponent bits set and no fraction bit denotes plus infinity. -/
theorem ofBits_inf_f32 : Ideal.ofBits .f32 0x7F800000#32 = (⊤ : EReal) := by
  simp [Ideal.ofBits, Ideal.ieee]

/-- An extended real whose absolute value, max(x, -x), compares below plus infinity is a real number: at either
    infinity the absolute value is plus infinity, which is not below itself. -/
theorem real_of_abs_lt_inf (x : EReal)
    (h : Ideal.cmp .olt (max x (-x)) (Ideal.ofBits .f32 0x7F800000#32) = 1#1) : ∃ r : ℝ, x = (r : EReal) := by
  rw [ofBits_inf_f32] at h
  induction x using EReal.rec with
  | bot => simp [Ideal.cmp] at h
  | top => simp [Ideal.cmp] at h
  | coe r => exact ⟨r, rfl⟩

/-- "All entries have absolute value below plus infinity", as the precondition spells it (a reduction by "and" over
    every axis of the entrywise comparison against the broadcast infinity word), gives a real number at every entry. -/
theorem all_real {s : Shape} {axes : List (Fin s.rank)} (x : FVec Ideal s .f32)
    (bc : Cert.Pre_finite_inputs.S_.BroadcastsInDim s (![] : Fin 0 → Fin s.rank))
    (red : s.ReducesTo axes Cert.Pre_finite_inputs.S_) (hS : 0 < Cert.Pre_finite_inputs.S_.numel)
    (init : IVec Cert.Pre_finite_inputs.S_ 1) (j : Cert.Pre_finite_inputs.S_.Idx)
    (e : Host.reduce IntOp.andi
          (cmpf .olt (Host.absf x) (broadcastInDim s ![] bc (constant Cert.Pre_finite_inputs.S_ .f32 0x7F800000#32)))
          init red hS j = 1#1) (i : s.Idx) : ∃ r : ℝ, x i = (r : EReal) :=
  real_of_abs_lt_inf (x i) (Host.reduce_andi_all _ init red hS j e i)

/-- An entrywise "and" of two one-bit arrays is one at an index exactly when both are. -/
theorem andi_at {s : Shape} (x y : IVec s 1) (j : s.Idx) : andi x y j = 1#1 ↔ x j = 1#1 ∧ y j = 1#1 :=
  IntOp.andi_eq_one

/-- Under the precondition the node features (argument 0) and the head's self weights (argument 6) hold real numbers. -/
theorem finite_of_pre [Cert.Pre_finite_inputs.Facts]
    (m : (ℓ : Loc Cert.KernelIdeal.nD Cert.KernelIdeal.τ Cert.KernelIdeal.sig) → Buf (Elt Ideal) ℓ)
    (hpre : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg6) i = (r : EReal)) := by
  have h := congrFun (hpre c) ix0
  dsimp only [Cert.Pre_finite_inputs.fn, Cert.Pre_finite_inputs.fn_part1] at h
  -- the seven conjuncts, outermost first: argument 9, 8, 7, then 6 (the self weights), 5, 4 and 0 (the features)
  obtain ⟨h, -⟩ := (andi_at _ _ _).1 h
  obtain ⟨h, -⟩ := (andi_at _ _ _).1 h
  obtain ⟨h, -⟩ := (andi_at _ _ _).1 h
  obtain ⟨h, h6⟩ := (andi_at _ _ _).1 h
  obtain ⟨h, -⟩ := (andi_at _ _ _).1 h
  obtain ⟨h0, -⟩ := (andi_at _ _ _).1 h
  exact ⟨all_real _ _ _ _ _ _ h0, all_real _ _ _ _ _ _ h6⟩

end Cert.KernelIdeal.Bridge

end
-- ==== Proof.lean ====
/-
  The idealized kernel and the reference compute one function of the graph's inputs.

  Both programs are five blocks over the same three edge relations.  In every block each relation gathers the node features at
  its edges' sources, sends every gathered row through a weight matrix and a bias, and sums (relations 0 and 2: averages) the
  results at the edges' destinations; those aggregates are the same terms on both sides (Spec.A0_6 … Spec.A2_32), because a
  matmul of zero-padded rows into a zero accumulator, sliced back, is the host's dot product row by row, and a change of float
  format is the identity over the extended reals.  What differs is how a block adds its pieces up.  In the head block the
  kernel multiplies the input once by the SUM of the three self weights where the reference adds three products: equal because
  a finite number distributes over a sum of finite numbers (the precondition makes the input and the self weights finite;
  addition of extended reals is commutative and associative without any condition).  In a residual layer the kernel adds four
  times the layer's input where the reference adds the input four times: equal for every extended real.  The last layer's
  clamp at zero is applied to equal arrays.

  The kernel's result is read off the buffer contents at the last boundary of its run (the generated frame's fold, the launch
  theorem called once more with the result buffer named), block by block (KChain); the reference's off the fold of its
  operations cut at the same places (RRun, RChain); Bridge joins the two arrangements.
-/
import proofs.«147434_j38603166057109_1_alg».proof.Defs
import proofs.«147434_j38603166057109_1_alg».proof.Proof.Gen.Kernel
import proofs.«147434_j38603166057109_1_alg».proof.Proof.Gen.Kernel.Frame
import proofs.«147434_j38603166057109_1_alg».proof.Proof.Gen.KernelIdeal
import proofs.«147434_j38603166057109_1_alg».proof.Proof.Gen.KernelIdeal.Frame
import proofs.«147434_j38603166057109_1_alg».proof.Proof.Gen.ReferenceIdeal
import proofs.«147434_j38603166057109_1_alg».proof.Proof.Gen.Pre_finite_inputs
import proofs.«147434_j38603166057109_1_alg».proof.Proof.KRun
import proofs.«147434_j38603166057109_1_alg».proof.Proof.RRun
import proofs.«147434_j38603166057109_1_alg».proof.Proof.KChain.B0
import proofs.«147434_j38603166057109_1_alg».proof.Proof.KChain.B1
import proofs.«147434_j38603166057109_1_alg».proof.Proof.KChain.B2
import proofs.«147434_j38603166057109_1_alg».proof.Proof.KChain.B3
import proofs.«147434_j38603166057109_1_alg».proof.Proof.KChain.B4
import proofs.«147434_j38603166057109_1_alg».proof.Proof.RChain.B0
import proofs.«147434_j38603166057109_1_alg».proof.Proof.RChain.B1
import proofs.«147434_j38603166057109_1_alg».proof.Proof.RChain.B2
import proofs.«147434_j38603166057109_1_alg».proof.Proof.RChain.B3
import proofs.«147434_j38603166057109_1_alg».proof.Proof.RChain.B4End
import proofs.«147434_j38603166057109_1_alg».proof.Proof.Bridge
import proofs.«147434_j38603166057109_1_alg».proof.Proof.Finite
import Idealize.ShloMosaic.Adequacy
import Idealize.ShloMosaic.Init

noncomputable section

namespace Cert.Proof

open Idealize.ShloMosaic Idealize.SL.Sem

/-- From memories that agree on the ten inputs, the last boundary of the kernel's run and the last boundary of the
    reference's hold the same array: block by block each side is its arrangement of the same aggregates, and the
    arrangements agree (the head's by finiteness of the input and the self weights). -/
theorem results_agree (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ)
    (hpre : Cert.Pre_KernelIdeal m) (c : Dev Cert.KernelIdeal.nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    Cert.ReferenceIdeal.RunP.U16 (F := Ideal) m' c (Proc.devRef .tc Cert.ReferenceIdeal.main_v489)
      = Cert.KernelIdeal.Gen.W110 (F := Ideal) m ρ c (Proc.devRef .tc Cert.KernelIdeal.main_v445) := by
  obtain ⟨hx, hWs⟩ := Cert.KernelIdeal.Bridge.finite_of_pre m hpre c
  obtain ⟨a0, a1, a2, a3, a4, a5, a6, a7, a8, a9⟩ := hagree
  rw [Cert.KernelIdeal.KChain.block4 m ρ c _ (Cert.KernelIdeal.KChain.block3 m ρ c _ (Cert.KernelIdeal.KChain.block2 m ρ c _ (Cert.KernelIdeal.KChain.block1 m ρ c _ (Cert.KernelIdeal.KChain.block0 m ρ c)))),
    Cert.ReferenceIdeal.RChain.block4 m' c _ (Cert.ReferenceIdeal.RChain.block3 m' c _ (Cert.ReferenceIdeal.RChain.block2 m' c _ (Cert.ReferenceIdeal.RChain.block1 m' c _ (Cert.ReferenceIdeal.RChain.block0 m' c)))),
    a0, a1, a2, a3, a4, a5, a6, a7, a8, a9,
    ← Cert.KernelIdeal.Bridge.head_eq _ _ _ _ _ _ _ _ hx hWs, ← Cert.KernelIdeal.Bridge.lay_eq, ← Cert.KernelIdeal.Bridge.lay_eq, ← Cert.KernelIdeal.Bridge.lay_eq, ← Cert.KernelIdeal.Bridge.lay_eq]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  fun m ρ _ => (θ_run (Cert.ReferenceIdeal.defs (F := Ideal)) _ _).mono (fun _ h c => (h c).2) (Cert.ReferenceIdeal.RunP.run_fold (F := Ideal) m ρ),
  trivial,
  fun m ρ m' ρ' hpre hagree =>
    ⟨fun c => Cert.KernelIdeal.Gen.W110 (F := Ideal) m ρ c (Proc.devRef .tc Cert.KernelIdeal.main_v445),
     Cert.KernelIdeal.GenP.run_out (F := Ideal) m ρ,
     (θ_run (Cert.ReferenceIdeal.defs (F := Ideal)) _ _).mono (fun r h c => ⟨(h c).1.trans (results_agree m ρ m' hpre c (hagree c)), (h c).2⟩)
       (Cert.ReferenceIdeal.RunP.run_fold (F := Ideal) m' ρ')⟩⟩

end Cert.Proof

end
